-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S128x8000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1024x128 : Shape := ⟨2, ![1024, 128]⟩
abbrev S8000x8000 : Shape := ⟨2, ![8000, 8000]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S8000x8000 : S_.BroadcastsInDim S8000x8000 (![] : Fin 0 → Fin S8000x8000.rank)
  reducesTo_S8000x8000_S_d0_1 : S8000x8000.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S1024 32) (main_arg1 : FVec F S1024x128 .f32) (main_arg2 : FVec F S8000x8000 .f32) : IVec S_ 1 :=
  let main_v0 : FVec F S1024x128 .f32 := Host.absf main_arg1
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S8000x8000 .f32 := Host.absf main_arg2
  let main_cst_0 : FVec F S_ .f32 := constant S_ .f32 0x7F800000#32
  let main_v5 : FVec F S8000x8000 .f32 := broadcastInDim S8000x8000 ![] bcast_S_S8000x8000 main_cst_0
  let main_v6 : IVec S8000x8000 1 := cmpf .olt main_v4 main_v5
  let main_c_1 : IVec S_ 1 := constantI S_ 1 1#1
  let main_v7 : IVec S_ 1 := (fun x v => Host.reduce IntOp.andi x v reducesTo_S8000x8000_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg0 main_v9
  let main_c_3 : IVec S_ 32 := constantI S_ 32 8000#32
  let main_v11 : IVec S1024 32 := broadcastInDim S1024 ![] bcast_S_S1024 main_c_3
  let main_v12 : IVec S1024 1 := cmpi .slt main_arg0 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024 : Shape := ⟨1, ![1024]⟩
abbrev S1024x128 : Shape := ⟨2, ![1024, 128]⟩
abbrev S8000x8000 : Shape := ⟨2, ![8000, 8000]⟩
abbrev S1024x1 : Shape := ⟨2, ![1024, 1]⟩
abbrev S1x8000 : Shape := ⟨2, ![1, 8000]⟩
abbrev S1024x8000 : Shape := ⟨2, ![1024, 8000]⟩
abbrev S8000x1024 : Shape := ⟨2, ![8000, 1024]⟩
abbrev S1x1024 : Shape := ⟨2, ![1, 1024]⟩
abbrev S1024x1024 : Shape := ⟨2, ![1024, 1024]⟩
abbrev S128x1024 : Shape := ⟨2, ![128, 1024]⟩
abbrev S128x8000 : Shape := ⟨2, ![128, 8000]⟩
abbrev S128 : Shape := ⟨1, ![128]⟩
abbrev S1 : Shape := ⟨1, ![1]⟩
abbrev S_ : Shape := ⟨0, ![]⟩
abbrev S8000 : Shape := ⟨1, ![8000]⟩
abbrev S8x8x128 : Shape := ⟨3, ![8, 8, 128]⟩
abbrev S128x256 : Shape := ⟨2, ![128, 256]⟩
abbrev S128x128 : Shape := ⟨2, ![128, 128]⟩
abbrev S256x128 : Shape := ⟨2, ![256, 128]⟩
abbrev S1x8x128 : Shape := ⟨3, ![1, 8, 128]⟩
abbrev S8x128 : Shape := ⟨2, ![8, 128]⟩
abbrev S128x32 : Shape := ⟨2, ![128, 32]⟩
abbrev S256x32 : Shape := ⟨2, ![256, 32]⟩
abbrev S128x1x32 : Shape := ⟨3, ![128, 1, 32]⟩
abbrev S1x256x32 : Shape := ⟨3, ![1, 256, 32]⟩
abbrev S128x256x32 : Shape := ⟨3, ![128, 256, 32]⟩
abbrev S128x1 : Shape := ⟨2, ![128, 1]⟩
abbrev S1x1 : Shape := ⟨2, ![1, 1]⟩
abbrev S8x1x1 : Shape := ⟨3, ![8, 1, 1]⟩
abbrev S8 : Shape := ⟨1, ![8]⟩

abbrev nBuf : Space → Nat
  | .hbm => 27
  | .vmem => 16
  | .smem => 1
  | _ => 0

abbrev bufTy : (tb : Table) → Fin (tcTables nBuf tb) → BufTy
  | .hbm, ⟨0, _⟩ => ⟨S1024x128, .f32⟩
  | .hbm, ⟨1, _⟩ => ⟨S8000x8000, .f32⟩
  | .hbm, ⟨2, _⟩ => ⟨S1024x1, .i32⟩
  | .hbm, ⟨3, _⟩ => ⟨S1x8000, .i32⟩
  | .hbm, ⟨4, _⟩ => ⟨S1024x8000, .i32⟩
  | .hbm, ⟨5, _⟩ => ⟨S1024x8000, .i32⟩
  | .hbm, ⟨6, _⟩ => ⟨S1024x8000, .i1⟩
  | .hbm, ⟨7, _⟩ => ⟨S1024x8000, .bf16⟩
  | .hbm, ⟨8, _⟩ => ⟨S8000x1024, .bf16⟩
  | .hbm, ⟨9, _⟩ => ⟨S1024x1, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i1⟩
  | .hbm, ⟨14, _⟩ => ⟨S1024x1024, .f32⟩
  | .hbm, ⟨15, _⟩ => ⟨S1024x1024, .f32⟩
  | .hbm, ⟨16, _⟩ => ⟨S8x8x128, .f32⟩
  | .hbm, ⟨17, _⟩ => ⟨S8x8x128, .f32⟩
  | .hbm, ⟨18, _⟩ => ⟨S8x1x1, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S8x1x1, .f32⟩
  | .hbm, ⟨23, _⟩ => ⟨S8, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S8000x1024, .bf16⟩
  | .local _ .vmem, ⟨1, _⟩ => ⟨S128x1024, .f32⟩
  | .local _ .vmem, ⟨2, _⟩ => ⟨S128x1024, .f32⟩
  | .local _ .vmem, ⟨3, _⟩ => ⟨S128x8000, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x128, .f32⟩
  | .local _ .vmem, ⟨9, _⟩ => ⟨S128x128, .f32⟩
  | .local _ .vmem, ⟨10, _⟩ => ⟨S256x128, .f32⟩
  | .local _ .vmem, ⟨11, _⟩ => ⟨S256x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .smem, ⟨0, _⟩ => ⟨S1024, .i32⟩
  | _, _ => ⟨S1024x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 143 → Bool
  | ⟨i, _⟩ => dmaSemScopedAt i

abbrev sig : RefSig :=
  ofTc nBuf bufTy 0 143 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem1_0 : DmaSem sig := 1
abbrev cc0_sem1_1 : DmaSem sig := 2
abbrev cc1_sem0_0 : DmaSem sig := 131
abbrev cc1_sem0_1 : DmaSem sig := 132
abbrev cc1_sem1_0 : DmaSem sig := 133
abbrev cc1_sem1_1 : DmaSem sig := 134
abbrev cc1_sem2_0 : DmaSem sig := 135
abbrev cc1_sem2_1 : DmaSem sig := 136
abbrev cc1_sem3_0 : DmaSem sig := 137
abbrev cc1_sem3_1 : DmaSem sig := 138
abbrev cc1_sem4_0 : DmaSem sig := 139
abbrev cc1_sem4_1 : DmaSem sig := 140
abbrev cc1_sem5_0 : DmaSem sig := 141
abbrev cc1_sem5_1 : DmaSem sig := 142

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32_0 : BitVec 32 := 0#32
  let c0_i32 : BitVec 32 := 0#32
  let c1_i32 : BitVec 32 := 1#32
  let v1 : BitVec 32 := Scalar.muli c0_i32 c1_i32
  let v2 : BitVec 32 := Scalar.addi c0_i32_0 v1
  let v3 : BitVec 32 := Scalar.addi v0 v2
  let v4 : Index := Scalar.indexCast v3
  ![v4.toNat]
def k0_off2 : Fin 1 → Nat :=
  let c0_i32_0 : BitVec 32 := 0#32
  let c0_i32 : BitVec 32 := 0#32
  let c1_i32 : BitVec 32 := 1#32
  let v1 : BitVec 32 := Scalar.muli c0_i32 c1_i32
  let v2 : BitVec 32 := Scalar.addi c0_i32_0 v1
  ![v2.toNat]
def k0_off3 : Fin 2 → Nat :=
  let c0_i32_0 : BitVec 32 := 0#32
  let c0_i32 : BitVec 32 := 0#32
  let c1_i32 : BitVec 32 := 1#32
  let v1 : BitVec 32 := Scalar.muli c0_i32 c1_i32
  let v2 : BitVec 32 := Scalar.addi c0_i32_0 v1
  let c0_i32_1 : BitVec 32 := 0#32
  ![v2.toNat, 0]
def k0_off4 (v5 : BitVec 32) : Fin 2 → Nat :=
  let c0_i32_2 : BitVec 32 := 0#32
  ![v5.toNat, 0]

def k0_chk1 (v5 : BitVec 32) : Prop :=
  (∀ a, (k0_off4 v5) a + S1x8000.size a ≤ S8000x8000.size a)
instance k0_chk1.dec : ∀ (v5 : BitVec 32), Decidable (k0_chk1 v5) := fun v5 => decidable_of_iff' _ (Iff.of_eq (k0_chk1.eq_1 v5))
theorem k0_off4_inb : ∀ (v5 : BitVec 32) (k0_hw1 : k0_chk1 v5), ∀ a, (k0_off4 v5) a + S1x8000.size a ≤ S8000x8000.size a := fun v5 k0_hw1 => k0_hw1

def k0_off5 (i : grid0.Coords) : Fin 1 → Nat :=
  let arg0 : BitVec 32 := BitVec.ofNat 32 (i 0).val
  let c128_i32 : BitVec 32 := 128#32
  let v0 : BitVec 32 := Scalar.muli arg0 c128_i32
  let c0_i32_5 : BitVec 32 := 0#32
  let c1_i32_3 : BitVec 32 := 1#32
  let c1_i32_4 : BitVec 32 := 1#32
  let v12 : BitVec 32 := Scalar.muli c1_i32_3 c1_i32_4
  let v13 : BitVec 32 := Scalar.addi c0_i32_5 v12
  let v14 : BitVec 32 := Scalar.addi v0 v13
  let v15 : Index := Scalar.indexCast v14
  ![v15.toNat]
def k0_off6 : Fin 1 → Nat :=
  let c0_i32_5 : BitVec 32 := 0#32
  let c1_i32_3 : BitVec 32 := 1#32
  let c1_i32_4 : BitVec 32 := 1#32
  let v12 : BitVec 32 := Scalar.muli c1_i32_3 c1_i32_4
  let v13 : BitVec 32 := Scalar.addi c0_i32_5 v12
  ![v13.toNat]
def k0_off7 : Fin 2 → Nat :=
  let c0_i32_5 : BitVec 32 := 0#32
  let c1_i32_3 : BitVec 32 := 1#32
  let c1_i32_4 : BitVec 32 := 1#32
  let v12 : BitVec 32 := Scalar.muli c1_i32_3 c1_i32_4
  let v13 : BitVec 32 := Scalar.addi c0_i32_5 v12
  let c0_i32_6 : BitVec 32 := 0#32
  ![v13.toNat, 0]
def k0_off8 (v16 : BitVec 32) : Fin 2 → Nat :=
  let c0_i32_7 : BitVec 32 := 0#32
  ![v16.toNat, 0]

def k0_chk2 (v16 : BitVec 32) : Prop :=
  (∀ a, (k0_off8 v16) a + S1x8000.size a ≤ S8000x8000.size a)
instance k0_chk2.dec : ∀ (v16 : BitVec 32), Decidable (k0_chk2 v16) := fun v16 => decidable_of_iff' _ (Iff.of_eq (k0_chk2.eq_1 v16))
theorem k0_off8_inb : ∀ (v16 : BitVec 32) (k0_hw2 : k0_chk2 v16), ∀ a, (k0_off8 v16) a + S1x8000.size a ≤ S8000x8000.size a := fun v16 k0_hw2 => k0_hw2

def k0_off9 (i : grid0.Coords) : Fin 1 → Nat :=
  let arg0 : BitVec 32 := BitVec.ofNat 32 (i 0).val
  let c128_i32 : BitVec 32 := 128#32
  let v0 : BitVec 32 := Scalar.muli arg0 c128_i32
  let c0_i32_9 : BitVec 32 := 0#32
  let c2_i32 : BitVec 32 := 2#32
  let c1_i32_8 : BitVec 32 := 1#32
  let v23 : BitVec 32 := Scalar.muli c2_i32 c1_i32_8
  let v24 : BitVec 32 := Scalar.addi c0_i32_9 v23
  let v25 : BitVec 32 := Scalar.addi v0 v24
  let v26 : Index := Scalar.indexCast v25
  ![v26.toNat]
def k0_off10 : Fin 1 → Nat :=
  let c0_i32_9 : BitVec 32 := 0#32
  let c2_i32 : BitVec 32 := 2#32
  let c1_i32_8 : BitVec 32 := 1#32
  let v23 : BitVec 32 := Scalar.muli c2_i32 c1_i32_8
  let v24 : BitVec 32 := Scalar.addi c0_i32_9 v23
  ![v24.toNat]
def k0_off11 : Fin 2 → Nat :=
  let c0_i32_9 : BitVec 32 := 0#32
  let c2_i32 : BitVec 32 := 2#32
  let c1_i32_8 : BitVec 32 := 1#32
  let v23 : BitVec 32 := Scalar.muli c2_i32 c1_i32_8
  let v24 : BitVec 32 := Scalar.addi c0_i32_9 v23
  let c0_i32_10 : BitVec 32 := 0#32
  ![v24.toNat, 0]
def k0_off12 (v27 : BitVec 32) : Fin 2 → Nat :=
  let c0_i32_11 : BitVec 32 := 0#32
  ![v27.toNat, 0]

def k0_chk3 (v27 : BitVec 32) : Prop :=
  (∀ a, (k0_off12 v27) a + S1x8000.size a ≤ S8000x8000.size a)
instance k0_chk3.dec : ∀ (v27 : BitVec 32), Decidable (k0_chk3 v27) := fun v27 => decidable_of_iff' _ (Iff.of_eq (k0_chk3.eq_1 v27))
theorem k0_off12_inb : ∀ (v27 : BitVec 32) (k0_hw3 : k0_chk3 v27), ∀ a, (k0_off12 v27) a + S1x8000.size a ≤ S8000x8000.size a := fun v27 k0_hw3 => k0_hw3

def k0_off13 (i : grid0.Coords) : Fin 1 → Nat :=
  let arg0 : BitVec 32 := BitVec.ofNat 32 (i 0).val
  let c128_i32 : BitVec 32 := 128#32
  let v0 : BitVec 32 := Scalar.muli arg0 c128_i32
  let c0_i32_13 : BitVec 32 := 0#32
  let c3_i32 : BitVec 32 := 3#32
  let c1_i32_12 : BitVec 32 := 1#32
  let v34 : BitVec 32 := Scalar.muli c3_i32 c1_i32_12
  let v35 : BitVec 32 := Scalar.addi c0_i32_13 v34
  let v36 : BitVec 32 := Scalar.addi v0 v35
  let v37 : Index := Scalar.indexCast v36
  ![v37.toNat]
def k0_off14 : Fin 1 → Nat :=
  let c0_i32_13 : BitVec 32 := 0#32
  let c3_i32 : BitVec 32 := 3#32
  let c1_i32_12 : BitVec 32 := 1#32
  let v34 : BitVec 32 := Scalar.muli c3_i32 c1_i32_12
  let v35 : BitVec 32 := Scalar.addi c0_i32_13 v34
  ![v35.toNat]
def k0_off15 : Fin 2 → Nat :=
  let c0_i32_13 : BitVec 32 := 0#32
  let c3_i32 : BitVec 32 := 3#32
  let c1_i32_12 : BitVec 32 := 1#32
  let v34 : BitVec 32 := Scalar.muli c3_i32 c1_i32_12
  let v35 : BitVec 32 := Scalar.addi c0_i32_13 v34
  let c0_i32_14 : BitVec 32 := 0#32
  ![v35.toNat, 0]
def k0_off16 (v38 : BitVec 32) : Fin 2 → Nat :=
  let c0_i32_15 : BitVec 32 := 0#32
  ![v38.toNat, 0]

def k0_chk4 (v38 : BitVec 32) : Prop :=
  (∀ a, (k0_off16 v38) a + S1x8000.size a ≤ S8000x8000.size a)
instance k0_chk4.dec : ∀ (v38 : BitVec 32), Decidable (k0_chk4 v38) := fun v38 => decidable_of_iff' _ (Iff.of_eq (k0_chk4.eq_1 v38))
theorem k0_off16_inb : ∀ (v38 : BitVec 32) (k0_hw4 : k0_chk4 v38), ∀ a, (k0_off16 v38) a + S1x8000.size a ≤ S8000x8000.size a := fun v38 k0_hw4 => k0_hw4

def k0_off17 (i : grid0.Coords) : Fin 1 → Nat :=
  let arg0 : BitVec 32 := BitVec.ofNat 32 (i 0).val
  let c128_i32 : BitVec 32 := 128#32
  let v0 : BitVec 32 := Scalar.muli arg0 c128_i32
  let c0_i32_17 : BitVec 32 := 0#32
  let c4_i32 : BitVec 32 := 4#32
  let c1_i32_16 : BitVec 32 := 1#32
  let v45 : BitVec 32 := Scalar.muli c4_i32 c1_i32_16
  let v46 : BitVec 32 := Scalar.addi c0_i32_17 v45
  let v47 : BitVec 32 := Scalar.addi v0 v46
  let v48 : Index := Scalar.indexCast v47
  ![v48.toNat]
def k0_off18 : Fin 1 → Nat :=
  let c0_i32_17 : BitVec 32 := 0#32
  let c4_i32 : BitVec 32 := 4#32
  let c1_i32_16 : BitVec 32 := 1#32
  let v45 : BitVec 32 := Scalar.muli c4_i32 c1_i32_16
  let v46 : BitVec 32 := Scalar.addi c0_i32_17 v45
  ![v46.toNat]
def k0_off19 : Fin 2 → Nat :=
  let c0_i32_17 : BitVec 32 := 0#32
  let c4_i32 : BitVec 32 := 4#32
  let c1_i32_16 : BitVec 32 := 1#32
  let v45 : BitVec 32 := Scalar.muli c4_i32 c1_i32_16
  let v46 : BitVec 32 := Scalar.addi c0_i32_17 v45
  let c0_i32_18 : BitVec 32 := 0#32
  ![v46.toNat, 0]
def k0_off20 (v49 : BitVec 32) : Fin 2 → Nat :=
  let c0_i32_19 : BitVec 32 := 0#32
  ![v49.toNat, 0]

def k0_chk5 (v49 : BitVec 32) : Prop :=
  (∀ a, (k0_off20 v49) a + S1x8000.size a ≤ S8000x8000.size a)
instance k0_chk5.dec : ∀ (v49 : BitVec 32), Decidable (k0_chk5 v49) := fun v49 => decidable_of_iff' _ (Iff.of_eq (k0_chk5.eq_1 v49))
theorem k0_off20_inb : ∀ (v49 : BitVec 32) (k0_hw5 : k0_chk5 v49), ∀ a, (k0_off20 v49) a + S1x8000.size a ≤ S8000x8000.size a := fun v49 k0_hw5 => k0_hw5

def k0_off21 (i : grid0.Coords) : Fin 1 → Nat :=
  let arg0 : BitVec 32 := BitVec.ofNat 32 (i 0).val
  let c128_i32 : BitVec 32 := 128#32
  let v0 : BitVec 32 := Scalar.muli arg0 c128_i32
  let c0_i32_21 : BitVec 32 := 0#32
  let c5_i32 : BitVec 32 := 5#32
  let c1_i32_20 : BitVec 32 := 1#32
  let v56 : BitVec 32 := Scalar.muli c5_i32 c1_i32_20
  let v57 : BitVec 32 := Scalar.addi c0_i32_21 v56
  let v58 : BitVec 32 := Scalar.addi v0 v57
  let v59 : Index := Scalar.indexCast v58
  ![v59.toNat]
def k0_off22 : Fin 1 → Nat :=
  let c0_i32_21 : BitVec 32 := 0#32
  let c5_i32 : BitVec 32 := 5#32
  let c1_i32_20 : BitVec 32 := 1#32
  let v56 : BitVec 32 := Scalar.muli c5_i32 c1_i32_20
  let v57 : BitVec 32 := Scalar.addi c0_i32_21 v56
  ![v57.toNat]
def k0_off23 : Fin 2 → Nat :=
  let c0_i32_21 : BitVec 32 := 0#32
  let c5_i32 : BitVec 32 := 5#32
  let c1_i32_20 : BitVec 32 := 1#32
  let v56 : BitVec 32 := Scalar.muli c5_i32 c1_i32_20
  let v57 : BitVec 32 := Scalar.addi c0_i32_21 v56
  let c0_i32_22 : BitVec 32 := 0#32
  ![v57.toNat, 0]
def k0_off24 (v60 : BitVec 32) : Fin 2 → Nat :=
  let c0_i32_23 : BitVec 32 := 0#32
  ![v60.toNat, 0]

def k0_chk6 (v60 : BitVec 32) : Prop :=
  (∀ a, (k0_off24 v60) a + S1x8000.size a ≤ S8000x8000.size a)
instance k0_chk6.dec : ∀ (v60 : BitVec 32), Decidable (k0_chk6 v60) := fun v60 => decidable_of_iff' _ (Iff.of_eq (k0_chk6.eq_1 v60))
theorem k0_off24_inb : ∀ (v60 : BitVec 32) (k0_hw6 : k0_chk6 v60), ∀ a, (k0_off24 v60) a + S1x8000.size a ≤ S8000x8000.size a := fun v60 k0_hw6 => k0_hw6

def k0_off25 (i : grid0.Coords) : Fin 1 → Nat :=
  let arg0 : BitVec 32 := BitVec.ofNat 32 (i 0).val
  let c128_i32 : BitVec 32 := 128#32
  let v0 : BitVec 32 := Scalar.muli arg0 c128_i32
  let c0_i32_25 : BitVec 32 := 0#32
  let c6_i32 : BitVec 32 := 6#32
  let c1_i32_24 : BitVec 32 := 1#32
  let v67 : BitVec 32 := Scalar.muli c6_i32 c1_i32_24
  let v68 : BitVec 32 := Scalar.addi c0_i32_25 v67
  let v69 : BitVec 32 := Scalar.addi v0 v68
  let v70 : Index := Scalar.indexCast v69
  ![v70.toNat]
def k0_off26 : Fin 1 → Nat :=
  let c0_i32_25 : BitVec 32 := 0#32
  let c6_i32 : BitVec 32 := 6#32
  let c1_i32_24 : BitVec 32 := 1#32
  let v67 : BitVec 32 := Scalar.muli c6_i32 c1_i32_24
  let v68 : BitVec 32 := Scalar.addi c0_i32_25 v67
  ![v68.toNat]
def k0_off27 : Fin 2 → Nat :=
  let c0_i32_25 : BitVec 32 := 0#32
  let c6_i32 : BitVec 32 := 6#32
  let c1_i32_24 : BitVec 32 := 1#32
  let v67 : BitVec 32 := Scalar.muli c6_i32 c1_i32_24
  let v68 : BitVec 32 := Scalar.addi c0_i32_25 v67
  let c0_i32_26 : BitVec 32 := 0#32
  ![v68.toNat, 0]
def k0_off28 (v71 : BitVec 32) : Fin 2 → Nat :=
  let c0_i32_27 : BitVec 32 := 0#32
  ![v71.toNat, 0]

def k0_chk7 (v71 : BitVec 32) : Prop :=
  (∀ a, (k0_off28 v71) a + S1x8000.size a ≤ S8000x8000.size a)
instance k0_chk7.dec : ∀ (v71 : BitVec 32), Decidable (k0_chk7 v71) := fun v71 => decidable_of_iff' _ (Iff.of_eq (k0_chk7.eq_1 v71))
theorem k0_off28_inb : ∀ (v71 : BitVec 32) (k0_hw7 : k0_chk7 v71), ∀ a, (k0_off28 v71) a + S1x8000.size a ≤ S8000x8000.size a := fun v71 k0_hw7 => k0_hw7

def k0_off29 (i : grid0.Coords) : Fin 1 → Nat :=
  let arg0 : BitVec 32 := BitVec.ofNat 32 (i 0).val
  let c128_i32 : BitVec 32 := 128#32
  let v0 : BitVec 32 := Scalar.muli arg0 c128_i32
  let c0_i32_29 : BitVec 32 := 0#32
  let c7_i32 : BitVec 32 := 7#32
  let c1_i32_28 : BitVec 32 := 1#32
  let v78 : BitVec 32 := Scalar.muli c7_i32 c1_i32_28
  let v79 : BitVec 32 := Scalar.addi c0_i32_29 v78
  let v80 : BitVec 32 := Scalar.addi v0 v79
  let v81 : Index := Scalar.indexCast v80
  ![v81.toNat]
def k0_off30 : Fin 1 → Nat :=
  let c0_i32_29 : BitVec 32 := 0#32
  let c7_i32 : BitVec 32 := 7#32
  let c1_i32_28 : BitVec 32 := 1#32
  let v78 : BitVec 32 := Scalar.muli c7_i32 c1_i32_28
  let v79 : BitVec 32 := Scalar.addi c0_i32_29 v78
  ![v79.toNat]
def k0_off31 : Fin 2 → Nat :=
  let c0_i32_29 : BitVec 32 := 0#32
  let c7_i32 : BitVec 32 := 7#32
  let c1_i32_28 : BitVec 32 := 1#32
  let v78 : BitVec 32 := Scalar.muli c7_i32 c1_i32_28
  let v79 : BitVec 32 := Scalar.addi c0_i32_29 v78
  let c0_i32_30 : BitVec 32 := 0#32
  ![v79.toNat, 0]
def k0_off32 (v82 : BitVec 32) : Fin 2 → Nat :=
  let c0_i32_31 : BitVec 32 := 0#32
  ![v82.toNat, 0]

def k0_chk8 (v82 : BitVec 32) : Prop :=
  (∀ a, (k0_off32 v82) a + S1x8000.size a ≤ S8000x8000.size a)
instance k0_chk8.dec : ∀ (v82 : BitVec 32), Decidable (k0_chk8 v82) := fun v82 => decidable_of_iff' _ (Iff.of_eq (k0_chk8.eq_1 v82))
theorem k0_off32_inb : ∀ (v82 : BitVec 32) (k0_hw8 : k0_chk8 v82), ∀ a, (k0_off32 v82) a + S1x8000.size a ≤ S8000x8000.size a := fun v82 k0_hw8 => k0_hw8

def k0_off33 (i : grid0.Coords) : Fin 1 → Nat :=
  let arg0 : BitVec 32 := BitVec.ofNat 32 (i 0).val
  let c128_i32 : BitVec 32 := 128#32
  let v0 : BitVec 32 := Scalar.muli arg0 c128_i32
  let c0_i32_33 : BitVec 32 := 0#32
  let c8_i32 : BitVec 32 := 8#32
  let c1_i32_32 : BitVec 32 := 1#32
  let v89 : BitVec 32 := Scalar.muli c8_i32 c1_i32_32
  let v90 : BitVec 32 := Scalar.addi c0_i32_33 v89
  let v91 : BitVec 32 := Scalar.addi v0 v90
  let v92 : Index := Scalar.indexCast v91
  ![v92.toNat]
def k0_off34 : Fin 1 → Nat :=
  let c0_i32_33 : BitVec 32 := 0#32
  let c8_i32 : BitVec 32 := 8#32
  let c1_i32_32 : BitVec 32 := 1#32
  let v89 : BitVec 32 := Scalar.muli c8_i32 c1_i32_32
  let v90 : BitVec 32 := Scalar.addi c0_i32_33 v89
  ![v90.toNat]
def k0_off35 : Fin 2 → Nat :=
  let c0_i32_33 : BitVec 32 := 0#32
  let c8_i32 : BitVec 32 := 8#32
  let c1_i32_32 : BitVec 32 := 1#32
  let v89 : BitVec 32 := Scalar.muli c8_i32 c1_i32_32
  let v90 : BitVec 32 := Scalar.addi c0_i32_33 v89
  let c0_i32_34 : BitVec 32 := 0#32
  ![v90.toNat, 0]
def k0_off36 (v93 : BitVec 32) : Fin 2 → Nat :=
  let c0_i32_35 : BitVec 32 := 0#32
  ![v93.toNat, 0]

def k0_chk9 (v93 : BitVec 32) : Prop :=
  (∀ a, (k0_off36 v93) a + S1x8000.size a ≤ S8000x8000.size a)
instance k0_chk9.dec : ∀ (v93 : BitVec 32), Decidable (k0_chk9 v93) := fun v93 => decidable_of_iff' _ (Iff.of_eq (k0_chk9.eq_1 v93))
theorem k0_off36_inb : ∀ (v93 : BitVec 32) (k0_hw9 : k0_chk9 v93), ∀ a, (k0_off36 v93) a + S1x8000.size a ≤ S8000x8000.size a := fun v93 k0_hw9 => k0_hw9

def k0_off37 (i : grid0.Coords) : Fin 1 → Nat :=
  let arg0 : BitVec 32 := BitVec.ofNat 32 (i 0).val
  let c128_i32 : BitVec 32 := 128#32
  let v0 : BitVec 32 := Scalar.muli arg0 c128_i32
  let c0_i32_37 : BitVec 32 := 0#32
  let c9_i32 : BitVec 32 := 9#32
  let c1_i32_36 : BitVec 32 := 1#32
  let v100 : BitVec 32 := Scalar.muli c9_i32 c1_i32_36
  let v101 : BitVec 32 := Scalar.addi c0_i32_37 v100
  let v102 : BitVec 32 := Scalar.addi v0 v101
  let v103 : Index := Scalar.indexCast v102
  ![v103.toNat]
def k0_off38 : Fin 1 → Nat :=
  let c0_i32_37 : BitVec 32 := 0#32
  let c9_i32 : BitVec 32 := 9#32
  let c1_i32_36 : BitVec 32 := 1#32
  let v100 : BitVec 32 := Scalar.muli c9_i32 c1_i32_36
  let v101 : BitVec 32 := Scalar.addi c0_i32_37 v100
  ![v101.toNat]
def k0_off39 : Fin 2 → Nat :=
  let c0_i32_37 : BitVec 32 := 0#32
  let c9_i32 : BitVec 32 := 9#32
  let c1_i32_36 : BitVec 32 := 1#32
  let v100 : BitVec 32 := Scalar.muli c9_i32 c1_i32_36
  let v101 : BitVec 32 := Scalar.addi c0_i32_37 v100
  let c0_i32_38 : BitVec 32 := 0#32
  ![v101.toNat, 0]
def k0_off40 (v104 : BitVec 32) : Fin 2 → Nat :=
  let c0_i32_39 : BitVec 32 := 0#32
  ![v104.toNat, 0]

def k0_chk10 (v104 : BitVec 32) : Prop :=
  (∀ a, (k0_off40 v104) a + S1x8000.size a ≤ S8000x8000.size a)
instance k0_chk10.dec : ∀ (v104 : BitVec 32), Decidable (k0_chk10 v104) := fun v104 => decidable_of_iff' _ (Iff.of_eq (k0_chk10.eq_1 v104))
theorem k0_off40_inb : ∀ (v104 : BitVec 32) (k0_hw10 : k0_chk10 v104), ∀ a, (k0_off40 v104) a + S1x8000.size a ≤ S8000x8000.size a := fun v104 k0_hw10 => k0_hw10

def k0_off41 (i : grid0.Coords) : Fin 1 → Nat :=
  let arg0 : BitVec 32 := BitVec.ofNat 32 (i 0).val
  let c128_i32 : BitVec 32 := 128#32
  let v0 : BitVec 32 := Scalar.muli arg0 c128_i32
  let c0_i32_41 : BitVec 32 := 0#32
  let c10_i32 : BitVec 32 := 10#32
  let c1_i32_40 : BitVec 32 := 1#32
  let v111 : BitVec 32 := Scalar.muli c10_i32 c1_i32_40
  let v112 : BitVec 32 := Scalar.addi c0_i32_41 v111
  let v113 : BitVec 32 := Scalar.addi v0 v112
  let v114 : Index := Scalar.indexCast v113
  ![v114.toNat]
def k0_off42 : Fin 1 → Nat :=
  let c0_i32_41 : BitVec 32 := 0#32
  let c10_i32 : BitVec 32 := 10#32
  let c1_i32_40 : BitVec 32 := 1#32
  let v111 : BitVec 32 := Scalar.muli c10_i32 c1_i32_40
  let v112 : BitVec 32 := Scalar.addi c0_i32_41 v111
  ![v112.toNat]
def k0_off43 : Fin 2 → Nat :=
  let c0_i32_41 : BitVec 32 := 0#32
  let c10_i32 : BitVec 32 := 10#32
  let c1_i32_40 : BitVec 32 := 1#32
  let v111 : BitVec 32 := Scalar.muli c10_i32 c1_i32_40
  let v112 : BitVec 32 := Scalar.addi c0_i32_41 v111
  let c0_i32_42 : BitVec 32 := 0#32
  ![v112.toNat, 0]
def k0_off44 (v115 : BitVec 32) : Fin 2 → Nat :=
  let c0_i32_43 : BitVec 32 := 0#32
  ![v115.toNat, 0]

def k0_chk11 (v115 : BitVec 32) : Prop :=
  (∀ a, (k0_off44 v115) a + S1x8000.size a ≤ S8000x8000.size a)
instance k0_chk11.dec : ∀ (v115 : BitVec 32), Decidable (k0_chk11 v115) := fun v115 => decidable_of_iff' _ (Iff.of_eq (k0_chk11.eq_1 v115))
theorem k0_off44_inb : ∀ (v115 : BitVec 32) (k0_hw11 : k0_chk11 v115), ∀ a, (k0_off44 v115) a + S1x8000.size a ≤ S8000x8000.size a := fun v115 k0_hw11 => k0_hw11

def k0_off45 (i : grid0.Coords) : Fin 1 → Nat :=
  let arg0 : BitVec 32 := BitVec.ofNat 32 (i 0).val
  let c128_i32 : BitVec 32 := 128#32
  let v0 : BitVec 32 := Scalar.muli arg0 c128_i32
  let c0_i32_45 : BitVec 32 := 0#32
  let c11_i32 : BitVec 32 := 11#32
  let c1_i32_44 : BitVec 32 := 1#32
  let v122 : BitVec 32 := Scalar.muli c11_i32 c1_i32_44
  let v123 : BitVec 32 := Scalar.addi c0_i32_45 v122
  let v124 : BitVec 32 := Scalar.addi v0 v123
  let v125 : Index := Scalar.indexCast v124
  ![v125.toNat]
def k0_off46 : Fin 1 → Nat :=
  let c0_i32_45 : BitVec 32 := 0#32
  let c11_i32 : BitVec 32 := 11#32
  let c1_i32_44 : BitVec 32 := 1#32
  let v122 : BitVec 32 := Scalar.muli c11_i32 c1_i32_44
  let v123 : BitVec 32 := Scalar.addi c0_i32_45 v122
  ![v123.toNat]
def k0_off47 : Fin 2 → Nat :=
  let c0_i32_45 : BitVec 32 := 0#32
  let c11_i32 : BitVec 32 := 11#32
  let c1_i32_44 : BitVec 32 := 1#32
  let v122 : BitVec 32 := Scalar.muli c11_i32 c1_i32_44
  let v123 : BitVec 32 := Scalar.addi c0_i32_45 v122
  let c0_i32_46 : BitVec 32 := 0#32
  ![v123.toNat, 0]
def k0_off48 (v126 : BitVec 32) : Fin 2 → Nat :=
  let c0_i32_47 : BitVec 32 := 0#32
  ![v126.toNat, 0]

def k0_chk12 (v126 : BitVec 32) : Prop :=
  (∀ a, (k0_off48 v126) a + S1x8000.size a ≤ S8000x8000.size a)
instance k0_chk12.dec : ∀ (v126 : BitVec 32), Decidable (k0_chk12 v126) := fun v126 => decidable_of_iff' _ (Iff.of_eq (k0_chk12.eq_1 v126))
theorem k0_off48_inb : ∀ (v126 : BitVec 32) (k0_hw12 : k0_chk12 v126), ∀ a, (k0_off48 v126) a + S1x8000.size a ≤ S8000x8000.size a := fun v126 k0_hw12 => k0_hw12

def k0_off49 (i : grid0.Coords) : Fin 1 → Nat :=
  let arg0 : BitVec 32 := BitVec.ofNat 32 (i 0).val
  let c128_i32 : BitVec 32 := 128#32
  let v0 : BitVec 32 := Scalar.muli arg0 c128_i32
  let c0_i32_49 : BitVec 32 := 0#32
  let c12_i32 : BitVec 32 := 12#32
  let c1_i32_48 : BitVec 32 := 1#32
  let v133 : BitVec 32 := Scalar.muli c12_i32 c1_i32_48
  let v134 : BitVec 32 := Scalar.addi c0_i32_49 v133
  let v135 : BitVec 32 := Scalar.addi v0 v134
  let v136 : Index := Scalar.indexCast v135
  ![v136.toNat]
def k0_off50 : Fin 1 → Nat :=
  let c0_i32_49 : BitVec 32 := 0#32
  let c12_i32 : BitVec 32 := 12#32
  let c1_i32_48 : BitVec 32 := 1#32
  let v133 : BitVec 32 := Scalar.muli c12_i32 c1_i32_48
  let v134 : BitVec 32 := Scalar.addi c0_i32_49 v133
  ![v134.toNat]
def k0_off51 : Fin 2 → Nat :=
  let c0_i32_49 : BitVec 32 := 0#32
  let c12_i32 : BitVec 32 := 12#32
  let c1_i32_48 : BitVec 32 := 1#32
  let v133 : BitVec 32 := Scalar.muli c12_i32 c1_i32_48
  let v134 : BitVec 32 := Scalar.addi c0_i32_49 v133
  let c0_i32_50 : BitVec 32 := 0#32
  ![v134.toNat, 0]
def k0_off52 (v137 : BitVec 32) : Fin 2 → Nat :=
  let c0_i32_51 : BitVec 32 := 0#32
  ![v137.toNat, 0]

def k0_chk13 (v137 : BitVec 32) : Prop :=
  (∀ a, (k0_off52 v137) a + S1x8000.size a ≤ S8000x8000.size a)
instance k0_chk13.dec : ∀ (v137 : BitVec 32), Decidable (k0_chk13 v137) := fun v137 => decidable_of_iff' _ (Iff.of_eq (k0_chk13.eq_1 v137))
theorem k0_off52_inb : ∀ (v137 : BitVec 32) (k0_hw13 : k0_chk13 v137), ∀ a, (k0_off52 v137) a + S1x8000.size a ≤ S8000x8000.size a := fun v137 k0_hw13 => k0_hw13

def k0_off53 (i : grid0.Coords) : Fin 1 → Nat :=
  let arg0 : BitVec 32 := BitVec.ofNat 32 (i 0).val
  let c128_i32 : BitVec 32 := 128#32
  let v0 : BitVec 32 := Scalar.muli arg0 c128_i32
  let c0_i32_53 : BitVec 32 := 0#32
  let c13_i32 : BitVec 32 := 13#32
  let c1_i32_52 : BitVec 32 := 1#32
  let v144 : BitVec 32 := Scalar.muli c13_i32 c1_i32_52
  let v145 : BitVec 32 := Scalar.addi c0_i32_53 v144
  let v146 : BitVec 32 := Scalar.addi v0 v145
  let v147 : Index := Scalar.indexCast v146
  ![v147.toNat]
def k0_off54 : Fin 1 → Nat :=
  let c0_i32_53 : BitVec 32 := 0#32
  let c13_i32 : BitVec 32 := 13#32
  let c1_i32_52 : BitVec 32 := 1#32
  let v144 : BitVec 32 := Scalar.muli c13_i32 c1_i32_52
  let v145 : BitVec 32 := Scalar.addi c0_i32_53 v144
  ![v145.toNat]
def k0_off55 : Fin 2 → Nat :=
  let c0_i32_53 : BitVec 32 := 0#32
  let c13_i32 : BitVec 32 := 13#32
  let c1_i32_52 : BitVec 32 := 1#32
  let v144 : BitVec 32 := Scalar.muli c13_i32 c1_i32_52
  let v145 : BitVec 32 := Scalar.addi c0_i32_53 v144
  let c0_i32_54 : BitVec 32 := 0#32
  ![v145.toNat, 0]
def k0_off56 (v148 : BitVec 32) : Fin 2 → Nat :=
  let c0_i32_55 : BitVec 32 := 0#32
  ![v148.toNat, 0]

def k0_chk14 (v148 : BitVec 32) : Prop :=
  (∀ a, (k0_off56 v148) a + S1x8000.size a ≤ S8000x8000.size a)
instance k0_chk14.dec : ∀ (v148 : BitVec 32), Decidable (k0_chk14 v148) := fun v148 => decidable_of_iff' _ (Iff.of_eq (k0_chk14.eq_1 v148))
theorem k0_off56_inb : ∀ (v148 : BitVec 32) (k0_hw14 : k0_chk14 v148), ∀ a, (k0_off56 v148) a + S1x8000.size a ≤ S8000x8000.size a := fun v148 k0_hw14 => k0_hw14

def k0_off57 (i : grid0.Coords) : Fin 1 → Nat :=
  let arg0 : BitVec 32 := BitVec.ofNat 32 (i 0).val
  let c128_i32 : BitVec 32 := 128#32
  let v0 : BitVec 32 := Scalar.muli arg0 c128_i32
  let c0_i32_57 : BitVec 32 := 0#32
  let c14_i32 : BitVec 32 := 14#32
  let c1_i32_56 : BitVec 32 := 1#32
  let v155 : BitVec 32 := Scalar.muli c14_i32 c1_i32_56
  let v156 : BitVec 32 := Scalar.addi c0_i32_57 v155
  let v157 : BitVec 32 := Scalar.addi v0 v156
  let v158 : Index := Scalar.indexCast v157
  ![v158.toNat]
def k0_off58 : Fin 1 → Nat :=
  let c0_i32_57 : BitVec 32 := 0#32
  let c14_i32 : BitVec 32 := 14#32
  let c1_i32_56 : BitVec 32 := 1#32
  let v155 : BitVec 32 := Scalar.muli c14_i32 c1_i32_56
  let v156 : BitVec 32 := Scalar.addi c0_i32_57 v155
  ![v156.toNat]
def k0_off59 : Fin 2 → Nat :=
  let c0_i32_57 : BitVec 32 := 0#32
  let c14_i32 : BitVec 32 := 14#32
  let c1_i32_56 : BitVec 32 := 1#32
  let v155 : BitVec 32 := Scalar.muli c14_i32 c1_i32_56
  let v156 : BitVec 32 := Scalar.addi c0_i32_57 v155
  let c0_i32_58 : BitVec 32 := 0#32
  ![v156.toNat, 0]
def k0_off60 (v159 : BitVec 32) : Fin 2 → Nat :=
  let c0_i32_59 : BitVec 32 := 0#32
  ![v159.toNat, 0]

def k0_chk15 (v159 : BitVec 32) : Prop :=
  (∀ a, (k0_off60 v159) a + S1x8000.size a ≤ S8000x8000.size a)
instance k0_chk15.dec : ∀ (v159 : BitVec 32), Decidable (k0_chk15 v159) := fun v159 => decidable_of_iff' _ (Iff.of_eq (k0_chk15.eq_1 v159))
theorem k0_off60_inb : ∀ (v159 : BitVec 32) (k0_hw15 : k0_chk15 v159), ∀ a, (k0_off60 v159) a + S1x8000.size a ≤ S8000x8000.size a := fun v159 k0_hw15 => k0_hw15

def k0_off61 (i : grid0.Coords) : Fin 1 → Nat :=
  let arg0 : BitVec 32 := BitVec.ofNat 32 (i 0).val
  let c128_i32 : BitVec 32 := 128#32
  let v0 : BitVec 32 := Scalar.muli arg0 c128_i32
  let c0_i32_61 : BitVec 32 := 0#32
  let c15_i32 : BitVec 32 := 15#32
  let c1_i32_60 : BitVec 32 := 1#32
  let v166 : BitVec 32 := Scalar.muli c15_i32 c1_i32_60
  let v167 : BitVec 32 := Scalar.addi c0_i32_61 v166
  let v168 : BitVec 32 := Scalar.addi v0 v167
  let v169 : Index := Scalar.indexCast v168
  ![v169.toNat]
def k0_off62 : Fin 1 → Nat :=
  let c0_i32_61 : BitVec 32 := 0#32
  let c15_i32 : BitVec 32 := 15#32
  let c1_i32_60 : BitVec 32 := 1#32
  let v166 : BitVec 32 := Scalar.muli c15_i32 c1_i32_60
  let v167 : BitVec 32 := Scalar.addi c0_i32_61 v166
  ![v167.toNat]
def k0_off63 : Fin 2 → Nat :=
  let c0_i32_61 : BitVec 32 := 0#32
  let c15_i32 : BitVec 32 := 15#32
  let c1_i32_60 : BitVec 32 := 1#32
  let v166 : BitVec 32 := Scalar.muli c15_i32 c1_i32_60
  let v167 : BitVec 32 := Scalar.addi c0_i32_61 v166
  let c0_i32_62 : BitVec 32 := 0#32
  ![v167.toNat, 0]
def k0_off64 (v170 : BitVec 32) : Fin 2 → Nat :=
  let c0_i32_63 : BitVec 32 := 0#32
  ![v170.toNat, 0]

def k0_chk16 (v170 : BitVec 32) : Prop :=
  (∀ a, (k0_off64 v170) a + S1x8000.size a ≤ S8000x8000.size a)
instance k0_chk16.dec : ∀ (v170 : BitVec 32), Decidable (k0_chk16 v170) := fun v170 => decidable_of_iff' _ (Iff.of_eq (k0_chk16.eq_1 v170))
theorem k0_off64_inb : ∀ (v170 : BitVec 32) (k0_hw16 : k0_chk16 v170), ∀ a, (k0_off64 v170) a + S1x8000.size a ≤ S8000x8000.size a := fun v170 k0_hw16 => k0_hw16

def k0_off65 (i : grid0.Coords) : Fin 1 → Nat :=
  let arg0 : BitVec 32 := BitVec.ofNat 32 (i 0).val
  let c128_i32 : BitVec 32 := 128#32
  let v0 : BitVec 32 := Scalar.muli arg0 c128_i32
  let c0_i32_65 : BitVec 32 := 0#32
  let c16_i32 : BitVec 32 := 16#32
  let c1_i32_64 : BitVec 32 := 1#32
  let v177 : BitVec 32 := Scalar.muli c16_i32 c1_i32_64
  let v178 : BitVec 32 := Scalar.addi c0_i32_65 v177
  let v179 : BitVec 32 := Scalar.addi v0 v178
  let v180 : Index := Scalar.indexCast v179
  ![v180.toNat]
def k0_off66 : Fin 1 → Nat :=
  let c0_i32_65 : BitVec 32 := 0#32
  let c16_i32 : BitVec 32 := 16#32
  let c1_i32_64 : BitVec 32 := 1#32
  let v177 : BitVec 32 := Scalar.muli c16_i32 c1_i32_64
  let v178 : BitVec 32 := Scalar.addi c0_i32_65 v177
  ![v178.toNat]
def k0_off67 : Fin 2 → Nat :=
  let c0_i32_65 : BitVec 32 := 0#32
  let c16_i32 : BitVec 32 := 16#32
  let c1_i32_64 : BitVec 32 := 1#32
  let v177 : BitVec 32 := Scalar.muli c16_i32 c1_i32_64
  let v178 : BitVec 32 := Scalar.addi c0_i32_65 v177
  let c0_i32_66 : BitVec 32 := 0#32
  ![v178.toNat, 0]
def k0_off68 (v181 : BitVec 32) : Fin 2 → Nat :=
  let c0_i32_67 : BitVec 32 := 0#32
  ![v181.toNat, 0]

def k0_chk17 (v181 : BitVec 32) : Prop :=
  (∀ a, (k0_off68 v181) a + S1x8000.size a ≤ S8000x8000.size a)
instance k0_chk17.dec : ∀ (v181 : BitVec 32), Decidable (k0_chk17 v181) := fun v181 => decidable_of_iff' _ (Iff.of_eq (k0_chk17.eq_1 v181))
theorem k0_off68_inb : ∀ (v181 : BitVec 32) (k0_hw17 : k0_chk17 v181), ∀ a, (k0_off68 v181) a + S1x8000.size a ≤ S8000x8000.size a := fun v181 k0_hw17 => k0_hw17

def k0_off69 (i : grid0.Coords) : Fin 1 → Nat :=
  let arg0 : BitVec 32 := BitVec.ofNat 32 (i 0).val
  let c128_i32 : BitVec 32 := 128#32
  let v0 : BitVec 32 := Scalar.muli arg0 c128_i32
  let c0_i32_69 : BitVec 32 := 0#32
  let c17_i32 : BitVec 32 := 17#32
  let c1_i32_68 : BitVec 32 := 1#32
  let v188 : BitVec 32 := Scalar.muli c17_i32 c1_i32_68
  let v189 : BitVec 32 := Scalar.addi c0_i32_69 v188
  let v190 : BitVec 32 := Scalar.addi v0 v189
  let v191 : Index := Scalar.indexCast v190
  ![v191.toNat]
def k0_off70 : Fin 1 → Nat :=
  let c0_i32_69 : BitVec 32 := 0#32
  let c17_i32 : BitVec 32 := 17#32
  let c1_i32_68 : BitVec 32 := 1#32
  let v188 : BitVec 32 := Scalar.muli c17_i32 c1_i32_68
  let v189 : BitVec 32 := Scalar.addi c0_i32_69 v188
  ![v189.toNat]
def k0_off71 : Fin 2 → Nat :=
  let c0_i32_69 : BitVec 32 := 0#32
  let c17_i32 : BitVec 32 := 17#32
  let c1_i32_68 : BitVec 32 := 1#32
  let v188 : BitVec 32 := Scalar.muli c17_i32 c1_i32_68
  let v189 : BitVec 32 := Scalar.addi c0_i32_69 v188
  let c0_i32_70 : BitVec 32 := 0#32
  ![v189.toNat, 0]
def k0_off72 (v192 : BitVec 32) : Fin 2 → Nat :=
  let c0_i32_71 : BitVec 32 := 0#32
  ![v192.toNat, 0]

def k0_chk18 (v192 : BitVec 32) : Prop :=
  (∀ a, (k0_off72 v192) a + S1x8000.size a ≤ S8000x8000.size a)
instance k0_chk18.dec : ∀ (v192 : BitVec 32), Decidable (k0_chk18 v192) := fun v192 => decidable_of_iff' _ (Iff.of_eq (k0_chk18.eq_1 v192))
theorem k0_off72_inb : ∀ (v192 : BitVec 32) (k0_hw18 : k0_chk18 v192), ∀ a, (k0_off72 v192) a + S1x8000.size a ≤ S8000x8000.size a := fun v192 k0_hw18 => k0_hw18

def k0_off73 (i : grid0.Coords) : Fin 1 → Nat :=
  let arg0 : BitVec 32 := BitVec.ofNat 32 (i 0).val
  let c128_i32 : BitVec 32 := 128#32
  let v0 : BitVec 32 := Scalar.muli arg0 c128_i32
  let c0_i32_73 : BitVec 32 := 0#32
  let c18_i32 : BitVec 32 := 18#32
  let c1_i32_72 : BitVec 32 := 1#32
  let v199 : BitVec 32 := Scalar.muli c18_i32 c1_i32_72
  let v200 : BitVec 32 := Scalar.addi c0_i32_73 v199
  let v201 : BitVec 32 := Scalar.addi v0 v200
  let v202 : Index := Scalar.indexCast v201
  ![v202.toNat]
def k0_off74 : Fin 1 → Nat :=
  let c0_i32_73 : BitVec 32 := 0#32
  let c18_i32 : BitVec 32 := 18#32
  let c1_i32_72 : BitVec 32 := 1#32
  let v199 : BitVec 32 := Scalar.muli c18_i32 c1_i32_72
  let v200 : BitVec 32 := Scalar.addi c0_i32_73 v199
  ![v200.toNat]
def k0_off75 : Fin 2 → Nat :=
  let c0_i32_73 : BitVec 32 := 0#32
  let c18_i32 : BitVec 32 := 18#32
  let c1_i32_72 : BitVec 32 := 1#32
  let v199 : BitVec 32 := Scalar.muli c18_i32 c1_i32_72
  let v200 : BitVec 32 := Scalar.addi c0_i32_73 v199
  let c0_i32_74 : BitVec 32 := 0#32
  ![v200.toNat, 0]
def k0_off76 (v203 : BitVec 32) : Fin 2 → Nat :=
  let c0_i32_75 : BitVec 32 := 0#32
  ![v203.toNat, 0]

def k0_chk19 (v203 : BitVec 32) : Prop :=
  (∀ a, (k0_off76 v203) a + S1x8000.size a ≤ S8000x8000.size a)
instance k0_chk19.dec : ∀ (v203 : BitVec 32), Decidable (k0_chk19 v203) := fun v203 => decidable_of_iff' _ (Iff.of_eq (k0_chk19.eq_1 v203))
theorem k0_off76_inb : ∀ (v203 : BitVec 32) (k0_hw19 : k0_chk19 v203), ∀ a, (k0_off76 v203) a + S1x8000.size a ≤ S8000x8000.size a := fun v203 k0_hw19 => k0_hw19

def k0_off77 (i : grid0.Coords) : Fin 1 → Nat :=
  let arg0 : BitVec 32 := BitVec.ofNat 32 (i 0).val
  let c128_i32 : BitVec 32 := 128#32
  let v0 : BitVec 32 := Scalar.muli arg0 c128_i32
  let c0_i32_77 : BitVec 32 := 0#32
  let c19_i32 : BitVec 32 := 19#32
  let c1_i32_76 : BitVec 32 := 1#32
  let v210 : BitVec 32 := Scalar.muli c19_i32 c1_i32_76
  let v211 : BitVec 32 := Scalar.addi c0_i32_77 v210
  let v212 : BitVec 32 := Scalar.addi v0 v211
  let v213 : Index := Scalar.indexCast v212
  ![v213.toNat]
def k0_off78 : Fin 1 → Nat :=
  let c0_i32_77 : BitVec 32 := 0#32
  let c19_i32 : BitVec 32 := 19#32
  let c1_i32_76 : BitVec 32 := 1#32
  let v210 : BitVec 32 := Scalar.muli c19_i32 c1_i32_76
  let v211 : BitVec 32 := Scalar.addi c0_i32_77 v210
  ![v211.toNat]
def k0_off79 : Fin 2 → Nat :=
  let c0_i32_77 : BitVec 32 := 0#32
  let c19_i32 : BitVec 32 := 19#32
  let c1_i32_76 : BitVec 32 := 1#32
  let v210 : BitVec 32 := Scalar.muli c19_i32 c1_i32_76
  let v211 : BitVec 32 := Scalar.addi c0_i32_77 v210
  let c0_i32_78 : BitVec 32 := 0#32
  ![v211.toNat, 0]
def k0_off80 (v214 : BitVec 32) : Fin 2 → Nat :=
  let c0_i32_79 : BitVec 32 := 0#32
  ![v214.toNat, 0]

def k0_chk20 (v214 : BitVec 32) : Prop :=
  (∀ a, (k0_off80 v214) a + S1x8000.size a ≤ S8000x8000.size a)
instance k0_chk20.dec : ∀ (v214 : BitVec 32), Decidable (k0_chk20 v214) := fun v214 => decidable_of_iff' _ (Iff.of_eq (k0_chk20.eq_1 v214))
theorem k0_off80_inb : ∀ (v214 : BitVec 32) (k0_hw20 : k0_chk20 v214), ∀ a, (k0_off80 v214) a + S1x8000.size a ≤ S8000x8000.size a := fun v214 k0_hw20 => k0_hw20

def k0_off81 (i : grid0.Coords) : Fin 1 → Nat :=
  let arg0 : BitVec 32 := BitVec.ofNat 32 (i 0).val
  let c128_i32 : BitVec 32 := 128#32
  let v0 : BitVec 32 := Scalar.muli arg0 c128_i32
  let c0_i32_81 : BitVec 32 := 0#32
  let c20_i32 : BitVec 32 := 20#32
  let c1_i32_80 : BitVec 32 := 1#32
  let v221 : BitVec 32 := Scalar.muli c20_i32 c1_i32_80
  let v222 : BitVec 32 := Scalar.addi c0_i32_81 v221
  let v223 : BitVec 32 := Scalar.addi v0 v222
  let v224 : Index := Scalar.indexCast v223
  ![v224.toNat]
def k0_off82 : Fin 1 → Nat :=
  let c0_i32_81 : BitVec 32 := 0#32
  let c20_i32 : BitVec 32 := 20#32
  let c1_i32_80 : BitVec 32 := 1#32
  let v221 : BitVec 32 := Scalar.muli c20_i32 c1_i32_80
  let v222 : BitVec 32 := Scalar.addi c0_i32_81 v221
  ![v222.toNat]
def k0_off83 : Fin 2 → Nat :=
  let c0_i32_81 : BitVec 32 := 0#32
  let c20_i32 : BitVec 32 := 20#32
  let c1_i32_80 : BitVec 32 := 1#32
  let v221 : BitVec 32 := Scalar.muli c20_i32 c1_i32_80
  let v222 : BitVec 32 := Scalar.addi c0_i32_81 v221
  let c0_i32_82 : BitVec 32 := 0#32
  ![v222.toNat, 0]
def k0_off84 (v225 : BitVec 32) : Fin 2 → Nat :=
  let c0_i32_83 : BitVec 32 := 0#32
  ![v225.toNat, 0]

def k0_chk21 (v225 : BitVec 32) : Prop :=
  (∀ a, (k0_off84 v225) a + S1x8000.size a ≤ S8000x8000.size a)
instance k0_chk21.dec : ∀ (v225 : BitVec 32), Decidable (k0_chk21 v225) := fun v225 => decidable_of_iff' _ (Iff.of_eq (k0_chk21.eq_1 v225))
theorem k0_off84_inb : ∀ (v225 : BitVec 32) (k0_hw21 : k0_chk21 v225), ∀ a, (k0_off84 v225) a + S1x8000.size a ≤ S8000x8000.size a := fun v225 k0_hw21 => k0_hw21

def k0_off85 (i : grid0.Coords) : Fin 1 → Nat :=
  let arg0 : BitVec 32 := BitVec.ofNat 32 (i 0).val
  let c128_i32 : BitVec 32 := 128#32
  let v0 : BitVec 32 := Scalar.muli arg0 c128_i32
  let c0_i32_85 : BitVec 32 := 0#32
  let c21_i32 : BitVec 32 := 21#32
  let c1_i32_84 : BitVec 32 := 1#32
  let v232 : BitVec 32 := Scalar.muli c21_i32 c1_i32_84
  let v233 : BitVec 32 := Scalar.addi c0_i32_85 v232
  let v234 : BitVec 32 := Scalar.addi v0 v233
  let v235 : Index := Scalar.indexCast v234
  ![v235.toNat]
def k0_off86 : Fin 1 → Nat :=
  let c0_i32_85 : BitVec 32 := 0#32
  let c21_i32 : BitVec 32 := 21#32
  let c1_i32_84 : BitVec 32 := 1#32
  let v232 : BitVec 32 := Scalar.muli c21_i32 c1_i32_84
  let v233 : BitVec 32 := Scalar.addi c0_i32_85 v232
  ![v233.toNat]
def k0_off87 : Fin 2 → Nat :=
  let c0_i32_85 : BitVec 32 := 0#32
  let c21_i32 : BitVec 32 := 21#32
  let c1_i32_84 : BitVec 32 := 1#32
  let v232 : BitVec 32 := Scalar.muli c21_i32 c1_i32_84
  let v233 : BitVec 32 := Scalar.addi c0_i32_85 v232
  let c0_i32_86 : BitVec 32 := 0#32
  ![v233.toNat, 0]
def k0_off88 (v236 : BitVec 32) : Fin 2 → Nat :=
  let c0_i32_87 : BitVec 32 := 0#32
  ![v236.toNat, 0]

def k0_chk22 (v236 : BitVec 32) : Prop :=
  (∀ a, (k0_off88 v236) a + S1x8000.size a ≤ S8000x8000.size a)
instance k0_chk22.dec : ∀ (v236 : BitVec 32), Decidable (k0_chk22 v236) := fun v236 => decidable_of_iff' _ (Iff.of_eq (k0_chk22.eq_1 v236))
theorem k0_off88_inb : ∀ (v236 : BitVec 32) (k0_hw22 : k0_chk22 v236), ∀ a, (k0_off88 v236) a + S1x8000.size a ≤ S8000x8000.size a := fun v236 k0_hw22 => k0_hw22

def k0_off89 (i : grid0.Coords) : Fin 1 → Nat :=
  let arg0 : BitVec 32 := BitVec.ofNat 32 (i 0).val
  let c128_i32 : BitVec 32 := 128#32
  let v0 : BitVec 32 := Scalar.muli arg0 c128_i32
  let c0_i32_89 : BitVec 32 := 0#32
  let c22_i32 : BitVec 32 := 22#32
  let c1_i32_88 : BitVec 32 := 1#32
  let v243 : BitVec 32 := Scalar.muli c22_i32 c1_i32_88
  let v244 : BitVec 32 := Scalar.addi c0_i32_89 v243
  let v245 : BitVec 32 := Scalar.addi v0 v244
  let v246 : Index := Scalar.indexCast v245
  ![v246.toNat]
def k0_off90 : Fin 1 → Nat :=
  let c0_i32_89 : BitVec 32 := 0#32
  let c22_i32 : BitVec 32 := 22#32
  let c1_i32_88 : BitVec 32 := 1#32
  let v243 : BitVec 32 := Scalar.muli c22_i32 c1_i32_88
  let v244 : BitVec 32 := Scalar.addi c0_i32_89 v243
  ![v244.toNat]
def k0_off91 : Fin 2 → Nat :=
  let c0_i32_89 : BitVec 32 := 0#32
  let c22_i32 : BitVec 32 := 22#32
  let c1_i32_88 : BitVec 32 := 1#32
  let v243 : BitVec 32 := Scalar.muli c22_i32 c1_i32_88
  let v244 : BitVec 32 := Scalar.addi c0_i32_89 v243
  let c0_i32_90 : BitVec 32 := 0#32
  ![v244.toNat, 0]
def k0_off92 (v247 : BitVec 32) : Fin 2 → Nat :=
  let c0_i32_91 : BitVec 32 := 0#32
  ![v247.toNat, 0]

def k0_chk23 (v247 : BitVec 32) : Prop :=
  (∀ a, (k0_off92 v247) a + S1x8000.size a ≤ S8000x8000.size a)
instance k0_chk23.dec : ∀ (v247 : BitVec 32), Decidable (k0_chk23 v247) := fun v247 => decidable_of_iff' _ (Iff.of_eq (k0_chk23.eq_1 v247))
theorem k0_off92_inb : ∀ (v247 : BitVec 32) (k0_hw23 : k0_chk23 v247), ∀ a, (k0_off92 v247) a + S1x8000.size a ≤ S8000x8000.size a := fun v247 k0_hw23 => k0_hw23

def k0_off93 (i : grid0.Coords) : Fin 1 → Nat :=
  let arg0 : BitVec 32 := BitVec.ofNat 32 (i 0).val
  let c128_i32 : BitVec 32 := 128#32
  let v0 : BitVec 32 := Scalar.muli arg0 c128_i32
  let c0_i32_93 : BitVec 32 := 0#32
  let c23_i32 : BitVec 32 := 23#32
  let c1_i32_92 : BitVec 32 := 1#32
  let v254 : BitVec 32 := Scalar.muli c23_i32 c1_i32_92
  let v255 : BitVec 32 := Scalar.addi c0_i32_93 v254
  let v256 : BitVec 32 := Scalar.addi v0 v255
  let v257 : Index := Scalar.indexCast v256
  ![v257.toNat]
def k0_off94 : Fin 1 → Nat :=
  let c0_i32_93 : BitVec 32 := 0#32
  let c23_i32 : BitVec 32 := 23#32
  let c1_i32_92 : BitVec 32 := 1#32
  let v254 : BitVec 32 := Scalar.muli c23_i32 c1_i32_92
  let v255 : BitVec 32 := Scalar.addi c0_i32_93 v254
  ![v255.toNat]
def k0_off95 : Fin 2 → Nat :=
  let c0_i32_93 : BitVec 32 := 0#32
  let c23_i32 : BitVec 32 := 23#32
  let c1_i32_92 : BitVec 32 := 1#32
  let v254 : BitVec 32 := Scalar.muli c23_i32 c1_i32_92
  let v255 : BitVec 32 := Scalar.addi c0_i32_93 v254
  let c0_i32_94 : BitVec 32 := 0#32
  ![v255.toNat, 0]
def k0_off96 (v258 : BitVec 32) : Fin 2 → Nat :=
  let c0_i32_95 : BitVec 32 := 0#32
  ![v258.toNat, 0]

def k0_chk24 (v258 : BitVec 32) : Prop :=
  (∀ a, (k0_off96 v258) a + S1x8000.size a ≤ S8000x8000.size a)
instance k0_chk24.dec : ∀ (v258 : BitVec 32), Decidable (k0_chk24 v258) := fun v258 => decidable_of_iff' _ (Iff.of_eq (k0_chk24.eq_1 v258))
theorem k0_off96_inb : ∀ (v258 : BitVec 32) (k0_hw24 : k0_chk24 v258), ∀ a, (k0_off96 v258) a + S1x8000.size a ≤ S8000x8000.size a := fun v258 k0_hw24 => k0_hw24

def k0_off97 (i : grid0.Coords) : Fin 1 → Nat :=
  let arg0 : BitVec 32 := BitVec.ofNat 32 (i 0).val
  let c128_i32 : BitVec 32 := 128#32
  let v0 : BitVec 32 := Scalar.muli arg0 c128_i32
  let c0_i32_97 : BitVec 32 := 0#32
  let c24_i32 : BitVec 32 := 24#32
  let c1_i32_96 : BitVec 32 := 1#32
  let v265 : BitVec 32 := Scalar.muli c24_i32 c1_i32_96
  let v266 : BitVec 32 := Scalar.addi c0_i32_97 v265
  let v267 : BitVec 32 := Scalar.addi v0 v266
  let v268 : Index := Scalar.indexCast v267
  ![v268.toNat]
def k0_off98 : Fin 1 → Nat :=
  let c0_i32_97 : BitVec 32 := 0#32
  let c24_i32 : BitVec 32 := 24#32
  let c1_i32_96 : BitVec 32 := 1#32
  let v265 : BitVec 32 := Scalar.muli c24_i32 c1_i32_96
  let v266 : BitVec 32 := Scalar.addi c0_i32_97 v265
  ![v266.toNat]
def k0_off99 : Fin 2 → Nat :=
  let c0_i32_97 : BitVec 32 := 0#32
  let c24_i32 : BitVec 32 := 24#32
  let c1_i32_96 : BitVec 32 := 1#32
  let v265 : BitVec 32 := Scalar.muli c24_i32 c1_i32_96
  let v266 : BitVec 32 := Scalar.addi c0_i32_97 v265
  let c0_i32_98 : BitVec 32 := 0#32
  ![v266.toNat, 0]
def k0_off100 (v269 : BitVec 32) : Fin 2 → Nat :=
  let c0_i32_99 : BitVec 32 := 0#32
  ![v269.toNat, 0]

def k0_chk25 (v269 : BitVec 32) : Prop :=
  (∀ a, (k0_off100 v269) a + S1x8000.size a ≤ S8000x8000.size a)
instance k0_chk25.dec : ∀ (v269 : BitVec 32), Decidable (k0_chk25 v269) := fun v269 => decidable_of_iff' _ (Iff.of_eq (k0_chk25.eq_1 v269))
theorem k0_off100_inb : ∀ (v269 : BitVec 32) (k0_hw25 : k0_chk25 v269), ∀ a, (k0_off100 v269) a + S1x8000.size a ≤ S8000x8000.size a := fun v269 k0_hw25 => k0_hw25

def k0_off101 (i : grid0.Coords) : Fin 1 → Nat :=
  let arg0 : BitVec 32 := BitVec.ofNat 32 (i 0).val
  let c128_i32 : BitVec 32 := 128#32
  let v0 : BitVec 32 := Scalar.muli arg0 c128_i32
  let c0_i32_101 : BitVec 32 := 0#32
  let c25_i32 : BitVec 32 := 25#32
  let c1_i32_100 : BitVec 32 := 1#32
  let v276 : BitVec 32 := Scalar.muli c25_i32 c1_i32_100
  let v277 : BitVec 32 := Scalar.addi c0_i32_101 v276
  let v278 : BitVec 32 := Scalar.addi v0 v277
  let v279 : Index := Scalar.indexCast v278
  ![v279.toNat]
def k0_off102 : Fin 1 → Nat :=
  let c0_i32_101 : BitVec 32 := 0#32
  let c25_i32 : BitVec 32 := 25#32
  let c1_i32_100 : BitVec 32 := 1#32
  let v276 : BitVec 32 := Scalar.muli c25_i32 c1_i32_100
  let v277 : BitVec 32 := Scalar.addi c0_i32_101 v276
  ![v277.toNat]
def k0_off103 : Fin 2 → Nat :=
  let c0_i32_101 : BitVec 32 := 0#32
  let c25_i32 : BitVec 32 := 25#32
  let c1_i32_100 : BitVec 32 := 1#32
  let v276 : BitVec 32 := Scalar.muli c25_i32 c1_i32_100
  let v277 : BitVec 32 := Scalar.addi c0_i32_101 v276
  let c0_i32_102 : BitVec 32 := 0#32
  ![v277.toNat, 0]
def k0_off104 (v280 : BitVec 32) : Fin 2 → Nat :=
  let c0_i32_103 : BitVec 32 := 0#32
  ![v280.toNat, 0]

def k0_chk26 (v280 : BitVec 32) : Prop :=
  (∀ a, (k0_off104 v280) a + S1x8000.size a ≤ S8000x8000.size a)
instance k0_chk26.dec : ∀ (v280 : BitVec 32), Decidable (k0_chk26 v280) := fun v280 => decidable_of_iff' _ (Iff.of_eq (k0_chk26.eq_1 v280))
theorem k0_off104_inb : ∀ (v280 : BitVec 32) (k0_hw26 : k0_chk26 v280), ∀ a, (k0_off104 v280) a + S1x8000.size a ≤ S8000x8000.size a := fun v280 k0_hw26 => k0_hw26

def k0_off105 (i : grid0.Coords) : Fin 1 → Nat :=
  let arg0 : BitVec 32 := BitVec.ofNat 32 (i 0).val
  let c128_i32 : BitVec 32 := 128#32
  let v0 : BitVec 32 := Scalar.muli arg0 c128_i32
  let c0_i32_105 : BitVec 32 := 0#32
  let c26_i32 : BitVec 32 := 26#32
  let c1_i32_104 : BitVec 32 := 1#32
  let v287 : BitVec 32 := Scalar.muli c26_i32 c1_i32_104
  let v288 : BitVec 32 := Scalar.addi c0_i32_105 v287
  let v289 : BitVec 32 := Scalar.addi v0 v288
  let v290 : Index := Scalar.indexCast v289
  ![v290.toNat]
def k0_off106 : Fin 1 → Nat :=
  let c0_i32_105 : BitVec 32 := 0#32
  let c26_i32 : BitVec 32 := 26#32
  let c1_i32_104 : BitVec 32 := 1#32
  let v287 : BitVec 32 := Scalar.muli c26_i32 c1_i32_104
  let v288 : BitVec 32 := Scalar.addi c0_i32_105 v287
  ![v288.toNat]
def k0_off107 : Fin 2 → Nat :=
  let c0_i32_105 : BitVec 32 := 0#32
  let c26_i32 : BitVec 32 := 26#32
  let c1_i32_104 : BitVec 32 := 1#32
  let v287 : BitVec 32 := Scalar.muli c26_i32 c1_i32_104
  let v288 : BitVec 32 := Scalar.addi c0_i32_105 v287
  let c0_i32_106 : BitVec 32 := 0#32
  ![v288.toNat, 0]
def k0_off108 (v291 : BitVec 32) : Fin 2 → Nat :=
  let c0_i32_107 : BitVec 32 := 0#32
  ![v291.toNat, 0]

def k0_chk27 (v291 : BitVec 32) : Prop :=
  (∀ a, (k0_off108 v291) a + S1x8000.size a ≤ S8000x8000.size a)
instance k0_chk27.dec : ∀ (v291 : BitVec 32), Decidable (k0_chk27 v291) := fun v291 => decidable_of_iff' _ (Iff.of_eq (k0_chk27.eq_1 v291))
theorem k0_off108_inb : ∀ (v291 : BitVec 32) (k0_hw27 : k0_chk27 v291), ∀ a, (k0_off108 v291) a + S1x8000.size a ≤ S8000x8000.size a := fun v291 k0_hw27 => k0_hw27

def k0_off109 (i : grid0.Coords) : Fin 1 → Nat :=
  let arg0 : BitVec 32 := BitVec.ofNat 32 (i 0).val
  let c128_i32 : BitVec 32 := 128#32
  let v0 : BitVec 32 := Scalar.muli arg0 c128_i32
  let c0_i32_109 : BitVec 32 := 0#32
  let c27_i32 : BitVec 32 := 27#32
  let c1_i32_108 : BitVec 32 := 1#32
  let v298 : BitVec 32 := Scalar.muli c27_i32 c1_i32_108
  let v299 : BitVec 32 := Scalar.addi c0_i32_109 v298
  let v300 : BitVec 32 := Scalar.addi v0 v299
  let v301 : Index := Scalar.indexCast v300
  ![v301.toNat]
def k0_off110 : Fin 1 → Nat :=
  let c0_i32_109 : BitVec 32 := 0#32
  let c27_i32 : BitVec 32 := 27#32
  let c1_i32_108 : BitVec 32 := 1#32
  let v298 : BitVec 32 := Scalar.muli c27_i32 c1_i32_108
  let v299 : BitVec 32 := Scalar.addi c0_i32_109 v298
  ![v299.toNat]
def k0_off111 : Fin 2 → Nat :=
  let c0_i32_109 : BitVec 32 := 0#32
  let c27_i32 : BitVec 32 := 27#32
  let c1_i32_108 : BitVec 32 := 1#32
  let v298 : BitVec 32 := Scalar.muli c27_i32 c1_i32_108
  let v299 : BitVec 32 := Scalar.addi c0_i32_109 v298
  let c0_i32_110 : BitVec 32 := 0#32
  ![v299.toNat, 0]
def k0_off112 (v302 : BitVec 32) : Fin 2 → Nat :=
  let c0_i32_111 : BitVec 32 := 0#32
  ![v302.toNat, 0]

def k0_chk28 (v302 : BitVec 32) : Prop :=
  (∀ a, (k0_off112 v302) a + S1x8000.size a ≤ S8000x8000.size a)
instance k0_chk28.dec : ∀ (v302 : BitVec 32), Decidable (k0_chk28 v302) := fun v302 => decidable_of_iff' _ (Iff.of_eq (k0_chk28.eq_1 v302))
theorem k0_off112_inb : ∀ (v302 : BitVec 32) (k0_hw28 : k0_chk28 v302), ∀ a, (k0_off112 v302) a + S1x8000.size a ≤ S8000x8000.size a := fun v302 k0_hw28 => k0_hw28

def k0_off113 (i : grid0.Coords) : Fin 1 → Nat :=
  let arg0 : BitVec 32 := BitVec.ofNat 32 (i 0).val
  let c128_i32 : BitVec 32 := 128#32
  let v0 : BitVec 32 := Scalar.muli arg0 c128_i32
  let c0_i32_113 : BitVec 32 := 0#32
  let c28_i32 : BitVec 32 := 28#32
  let c1_i32_112 : BitVec 32 := 1#32
  let v309 : BitVec 32 := Scalar.muli c28_i32 c1_i32_112
  let v310 : BitVec 32 := Scalar.addi c0_i32_113 v309
  let v311 : BitVec 32 := Scalar.addi v0 v310
  let v312 : Index := Scalar.indexCast v311
  ![v312.toNat]
def k0_off114 : Fin 1 → Nat :=
  let c0_i32_113 : BitVec 32 := 0#32
  let c28_i32 : BitVec 32 := 28#32
  let c1_i32_112 : BitVec 32 := 1#32
  let v309 : BitVec 32 := Scalar.muli c28_i32 c1_i32_112
  let v310 : BitVec 32 := Scalar.addi c0_i32_113 v309
  ![v310.toNat]
def k0_off115 : Fin 2 → Nat :=
  let c0_i32_113 : BitVec 32 := 0#32
  let c28_i32 : BitVec 32 := 28#32
  let c1_i32_112 : BitVec 32 := 1#32
  let v309 : BitVec 32 := Scalar.muli c28_i32 c1_i32_112
  let v310 : BitVec 32 := Scalar.addi c0_i32_113 v309
  let c0_i32_114 : BitVec 32 := 0#32
  ![v310.toNat, 0]
def k0_off116 (v313 : BitVec 32) : Fin 2 → Nat :=
  let c0_i32_115 : BitVec 32 := 0#32
  ![v313.toNat, 0]

def k0_chk29 (v313 : BitVec 32) : Prop :=
  (∀ a, (k0_off116 v313) a + S1x8000.size a ≤ S8000x8000.size a)
instance k0_chk29.dec : ∀ (v313 : BitVec 32), Decidable (k0_chk29 v313) := fun v313 => decidable_of_iff' _ (Iff.of_eq (k0_chk29.eq_1 v313))
theorem k0_off116_inb : ∀ (v313 : BitVec 32) (k0_hw29 : k0_chk29 v313), ∀ a, (k0_off116 v313) a + S1x8000.size a ≤ S8000x8000.size a := fun v313 k0_hw29 => k0_hw29

def k0_off117 (i : grid0.Coords) : Fin 1 → Nat :=
  let arg0 : BitVec 32 := BitVec.ofNat 32 (i 0).val
  let c128_i32 : BitVec 32 := 128#32
  let v0 : BitVec 32 := Scalar.muli arg0 c128_i32
  let c0_i32_117 : BitVec 32 := 0#32
  let c29_i32 : BitVec 32 := 29#32
  let c1_i32_116 : BitVec 32 := 1#32
  let v320 : BitVec 32 := Scalar.muli c29_i32 c1_i32_116
  let v321 : BitVec 32 := Scalar.addi c0_i32_117 v320
  let v322 : BitVec 32 := Scalar.addi v0 v321
  let v323 : Index := Scalar.indexCast v322
  ![v323.toNat]
def k0_off118 : Fin 1 → Nat :=
  let c0_i32_117 : BitVec 32 := 0#32
  let c29_i32 : BitVec 32 := 29#32
  let c1_i32_116 : BitVec 32 := 1#32
  let v320 : BitVec 32 := Scalar.muli c29_i32 c1_i32_116
  let v321 : BitVec 32 := Scalar.addi c0_i32_117 v320
  ![v321.toNat]
def k0_off119 : Fin 2 → Nat :=
  let c0_i32_117 : BitVec 32 := 0#32
  let c29_i32 : BitVec 32 := 29#32
  let c1_i32_116 : BitVec 32 := 1#32
  let v320 : BitVec 32 := Scalar.muli c29_i32 c1_i32_116
  let v321 : BitVec 32 := Scalar.addi c0_i32_117 v320
  let c0_i32_118 : BitVec 32 := 0#32
  ![v321.toNat, 0]
def k0_off120 (v324 : BitVec 32) : Fin 2 → Nat :=
  let c0_i32_119 : BitVec 32 := 0#32
  ![v324.toNat, 0]

def k0_chk30 (v324 : BitVec 32) : Prop :=
  (∀ a, (k0_off120 v324) a + S1x8000.size a ≤ S8000x8000.size a)
instance k0_chk30.dec : ∀ (v324 : BitVec 32), Decidable (k0_chk30 v324) := fun v324 => decidable_of_iff' _ (Iff.of_eq (k0_chk30.eq_1 v324))
theorem k0_off120_inb : ∀ (v324 : BitVec 32) (k0_hw30 : k0_chk30 v324), ∀ a, (k0_off120 v324) a + S1x8000.size a ≤ S8000x8000.size a := fun v324 k0_hw30 => k0_hw30

def k0_off121 (i : grid0.Coords) : Fin 1 → Nat :=
  let arg0 : BitVec 32 := BitVec.ofNat 32 (i 0).val
  let c128_i32 : BitVec 32 := 128#32
  let v0 : BitVec 32 := Scalar.muli arg0 c128_i32
  let c0_i32_121 : BitVec 32 := 0#32
  let c30_i32 : BitVec 32 := 30#32
  let c1_i32_120 : BitVec 32 := 1#32
  let v331 : BitVec 32 := Scalar.muli c30_i32 c1_i32_120
  let v332 : BitVec 32 := Scalar.addi c0_i32_121 v331
  let v333 : BitVec 32 := Scalar.addi v0 v332
  let v334 : Index := Scalar.indexCast v333
  ![v334.toNat]
def k0_off122 : Fin 1 → Nat :=
  let c0_i32_121 : BitVec 32 := 0#32
  let c30_i32 : BitVec 32 := 30#32
  let c1_i32_120 : BitVec 32 := 1#32
  let v331 : BitVec 32 := Scalar.muli c30_i32 c1_i32_120
  let v332 : BitVec 32 := Scalar.addi c0_i32_121 v331
  ![v332.toNat]
def k0_off123 : Fin 2 → Nat :=
  let c0_i32_121 : BitVec 32 := 0#32
  let c30_i32 : BitVec 32 := 30#32
  let c1_i32_120 : BitVec 32 := 1#32
  let v331 : BitVec 32 := Scalar.muli c30_i32 c1_i32_120
  let v332 : BitVec 32 := Scalar.addi c0_i32_121 v331
  let c0_i32_122 : BitVec 32 := 0#32
  ![v332.toNat, 0]
def k0_off124 (v335 : BitVec 32) : Fin 2 → Nat :=
  let c0_i32_123 : BitVec 32 := 0#32
  ![v335.toNat, 0]

def k0_chk31 (v335 : BitVec 32) : Prop :=
  (∀ a, (k0_off124 v335) a + S1x8000.size a ≤ S8000x8000.size a)
instance k0_chk31.dec : ∀ (v335 : BitVec 32), Decidable (k0_chk31 v335) := fun v335 => decidable_of_iff' _ (Iff.of_eq (k0_chk31.eq_1 v335))
theorem k0_off124_inb : ∀ (v335 : BitVec 32) (k0_hw31 : k0_chk31 v335), ∀ a, (k0_off124 v335) a + S1x8000.size a ≤ S8000x8000.size a := fun v335 k0_hw31 => k0_hw31

def k0_off125 (i : grid0.Coords) : Fin 1 → Nat :=
  let arg0 : BitVec 32 := BitVec.ofNat 32 (i 0).val
  let c128_i32 : BitVec 32 := 128#32
  let v0 : BitVec 32 := Scalar.muli arg0 c128_i32
  let c0_i32_125 : BitVec 32 := 0#32
  let c31_i32 : BitVec 32 := 31#32
  let c1_i32_124 : BitVec 32 := 1#32
  let v342 : BitVec 32 := Scalar.muli c31_i32 c1_i32_124
  let v343 : BitVec 32 := Scalar.addi c0_i32_125 v342
  let v344 : BitVec 32 := Scalar.addi v0 v343
  let v345 : Index := Scalar.indexCast v344
  ![v345.toNat]
def k0_off126 : Fin 1 → Nat :=
  let c0_i32_125 : BitVec 32 := 0#32
  let c31_i32 : BitVec 32 := 31#32
  let c1_i32_124 : BitVec 32 := 1#32
  let v342 : BitVec 32 := Scalar.muli c31_i32 c1_i32_124
  let v343 : BitVec 32 := Scalar.addi c0_i32_125 v342
  ![v343.toNat]
def k0_off127 : Fin 2 → Nat :=
  let c0_i32_125 : BitVec 32 := 0#32
  let c31_i32 : BitVec 32 := 31#32
  let c1_i32_124 : BitVec 32 := 1#32
  let v342 : BitVec 32 := Scalar.muli c31_i32 c1_i32_124
  let v343 : BitVec 32 := Scalar.addi c0_i32_125 v342
  let c0_i32_126 : BitVec 32 := 0#32
  ![v343.toNat, 0]
def k0_off128 (v346 : BitVec 32) : Fin 2 → Nat :=
  let c0_i32_127 : BitVec 32 := 0#32
  ![v346.toNat, 0]

def k0_chk32 (v346 : BitVec 32) : Prop :=
  (∀ a, (k0_off128 v346) a + S1x8000.size a ≤ S8000x8000.size a)
instance k0_chk32.dec : ∀ (v346 : BitVec 32), Decidable (k0_chk32 v346) := fun v346 => decidable_of_iff' _ (Iff.of_eq (k0_chk32.eq_1 v346))
theorem k0_off128_inb : ∀ (v346 : BitVec 32) (k0_hw32 : k0_chk32 v346), ∀ a, (k0_off128 v346) a + S1x8000.size a ≤ S8000x8000.size a := fun v346 k0_hw32 => k0_hw32

def k0_off129 (i : grid0.Coords) : Fin 1 → Nat :=
  let arg0 : BitVec 32 := BitVec.ofNat 32 (i 0).val
  let c128_i32 : BitVec 32 := 128#32
  let v0 : BitVec 32 := Scalar.muli arg0 c128_i32
  let c0_i32_129 : BitVec 32 := 0#32
  let c32_i32 : BitVec 32 := 32#32
  let c1_i32_128 : BitVec 32 := 1#32
  let v353 : BitVec 32 := Scalar.muli c32_i32 c1_i32_128
  let v354 : BitVec 32 := Scalar.addi c0_i32_129 v353
  let v355 : BitVec 32 := Scalar.addi v0 v354
  let v356 : Index := Scalar.indexCast v355
  ![v356.toNat]
def k0_off130 : Fin 1 → Nat :=
  let c0_i32_129 : BitVec 32 := 0#32
  let c32_i32 : BitVec 32 := 32#32
  let c1_i32_128 : BitVec 32 := 1#32
  let v353 : BitVec 32 := Scalar.muli c32_i32 c1_i32_128
  let v354 : BitVec 32 := Scalar.addi c0_i32_129 v353
  ![v354.toNat]
def k0_off131 : Fin 2 → Nat :=
  let c0_i32_129 : BitVec 32 := 0#32
  let c32_i32 : BitVec 32 := 32#32
  let c1_i32_128 : BitVec 32 := 1#32
  let v353 : BitVec 32 := Scalar.muli c32_i32 c1_i32_128
  let v354 : BitVec 32 := Scalar.addi c0_i32_129 v353
  let c0_i32_130 : BitVec 32 := 0#32
  ![v354.toNat, 0]
def k0_off132 (v357 : BitVec 32) : Fin 2 → Nat :=
  let c0_i32_131 : BitVec 32 := 0#32
  ![v357.toNat, 0]

def k0_chk33 (v357 : BitVec 32) : Prop :=
  (∀ a, (k0_off132 v357) a + S1x8000.size a ≤ S8000x8000.size a)
instance k0_chk33.dec : ∀ (v357 : BitVec 32), Decidable (k0_chk33 v357) := fun v357 => decidable_of_iff' _ (Iff.of_eq (k0_chk33.eq_1 v357))
theorem k0_off132_inb : ∀ (v357 : BitVec 32) (k0_hw33 : k0_chk33 v357), ∀ a, (k0_off132 v357) a + S1x8000.size a ≤ S8000x8000.size a := fun v357 k0_hw33 => k0_hw33

def k0_off133 (i : grid0.Coords) : Fin 1 → Nat :=
  let arg0 : BitVec 32 := BitVec.ofNat 32 (i 0).val
  let c128_i32 : BitVec 32 := 128#32
  let v0 : BitVec 32 := Scalar.muli arg0 c128_i32
  let c0_i32_133 : BitVec 32 := 0#32
  let c33_i32 : BitVec 32 := 33#32
  let c1_i32_132 : BitVec 32 := 1#32
  let v364 : BitVec 32 := Scalar.muli c33_i32 c1_i32_132
  let v365 : BitVec 32 := Scalar.addi c0_i32_133 v364
  let v366 : BitVec 32 := Scalar.addi v0 v365
  let v367 : Index := Scalar.indexCast v366
  ![v367.toNat]
def k0_off134 : Fin 1 → Nat :=
  let c0_i32_133 : BitVec 32 := 0#32
  let c33_i32 : BitVec 32 := 33#32
  let c1_i32_132 : BitVec 32 := 1#32
  let v364 : BitVec 32 := Scalar.muli c33_i32 c1_i32_132
  let v365 : BitVec 32 := Scalar.addi c0_i32_133 v364
  ![v365.toNat]
def k0_off135 : Fin 2 → Nat :=
  let c0_i32_133 : BitVec 32 := 0#32
  let c33_i32 : BitVec 32 := 33#32
  let c1_i32_132 : BitVec 32 := 1#32
  let v364 : BitVec 32 := Scalar.muli c33_i32 c1_i32_132
  let v365 : BitVec 32 := Scalar.addi c0_i32_133 v364
  let c0_i32_134 : BitVec 32 := 0#32
  ![v365.toNat, 0]
def k0_off136 (v368 : BitVec 32) : Fin 2 → Nat :=
  let c0_i32_135 : BitVec 32 := 0#32
  ![v368.toNat, 0]

def k0_chk34 (v368 : BitVec 32) : Prop :=
  (∀ a, (k0_off136 v368) a + S1x8000.size a ≤ S8000x8000.size a)
instance k0_chk34.dec : ∀ (v368 : BitVec 32), Decidable (k0_chk34 v368) := fun v368 => decidable_of_iff' _ (Iff.of_eq (k0_chk34.eq_1 v368))
theorem k0_off136_inb : ∀ (v368 : BitVec 32) (k0_hw34 : k0_chk34 v368), ∀ a, (k0_off136 v368) a + S1x8000.size a ≤ S8000x8000.size a := fun v368 k0_hw34 => k0_hw34

def k0_off137 (i : grid0.Coords) : Fin 1 → Nat :=
  let arg0 : BitVec 32 := BitVec.ofNat 32 (i 0).val
  let c128_i32 : BitVec 32 := 128#32
  let v0 : BitVec 32 := Scalar.muli arg0 c128_i32
  let c0_i32_137 : BitVec 32 := 0#32
  let c34_i32 : BitVec 32 := 34#32
  let c1_i32_136 : BitVec 32 := 1#32
  let v375 : BitVec 32 := Scalar.muli c34_i32 c1_i32_136
  let v376 : BitVec 32 := Scalar.addi c0_i32_137 v375
  let v377 : BitVec 32 := Scalar.addi v0 v376
  let v378 : Index := Scalar.indexCast v377
  ![v378.toNat]
def k0_off138 : Fin 1 → Nat :=
  let c0_i32_137 : BitVec 32 := 0#32
  let c34_i32 : BitVec 32 := 34#32
  let c1_i32_136 : BitVec 32 := 1#32
  let v375 : BitVec 32 := Scalar.muli c34_i32 c1_i32_136
  let v376 : BitVec 32 := Scalar.addi c0_i32_137 v375
  ![v376.toNat]
def k0_off139 : Fin 2 → Nat :=
  let c0_i32_137 : BitVec 32 := 0#32
  let c34_i32 : BitVec 32 := 34#32
  let c1_i32_136 : BitVec 32 := 1#32
  let v375 : BitVec 32 := Scalar.muli c34_i32 c1_i32_136
  let v376 : BitVec 32 := Scalar.addi c0_i32_137 v375
  let c0_i32_138 : BitVec 32 := 0#32
  ![v376.toNat, 0]
def k0_off140 (v379 : BitVec 32) : Fin 2 → Nat :=
  let c0_i32_139 : BitVec 32 := 0#32
  ![v379.toNat, 0]

def k0_chk35 (v379 : BitVec 32) : Prop :=
  (∀ a, (k0_off140 v379) a + S1x8000.size a ≤ S8000x8000.size a)
instance k0_chk35.dec : ∀ (v379 : BitVec 32), Decidable (k0_chk35 v379) := fun v379 => decidable_of_iff' _ (Iff.of_eq (k0_chk35.eq_1 v379))
theorem k0_off140_inb : ∀ (v379 : BitVec 32) (k0_hw35 : k0_chk35 v379), ∀ a, (k0_off140 v379) a + S1x8000.size a ≤ S8000x8000.size a := fun v379 k0_hw35 => k0_hw35

def k0_off141 (i : grid0.Coords) : Fin 1 → Nat :=
  let arg0 : BitVec 32 := BitVec.ofNat 32 (i 0).val
  let c128_i32 : BitVec 32 := 128#32
  let v0 : BitVec 32 := Scalar.muli arg0 c128_i32
  let c0_i32_141 : BitVec 32 := 0#32
  let c35_i32 : BitVec 32 := 35#32
  let c1_i32_140 : BitVec 32 := 1#32
  let v386 : BitVec 32 := Scalar.muli c35_i32 c1_i32_140
  let v387 : BitVec 32 := Scalar.addi c0_i32_141 v386
  let v388 : BitVec 32 := Scalar.addi v0 v387
  let v389 : Index := Scalar.indexCast v388
  ![v389.toNat]
def k0_off142 : Fin 1 → Nat :=
  let c0_i32_141 : BitVec 32 := 0#32
  let c35_i32 : BitVec 32 := 35#32
  let c1_i32_140 : BitVec 32 := 1#32
  let v386 : BitVec 32 := Scalar.muli c35_i32 c1_i32_140
  let v387 : BitVec 32 := Scalar.addi c0_i32_141 v386
  ![v387.toNat]
def k0_off143 : Fin 2 → Nat :=
  let c0_i32_141 : BitVec 32 := 0#32
  let c35_i32 : BitVec 32 := 35#32
  let c1_i32_140 : BitVec 32 := 1#32
  let v386 : BitVec 32 := Scalar.muli c35_i32 c1_i32_140
  let v387 : BitVec 32 := Scalar.addi c0_i32_141 v386
  let c0_i32_142 : BitVec 32 := 0#32
  ![v387.toNat, 0]
def k0_off144 (v390 : BitVec 32) : Fin 2 → Nat :=
  let c0_i32_143 : BitVec 32 := 0#32
  ![v390.toNat, 0]

def k0_chk36 (v390 : BitVec 32) : Prop :=
  (∀ a, (k0_off144 v390) a + S1x8000.size a ≤ S8000x8000.size a)
instance k0_chk36.dec : ∀ (v390 : BitVec 32), Decidable (k0_chk36 v390) := fun v390 => decidable_of_iff' _ (Iff.of_eq (k0_chk36.eq_1 v390))
theorem k0_off144_inb : ∀ (v390 : BitVec 32) (k0_hw36 : k0_chk36 v390), ∀ a, (k0_off144 v390) a + S1x8000.size a ≤ S8000x8000.size a := fun v390 k0_hw36 => k0_hw36

def k0_off145 (i : grid0.Coords) : Fin 1 → Nat :=
  let arg0 : BitVec 32 := BitVec.ofNat 32 (i 0).val
  let c128_i32 : BitVec 32 := 128#32
  let v0 : BitVec 32 := Scalar.muli arg0 c128_i32
  let c0_i32_145 : BitVec 32 := 0#32
  let c36_i32 : BitVec 32 := 36#32
  let c1_i32_144 : BitVec 32 := 1#32
  let v397 : BitVec 32 := Scalar.muli c36_i32 c1_i32_144
  let v398 : BitVec 32 := Scalar.addi c0_i32_145 v397
  let v399 : BitVec 32 := Scalar.addi v0 v398
  let v400 : Index := Scalar.indexCast v399
  ![v400.toNat]
def k0_off146 : Fin 1 → Nat :=
  let c0_i32_145 : BitVec 32 := 0#32
  let c36_i32 : BitVec 32 := 36#32
  let c1_i32_144 : BitVec 32 := 1#32
  let v397 : BitVec 32 := Scalar.muli c36_i32 c1_i32_144
  let v398 : BitVec 32 := Scalar.addi c0_i32_145 v397
  ![v398.toNat]
def k0_off147 : Fin 2 → Nat :=
  let c0_i32_145 : BitVec 32 := 0#32
  let c36_i32 : BitVec 32 := 36#32
  let c1_i32_144 : BitVec 32 := 1#32
  let v397 : BitVec 32 := Scalar.muli c36_i32 c1_i32_144
  let v398 : BitVec 32 := Scalar.addi c0_i32_145 v397
  let c0_i32_146 : BitVec 32 := 0#32
  ![v398.toNat, 0]
def k0_off148 (v401 : BitVec 32) : Fin 2 → Nat :=
  let c0_i32_147 : BitVec 32 := 0#32
  ![v401.toNat, 0]

def k0_chk37 (v401 : BitVec 32) : Prop :=
  (∀ a, (k0_off148 v401) a + S1x8000.size a ≤ S8000x8000.size a)
instance k0_chk37.dec : ∀ (v401 : BitVec 32), Decidable (k0_chk37 v401) := fun v401 => decidable_of_iff' _ (Iff.of_eq (k0_chk37.eq_1 v401))
theorem k0_off148_inb : ∀ (v401 : BitVec 32) (k0_hw37 : k0_chk37 v401), ∀ a, (k0_off148 v401) a + S1x8000.size a ≤ S8000x8000.size a := fun v401 k0_hw37 => k0_hw37

def k0_off149 (i : grid0.Coords) : Fin 1 → Nat :=
  let arg0 : BitVec 32 := BitVec.ofNat 32 (i 0).val
  let c128_i32 : BitVec 32 := 128#32
  let v0 : BitVec 32 := Scalar.muli arg0 c128_i32
  let c0_i32_149 : BitVec 32 := 0#32
  let c37_i32 : BitVec 32 := 37#32
  let c1_i32_148 : BitVec 32 := 1#32
  let v408 : BitVec 32 := Scalar.muli c37_i32 c1_i32_148
  let v409 : BitVec 32 := Scalar.addi c0_i32_149 v408
  let v410 : BitVec 32 := Scalar.addi v0 v409
  let v411 : Index := Scalar.indexCast v410
  ![v411.toNat]
def k0_off150 : Fin 1 → Nat :=
  let c0_i32_149 : BitVec 32 := 0#32
  let c37_i32 : BitVec 32 := 37#32
  let c1_i32_148 : BitVec 32 := 1#32
  let v408 : BitVec 32 := Scalar.muli c37_i32 c1_i32_148
  let v409 : BitVec 32 := Scalar.addi c0_i32_149 v408
  ![v409.toNat]
def k0_off151 : Fin 2 → Nat :=
  let c0_i32_149 : BitVec 32 := 0#32
  let c37_i32 : BitVec 32 := 37#32
  let c1_i32_148 : BitVec 32 := 1#32
  let v408 : BitVec 32 := Scalar.muli c37_i32 c1_i32_148
  let v409 : BitVec 32 := Scalar.addi c0_i32_149 v408
  let c0_i32_150 : BitVec 32 := 0#32
  ![v409.toNat, 0]
def k0_off152 (v412 : BitVec 32) : Fin 2 → Nat :=
  let c0_i32_151 : BitVec 32 := 0#32
  ![v412.toNat, 0]

def k0_chk38 (v412 : BitVec 32) : Prop :=
  (∀ a, (k0_off152 v412) a + S1x8000.size a ≤ S8000x8000.size a)
instance k0_chk38.dec : ∀ (v412 : BitVec 32), Decidable (k0_chk38 v412) := fun v412 => decidable_of_iff' _ (Iff.of_eq (k0_chk38.eq_1 v412))
theorem k0_off152_inb : ∀ (v412 : BitVec 32) (k0_hw38 : k0_chk38 v412), ∀ a, (k0_off152 v412) a + S1x8000.size a ≤ S8000x8000.size a := fun v412 k0_hw38 => k0_hw38

def k0_off153 (i : grid0.Coords) : Fin 1 → Nat :=
  let arg0 : BitVec 32 := BitVec.ofNat 32 (i 0).val
  let c128_i32 : BitVec 32 := 128#32
  let v0 : BitVec 32 := Scalar.muli arg0 c128_i32
  let c0_i32_153 : BitVec 32 := 0#32
  let c38_i32 : BitVec 32 := 38#32
  let c1_i32_152 : BitVec 32 := 1#32
  let v419 : BitVec 32 := Scalar.muli c38_i32 c1_i32_152
  let v420 : BitVec 32 := Scalar.addi c0_i32_153 v419
  let v421 : BitVec 32 := Scalar.addi v0 v420
  let v422 : Index := Scalar.indexCast v421
  ![v422.toNat]
def k0_off154 : Fin 1 → Nat :=
  let c0_i32_153 : BitVec 32 := 0#32
  let c38_i32 : BitVec 32 := 38#32
  let c1_i32_152 : BitVec 32 := 1#32
  let v419 : BitVec 32 := Scalar.muli c38_i32 c1_i32_152
  let v420 : BitVec 32 := Scalar.addi c0_i32_153 v419
  ![v420.toNat]
def k0_off155 : Fin 2 → Nat :=
  let c0_i32_153 : BitVec 32 := 0#32
  let c38_i32 : BitVec 32 := 38#32
  let c1_i32_152 : BitVec 32 := 1#32
  let v419 : BitVec 32 := Scalar.muli c38_i32 c1_i32_152
  let v420 : BitVec 32 := Scalar.addi c0_i32_153 v419
  let c0_i32_154 : BitVec 32 := 0#32
  ![v420.toNat, 0]
def k0_off156 (v423 : BitVec 32) : Fin 2 → Nat :=
  let c0_i32_155 : BitVec 32 := 0#32
  ![v423.toNat, 0]

def k0_chk39 (v423 : BitVec 32) : Prop :=
  (∀ a, (k0_off156 v423) a + S1x8000.size a ≤ S8000x8000.size a)
instance k0_chk39.dec : ∀ (v423 : BitVec 32), Decidable (k0_chk39 v423) := fun v423 => decidable_of_iff' _ (Iff.of_eq (k0_chk39.eq_1 v423))
theorem k0_off156_inb : ∀ (v423 : BitVec 32) (k0_hw39 : k0_chk39 v423), ∀ a, (k0_off156 v423) a + S1x8000.size a ≤ S8000x8000.size a := fun v423 k0_hw39 => k0_hw39

def k0_off157 (i : grid0.Coords) : Fin 1 → Nat :=
  let arg0 : BitVec 32 := BitVec.ofNat 32 (i 0).val
  let c128_i32 : BitVec 32 := 128#32
  let v0 : BitVec 32 := Scalar.muli arg0 c128_i32
  let c0_i32_157 : BitVec 32 := 0#32
  let c39_i32 : BitVec 32 := 39#32
  let c1_i32_156 : BitVec 32 := 1#32
  let v430 : BitVec 32 := Scalar.muli c39_i32 c1_i32_156
  let v431 : BitVec 32 := Scalar.addi c0_i32_157 v430
  let v432 : BitVec 32 := Scalar.addi v0 v431
  let v433 : Index := Scalar.indexCast v432
  ![v433.toNat]
def k0_off158 : Fin 1 → Nat :=
  let c0_i32_157 : BitVec 32 := 0#32
  let c39_i32 : BitVec 32 := 39#32
  let c1_i32_156 : BitVec 32 := 1#32
  let v430 : BitVec 32 := Scalar.muli c39_i32 c1_i32_156
  let v431 : BitVec 32 := Scalar.addi c0_i32_157 v430
  ![v431.toNat]
def k0_off159 : Fin 2 → Nat :=
  let c0_i32_157 : BitVec 32 := 0#32
  let c39_i32 : BitVec 32 := 39#32
  let c1_i32_156 : BitVec 32 := 1#32
  let v430 : BitVec 32 := Scalar.muli c39_i32 c1_i32_156
  let v431 : BitVec 32 := Scalar.addi c0_i32_157 v430
  let c0_i32_158 : BitVec 32 := 0#32
  ![v431.toNat, 0]
def k0_off160 (v434 : BitVec 32) : Fin 2 → Nat :=
  let c0_i32_159 : BitVec 32 := 0#32
  ![v434.toNat, 0]

def k0_chk40 (v434 : BitVec 32) : Prop :=
  (∀ a, (k0_off160 v434) a + S1x8000.size a ≤ S8000x8000.size a)
instance k0_chk40.dec : ∀ (v434 : BitVec 32), Decidable (k0_chk40 v434) := fun v434 => decidable_of_iff' _ (Iff.of_eq (k0_chk40.eq_1 v434))
theorem k0_off160_inb : ∀ (v434 : BitVec 32) (k0_hw40 : k0_chk40 v434), ∀ a, (k0_off160 v434) a + S1x8000.size a ≤ S8000x8000.size a := fun v434 k0_hw40 => k0_hw40

def k0_off161 (i : grid0.Coords) : Fin 1 → Nat :=
  let arg0 : BitVec 32 := BitVec.ofNat 32 (i 0).val
  let c128_i32 : BitVec 32 := 128#32
  let v0 : BitVec 32 := Scalar.muli arg0 c128_i32
  let c0_i32_161 : BitVec 32 := 0#32
  let c40_i32 : BitVec 32 := 40#32
  let c1_i32_160 : BitVec 32 := 1#32
  let v441 : BitVec 32 := Scalar.muli c40_i32 c1_i32_160
  let v442 : BitVec 32 := Scalar.addi c0_i32_161 v441
  let v443 : BitVec 32 := Scalar.addi v0 v442
  let v444 : Index := Scalar.indexCast v443
  ![v444.toNat]
def k0_off162 : Fin 1 → Nat :=
  let c0_i32_161 : BitVec 32 := 0#32
  let c40_i32 : BitVec 32 := 40#32
  let c1_i32_160 : BitVec 32 := 1#32
  let v441 : BitVec 32 := Scalar.muli c40_i32 c1_i32_160
  let v442 : BitVec 32 := Scalar.addi c0_i32_161 v441
  ![v442.toNat]
def k0_off163 : Fin 2 → Nat :=
  let c0_i32_161 : BitVec 32 := 0#32
  let c40_i32 : BitVec 32 := 40#32
  let c1_i32_160 : BitVec 32 := 1#32
  let v441 : BitVec 32 := Scalar.muli c40_i32 c1_i32_160
  let v442 : BitVec 32 := Scalar.addi c0_i32_161 v441
  let c0_i32_162 : BitVec 32 := 0#32
  ![v442.toNat, 0]
def k0_off164 (v445 : BitVec 32) : Fin 2 → Nat :=
  let c0_i32_163 : BitVec 32 := 0#32
  ![v445.toNat, 0]

def k0_chk41 (v445 : BitVec 32) : Prop :=
  (∀ a, (k0_off164 v445) a + S1x8000.size a ≤ S8000x8000.size a)
instance k0_chk41.dec : ∀ (v445 : BitVec 32), Decidable (k0_chk41 v445) := fun v445 => decidable_of_iff' _ (Iff.of_eq (k0_chk41.eq_1 v445))
theorem k0_off164_inb : ∀ (v445 : BitVec 32) (k0_hw41 : k0_chk41 v445), ∀ a, (k0_off164 v445) a + S1x8000.size a ≤ S8000x8000.size a := fun v445 k0_hw41 => k0_hw41

def k0_off165 (i : grid0.Coords) : Fin 1 → Nat :=
  let arg0 : BitVec 32 := BitVec.ofNat 32 (i 0).val
  let c128_i32 : BitVec 32 := 128#32
  let v0 : BitVec 32 := Scalar.muli arg0 c128_i32
  let c0_i32_165 : BitVec 32 := 0#32
  let c41_i32 : BitVec 32 := 41#32
  let c1_i32_164 : BitVec 32 := 1#32
  let v452 : BitVec 32 := Scalar.muli c41_i32 c1_i32_164
  let v453 : BitVec 32 := Scalar.addi c0_i32_165 v452
  let v454 : BitVec 32 := Scalar.addi v0 v453
  let v455 : Index := Scalar.indexCast v454
  ![v455.toNat]
def k0_off166 : Fin 1 → Nat :=
  let c0_i32_165 : BitVec 32 := 0#32
  let c41_i32 : BitVec 32 := 41#32
  let c1_i32_164 : BitVec 32 := 1#32
  let v452 : BitVec 32 := Scalar.muli c41_i32 c1_i32_164
  let v453 : BitVec 32 := Scalar.addi c0_i32_165 v452
  ![v453.toNat]
def k0_off167 : Fin 2 → Nat :=
  let c0_i32_165 : BitVec 32 := 0#32
  let c41_i32 : BitVec 32 := 41#32
  let c1_i32_164 : BitVec 32 := 1#32
  let v452 : BitVec 32 := Scalar.muli c41_i32 c1_i32_164
  let v453 : BitVec 32 := Scalar.addi c0_i32_165 v452
  let c0_i32_166 : BitVec 32 := 0#32
  ![v453.toNat, 0]
def k0_off168 (v456 : BitVec 32) : Fin 2 → Nat :=
  let c0_i32_167 : BitVec 32 := 0#32
  ![v456.toNat, 0]

def k0_chk42 (v456 : BitVec 32) : Prop :=
  (∀ a, (k0_off168 v456) a + S1x8000.size a ≤ S8000x8000.size a)
instance k0_chk42.dec : ∀ (v456 : BitVec 32), Decidable (k0_chk42 v456) := fun v456 => decidable_of_iff' _ (Iff.of_eq (k0_chk42.eq_1 v456))
theorem k0_off168_inb : ∀ (v456 : BitVec 32) (k0_hw42 : k0_chk42 v456), ∀ a, (k0_off168 v456) a + S1x8000.size a ≤ S8000x8000.size a := fun v456 k0_hw42 => k0_hw42

def k0_off169 (i : grid0.Coords) : Fin 1 → Nat :=
  let arg0 : BitVec 32 := BitVec.ofNat 32 (i 0).val
  let c128_i32 : BitVec 32 := 128#32
  let v0 : BitVec 32 := Scalar.muli arg0 c128_i32
  let c0_i32_169 : BitVec 32 := 0#32
  let c42_i32 : BitVec 32 := 42#32
  let c1_i32_168 : BitVec 32 := 1#32
  let v463 : BitVec 32 := Scalar.muli c42_i32 c1_i32_168
  let v464 : BitVec 32 := Scalar.addi c0_i32_169 v463
  let v465 : BitVec 32 := Scalar.addi v0 v464
  let v466 : Index := Scalar.indexCast v465
  ![v466.toNat]
def k0_off170 : Fin 1 → Nat :=
  let c0_i32_169 : BitVec 32 := 0#32
  let c42_i32 : BitVec 32 := 42#32
  let c1_i32_168 : BitVec 32 := 1#32
  let v463 : BitVec 32 := Scalar.muli c42_i32 c1_i32_168
  let v464 : BitVec 32 := Scalar.addi c0_i32_169 v463
  ![v464.toNat]
def k0_off171 : Fin 2 → Nat :=
  let c0_i32_169 : BitVec 32 := 0#32
  let c42_i32 : BitVec 32 := 42#32
  let c1_i32_168 : BitVec 32 := 1#32
  let v463 : BitVec 32 := Scalar.muli c42_i32 c1_i32_168
  let v464 : BitVec 32 := Scalar.addi c0_i32_169 v463
  let c0_i32_170 : BitVec 32 := 0#32
  ![v464.toNat, 0]
def k0_off172 (v467 : BitVec 32) : Fin 2 → Nat :=
  let c0_i32_171 : BitVec 32 := 0#32
  ![v467.toNat, 0]

def k0_chk43 (v467 : BitVec 32) : Prop :=
  (∀ a, (k0_off172 v467) a + S1x8000.size a ≤ S8000x8000.size a)
instance k0_chk43.dec : ∀ (v467 : BitVec 32), Decidable (k0_chk43 v467) := fun v467 => decidable_of_iff' _ (Iff.of_eq (k0_chk43.eq_1 v467))
theorem k0_off172_inb : ∀ (v467 : BitVec 32) (k0_hw43 : k0_chk43 v467), ∀ a, (k0_off172 v467) a + S1x8000.size a ≤ S8000x8000.size a := fun v467 k0_hw43 => k0_hw43

def k0_off173 (i : grid0.Coords) : Fin 1 → Nat :=
  let arg0 : BitVec 32 := BitVec.ofNat 32 (i 0).val
  let c128_i32 : BitVec 32 := 128#32
  let v0 : BitVec 32 := Scalar.muli arg0 c128_i32
  let c0_i32_173 : BitVec 32 := 0#32
  let c43_i32 : BitVec 32 := 43#32
  let c1_i32_172 : BitVec 32 := 1#32
  let v474 : BitVec 32 := Scalar.muli c43_i32 c1_i32_172
  let v475 : BitVec 32 := Scalar.addi c0_i32_173 v474
  let v476 : BitVec 32 := Scalar.addi v0 v475
  let v477 : Index := Scalar.indexCast v476
  ![v477.toNat]
def k0_off174 : Fin 1 → Nat :=
  let c0_i32_173 : BitVec 32 := 0#32
  let c43_i32 : BitVec 32 := 43#32
  let c1_i32_172 : BitVec 32 := 1#32
  let v474 : BitVec 32 := Scalar.muli c43_i32 c1_i32_172
  let v475 : BitVec 32 := Scalar.addi c0_i32_173 v474
  ![v475.toNat]
def k0_off175 : Fin 2 → Nat :=
  let c0_i32_173 : BitVec 32 := 0#32
  let c43_i32 : BitVec 32 := 43#32
  let c1_i32_172 : BitVec 32 := 1#32
  let v474 : BitVec 32 := Scalar.muli c43_i32 c1_i32_172
  let v475 : BitVec 32 := Scalar.addi c0_i32_173 v474
  let c0_i32_174 : BitVec 32 := 0#32
  ![v475.toNat, 0]
def k0_off176 (v478 : BitVec 32) : Fin 2 → Nat :=
  let c0_i32_175 : BitVec 32 := 0#32
  ![v478.toNat, 0]

def k0_chk44 (v478 : BitVec 32) : Prop :=
  (∀ a, (k0_off176 v478) a + S1x8000.size a ≤ S8000x8000.size a)
instance k0_chk44.dec : ∀ (v478 : BitVec 32), Decidable (k0_chk44 v478) := fun v478 => decidable_of_iff' _ (Iff.of_eq (k0_chk44.eq_1 v478))
theorem k0_off176_inb : ∀ (v478 : BitVec 32) (k0_hw44 : k0_chk44 v478), ∀ a, (k0_off176 v478) a + S1x8000.size a ≤ S8000x8000.size a := fun v478 k0_hw44 => k0_hw44

def k0_off177 (i : grid0.Coords) : Fin 1 → Nat :=
  let arg0 : BitVec 32 := BitVec.ofNat 32 (i 0).val
  let c128_i32 : BitVec 32 := 128#32
  let v0 : BitVec 32 := Scalar.muli arg0 c128_i32
  let c0_i32_177 : BitVec 32 := 0#32
  let c44_i32 : BitVec 32 := 44#32
  let c1_i32_176 : BitVec 32 := 1#32
  let v485 : BitVec 32 := Scalar.muli c44_i32 c1_i32_176
  let v486 : BitVec 32 := Scalar.addi c0_i32_177 v485
  let v487 : BitVec 32 := Scalar.addi v0 v486
  let v488 : Index := Scalar.indexCast v487
  ![v488.toNat]
def k0_off178 : Fin 1 → Nat :=
  let c0_i32_177 : BitVec 32 := 0#32
  let c44_i32 : BitVec 32 := 44#32
  let c1_i32_176 : BitVec 32 := 1#32
  let v485 : BitVec 32 := Scalar.muli c44_i32 c1_i32_176
  let v486 : BitVec 32 := Scalar.addi c0_i32_177 v485
  ![v486.toNat]
def k0_off179 : Fin 2 → Nat :=
  let c0_i32_177 : BitVec 32 := 0#32
  let c44_i32 : BitVec 32 := 44#32
  let c1_i32_176 : BitVec 32 := 1#32
  let v485 : BitVec 32 := Scalar.muli c44_i32 c1_i32_176
  let v486 : BitVec 32 := Scalar.addi c0_i32_177 v485
  let c0_i32_178 : BitVec 32 := 0#32
  ![v486.toNat, 0]
def k0_off180 (v489 : BitVec 32) : Fin 2 → Nat :=
  let c0_i32_179 : BitVec 32 := 0#32
  ![v489.toNat, 0]

def k0_chk45 (v489 : BitVec 32) : Prop :=
  (∀ a, (k0_off180 v489) a + S1x8000.size a ≤ S8000x8000.size a)
instance k0_chk45.dec : ∀ (v489 : BitVec 32), Decidable (k0_chk45 v489) := fun v489 => decidable_of_iff' _ (Iff.of_eq (k0_chk45.eq_1 v489))
theorem k0_off180_inb : ∀ (v489 : BitVec 32) (k0_hw45 : k0_chk45 v489), ∀ a, (k0_off180 v489) a + S1x8000.size a ≤ S8000x8000.size a := fun v489 k0_hw45 => k0_hw45

def k0_off181 (i : grid0.Coords) : Fin 1 → Nat :=
  let arg0 : BitVec 32 := BitVec.ofNat 32 (i 0).val
  let c128_i32 : BitVec 32 := 128#32
  let v0 : BitVec 32 := Scalar.muli arg0 c128_i32
  let c0_i32_181 : BitVec 32 := 0#32
  let c45_i32 : BitVec 32 := 45#32
  let c1_i32_180 : BitVec 32 := 1#32
  let v496 : BitVec 32 := Scalar.muli c45_i32 c1_i32_180
  let v497 : BitVec 32 := Scalar.addi c0_i32_181 v496
  let v498 : BitVec 32 := Scalar.addi v0 v497
  let v499 : Index := Scalar.indexCast v498
  ![v499.toNat]
def k0_off182 : Fin 1 → Nat :=
  let c0_i32_181 : BitVec 32 := 0#32
  let c45_i32 : BitVec 32 := 45#32
  let c1_i32_180 : BitVec 32 := 1#32
  let v496 : BitVec 32 := Scalar.muli c45_i32 c1_i32_180
  let v497 : BitVec 32 := Scalar.addi c0_i32_181 v496
  ![v497.toNat]
def k0_off183 : Fin 2 → Nat :=
  let c0_i32_181 : BitVec 32 := 0#32
  let c45_i32 : BitVec 32 := 45#32
  let c1_i32_180 : BitVec 32 := 1#32
  let v496 : BitVec 32 := Scalar.muli c45_i32 c1_i32_180
  let v497 : BitVec 32 := Scalar.addi c0_i32_181 v496
  let c0_i32_182 : BitVec 32 := 0#32
  ![v497.toNat, 0]
def k0_off184 (v500 : BitVec 32) : Fin 2 → Nat :=
  let c0_i32_183 : BitVec 32 := 0#32
  ![v500.toNat, 0]

def k0_chk46 (v500 : BitVec 32) : Prop :=
  (∀ a, (k0_off184 v500) a + S1x8000.size a ≤ S8000x8000.size a)
instance k0_chk46.dec : ∀ (v500 : BitVec 32), Decidable (k0_chk46 v500) := fun v500 => decidable_of_iff' _ (Iff.of_eq (k0_chk46.eq_1 v500))
theorem k0_off184_inb : ∀ (v500 : BitVec 32) (k0_hw46 : k0_chk46 v500), ∀ a, (k0_off184 v500) a + S1x8000.size a ≤ S8000x8000.size a := fun v500 k0_hw46 => k0_hw46

def k0_off185 (i : grid0.Coords) : Fin 1 → Nat :=
  let arg0 : BitVec 32 := BitVec.ofNat 32 (i 0).val
  let c128_i32 : BitVec 32 := 128#32
  let v0 : BitVec 32 := Scalar.muli arg0 c128_i32
  let c0_i32_185 : BitVec 32 := 0#32
  let c46_i32 : BitVec 32 := 46#32
  let c1_i32_184 : BitVec 32 := 1#32
  let v507 : BitVec 32 := Scalar.muli c46_i32 c1_i32_184
  let v508 : BitVec 32 := Scalar.addi c0_i32_185 v507
  let v509 : BitVec 32 := Scalar.addi v0 v508
  let v510 : Index := Scalar.indexCast v509
  ![v510.toNat]
def k0_off186 : Fin 1 → Nat :=
  let c0_i32_185 : BitVec 32 := 0#32
  let c46_i32 : BitVec 32 := 46#32
  let c1_i32_184 : BitVec 32 := 1#32
  let v507 : BitVec 32 := Scalar.muli c46_i32 c1_i32_184
  let v508 : BitVec 32 := Scalar.addi c0_i32_185 v507
  ![v508.toNat]
def k0_off187 : Fin 2 → Nat :=
  let c0_i32_185 : BitVec 32 := 0#32
  let c46_i32 : BitVec 32 := 46#32
  let c1_i32_184 : BitVec 32 := 1#32
  let v507 : BitVec 32 := Scalar.muli c46_i32 c1_i32_184
  let v508 : BitVec 32 := Scalar.addi c0_i32_185 v507
  let c0_i32_186 : BitVec 32 := 0#32
  ![v508.toNat, 0]
def k0_off188 (v511 : BitVec 32) : Fin 2 → Nat :=
  let c0_i32_187 : BitVec 32 := 0#32
  ![v511.toNat, 0]

def k0_chk47 (v511 : BitVec 32) : Prop :=
  (∀ a, (k0_off188 v511) a + S1x8000.size a ≤ S8000x8000.size a)
instance k0_chk47.dec : ∀ (v511 : BitVec 32), Decidable (k0_chk47 v511) := fun v511 => decidable_of_iff' _ (Iff.of_eq (k0_chk47.eq_1 v511))
theorem k0_off188_inb : ∀ (v511 : BitVec 32) (k0_hw47 : k0_chk47 v511), ∀ a, (k0_off188 v511) a + S1x8000.size a ≤ S8000x8000.size a := fun v511 k0_hw47 => k0_hw47

def k0_off189 (i : grid0.Coords) : Fin 1 → Nat :=
  let arg0 : BitVec 32 := BitVec.ofNat 32 (i 0).val
  let c128_i32 : BitVec 32 := 128#32
  let v0 : BitVec 32 := Scalar.muli arg0 c128_i32
  let c0_i32_189 : BitVec 32 := 0#32
  let c47_i32 : BitVec 32 := 47#32
  let c1_i32_188 : BitVec 32 := 1#32
  let v518 : BitVec 32 := Scalar.muli c47_i32 c1_i32_188
  let v519 : BitVec 32 := Scalar.addi c0_i32_189 v518
  let v520 : BitVec 32 := Scalar.addi v0 v519
  let v521 : Index := Scalar.indexCast v520
  ![v521.toNat]
def k0_off190 : Fin 1 → Nat :=
  let c0_i32_189 : BitVec 32 := 0#32
  let c47_i32 : BitVec 32 := 47#32
  let c1_i32_188 : BitVec 32 := 1#32
  let v518 : BitVec 32 := Scalar.muli c47_i32 c1_i32_188
  let v519 : BitVec 32 := Scalar.addi c0_i32_189 v518
  ![v519.toNat]
def k0_off191 : Fin 2 → Nat :=
  let c0_i32_189 : BitVec 32 := 0#32
  let c47_i32 : BitVec 32 := 47#32
  let c1_i32_188 : BitVec 32 := 1#32
  let v518 : BitVec 32 := Scalar.muli c47_i32 c1_i32_188
  let v519 : BitVec 32 := Scalar.addi c0_i32_189 v518
  let c0_i32_190 : BitVec 32 := 0#32
  ![v519.toNat, 0]
def k0_off192 (v522 : BitVec 32) : Fin 2 → Nat :=
  let c0_i32_191 : BitVec 32 := 0#32
  ![v522.toNat, 0]

def k0_chk48 (v522 : BitVec 32) : Prop :=
  (∀ a, (k0_off192 v522) a + S1x8000.size a ≤ S8000x8000.size a)
instance k0_chk48.dec : ∀ (v522 : BitVec 32), Decidable (k0_chk48 v522) := fun v522 => decidable_of_iff' _ (Iff.of_eq (k0_chk48.eq_1 v522))
theorem k0_off192_inb : ∀ (v522 : BitVec 32) (k0_hw48 : k0_chk48 v522), ∀ a, (k0_off192 v522) a + S1x8000.size a ≤ S8000x8000.size a := fun v522 k0_hw48 => k0_hw48

def k0_off193 (i : grid0.Coords) : Fin 1 → Nat :=
  let arg0 : BitVec 32 := BitVec.ofNat 32 (i 0).val
  let c128_i32 : BitVec 32 := 128#32
  let v0 : BitVec 32 := Scalar.muli arg0 c128_i32
  let c0_i32_193 : BitVec 32 := 0#32
  let c48_i32 : BitVec 32 := 48#32
  let c1_i32_192 : BitVec 32 := 1#32
  let v529 : BitVec 32 := Scalar.muli c48_i32 c1_i32_192
  let v530 : BitVec 32 := Scalar.addi c0_i32_193 v529
  let v531 : BitVec 32 := Scalar.addi v0 v530
  let v532 : Index := Scalar.indexCast v531
  ![v532.toNat]
def k0_off194 : Fin 1 → Nat :=
  let c0_i32_193 : BitVec 32 := 0#32
  let c48_i32 : BitVec 32 := 48#32
  let c1_i32_192 : BitVec 32 := 1#32
  let v529 : BitVec 32 := Scalar.muli c48_i32 c1_i32_192
  let v530 : BitVec 32 := Scalar.addi c0_i32_193 v529
  ![v530.toNat]
def k0_off195 : Fin 2 → Nat :=
  let c0_i32_193 : BitVec 32 := 0#32
  let c48_i32 : BitVec 32 := 48#32
  let c1_i32_192 : BitVec 32 := 1#32
  let v529 : BitVec 32 := Scalar.muli c48_i32 c1_i32_192
  let v530 : BitVec 32 := Scalar.addi c0_i32_193 v529
  let c0_i32_194 : BitVec 32 := 0#32
  ![v530.toNat, 0]
def k0_off196 (v533 : BitVec 32) : Fin 2 → Nat :=
  let c0_i32_195 : BitVec 32 := 0#32
  ![v533.toNat, 0]

def k0_chk49 (v533 : BitVec 32) : Prop :=
  (∀ a, (k0_off196 v533) a + S1x8000.size a ≤ S8000x8000.size a)
instance k0_chk49.dec : ∀ (v533 : BitVec 32), Decidable (k0_chk49 v533) := fun v533 => decidable_of_iff' _ (Iff.of_eq (k0_chk49.eq_1 v533))
theorem k0_off196_inb : ∀ (v533 : BitVec 32) (k0_hw49 : k0_chk49 v533), ∀ a, (k0_off196 v533) a + S1x8000.size a ≤ S8000x8000.size a := fun v533 k0_hw49 => k0_hw49

def k0_off197 (i : grid0.Coords) : Fin 1 → Nat :=
  let arg0 : BitVec 32 := BitVec.ofNat 32 (i 0).val
  let c128_i32 : BitVec 32 := 128#32
  let v0 : BitVec 32 := Scalar.muli arg0 c128_i32
  let c0_i32_197 : BitVec 32 := 0#32
  let c49_i32 : BitVec 32 := 49#32
  let c1_i32_196 : BitVec 32 := 1#32
  let v540 : BitVec 32 := Scalar.muli c49_i32 c1_i32_196
  let v541 : BitVec 32 := Scalar.addi c0_i32_197 v540
  let v542 : BitVec 32 := Scalar.addi v0 v541
  let v543 : Index := Scalar.indexCast v542
  ![v543.toNat]
def k0_off198 : Fin 1 → Nat :=
  let c0_i32_197 : BitVec 32 := 0#32
  let c49_i32 : BitVec 32 := 49#32
  let c1_i32_196 : BitVec 32 := 1#32
  let v540 : BitVec 32 := Scalar.muli c49_i32 c1_i32_196
  let v541 : BitVec 32 := Scalar.addi c0_i32_197 v540
  ![v541.toNat]
def k0_off199 : Fin 2 → Nat :=
  let c0_i32_197 : BitVec 32 := 0#32
  let c49_i32 : BitVec 32 := 49#32
  let c1_i32_196 : BitVec 32 := 1#32
  let v540 : BitVec 32 := Scalar.muli c49_i32 c1_i32_196
  let v541 : BitVec 32 := Scalar.addi c0_i32_197 v540
  let c0_i32_198 : BitVec 32 := 0#32
  ![v541.toNat, 0]
def k0_off200 (v544 : BitVec 32) : Fin 2 → Nat :=
  let c0_i32_199 : BitVec 32 := 0#32
  ![v544.toNat, 0]

def k0_chk50 (v544 : BitVec 32) : Prop :=
  (∀ a, (k0_off200 v544) a + S1x8000.size a ≤ S8000x8000.size a)
instance k0_chk50.dec : ∀ (v544 : BitVec 32), Decidable (k0_chk50 v544) := fun v544 => decidable_of_iff' _ (Iff.of_eq (k0_chk50.eq_1 v544))
theorem k0_off200_inb : ∀ (v544 : BitVec 32) (k0_hw50 : k0_chk50 v544), ∀ a, (k0_off200 v544) a + S1x8000.size a ≤ S8000x8000.size a := fun v544 k0_hw50 => k0_hw50

def k0_off201 (i : grid0.Coords) : Fin 1 → Nat :=
  let arg0 : BitVec 32 := BitVec.ofNat 32 (i 0).val
  let c128_i32 : BitVec 32 := 128#32
  let v0 : BitVec 32 := Scalar.muli arg0 c128_i32
  let c0_i32_201 : BitVec 32 := 0#32
  let c50_i32 : BitVec 32 := 50#32
  let c1_i32_200 : BitVec 32 := 1#32
  let v551 : BitVec 32 := Scalar.muli c50_i32 c1_i32_200
  let v552 : BitVec 32 := Scalar.addi c0_i32_201 v551
  let v553 : BitVec 32 := Scalar.addi v0 v552
  let v554 : Index := Scalar.indexCast v553
  ![v554.toNat]
def k0_off202 : Fin 1 → Nat :=
  let c0_i32_201 : BitVec 32 := 0#32
  let c50_i32 : BitVec 32 := 50#32
  let c1_i32_200 : BitVec 32 := 1#32
  let v551 : BitVec 32 := Scalar.muli c50_i32 c1_i32_200
  let v552 : BitVec 32 := Scalar.addi c0_i32_201 v551
  ![v552.toNat]
def k0_off203 : Fin 2 → Nat :=
  let c0_i32_201 : BitVec 32 := 0#32
  let c50_i32 : BitVec 32 := 50#32
  let c1_i32_200 : BitVec 32 := 1#32
  let v551 : BitVec 32 := Scalar.muli c50_i32 c1_i32_200
  let v552 : BitVec 32 := Scalar.addi c0_i32_201 v551
  let c0_i32_202 : BitVec 32 := 0#32
  ![v552.toNat, 0]
def k0_off204 (v555 : BitVec 32) : Fin 2 → Nat :=
  let c0_i32_203 : BitVec 32 := 0#32
  ![v555.toNat, 0]

def k0_chk51 (v555 : BitVec 32) : Prop :=
  (∀ a, (k0_off204 v555) a + S1x8000.size a ≤ S8000x8000.size a)
instance k0_chk51.dec : ∀ (v555 : BitVec 32), Decidable (k0_chk51 v555) := fun v555 => decidable_of_iff' _ (Iff.of_eq (k0_chk51.eq_1 v555))
theorem k0_off204_inb : ∀ (v555 : BitVec 32) (k0_hw51 : k0_chk51 v555), ∀ a, (k0_off204 v555) a + S1x8000.size a ≤ S8000x8000.size a := fun v555 k0_hw51 => k0_hw51

def k0_off205 (i : grid0.Coords) : Fin 1 → Nat :=
  let arg0 : BitVec 32 := BitVec.ofNat 32 (i 0).val
  let c128_i32 : BitVec 32 := 128#32
  let v0 : BitVec 32 := Scalar.muli arg0 c128_i32
  let c0_i32_205 : BitVec 32 := 0#32
  let c51_i32 : BitVec 32 := 51#32
  let c1_i32_204 : BitVec 32 := 1#32
  let v562 : BitVec 32 := Scalar.muli c51_i32 c1_i32_204
  let v563 : BitVec 32 := Scalar.addi c0_i32_205 v562
  let v564 : BitVec 32 := Scalar.addi v0 v563
  let v565 : Index := Scalar.indexCast v564
  ![v565.toNat]
def k0_off206 : Fin 1 → Nat :=
  let c0_i32_205 : BitVec 32 := 0#32
  let c51_i32 : BitVec 32 := 51#32
  let c1_i32_204 : BitVec 32 := 1#32
  let v562 : BitVec 32 := Scalar.muli c51_i32 c1_i32_204
  let v563 : BitVec 32 := Scalar.addi c0_i32_205 v562
  ![v563.toNat]
def k0_off207 : Fin 2 → Nat :=
  let c0_i32_205 : BitVec 32 := 0#32
  let c51_i32 : BitVec 32 := 51#32
  let c1_i32_204 : BitVec 32 := 1#32
  let v562 : BitVec 32 := Scalar.muli c51_i32 c1_i32_204
  let v563 : BitVec 32 := Scalar.addi c0_i32_205 v562
  let c0_i32_206 : BitVec 32 := 0#32
  ![v563.toNat, 0]
def k0_off208 (v566 : BitVec 32) : Fin 2 → Nat :=
  let c0_i32_207 : BitVec 32 := 0#32
  ![v566.toNat, 0]

def k0_chk52 (v566 : BitVec 32) : Prop :=
  (∀ a, (k0_off208 v566) a + S1x8000.size a ≤ S8000x8000.size a)
instance k0_chk52.dec : ∀ (v566 : BitVec 32), Decidable (k0_chk52 v566) := fun v566 => decidable_of_iff' _ (Iff.of_eq (k0_chk52.eq_1 v566))
theorem k0_off208_inb : ∀ (v566 : BitVec 32) (k0_hw52 : k0_chk52 v566), ∀ a, (k0_off208 v566) a + S1x8000.size a ≤ S8000x8000.size a := fun v566 k0_hw52 => k0_hw52

def k0_off209 (i : grid0.Coords) : Fin 1 → Nat :=
  let arg0 : BitVec 32 := BitVec.ofNat 32 (i 0).val
  let c128_i32 : BitVec 32 := 128#32
  let v0 : BitVec 32 := Scalar.muli arg0 c128_i32
  let c0_i32_209 : BitVec 32 := 0#32
  let c52_i32 : BitVec 32 := 52#32
  let c1_i32_208 : BitVec 32 := 1#32
  let v573 : BitVec 32 := Scalar.muli c52_i32 c1_i32_208
  let v574 : BitVec 32 := Scalar.addi c0_i32_209 v573
  let v575 : BitVec 32 := Scalar.addi v0 v574
  let v576 : Index := Scalar.indexCast v575
  ![v576.toNat]
def k0_off210 : Fin 1 → Nat :=
  let c0_i32_209 : BitVec 32 := 0#32
  let c52_i32 : BitVec 32 := 52#32
  let c1_i32_208 : BitVec 32 := 1#32
  let v573 : BitVec 32 := Scalar.muli c52_i32 c1_i32_208
  let v574 : BitVec 32 := Scalar.addi c0_i32_209 v573
  ![v574.toNat]
def k0_off211 : Fin 2 → Nat :=
  let c0_i32_209 : BitVec 32 := 0#32
  let c52_i32 : BitVec 32 := 52#32
  let c1_i32_208 : BitVec 32 := 1#32
  let v573 : BitVec 32 := Scalar.muli c52_i32 c1_i32_208
  let v574 : BitVec 32 := Scalar.addi c0_i32_209 v573
  let c0_i32_210 : BitVec 32 := 0#32
  ![v574.toNat, 0]
def k0_off212 (v577 : BitVec 32) : Fin 2 → Nat :=
  let c0_i32_211 : BitVec 32 := 0#32
  ![v577.toNat, 0]

def k0_chk53 (v577 : BitVec 32) : Prop :=
  (∀ a, (k0_off212 v577) a + S1x8000.size a ≤ S8000x8000.size a)
instance k0_chk53.dec : ∀ (v577 : BitVec 32), Decidable (k0_chk53 v577) := fun v577 => decidable_of_iff' _ (Iff.of_eq (k0_chk53.eq_1 v577))
theorem k0_off212_inb : ∀ (v577 : BitVec 32) (k0_hw53 : k0_chk53 v577), ∀ a, (k0_off212 v577) a + S1x8000.size a ≤ S8000x8000.size a := fun v577 k0_hw53 => k0_hw53

def k0_off213 (i : grid0.Coords) : Fin 1 → Nat :=
  let arg0 : BitVec 32 := BitVec.ofNat 32 (i 0).val
  let c128_i32 : BitVec 32 := 128#32
  let v0 : BitVec 32 := Scalar.muli arg0 c128_i32
  let c0_i32_213 : BitVec 32 := 0#32
  let c53_i32 : BitVec 32 := 53#32
  let c1_i32_212 : BitVec 32 := 1#32
  let v584 : BitVec 32 := Scalar.muli c53_i32 c1_i32_212
  let v585 : BitVec 32 := Scalar.addi c0_i32_213 v584
  let v586 : BitVec 32 := Scalar.addi v0 v585
  let v587 : Index := Scalar.indexCast v586
  ![v587.toNat]
def k0_off214 : Fin 1 → Nat :=
  let c0_i32_213 : BitVec 32 := 0#32
  let c53_i32 : BitVec 32 := 53#32
  let c1_i32_212 : BitVec 32 := 1#32
  let v584 : BitVec 32 := Scalar.muli c53_i32 c1_i32_212
  let v585 : BitVec 32 := Scalar.addi c0_i32_213 v584
  ![v585.toNat]
def k0_off215 : Fin 2 → Nat :=
  let c0_i32_213 : BitVec 32 := 0#32
  let c53_i32 : BitVec 32 := 53#32
  let c1_i32_212 : BitVec 32 := 1#32
  let v584 : BitVec 32 := Scalar.muli c53_i32 c1_i32_212
  let v585 : BitVec 32 := Scalar.addi c0_i32_213 v584
  let c0_i32_214 : BitVec 32 := 0#32
  ![v585.toNat, 0]
def k0_off216 (v588 : BitVec 32) : Fin 2 → Nat :=
  let c0_i32_215 : BitVec 32 := 0#32
  ![v588.toNat, 0]

def k0_chk54 (v588 : BitVec 32) : Prop :=
  (∀ a, (k0_off216 v588) a + S1x8000.size a ≤ S8000x8000.size a)
instance k0_chk54.dec : ∀ (v588 : BitVec 32), Decidable (k0_chk54 v588) := fun v588 => decidable_of_iff' _ (Iff.of_eq (k0_chk54.eq_1 v588))
theorem k0_off216_inb : ∀ (v588 : BitVec 32) (k0_hw54 : k0_chk54 v588), ∀ a, (k0_off216 v588) a + S1x8000.size a ≤ S8000x8000.size a := fun v588 k0_hw54 => k0_hw54

def k0_off217 (i : grid0.Coords) : Fin 1 → Nat :=
  let arg0 : BitVec 32 := BitVec.ofNat 32 (i 0).val
  let c128_i32 : BitVec 32 := 128#32
  let v0 : BitVec 32 := Scalar.muli arg0 c128_i32
  let c0_i32_217 : BitVec 32 := 0#32
  let c54_i32 : BitVec 32 := 54#32
  let c1_i32_216 : BitVec 32 := 1#32
  let v595 : BitVec 32 := Scalar.muli c54_i32 c1_i32_216
  let v596 : BitVec 32 := Scalar.addi c0_i32_217 v595
  let v597 : BitVec 32 := Scalar.addi v0 v596
  let v598 : Index := Scalar.indexCast v597
  ![v598.toNat]
def k0_off218 : Fin 1 → Nat :=
  let c0_i32_217 : BitVec 32 := 0#32
  let c54_i32 : BitVec 32 := 54#32
  let c1_i32_216 : BitVec 32 := 1#32
  let v595 : BitVec 32 := Scalar.muli c54_i32 c1_i32_216
  let v596 : BitVec 32 := Scalar.addi c0_i32_217 v595
  ![v596.toNat]
def k0_off219 : Fin 2 → Nat :=
  let c0_i32_217 : BitVec 32 := 0#32
  let c54_i32 : BitVec 32 := 54#32
  let c1_i32_216 : BitVec 32 := 1#32
  let v595 : BitVec 32 := Scalar.muli c54_i32 c1_i32_216
  let v596 : BitVec 32 := Scalar.addi c0_i32_217 v595
  let c0_i32_218 : BitVec 32 := 0#32
  ![v596.toNat, 0]
def k0_off220 (v599 : BitVec 32) : Fin 2 → Nat :=
  let c0_i32_219 : BitVec 32 := 0#32
  ![v599.toNat, 0]

def k0_chk55 (v599 : BitVec 32) : Prop :=
  (∀ a, (k0_off220 v599) a + S1x8000.size a ≤ S8000x8000.size a)
instance k0_chk55.dec : ∀ (v599 : BitVec 32), Decidable (k0_chk55 v599) := fun v599 => decidable_of_iff' _ (Iff.of_eq (k0_chk55.eq_1 v599))
theorem k0_off220_inb : ∀ (v599 : BitVec 32) (k0_hw55 : k0_chk55 v599), ∀ a, (k0_off220 v599) a + S1x8000.size a ≤ S8000x8000.size a := fun v599 k0_hw55 => k0_hw55

def k0_off221 (i : grid0.Coords) : Fin 1 → Nat :=
  let arg0 : BitVec 32 := BitVec.ofNat 32 (i 0).val
  let c128_i32 : BitVec 32 := 128#32
  let v0 : BitVec 32 := Scalar.muli arg0 c128_i32
  let c0_i32_221 : BitVec 32 := 0#32
  let c55_i32 : BitVec 32 := 55#32
  let c1_i32_220 : BitVec 32 := 1#32
  let v606 : BitVec 32 := Scalar.muli c55_i32 c1_i32_220
  let v607 : BitVec 32 := Scalar.addi c0_i32_221 v606
  let v608 : BitVec 32 := Scalar.addi v0 v607
  let v609 : Index := Scalar.indexCast v608
  ![v609.toNat]
def k0_off222 : Fin 1 → Nat :=
  let c0_i32_221 : BitVec 32 := 0#32
  let c55_i32 : BitVec 32 := 55#32
  let c1_i32_220 : BitVec 32 := 1#32
  let v606 : BitVec 32 := Scalar.muli c55_i32 c1_i32_220
  let v607 : BitVec 32 := Scalar.addi c0_i32_221 v606
  ![v607.toNat]
def k0_off223 : Fin 2 → Nat :=
  let c0_i32_221 : BitVec 32 := 0#32
  let c55_i32 : BitVec 32 := 55#32
  let c1_i32_220 : BitVec 32 := 1#32
  let v606 : BitVec 32 := Scalar.muli c55_i32 c1_i32_220
  let v607 : BitVec 32 := Scalar.addi c0_i32_221 v606
  let c0_i32_222 : BitVec 32 := 0#32
  ![v607.toNat, 0]
def k0_off224 (v610 : BitVec 32) : Fin 2 → Nat :=
  let c0_i32_223 : BitVec 32 := 0#32
  ![v610.toNat, 0]

def k0_chk56 (v610 : BitVec 32) : Prop :=
  (∀ a, (k0_off224 v610) a + S1x8000.size a ≤ S8000x8000.size a)
instance k0_chk56.dec : ∀ (v610 : BitVec 32), Decidable (k0_chk56 v610) := fun v610 => decidable_of_iff' _ (Iff.of_eq (k0_chk56.eq_1 v610))
theorem k0_off224_inb : ∀ (v610 : BitVec 32) (k0_hw56 : k0_chk56 v610), ∀ a, (k0_off224 v610) a + S1x8000.size a ≤ S8000x8000.size a := fun v610 k0_hw56 => k0_hw56

def k0_off225 (i : grid0.Coords) : Fin 1 → Nat :=
  let arg0 : BitVec 32 := BitVec.ofNat 32 (i 0).val
  let c128_i32 : BitVec 32 := 128#32
  let v0 : BitVec 32 := Scalar.muli arg0 c128_i32
  let c0_i32_225 : BitVec 32 := 0#32
  let c56_i32 : BitVec 32 := 56#32
  let c1_i32_224 : BitVec 32 := 1#32
  let v617 : BitVec 32 := Scalar.muli c56_i32 c1_i32_224
  let v618 : BitVec 32 := Scalar.addi c0_i32_225 v617
  let v619 : BitVec 32 := Scalar.addi v0 v618
  let v620 : Index := Scalar.indexCast v619
  ![v620.toNat]
def k0_off226 : Fin 1 → Nat :=
  let c0_i32_225 : BitVec 32 := 0#32
  let c56_i32 : BitVec 32 := 56#32
  let c1_i32_224 : BitVec 32 := 1#32
  let v617 : BitVec 32 := Scalar.muli c56_i32 c1_i32_224
  let v618 : BitVec 32 := Scalar.addi c0_i32_225 v617
  ![v618.toNat]
def k0_off227 : Fin 2 → Nat :=
  let c0_i32_225 : BitVec 32 := 0#32
  let c56_i32 : BitVec 32 := 56#32
  let c1_i32_224 : BitVec 32 := 1#32
  let v617 : BitVec 32 := Scalar.muli c56_i32 c1_i32_224
  let v618 : BitVec 32 := Scalar.addi c0_i32_225 v617
  let c0_i32_226 : BitVec 32 := 0#32
  ![v618.toNat, 0]
def k0_off228 (v621 : BitVec 32) : Fin 2 → Nat :=
  let c0_i32_227 : BitVec 32 := 0#32
  ![v621.toNat, 0]

def k0_chk57 (v621 : BitVec 32) : Prop :=
  (∀ a, (k0_off228 v621) a + S1x8000.size a ≤ S8000x8000.size a)
instance k0_chk57.dec : ∀ (v621 : BitVec 32), Decidable (k0_chk57 v621) := fun v621 => decidable_of_iff' _ (Iff.of_eq (k0_chk57.eq_1 v621))
theorem k0_off228_inb : ∀ (v621 : BitVec 32) (k0_hw57 : k0_chk57 v621), ∀ a, (k0_off228 v621) a + S1x8000.size a ≤ S8000x8000.size a := fun v621 k0_hw57 => k0_hw57

def k0_off229 (i : grid0.Coords) : Fin 1 → Nat :=
  let arg0 : BitVec 32 := BitVec.ofNat 32 (i 0).val
  let c128_i32 : BitVec 32 := 128#32
  let v0 : BitVec 32 := Scalar.muli arg0 c128_i32
  let c0_i32_229 : BitVec 32 := 0#32
  let c57_i32 : BitVec 32 := 57#32
  let c1_i32_228 : BitVec 32 := 1#32
  let v628 : BitVec 32 := Scalar.muli c57_i32 c1_i32_228
  let v629 : BitVec 32 := Scalar.addi c0_i32_229 v628
  let v630 : BitVec 32 := Scalar.addi v0 v629
  let v631 : Index := Scalar.indexCast v630
  ![v631.toNat]
def k0_off230 : Fin 1 → Nat :=
  let c0_i32_229 : BitVec 32 := 0#32
  let c57_i32 : BitVec 32 := 57#32
  let c1_i32_228 : BitVec 32 := 1#32
  let v628 : BitVec 32 := Scalar.muli c57_i32 c1_i32_228
  let v629 : BitVec 32 := Scalar.addi c0_i32_229 v628
  ![v629.toNat]
def k0_off231 : Fin 2 → Nat :=
  let c0_i32_229 : BitVec 32 := 0#32
  let c57_i32 : BitVec 32 := 57#32
  let c1_i32_228 : BitVec 32 := 1#32
  let v628 : BitVec 32 := Scalar.muli c57_i32 c1_i32_228
  let v629 : BitVec 32 := Scalar.addi c0_i32_229 v628
  let c0_i32_230 : BitVec 32 := 0#32
  ![v629.toNat, 0]
def k0_off232 (v632 : BitVec 32) : Fin 2 → Nat :=
  let c0_i32_231 : BitVec 32 := 0#32
  ![v632.toNat, 0]

def k0_chk58 (v632 : BitVec 32) : Prop :=
  (∀ a, (k0_off232 v632) a + S1x8000.size a ≤ S8000x8000.size a)
instance k0_chk58.dec : ∀ (v632 : BitVec 32), Decidable (k0_chk58 v632) := fun v632 => decidable_of_iff' _ (Iff.of_eq (k0_chk58.eq_1 v632))
theorem k0_off232_inb : ∀ (v632 : BitVec 32) (k0_hw58 : k0_chk58 v632), ∀ a, (k0_off232 v632) a + S1x8000.size a ≤ S8000x8000.size a := fun v632 k0_hw58 => k0_hw58

def k0_off233 (i : grid0.Coords) : Fin 1 → Nat :=
  let arg0 : BitVec 32 := BitVec.ofNat 32 (i 0).val
  let c128_i32 : BitVec 32 := 128#32
  let v0 : BitVec 32 := Scalar.muli arg0 c128_i32
  let c0_i32_233 : BitVec 32 := 0#32
  let c58_i32 : BitVec 32 := 58#32
  let c1_i32_232 : BitVec 32 := 1#32
  let v639 : BitVec 32 := Scalar.muli c58_i32 c1_i32_232
  let v640 : BitVec 32 := Scalar.addi c0_i32_233 v639
  let v641 : BitVec 32 := Scalar.addi v0 v640
  let v642 : Index := Scalar.indexCast v641
  ![v642.toNat]
def k0_off234 : Fin 1 → Nat :=
  let c0_i32_233 : BitVec 32 := 0#32
  let c58_i32 : BitVec 32 := 58#32
  let c1_i32_232 : BitVec 32 := 1#32
  let v639 : BitVec 32 := Scalar.muli c58_i32 c1_i32_232
  let v640 : BitVec 32 := Scalar.addi c0_i32_233 v639
  ![v640.toNat]
def k0_off235 : Fin 2 → Nat :=
  let c0_i32_233 : BitVec 32 := 0#32
  let c58_i32 : BitVec 32 := 58#32
  let c1_i32_232 : BitVec 32 := 1#32
  let v639 : BitVec 32 := Scalar.muli c58_i32 c1_i32_232
  let v640 : BitVec 32 := Scalar.addi c0_i32_233 v639
  let c0_i32_234 : BitVec 32 := 0#32
  ![v640.toNat, 0]
def k0_off236 (v643 : BitVec 32) : Fin 2 → Nat :=
  let c0_i32_235 : BitVec 32 := 0#32
  ![v643.toNat, 0]

def k0_chk59 (v643 : BitVec 32) : Prop :=
  (∀ a, (k0_off236 v643) a + S1x8000.size a ≤ S8000x8000.size a)
instance k0_chk59.dec : ∀ (v643 : BitVec 32), Decidable (k0_chk59 v643) := fun v643 => decidable_of_iff' _ (Iff.of_eq (k0_chk59.eq_1 v643))
theorem k0_off236_inb : ∀ (v643 : BitVec 32) (k0_hw59 : k0_chk59 v643), ∀ a, (k0_off236 v643) a + S1x8000.size a ≤ S8000x8000.size a := fun v643 k0_hw59 => k0_hw59

def k0_off237 (i : grid0.Coords) : Fin 1 → Nat :=
  let arg0 : BitVec 32 := BitVec.ofNat 32 (i 0).val
  let c128_i32 : BitVec 32 := 128#32
  let v0 : BitVec 32 := Scalar.muli arg0 c128_i32
  let c0_i32_237 : BitVec 32 := 0#32
  let c59_i32 : BitVec 32 := 59#32
  let c1_i32_236 : BitVec 32 := 1#32
  let v650 : BitVec 32 := Scalar.muli c59_i32 c1_i32_236
  let v651 : BitVec 32 := Scalar.addi c0_i32_237 v650
  let v652 : BitVec 32 := Scalar.addi v0 v651
  let v653 : Index := Scalar.indexCast v652
  ![v653.toNat]
def k0_off238 : Fin 1 → Nat :=
  let c0_i32_237 : BitVec 32 := 0#32
  let c59_i32 : BitVec 32 := 59#32
  let c1_i32_236 : BitVec 32 := 1#32
  let v650 : BitVec 32 := Scalar.muli c59_i32 c1_i32_236
  let v651 : BitVec 32 := Scalar.addi c0_i32_237 v650
  ![v651.toNat]
def k0_off239 : Fin 2 → Nat :=
  let c0_i32_237 : BitVec 32 := 0#32
  let c59_i32 : BitVec 32 := 59#32
  let c1_i32_236 : BitVec 32 := 1#32
  let v650 : BitVec 32 := Scalar.muli c59_i32 c1_i32_236
  let v651 : BitVec 32 := Scalar.addi c0_i32_237 v650
  let c0_i32_238 : BitVec 32 := 0#32
  ![v651.toNat, 0]
def k0_off240 (v654 : BitVec 32) : Fin 2 → Nat :=
  let c0_i32_239 : BitVec 32 := 0#32
  ![v654.toNat, 0]

def k0_chk60 (v654 : BitVec 32) : Prop :=
  (∀ a, (k0_off240 v654) a + S1x8000.size a ≤ S8000x8000.size a)
instance k0_chk60.dec : ∀ (v654 : BitVec 32), Decidable (k0_chk60 v654) := fun v654 => decidable_of_iff' _ (Iff.of_eq (k0_chk60.eq_1 v654))
theorem k0_off240_inb : ∀ (v654 : BitVec 32) (k0_hw60 : k0_chk60 v654), ∀ a, (k0_off240 v654) a + S1x8000.size a ≤ S8000x8000.size a := fun v654 k0_hw60 => k0_hw60

def k0_off241 (i : grid0.Coords) : Fin 1 → Nat :=
  let arg0 : BitVec 32 := BitVec.ofNat 32 (i 0).val
  let c128_i32 : BitVec 32 := 128#32
  let v0 : BitVec 32 := Scalar.muli arg0 c128_i32
  let c0_i32_241 : BitVec 32 := 0#32
  let c60_i32 : BitVec 32 := 60#32
  let c1_i32_240 : BitVec 32 := 1#32
  let v661 : BitVec 32 := Scalar.muli c60_i32 c1_i32_240
  let v662 : BitVec 32 := Scalar.addi c0_i32_241 v661
  let v663 : BitVec 32 := Scalar.addi v0 v662
  let v664 : Index := Scalar.indexCast v663
  ![v664.toNat]
def k0_off242 : Fin 1 → Nat :=
  let c0_i32_241 : BitVec 32 := 0#32
  let c60_i32 : BitVec 32 := 60#32
  let c1_i32_240 : BitVec 32 := 1#32
  let v661 : BitVec 32 := Scalar.muli c60_i32 c1_i32_240
  let v662 : BitVec 32 := Scalar.addi c0_i32_241 v661
  ![v662.toNat]
def k0_off243 : Fin 2 → Nat :=
  let c0_i32_241 : BitVec 32 := 0#32
  let c60_i32 : BitVec 32 := 60#32
  let c1_i32_240 : BitVec 32 := 1#32
  let v661 : BitVec 32 := Scalar.muli c60_i32 c1_i32_240
  let v662 : BitVec 32 := Scalar.addi c0_i32_241 v661
  let c0_i32_242 : BitVec 32 := 0#32
  ![v662.toNat, 0]
def k0_off244 (v665 : BitVec 32) : Fin 2 → Nat :=
  let c0_i32_243 : BitVec 32 := 0#32
  ![v665.toNat, 0]

def k0_chk61 (v665 : BitVec 32) : Prop :=
  (∀ a, (k0_off244 v665) a + S1x8000.size a ≤ S8000x8000.size a)
instance k0_chk61.dec : ∀ (v665 : BitVec 32), Decidable (k0_chk61 v665) := fun v665 => decidable_of_iff' _ (Iff.of_eq (k0_chk61.eq_1 v665))
theorem k0_off244_inb : ∀ (v665 : BitVec 32) (k0_hw61 : k0_chk61 v665), ∀ a, (k0_off244 v665) a + S1x8000.size a ≤ S8000x8000.size a := fun v665 k0_hw61 => k0_hw61

def k0_off245 (i : grid0.Coords) : Fin 1 → Nat :=
  let arg0 : BitVec 32 := BitVec.ofNat 32 (i 0).val
  let c128_i32 : BitVec 32 := 128#32
  let v0 : BitVec 32 := Scalar.muli arg0 c128_i32
  let c0_i32_245 : BitVec 32 := 0#32
  let c61_i32 : BitVec 32 := 61#32
  let c1_i32_244 : BitVec 32 := 1#32
  let v672 : BitVec 32 := Scalar.muli c61_i32 c1_i32_244
  let v673 : BitVec 32 := Scalar.addi c0_i32_245 v672
  let v674 : BitVec 32 := Scalar.addi v0 v673
  let v675 : Index := Scalar.indexCast v674
  ![v675.toNat]
def k0_off246 : Fin 1 → Nat :=
  let c0_i32_245 : BitVec 32 := 0#32
  let c61_i32 : BitVec 32 := 61#32
  let c1_i32_244 : BitVec 32 := 1#32
  let v672 : BitVec 32 := Scalar.muli c61_i32 c1_i32_244
  let v673 : BitVec 32 := Scalar.addi c0_i32_245 v672
  ![v673.toNat]
def k0_off247 : Fin 2 → Nat :=
  let c0_i32_245 : BitVec 32 := 0#32
  let c61_i32 : BitVec 32 := 61#32
  let c1_i32_244 : BitVec 32 := 1#32
  let v672 : BitVec 32 := Scalar.muli c61_i32 c1_i32_244
  let v673 : BitVec 32 := Scalar.addi c0_i32_245 v672
  let c0_i32_246 : BitVec 32 := 0#32
  ![v673.toNat, 0]
def k0_off248 (v676 : BitVec 32) : Fin 2 → Nat :=
  let c0_i32_247 : BitVec 32 := 0#32
  ![v676.toNat, 0]

def k0_chk62 (v676 : BitVec 32) : Prop :=
  (∀ a, (k0_off248 v676) a + S1x8000.size a ≤ S8000x8000.size a)
instance k0_chk62.dec : ∀ (v676 : BitVec 32), Decidable (k0_chk62 v676) := fun v676 => decidable_of_iff' _ (Iff.of_eq (k0_chk62.eq_1 v676))
theorem k0_off248_inb : ∀ (v676 : BitVec 32) (k0_hw62 : k0_chk62 v676), ∀ a, (k0_off248 v676) a + S1x8000.size a ≤ S8000x8000.size a := fun v676 k0_hw62 => k0_hw62

def k0_off249 (i : grid0.Coords) : Fin 1 → Nat :=
  let arg0 : BitVec 32 := BitVec.ofNat 32 (i 0).val
  let c128_i32 : BitVec 32 := 128#32
  let v0 : BitVec 32 := Scalar.muli arg0 c128_i32
  let c0_i32_249 : BitVec 32 := 0#32
  let c62_i32 : BitVec 32 := 62#32
  let c1_i32_248 : BitVec 32 := 1#32
  let v683 : BitVec 32 := Scalar.muli c62_i32 c1_i32_248
  let v684 : BitVec 32 := Scalar.addi c0_i32_249 v683
  let v685 : BitVec 32 := Scalar.addi v0 v684
  let v686 : Index := Scalar.indexCast v685
  ![v686.toNat]
def k0_off250 : Fin 1 → Nat :=
  let c0_i32_249 : BitVec 32 := 0#32
  let c62_i32 : BitVec 32 := 62#32
  let c1_i32_248 : BitVec 32 := 1#32
  let v683 : BitVec 32 := Scalar.muli c62_i32 c1_i32_248
  let v684 : BitVec 32 := Scalar.addi c0_i32_249 v683
  ![v684.toNat]
def k0_off251 : Fin 2 → Nat :=
  let c0_i32_249 : BitVec 32 := 0#32
  let c62_i32 : BitVec 32 := 62#32
  let c1_i32_248 : BitVec 32 := 1#32
  let v683 : BitVec 32 := Scalar.muli c62_i32 c1_i32_248
  let v684 : BitVec 32 := Scalar.addi c0_i32_249 v683
  let c0_i32_250 : BitVec 32 := 0#32
  ![v684.toNat, 0]
def k0_off252 (v687 : BitVec 32) : Fin 2 → Nat :=
  let c0_i32_251 : BitVec 32 := 0#32
  ![v687.toNat, 0]

def k0_chk63 (v687 : BitVec 32) : Prop :=
  (∀ a, (k0_off252 v687) a + S1x8000.size a ≤ S8000x8000.size a)
instance k0_chk63.dec : ∀ (v687 : BitVec 32), Decidable (k0_chk63 v687) := fun v687 => decidable_of_iff' _ (Iff.of_eq (k0_chk63.eq_1 v687))
theorem k0_off252_inb : ∀ (v687 : BitVec 32) (k0_hw63 : k0_chk63 v687), ∀ a, (k0_off252 v687) a + S1x8000.size a ≤ S8000x8000.size a := fun v687 k0_hw63 => k0_hw63

def k0_off253 (i : grid0.Coords) : Fin 1 → Nat :=
  let arg0 : BitVec 32 := BitVec.ofNat 32 (i 0).val
  let c128_i32 : BitVec 32 := 128#32
  let v0 : BitVec 32 := Scalar.muli arg0 c128_i32
  let c0_i32_253 : BitVec 32 := 0#32
  let c63_i32 : BitVec 32 := 63#32
  let c1_i32_252 : BitVec 32 := 1#32
  let v694 : BitVec 32 := Scalar.muli c63_i32 c1_i32_252
  let v695 : BitVec 32 := Scalar.addi c0_i32_253 v694
  let v696 : BitVec 32 := Scalar.addi v0 v695
  let v697 : Index := Scalar.indexCast v696
  ![v697.toNat]
def k0_off254 : Fin 1 → Nat :=
  let c0_i32_253 : BitVec 32 := 0#32
  let c63_i32 : BitVec 32 := 63#32
  let c1_i32_252 : BitVec 32 := 1#32
  let v694 : BitVec 32 := Scalar.muli c63_i32 c1_i32_252
  let v695 : BitVec 32 := Scalar.addi c0_i32_253 v694
  ![v695.toNat]
def k0_off255 : Fin 2 → Nat :=
  let c0_i32_253 : BitVec 32 := 0#32
  let c63_i32 : BitVec 32 := 63#32
  let c1_i32_252 : BitVec 32 := 1#32
  let v694 : BitVec 32 := Scalar.muli c63_i32 c1_i32_252
  let v695 : BitVec 32 := Scalar.addi c0_i32_253 v694
  let c0_i32_254 : BitVec 32 := 0#32
  ![v695.toNat, 0]
def k0_off256 (v698 : BitVec 32) : Fin 2 → Nat :=
  let c0_i32_255 : BitVec 32 := 0#32
  ![v698.toNat, 0]

def k0_chk64 (v698 : BitVec 32) : Prop :=
  (∀ a, (k0_off256 v698) a + S1x8000.size a ≤ S8000x8000.size a)
instance k0_chk64.dec : ∀ (v698 : BitVec 32), Decidable (k0_chk64 v698) := fun v698 => decidable_of_iff' _ (Iff.of_eq (k0_chk64.eq_1 v698))
theorem k0_off256_inb : ∀ (v698 : BitVec 32) (k0_hw64 : k0_chk64 v698), ∀ a, (k0_off256 v698) a + S1x8000.size a ≤ S8000x8000.size a := fun v698 k0_hw64 => k0_hw64

def k0_off257 (i : grid0.Coords) : Fin 1 → Nat :=
  let arg0 : BitVec 32 := BitVec.ofNat 32 (i 0).val
  let c128_i32 : BitVec 32 := 128#32
  let v0 : BitVec 32 := Scalar.muli arg0 c128_i32
  let c0_i32_257 : BitVec 32 := 0#32
  let c64_i32 : BitVec 32 := 64#32
  let c1_i32_256 : BitVec 32 := 1#32
  let v705 : BitVec 32 := Scalar.muli c64_i32 c1_i32_256
  let v706 : BitVec 32 := Scalar.addi c0_i32_257 v705
  let v707 : BitVec 32 := Scalar.addi v0 v706
  let v708 : Index := Scalar.indexCast v707
  ![v708.toNat]
def k0_off258 : Fin 1 → Nat :=
  let c0_i32_257 : BitVec 32 := 0#32
  let c64_i32 : BitVec 32 := 64#32
  let c1_i32_256 : BitVec 32 := 1#32
  let v705 : BitVec 32 := Scalar.muli c64_i32 c1_i32_256
  let v706 : BitVec 32 := Scalar.addi c0_i32_257 v705
  ![v706.toNat]
def k0_off259 : Fin 2 → Nat :=
  let c0_i32_257 : BitVec 32 := 0#32
  let c64_i32 : BitVec 32 := 64#32
  let c1_i32_256 : BitVec 32 := 1#32
  let v705 : BitVec 32 := Scalar.muli c64_i32 c1_i32_256
  let v706 : BitVec 32 := Scalar.addi c0_i32_257 v705
  let c0_i32_258 : BitVec 32 := 0#32
  ![v706.toNat, 0]
def k0_off260 (v709 : BitVec 32) : Fin 2 → Nat :=
  let c0_i32_259 : BitVec 32 := 0#32
  ![v709.toNat, 0]

def k0_chk65 (v709 : BitVec 32) : Prop :=
  (∀ a, (k0_off260 v709) a + S1x8000.size a ≤ S8000x8000.size a)
instance k0_chk65.dec : ∀ (v709 : BitVec 32), Decidable (k0_chk65 v709) := fun v709 => decidable_of_iff' _ (Iff.of_eq (k0_chk65.eq_1 v709))
theorem k0_off260_inb : ∀ (v709 : BitVec 32) (k0_hw65 : k0_chk65 v709), ∀ a, (k0_off260 v709) a + S1x8000.size a ≤ S8000x8000.size a := fun v709 k0_hw65 => k0_hw65

def k0_off261 (i : grid0.Coords) : Fin 1 → Nat :=
  let arg0 : BitVec 32 := BitVec.ofNat 32 (i 0).val
  let c128_i32 : BitVec 32 := 128#32
  let v0 : BitVec 32 := Scalar.muli arg0 c128_i32
  let c0_i32_261 : BitVec 32 := 0#32
  let c65_i32 : BitVec 32 := 65#32
  let c1_i32_260 : BitVec 32 := 1#32
  let v716 : BitVec 32 := Scalar.muli c65_i32 c1_i32_260
  let v717 : BitVec 32 := Scalar.addi c0_i32_261 v716
  let v718 : BitVec 32 := Scalar.addi v0 v717
  let v719 : Index := Scalar.indexCast v718
  ![v719.toNat]
def k0_off262 : Fin 1 → Nat :=
  let c0_i32_261 : BitVec 32 := 0#32
  let c65_i32 : BitVec 32 := 65#32
  let c1_i32_260 : BitVec 32 := 1#32
  let v716 : BitVec 32 := Scalar.muli c65_i32 c1_i32_260
  let v717 : BitVec 32 := Scalar.addi c0_i32_261 v716
  ![v717.toNat]
def k0_off263 : Fin 2 → Nat :=
  let c0_i32_261 : BitVec 32 := 0#32
  let c65_i32 : BitVec 32 := 65#32
  let c1_i32_260 : BitVec 32 := 1#32
  let v716 : BitVec 32 := Scalar.muli c65_i32 c1_i32_260
  let v717 : BitVec 32 := Scalar.addi c0_i32_261 v716
  let c0_i32_262 : BitVec 32 := 0#32
  ![v717.toNat, 0]
def k0_off264 (v720 : BitVec 32) : Fin 2 → Nat :=
  let c0_i32_263 : BitVec 32 := 0#32
  ![v720.toNat, 0]

def k0_chk66 (v720 : BitVec 32) : Prop :=
  (∀ a, (k0_off264 v720) a + S1x8000.size a ≤ S8000x8000.size a)
instance k0_chk66.dec : ∀ (v720 : BitVec 32), Decidable (k0_chk66 v720) := fun v720 => decidable_of_iff' _ (Iff.of_eq (k0_chk66.eq_1 v720))
theorem k0_off264_inb : ∀ (v720 : BitVec 32) (k0_hw66 : k0_chk66 v720), ∀ a, (k0_off264 v720) a + S1x8000.size a ≤ S8000x8000.size a := fun v720 k0_hw66 => k0_hw66

def k0_off265 (i : grid0.Coords) : Fin 1 → Nat :=
  let arg0 : BitVec 32 := BitVec.ofNat 32 (i 0).val
  let c128_i32 : BitVec 32 := 128#32
  let v0 : BitVec 32 := Scalar.muli arg0 c128_i32
  let c0_i32_265 : BitVec 32 := 0#32
  let c66_i32 : BitVec 32 := 66#32
  let c1_i32_264 : BitVec 32 := 1#32
  let v727 : BitVec 32 := Scalar.muli c66_i32 c1_i32_264
  let v728 : BitVec 32 := Scalar.addi c0_i32_265 v727
  let v729 : BitVec 32 := Scalar.addi v0 v728
  let v730 : Index := Scalar.indexCast v729
  ![v730.toNat]
def k0_off266 : Fin 1 → Nat :=
  let c0_i32_265 : BitVec 32 := 0#32
  let c66_i32 : BitVec 32 := 66#32
  let c1_i32_264 : BitVec 32 := 1#32
  let v727 : BitVec 32 := Scalar.muli c66_i32 c1_i32_264
  let v728 : BitVec 32 := Scalar.addi c0_i32_265 v727
  ![v728.toNat]
def k0_off267 : Fin 2 → Nat :=
  let c0_i32_265 : BitVec 32 := 0#32
  let c66_i32 : BitVec 32 := 66#32
  let c1_i32_264 : BitVec 32 := 1#32
  let v727 : BitVec 32 := Scalar.muli c66_i32 c1_i32_264
  let v728 : BitVec 32 := Scalar.addi c0_i32_265 v727
  let c0_i32_266 : BitVec 32 := 0#32
  ![v728.toNat, 0]
def k0_off268 (v731 : BitVec 32) : Fin 2 → Nat :=
  let c0_i32_267 : BitVec 32 := 0#32
  ![v731.toNat, 0]

def k0_chk67 (v731 : BitVec 32) : Prop :=
  (∀ a, (k0_off268 v731) a + S1x8000.size a ≤ S8000x8000.size a)
instance k0_chk67.dec : ∀ (v731 : BitVec 32), Decidable (k0_chk67 v731) := fun v731 => decidable_of_iff' _ (Iff.of_eq (k0_chk67.eq_1 v731))
theorem k0_off268_inb : ∀ (v731 : BitVec 32) (k0_hw67 : k0_chk67 v731), ∀ a, (k0_off268 v731) a + S1x8000.size a ≤ S8000x8000.size a := fun v731 k0_hw67 => k0_hw67

def k0_off269 (i : grid0.Coords) : Fin 1 → Nat :=
  let arg0 : BitVec 32 := BitVec.ofNat 32 (i 0).val
  let c128_i32 : BitVec 32 := 128#32
  let v0 : BitVec 32 := Scalar.muli arg0 c128_i32
  let c0_i32_269 : BitVec 32 := 0#32
  let c67_i32 : BitVec 32 := 67#32
  let c1_i32_268 : BitVec 32 := 1#32
  let v738 : BitVec 32 := Scalar.muli c67_i32 c1_i32_268
  let v739 : BitVec 32 := Scalar.addi c0_i32_269 v738
  let v740 : BitVec 32 := Scalar.addi v0 v739
  let v741 : Index := Scalar.indexCast v740
  ![v741.toNat]
def k0_off270 : Fin 1 → Nat :=
  let c0_i32_269 : BitVec 32 := 0#32
  let c67_i32 : BitVec 32 := 67#32
  let c1_i32_268 : BitVec 32 := 1#32
  let v738 : BitVec 32 := Scalar.muli c67_i32 c1_i32_268
  let v739 : BitVec 32 := Scalar.addi c0_i32_269 v738
  ![v739.toNat]
def k0_off271 : Fin 2 → Nat :=
  let c0_i32_269 : BitVec 32 := 0#32
  let c67_i32 : BitVec 32 := 67#32
  let c1_i32_268 : BitVec 32 := 1#32
  let v738 : BitVec 32 := Scalar.muli c67_i32 c1_i32_268
  let v739 : BitVec 32 := Scalar.addi c0_i32_269 v738
  let c0_i32_270 : BitVec 32 := 0#32
  ![v739.toNat, 0]
def k0_off272 (v742 : BitVec 32) : Fin 2 → Nat :=
  let c0_i32_271 : BitVec 32 := 0#32
  ![v742.toNat, 0]

def k0_chk68 (v742 : BitVec 32) : Prop :=
  (∀ a, (k0_off272 v742) a + S1x8000.size a ≤ S8000x8000.size a)
instance k0_chk68.dec : ∀ (v742 : BitVec 32), Decidable (k0_chk68 v742) := fun v742 => decidable_of_iff' _ (Iff.of_eq (k0_chk68.eq_1 v742))
theorem k0_off272_inb : ∀ (v742 : BitVec 32) (k0_hw68 : k0_chk68 v742), ∀ a, (k0_off272 v742) a + S1x8000.size a ≤ S8000x8000.size a := fun v742 k0_hw68 => k0_hw68

def k0_off273 (i : grid0.Coords) : Fin 1 → Nat :=
  let arg0 : BitVec 32 := BitVec.ofNat 32 (i 0).val
  let c128_i32 : BitVec 32 := 128#32
  let v0 : BitVec 32 := Scalar.muli arg0 c128_i32
  let c0_i32_273 : BitVec 32 := 0#32
  let c68_i32 : BitVec 32 := 68#32
  let c1_i32_272 : BitVec 32 := 1#32
  let v749 : BitVec 32 := Scalar.muli c68_i32 c1_i32_272
  let v750 : BitVec 32 := Scalar.addi c0_i32_273 v749
  let v751 : BitVec 32 := Scalar.addi v0 v750
  let v752 : Index := Scalar.indexCast v751
  ![v752.toNat]
def k0_off274 : Fin 1 → Nat :=
  let c0_i32_273 : BitVec 32 := 0#32
  let c68_i32 : BitVec 32 := 68#32
  let c1_i32_272 : BitVec 32 := 1#32
  let v749 : BitVec 32 := Scalar.muli c68_i32 c1_i32_272
  let v750 : BitVec 32 := Scalar.addi c0_i32_273 v749
  ![v750.toNat]
def k0_off275 : Fin 2 → Nat :=
  let c0_i32_273 : BitVec 32 := 0#32
  let c68_i32 : BitVec 32 := 68#32
  let c1_i32_272 : BitVec 32 := 1#32
  let v749 : BitVec 32 := Scalar.muli c68_i32 c1_i32_272
  let v750 : BitVec 32 := Scalar.addi c0_i32_273 v749
  let c0_i32_274 : BitVec 32 := 0#32
  ![v750.toNat, 0]
def k0_off276 (v753 : BitVec 32) : Fin 2 → Nat :=
  let c0_i32_275 : BitVec 32 := 0#32
  ![v753.toNat, 0]

def k0_chk69 (v753 : BitVec 32) : Prop :=
  (∀ a, (k0_off276 v753) a + S1x8000.size a ≤ S8000x8000.size a)
instance k0_chk69.dec : ∀ (v753 : BitVec 32), Decidable (k0_chk69 v753) := fun v753 => decidable_of_iff' _ (Iff.of_eq (k0_chk69.eq_1 v753))
theorem k0_off276_inb : ∀ (v753 : BitVec 32) (k0_hw69 : k0_chk69 v753), ∀ a, (k0_off276 v753) a + S1x8000.size a ≤ S8000x8000.size a := fun v753 k0_hw69 => k0_hw69

def k0_off277 (i : grid0.Coords) : Fin 1 → Nat :=
  let arg0 : BitVec 32 := BitVec.ofNat 32 (i 0).val
  let c128_i32 : BitVec 32 := 128#32
  let v0 : BitVec 32 := Scalar.muli arg0 c128_i32
  let c0_i32_277 : BitVec 32 := 0#32
  let c69_i32 : BitVec 32 := 69#32
  let c1_i32_276 : BitVec 32 := 1#32
  let v760 : BitVec 32 := Scalar.muli c69_i32 c1_i32_276
  let v761 : BitVec 32 := Scalar.addi c0_i32_277 v760
  let v762 : BitVec 32 := Scalar.addi v0 v761
  let v763 : Index := Scalar.indexCast v762
  ![v763.toNat]
def k0_off278 : Fin 1 → Nat :=
  let c0_i32_277 : BitVec 32 := 0#32
  let c69_i32 : BitVec 32 := 69#32
  let c1_i32_276 : BitVec 32 := 1#32
  let v760 : BitVec 32 := Scalar.muli c69_i32 c1_i32_276
  let v761 : BitVec 32 := Scalar.addi c0_i32_277 v760
  ![v761.toNat]
def k0_off279 : Fin 2 → Nat :=
  let c0_i32_277 : BitVec 32 := 0#32
  let c69_i32 : BitVec 32 := 69#32
  let c1_i32_276 : BitVec 32 := 1#32
  let v760 : BitVec 32 := Scalar.muli c69_i32 c1_i32_276
  let v761 : BitVec 32 := Scalar.addi c0_i32_277 v760
  let c0_i32_278 : BitVec 32 := 0#32
  ![v761.toNat, 0]
def k0_off280 (v764 : BitVec 32) : Fin 2 → Nat :=
  let c0_i32_279 : BitVec 32 := 0#32
  ![v764.toNat, 0]

def k0_chk70 (v764 : BitVec 32) : Prop :=
  (∀ a, (k0_off280 v764) a + S1x8000.size a ≤ S8000x8000.size a)
instance k0_chk70.dec : ∀ (v764 : BitVec 32), Decidable (k0_chk70 v764) := fun v764 => decidable_of_iff' _ (Iff.of_eq (k0_chk70.eq_1 v764))
theorem k0_off280_inb : ∀ (v764 : BitVec 32) (k0_hw70 : k0_chk70 v764), ∀ a, (k0_off280 v764) a + S1x8000.size a ≤ S8000x8000.size a := fun v764 k0_hw70 => k0_hw70

def k0_off281 (i : grid0.Coords) : Fin 1 → Nat :=
  let arg0 : BitVec 32 := BitVec.ofNat 32 (i 0).val
  let c128_i32 : BitVec 32 := 128#32
  let v0 : BitVec 32 := Scalar.muli arg0 c128_i32
  let c0_i32_281 : BitVec 32 := 0#32
  let c70_i32 : BitVec 32 := 70#32
  let c1_i32_280 : BitVec 32 := 1#32
  let v771 : BitVec 32 := Scalar.muli c70_i32 c1_i32_280
  let v772 : BitVec 32 := Scalar.addi c0_i32_281 v771
  let v773 : BitVec 32 := Scalar.addi v0 v772
  let v774 : Index := Scalar.indexCast v773
  ![v774.toNat]
def k0_off282 : Fin 1 → Nat :=
  let c0_i32_281 : BitVec 32 := 0#32
  let c70_i32 : BitVec 32 := 70#32
  let c1_i32_280 : BitVec 32 := 1#32
  let v771 : BitVec 32 := Scalar.muli c70_i32 c1_i32_280
  let v772 : BitVec 32 := Scalar.addi c0_i32_281 v771
  ![v772.toNat]
def k0_off283 : Fin 2 → Nat :=
  let c0_i32_281 : BitVec 32 := 0#32
  let c70_i32 : BitVec 32 := 70#32
  let c1_i32_280 : BitVec 32 := 1#32
  let v771 : BitVec 32 := Scalar.muli c70_i32 c1_i32_280
  let v772 : BitVec 32 := Scalar.addi c0_i32_281 v771
  let c0_i32_282 : BitVec 32 := 0#32
  ![v772.toNat, 0]
def k0_off284 (v775 : BitVec 32) : Fin 2 → Nat :=
  let c0_i32_283 : BitVec 32 := 0#32
  ![v775.toNat, 0]

def k0_chk71 (v775 : BitVec 32) : Prop :=
  (∀ a, (k0_off284 v775) a + S1x8000.size a ≤ S8000x8000.size a)
instance k0_chk71.dec : ∀ (v775 : BitVec 32), Decidable (k0_chk71 v775) := fun v775 => decidable_of_iff' _ (Iff.of_eq (k0_chk71.eq_1 v775))
theorem k0_off284_inb : ∀ (v775 : BitVec 32) (k0_hw71 : k0_chk71 v775), ∀ a, (k0_off284 v775) a + S1x8000.size a ≤ S8000x8000.size a := fun v775 k0_hw71 => k0_hw71

def k0_off285 (i : grid0.Coords) : Fin 1 → Nat :=
  let arg0 : BitVec 32 := BitVec.ofNat 32 (i 0).val
  let c128_i32 : BitVec 32 := 128#32
  let v0 : BitVec 32 := Scalar.muli arg0 c128_i32
  let c0_i32_285 : BitVec 32 := 0#32
  let c71_i32 : BitVec 32 := 71#32
  let c1_i32_284 : BitVec 32 := 1#32
  let v782 : BitVec 32 := Scalar.muli c71_i32 c1_i32_284
  let v783 : BitVec 32 := Scalar.addi c0_i32_285 v782
  let v784 : BitVec 32 := Scalar.addi v0 v783
  let v785 : Index := Scalar.indexCast v784
  ![v785.toNat]
def k0_off286 : Fin 1 → Nat :=
  let c0_i32_285 : BitVec 32 := 0#32
  let c71_i32 : BitVec 32 := 71#32
  let c1_i32_284 : BitVec 32 := 1#32
  let v782 : BitVec 32 := Scalar.muli c71_i32 c1_i32_284
  let v783 : BitVec 32 := Scalar.addi c0_i32_285 v782
  ![v783.toNat]
def k0_off287 : Fin 2 → Nat :=
  let c0_i32_285 : BitVec 32 := 0#32
  let c71_i32 : BitVec 32 := 71#32
  let c1_i32_284 : BitVec 32 := 1#32
  let v782 : BitVec 32 := Scalar.muli c71_i32 c1_i32_284
  let v783 : BitVec 32 := Scalar.addi c0_i32_285 v782
  let c0_i32_286 : BitVec 32 := 0#32
  ![v783.toNat, 0]
def k0_off288 (v786 : BitVec 32) : Fin 2 → Nat :=
  let c0_i32_287 : BitVec 32 := 0#32
  ![v786.toNat, 0]

def k0_chk72 (v786 : BitVec 32) : Prop :=
  (∀ a, (k0_off288 v786) a + S1x8000.size a ≤ S8000x8000.size a)
instance k0_chk72.dec : ∀ (v786 : BitVec 32), Decidable (k0_chk72 v786) := fun v786 => decidable_of_iff' _ (Iff.of_eq (k0_chk72.eq_1 v786))
theorem k0_off288_inb : ∀ (v786 : BitVec 32) (k0_hw72 : k0_chk72 v786), ∀ a, (k0_off288 v786) a + S1x8000.size a ≤ S8000x8000.size a := fun v786 k0_hw72 => k0_hw72

def k0_off289 (i : grid0.Coords) : Fin 1 → Nat :=
  let arg0 : BitVec 32 := BitVec.ofNat 32 (i 0).val
  let c128_i32 : BitVec 32 := 128#32
  let v0 : BitVec 32 := Scalar.muli arg0 c128_i32
  let c0_i32_289 : BitVec 32 := 0#32
  let c72_i32 : BitVec 32 := 72#32
  let c1_i32_288 : BitVec 32 := 1#32
  let v793 : BitVec 32 := Scalar.muli c72_i32 c1_i32_288
  let v794 : BitVec 32 := Scalar.addi c0_i32_289 v793
  let v795 : BitVec 32 := Scalar.addi v0 v794
  let v796 : Index := Scalar.indexCast v795
  ![v796.toNat]
def k0_off290 : Fin 1 → Nat :=
  let c0_i32_289 : BitVec 32 := 0#32
  let c72_i32 : BitVec 32 := 72#32
  let c1_i32_288 : BitVec 32 := 1#32
  let v793 : BitVec 32 := Scalar.muli c72_i32 c1_i32_288
  let v794 : BitVec 32 := Scalar.addi c0_i32_289 v793
  ![v794.toNat]
def k0_off291 : Fin 2 → Nat :=
  let c0_i32_289 : BitVec 32 := 0#32
  let c72_i32 : BitVec 32 := 72#32
  let c1_i32_288 : BitVec 32 := 1#32
  let v793 : BitVec 32 := Scalar.muli c72_i32 c1_i32_288
  let v794 : BitVec 32 := Scalar.addi c0_i32_289 v793
  let c0_i32_290 : BitVec 32 := 0#32
  ![v794.toNat, 0]
def k0_off292 (v797 : BitVec 32) : Fin 2 → Nat :=
  let c0_i32_291 : BitVec 32 := 0#32
  ![v797.toNat, 0]

def k0_chk73 (v797 : BitVec 32) : Prop :=
  (∀ a, (k0_off292 v797) a + S1x8000.size a ≤ S8000x8000.size a)
instance k0_chk73.dec : ∀ (v797 : BitVec 32), Decidable (k0_chk73 v797) := fun v797 => decidable_of_iff' _ (Iff.of_eq (k0_chk73.eq_1 v797))
theorem k0_off292_inb : ∀ (v797 : BitVec 32) (k0_hw73 : k0_chk73 v797), ∀ a, (k0_off292 v797) a + S1x8000.size a ≤ S8000x8000.size a := fun v797 k0_hw73 => k0_hw73

def k0_off293 (i : grid0.Coords) : Fin 1 → Nat :=
  let arg0 : BitVec 32 := BitVec.ofNat 32 (i 0).val
  let c128_i32 : BitVec 32 := 128#32
  let v0 : BitVec 32 := Scalar.muli arg0 c128_i32
  let c0_i32_293 : BitVec 32 := 0#32
  let c73_i32 : BitVec 32 := 73#32
  let c1_i32_292 : BitVec 32 := 1#32
  let v804 : BitVec 32 := Scalar.muli c73_i32 c1_i32_292
  let v805 : BitVec 32 := Scalar.addi c0_i32_293 v804
  let v806 : BitVec 32 := Scalar.addi v0 v805
  let v807 : Index := Scalar.indexCast v806
  ![v807.toNat]
def k0_off294 : Fin 1 → Nat :=
  let c0_i32_293 : BitVec 32 := 0#32
  let c73_i32 : BitVec 32 := 73#32
  let c1_i32_292 : BitVec 32 := 1#32
  let v804 : BitVec 32 := Scalar.muli c73_i32 c1_i32_292
  let v805 : BitVec 32 := Scalar.addi c0_i32_293 v804
  ![v805.toNat]
def k0_off295 : Fin 2 → Nat :=
  let c0_i32_293 : BitVec 32 := 0#32
  let c73_i32 : BitVec 32 := 73#32
  let c1_i32_292 : BitVec 32 := 1#32
  let v804 : BitVec 32 := Scalar.muli c73_i32 c1_i32_292
  let v805 : BitVec 32 := Scalar.addi c0_i32_293 v804
  let c0_i32_294 : BitVec 32 := 0#32
  ![v805.toNat, 0]
def k0_off296 (v808 : BitVec 32) : Fin 2 → Nat :=
  let c0_i32_295 : BitVec 32 := 0#32
  ![v808.toNat, 0]

def k0_chk74 (v808 : BitVec 32) : Prop :=
  (∀ a, (k0_off296 v808) a + S1x8000.size a ≤ S8000x8000.size a)
instance k0_chk74.dec : ∀ (v808 : BitVec 32), Decidable (k0_chk74 v808) := fun v808 => decidable_of_iff' _ (Iff.of_eq (k0_chk74.eq_1 v808))
theorem k0_off296_inb : ∀ (v808 : BitVec 32) (k0_hw74 : k0_chk74 v808), ∀ a, (k0_off296 v808) a + S1x8000.size a ≤ S8000x8000.size a := fun v808 k0_hw74 => k0_hw74

def k0_off297 (i : grid0.Coords) : Fin 1 → Nat :=
  let arg0 : BitVec 32 := BitVec.ofNat 32 (i 0).val
  let c128_i32 : BitVec 32 := 128#32
  let v0 : BitVec 32 := Scalar.muli arg0 c128_i32
  let c0_i32_297 : BitVec 32 := 0#32
  let c74_i32 : BitVec 32 := 74#32
  let c1_i32_296 : BitVec 32 := 1#32
  let v815 : BitVec 32 := Scalar.muli c74_i32 c1_i32_296
  let v816 : BitVec 32 := Scalar.addi c0_i32_297 v815
  let v817 : BitVec 32 := Scalar.addi v0 v816
  let v818 : Index := Scalar.indexCast v817
  ![v818.toNat]
def k0_off298 : Fin 1 → Nat :=
  let c0_i32_297 : BitVec 32 := 0#32
  let c74_i32 : BitVec 32 := 74#32
  let c1_i32_296 : BitVec 32 := 1#32
  let v815 : BitVec 32 := Scalar.muli c74_i32 c1_i32_296
  let v816 : BitVec 32 := Scalar.addi c0_i32_297 v815
  ![v816.toNat]
def k0_off299 : Fin 2 → Nat :=
  let c0_i32_297 : BitVec 32 := 0#32
  let c74_i32 : BitVec 32 := 74#32
  let c1_i32_296 : BitVec 32 := 1#32
  let v815 : BitVec 32 := Scalar.muli c74_i32 c1_i32_296
  let v816 : BitVec 32 := Scalar.addi c0_i32_297 v815
  let c0_i32_298 : BitVec 32 := 0#32
  ![v816.toNat, 0]
def k0_off300 (v819 : BitVec 32) : Fin 2 → Nat :=
  let c0_i32_299 : BitVec 32 := 0#32
  ![v819.toNat, 0]

def k0_chk75 (v819 : BitVec 32) : Prop :=
  (∀ a, (k0_off300 v819) a + S1x8000.size a ≤ S8000x8000.size a)
instance k0_chk75.dec : ∀ (v819 : BitVec 32), Decidable (k0_chk75 v819) := fun v819 => decidable_of_iff' _ (Iff.of_eq (k0_chk75.eq_1 v819))
theorem k0_off300_inb : ∀ (v819 : BitVec 32) (k0_hw75 : k0_chk75 v819), ∀ a, (k0_off300 v819) a + S1x8000.size a ≤ S8000x8000.size a := fun v819 k0_hw75 => k0_hw75

def k0_off301 (i : grid0.Coords) : Fin 1 → Nat :=
  let arg0 : BitVec 32 := BitVec.ofNat 32 (i 0).val
  let c128_i32 : BitVec 32 := 128#32
  let v0 : BitVec 32 := Scalar.muli arg0 c128_i32
  let c0_i32_301 : BitVec 32 := 0#32
  let c75_i32 : BitVec 32 := 75#32
  let c1_i32_300 : BitVec 32 := 1#32
  let v826 : BitVec 32 := Scalar.muli c75_i32 c1_i32_300
  let v827 : BitVec 32 := Scalar.addi c0_i32_301 v826
  let v828 : BitVec 32 := Scalar.addi v0 v827
  let v829 : Index := Scalar.indexCast v828
  ![v829.toNat]
def k0_off302 : Fin 1 → Nat :=
  let c0_i32_301 : BitVec 32 := 0#32
  let c75_i32 : BitVec 32 := 75#32
  let c1_i32_300 : BitVec 32 := 1#32
  let v826 : BitVec 32 := Scalar.muli c75_i32 c1_i32_300
  let v827 : BitVec 32 := Scalar.addi c0_i32_301 v826
  ![v827.toNat]
def k0_off303 : Fin 2 → Nat :=
  let c0_i32_301 : BitVec 32 := 0#32
  let c75_i32 : BitVec 32 := 75#32
  let c1_i32_300 : BitVec 32 := 1#32
  let v826 : BitVec 32 := Scalar.muli c75_i32 c1_i32_300
  let v827 : BitVec 32 := Scalar.addi c0_i32_301 v826
  let c0_i32_302 : BitVec 32 := 0#32
  ![v827.toNat, 0]
def k0_off304 (v830 : BitVec 32) : Fin 2 → Nat :=
  let c0_i32_303 : BitVec 32 := 0#32
  ![v830.toNat, 0]

def k0_chk76 (v830 : BitVec 32) : Prop :=
  (∀ a, (k0_off304 v830) a + S1x8000.size a ≤ S8000x8000.size a)
instance k0_chk76.dec : ∀ (v830 : BitVec 32), Decidable (k0_chk76 v830) := fun v830 => decidable_of_iff' _ (Iff.of_eq (k0_chk76.eq_1 v830))
theorem k0_off304_inb : ∀ (v830 : BitVec 32) (k0_hw76 : k0_chk76 v830), ∀ a, (k0_off304 v830) a + S1x8000.size a ≤ S8000x8000.size a := fun v830 k0_hw76 => k0_hw76

def k0_off305 (i : grid0.Coords) : Fin 1 → Nat :=
  let arg0 : BitVec 32 := BitVec.ofNat 32 (i 0).val
  let c128_i32 : BitVec 32 := 128#32
  let v0 : BitVec 32 := Scalar.muli arg0 c128_i32
  let c0_i32_305 : BitVec 32 := 0#32
  let c76_i32 : BitVec 32 := 76#32
  let c1_i32_304 : BitVec 32 := 1#32
  let v837 : BitVec 32 := Scalar.muli c76_i32 c1_i32_304
  let v838 : BitVec 32 := Scalar.addi c0_i32_305 v837
  let v839 : BitVec 32 := Scalar.addi v0 v838
  let v840 : Index := Scalar.indexCast v839
  ![v840.toNat]
def k0_off306 : Fin 1 → Nat :=
  let c0_i32_305 : BitVec 32 := 0#32
  let c76_i32 : BitVec 32 := 76#32
  let c1_i32_304 : BitVec 32 := 1#32
  let v837 : BitVec 32 := Scalar.muli c76_i32 c1_i32_304
  let v838 : BitVec 32 := Scalar.addi c0_i32_305 v837
  ![v838.toNat]
def k0_off307 : Fin 2 → Nat :=
  let c0_i32_305 : BitVec 32 := 0#32
  let c76_i32 : BitVec 32 := 76#32
  let c1_i32_304 : BitVec 32 := 1#32
  let v837 : BitVec 32 := Scalar.muli c76_i32 c1_i32_304
  let v838 : BitVec 32 := Scalar.addi c0_i32_305 v837
  let c0_i32_306 : BitVec 32 := 0#32
  ![v838.toNat, 0]
def k0_off308 (v841 : BitVec 32) : Fin 2 → Nat :=
  let c0_i32_307 : BitVec 32 := 0#32
  ![v841.toNat, 0]

def k0_chk77 (v841 : BitVec 32) : Prop :=
  (∀ a, (k0_off308 v841) a + S1x8000.size a ≤ S8000x8000.size a)
instance k0_chk77.dec : ∀ (v841 : BitVec 32), Decidable (k0_chk77 v841) := fun v841 => decidable_of_iff' _ (Iff.of_eq (k0_chk77.eq_1 v841))
theorem k0_off308_inb : ∀ (v841 : BitVec 32) (k0_hw77 : k0_chk77 v841), ∀ a, (k0_off308 v841) a + S1x8000.size a ≤ S8000x8000.size a := fun v841 k0_hw77 => k0_hw77

def k0_off309 (i : grid0.Coords) : Fin 1 → Nat :=
  let arg0 : BitVec 32 := BitVec.ofNat 32 (i 0).val
  let c128_i32 : BitVec 32 := 128#32
  let v0 : BitVec 32 := Scalar.muli arg0 c128_i32
  let c0_i32_309 : BitVec 32 := 0#32
  let c77_i32 : BitVec 32 := 77#32
  let c1_i32_308 : BitVec 32 := 1#32
  let v848 : BitVec 32 := Scalar.muli c77_i32 c1_i32_308
  let v849 : BitVec 32 := Scalar.addi c0_i32_309 v848
  let v850 : BitVec 32 := Scalar.addi v0 v849
  let v851 : Index := Scalar.indexCast v850
  ![v851.toNat]
def k0_off310 : Fin 1 → Nat :=
  let c0_i32_309 : BitVec 32 := 0#32
  let c77_i32 : BitVec 32 := 77#32
  let c1_i32_308 : BitVec 32 := 1#32
  let v848 : BitVec 32 := Scalar.muli c77_i32 c1_i32_308
  let v849 : BitVec 32 := Scalar.addi c0_i32_309 v848
  ![v849.toNat]
def k0_off311 : Fin 2 → Nat :=
  let c0_i32_309 : BitVec 32 := 0#32
  let c77_i32 : BitVec 32 := 77#32
  let c1_i32_308 : BitVec 32 := 1#32
  let v848 : BitVec 32 := Scalar.muli c77_i32 c1_i32_308
  let v849 : BitVec 32 := Scalar.addi c0_i32_309 v848
  let c0_i32_310 : BitVec 32 := 0#32
  ![v849.toNat, 0]
def k0_off312 (v852 : BitVec 32) : Fin 2 → Nat :=
  let c0_i32_311 : BitVec 32 := 0#32
  ![v852.toNat, 0]

def k0_chk78 (v852 : BitVec 32) : Prop :=
  (∀ a, (k0_off312 v852) a + S1x8000.size a ≤ S8000x8000.size a)
instance k0_chk78.dec : ∀ (v852 : BitVec 32), Decidable (k0_chk78 v852) := fun v852 => decidable_of_iff' _ (Iff.of_eq (k0_chk78.eq_1 v852))
theorem k0_off312_inb : ∀ (v852 : BitVec 32) (k0_hw78 : k0_chk78 v852), ∀ a, (k0_off312 v852) a + S1x8000.size a ≤ S8000x8000.size a := fun v852 k0_hw78 => k0_hw78

def k0_off313 (i : grid0.Coords) : Fin 1 → Nat :=
  let arg0 : BitVec 32 := BitVec.ofNat 32 (i 0).val
  let c128_i32 : BitVec 32 := 128#32
  let v0 : BitVec 32 := Scalar.muli arg0 c128_i32
  let c0_i32_313 : BitVec 32 := 0#32
  let c78_i32 : BitVec 32 := 78#32
  let c1_i32_312 : BitVec 32 := 1#32
  let v859 : BitVec 32 := Scalar.muli c78_i32 c1_i32_312
  let v860 : BitVec 32 := Scalar.addi c0_i32_313 v859
  let v861 : BitVec 32 := Scalar.addi v0 v860
  let v862 : Index := Scalar.indexCast v861
  ![v862.toNat]
def k0_off314 : Fin 1 → Nat :=
  let c0_i32_313 : BitVec 32 := 0#32
  let c78_i32 : BitVec 32 := 78#32
  let c1_i32_312 : BitVec 32 := 1#32
  let v859 : BitVec 32 := Scalar.muli c78_i32 c1_i32_312
  let v860 : BitVec 32 := Scalar.addi c0_i32_313 v859
  ![v860.toNat]
def k0_off315 : Fin 2 → Nat :=
  let c0_i32_313 : BitVec 32 := 0#32
  let c78_i32 : BitVec 32 := 78#32
  let c1_i32_312 : BitVec 32 := 1#32
  let v859 : BitVec 32 := Scalar.muli c78_i32 c1_i32_312
  let v860 : BitVec 32 := Scalar.addi c0_i32_313 v859
  let c0_i32_314 : BitVec 32 := 0#32
  ![v860.toNat, 0]
def k0_off316 (v863 : BitVec 32) : Fin 2 → Nat :=
  let c0_i32_315 : BitVec 32 := 0#32
  ![v863.toNat, 0]

def k0_chk79 (v863 : BitVec 32) : Prop :=
  (∀ a, (k0_off316 v863) a + S1x8000.size a ≤ S8000x8000.size a)
instance k0_chk79.dec : ∀ (v863 : BitVec 32), Decidable (k0_chk79 v863) := fun v863 => decidable_of_iff' _ (Iff.of_eq (k0_chk79.eq_1 v863))
theorem k0_off316_inb : ∀ (v863 : BitVec 32) (k0_hw79 : k0_chk79 v863), ∀ a, (k0_off316 v863) a + S1x8000.size a ≤ S8000x8000.size a := fun v863 k0_hw79 => k0_hw79

def k0_off317 (i : grid0.Coords) : Fin 1 → Nat :=
  let arg0 : BitVec 32 := BitVec.ofNat 32 (i 0).val
  let c128_i32 : BitVec 32 := 128#32
  let v0 : BitVec 32 := Scalar.muli arg0 c128_i32
  let c0_i32_317 : BitVec 32 := 0#32
  let c79_i32 : BitVec 32 := 79#32
  let c1_i32_316 : BitVec 32 := 1#32
  let v870 : BitVec 32 := Scalar.muli c79_i32 c1_i32_316
  let v871 : BitVec 32 := Scalar.addi c0_i32_317 v870
  let v872 : BitVec 32 := Scalar.addi v0 v871
  let v873 : Index := Scalar.indexCast v872
  ![v873.toNat]
def k0_off318 : Fin 1 → Nat :=
  let c0_i32_317 : BitVec 32 := 0#32
  let c79_i32 : BitVec 32 := 79#32
  let c1_i32_316 : BitVec 32 := 1#32
  let v870 : BitVec 32 := Scalar.muli c79_i32 c1_i32_316
  let v871 : BitVec 32 := Scalar.addi c0_i32_317 v870
  ![v871.toNat]
def k0_off319 : Fin 2 → Nat :=
  let c0_i32_317 : BitVec 32 := 0#32
  let c79_i32 : BitVec 32 := 79#32
  let c1_i32_316 : BitVec 32 := 1#32
  let v870 : BitVec 32 := Scalar.muli c79_i32 c1_i32_316
  let v871 : BitVec 32 := Scalar.addi c0_i32_317 v870
  let c0_i32_318 : BitVec 32 := 0#32
  ![v871.toNat, 0]
def k0_off320 (v874 : BitVec 32) : Fin 2 → Nat :=
  let c0_i32_319 : BitVec 32 := 0#32
  ![v874.toNat, 0]

def k0_chk80 (v874 : BitVec 32) : Prop :=
  (∀ a, (k0_off320 v874) a + S1x8000.size a ≤ S8000x8000.size a)
instance k0_chk80.dec : ∀ (v874 : BitVec 32), Decidable (k0_chk80 v874) := fun v874 => decidable_of_iff' _ (Iff.of_eq (k0_chk80.eq_1 v874))
theorem k0_off320_inb : ∀ (v874 : BitVec 32) (k0_hw80 : k0_chk80 v874), ∀ a, (k0_off320 v874) a + S1x8000.size a ≤ S8000x8000.size a := fun v874 k0_hw80 => k0_hw80

def k0_off321 (i : grid0.Coords) : Fin 1 → Nat :=
  let arg0 : BitVec 32 := BitVec.ofNat 32 (i 0).val
  let c128_i32 : BitVec 32 := 128#32
  let v0 : BitVec 32 := Scalar.muli arg0 c128_i32
  let c0_i32_321 : BitVec 32 := 0#32
  let c80_i32 : BitVec 32 := 80#32
  let c1_i32_320 : BitVec 32 := 1#32
  let v881 : BitVec 32 := Scalar.muli c80_i32 c1_i32_320
  let v882 : BitVec 32 := Scalar.addi c0_i32_321 v881
  let v883 : BitVec 32 := Scalar.addi v0 v882
  let v884 : Index := Scalar.indexCast v883
  ![v884.toNat]
def k0_off322 : Fin 1 → Nat :=
  let c0_i32_321 : BitVec 32 := 0#32
  let c80_i32 : BitVec 32 := 80#32
  let c1_i32_320 : BitVec 32 := 1#32
  let v881 : BitVec 32 := Scalar.muli c80_i32 c1_i32_320
  let v882 : BitVec 32 := Scalar.addi c0_i32_321 v881
  ![v882.toNat]
def k0_off323 : Fin 2 → Nat :=
  let c0_i32_321 : BitVec 32 := 0#32
  let c80_i32 : BitVec 32 := 80#32
  let c1_i32_320 : BitVec 32 := 1#32
  let v881 : BitVec 32 := Scalar.muli c80_i32 c1_i32_320
  let v882 : BitVec 32 := Scalar.addi c0_i32_321 v881
  let c0_i32_322 : BitVec 32 := 0#32
  ![v882.toNat, 0]
def k0_off324 (v885 : BitVec 32) : Fin 2 → Nat :=
  let c0_i32_323 : BitVec 32 := 0#32
  ![v885.toNat, 0]

def k0_chk81 (v885 : BitVec 32) : Prop :=
  (∀ a, (k0_off324 v885) a + S1x8000.size a ≤ S8000x8000.size a)
instance k0_chk81.dec : ∀ (v885 : BitVec 32), Decidable (k0_chk81 v885) := fun v885 => decidable_of_iff' _ (Iff.of_eq (k0_chk81.eq_1 v885))
theorem k0_off324_inb : ∀ (v885 : BitVec 32) (k0_hw81 : k0_chk81 v885), ∀ a, (k0_off324 v885) a + S1x8000.size a ≤ S8000x8000.size a := fun v885 k0_hw81 => k0_hw81

def k0_off325 (i : grid0.Coords) : Fin 1 → Nat :=
  let arg0 : BitVec 32 := BitVec.ofNat 32 (i 0).val
  let c128_i32 : BitVec 32 := 128#32
  let v0 : BitVec 32 := Scalar.muli arg0 c128_i32
  let c0_i32_325 : BitVec 32 := 0#32
  let c81_i32 : BitVec 32 := 81#32
  let c1_i32_324 : BitVec 32 := 1#32
  let v892 : BitVec 32 := Scalar.muli c81_i32 c1_i32_324
  let v893 : BitVec 32 := Scalar.addi c0_i32_325 v892
  let v894 : BitVec 32 := Scalar.addi v0 v893
  let v895 : Index := Scalar.indexCast v894
  ![v895.toNat]
def k0_off326 : Fin 1 → Nat :=
  let c0_i32_325 : BitVec 32 := 0#32
  let c81_i32 : BitVec 32 := 81#32
  let c1_i32_324 : BitVec 32 := 1#32
  let v892 : BitVec 32 := Scalar.muli c81_i32 c1_i32_324
  let v893 : BitVec 32 := Scalar.addi c0_i32_325 v892
  ![v893.toNat]
def k0_off327 : Fin 2 → Nat :=
  let c0_i32_325 : BitVec 32 := 0#32
  let c81_i32 : BitVec 32 := 81#32
  let c1_i32_324 : BitVec 32 := 1#32
  let v892 : BitVec 32 := Scalar.muli c81_i32 c1_i32_324
  let v893 : BitVec 32 := Scalar.addi c0_i32_325 v892
  let c0_i32_326 : BitVec 32 := 0#32
  ![v893.toNat, 0]
def k0_off328 (v896 : BitVec 32) : Fin 2 → Nat :=
  let c0_i32_327 : BitVec 32 := 0#32
  ![v896.toNat, 0]

def k0_chk82 (v896 : BitVec 32) : Prop :=
  (∀ a, (k0_off328 v896) a + S1x8000.size a ≤ S8000x8000.size a)
instance k0_chk82.dec : ∀ (v896 : BitVec 32), Decidable (k0_chk82 v896) := fun v896 => decidable_of_iff' _ (Iff.of_eq (k0_chk82.eq_1 v896))
theorem k0_off328_inb : ∀ (v896 : BitVec 32) (k0_hw82 : k0_chk82 v896), ∀ a, (k0_off328 v896) a + S1x8000.size a ≤ S8000x8000.size a := fun v896 k0_hw82 => k0_hw82

def k0_off329 (i : grid0.Coords) : Fin 1 → Nat :=
  let arg0 : BitVec 32 := BitVec.ofNat 32 (i 0).val
  let c128_i32 : BitVec 32 := 128#32
  let v0 : BitVec 32 := Scalar.muli arg0 c128_i32
  let c0_i32_329 : BitVec 32 := 0#32
  let c82_i32 : BitVec 32 := 82#32
  let c1_i32_328 : BitVec 32 := 1#32
  let v903 : BitVec 32 := Scalar.muli c82_i32 c1_i32_328
  let v904 : BitVec 32 := Scalar.addi c0_i32_329 v903
  let v905 : BitVec 32 := Scalar.addi v0 v904
  let v906 : Index := Scalar.indexCast v905
  ![v906.toNat]
def k0_off330 : Fin 1 → Nat :=
  let c0_i32_329 : BitVec 32 := 0#32
  let c82_i32 : BitVec 32 := 82#32
  let c1_i32_328 : BitVec 32 := 1#32
  let v903 : BitVec 32 := Scalar.muli c82_i32 c1_i32_328
  let v904 : BitVec 32 := Scalar.addi c0_i32_329 v903
  ![v904.toNat]
def k0_off331 : Fin 2 → Nat :=
  let c0_i32_329 : BitVec 32 := 0#32
  let c82_i32 : BitVec 32 := 82#32
  let c1_i32_328 : BitVec 32 := 1#32
  let v903 : BitVec 32 := Scalar.muli c82_i32 c1_i32_328
  let v904 : BitVec 32 := Scalar.addi c0_i32_329 v903
  let c0_i32_330 : BitVec 32 := 0#32
  ![v904.toNat, 0]
def k0_off332 (v907 : BitVec 32) : Fin 2 → Nat :=
  let c0_i32_331 : BitVec 32 := 0#32
  ![v907.toNat, 0]

def k0_chk83 (v907 : BitVec 32) : Prop :=
  (∀ a, (k0_off332 v907) a + S1x8000.size a ≤ S8000x8000.size a)
instance k0_chk83.dec : ∀ (v907 : BitVec 32), Decidable (k0_chk83 v907) := fun v907 => decidable_of_iff' _ (Iff.of_eq (k0_chk83.eq_1 v907))
theorem k0_off332_inb : ∀ (v907 : BitVec 32) (k0_hw83 : k0_chk83 v907), ∀ a, (k0_off332 v907) a + S1x8000.size a ≤ S8000x8000.size a := fun v907 k0_hw83 => k0_hw83

def k0_off333 (i : grid0.Coords) : Fin 1 → Nat :=
  let arg0 : BitVec 32 := BitVec.ofNat 32 (i 0).val
  let c128_i32 : BitVec 32 := 128#32
  let v0 : BitVec 32 := Scalar.muli arg0 c128_i32
  let c0_i32_333 : BitVec 32 := 0#32
  let c83_i32 : BitVec 32 := 83#32
  let c1_i32_332 : BitVec 32 := 1#32
  let v914 : BitVec 32 := Scalar.muli c83_i32 c1_i32_332
  let v915 : BitVec 32 := Scalar.addi c0_i32_333 v914
  let v916 : BitVec 32 := Scalar.addi v0 v915
  let v917 : Index := Scalar.indexCast v916
  ![v917.toNat]
def k0_off334 : Fin 1 → Nat :=
  let c0_i32_333 : BitVec 32 := 0#32
  let c83_i32 : BitVec 32 := 83#32
  let c1_i32_332 : BitVec 32 := 1#32
  let v914 : BitVec 32 := Scalar.muli c83_i32 c1_i32_332
  let v915 : BitVec 32 := Scalar.addi c0_i32_333 v914
  ![v915.toNat]
def k0_off335 : Fin 2 → Nat :=
  let c0_i32_333 : BitVec 32 := 0#32
  let c83_i32 : BitVec 32 := 83#32
  let c1_i32_332 : BitVec 32 := 1#32
  let v914 : BitVec 32 := Scalar.muli c83_i32 c1_i32_332
  let v915 : BitVec 32 := Scalar.addi c0_i32_333 v914
  let c0_i32_334 : BitVec 32 := 0#32
  ![v915.toNat, 0]
def k0_off336 (v918 : BitVec 32) : Fin 2 → Nat :=
  let c0_i32_335 : BitVec 32 := 0#32
  ![v918.toNat, 0]

def k0_chk84 (v918 : BitVec 32) : Prop :=
  (∀ a, (k0_off336 v918) a + S1x8000.size a ≤ S8000x8000.size a)
instance k0_chk84.dec : ∀ (v918 : BitVec 32), Decidable (k0_chk84 v918) := fun v918 => decidable_of_iff' _ (Iff.of_eq (k0_chk84.eq_1 v918))
theorem k0_off336_inb : ∀ (v918 : BitVec 32) (k0_hw84 : k0_chk84 v918), ∀ a, (k0_off336 v918) a + S1x8000.size a ≤ S8000x8000.size a := fun v918 k0_hw84 => k0_hw84

def k0_off337 (i : grid0.Coords) : Fin 1 → Nat :=
  let arg0 : BitVec 32 := BitVec.ofNat 32 (i 0).val
  let c128_i32 : BitVec 32 := 128#32
  let v0 : BitVec 32 := Scalar.muli arg0 c128_i32
  let c0_i32_337 : BitVec 32 := 0#32
  let c84_i32 : BitVec 32 := 84#32
  let c1_i32_336 : BitVec 32 := 1#32
  let v925 : BitVec 32 := Scalar.muli c84_i32 c1_i32_336
  let v926 : BitVec 32 := Scalar.addi c0_i32_337 v925
  let v927 : BitVec 32 := Scalar.addi v0 v926
  let v928 : Index := Scalar.indexCast v927
  ![v928.toNat]
def k0_off338 : Fin 1 → Nat :=
  let c0_i32_337 : BitVec 32 := 0#32
  let c84_i32 : BitVec 32 := 84#32
  let c1_i32_336 : BitVec 32 := 1#32
  let v925 : BitVec 32 := Scalar.muli c84_i32 c1_i32_336
  let v926 : BitVec 32 := Scalar.addi c0_i32_337 v925
  ![v926.toNat]
def k0_off339 : Fin 2 → Nat :=
  let c0_i32_337 : BitVec 32 := 0#32
  let c84_i32 : BitVec 32 := 84#32
  let c1_i32_336 : BitVec 32 := 1#32
  let v925 : BitVec 32 := Scalar.muli c84_i32 c1_i32_336
  let v926 : BitVec 32 := Scalar.addi c0_i32_337 v925
  let c0_i32_338 : BitVec 32 := 0#32
  ![v926.toNat, 0]
def k0_off340 (v929 : BitVec 32) : Fin 2 → Nat :=
  let c0_i32_339 : BitVec 32 := 0#32
  ![v929.toNat, 0]

def k0_chk85 (v929 : BitVec 32) : Prop :=
  (∀ a, (k0_off340 v929) a + S1x8000.size a ≤ S8000x8000.size a)
instance k0_chk85.dec : ∀ (v929 : BitVec 32), Decidable (k0_chk85 v929) := fun v929 => decidable_of_iff' _ (Iff.of_eq (k0_chk85.eq_1 v929))
theorem k0_off340_inb : ∀ (v929 : BitVec 32) (k0_hw85 : k0_chk85 v929), ∀ a, (k0_off340 v929) a + S1x8000.size a ≤ S8000x8000.size a := fun v929 k0_hw85 => k0_hw85

def k0_off341 (i : grid0.Coords) : Fin 1 → Nat :=
  let arg0 : BitVec 32 := BitVec.ofNat 32 (i 0).val
  let c128_i32 : BitVec 32 := 128#32
  let v0 : BitVec 32 := Scalar.muli arg0 c128_i32
  let c0_i32_341 : BitVec 32 := 0#32
  let c85_i32 : BitVec 32 := 85#32
  let c1_i32_340 : BitVec 32 := 1#32
  let v936 : BitVec 32 := Scalar.muli c85_i32 c1_i32_340
  let v937 : BitVec 32 := Scalar.addi c0_i32_341 v936
  let v938 : BitVec 32 := Scalar.addi v0 v937
  let v939 : Index := Scalar.indexCast v938
  ![v939.toNat]
def k0_off342 : Fin 1 → Nat :=
  let c0_i32_341 : BitVec 32 := 0#32
  let c85_i32 : BitVec 32 := 85#32
  let c1_i32_340 : BitVec 32 := 1#32
  let v936 : BitVec 32 := Scalar.muli c85_i32 c1_i32_340
  let v937 : BitVec 32 := Scalar.addi c0_i32_341 v936
  ![v937.toNat]
def k0_off343 : Fin 2 → Nat :=
  let c0_i32_341 : BitVec 32 := 0#32
  let c85_i32 : BitVec 32 := 85#32
  let c1_i32_340 : BitVec 32 := 1#32
  let v936 : BitVec 32 := Scalar.muli c85_i32 c1_i32_340
  let v937 : BitVec 32 := Scalar.addi c0_i32_341 v936
  let c0_i32_342 : BitVec 32 := 0#32
  ![v937.toNat, 0]
def k0_off344 (v940 : BitVec 32) : Fin 2 → Nat :=
  let c0_i32_343 : BitVec 32 := 0#32
  ![v940.toNat, 0]

def k0_chk86 (v940 : BitVec 32) : Prop :=
  (∀ a, (k0_off344 v940) a + S1x8000.size a ≤ S8000x8000.size a)
instance k0_chk86.dec : ∀ (v940 : BitVec 32), Decidable (k0_chk86 v940) := fun v940 => decidable_of_iff' _ (Iff.of_eq (k0_chk86.eq_1 v940))
theorem k0_off344_inb : ∀ (v940 : BitVec 32) (k0_hw86 : k0_chk86 v940), ∀ a, (k0_off344 v940) a + S1x8000.size a ≤ S8000x8000.size a := fun v940 k0_hw86 => k0_hw86

def k0_off345 (i : grid0.Coords) : Fin 1 → Nat :=
  let arg0 : BitVec 32 := BitVec.ofNat 32 (i 0).val
  let c128_i32 : BitVec 32 := 128#32
  let v0 : BitVec 32 := Scalar.muli arg0 c128_i32
  let c0_i32_345 : BitVec 32 := 0#32
  let c86_i32 : BitVec 32 := 86#32
  let c1_i32_344 : BitVec 32 := 1#32
  let v947 : BitVec 32 := Scalar.muli c86_i32 c1_i32_344
  let v948 : BitVec 32 := Scalar.addi c0_i32_345 v947
  let v949 : BitVec 32 := Scalar.addi v0 v948
  let v950 : Index := Scalar.indexCast v949
  ![v950.toNat]
def k0_off346 : Fin 1 → Nat :=
  let c0_i32_345 : BitVec 32 := 0#32
  let c86_i32 : BitVec 32 := 86#32
  let c1_i32_344 : BitVec 32 := 1#32
  let v947 : BitVec 32 := Scalar.muli c86_i32 c1_i32_344
  let v948 : BitVec 32 := Scalar.addi c0_i32_345 v947
  ![v948.toNat]
def k0_off347 : Fin 2 → Nat :=
  let c0_i32_345 : BitVec 32 := 0#32
  let c86_i32 : BitVec 32 := 86#32
  let c1_i32_344 : BitVec 32 := 1#32
  let v947 : BitVec 32 := Scalar.muli c86_i32 c1_i32_344
  let v948 : BitVec 32 := Scalar.addi c0_i32_345 v947
  let c0_i32_346 : BitVec 32 := 0#32
  ![v948.toNat, 0]
def k0_off348 (v951 : BitVec 32) : Fin 2 → Nat :=
  let c0_i32_347 : BitVec 32 := 0#32
  ![v951.toNat, 0]

def k0_chk87 (v951 : BitVec 32) : Prop :=
  (∀ a, (k0_off348 v951) a + S1x8000.size a ≤ S8000x8000.size a)
instance k0_chk87.dec : ∀ (v951 : BitVec 32), Decidable (k0_chk87 v951) := fun v951 => decidable_of_iff' _ (Iff.of_eq (k0_chk87.eq_1 v951))
theorem k0_off348_inb : ∀ (v951 : BitVec 32) (k0_hw87 : k0_chk87 v951), ∀ a, (k0_off348 v951) a + S1x8000.size a ≤ S8000x8000.size a := fun v951 k0_hw87 => k0_hw87

def k0_off349 (i : grid0.Coords) : Fin 1 → Nat :=
  let arg0 : BitVec 32 := BitVec.ofNat 32 (i 0).val
  let c128_i32 : BitVec 32 := 128#32
  let v0 : BitVec 32 := Scalar.muli arg0 c128_i32
  let c0_i32_349 : BitVec 32 := 0#32
  let c87_i32 : BitVec 32 := 87#32
  let c1_i32_348 : BitVec 32 := 1#32
  let v958 : BitVec 32 := Scalar.muli c87_i32 c1_i32_348
  let v959 : BitVec 32 := Scalar.addi c0_i32_349 v958
  let v960 : BitVec 32 := Scalar.addi v0 v959
  let v961 : Index := Scalar.indexCast v960
  ![v961.toNat]
def k0_off350 : Fin 1 → Nat :=
  let c0_i32_349 : BitVec 32 := 0#32
  let c87_i32 : BitVec 32 := 87#32
  let c1_i32_348 : BitVec 32 := 1#32
  let v958 : BitVec 32 := Scalar.muli c87_i32 c1_i32_348
  let v959 : BitVec 32 := Scalar.addi c0_i32_349 v958
  ![v959.toNat]
def k0_off351 : Fin 2 → Nat :=
  let c0_i32_349 : BitVec 32 := 0#32
  let c87_i32 : BitVec 32 := 87#32
  let c1_i32_348 : BitVec 32 := 1#32
  let v958 : BitVec 32 := Scalar.muli c87_i32 c1_i32_348
  let v959 : BitVec 32 := Scalar.addi c0_i32_349 v958
  let c0_i32_350 : BitVec 32 := 0#32
  ![v959.toNat, 0]
def k0_off352 (v962 : BitVec 32) : Fin 2 → Nat :=
  let c0_i32_351 : BitVec 32 := 0#32
  ![v962.toNat, 0]

def k0_chk88 (v962 : BitVec 32) : Prop :=
  (∀ a, (k0_off352 v962) a + S1x8000.size a ≤ S8000x8000.size a)
instance k0_chk88.dec : ∀ (v962 : BitVec 32), Decidable (k0_chk88 v962) := fun v962 => decidable_of_iff' _ (Iff.of_eq (k0_chk88.eq_1 v962))
theorem k0_off352_inb : ∀ (v962 : BitVec 32) (k0_hw88 : k0_chk88 v962), ∀ a, (k0_off352 v962) a + S1x8000.size a ≤ S8000x8000.size a := fun v962 k0_hw88 => k0_hw88

def k0_off353 (i : grid0.Coords) : Fin 1 → Nat :=
  let arg0 : BitVec 32 := BitVec.ofNat 32 (i 0).val
  let c128_i32 : BitVec 32 := 128#32
  let v0 : BitVec 32 := Scalar.muli arg0 c128_i32
  let c0_i32_353 : BitVec 32 := 0#32
  let c88_i32 : BitVec 32 := 88#32
  let c1_i32_352 : BitVec 32 := 1#32
  let v969 : BitVec 32 := Scalar.muli c88_i32 c1_i32_352
  let v970 : BitVec 32 := Scalar.addi c0_i32_353 v969
  let v971 : BitVec 32 := Scalar.addi v0 v970
  let v972 : Index := Scalar.indexCast v971
  ![v972.toNat]
def k0_off354 : Fin 1 → Nat :=
  let c0_i32_353 : BitVec 32 := 0#32
  let c88_i32 : BitVec 32 := 88#32
  let c1_i32_352 : BitVec 32 := 1#32
  let v969 : BitVec 32 := Scalar.muli c88_i32 c1_i32_352
  let v970 : BitVec 32 := Scalar.addi c0_i32_353 v969
  ![v970.toNat]
def k0_off355 : Fin 2 → Nat :=
  let c0_i32_353 : BitVec 32 := 0#32
  let c88_i32 : BitVec 32 := 88#32
  let c1_i32_352 : BitVec 32 := 1#32
  let v969 : BitVec 32 := Scalar.muli c88_i32 c1_i32_352
  let v970 : BitVec 32 := Scalar.addi c0_i32_353 v969
  let c0_i32_354 : BitVec 32 := 0#32
  ![v970.toNat, 0]
def k0_off356 (v973 : BitVec 32) : Fin 2 → Nat :=
  let c0_i32_355 : BitVec 32 := 0#32
  ![v973.toNat, 0]

def k0_chk89 (v973 : BitVec 32) : Prop :=
  (∀ a, (k0_off356 v973) a + S1x8000.size a ≤ S8000x8000.size a)
instance k0_chk89.dec : ∀ (v973 : BitVec 32), Decidable (k0_chk89 v973) := fun v973 => decidable_of_iff' _ (Iff.of_eq (k0_chk89.eq_1 v973))
theorem k0_off356_inb : ∀ (v973 : BitVec 32) (k0_hw89 : k0_chk89 v973), ∀ a, (k0_off356 v973) a + S1x8000.size a ≤ S8000x8000.size a := fun v973 k0_hw89 => k0_hw89

def k0_off357 (i : grid0.Coords) : Fin 1 → Nat :=
  let arg0 : BitVec 32 := BitVec.ofNat 32 (i 0).val
  let c128_i32 : BitVec 32 := 128#32
  let v0 : BitVec 32 := Scalar.muli arg0 c128_i32
  let c0_i32_357 : BitVec 32 := 0#32
  let c89_i32 : BitVec 32 := 89#32
  let c1_i32_356 : BitVec 32 := 1#32
  let v980 : BitVec 32 := Scalar.muli c89_i32 c1_i32_356
  let v981 : BitVec 32 := Scalar.addi c0_i32_357 v980
  let v982 : BitVec 32 := Scalar.addi v0 v981
  let v983 : Index := Scalar.indexCast v982
  ![v983.toNat]
def k0_off358 : Fin 1 → Nat :=
  let c0_i32_357 : BitVec 32 := 0#32
  let c89_i32 : BitVec 32 := 89#32
  let c1_i32_356 : BitVec 32 := 1#32
  let v980 : BitVec 32 := Scalar.muli c89_i32 c1_i32_356
  let v981 : BitVec 32 := Scalar.addi c0_i32_357 v980
  ![v981.toNat]
def k0_off359 : Fin 2 → Nat :=
  let c0_i32_357 : BitVec 32 := 0#32
  let c89_i32 : BitVec 32 := 89#32
  let c1_i32_356 : BitVec 32 := 1#32
  let v980 : BitVec 32 := Scalar.muli c89_i32 c1_i32_356
  let v981 : BitVec 32 := Scalar.addi c0_i32_357 v980
  let c0_i32_358 : BitVec 32 := 0#32
  ![v981.toNat, 0]
def k0_off360 (v984 : BitVec 32) : Fin 2 → Nat :=
  let c0_i32_359 : BitVec 32 := 0#32
  ![v984.toNat, 0]

def k0_chk90 (v984 : BitVec 32) : Prop :=
  (∀ a, (k0_off360 v984) a + S1x8000.size a ≤ S8000x8000.size a)
instance k0_chk90.dec : ∀ (v984 : BitVec 32), Decidable (k0_chk90 v984) := fun v984 => decidable_of_iff' _ (Iff.of_eq (k0_chk90.eq_1 v984))
theorem k0_off360_inb : ∀ (v984 : BitVec 32) (k0_hw90 : k0_chk90 v984), ∀ a, (k0_off360 v984) a + S1x8000.size a ≤ S8000x8000.size a := fun v984 k0_hw90 => k0_hw90

def k0_off361 (i : grid0.Coords) : Fin 1 → Nat :=
  let arg0 : BitVec 32 := BitVec.ofNat 32 (i 0).val
  let c128_i32 : BitVec 32 := 128#32
  let v0 : BitVec 32 := Scalar.muli arg0 c128_i32
  let c0_i32_361 : BitVec 32 := 0#32
  let c90_i32 : BitVec 32 := 90#32
  let c1_i32_360 : BitVec 32 := 1#32
  let v991 : BitVec 32 := Scalar.muli c90_i32 c1_i32_360
  let v992 : BitVec 32 := Scalar.addi c0_i32_361 v991
  let v993 : BitVec 32 := Scalar.addi v0 v992
  let v994 : Index := Scalar.indexCast v993
  ![v994.toNat]
def k0_off362 : Fin 1 → Nat :=
  let c0_i32_361 : BitVec 32 := 0#32
  let c90_i32 : BitVec 32 := 90#32
  let c1_i32_360 : BitVec 32 := 1#32
  let v991 : BitVec 32 := Scalar.muli c90_i32 c1_i32_360
  let v992 : BitVec 32 := Scalar.addi c0_i32_361 v991
  ![v992.toNat]
def k0_off363 : Fin 2 → Nat :=
  let c0_i32_361 : BitVec 32 := 0#32
  let c90_i32 : BitVec 32 := 90#32
  let c1_i32_360 : BitVec 32 := 1#32
  let v991 : BitVec 32 := Scalar.muli c90_i32 c1_i32_360
  let v992 : BitVec 32 := Scalar.addi c0_i32_361 v991
  let c0_i32_362 : BitVec 32 := 0#32
  ![v992.toNat, 0]
def k0_off364 (v995 : BitVec 32) : Fin 2 → Nat :=
  let c0_i32_363 : BitVec 32 := 0#32
  ![v995.toNat, 0]

def k0_chk91 (v995 : BitVec 32) : Prop :=
  (∀ a, (k0_off364 v995) a + S1x8000.size a ≤ S8000x8000.size a)
instance k0_chk91.dec : ∀ (v995 : BitVec 32), Decidable (k0_chk91 v995) := fun v995 => decidable_of_iff' _ (Iff.of_eq (k0_chk91.eq_1 v995))
theorem k0_off364_inb : ∀ (v995 : BitVec 32) (k0_hw91 : k0_chk91 v995), ∀ a, (k0_off364 v995) a + S1x8000.size a ≤ S8000x8000.size a := fun v995 k0_hw91 => k0_hw91

def k0_off365 (i : grid0.Coords) : Fin 1 → Nat :=
  let arg0 : BitVec 32 := BitVec.ofNat 32 (i 0).val
  let c128_i32 : BitVec 32 := 128#32
  let v0 : BitVec 32 := Scalar.muli arg0 c128_i32
  let c0_i32_365 : BitVec 32 := 0#32
  let c91_i32 : BitVec 32 := 91#32
  let c1_i32_364 : BitVec 32 := 1#32
  let v1002 : BitVec 32 := Scalar.muli c91_i32 c1_i32_364
  let v1003 : BitVec 32 := Scalar.addi c0_i32_365 v1002
  let v1004 : BitVec 32 := Scalar.addi v0 v1003
  let v1005 : Index := Scalar.indexCast v1004
  ![v1005.toNat]
def k0_off366 : Fin 1 → Nat :=
  let c0_i32_365 : BitVec 32 := 0#32
  let c91_i32 : BitVec 32 := 91#32
  let c1_i32_364 : BitVec 32 := 1#32
  let v1002 : BitVec 32 := Scalar.muli c91_i32 c1_i32_364
  let v1003 : BitVec 32 := Scalar.addi c0_i32_365 v1002
  ![v1003.toNat]
def k0_off367 : Fin 2 → Nat :=
  let c0_i32_365 : BitVec 32 := 0#32
  let c91_i32 : BitVec 32 := 91#32
  let c1_i32_364 : BitVec 32 := 1#32
  let v1002 : BitVec 32 := Scalar.muli c91_i32 c1_i32_364
  let v1003 : BitVec 32 := Scalar.addi c0_i32_365 v1002
  let c0_i32_366 : BitVec 32 := 0#32
  ![v1003.toNat, 0]
def k0_off368 (v1006 : BitVec 32) : Fin 2 → Nat :=
  let c0_i32_367 : BitVec 32 := 0#32
  ![v1006.toNat, 0]

def k0_chk92 (v1006 : BitVec 32) : Prop :=
  (∀ a, (k0_off368 v1006) a + S1x8000.size a ≤ S8000x8000.size a)
instance k0_chk92.dec : ∀ (v1006 : BitVec 32), Decidable (k0_chk92 v1006) := fun v1006 => decidable_of_iff' _ (Iff.of_eq (k0_chk92.eq_1 v1006))
theorem k0_off368_inb : ∀ (v1006 : BitVec 32) (k0_hw92 : k0_chk92 v1006), ∀ a, (k0_off368 v1006) a + S1x8000.size a ≤ S8000x8000.size a := fun v1006 k0_hw92 => k0_hw92

def k0_off369 (i : grid0.Coords) : Fin 1 → Nat :=
  let arg0 : BitVec 32 := BitVec.ofNat 32 (i 0).val
  let c128_i32 : BitVec 32 := 128#32
  let v0 : BitVec 32 := Scalar.muli arg0 c128_i32
  let c0_i32_369 : BitVec 32 := 0#32
  let c92_i32 : BitVec 32 := 92#32
  let c1_i32_368 : BitVec 32 := 1#32
  let v1013 : BitVec 32 := Scalar.muli c92_i32 c1_i32_368
  let v1014 : BitVec 32 := Scalar.addi c0_i32_369 v1013
  let v1015 : BitVec 32 := Scalar.addi v0 v1014
  let v1016 : Index := Scalar.indexCast v1015
  ![v1016.toNat]
def k0_off370 : Fin 1 → Nat :=
  let c0_i32_369 : BitVec 32 := 0#32
  let c92_i32 : BitVec 32 := 92#32
  let c1_i32_368 : BitVec 32 := 1#32
  let v1013 : BitVec 32 := Scalar.muli c92_i32 c1_i32_368
  let v1014 : BitVec 32 := Scalar.addi c0_i32_369 v1013
  ![v1014.toNat]
def k0_off371 : Fin 2 → Nat :=
  let c0_i32_369 : BitVec 32 := 0#32
  let c92_i32 : BitVec 32 := 92#32
  let c1_i32_368 : BitVec 32 := 1#32
  let v1013 : BitVec 32 := Scalar.muli c92_i32 c1_i32_368
  let v1014 : BitVec 32 := Scalar.addi c0_i32_369 v1013
  let c0_i32_370 : BitVec 32 := 0#32
  ![v1014.toNat, 0]
def k0_off372 (v1017 : BitVec 32) : Fin 2 → Nat :=
  let c0_i32_371 : BitVec 32 := 0#32
  ![v1017.toNat, 0]

def k0_chk93 (v1017 : BitVec 32) : Prop :=
  (∀ a, (k0_off372 v1017) a + S1x8000.size a ≤ S8000x8000.size a)
instance k0_chk93.dec : ∀ (v1017 : BitVec 32), Decidable (k0_chk93 v1017) := fun v1017 => decidable_of_iff' _ (Iff.of_eq (k0_chk93.eq_1 v1017))
theorem k0_off372_inb : ∀ (v1017 : BitVec 32) (k0_hw93 : k0_chk93 v1017), ∀ a, (k0_off372 v1017) a + S1x8000.size a ≤ S8000x8000.size a := fun v1017 k0_hw93 => k0_hw93

def k0_off373 (i : grid0.Coords) : Fin 1 → Nat :=
  let arg0 : BitVec 32 := BitVec.ofNat 32 (i 0).val
  let c128_i32 : BitVec 32 := 128#32
  let v0 : BitVec 32 := Scalar.muli arg0 c128_i32
  let c0_i32_373 : BitVec 32 := 0#32
  let c93_i32 : BitVec 32 := 93#32
  let c1_i32_372 : BitVec 32 := 1#32
  let v1024 : BitVec 32 := Scalar.muli c93_i32 c1_i32_372
  let v1025 : BitVec 32 := Scalar.addi c0_i32_373 v1024
  let v1026 : BitVec 32 := Scalar.addi v0 v1025
  let v1027 : Index := Scalar.indexCast v1026
  ![v1027.toNat]
def k0_off374 : Fin 1 → Nat :=
  let c0_i32_373 : BitVec 32 := 0#32
  let c93_i32 : BitVec 32 := 93#32
  let c1_i32_372 : BitVec 32 := 1#32
  let v1024 : BitVec 32 := Scalar.muli c93_i32 c1_i32_372
  let v1025 : BitVec 32 := Scalar.addi c0_i32_373 v1024
  ![v1025.toNat]
def k0_off375 : Fin 2 → Nat :=
  let c0_i32_373 : BitVec 32 := 0#32
  let c93_i32 : BitVec 32 := 93#32
  let c1_i32_372 : BitVec 32 := 1#32
  let v1024 : BitVec 32 := Scalar.muli c93_i32 c1_i32_372
  let v1025 : BitVec 32 := Scalar.addi c0_i32_373 v1024
  let c0_i32_374 : BitVec 32 := 0#32
  ![v1025.toNat, 0]
def k0_off376 (v1028 : BitVec 32) : Fin 2 → Nat :=
  let c0_i32_375 : BitVec 32 := 0#32
  ![v1028.toNat, 0]

def k0_chk94 (v1028 : BitVec 32) : Prop :=
  (∀ a, (k0_off376 v1028) a + S1x8000.size a ≤ S8000x8000.size a)
instance k0_chk94.dec : ∀ (v1028 : BitVec 32), Decidable (k0_chk94 v1028) := fun v1028 => decidable_of_iff' _ (Iff.of_eq (k0_chk94.eq_1 v1028))
theorem k0_off376_inb : ∀ (v1028 : BitVec 32) (k0_hw94 : k0_chk94 v1028), ∀ a, (k0_off376 v1028) a + S1x8000.size a ≤ S8000x8000.size a := fun v1028 k0_hw94 => k0_hw94

def k0_off377 (i : grid0.Coords) : Fin 1 → Nat :=
  let arg0 : BitVec 32 := BitVec.ofNat 32 (i 0).val
  let c128_i32 : BitVec 32 := 128#32
  let v0 : BitVec 32 := Scalar.muli arg0 c128_i32
  let c0_i32_377 : BitVec 32 := 0#32
  let c94_i32 : BitVec 32 := 94#32
  let c1_i32_376 : BitVec 32 := 1#32
  let v1035 : BitVec 32 := Scalar.muli c94_i32 c1_i32_376
  let v1036 : BitVec 32 := Scalar.addi c0_i32_377 v1035
  let v1037 : BitVec 32 := Scalar.addi v0 v1036
  let v1038 : Index := Scalar.indexCast v1037
  ![v1038.toNat]
def k0_off378 : Fin 1 → Nat :=
  let c0_i32_377 : BitVec 32 := 0#32
  let c94_i32 : BitVec 32 := 94#32
  let c1_i32_376 : BitVec 32 := 1#32
  let v1035 : BitVec 32 := Scalar.muli c94_i32 c1_i32_376
  let v1036 : BitVec 32 := Scalar.addi c0_i32_377 v1035
  ![v1036.toNat]
def k0_off379 : Fin 2 → Nat :=
  let c0_i32_377 : BitVec 32 := 0#32
  let c94_i32 : BitVec 32 := 94#32
  let c1_i32_376 : BitVec 32 := 1#32
  let v1035 : BitVec 32 := Scalar.muli c94_i32 c1_i32_376
  let v1036 : BitVec 32 := Scalar.addi c0_i32_377 v1035
  let c0_i32_378 : BitVec 32 := 0#32
  ![v1036.toNat, 0]
def k0_off380 (v1039 : BitVec 32) : Fin 2 → Nat :=
  let c0_i32_379 : BitVec 32 := 0#32
  ![v1039.toNat, 0]

def k0_chk95 (v1039 : BitVec 32) : Prop :=
  (∀ a, (k0_off380 v1039) a + S1x8000.size a ≤ S8000x8000.size a)
instance k0_chk95.dec : ∀ (v1039 : BitVec 32), Decidable (k0_chk95 v1039) := fun v1039 => decidable_of_iff' _ (Iff.of_eq (k0_chk95.eq_1 v1039))
theorem k0_off380_inb : ∀ (v1039 : BitVec 32) (k0_hw95 : k0_chk95 v1039), ∀ a, (k0_off380 v1039) a + S1x8000.size a ≤ S8000x8000.size a := fun v1039 k0_hw95 => k0_hw95

def k0_off381 (i : grid0.Coords) : Fin 1 → Nat :=
  let arg0 : BitVec 32 := BitVec.ofNat 32 (i 0).val
  let c128_i32 : BitVec 32 := 128#32
  let v0 : BitVec 32 := Scalar.muli arg0 c128_i32
  let c0_i32_381 : BitVec 32 := 0#32
  let c95_i32 : BitVec 32 := 95#32
  let c1_i32_380 : BitVec 32 := 1#32
  let v1046 : BitVec 32 := Scalar.muli c95_i32 c1_i32_380
  let v1047 : BitVec 32 := Scalar.addi c0_i32_381 v1046
  let v1048 : BitVec 32 := Scalar.addi v0 v1047
  let v1049 : Index := Scalar.indexCast v1048
  ![v1049.toNat]
def k0_off382 : Fin 1 → Nat :=
  let c0_i32_381 : BitVec 32 := 0#32
  let c95_i32 : BitVec 32 := 95#32
  let c1_i32_380 : BitVec 32 := 1#32
  let v1046 : BitVec 32 := Scalar.muli c95_i32 c1_i32_380
  let v1047 : BitVec 32 := Scalar.addi c0_i32_381 v1046
  ![v1047.toNat]
def k0_off383 : Fin 2 → Nat :=
  let c0_i32_381 : BitVec 32 := 0#32
  let c95_i32 : BitVec 32 := 95#32
  let c1_i32_380 : BitVec 32 := 1#32
  let v1046 : BitVec 32 := Scalar.muli c95_i32 c1_i32_380
  let v1047 : BitVec 32 := Scalar.addi c0_i32_381 v1046
  let c0_i32_382 : BitVec 32 := 0#32
  ![v1047.toNat, 0]
def k0_off384 (v1050 : BitVec 32) : Fin 2 → Nat :=
  let c0_i32_383 : BitVec 32 := 0#32
  ![v1050.toNat, 0]

def k0_chk96 (v1050 : BitVec 32) : Prop :=
  (∀ a, (k0_off384 v1050) a + S1x8000.size a ≤ S8000x8000.size a)
instance k0_chk96.dec : ∀ (v1050 : BitVec 32), Decidable (k0_chk96 v1050) := fun v1050 => decidable_of_iff' _ (Iff.of_eq (k0_chk96.eq_1 v1050))
theorem k0_off384_inb : ∀ (v1050 : BitVec 32) (k0_hw96 : k0_chk96 v1050), ∀ a, (k0_off384 v1050) a + S1x8000.size a ≤ S8000x8000.size a := fun v1050 k0_hw96 => k0_hw96

def k0_off385 (i : grid0.Coords) : Fin 1 → Nat :=
  let arg0 : BitVec 32 := BitVec.ofNat 32 (i 0).val
  let c128_i32 : BitVec 32 := 128#32
  let v0 : BitVec 32 := Scalar.muli arg0 c128_i32
  let c0_i32_385 : BitVec 32 := 0#32
  let c96_i32 : BitVec 32 := 96#32
  let c1_i32_384 : BitVec 32 := 1#32
  let v1057 : BitVec 32 := Scalar.muli c96_i32 c1_i32_384
  let v1058 : BitVec 32 := Scalar.addi c0_i32_385 v1057
  let v1059 : BitVec 32 := Scalar.addi v0 v1058
  let v1060 : Index := Scalar.indexCast v1059
  ![v1060.toNat]
def k0_off386 : Fin 1 → Nat :=
  let c0_i32_385 : BitVec 32 := 0#32
  let c96_i32 : BitVec 32 := 96#32
  let c1_i32_384 : BitVec 32 := 1#32
  let v1057 : BitVec 32 := Scalar.muli c96_i32 c1_i32_384
  let v1058 : BitVec 32 := Scalar.addi c0_i32_385 v1057
  ![v1058.toNat]
def k0_off387 : Fin 2 → Nat :=
  let c0_i32_385 : BitVec 32 := 0#32
  let c96_i32 : BitVec 32 := 96#32
  let c1_i32_384 : BitVec 32 := 1#32
  let v1057 : BitVec 32 := Scalar.muli c96_i32 c1_i32_384
  let v1058 : BitVec 32 := Scalar.addi c0_i32_385 v1057
  let c0_i32_386 : BitVec 32 := 0#32
  ![v1058.toNat, 0]
def k0_off388 (v1061 : BitVec 32) : Fin 2 → Nat :=
  let c0_i32_387 : BitVec 32 := 0#32
  ![v1061.toNat, 0]

def k0_chk97 (v1061 : BitVec 32) : Prop :=
  (∀ a, (k0_off388 v1061) a + S1x8000.size a ≤ S8000x8000.size a)
instance k0_chk97.dec : ∀ (v1061 : BitVec 32), Decidable (k0_chk97 v1061) := fun v1061 => decidable_of_iff' _ (Iff.of_eq (k0_chk97.eq_1 v1061))
theorem k0_off388_inb : ∀ (v1061 : BitVec 32) (k0_hw97 : k0_chk97 v1061), ∀ a, (k0_off388 v1061) a + S1x8000.size a ≤ S8000x8000.size a := fun v1061 k0_hw97 => k0_hw97

def k0_off389 (i : grid0.Coords) : Fin 1 → Nat :=
  let arg0 : BitVec 32 := BitVec.ofNat 32 (i 0).val
  let c128_i32 : BitVec 32 := 128#32
  let v0 : BitVec 32 := Scalar.muli arg0 c128_i32
  let c0_i32_389 : BitVec 32 := 0#32
  let c97_i32 : BitVec 32 := 97#32
  let c1_i32_388 : BitVec 32 := 1#32
  let v1068 : BitVec 32 := Scalar.muli c97_i32 c1_i32_388
  let v1069 : BitVec 32 := Scalar.addi c0_i32_389 v1068
  let v1070 : BitVec 32 := Scalar.addi v0 v1069
  let v1071 : Index := Scalar.indexCast v1070
  ![v1071.toNat]
def k0_off390 : Fin 1 → Nat :=
  let c0_i32_389 : BitVec 32 := 0#32
  let c97_i32 : BitVec 32 := 97#32
  let c1_i32_388 : BitVec 32 := 1#32
  let v1068 : BitVec 32 := Scalar.muli c97_i32 c1_i32_388
  let v1069 : BitVec 32 := Scalar.addi c0_i32_389 v1068
  ![v1069.toNat]
def k0_off391 : Fin 2 → Nat :=
  let c0_i32_389 : BitVec 32 := 0#32
  let c97_i32 : BitVec 32 := 97#32
  let c1_i32_388 : BitVec 32 := 1#32
  let v1068 : BitVec 32 := Scalar.muli c97_i32 c1_i32_388
  let v1069 : BitVec 32 := Scalar.addi c0_i32_389 v1068
  let c0_i32_390 : BitVec 32 := 0#32
  ![v1069.toNat, 0]
def k0_off392 (v1072 : BitVec 32) : Fin 2 → Nat :=
  let c0_i32_391 : BitVec 32 := 0#32
  ![v1072.toNat, 0]

def k0_chk98 (v1072 : BitVec 32) : Prop :=
  (∀ a, (k0_off392 v1072) a + S1x8000.size a ≤ S8000x8000.size a)
instance k0_chk98.dec : ∀ (v1072 : BitVec 32), Decidable (k0_chk98 v1072) := fun v1072 => decidable_of_iff' _ (Iff.of_eq (k0_chk98.eq_1 v1072))
theorem k0_off392_inb : ∀ (v1072 : BitVec 32) (k0_hw98 : k0_chk98 v1072), ∀ a, (k0_off392 v1072) a + S1x8000.size a ≤ S8000x8000.size a := fun v1072 k0_hw98 => k0_hw98

def k0_off393 (i : grid0.Coords) : Fin 1 → Nat :=
  let arg0 : BitVec 32 := BitVec.ofNat 32 (i 0).val
  let c128_i32 : BitVec 32 := 128#32
  let v0 : BitVec 32 := Scalar.muli arg0 c128_i32
  let c0_i32_393 : BitVec 32 := 0#32
  let c98_i32 : BitVec 32 := 98#32
  let c1_i32_392 : BitVec 32 := 1#32
  let v1079 : BitVec 32 := Scalar.muli c98_i32 c1_i32_392
  let v1080 : BitVec 32 := Scalar.addi c0_i32_393 v1079
  let v1081 : BitVec 32 := Scalar.addi v0 v1080
  let v1082 : Index := Scalar.indexCast v1081
  ![v1082.toNat]
def k0_off394 : Fin 1 → Nat :=
  let c0_i32_393 : BitVec 32 := 0#32
  let c98_i32 : BitVec 32 := 98#32
  let c1_i32_392 : BitVec 32 := 1#32
  let v1079 : BitVec 32 := Scalar.muli c98_i32 c1_i32_392
  let v1080 : BitVec 32 := Scalar.addi c0_i32_393 v1079
  ![v1080.toNat]
def k0_off395 : Fin 2 → Nat :=
  let c0_i32_393 : BitVec 32 := 0#32
  let c98_i32 : BitVec 32 := 98#32
  let c1_i32_392 : BitVec 32 := 1#32
  let v1079 : BitVec 32 := Scalar.muli c98_i32 c1_i32_392
  let v1080 : BitVec 32 := Scalar.addi c0_i32_393 v1079
  let c0_i32_394 : BitVec 32 := 0#32
  ![v1080.toNat, 0]
def k0_off396 (v1083 : BitVec 32) : Fin 2 → Nat :=
  let c0_i32_395 : BitVec 32 := 0#32
  ![v1083.toNat, 0]

def k0_chk99 (v1083 : BitVec 32) : Prop :=
  (∀ a, (k0_off396 v1083) a + S1x8000.size a ≤ S8000x8000.size a)
instance k0_chk99.dec : ∀ (v1083 : BitVec 32), Decidable (k0_chk99 v1083) := fun v1083 => decidable_of_iff' _ (Iff.of_eq (k0_chk99.eq_1 v1083))
theorem k0_off396_inb : ∀ (v1083 : BitVec 32) (k0_hw99 : k0_chk99 v1083), ∀ a, (k0_off396 v1083) a + S1x8000.size a ≤ S8000x8000.size a := fun v1083 k0_hw99 => k0_hw99

def k0_off397 (i : grid0.Coords) : Fin 1 → Nat :=
  let arg0 : BitVec 32 := BitVec.ofNat 32 (i 0).val
  let c128_i32 : BitVec 32 := 128#32
  let v0 : BitVec 32 := Scalar.muli arg0 c128_i32
  let c0_i32_397 : BitVec 32 := 0#32
  let c99_i32 : BitVec 32 := 99#32
  let c1_i32_396 : BitVec 32 := 1#32
  let v1090 : BitVec 32 := Scalar.muli c99_i32 c1_i32_396
  let v1091 : BitVec 32 := Scalar.addi c0_i32_397 v1090
  let v1092 : BitVec 32 := Scalar.addi v0 v1091
  let v1093 : Index := Scalar.indexCast v1092
  ![v1093.toNat]
def k0_off398 : Fin 1 → Nat :=
  let c0_i32_397 : BitVec 32 := 0#32
  let c99_i32 : BitVec 32 := 99#32
  let c1_i32_396 : BitVec 32 := 1#32
  let v1090 : BitVec 32 := Scalar.muli c99_i32 c1_i32_396
  let v1091 : BitVec 32 := Scalar.addi c0_i32_397 v1090
  ![v1091.toNat]
def k0_off399 : Fin 2 → Nat :=
  let c0_i32_397 : BitVec 32 := 0#32
  let c99_i32 : BitVec 32 := 99#32
  let c1_i32_396 : BitVec 32 := 1#32
  let v1090 : BitVec 32 := Scalar.muli c99_i32 c1_i32_396
  let v1091 : BitVec 32 := Scalar.addi c0_i32_397 v1090
  let c0_i32_398 : BitVec 32 := 0#32
  ![v1091.toNat, 0]
def k0_off400 (v1094 : BitVec 32) : Fin 2 → Nat :=
  let c0_i32_399 : BitVec 32 := 0#32
  ![v1094.toNat, 0]

def k0_chk100 (v1094 : BitVec 32) : Prop :=
  (∀ a, (k0_off400 v1094) a + S1x8000.size a ≤ S8000x8000.size a)
instance k0_chk100.dec : ∀ (v1094 : BitVec 32), Decidable (k0_chk100 v1094) := fun v1094 => decidable_of_iff' _ (Iff.of_eq (k0_chk100.eq_1 v1094))
theorem k0_off400_inb : ∀ (v1094 : BitVec 32) (k0_hw100 : k0_chk100 v1094), ∀ a, (k0_off400 v1094) a + S1x8000.size a ≤ S8000x8000.size a := fun v1094 k0_hw100 => k0_hw100

def k0_off401 (i : grid0.Coords) : Fin 1 → Nat :=
  let arg0 : BitVec 32 := BitVec.ofNat 32 (i 0).val
  let c128_i32 : BitVec 32 := 128#32
  let v0 : BitVec 32 := Scalar.muli arg0 c128_i32
  let c0_i32_401 : BitVec 32 := 0#32
  let c100_i32 : BitVec 32 := 100#32
  let c1_i32_400 : BitVec 32 := 1#32
  let v1101 : BitVec 32 := Scalar.muli c100_i32 c1_i32_400
  let v1102 : BitVec 32 := Scalar.addi c0_i32_401 v1101
  let v1103 : BitVec 32 := Scalar.addi v0 v1102
  let v1104 : Index := Scalar.indexCast v1103
  ![v1104.toNat]
def k0_off402 : Fin 1 → Nat :=
  let c0_i32_401 : BitVec 32 := 0#32
  let c100_i32 : BitVec 32 := 100#32
  let c1_i32_400 : BitVec 32 := 1#32
  let v1101 : BitVec 32 := Scalar.muli c100_i32 c1_i32_400
  let v1102 : BitVec 32 := Scalar.addi c0_i32_401 v1101
  ![v1102.toNat]
def k0_off403 : Fin 2 → Nat :=
  let c0_i32_401 : BitVec 32 := 0#32
  let c100_i32 : BitVec 32 := 100#32
  let c1_i32_400 : BitVec 32 := 1#32
  let v1101 : BitVec 32 := Scalar.muli c100_i32 c1_i32_400
  let v1102 : BitVec 32 := Scalar.addi c0_i32_401 v1101
  let c0_i32_402 : BitVec 32 := 0#32
  ![v1102.toNat, 0]
def k0_off404 (v1105 : BitVec 32) : Fin 2 → Nat :=
  let c0_i32_403 : BitVec 32 := 0#32
  ![v1105.toNat, 0]

def k0_chk101 (v1105 : BitVec 32) : Prop :=
  (∀ a, (k0_off404 v1105) a + S1x8000.size a ≤ S8000x8000.size a)
instance k0_chk101.dec : ∀ (v1105 : BitVec 32), Decidable (k0_chk101 v1105) := fun v1105 => decidable_of_iff' _ (Iff.of_eq (k0_chk101.eq_1 v1105))
theorem k0_off404_inb : ∀ (v1105 : BitVec 32) (k0_hw101 : k0_chk101 v1105), ∀ a, (k0_off404 v1105) a + S1x8000.size a ≤ S8000x8000.size a := fun v1105 k0_hw101 => k0_hw101

def k0_off405 (i : grid0.Coords) : Fin 1 → Nat :=
  let arg0 : BitVec 32 := BitVec.ofNat 32 (i 0).val
  let c128_i32 : BitVec 32 := 128#32
  let v0 : BitVec 32 := Scalar.muli arg0 c128_i32
  let c0_i32_405 : BitVec 32 := 0#32
  let c101_i32 : BitVec 32 := 101#32
  let c1_i32_404 : BitVec 32 := 1#32
  let v1112 : BitVec 32 := Scalar.muli c101_i32 c1_i32_404
  let v1113 : BitVec 32 := Scalar.addi c0_i32_405 v1112
  let v1114 : BitVec 32 := Scalar.addi v0 v1113
  let v1115 : Index := Scalar.indexCast v1114
  ![v1115.toNat]
def k0_off406 : Fin 1 → Nat :=
  let c0_i32_405 : BitVec 32 := 0#32
  let c101_i32 : BitVec 32 := 101#32
  let c1_i32_404 : BitVec 32 := 1#32
  let v1112 : BitVec 32 := Scalar.muli c101_i32 c1_i32_404
  let v1113 : BitVec 32 := Scalar.addi c0_i32_405 v1112
  ![v1113.toNat]
def k0_off407 : Fin 2 → Nat :=
  let c0_i32_405 : BitVec 32 := 0#32
  let c101_i32 : BitVec 32 := 101#32
  let c1_i32_404 : BitVec 32 := 1#32
  let v1112 : BitVec 32 := Scalar.muli c101_i32 c1_i32_404
  let v1113 : BitVec 32 := Scalar.addi c0_i32_405 v1112
  let c0_i32_406 : BitVec 32 := 0#32
  ![v1113.toNat, 0]
def k0_off408 (v1116 : BitVec 32) : Fin 2 → Nat :=
  let c0_i32_407 : BitVec 32 := 0#32
  ![v1116.toNat, 0]

def k0_chk102 (v1116 : BitVec 32) : Prop :=
  (∀ a, (k0_off408 v1116) a + S1x8000.size a ≤ S8000x8000.size a)
instance k0_chk102.dec : ∀ (v1116 : BitVec 32), Decidable (k0_chk102 v1116) := fun v1116 => decidable_of_iff' _ (Iff.of_eq (k0_chk102.eq_1 v1116))
theorem k0_off408_inb : ∀ (v1116 : BitVec 32) (k0_hw102 : k0_chk102 v1116), ∀ a, (k0_off408 v1116) a + S1x8000.size a ≤ S8000x8000.size a := fun v1116 k0_hw102 => k0_hw102

def k0_off409 (i : grid0.Coords) : Fin 1 → Nat :=
  let arg0 : BitVec 32 := BitVec.ofNat 32 (i 0).val
  let c128_i32 : BitVec 32 := 128#32
  let v0 : BitVec 32 := Scalar.muli arg0 c128_i32
  let c0_i32_409 : BitVec 32 := 0#32
  let c102_i32 : BitVec 32 := 102#32
  let c1_i32_408 : BitVec 32 := 1#32
  let v1123 : BitVec 32 := Scalar.muli c102_i32 c1_i32_408
  let v1124 : BitVec 32 := Scalar.addi c0_i32_409 v1123
  let v1125 : BitVec 32 := Scalar.addi v0 v1124
  let v1126 : Index := Scalar.indexCast v1125
  ![v1126.toNat]
def k0_off410 : Fin 1 → Nat :=
  let c0_i32_409 : BitVec 32 := 0#32
  let c102_i32 : BitVec 32 := 102#32
  let c1_i32_408 : BitVec 32 := 1#32
  let v1123 : BitVec 32 := Scalar.muli c102_i32 c1_i32_408
  let v1124 : BitVec 32 := Scalar.addi c0_i32_409 v1123
  ![v1124.toNat]
def k0_off411 : Fin 2 → Nat :=
  let c0_i32_409 : BitVec 32 := 0#32
  let c102_i32 : BitVec 32 := 102#32
  let c1_i32_408 : BitVec 32 := 1#32
  let v1123 : BitVec 32 := Scalar.muli c102_i32 c1_i32_408
  let v1124 : BitVec 32 := Scalar.addi c0_i32_409 v1123
  let c0_i32_410 : BitVec 32 := 0#32
  ![v1124.toNat, 0]
def k0_off412 (v1127 : BitVec 32) : Fin 2 → Nat :=
  let c0_i32_411 : BitVec 32 := 0#32
  ![v1127.toNat, 0]

def k0_chk103 (v1127 : BitVec 32) : Prop :=
  (∀ a, (k0_off412 v1127) a + S1x8000.size a ≤ S8000x8000.size a)
instance k0_chk103.dec : ∀ (v1127 : BitVec 32), Decidable (k0_chk103 v1127) := fun v1127 => decidable_of_iff' _ (Iff.of_eq (k0_chk103.eq_1 v1127))
theorem k0_off412_inb : ∀ (v1127 : BitVec 32) (k0_hw103 : k0_chk103 v1127), ∀ a, (k0_off412 v1127) a + S1x8000.size a ≤ S8000x8000.size a := fun v1127 k0_hw103 => k0_hw103

def k0_off413 (i : grid0.Coords) : Fin 1 → Nat :=
  let arg0 : BitVec 32 := BitVec.ofNat 32 (i 0).val
  let c128_i32 : BitVec 32 := 128#32
  let v0 : BitVec 32 := Scalar.muli arg0 c128_i32
  let c0_i32_413 : BitVec 32 := 0#32
  let c103_i32 : BitVec 32 := 103#32
  let c1_i32_412 : BitVec 32 := 1#32
  let v1134 : BitVec 32 := Scalar.muli c103_i32 c1_i32_412
  let v1135 : BitVec 32 := Scalar.addi c0_i32_413 v1134
  let v1136 : BitVec 32 := Scalar.addi v0 v1135
  let v1137 : Index := Scalar.indexCast v1136
  ![v1137.toNat]
def k0_off414 : Fin 1 → Nat :=
  let c0_i32_413 : BitVec 32 := 0#32
  let c103_i32 : BitVec 32 := 103#32
  let c1_i32_412 : BitVec 32 := 1#32
  let v1134 : BitVec 32 := Scalar.muli c103_i32 c1_i32_412
  let v1135 : BitVec 32 := Scalar.addi c0_i32_413 v1134
  ![v1135.toNat]
def k0_off415 : Fin 2 → Nat :=
  let c0_i32_413 : BitVec 32 := 0#32
  let c103_i32 : BitVec 32 := 103#32
  let c1_i32_412 : BitVec 32 := 1#32
  let v1134 : BitVec 32 := Scalar.muli c103_i32 c1_i32_412
  let v1135 : BitVec 32 := Scalar.addi c0_i32_413 v1134
  let c0_i32_414 : BitVec 32 := 0#32
  ![v1135.toNat, 0]
def k0_off416 (v1138 : BitVec 32) : Fin 2 → Nat :=
  let c0_i32_415 : BitVec 32 := 0#32
  ![v1138.toNat, 0]

def k0_chk104 (v1138 : BitVec 32) : Prop :=
  (∀ a, (k0_off416 v1138) a + S1x8000.size a ≤ S8000x8000.size a)
instance k0_chk104.dec : ∀ (v1138 : BitVec 32), Decidable (k0_chk104 v1138) := fun v1138 => decidable_of_iff' _ (Iff.of_eq (k0_chk104.eq_1 v1138))
theorem k0_off416_inb : ∀ (v1138 : BitVec 32) (k0_hw104 : k0_chk104 v1138), ∀ a, (k0_off416 v1138) a + S1x8000.size a ≤ S8000x8000.size a := fun v1138 k0_hw104 => k0_hw104

def k0_off417 (i : grid0.Coords) : Fin 1 → Nat :=
  let arg0 : BitVec 32 := BitVec.ofNat 32 (i 0).val
  let c128_i32 : BitVec 32 := 128#32
  let v0 : BitVec 32 := Scalar.muli arg0 c128_i32
  let c0_i32_417 : BitVec 32 := 0#32
  let c104_i32 : BitVec 32 := 104#32
  let c1_i32_416 : BitVec 32 := 1#32
  let v1145 : BitVec 32 := Scalar.muli c104_i32 c1_i32_416
  let v1146 : BitVec 32 := Scalar.addi c0_i32_417 v1145
  let v1147 : BitVec 32 := Scalar.addi v0 v1146
  let v1148 : Index := Scalar.indexCast v1147
  ![v1148.toNat]
def k0_off418 : Fin 1 → Nat :=
  let c0_i32_417 : BitVec 32 := 0#32
  let c104_i32 : BitVec 32 := 104#32
  let c1_i32_416 : BitVec 32 := 1#32
  let v1145 : BitVec 32 := Scalar.muli c104_i32 c1_i32_416
  let v1146 : BitVec 32 := Scalar.addi c0_i32_417 v1145
  ![v1146.toNat]
def k0_off419 : Fin 2 → Nat :=
  let c0_i32_417 : BitVec 32 := 0#32
  let c104_i32 : BitVec 32 := 104#32
  let c1_i32_416 : BitVec 32 := 1#32
  let v1145 : BitVec 32 := Scalar.muli c104_i32 c1_i32_416
  let v1146 : BitVec 32 := Scalar.addi c0_i32_417 v1145
  let c0_i32_418 : BitVec 32 := 0#32
  ![v1146.toNat, 0]
def k0_off420 (v1149 : BitVec 32) : Fin 2 → Nat :=
  let c0_i32_419 : BitVec 32 := 0#32
  ![v1149.toNat, 0]

def k0_chk105 (v1149 : BitVec 32) : Prop :=
  (∀ a, (k0_off420 v1149) a + S1x8000.size a ≤ S8000x8000.size a)
instance k0_chk105.dec : ∀ (v1149 : BitVec 32), Decidable (k0_chk105 v1149) := fun v1149 => decidable_of_iff' _ (Iff.of_eq (k0_chk105.eq_1 v1149))
theorem k0_off420_inb : ∀ (v1149 : BitVec 32) (k0_hw105 : k0_chk105 v1149), ∀ a, (k0_off420 v1149) a + S1x8000.size a ≤ S8000x8000.size a := fun v1149 k0_hw105 => k0_hw105

def k0_off421 (i : grid0.Coords) : Fin 1 → Nat :=
  let arg0 : BitVec 32 := BitVec.ofNat 32 (i 0).val
  let c128_i32 : BitVec 32 := 128#32
  let v0 : BitVec 32 := Scalar.muli arg0 c128_i32
  let c0_i32_421 : BitVec 32 := 0#32
  let c105_i32 : BitVec 32 := 105#32
  let c1_i32_420 : BitVec 32 := 1#32
  let v1156 : BitVec 32 := Scalar.muli c105_i32 c1_i32_420
  let v1157 : BitVec 32 := Scalar.addi c0_i32_421 v1156
  let v1158 : BitVec 32 := Scalar.addi v0 v1157
  let v1159 : Index := Scalar.indexCast v1158
  ![v1159.toNat]
def k0_off422 : Fin 1 → Nat :=
  let c0_i32_421 : BitVec 32 := 0#32
  let c105_i32 : BitVec 32 := 105#32
  let c1_i32_420 : BitVec 32 := 1#32
  let v1156 : BitVec 32 := Scalar.muli c105_i32 c1_i32_420
  let v1157 : BitVec 32 := Scalar.addi c0_i32_421 v1156
  ![v1157.toNat]
def k0_off423 : Fin 2 → Nat :=
  let c0_i32_421 : BitVec 32 := 0#32
  let c105_i32 : BitVec 32 := 105#32
  let c1_i32_420 : BitVec 32 := 1#32
  let v1156 : BitVec 32 := Scalar.muli c105_i32 c1_i32_420
  let v1157 : BitVec 32 := Scalar.addi c0_i32_421 v1156
  let c0_i32_422 : BitVec 32 := 0#32
  ![v1157.toNat, 0]
def k0_off424 (v1160 : BitVec 32) : Fin 2 → Nat :=
  let c0_i32_423 : BitVec 32 := 0#32
  ![v1160.toNat, 0]

def k0_chk106 (v1160 : BitVec 32) : Prop :=
  (∀ a, (k0_off424 v1160) a + S1x8000.size a ≤ S8000x8000.size a)
instance k0_chk106.dec : ∀ (v1160 : BitVec 32), Decidable (k0_chk106 v1160) := fun v1160 => decidable_of_iff' _ (Iff.of_eq (k0_chk106.eq_1 v1160))
theorem k0_off424_inb : ∀ (v1160 : BitVec 32) (k0_hw106 : k0_chk106 v1160), ∀ a, (k0_off424 v1160) a + S1x8000.size a ≤ S8000x8000.size a := fun v1160 k0_hw106 => k0_hw106

def k0_off425 (i : grid0.Coords) : Fin 1 → Nat :=
  let arg0 : BitVec 32 := BitVec.ofNat 32 (i 0).val
  let c128_i32 : BitVec 32 := 128#32
  let v0 : BitVec 32 := Scalar.muli arg0 c128_i32
  let c0_i32_425 : BitVec 32 := 0#32
  let c106_i32 : BitVec 32 := 106#32
  let c1_i32_424 : BitVec 32 := 1#32
  let v1167 : BitVec 32 := Scalar.muli c106_i32 c1_i32_424
  let v1168 : BitVec 32 := Scalar.addi c0_i32_425 v1167
  let v1169 : BitVec 32 := Scalar.addi v0 v1168
  let v1170 : Index := Scalar.indexCast v1169
  ![v1170.toNat]
def k0_off426 : Fin 1 → Nat :=
  let c0_i32_425 : BitVec 32 := 0#32
  let c106_i32 : BitVec 32 := 106#32
  let c1_i32_424 : BitVec 32 := 1#32
  let v1167 : BitVec 32 := Scalar.muli c106_i32 c1_i32_424
  let v1168 : BitVec 32 := Scalar.addi c0_i32_425 v1167
  ![v1168.toNat]
def k0_off427 : Fin 2 → Nat :=
  let c0_i32_425 : BitVec 32 := 0#32
  let c106_i32 : BitVec 32 := 106#32
  let c1_i32_424 : BitVec 32 := 1#32
  let v1167 : BitVec 32 := Scalar.muli c106_i32 c1_i32_424
  let v1168 : BitVec 32 := Scalar.addi c0_i32_425 v1167
  let c0_i32_426 : BitVec 32 := 0#32
  ![v1168.toNat, 0]
def k0_off428 (v1171 : BitVec 32) : Fin 2 → Nat :=
  let c0_i32_427 : BitVec 32 := 0#32
  ![v1171.toNat, 0]

def k0_chk107 (v1171 : BitVec 32) : Prop :=
  (∀ a, (k0_off428 v1171) a + S1x8000.size a ≤ S8000x8000.size a)
instance k0_chk107.dec : ∀ (v1171 : BitVec 32), Decidable (k0_chk107 v1171) := fun v1171 => decidable_of_iff' _ (Iff.of_eq (k0_chk107.eq_1 v1171))
theorem k0_off428_inb : ∀ (v1171 : BitVec 32) (k0_hw107 : k0_chk107 v1171), ∀ a, (k0_off428 v1171) a + S1x8000.size a ≤ S8000x8000.size a := fun v1171 k0_hw107 => k0_hw107

def k0_off429 (i : grid0.Coords) : Fin 1 → Nat :=
  let arg0 : BitVec 32 := BitVec.ofNat 32 (i 0).val
  let c128_i32 : BitVec 32 := 128#32
  let v0 : BitVec 32 := Scalar.muli arg0 c128_i32
  let c0_i32_429 : BitVec 32 := 0#32
  let c107_i32 : BitVec 32 := 107#32
  let c1_i32_428 : BitVec 32 := 1#32
  let v1178 : BitVec 32 := Scalar.muli c107_i32 c1_i32_428
  let v1179 : BitVec 32 := Scalar.addi c0_i32_429 v1178
  let v1180 : BitVec 32 := Scalar.addi v0 v1179
  let v1181 : Index := Scalar.indexCast v1180
  ![v1181.toNat]
def k0_off430 : Fin 1 → Nat :=
  let c0_i32_429 : BitVec 32 := 0#32
  let c107_i32 : BitVec 32 := 107#32
  let c1_i32_428 : BitVec 32 := 1#32
  let v1178 : BitVec 32 := Scalar.muli c107_i32 c1_i32_428
  let v1179 : BitVec 32 := Scalar.addi c0_i32_429 v1178
  ![v1179.toNat]
def k0_off431 : Fin 2 → Nat :=
  let c0_i32_429 : BitVec 32 := 0#32
  let c107_i32 : BitVec 32 := 107#32
  let c1_i32_428 : BitVec 32 := 1#32
  let v1178 : BitVec 32 := Scalar.muli c107_i32 c1_i32_428
  let v1179 : BitVec 32 := Scalar.addi c0_i32_429 v1178
  let c0_i32_430 : BitVec 32 := 0#32
  ![v1179.toNat, 0]
def k0_off432 (v1182 : BitVec 32) : Fin 2 → Nat :=
  let c0_i32_431 : BitVec 32 := 0#32
  ![v1182.toNat, 0]

def k0_chk108 (v1182 : BitVec 32) : Prop :=
  (∀ a, (k0_off432 v1182) a + S1x8000.size a ≤ S8000x8000.size a)
instance k0_chk108.dec : ∀ (v1182 : BitVec 32), Decidable (k0_chk108 v1182) := fun v1182 => decidable_of_iff' _ (Iff.of_eq (k0_chk108.eq_1 v1182))
theorem k0_off432_inb : ∀ (v1182 : BitVec 32) (k0_hw108 : k0_chk108 v1182), ∀ a, (k0_off432 v1182) a + S1x8000.size a ≤ S8000x8000.size a := fun v1182 k0_hw108 => k0_hw108

def k0_off433 (i : grid0.Coords) : Fin 1 → Nat :=
  let arg0 : BitVec 32 := BitVec.ofNat 32 (i 0).val
  let c128_i32 : BitVec 32 := 128#32
  let v0 : BitVec 32 := Scalar.muli arg0 c128_i32
  let c0_i32_433 : BitVec 32 := 0#32
  let c108_i32 : BitVec 32 := 108#32
  let c1_i32_432 : BitVec 32 := 1#32
  let v1189 : BitVec 32 := Scalar.muli c108_i32 c1_i32_432
  let v1190 : BitVec 32 := Scalar.addi c0_i32_433 v1189
  let v1191 : BitVec 32 := Scalar.addi v0 v1190
  let v1192 : Index := Scalar.indexCast v1191
  ![v1192.toNat]
def k0_off434 : Fin 1 → Nat :=
  let c0_i32_433 : BitVec 32 := 0#32
  let c108_i32 : BitVec 32 := 108#32
  let c1_i32_432 : BitVec 32 := 1#32
  let v1189 : BitVec 32 := Scalar.muli c108_i32 c1_i32_432
  let v1190 : BitVec 32 := Scalar.addi c0_i32_433 v1189
  ![v1190.toNat]
def k0_off435 : Fin 2 → Nat :=
  let c0_i32_433 : BitVec 32 := 0#32
  let c108_i32 : BitVec 32 := 108#32
  let c1_i32_432 : BitVec 32 := 1#32
  let v1189 : BitVec 32 := Scalar.muli c108_i32 c1_i32_432
  let v1190 : BitVec 32 := Scalar.addi c0_i32_433 v1189
  let c0_i32_434 : BitVec 32 := 0#32
  ![v1190.toNat, 0]
def k0_off436 (v1193 : BitVec 32) : Fin 2 → Nat :=
  let c0_i32_435 : BitVec 32 := 0#32
  ![v1193.toNat, 0]

def k0_chk109 (v1193 : BitVec 32) : Prop :=
  (∀ a, (k0_off436 v1193) a + S1x8000.size a ≤ S8000x8000.size a)
instance k0_chk109.dec : ∀ (v1193 : BitVec 32), Decidable (k0_chk109 v1193) := fun v1193 => decidable_of_iff' _ (Iff.of_eq (k0_chk109.eq_1 v1193))
theorem k0_off436_inb : ∀ (v1193 : BitVec 32) (k0_hw109 : k0_chk109 v1193), ∀ a, (k0_off436 v1193) a + S1x8000.size a ≤ S8000x8000.size a := fun v1193 k0_hw109 => k0_hw109

def k0_off437 (i : grid0.Coords) : Fin 1 → Nat :=
  let arg0 : BitVec 32 := BitVec.ofNat 32 (i 0).val
  let c128_i32 : BitVec 32 := 128#32
  let v0 : BitVec 32 := Scalar.muli arg0 c128_i32
  let c0_i32_437 : BitVec 32 := 0#32
  let c109_i32 : BitVec 32 := 109#32
  let c1_i32_436 : BitVec 32 := 1#32
  let v1200 : BitVec 32 := Scalar.muli c109_i32 c1_i32_436
  let v1201 : BitVec 32 := Scalar.addi c0_i32_437 v1200
  let v1202 : BitVec 32 := Scalar.addi v0 v1201
  let v1203 : Index := Scalar.indexCast v1202
  ![v1203.toNat]
def k0_off438 : Fin 1 → Nat :=
  let c0_i32_437 : BitVec 32 := 0#32
  let c109_i32 : BitVec 32 := 109#32
  let c1_i32_436 : BitVec 32 := 1#32
  let v1200 : BitVec 32 := Scalar.muli c109_i32 c1_i32_436
  let v1201 : BitVec 32 := Scalar.addi c0_i32_437 v1200
  ![v1201.toNat]
def k0_off439 : Fin 2 → Nat :=
  let c0_i32_437 : BitVec 32 := 0#32
  let c109_i32 : BitVec 32 := 109#32
  let c1_i32_436 : BitVec 32 := 1#32
  let v1200 : BitVec 32 := Scalar.muli c109_i32 c1_i32_436
  let v1201 : BitVec 32 := Scalar.addi c0_i32_437 v1200
  let c0_i32_438 : BitVec 32 := 0#32
  ![v1201.toNat, 0]
def k0_off440 (v1204 : BitVec 32) : Fin 2 → Nat :=
  let c0_i32_439 : BitVec 32 := 0#32
  ![v1204.toNat, 0]

def k0_chk110 (v1204 : BitVec 32) : Prop :=
  (∀ a, (k0_off440 v1204) a + S1x8000.size a ≤ S8000x8000.size a)
instance k0_chk110.dec : ∀ (v1204 : BitVec 32), Decidable (k0_chk110 v1204) := fun v1204 => decidable_of_iff' _ (Iff.of_eq (k0_chk110.eq_1 v1204))
theorem k0_off440_inb : ∀ (v1204 : BitVec 32) (k0_hw110 : k0_chk110 v1204), ∀ a, (k0_off440 v1204) a + S1x8000.size a ≤ S8000x8000.size a := fun v1204 k0_hw110 => k0_hw110

def k0_off441 (i : grid0.Coords) : Fin 1 → Nat :=
  let arg0 : BitVec 32 := BitVec.ofNat 32 (i 0).val
  let c128_i32 : BitVec 32 := 128#32
  let v0 : BitVec 32 := Scalar.muli arg0 c128_i32
  let c0_i32_441 : BitVec 32 := 0#32
  let c110_i32 : BitVec 32 := 110#32
  let c1_i32_440 : BitVec 32 := 1#32
  let v1211 : BitVec 32 := Scalar.muli c110_i32 c1_i32_440
  let v1212 : BitVec 32 := Scalar.addi c0_i32_441 v1211
  let v1213 : BitVec 32 := Scalar.addi v0 v1212
  let v1214 : Index := Scalar.indexCast v1213
  ![v1214.toNat]
def k0_off442 : Fin 1 → Nat :=
  let c0_i32_441 : BitVec 32 := 0#32
  let c110_i32 : BitVec 32 := 110#32
  let c1_i32_440 : BitVec 32 := 1#32
  let v1211 : BitVec 32 := Scalar.muli c110_i32 c1_i32_440
  let v1212 : BitVec 32 := Scalar.addi c0_i32_441 v1211
  ![v1212.toNat]
def k0_off443 : Fin 2 → Nat :=
  let c0_i32_441 : BitVec 32 := 0#32
  let c110_i32 : BitVec 32 := 110#32
  let c1_i32_440 : BitVec 32 := 1#32
  let v1211 : BitVec 32 := Scalar.muli c110_i32 c1_i32_440
  let v1212 : BitVec 32 := Scalar.addi c0_i32_441 v1211
  let c0_i32_442 : BitVec 32 := 0#32
  ![v1212.toNat, 0]
def k0_off444 (v1215 : BitVec 32) : Fin 2 → Nat :=
  let c0_i32_443 : BitVec 32 := 0#32
  ![v1215.toNat, 0]

def k0_chk111 (v1215 : BitVec 32) : Prop :=
  (∀ a, (k0_off444 v1215) a + S1x8000.size a ≤ S8000x8000.size a)
instance k0_chk111.dec : ∀ (v1215 : BitVec 32), Decidable (k0_chk111 v1215) := fun v1215 => decidable_of_iff' _ (Iff.of_eq (k0_chk111.eq_1 v1215))
theorem k0_off444_inb : ∀ (v1215 : BitVec 32) (k0_hw111 : k0_chk111 v1215), ∀ a, (k0_off444 v1215) a + S1x8000.size a ≤ S8000x8000.size a := fun v1215 k0_hw111 => k0_hw111

def k0_off445 (i : grid0.Coords) : Fin 1 → Nat :=
  let arg0 : BitVec 32 := BitVec.ofNat 32 (i 0).val
  let c128_i32 : BitVec 32 := 128#32
  let v0 : BitVec 32 := Scalar.muli arg0 c128_i32
  let c0_i32_445 : BitVec 32 := 0#32
  let c111_i32 : BitVec 32 := 111#32
  let c1_i32_444 : BitVec 32 := 1#32
  let v1222 : BitVec 32 := Scalar.muli c111_i32 c1_i32_444
  let v1223 : BitVec 32 := Scalar.addi c0_i32_445 v1222
  let v1224 : BitVec 32 := Scalar.addi v0 v1223
  let v1225 : Index := Scalar.indexCast v1224
  ![v1225.toNat]
def k0_off446 : Fin 1 → Nat :=
  let c0_i32_445 : BitVec 32 := 0#32
  let c111_i32 : BitVec 32 := 111#32
  let c1_i32_444 : BitVec 32 := 1#32
  let v1222 : BitVec 32 := Scalar.muli c111_i32 c1_i32_444
  let v1223 : BitVec 32 := Scalar.addi c0_i32_445 v1222
  ![v1223.toNat]
def k0_off447 : Fin 2 → Nat :=
  let c0_i32_445 : BitVec 32 := 0#32
  let c111_i32 : BitVec 32 := 111#32
  let c1_i32_444 : BitVec 32 := 1#32
  let v1222 : BitVec 32 := Scalar.muli c111_i32 c1_i32_444
  let v1223 : BitVec 32 := Scalar.addi c0_i32_445 v1222
  let c0_i32_446 : BitVec 32 := 0#32
  ![v1223.toNat, 0]
def k0_off448 (v1226 : BitVec 32) : Fin 2 → Nat :=
  let c0_i32_447 : BitVec 32 := 0#32
  ![v1226.toNat, 0]

def k0_chk112 (v1226 : BitVec 32) : Prop :=
  (∀ a, (k0_off448 v1226) a + S1x8000.size a ≤ S8000x8000.size a)
instance k0_chk112.dec : ∀ (v1226 : BitVec 32), Decidable (k0_chk112 v1226) := fun v1226 => decidable_of_iff' _ (Iff.of_eq (k0_chk112.eq_1 v1226))
theorem k0_off448_inb : ∀ (v1226 : BitVec 32) (k0_hw112 : k0_chk112 v1226), ∀ a, (k0_off448 v1226) a + S1x8000.size a ≤ S8000x8000.size a := fun v1226 k0_hw112 => k0_hw112

def k0_off449 (i : grid0.Coords) : Fin 1 → Nat :=
  let arg0 : BitVec 32 := BitVec.ofNat 32 (i 0).val
  let c128_i32 : BitVec 32 := 128#32
  let v0 : BitVec 32 := Scalar.muli arg0 c128_i32
  let c0_i32_449 : BitVec 32 := 0#32
  let c112_i32 : BitVec 32 := 112#32
  let c1_i32_448 : BitVec 32 := 1#32
  let v1233 : BitVec 32 := Scalar.muli c112_i32 c1_i32_448
  let v1234 : BitVec 32 := Scalar.addi c0_i32_449 v1233
  let v1235 : BitVec 32 := Scalar.addi v0 v1234
  let v1236 : Index := Scalar.indexCast v1235
  ![v1236.toNat]
def k0_off450 : Fin 1 → Nat :=
  let c0_i32_449 : BitVec 32 := 0#32
  let c112_i32 : BitVec 32 := 112#32
  let c1_i32_448 : BitVec 32 := 1#32
  let v1233 : BitVec 32 := Scalar.muli c112_i32 c1_i32_448
  let v1234 : BitVec 32 := Scalar.addi c0_i32_449 v1233
  ![v1234.toNat]
def k0_off451 : Fin 2 → Nat :=
  let c0_i32_449 : BitVec 32 := 0#32
  let c112_i32 : BitVec 32 := 112#32
  let c1_i32_448 : BitVec 32 := 1#32
  let v1233 : BitVec 32 := Scalar.muli c112_i32 c1_i32_448
  let v1234 : BitVec 32 := Scalar.addi c0_i32_449 v1233
  let c0_i32_450 : BitVec 32 := 0#32
  ![v1234.toNat, 0]
def k0_off452 (v1237 : BitVec 32) : Fin 2 → Nat :=
  let c0_i32_451 : BitVec 32 := 0#32
  ![v1237.toNat, 0]

def k0_chk113 (v1237 : BitVec 32) : Prop :=
  (∀ a, (k0_off452 v1237) a + S1x8000.size a ≤ S8000x8000.size a)
instance k0_chk113.dec : ∀ (v1237 : BitVec 32), Decidable (k0_chk113 v1237) := fun v1237 => decidable_of_iff' _ (Iff.of_eq (k0_chk113.eq_1 v1237))
theorem k0_off452_inb : ∀ (v1237 : BitVec 32) (k0_hw113 : k0_chk113 v1237), ∀ a, (k0_off452 v1237) a + S1x8000.size a ≤ S8000x8000.size a := fun v1237 k0_hw113 => k0_hw113

def k0_off453 (i : grid0.Coords) : Fin 1 → Nat :=
  let arg0 : BitVec 32 := BitVec.ofNat 32 (i 0).val
  let c128_i32 : BitVec 32 := 128#32
  let v0 : BitVec 32 := Scalar.muli arg0 c128_i32
  let c0_i32_453 : BitVec 32 := 0#32
  let c113_i32 : BitVec 32 := 113#32
  let c1_i32_452 : BitVec 32 := 1#32
  let v1244 : BitVec 32 := Scalar.muli c113_i32 c1_i32_452
  let v1245 : BitVec 32 := Scalar.addi c0_i32_453 v1244
  let v1246 : BitVec 32 := Scalar.addi v0 v1245
  let v1247 : Index := Scalar.indexCast v1246
  ![v1247.toNat]
def k0_off454 : Fin 1 → Nat :=
  let c0_i32_453 : BitVec 32 := 0#32
  let c113_i32 : BitVec 32 := 113#32
  let c1_i32_452 : BitVec 32 := 1#32
  let v1244 : BitVec 32 := Scalar.muli c113_i32 c1_i32_452
  let v1245 : BitVec 32 := Scalar.addi c0_i32_453 v1244
  ![v1245.toNat]
def k0_off455 : Fin 2 → Nat :=
  let c0_i32_453 : BitVec 32 := 0#32
  let c113_i32 : BitVec 32 := 113#32
  let c1_i32_452 : BitVec 32 := 1#32
  let v1244 : BitVec 32 := Scalar.muli c113_i32 c1_i32_452
  let v1245 : BitVec 32 := Scalar.addi c0_i32_453 v1244
  let c0_i32_454 : BitVec 32 := 0#32
  ![v1245.toNat, 0]
def k0_off456 (v1248 : BitVec 32) : Fin 2 → Nat :=
  let c0_i32_455 : BitVec 32 := 0#32
  ![v1248.toNat, 0]

def k0_chk114 (v1248 : BitVec 32) : Prop :=
  (∀ a, (k0_off456 v1248) a + S1x8000.size a ≤ S8000x8000.size a)
instance k0_chk114.dec : ∀ (v1248 : BitVec 32), Decidable (k0_chk114 v1248) := fun v1248 => decidable_of_iff' _ (Iff.of_eq (k0_chk114.eq_1 v1248))
theorem k0_off456_inb : ∀ (v1248 : BitVec 32) (k0_hw114 : k0_chk114 v1248), ∀ a, (k0_off456 v1248) a + S1x8000.size a ≤ S8000x8000.size a := fun v1248 k0_hw114 => k0_hw114

def k0_off457 (i : grid0.Coords) : Fin 1 → Nat :=
  let arg0 : BitVec 32 := BitVec.ofNat 32 (i 0).val
  let c128_i32 : BitVec 32 := 128#32
  let v0 : BitVec 32 := Scalar.muli arg0 c128_i32
  let c0_i32_457 : BitVec 32 := 0#32
  let c114_i32 : BitVec 32 := 114#32
  let c1_i32_456 : BitVec 32 := 1#32
  let v1255 : BitVec 32 := Scalar.muli c114_i32 c1_i32_456
  let v1256 : BitVec 32 := Scalar.addi c0_i32_457 v1255
  let v1257 : BitVec 32 := Scalar.addi v0 v1256
  let v1258 : Index := Scalar.indexCast v1257
  ![v1258.toNat]
def k0_off458 : Fin 1 → Nat :=
  let c0_i32_457 : BitVec 32 := 0#32
  let c114_i32 : BitVec 32 := 114#32
  let c1_i32_456 : BitVec 32 := 1#32
  let v1255 : BitVec 32 := Scalar.muli c114_i32 c1_i32_456
  let v1256 : BitVec 32 := Scalar.addi c0_i32_457 v1255
  ![v1256.toNat]
def k0_off459 : Fin 2 → Nat :=
  let c0_i32_457 : BitVec 32 := 0#32
  let c114_i32 : BitVec 32 := 114#32
  let c1_i32_456 : BitVec 32 := 1#32
  let v1255 : BitVec 32 := Scalar.muli c114_i32 c1_i32_456
  let v1256 : BitVec 32 := Scalar.addi c0_i32_457 v1255
  let c0_i32_458 : BitVec 32 := 0#32
  ![v1256.toNat, 0]
def k0_off460 (v1259 : BitVec 32) : Fin 2 → Nat :=
  let c0_i32_459 : BitVec 32 := 0#32
  ![v1259.toNat, 0]

def k0_chk115 (v1259 : BitVec 32) : Prop :=
  (∀ a, (k0_off460 v1259) a + S1x8000.size a ≤ S8000x8000.size a)
instance k0_chk115.dec : ∀ (v1259 : BitVec 32), Decidable (k0_chk115 v1259) := fun v1259 => decidable_of_iff' _ (Iff.of_eq (k0_chk115.eq_1 v1259))
theorem k0_off460_inb : ∀ (v1259 : BitVec 32) (k0_hw115 : k0_chk115 v1259), ∀ a, (k0_off460 v1259) a + S1x8000.size a ≤ S8000x8000.size a := fun v1259 k0_hw115 => k0_hw115

def k0_off461 (i : grid0.Coords) : Fin 1 → Nat :=
  let arg0 : BitVec 32 := BitVec.ofNat 32 (i 0).val
  let c128_i32 : BitVec 32 := 128#32
  let v0 : BitVec 32 := Scalar.muli arg0 c128_i32
  let c0_i32_461 : BitVec 32 := 0#32
  let c115_i32 : BitVec 32 := 115#32
  let c1_i32_460 : BitVec 32 := 1#32
  let v1266 : BitVec 32 := Scalar.muli c115_i32 c1_i32_460
  let v1267 : BitVec 32 := Scalar.addi c0_i32_461 v1266
  let v1268 : BitVec 32 := Scalar.addi v0 v1267
  let v1269 : Index := Scalar.indexCast v1268
  ![v1269.toNat]
def k0_off462 : Fin 1 → Nat :=
  let c0_i32_461 : BitVec 32 := 0#32
  let c115_i32 : BitVec 32 := 115#32
  let c1_i32_460 : BitVec 32 := 1#32
  let v1266 : BitVec 32 := Scalar.muli c115_i32 c1_i32_460
  let v1267 : BitVec 32 := Scalar.addi c0_i32_461 v1266
  ![v1267.toNat]
def k0_off463 : Fin 2 → Nat :=
  let c0_i32_461 : BitVec 32 := 0#32
  let c115_i32 : BitVec 32 := 115#32
  let c1_i32_460 : BitVec 32 := 1#32
  let v1266 : BitVec 32 := Scalar.muli c115_i32 c1_i32_460
  let v1267 : BitVec 32 := Scalar.addi c0_i32_461 v1266
  let c0_i32_462 : BitVec 32 := 0#32
  ![v1267.toNat, 0]
def k0_off464 (v1270 : BitVec 32) : Fin 2 → Nat :=
  let c0_i32_463 : BitVec 32 := 0#32
  ![v1270.toNat, 0]

def k0_chk116 (v1270 : BitVec 32) : Prop :=
  (∀ a, (k0_off464 v1270) a + S1x8000.size a ≤ S8000x8000.size a)
instance k0_chk116.dec : ∀ (v1270 : BitVec 32), Decidable (k0_chk116 v1270) := fun v1270 => decidable_of_iff' _ (Iff.of_eq (k0_chk116.eq_1 v1270))
theorem k0_off464_inb : ∀ (v1270 : BitVec 32) (k0_hw116 : k0_chk116 v1270), ∀ a, (k0_off464 v1270) a + S1x8000.size a ≤ S8000x8000.size a := fun v1270 k0_hw116 => k0_hw116

def k0_off465 (i : grid0.Coords) : Fin 1 → Nat :=
  let arg0 : BitVec 32 := BitVec.ofNat 32 (i 0).val
  let c128_i32 : BitVec 32 := 128#32
  let v0 : BitVec 32 := Scalar.muli arg0 c128_i32
  let c0_i32_465 : BitVec 32 := 0#32
  let c116_i32 : BitVec 32 := 116#32
  let c1_i32_464 : BitVec 32 := 1#32
  let v1277 : BitVec 32 := Scalar.muli c116_i32 c1_i32_464
  let v1278 : BitVec 32 := Scalar.addi c0_i32_465 v1277
  let v1279 : BitVec 32 := Scalar.addi v0 v1278
  let v1280 : Index := Scalar.indexCast v1279
  ![v1280.toNat]
def k0_off466 : Fin 1 → Nat :=
  let c0_i32_465 : BitVec 32 := 0#32
  let c116_i32 : BitVec 32 := 116#32
  let c1_i32_464 : BitVec 32 := 1#32
  let v1277 : BitVec 32 := Scalar.muli c116_i32 c1_i32_464
  let v1278 : BitVec 32 := Scalar.addi c0_i32_465 v1277
  ![v1278.toNat]
def k0_off467 : Fin 2 → Nat :=
  let c0_i32_465 : BitVec 32 := 0#32
  let c116_i32 : BitVec 32 := 116#32
  let c1_i32_464 : BitVec 32 := 1#32
  let v1277 : BitVec 32 := Scalar.muli c116_i32 c1_i32_464
  let v1278 : BitVec 32 := Scalar.addi c0_i32_465 v1277
  let c0_i32_466 : BitVec 32 := 0#32
  ![v1278.toNat, 0]
def k0_off468 (v1281 : BitVec 32) : Fin 2 → Nat :=
  let c0_i32_467 : BitVec 32 := 0#32
  ![v1281.toNat, 0]

def k0_chk117 (v1281 : BitVec 32) : Prop :=
  (∀ a, (k0_off468 v1281) a + S1x8000.size a ≤ S8000x8000.size a)
instance k0_chk117.dec : ∀ (v1281 : BitVec 32), Decidable (k0_chk117 v1281) := fun v1281 => decidable_of_iff' _ (Iff.of_eq (k0_chk117.eq_1 v1281))
theorem k0_off468_inb : ∀ (v1281 : BitVec 32) (k0_hw117 : k0_chk117 v1281), ∀ a, (k0_off468 v1281) a + S1x8000.size a ≤ S8000x8000.size a := fun v1281 k0_hw117 => k0_hw117

def k0_off469 (i : grid0.Coords) : Fin 1 → Nat :=
  let arg0 : BitVec 32 := BitVec.ofNat 32 (i 0).val
  let c128_i32 : BitVec 32 := 128#32
  let v0 : BitVec 32 := Scalar.muli arg0 c128_i32
  let c0_i32_469 : BitVec 32 := 0#32
  let c117_i32 : BitVec 32 := 117#32
  let c1_i32_468 : BitVec 32 := 1#32
  let v1288 : BitVec 32 := Scalar.muli c117_i32 c1_i32_468
  let v1289 : BitVec 32 := Scalar.addi c0_i32_469 v1288
  let v1290 : BitVec 32 := Scalar.addi v0 v1289
  let v1291 : Index := Scalar.indexCast v1290
  ![v1291.toNat]
def k0_off470 : Fin 1 → Nat :=
  let c0_i32_469 : BitVec 32 := 0#32
  let c117_i32 : BitVec 32 := 117#32
  let c1_i32_468 : BitVec 32 := 1#32
  let v1288 : BitVec 32 := Scalar.muli c117_i32 c1_i32_468
  let v1289 : BitVec 32 := Scalar.addi c0_i32_469 v1288
  ![v1289.toNat]
def k0_off471 : Fin 2 → Nat :=
  let c0_i32_469 : BitVec 32 := 0#32
  let c117_i32 : BitVec 32 := 117#32
  let c1_i32_468 : BitVec 32 := 1#32
  let v1288 : BitVec 32 := Scalar.muli c117_i32 c1_i32_468
  let v1289 : BitVec 32 := Scalar.addi c0_i32_469 v1288
  let c0_i32_470 : BitVec 32 := 0#32
  ![v1289.toNat, 0]
def k0_off472 (v1292 : BitVec 32) : Fin 2 → Nat :=
  let c0_i32_471 : BitVec 32 := 0#32
  ![v1292.toNat, 0]

def k0_chk118 (v1292 : BitVec 32) : Prop :=
  (∀ a, (k0_off472 v1292) a + S1x8000.size a ≤ S8000x8000.size a)
instance k0_chk118.dec : ∀ (v1292 : BitVec 32), Decidable (k0_chk118 v1292) := fun v1292 => decidable_of_iff' _ (Iff.of_eq (k0_chk118.eq_1 v1292))
theorem k0_off472_inb : ∀ (v1292 : BitVec 32) (k0_hw118 : k0_chk118 v1292), ∀ a, (k0_off472 v1292) a + S1x8000.size a ≤ S8000x8000.size a := fun v1292 k0_hw118 => k0_hw118

def k0_off473 (i : grid0.Coords) : Fin 1 → Nat :=
  let arg0 : BitVec 32 := BitVec.ofNat 32 (i 0).val
  let c128_i32 : BitVec 32 := 128#32
  let v0 : BitVec 32 := Scalar.muli arg0 c128_i32
  let c0_i32_473 : BitVec 32 := 0#32
  let c118_i32 : BitVec 32 := 118#32
  let c1_i32_472 : BitVec 32 := 1#32
  let v1299 : BitVec 32 := Scalar.muli c118_i32 c1_i32_472
  let v1300 : BitVec 32 := Scalar.addi c0_i32_473 v1299
  let v1301 : BitVec 32 := Scalar.addi v0 v1300
  let v1302 : Index := Scalar.indexCast v1301
  ![v1302.toNat]
def k0_off474 : Fin 1 → Nat :=
  let c0_i32_473 : BitVec 32 := 0#32
  let c118_i32 : BitVec 32 := 118#32
  let c1_i32_472 : BitVec 32 := 1#32
  let v1299 : BitVec 32 := Scalar.muli c118_i32 c1_i32_472
  let v1300 : BitVec 32 := Scalar.addi c0_i32_473 v1299
  ![v1300.toNat]
def k0_off475 : Fin 2 → Nat :=
  let c0_i32_473 : BitVec 32 := 0#32
  let c118_i32 : BitVec 32 := 118#32
  let c1_i32_472 : BitVec 32 := 1#32
  let v1299 : BitVec 32 := Scalar.muli c118_i32 c1_i32_472
  let v1300 : BitVec 32 := Scalar.addi c0_i32_473 v1299
  let c0_i32_474 : BitVec 32 := 0#32
  ![v1300.toNat, 0]
def k0_off476 (v1303 : BitVec 32) : Fin 2 → Nat :=
  let c0_i32_475 : BitVec 32 := 0#32
  ![v1303.toNat, 0]

def k0_chk119 (v1303 : BitVec 32) : Prop :=
  (∀ a, (k0_off476 v1303) a + S1x8000.size a ≤ S8000x8000.size a)
instance k0_chk119.dec : ∀ (v1303 : BitVec 32), Decidable (k0_chk119 v1303) := fun v1303 => decidable_of_iff' _ (Iff.of_eq (k0_chk119.eq_1 v1303))
theorem k0_off476_inb : ∀ (v1303 : BitVec 32) (k0_hw119 : k0_chk119 v1303), ∀ a, (k0_off476 v1303) a + S1x8000.size a ≤ S8000x8000.size a := fun v1303 k0_hw119 => k0_hw119

def k0_off477 (i : grid0.Coords) : Fin 1 → Nat :=
  let arg0 : BitVec 32 := BitVec.ofNat 32 (i 0).val
  let c128_i32 : BitVec 32 := 128#32
  let v0 : BitVec 32 := Scalar.muli arg0 c128_i32
  let c0_i32_477 : BitVec 32 := 0#32
  let c119_i32 : BitVec 32 := 119#32
  let c1_i32_476 : BitVec 32 := 1#32
  let v1310 : BitVec 32 := Scalar.muli c119_i32 c1_i32_476
  let v1311 : BitVec 32 := Scalar.addi c0_i32_477 v1310
  let v1312 : BitVec 32 := Scalar.addi v0 v1311
  let v1313 : Index := Scalar.indexCast v1312
  ![v1313.toNat]
def k0_off478 : Fin 1 → Nat :=
  let c0_i32_477 : BitVec 32 := 0#32
  let c119_i32 : BitVec 32 := 119#32
  let c1_i32_476 : BitVec 32 := 1#32
  let v1310 : BitVec 32 := Scalar.muli c119_i32 c1_i32_476
  let v1311 : BitVec 32 := Scalar.addi c0_i32_477 v1310
  ![v1311.toNat]
def k0_off479 : Fin 2 → Nat :=
  let c0_i32_477 : BitVec 32 := 0#32
  let c119_i32 : BitVec 32 := 119#32
  let c1_i32_476 : BitVec 32 := 1#32
  let v1310 : BitVec 32 := Scalar.muli c119_i32 c1_i32_476
  let v1311 : BitVec 32 := Scalar.addi c0_i32_477 v1310
  let c0_i32_478 : BitVec 32 := 0#32
  ![v1311.toNat, 0]
def k0_off480 (v1314 : BitVec 32) : Fin 2 → Nat :=
  let c0_i32_479 : BitVec 32 := 0#32
  ![v1314.toNat, 0]

def k0_chk120 (v1314 : BitVec 32) : Prop :=
  (∀ a, (k0_off480 v1314) a + S1x8000.size a ≤ S8000x8000.size a)
instance k0_chk120.dec : ∀ (v1314 : BitVec 32), Decidable (k0_chk120 v1314) := fun v1314 => decidable_of_iff' _ (Iff.of_eq (k0_chk120.eq_1 v1314))
theorem k0_off480_inb : ∀ (v1314 : BitVec 32) (k0_hw120 : k0_chk120 v1314), ∀ a, (k0_off480 v1314) a + S1x8000.size a ≤ S8000x8000.size a := fun v1314 k0_hw120 => k0_hw120

def k0_off481 (i : grid0.Coords) : Fin 1 → Nat :=
  let arg0 : BitVec 32 := BitVec.ofNat 32 (i 0).val
  let c128_i32 : BitVec 32 := 128#32
  let v0 : BitVec 32 := Scalar.muli arg0 c128_i32
  let c0_i32_481 : BitVec 32 := 0#32
  let c120_i32 : BitVec 32 := 120#32
  let c1_i32_480 : BitVec 32 := 1#32
  let v1321 : BitVec 32 := Scalar.muli c120_i32 c1_i32_480
  let v1322 : BitVec 32 := Scalar.addi c0_i32_481 v1321
  let v1323 : BitVec 32 := Scalar.addi v0 v1322
  let v1324 : Index := Scalar.indexCast v1323
  ![v1324.toNat]
def k0_off482 : Fin 1 → Nat :=
  let c0_i32_481 : BitVec 32 := 0#32
  let c120_i32 : BitVec 32 := 120#32
  let c1_i32_480 : BitVec 32 := 1#32
  let v1321 : BitVec 32 := Scalar.muli c120_i32 c1_i32_480
  let v1322 : BitVec 32 := Scalar.addi c0_i32_481 v1321
  ![v1322.toNat]
def k0_off483 : Fin 2 → Nat :=
  let c0_i32_481 : BitVec 32 := 0#32
  let c120_i32 : BitVec 32 := 120#32
  let c1_i32_480 : BitVec 32 := 1#32
  let v1321 : BitVec 32 := Scalar.muli c120_i32 c1_i32_480
  let v1322 : BitVec 32 := Scalar.addi c0_i32_481 v1321
  let c0_i32_482 : BitVec 32 := 0#32
  ![v1322.toNat, 0]
def k0_off484 (v1325 : BitVec 32) : Fin 2 → Nat :=
  let c0_i32_483 : BitVec 32 := 0#32
  ![v1325.toNat, 0]

def k0_chk121 (v1325 : BitVec 32) : Prop :=
  (∀ a, (k0_off484 v1325) a + S1x8000.size a ≤ S8000x8000.size a)
instance k0_chk121.dec : ∀ (v1325 : BitVec 32), Decidable (k0_chk121 v1325) := fun v1325 => decidable_of_iff' _ (Iff.of_eq (k0_chk121.eq_1 v1325))
theorem k0_off484_inb : ∀ (v1325 : BitVec 32) (k0_hw121 : k0_chk121 v1325), ∀ a, (k0_off484 v1325) a + S1x8000.size a ≤ S8000x8000.size a := fun v1325 k0_hw121 => k0_hw121

def k0_off485 (i : grid0.Coords) : Fin 1 → Nat :=
  let arg0 : BitVec 32 := BitVec.ofNat 32 (i 0).val
  let c128_i32 : BitVec 32 := 128#32
  let v0 : BitVec 32 := Scalar.muli arg0 c128_i32
  let c0_i32_485 : BitVec 32 := 0#32
  let c121_i32 : BitVec 32 := 121#32
  let c1_i32_484 : BitVec 32 := 1#32
  let v1332 : BitVec 32 := Scalar.muli c121_i32 c1_i32_484
  let v1333 : BitVec 32 := Scalar.addi c0_i32_485 v1332
  let v1334 : BitVec 32 := Scalar.addi v0 v1333
  let v1335 : Index := Scalar.indexCast v1334
  ![v1335.toNat]
def k0_off486 : Fin 1 → Nat :=
  let c0_i32_485 : BitVec 32 := 0#32
  let c121_i32 : BitVec 32 := 121#32
  let c1_i32_484 : BitVec 32 := 1#32
  let v1332 : BitVec 32 := Scalar.muli c121_i32 c1_i32_484
  let v1333 : BitVec 32 := Scalar.addi c0_i32_485 v1332
  ![v1333.toNat]
def k0_off487 : Fin 2 → Nat :=
  let c0_i32_485 : BitVec 32 := 0#32
  let c121_i32 : BitVec 32 := 121#32
  let c1_i32_484 : BitVec 32 := 1#32
  let v1332 : BitVec 32 := Scalar.muli c121_i32 c1_i32_484
  let v1333 : BitVec 32 := Scalar.addi c0_i32_485 v1332
  let c0_i32_486 : BitVec 32 := 0#32
  ![v1333.toNat, 0]
def k0_off488 (v1336 : BitVec 32) : Fin 2 → Nat :=
  let c0_i32_487 : BitVec 32 := 0#32
  ![v1336.toNat, 0]

def k0_chk122 (v1336 : BitVec 32) : Prop :=
  (∀ a, (k0_off488 v1336) a + S1x8000.size a ≤ S8000x8000.size a)
instance k0_chk122.dec : ∀ (v1336 : BitVec 32), Decidable (k0_chk122 v1336) := fun v1336 => decidable_of_iff' _ (Iff.of_eq (k0_chk122.eq_1 v1336))
theorem k0_off488_inb : ∀ (v1336 : BitVec 32) (k0_hw122 : k0_chk122 v1336), ∀ a, (k0_off488 v1336) a + S1x8000.size a ≤ S8000x8000.size a := fun v1336 k0_hw122 => k0_hw122

def k0_off489 (i : grid0.Coords) : Fin 1 → Nat :=
  let arg0 : BitVec 32 := BitVec.ofNat 32 (i 0).val
  let c128_i32 : BitVec 32 := 128#32
  let v0 : BitVec 32 := Scalar.muli arg0 c128_i32
  let c0_i32_489 : BitVec 32 := 0#32
  let c122_i32 : BitVec 32 := 122#32
  let c1_i32_488 : BitVec 32 := 1#32
  let v1343 : BitVec 32 := Scalar.muli c122_i32 c1_i32_488
  let v1344 : BitVec 32 := Scalar.addi c0_i32_489 v1343
  let v1345 : BitVec 32 := Scalar.addi v0 v1344
  let v1346 : Index := Scalar.indexCast v1345
  ![v1346.toNat]
def k0_off490 : Fin 1 → Nat :=
  let c0_i32_489 : BitVec 32 := 0#32
  let c122_i32 : BitVec 32 := 122#32
  let c1_i32_488 : BitVec 32 := 1#32
  let v1343 : BitVec 32 := Scalar.muli c122_i32 c1_i32_488
  let v1344 : BitVec 32 := Scalar.addi c0_i32_489 v1343
  ![v1344.toNat]
def k0_off491 : Fin 2 → Nat :=
  let c0_i32_489 : BitVec 32 := 0#32
  let c122_i32 : BitVec 32 := 122#32
  let c1_i32_488 : BitVec 32 := 1#32
  let v1343 : BitVec 32 := Scalar.muli c122_i32 c1_i32_488
  let v1344 : BitVec 32 := Scalar.addi c0_i32_489 v1343
  let c0_i32_490 : BitVec 32 := 0#32
  ![v1344.toNat, 0]
def k0_off492 (v1347 : BitVec 32) : Fin 2 → Nat :=
  let c0_i32_491 : BitVec 32 := 0#32
  ![v1347.toNat, 0]

def k0_chk123 (v1347 : BitVec 32) : Prop :=
  (∀ a, (k0_off492 v1347) a + S1x8000.size a ≤ S8000x8000.size a)
instance k0_chk123.dec : ∀ (v1347 : BitVec 32), Decidable (k0_chk123 v1347) := fun v1347 => decidable_of_iff' _ (Iff.of_eq (k0_chk123.eq_1 v1347))
theorem k0_off492_inb : ∀ (v1347 : BitVec 32) (k0_hw123 : k0_chk123 v1347), ∀ a, (k0_off492 v1347) a + S1x8000.size a ≤ S8000x8000.size a := fun v1347 k0_hw123 => k0_hw123

def k0_off493 (i : grid0.Coords) : Fin 1 → Nat :=
  let arg0 : BitVec 32 := BitVec.ofNat 32 (i 0).val
  let c128_i32 : BitVec 32 := 128#32
  let v0 : BitVec 32 := Scalar.muli arg0 c128_i32
  let c0_i32_493 : BitVec 32 := 0#32
  let c123_i32 : BitVec 32 := 123#32
  let c1_i32_492 : BitVec 32 := 1#32
  let v1354 : BitVec 32 := Scalar.muli c123_i32 c1_i32_492
  let v1355 : BitVec 32 := Scalar.addi c0_i32_493 v1354
  let v1356 : BitVec 32 := Scalar.addi v0 v1355
  let v1357 : Index := Scalar.indexCast v1356
  ![v1357.toNat]
def k0_off494 : Fin 1 → Nat :=
  let c0_i32_493 : BitVec 32 := 0#32
  let c123_i32 : BitVec 32 := 123#32
  let c1_i32_492 : BitVec 32 := 1#32
  let v1354 : BitVec 32 := Scalar.muli c123_i32 c1_i32_492
  let v1355 : BitVec 32 := Scalar.addi c0_i32_493 v1354
  ![v1355.toNat]
def k0_off495 : Fin 2 → Nat :=
  let c0_i32_493 : BitVec 32 := 0#32
  let c123_i32 : BitVec 32 := 123#32
  let c1_i32_492 : BitVec 32 := 1#32
  let v1354 : BitVec 32 := Scalar.muli c123_i32 c1_i32_492
  let v1355 : BitVec 32 := Scalar.addi c0_i32_493 v1354
  let c0_i32_494 : BitVec 32 := 0#32
  ![v1355.toNat, 0]
def k0_off496 (v1358 : BitVec 32) : Fin 2 → Nat :=
  let c0_i32_495 : BitVec 32 := 0#32
  ![v1358.toNat, 0]

def k0_chk124 (v1358 : BitVec 32) : Prop :=
  (∀ a, (k0_off496 v1358) a + S1x8000.size a ≤ S8000x8000.size a)
instance k0_chk124.dec : ∀ (v1358 : BitVec 32), Decidable (k0_chk124 v1358) := fun v1358 => decidable_of_iff' _ (Iff.of_eq (k0_chk124.eq_1 v1358))
theorem k0_off496_inb : ∀ (v1358 : BitVec 32) (k0_hw124 : k0_chk124 v1358), ∀ a, (k0_off496 v1358) a + S1x8000.size a ≤ S8000x8000.size a := fun v1358 k0_hw124 => k0_hw124

def k0_off497 (i : grid0.Coords) : Fin 1 → Nat :=
  let arg0 : BitVec 32 := BitVec.ofNat 32 (i 0).val
  let c128_i32 : BitVec 32 := 128#32
  let v0 : BitVec 32 := Scalar.muli arg0 c128_i32
  let c0_i32_497 : BitVec 32 := 0#32
  let c124_i32 : BitVec 32 := 124#32
  let c1_i32_496 : BitVec 32 := 1#32
  let v1365 : BitVec 32 := Scalar.muli c124_i32 c1_i32_496
  let v1366 : BitVec 32 := Scalar.addi c0_i32_497 v1365
  let v1367 : BitVec 32 := Scalar.addi v0 v1366
  let v1368 : Index := Scalar.indexCast v1367
  ![v1368.toNat]
def k0_off498 : Fin 1 → Nat :=
  let c0_i32_497 : BitVec 32 := 0#32
  let c124_i32 : BitVec 32 := 124#32
  let c1_i32_496 : BitVec 32 := 1#32
  let v1365 : BitVec 32 := Scalar.muli c124_i32 c1_i32_496
  let v1366 : BitVec 32 := Scalar.addi c0_i32_497 v1365
  ![v1366.toNat]
def k0_off499 : Fin 2 → Nat :=
  let c0_i32_497 : BitVec 32 := 0#32
  let c124_i32 : BitVec 32 := 124#32
  let c1_i32_496 : BitVec 32 := 1#32
  let v1365 : BitVec 32 := Scalar.muli c124_i32 c1_i32_496
  let v1366 : BitVec 32 := Scalar.addi c0_i32_497 v1365
  let c0_i32_498 : BitVec 32 := 0#32
  ![v1366.toNat, 0]
def k0_off500 (v1369 : BitVec 32) : Fin 2 → Nat :=
  let c0_i32_499 : BitVec 32 := 0#32
  ![v1369.toNat, 0]

def k0_chk125 (v1369 : BitVec 32) : Prop :=
  (∀ a, (k0_off500 v1369) a + S1x8000.size a ≤ S8000x8000.size a)
instance k0_chk125.dec : ∀ (v1369 : BitVec 32), Decidable (k0_chk125 v1369) := fun v1369 => decidable_of_iff' _ (Iff.of_eq (k0_chk125.eq_1 v1369))
theorem k0_off500_inb : ∀ (v1369 : BitVec 32) (k0_hw125 : k0_chk125 v1369), ∀ a, (k0_off500 v1369) a + S1x8000.size a ≤ S8000x8000.size a := fun v1369 k0_hw125 => k0_hw125

def k0_off501 (i : grid0.Coords) : Fin 1 → Nat :=
  let arg0 : BitVec 32 := BitVec.ofNat 32 (i 0).val
  let c128_i32 : BitVec 32 := 128#32
  let v0 : BitVec 32 := Scalar.muli arg0 c128_i32
  let c0_i32_501 : BitVec 32 := 0#32
  let c125_i32 : BitVec 32 := 125#32
  let c1_i32_500 : BitVec 32 := 1#32
  let v1376 : BitVec 32 := Scalar.muli c125_i32 c1_i32_500
  let v1377 : BitVec 32 := Scalar.addi c0_i32_501 v1376
  let v1378 : BitVec 32 := Scalar.addi v0 v1377
  let v1379 : Index := Scalar.indexCast v1378
  ![v1379.toNat]
def k0_off502 : Fin 1 → Nat :=
  let c0_i32_501 : BitVec 32 := 0#32
  let c125_i32 : BitVec 32 := 125#32
  let c1_i32_500 : BitVec 32 := 1#32
  let v1376 : BitVec 32 := Scalar.muli c125_i32 c1_i32_500
  let v1377 : BitVec 32 := Scalar.addi c0_i32_501 v1376
  ![v1377.toNat]
def k0_off503 : Fin 2 → Nat :=
  let c0_i32_501 : BitVec 32 := 0#32
  let c125_i32 : BitVec 32 := 125#32
  let c1_i32_500 : BitVec 32 := 1#32
  let v1376 : BitVec 32 := Scalar.muli c125_i32 c1_i32_500
  let v1377 : BitVec 32 := Scalar.addi c0_i32_501 v1376
  let c0_i32_502 : BitVec 32 := 0#32
  ![v1377.toNat, 0]
def k0_off504 (v1380 : BitVec 32) : Fin 2 → Nat :=
  let c0_i32_503 : BitVec 32 := 0#32
  ![v1380.toNat, 0]

def k0_chk126 (v1380 : BitVec 32) : Prop :=
  (∀ a, (k0_off504 v1380) a + S1x8000.size a ≤ S8000x8000.size a)
instance k0_chk126.dec : ∀ (v1380 : BitVec 32), Decidable (k0_chk126 v1380) := fun v1380 => decidable_of_iff' _ (Iff.of_eq (k0_chk126.eq_1 v1380))
theorem k0_off504_inb : ∀ (v1380 : BitVec 32) (k0_hw126 : k0_chk126 v1380), ∀ a, (k0_off504 v1380) a + S1x8000.size a ≤ S8000x8000.size a := fun v1380 k0_hw126 => k0_hw126

def k0_off505 (i : grid0.Coords) : Fin 1 → Nat :=
  let arg0 : BitVec 32 := BitVec.ofNat 32 (i 0).val
  let c128_i32 : BitVec 32 := 128#32
  let v0 : BitVec 32 := Scalar.muli arg0 c128_i32
  let c0_i32_505 : BitVec 32 := 0#32
  let c126_i32 : BitVec 32 := 126#32
  let c1_i32_504 : BitVec 32 := 1#32
  let v1387 : BitVec 32 := Scalar.muli c126_i32 c1_i32_504
  let v1388 : BitVec 32 := Scalar.addi c0_i32_505 v1387
  let v1389 : BitVec 32 := Scalar.addi v0 v1388
  let v1390 : Index := Scalar.indexCast v1389
  ![v1390.toNat]
def k0_off506 : Fin 1 → Nat :=
  let c0_i32_505 : BitVec 32 := 0#32
  let c126_i32 : BitVec 32 := 126#32
  let c1_i32_504 : BitVec 32 := 1#32
  let v1387 : BitVec 32 := Scalar.muli c126_i32 c1_i32_504
  let v1388 : BitVec 32 := Scalar.addi c0_i32_505 v1387
  ![v1388.toNat]
def k0_off507 : Fin 2 → Nat :=
  let c0_i32_505 : BitVec 32 := 0#32
  let c126_i32 : BitVec 32 := 126#32
  let c1_i32_504 : BitVec 32 := 1#32
  let v1387 : BitVec 32 := Scalar.muli c126_i32 c1_i32_504
  let v1388 : BitVec 32 := Scalar.addi c0_i32_505 v1387
  let c0_i32_506 : BitVec 32 := 0#32
  ![v1388.toNat, 0]
def k0_off508 (v1391 : BitVec 32) : Fin 2 → Nat :=
  let c0_i32_507 : BitVec 32 := 0#32
  ![v1391.toNat, 0]

def k0_chk127 (v1391 : BitVec 32) : Prop :=
  (∀ a, (k0_off508 v1391) a + S1x8000.size a ≤ S8000x8000.size a)
instance k0_chk127.dec : ∀ (v1391 : BitVec 32), Decidable (k0_chk127 v1391) := fun v1391 => decidable_of_iff' _ (Iff.of_eq (k0_chk127.eq_1 v1391))
theorem k0_off508_inb : ∀ (v1391 : BitVec 32) (k0_hw127 : k0_chk127 v1391), ∀ a, (k0_off508 v1391) a + S1x8000.size a ≤ S8000x8000.size a := fun v1391 k0_hw127 => k0_hw127

def k0_off509 (i : grid0.Coords) : Fin 1 → Nat :=
  let arg0 : BitVec 32 := BitVec.ofNat 32 (i 0).val
  let c128_i32 : BitVec 32 := 128#32
  let v0 : BitVec 32 := Scalar.muli arg0 c128_i32
  let c0_i32_509 : BitVec 32 := 0#32
  let c127_i32 : BitVec 32 := 127#32
  let c1_i32_508 : BitVec 32 := 1#32
  let v1398 : BitVec 32 := Scalar.muli c127_i32 c1_i32_508
  let v1399 : BitVec 32 := Scalar.addi c0_i32_509 v1398
  let v1400 : BitVec 32 := Scalar.addi v0 v1399
  let v1401 : Index := Scalar.indexCast v1400
  ![v1401.toNat]
def k0_off510 : Fin 1 → Nat :=
  let c0_i32_509 : BitVec 32 := 0#32
  let c127_i32 : BitVec 32 := 127#32
  let c1_i32_508 : BitVec 32 := 1#32
  let v1398 : BitVec 32 := Scalar.muli c127_i32 c1_i32_508
  let v1399 : BitVec 32 := Scalar.addi c0_i32_509 v1398
  ![v1399.toNat]
def k0_off511 : Fin 2 → Nat :=
  let c0_i32_509 : BitVec 32 := 0#32
  let c127_i32 : BitVec 32 := 127#32
  let c1_i32_508 : BitVec 32 := 1#32
  let v1398 : BitVec 32 := Scalar.muli c127_i32 c1_i32_508
  let v1399 : BitVec 32 := Scalar.addi c0_i32_509 v1398
  let c0_i32_510 : BitVec 32 := 0#32
  ![v1399.toNat, 0]
def k0_off512 (v1402 : BitVec 32) : Fin 2 → Nat :=
  let c0_i32_511 : BitVec 32 := 0#32
  ![v1402.toNat, 0]

def k0_chk128 (v1402 : BitVec 32) : Prop :=
  (∀ a, (k0_off512 v1402) a + S1x8000.size a ≤ S8000x8000.size a)
instance k0_chk128.dec : ∀ (v1402 : BitVec 32), Decidable (k0_chk128 v1402) := fun v1402 => decidable_of_iff' _ (Iff.of_eq (k0_chk128.eq_1 v1402))
theorem k0_off512_inb : ∀ (v1402 : BitVec 32) (k0_hw128 : k0_chk128 v1402), ∀ a, (k0_off512 v1402) a + S1x8000.size a ≤ S8000x8000.size a := fun v1402 k0_hw128 => k0_hw128

def k0_off513 (i : grid0.Coords) : Fin 1 → Nat :=
  let arg0 : BitVec 32 := BitVec.ofNat 32 (i 0).val
  let c128_i32 : BitVec 32 := 128#32
  let v0 : BitVec 32 := Scalar.muli arg0 c128_i32
  let c0_i32_515 : BitVec 32 := 0#32
  let c0_i32_513 : BitVec 32 := 0#32
  let c1_i32_514 : BitVec 32 := 1#32
  let v1409 : BitVec 32 := Scalar.muli c0_i32_513 c1_i32_514
  let v1410 : BitVec 32 := Scalar.addi c0_i32_515 v1409
  let v1411 : BitVec 32 := Scalar.addi v0 v1410
  let v1412 : Index := Scalar.indexCast v1411
  ![v1412.toNat]
def k0_off514 : Fin 1 → Nat :=
  let c0_i32_515 : BitVec 32 := 0#32
  let c0_i32_513 : BitVec 32 := 0#32
  let c1_i32_514 : BitVec 32 := 1#32
  let v1409 : BitVec 32 := Scalar.muli c0_i32_513 c1_i32_514
  let v1410 : BitVec 32 := Scalar.addi c0_i32_515 v1409
  ![v1410.toNat]
def k0_off515 : Fin 2 → Nat :=
  let c0_i32_515 : BitVec 32 := 0#32
  let c0_i32_513 : BitVec 32 := 0#32
  let c1_i32_514 : BitVec 32 := 1#32
  let v1409 : BitVec 32 := Scalar.muli c0_i32_513 c1_i32_514
  let v1410 : BitVec 32 := Scalar.addi c0_i32_515 v1409
  let c0_i32_516 : BitVec 32 := 0#32
  ![v1410.toNat, 0]
def k0_off516 (v1413 : BitVec 32) : Fin 2 → Nat :=
  let c0_i32_517 : BitVec 32 := 0#32
  ![v1413.toNat, 0]

def k0_chk129 (v1413 : BitVec 32) : Prop :=
  (∀ a, (k0_off516 v1413) a + S1x8000.size a ≤ S8000x8000.size a)
instance k0_chk129.dec : ∀ (v1413 : BitVec 32), Decidable (k0_chk129 v1413) := fun v1413 => decidable_of_iff' _ (Iff.of_eq (k0_chk129.eq_1 v1413))
theorem k0_off516_inb : ∀ (v1413 : BitVec 32) (k0_hw129 : k0_chk129 v1413), ∀ a, (k0_off516 v1413) a + S1x8000.size a ≤ S8000x8000.size a := fun v1413 k0_hw129 => k0_hw129

def k0_off517 (i : grid0.Coords) : Fin 1 → Nat :=
  let arg0 : BitVec 32 := BitVec.ofNat 32 (i 0).val
  let c128_i32 : BitVec 32 := 128#32
  let v0 : BitVec 32 := Scalar.muli arg0 c128_i32
  let c0_i32_520 : BitVec 32 := 0#32
  let c1_i32_518 : BitVec 32 := 1#32
  let c1_i32_519 : BitVec 32 := 1#32
  let v1420 : BitVec 32 := Scalar.muli c1_i32_518 c1_i32_519
  let v1421 : BitVec 32 := Scalar.addi c0_i32_520 v1420
  let v1422 : BitVec 32 := Scalar.addi v0 v1421
  let v1423 : Index := Scalar.indexCast v1422
  ![v1423.toNat]
def k0_off518 : Fin 1 → Nat :=
  let c0_i32_520 : BitVec 32 := 0#32
  let c1_i32_518 : BitVec 32 := 1#32
  let c1_i32_519 : BitVec 32 := 1#32
  let v1420 : BitVec 32 := Scalar.muli c1_i32_518 c1_i32_519
  let v1421 : BitVec 32 := Scalar.addi c0_i32_520 v1420
  ![v1421.toNat]
def k0_off519 : Fin 2 → Nat :=
  let c0_i32_520 : BitVec 32 := 0#32
  let c1_i32_518 : BitVec 32 := 1#32
  let c1_i32_519 : BitVec 32 := 1#32
  let v1420 : BitVec 32 := Scalar.muli c1_i32_518 c1_i32_519
  let v1421 : BitVec 32 := Scalar.addi c0_i32_520 v1420
  let c0_i32_521 : BitVec 32 := 0#32
  ![v1421.toNat, 0]
def k0_off520 (v1424 : BitVec 32) : Fin 2 → Nat :=
  let c0_i32_522 : BitVec 32 := 0#32
  ![v1424.toNat, 0]

def k0_chk130 (v1424 : BitVec 32) : Prop :=
  (∀ a, (k0_off520 v1424) a + S1x8000.size a ≤ S8000x8000.size a)
instance k0_chk130.dec : ∀ (v1424 : BitVec 32), Decidable (k0_chk130 v1424) := fun v1424 => decidable_of_iff' _ (Iff.of_eq (k0_chk130.eq_1 v1424))
theorem k0_off520_inb : ∀ (v1424 : BitVec 32) (k0_hw130 : k0_chk130 v1424), ∀ a, (k0_off520 v1424) a + S1x8000.size a ≤ S8000x8000.size a := fun v1424 k0_hw130 => k0_hw130

def k0_off521 (i : grid0.Coords) : Fin 1 → Nat :=
  let arg0 : BitVec 32 := BitVec.ofNat 32 (i 0).val
  let c128_i32 : BitVec 32 := 128#32
  let v0 : BitVec 32 := Scalar.muli arg0 c128_i32
  let c0_i32_525 : BitVec 32 := 0#32
  let c2_i32_523 : BitVec 32 := 2#32
  let c1_i32_524 : BitVec 32 := 1#32
  let v1431 : BitVec 32 := Scalar.muli c2_i32_523 c1_i32_524
  let v1432 : BitVec 32 := Scalar.addi c0_i32_525 v1431
  let v1433 : BitVec 32 := Scalar.addi v0 v1432
  let v1434 : Index := Scalar.indexCast v1433
  ![v1434.toNat]
def k0_off522 : Fin 1 → Nat :=
  let c0_i32_525 : BitVec 32 := 0#32
  let c2_i32_523 : BitVec 32 := 2#32
  let c1_i32_524 : BitVec 32 := 1#32
  let v1431 : BitVec 32 := Scalar.muli c2_i32_523 c1_i32_524
  let v1432 : BitVec 32 := Scalar.addi c0_i32_525 v1431
  ![v1432.toNat]
def k0_off523 : Fin 2 → Nat :=
  let c0_i32_525 : BitVec 32 := 0#32
  let c2_i32_523 : BitVec 32 := 2#32
  let c1_i32_524 : BitVec 32 := 1#32
  let v1431 : BitVec 32 := Scalar.muli c2_i32_523 c1_i32_524
  let v1432 : BitVec 32 := Scalar.addi c0_i32_525 v1431
  let c0_i32_526 : BitVec 32 := 0#32
  ![v1432.toNat, 0]
def k0_off524 (v1435 : BitVec 32) : Fin 2 → Nat :=
  let c0_i32_527 : BitVec 32 := 0#32
  ![v1435.toNat, 0]

def k0_chk131 (v1435 : BitVec 32) : Prop :=
  (∀ a, (k0_off524 v1435) a + S1x8000.size a ≤ S8000x8000.size a)
instance k0_chk131.dec : ∀ (v1435 : BitVec 32), Decidable (k0_chk131 v1435) := fun v1435 => decidable_of_iff' _ (Iff.of_eq (k0_chk131.eq_1 v1435))
theorem k0_off524_inb : ∀ (v1435 : BitVec 32) (k0_hw131 : k0_chk131 v1435), ∀ a, (k0_off524 v1435) a + S1x8000.size a ≤ S8000x8000.size a := fun v1435 k0_hw131 => k0_hw131

def k0_off525 (i : grid0.Coords) : Fin 1 → Nat :=
  let arg0 : BitVec 32 := BitVec.ofNat 32 (i 0).val
  let c128_i32 : BitVec 32 := 128#32
  let v0 : BitVec 32 := Scalar.muli arg0 c128_i32
  let c0_i32_530 : BitVec 32 := 0#32
  let c3_i32_528 : BitVec 32 := 3#32
  let c1_i32_529 : BitVec 32 := 1#32
  let v1442 : BitVec 32 := Scalar.muli c3_i32_528 c1_i32_529
  let v1443 : BitVec 32 := Scalar.addi c0_i32_530 v1442
  let v1444 : BitVec 32 := Scalar.addi v0 v1443
  let v1445 : Index := Scalar.indexCast v1444
  ![v1445.toNat]
def k0_off526 : Fin 1 → Nat :=
  let c0_i32_530 : BitVec 32 := 0#32
  let c3_i32_528 : BitVec 32 := 3#32
  let c1_i32_529 : BitVec 32 := 1#32
  let v1442 : BitVec 32 := Scalar.muli c3_i32_528 c1_i32_529
  let v1443 : BitVec 32 := Scalar.addi c0_i32_530 v1442
  ![v1443.toNat]
def k0_off527 : Fin 2 → Nat :=
  let c0_i32_530 : BitVec 32 := 0#32
  let c3_i32_528 : BitVec 32 := 3#32
  let c1_i32_529 : BitVec 32 := 1#32
  let v1442 : BitVec 32 := Scalar.muli c3_i32_528 c1_i32_529
  let v1443 : BitVec 32 := Scalar.addi c0_i32_530 v1442
  let c0_i32_531 : BitVec 32 := 0#32
  ![v1443.toNat, 0]
def k0_off528 (v1446 : BitVec 32) : Fin 2 → Nat :=
  let c0_i32_532 : BitVec 32 := 0#32
  ![v1446.toNat, 0]

def k0_chk132 (v1446 : BitVec 32) : Prop :=
  (∀ a, (k0_off528 v1446) a + S1x8000.size a ≤ S8000x8000.size a)
instance k0_chk132.dec : ∀ (v1446 : BitVec 32), Decidable (k0_chk132 v1446) := fun v1446 => decidable_of_iff' _ (Iff.of_eq (k0_chk132.eq_1 v1446))
theorem k0_off528_inb : ∀ (v1446 : BitVec 32) (k0_hw132 : k0_chk132 v1446), ∀ a, (k0_off528 v1446) a + S1x8000.size a ≤ S8000x8000.size a := fun v1446 k0_hw132 => k0_hw132

def k0_off529 (i : grid0.Coords) : Fin 1 → Nat :=
  let arg0 : BitVec 32 := BitVec.ofNat 32 (i 0).val
  let c128_i32 : BitVec 32 := 128#32
  let v0 : BitVec 32 := Scalar.muli arg0 c128_i32
  let c0_i32_535 : BitVec 32 := 0#32
  let c4_i32_533 : BitVec 32 := 4#32
  let c1_i32_534 : BitVec 32 := 1#32
  let v1453 : BitVec 32 := Scalar.muli c4_i32_533 c1_i32_534
  let v1454 : BitVec 32 := Scalar.addi c0_i32_535 v1453
  let v1455 : BitVec 32 := Scalar.addi v0 v1454
  let v1456 : Index := Scalar.indexCast v1455
  ![v1456.toNat]
def k0_off530 : Fin 1 → Nat :=
  let c0_i32_535 : BitVec 32 := 0#32
  let c4_i32_533 : BitVec 32 := 4#32
  let c1_i32_534 : BitVec 32 := 1#32
  let v1453 : BitVec 32 := Scalar.muli c4_i32_533 c1_i32_534
  let v1454 : BitVec 32 := Scalar.addi c0_i32_535 v1453
  ![v1454.toNat]
def k0_off531 : Fin 2 → Nat :=
  let c0_i32_535 : BitVec 32 := 0#32
  let c4_i32_533 : BitVec 32 := 4#32
  let c1_i32_534 : BitVec 32 := 1#32
  let v1453 : BitVec 32 := Scalar.muli c4_i32_533 c1_i32_534
  let v1454 : BitVec 32 := Scalar.addi c0_i32_535 v1453
  let c0_i32_536 : BitVec 32 := 0#32
  ![v1454.toNat, 0]
def k0_off532 (v1457 : BitVec 32) : Fin 2 → Nat :=
  let c0_i32_537 : BitVec 32 := 0#32
  ![v1457.toNat, 0]

def k0_chk133 (v1457 : BitVec 32) : Prop :=
  (∀ a, (k0_off532 v1457) a + S1x8000.size a ≤ S8000x8000.size a)
instance k0_chk133.dec : ∀ (v1457 : BitVec 32), Decidable (k0_chk133 v1457) := fun v1457 => decidable_of_iff' _ (Iff.of_eq (k0_chk133.eq_1 v1457))
theorem k0_off532_inb : ∀ (v1457 : BitVec 32) (k0_hw133 : k0_chk133 v1457), ∀ a, (k0_off532 v1457) a + S1x8000.size a ≤ S8000x8000.size a := fun v1457 k0_hw133 => k0_hw133

def k0_off533 (i : grid0.Coords) : Fin 1 → Nat :=
  let arg0 : BitVec 32 := BitVec.ofNat 32 (i 0).val
  let c128_i32 : BitVec 32 := 128#32
  let v0 : BitVec 32 := Scalar.muli arg0 c128_i32
  let c0_i32_540 : BitVec 32 := 0#32
  let c5_i32_538 : BitVec 32 := 5#32
  let c1_i32_539 : BitVec 32 := 1#32
  let v1464 : BitVec 32 := Scalar.muli c5_i32_538 c1_i32_539
  let v1465 : BitVec 32 := Scalar.addi c0_i32_540 v1464
  let v1466 : BitVec 32 := Scalar.addi v0 v1465
  let v1467 : Index := Scalar.indexCast v1466
  ![v1467.toNat]
def k0_off534 : Fin 1 → Nat :=
  let c0_i32_540 : BitVec 32 := 0#32
  let c5_i32_538 : BitVec 32 := 5#32
  let c1_i32_539 : BitVec 32 := 1#32
  let v1464 : BitVec 32 := Scalar.muli c5_i32_538 c1_i32_539
  let v1465 : BitVec 32 := Scalar.addi c0_i32_540 v1464
  ![v1465.toNat]
def k0_off535 : Fin 2 → Nat :=
  let c0_i32_540 : BitVec 32 := 0#32
  let c5_i32_538 : BitVec 32 := 5#32
  let c1_i32_539 : BitVec 32 := 1#32
  let v1464 : BitVec 32 := Scalar.muli c5_i32_538 c1_i32_539
  let v1465 : BitVec 32 := Scalar.addi c0_i32_540 v1464
  let c0_i32_541 : BitVec 32 := 0#32
  ![v1465.toNat, 0]
def k0_off536 (v1468 : BitVec 32) : Fin 2 → Nat :=
  let c0_i32_542 : BitVec 32 := 0#32
  ![v1468.toNat, 0]

def k0_chk134 (v1468 : BitVec 32) : Prop :=
  (∀ a, (k0_off536 v1468) a + S1x8000.size a ≤ S8000x8000.size a)
instance k0_chk134.dec : ∀ (v1468 : BitVec 32), Decidable (k0_chk134 v1468) := fun v1468 => decidable_of_iff' _ (Iff.of_eq (k0_chk134.eq_1 v1468))
theorem k0_off536_inb : ∀ (v1468 : BitVec 32) (k0_hw134 : k0_chk134 v1468), ∀ a, (k0_off536 v1468) a + S1x8000.size a ≤ S8000x8000.size a := fun v1468 k0_hw134 => k0_hw134

def k0_off537 (i : grid0.Coords) : Fin 1 → Nat :=
  let arg0 : BitVec 32 := BitVec.ofNat 32 (i 0).val
  let c128_i32 : BitVec 32 := 128#32
  let v0 : BitVec 32 := Scalar.muli arg0 c128_i32
  let c0_i32_545 : BitVec 32 := 0#32
  let c6_i32_543 : BitVec 32 := 6#32
  let c1_i32_544 : BitVec 32 := 1#32
  let v1475 : BitVec 32 := Scalar.muli c6_i32_543 c1_i32_544
  let v1476 : BitVec 32 := Scalar.addi c0_i32_545 v1475
  let v1477 : BitVec 32 := Scalar.addi v0 v1476
  let v1478 : Index := Scalar.indexCast v1477
  ![v1478.toNat]
def k0_off538 : Fin 1 → Nat :=
  let c0_i32_545 : BitVec 32 := 0#32
  let c6_i32_543 : BitVec 32 := 6#32
  let c1_i32_544 : BitVec 32 := 1#32
  let v1475 : BitVec 32 := Scalar.muli c6_i32_543 c1_i32_544
  let v1476 : BitVec 32 := Scalar.addi c0_i32_545 v1475
  ![v1476.toNat]
def k0_off539 : Fin 2 → Nat :=
  let c0_i32_545 : BitVec 32 := 0#32
  let c6_i32_543 : BitVec 32 := 6#32
  let c1_i32_544 : BitVec 32 := 1#32
  let v1475 : BitVec 32 := Scalar.muli c6_i32_543 c1_i32_544
  let v1476 : BitVec 32 := Scalar.addi c0_i32_545 v1475
  let c0_i32_546 : BitVec 32 := 0#32
  ![v1476.toNat, 0]
def k0_off540 (v1479 : BitVec 32) : Fin 2 → Nat :=
  let c0_i32_547 : BitVec 32 := 0#32
  ![v1479.toNat, 0]

def k0_chk135 (v1479 : BitVec 32) : Prop :=
  (∀ a, (k0_off540 v1479) a + S1x8000.size a ≤ S8000x8000.size a)
instance k0_chk135.dec : ∀ (v1479 : BitVec 32), Decidable (k0_chk135 v1479) := fun v1479 => decidable_of_iff' _ (Iff.of_eq (k0_chk135.eq_1 v1479))
theorem k0_off540_inb : ∀ (v1479 : BitVec 32) (k0_hw135 : k0_chk135 v1479), ∀ a, (k0_off540 v1479) a + S1x8000.size a ≤ S8000x8000.size a := fun v1479 k0_hw135 => k0_hw135

def k0_off541 (i : grid0.Coords) : Fin 1 → Nat :=
  let arg0 : BitVec 32 := BitVec.ofNat 32 (i 0).val
  let c128_i32 : BitVec 32 := 128#32
  let v0 : BitVec 32 := Scalar.muli arg0 c128_i32
  let c0_i32_550 : BitVec 32 := 0#32
  let c7_i32_548 : BitVec 32 := 7#32
  let c1_i32_549 : BitVec 32 := 1#32
  let v1486 : BitVec 32 := Scalar.muli c7_i32_548 c1_i32_549
  let v1487 : BitVec 32 := Scalar.addi c0_i32_550 v1486
  let v1488 : BitVec 32 := Scalar.addi v0 v1487
  let v1489 : Index := Scalar.indexCast v1488
  ![v1489.toNat]
def k0_off542 : Fin 1 → Nat :=
  let c0_i32_550 : BitVec 32 := 0#32
  let c7_i32_548 : BitVec 32 := 7#32
  let c1_i32_549 : BitVec 32 := 1#32
  let v1486 : BitVec 32 := Scalar.muli c7_i32_548 c1_i32_549
  let v1487 : BitVec 32 := Scalar.addi c0_i32_550 v1486
  ![v1487.toNat]
def k0_off543 : Fin 2 → Nat :=
  let c0_i32_550 : BitVec 32 := 0#32
  let c7_i32_548 : BitVec 32 := 7#32
  let c1_i32_549 : BitVec 32 := 1#32
  let v1486 : BitVec 32 := Scalar.muli c7_i32_548 c1_i32_549
  let v1487 : BitVec 32 := Scalar.addi c0_i32_550 v1486
  let c0_i32_551 : BitVec 32 := 0#32
  ![v1487.toNat, 0]
def k0_off544 (v1490 : BitVec 32) : Fin 2 → Nat :=
  let c0_i32_552 : BitVec 32 := 0#32
  ![v1490.toNat, 0]

def k0_chk136 (v1490 : BitVec 32) : Prop :=
  (∀ a, (k0_off544 v1490) a + S1x8000.size a ≤ S8000x8000.size a)
instance k0_chk136.dec : ∀ (v1490 : BitVec 32), Decidable (k0_chk136 v1490) := fun v1490 => decidable_of_iff' _ (Iff.of_eq (k0_chk136.eq_1 v1490))
theorem k0_off544_inb : ∀ (v1490 : BitVec 32) (k0_hw136 : k0_chk136 v1490), ∀ a, (k0_off544 v1490) a + S1x8000.size a ≤ S8000x8000.size a := fun v1490 k0_hw136 => k0_hw136

def k0_off545 (i : grid0.Coords) : Fin 1 → Nat :=
  let arg0 : BitVec 32 := BitVec.ofNat 32 (i 0).val
  let c128_i32 : BitVec 32 := 128#32
  let v0 : BitVec 32 := Scalar.muli arg0 c128_i32
  let c0_i32_555 : BitVec 32 := 0#32
  let c8_i32_553 : BitVec 32 := 8#32
  let c1_i32_554 : BitVec 32 := 1#32
  let v1497 : BitVec 32 := Scalar.muli c8_i32_553 c1_i32_554
  let v1498 : BitVec 32 := Scalar.addi c0_i32_555 v1497
  let v1499 : BitVec 32 := Scalar.addi v0 v1498
  let v1500 : Index := Scalar.indexCast v1499
  ![v1500.toNat]
def k0_off546 : Fin 1 → Nat :=
  let c0_i32_555 : BitVec 32 := 0#32
  let c8_i32_553 : BitVec 32 := 8#32
  let c1_i32_554 : BitVec 32 := 1#32
  let v1497 : BitVec 32 := Scalar.muli c8_i32_553 c1_i32_554
  let v1498 : BitVec 32 := Scalar.addi c0_i32_555 v1497
  ![v1498.toNat]
def k0_off547 : Fin 2 → Nat :=
  let c0_i32_555 : BitVec 32 := 0#32
  let c8_i32_553 : BitVec 32 := 8#32
  let c1_i32_554 : BitVec 32 := 1#32
  let v1497 : BitVec 32 := Scalar.muli c8_i32_553 c1_i32_554
  let v1498 : BitVec 32 := Scalar.addi c0_i32_555 v1497
  let c0_i32_556 : BitVec 32 := 0#32
  ![v1498.toNat, 0]
def k0_off548 (v1501 : BitVec 32) : Fin 2 → Nat :=
  let c0_i32_557 : BitVec 32 := 0#32
  ![v1501.toNat, 0]

def k0_chk137 (v1501 : BitVec 32) : Prop :=
  (∀ a, (k0_off548 v1501) a + S1x8000.size a ≤ S8000x8000.size a)
instance k0_chk137.dec : ∀ (v1501 : BitVec 32), Decidable (k0_chk137 v1501) := fun v1501 => decidable_of_iff' _ (Iff.of_eq (k0_chk137.eq_1 v1501))
theorem k0_off548_inb : ∀ (v1501 : BitVec 32) (k0_hw137 : k0_chk137 v1501), ∀ a, (k0_off548 v1501) a + S1x8000.size a ≤ S8000x8000.size a := fun v1501 k0_hw137 => k0_hw137

def k0_off549 (i : grid0.Coords) : Fin 1 → Nat :=
  let arg0 : BitVec 32 := BitVec.ofNat 32 (i 0).val
  let c128_i32 : BitVec 32 := 128#32
  let v0 : BitVec 32 := Scalar.muli arg0 c128_i32
  let c0_i32_560 : BitVec 32 := 0#32
  let c9_i32_558 : BitVec 32 := 9#32
  let c1_i32_559 : BitVec 32 := 1#32
  let v1508 : BitVec 32 := Scalar.muli c9_i32_558 c1_i32_559
  let v1509 : BitVec 32 := Scalar.addi c0_i32_560 v1508
  let v1510 : BitVec 32 := Scalar.addi v0 v1509
  let v1511 : Index := Scalar.indexCast v1510
  ![v1511.toNat]
def k0_off550 : Fin 1 → Nat :=
  let c0_i32_560 : BitVec 32 := 0#32
  let c9_i32_558 : BitVec 32 := 9#32
  let c1_i32_559 : BitVec 32 := 1#32
  let v1508 : BitVec 32 := Scalar.muli c9_i32_558 c1_i32_559
  let v1509 : BitVec 32 := Scalar.addi c0_i32_560 v1508
  ![v1509.toNat]
def k0_off551 : Fin 2 → Nat :=
  let c0_i32_560 : BitVec 32 := 0#32
  let c9_i32_558 : BitVec 32 := 9#32
  let c1_i32_559 : BitVec 32 := 1#32
  let v1508 : BitVec 32 := Scalar.muli c9_i32_558 c1_i32_559
  let v1509 : BitVec 32 := Scalar.addi c0_i32_560 v1508
  let c0_i32_561 : BitVec 32 := 0#32
  ![v1509.toNat, 0]
def k0_off552 (v1512 : BitVec 32) : Fin 2 → Nat :=
  let c0_i32_562 : BitVec 32 := 0#32
  ![v1512.toNat, 0]

def k0_chk138 (v1512 : BitVec 32) : Prop :=
  (∀ a, (k0_off552 v1512) a + S1x8000.size a ≤ S8000x8000.size a)
instance k0_chk138.dec : ∀ (v1512 : BitVec 32), Decidable (k0_chk138 v1512) := fun v1512 => decidable_of_iff' _ (Iff.of_eq (k0_chk138.eq_1 v1512))
theorem k0_off552_inb : ∀ (v1512 : BitVec 32) (k0_hw138 : k0_chk138 v1512), ∀ a, (k0_off552 v1512) a + S1x8000.size a ≤ S8000x8000.size a := fun v1512 k0_hw138 => k0_hw138

def k0_off553 (i : grid0.Coords) : Fin 1 → Nat :=
  let arg0 : BitVec 32 := BitVec.ofNat 32 (i 0).val
  let c128_i32 : BitVec 32 := 128#32
  let v0 : BitVec 32 := Scalar.muli arg0 c128_i32
  let c0_i32_565 : BitVec 32 := 0#32
  let c10_i32_563 : BitVec 32 := 10#32
  let c1_i32_564 : BitVec 32 := 1#32
  let v1519 : BitVec 32 := Scalar.muli c10_i32_563 c1_i32_564
  let v1520 : BitVec 32 := Scalar.addi c0_i32_565 v1519
  let v1521 : BitVec 32 := Scalar.addi v0 v1520
  let v1522 : Index := Scalar.indexCast v1521
  ![v1522.toNat]
def k0_off554 : Fin 1 → Nat :=
  let c0_i32_565 : BitVec 32 := 0#32
  let c10_i32_563 : BitVec 32 := 10#32
  let c1_i32_564 : BitVec 32 := 1#32
  let v1519 : BitVec 32 := Scalar.muli c10_i32_563 c1_i32_564
  let v1520 : BitVec 32 := Scalar.addi c0_i32_565 v1519
  ![v1520.toNat]
def k0_off555 : Fin 2 → Nat :=
  let c0_i32_565 : BitVec 32 := 0#32
  let c10_i32_563 : BitVec 32 := 10#32
  let c1_i32_564 : BitVec 32 := 1#32
  let v1519 : BitVec 32 := Scalar.muli c10_i32_563 c1_i32_564
  let v1520 : BitVec 32 := Scalar.addi c0_i32_565 v1519
  let c0_i32_566 : BitVec 32 := 0#32
  ![v1520.toNat, 0]
def k0_off556 (v1523 : BitVec 32) : Fin 2 → Nat :=
  let c0_i32_567 : BitVec 32 := 0#32
  ![v1523.toNat, 0]

def k0_chk139 (v1523 : BitVec 32) : Prop :=
  (∀ a, (k0_off556 v1523) a + S1x8000.size a ≤ S8000x8000.size a)
instance k0_chk139.dec : ∀ (v1523 : BitVec 32), Decidable (k0_chk139 v1523) := fun v1523 => decidable_of_iff' _ (Iff.of_eq (k0_chk139.eq_1 v1523))
theorem k0_off556_inb : ∀ (v1523 : BitVec 32) (k0_hw139 : k0_chk139 v1523), ∀ a, (k0_off556 v1523) a + S1x8000.size a ≤ S8000x8000.size a := fun v1523 k0_hw139 => k0_hw139

def k0_off557 (i : grid0.Coords) : Fin 1 → Nat :=
  let arg0 : BitVec 32 := BitVec.ofNat 32 (i 0).val
  let c128_i32 : BitVec 32 := 128#32
  let v0 : BitVec 32 := Scalar.muli arg0 c128_i32
  let c0_i32_570 : BitVec 32 := 0#32
  let c11_i32_568 : BitVec 32 := 11#32
  let c1_i32_569 : BitVec 32 := 1#32
  let v1530 : BitVec 32 := Scalar.muli c11_i32_568 c1_i32_569
  let v1531 : BitVec 32 := Scalar.addi c0_i32_570 v1530
  let v1532 : BitVec 32 := Scalar.addi v0 v1531
  let v1533 : Index := Scalar.indexCast v1532
  ![v1533.toNat]
def k0_off558 : Fin 1 → Nat :=
  let c0_i32_570 : BitVec 32 := 0#32
  let c11_i32_568 : BitVec 32 := 11#32
  let c1_i32_569 : BitVec 32 := 1#32
  let v1530 : BitVec 32 := Scalar.muli c11_i32_568 c1_i32_569
  let v1531 : BitVec 32 := Scalar.addi c0_i32_570 v1530
  ![v1531.toNat]
def k0_off559 : Fin 2 → Nat :=
  let c0_i32_570 : BitVec 32 := 0#32
  let c11_i32_568 : BitVec 32 := 11#32
  let c1_i32_569 : BitVec 32 := 1#32
  let v1530 : BitVec 32 := Scalar.muli c11_i32_568 c1_i32_569
  let v1531 : BitVec 32 := Scalar.addi c0_i32_570 v1530
  let c0_i32_571 : BitVec 32 := 0#32
  ![v1531.toNat, 0]
def k0_off560 (v1534 : BitVec 32) : Fin 2 → Nat :=
  let c0_i32_572 : BitVec 32 := 0#32
  ![v1534.toNat, 0]

def k0_chk140 (v1534 : BitVec 32) : Prop :=
  (∀ a, (k0_off560 v1534) a + S1x8000.size a ≤ S8000x8000.size a)
instance k0_chk140.dec : ∀ (v1534 : BitVec 32), Decidable (k0_chk140 v1534) := fun v1534 => decidable_of_iff' _ (Iff.of_eq (k0_chk140.eq_1 v1534))
theorem k0_off560_inb : ∀ (v1534 : BitVec 32) (k0_hw140 : k0_chk140 v1534), ∀ a, (k0_off560 v1534) a + S1x8000.size a ≤ S8000x8000.size a := fun v1534 k0_hw140 => k0_hw140

def k0_off561 (i : grid0.Coords) : Fin 1 → Nat :=
  let arg0 : BitVec 32 := BitVec.ofNat 32 (i 0).val
  let c128_i32 : BitVec 32 := 128#32
  let v0 : BitVec 32 := Scalar.muli arg0 c128_i32
  let c0_i32_575 : BitVec 32 := 0#32
  let c12_i32_573 : BitVec 32 := 12#32
  let c1_i32_574 : BitVec 32 := 1#32
  let v1541 : BitVec 32 := Scalar.muli c12_i32_573 c1_i32_574
  let v1542 : BitVec 32 := Scalar.addi c0_i32_575 v1541
  let v1543 : BitVec 32 := Scalar.addi v0 v1542
  let v1544 : Index := Scalar.indexCast v1543
  ![v1544.toNat]
def k0_off562 : Fin 1 → Nat :=
  let c0_i32_575 : BitVec 32 := 0#32
  let c12_i32_573 : BitVec 32 := 12#32
  let c1_i32_574 : BitVec 32 := 1#32
  let v1541 : BitVec 32 := Scalar.muli c12_i32_573 c1_i32_574
  let v1542 : BitVec 32 := Scalar.addi c0_i32_575 v1541
  ![v1542.toNat]
def k0_off563 : Fin 2 → Nat :=
  let c0_i32_575 : BitVec 32 := 0#32
  let c12_i32_573 : BitVec 32 := 12#32
  let c1_i32_574 : BitVec 32 := 1#32
  let v1541 : BitVec 32 := Scalar.muli c12_i32_573 c1_i32_574
  let v1542 : BitVec 32 := Scalar.addi c0_i32_575 v1541
  let c0_i32_576 : BitVec 32 := 0#32
  ![v1542.toNat, 0]
def k0_off564 (v1545 : BitVec 32) : Fin 2 → Nat :=
  let c0_i32_577 : BitVec 32 := 0#32
  ![v1545.toNat, 0]

def k0_chk141 (v1545 : BitVec 32) : Prop :=
  (∀ a, (k0_off564 v1545) a + S1x8000.size a ≤ S8000x8000.size a)
instance k0_chk141.dec : ∀ (v1545 : BitVec 32), Decidable (k0_chk141 v1545) := fun v1545 => decidable_of_iff' _ (Iff.of_eq (k0_chk141.eq_1 v1545))
theorem k0_off564_inb : ∀ (v1545 : BitVec 32) (k0_hw141 : k0_chk141 v1545), ∀ a, (k0_off564 v1545) a + S1x8000.size a ≤ S8000x8000.size a := fun v1545 k0_hw141 => k0_hw141

def k0_off565 (i : grid0.Coords) : Fin 1 → Nat :=
  let arg0 : BitVec 32 := BitVec.ofNat 32 (i 0).val
  let c128_i32 : BitVec 32 := 128#32
  let v0 : BitVec 32 := Scalar.muli arg0 c128_i32
  let c0_i32_580 : BitVec 32 := 0#32
  let c13_i32_578 : BitVec 32 := 13#32
  let c1_i32_579 : BitVec 32 := 1#32
  let v1552 : BitVec 32 := Scalar.muli c13_i32_578 c1_i32_579
  let v1553 : BitVec 32 := Scalar.addi c0_i32_580 v1552
  let v1554 : BitVec 32 := Scalar.addi v0 v1553
  let v1555 : Index := Scalar.indexCast v1554
  ![v1555.toNat]
def k0_off566 : Fin 1 → Nat :=
  let c0_i32_580 : BitVec 32 := 0#32
  let c13_i32_578 : BitVec 32 := 13#32
  let c1_i32_579 : BitVec 32 := 1#32
  let v1552 : BitVec 32 := Scalar.muli c13_i32_578 c1_i32_579
  let v1553 : BitVec 32 := Scalar.addi c0_i32_580 v1552
  ![v1553.toNat]
def k0_off567 : Fin 2 → Nat :=
  let c0_i32_580 : BitVec 32 := 0#32
  let c13_i32_578 : BitVec 32 := 13#32
  let c1_i32_579 : BitVec 32 := 1#32
  let v1552 : BitVec 32 := Scalar.muli c13_i32_578 c1_i32_579
  let v1553 : BitVec 32 := Scalar.addi c0_i32_580 v1552
  let c0_i32_581 : BitVec 32 := 0#32
  ![v1553.toNat, 0]
def k0_off568 (v1556 : BitVec 32) : Fin 2 → Nat :=
  let c0_i32_582 : BitVec 32 := 0#32
  ![v1556.toNat, 0]

def k0_chk142 (v1556 : BitVec 32) : Prop :=
  (∀ a, (k0_off568 v1556) a + S1x8000.size a ≤ S8000x8000.size a)
instance k0_chk142.dec : ∀ (v1556 : BitVec 32), Decidable (k0_chk142 v1556) := fun v1556 => decidable_of_iff' _ (Iff.of_eq (k0_chk142.eq_1 v1556))
theorem k0_off568_inb : ∀ (v1556 : BitVec 32) (k0_hw142 : k0_chk142 v1556), ∀ a, (k0_off568 v1556) a + S1x8000.size a ≤ S8000x8000.size a := fun v1556 k0_hw142 => k0_hw142

def k0_off569 (i : grid0.Coords) : Fin 1 → Nat :=
  let arg0 : BitVec 32 := BitVec.ofNat 32 (i 0).val
  let c128_i32 : BitVec 32 := 128#32
  let v0 : BitVec 32 := Scalar.muli arg0 c128_i32
  let c0_i32_585 : BitVec 32 := 0#32
  let c14_i32_583 : BitVec 32 := 14#32
  let c1_i32_584 : BitVec 32 := 1#32
  let v1563 : BitVec 32 := Scalar.muli c14_i32_583 c1_i32_584
  let v1564 : BitVec 32 := Scalar.addi c0_i32_585 v1563
  let v1565 : BitVec 32 := Scalar.addi v0 v1564
  let v1566 : Index := Scalar.indexCast v1565
  ![v1566.toNat]
def k0_off570 : Fin 1 → Nat :=
  let c0_i32_585 : BitVec 32 := 0#32
  let c14_i32_583 : BitVec 32 := 14#32
  let c1_i32_584 : BitVec 32 := 1#32
  let v1563 : BitVec 32 := Scalar.muli c14_i32_583 c1_i32_584
  let v1564 : BitVec 32 := Scalar.addi c0_i32_585 v1563
  ![v1564.toNat]
def k0_off571 : Fin 2 → Nat :=
  let c0_i32_585 : BitVec 32 := 0#32
  let c14_i32_583 : BitVec 32 := 14#32
  let c1_i32_584 : BitVec 32 := 1#32
  let v1563 : BitVec 32 := Scalar.muli c14_i32_583 c1_i32_584
  let v1564 : BitVec 32 := Scalar.addi c0_i32_585 v1563
  let c0_i32_586 : BitVec 32 := 0#32
  ![v1564.toNat, 0]
def k0_off572 (v1567 : BitVec 32) : Fin 2 → Nat :=
  let c0_i32_587 : BitVec 32 := 0#32
  ![v1567.toNat, 0]

def k0_chk143 (v1567 : BitVec 32) : Prop :=
  (∀ a, (k0_off572 v1567) a + S1x8000.size a ≤ S8000x8000.size a)
instance k0_chk143.dec : ∀ (v1567 : BitVec 32), Decidable (k0_chk143 v1567) := fun v1567 => decidable_of_iff' _ (Iff.of_eq (k0_chk143.eq_1 v1567))
theorem k0_off572_inb : ∀ (v1567 : BitVec 32) (k0_hw143 : k0_chk143 v1567), ∀ a, (k0_off572 v1567) a + S1x8000.size a ≤ S8000x8000.size a := fun v1567 k0_hw143 => k0_hw143

def k0_off573 (i : grid0.Coords) : Fin 1 → Nat :=
  let arg0 : BitVec 32 := BitVec.ofNat 32 (i 0).val
  let c128_i32 : BitVec 32 := 128#32
  let v0 : BitVec 32 := Scalar.muli arg0 c128_i32
  let c0_i32_590 : BitVec 32 := 0#32
  let c15_i32_588 : BitVec 32 := 15#32
  let c1_i32_589 : BitVec 32 := 1#32
  let v1574 : BitVec 32 := Scalar.muli c15_i32_588 c1_i32_589
  let v1575 : BitVec 32 := Scalar.addi c0_i32_590 v1574
  let v1576 : BitVec 32 := Scalar.addi v0 v1575
  let v1577 : Index := Scalar.indexCast v1576
  ![v1577.toNat]
def k0_off574 : Fin 1 → Nat :=
  let c0_i32_590 : BitVec 32 := 0#32
  let c15_i32_588 : BitVec 32 := 15#32
  let c1_i32_589 : BitVec 32 := 1#32
  let v1574 : BitVec 32 := Scalar.muli c15_i32_588 c1_i32_589
  let v1575 : BitVec 32 := Scalar.addi c0_i32_590 v1574
  ![v1575.toNat]
def k0_off575 : Fin 2 → Nat :=
  let c0_i32_590 : BitVec 32 := 0#32
  let c15_i32_588 : BitVec 32 := 15#32
  let c1_i32_589 : BitVec 32 := 1#32
  let v1574 : BitVec 32 := Scalar.muli c15_i32_588 c1_i32_589
  let v1575 : BitVec 32 := Scalar.addi c0_i32_590 v1574
  let c0_i32_591 : BitVec 32 := 0#32
  ![v1575.toNat, 0]
def k0_off576 (v1578 : BitVec 32) : Fin 2 → Nat :=
  let c0_i32_592 : BitVec 32 := 0#32
  ![v1578.toNat, 0]

def k0_chk144 (v1578 : BitVec 32) : Prop :=
  (∀ a, (k0_off576 v1578) a + S1x8000.size a ≤ S8000x8000.size a)
instance k0_chk144.dec : ∀ (v1578 : BitVec 32), Decidable (k0_chk144 v1578) := fun v1578 => decidable_of_iff' _ (Iff.of_eq (k0_chk144.eq_1 v1578))
theorem k0_off576_inb : ∀ (v1578 : BitVec 32) (k0_hw144 : k0_chk144 v1578), ∀ a, (k0_off576 v1578) a + S1x8000.size a ≤ S8000x8000.size a := fun v1578 k0_hw144 => k0_hw144

def k0_off577 (i : grid0.Coords) : Fin 1 → Nat :=
  let arg0 : BitVec 32 := BitVec.ofNat 32 (i 0).val
  let c128_i32 : BitVec 32 := 128#32
  let v0 : BitVec 32 := Scalar.muli arg0 c128_i32
  let c0_i32_595 : BitVec 32 := 0#32
  let c16_i32_593 : BitVec 32 := 16#32
  let c1_i32_594 : BitVec 32 := 1#32
  let v1585 : BitVec 32 := Scalar.muli c16_i32_593 c1_i32_594
  let v1586 : BitVec 32 := Scalar.addi c0_i32_595 v1585
  let v1587 : BitVec 32 := Scalar.addi v0 v1586
  let v1588 : Index := Scalar.indexCast v1587
  ![v1588.toNat]
def k0_off578 : Fin 1 → Nat :=
  let c0_i32_595 : BitVec 32 := 0#32
  let c16_i32_593 : BitVec 32 := 16#32
  let c1_i32_594 : BitVec 32 := 1#32
  let v1585 : BitVec 32 := Scalar.muli c16_i32_593 c1_i32_594
  let v1586 : BitVec 32 := Scalar.addi c0_i32_595 v1585
  ![v1586.toNat]
def k0_off579 : Fin 2 → Nat :=
  let c0_i32_595 : BitVec 32 := 0#32
  let c16_i32_593 : BitVec 32 := 16#32
  let c1_i32_594 : BitVec 32 := 1#32
  let v1585 : BitVec 32 := Scalar.muli c16_i32_593 c1_i32_594
  let v1586 : BitVec 32 := Scalar.addi c0_i32_595 v1585
  let c0_i32_596 : BitVec 32 := 0#32
  ![v1586.toNat, 0]
def k0_off580 (v1589 : BitVec 32) : Fin 2 → Nat :=
  let c0_i32_597 : BitVec 32 := 0#32
  ![v1589.toNat, 0]

def k0_chk145 (v1589 : BitVec 32) : Prop :=
  (∀ a, (k0_off580 v1589) a + S1x8000.size a ≤ S8000x8000.size a)
instance k0_chk145.dec : ∀ (v1589 : BitVec 32), Decidable (k0_chk145 v1589) := fun v1589 => decidable_of_iff' _ (Iff.of_eq (k0_chk145.eq_1 v1589))
theorem k0_off580_inb : ∀ (v1589 : BitVec 32) (k0_hw145 : k0_chk145 v1589), ∀ a, (k0_off580 v1589) a + S1x8000.size a ≤ S8000x8000.size a := fun v1589 k0_hw145 => k0_hw145

def k0_off581 (i : grid0.Coords) : Fin 1 → Nat :=
  let arg0 : BitVec 32 := BitVec.ofNat 32 (i 0).val
  let c128_i32 : BitVec 32 := 128#32
  let v0 : BitVec 32 := Scalar.muli arg0 c128_i32
  let c0_i32_600 : BitVec 32 := 0#32
  let c17_i32_598 : BitVec 32 := 17#32
  let c1_i32_599 : BitVec 32 := 1#32
  let v1596 : BitVec 32 := Scalar.muli c17_i32_598 c1_i32_599
  let v1597 : BitVec 32 := Scalar.addi c0_i32_600 v1596
  let v1598 : BitVec 32 := Scalar.addi v0 v1597
  let v1599 : Index := Scalar.indexCast v1598
  ![v1599.toNat]
def k0_off582 : Fin 1 → Nat :=
  let c0_i32_600 : BitVec 32 := 0#32
  let c17_i32_598 : BitVec 32 := 17#32
  let c1_i32_599 : BitVec 32 := 1#32
  let v1596 : BitVec 32 := Scalar.muli c17_i32_598 c1_i32_599
  let v1597 : BitVec 32 := Scalar.addi c0_i32_600 v1596
  ![v1597.toNat]
def k0_off583 : Fin 2 → Nat :=
  let c0_i32_600 : BitVec 32 := 0#32
  let c17_i32_598 : BitVec 32 := 17#32
  let c1_i32_599 : BitVec 32 := 1#32
  let v1596 : BitVec 32 := Scalar.muli c17_i32_598 c1_i32_599
  let v1597 : BitVec 32 := Scalar.addi c0_i32_600 v1596
  let c0_i32_601 : BitVec 32 := 0#32
  ![v1597.toNat, 0]
def k0_off584 (v1600 : BitVec 32) : Fin 2 → Nat :=
  let c0_i32_602 : BitVec 32 := 0#32
  ![v1600.toNat, 0]

def k0_chk146 (v1600 : BitVec 32) : Prop :=
  (∀ a, (k0_off584 v1600) a + S1x8000.size a ≤ S8000x8000.size a)
instance k0_chk146.dec : ∀ (v1600 : BitVec 32), Decidable (k0_chk146 v1600) := fun v1600 => decidable_of_iff' _ (Iff.of_eq (k0_chk146.eq_1 v1600))
theorem k0_off584_inb : ∀ (v1600 : BitVec 32) (k0_hw146 : k0_chk146 v1600), ∀ a, (k0_off584 v1600) a + S1x8000.size a ≤ S8000x8000.size a := fun v1600 k0_hw146 => k0_hw146

def k0_off585 (i : grid0.Coords) : Fin 1 → Nat :=
  let arg0 : BitVec 32 := BitVec.ofNat 32 (i 0).val
  let c128_i32 : BitVec 32 := 128#32
  let v0 : BitVec 32 := Scalar.muli arg0 c128_i32
  let c0_i32_605 : BitVec 32 := 0#32
  let c18_i32_603 : BitVec 32 := 18#32
  let c1_i32_604 : BitVec 32 := 1#32
  let v1607 : BitVec 32 := Scalar.muli c18_i32_603 c1_i32_604
  let v1608 : BitVec 32 := Scalar.addi c0_i32_605 v1607
  let v1609 : BitVec 32 := Scalar.addi v0 v1608
  let v1610 : Index := Scalar.indexCast v1609
  ![v1610.toNat]
def k0_off586 : Fin 1 → Nat :=
  let c0_i32_605 : BitVec 32 := 0#32
  let c18_i32_603 : BitVec 32 := 18#32
  let c1_i32_604 : BitVec 32 := 1#32
  let v1607 : BitVec 32 := Scalar.muli c18_i32_603 c1_i32_604
  let v1608 : BitVec 32 := Scalar.addi c0_i32_605 v1607
  ![v1608.toNat]
def k0_off587 : Fin 2 → Nat :=
  let c0_i32_605 : BitVec 32 := 0#32
  let c18_i32_603 : BitVec 32 := 18#32
  let c1_i32_604 : BitVec 32 := 1#32
  let v1607 : BitVec 32 := Scalar.muli c18_i32_603 c1_i32_604
  let v1608 : BitVec 32 := Scalar.addi c0_i32_605 v1607
  let c0_i32_606 : BitVec 32 := 0#32
  ![v1608.toNat, 0]
def k0_off588 (v1611 : BitVec 32) : Fin 2 → Nat :=
  let c0_i32_607 : BitVec 32 := 0#32
  ![v1611.toNat, 0]

def k0_chk147 (v1611 : BitVec 32) : Prop :=
  (∀ a, (k0_off588 v1611) a + S1x8000.size a ≤ S8000x8000.size a)
instance k0_chk147.dec : ∀ (v1611 : BitVec 32), Decidable (k0_chk147 v1611) := fun v1611 => decidable_of_iff' _ (Iff.of_eq (k0_chk147.eq_1 v1611))
theorem k0_off588_inb : ∀ (v1611 : BitVec 32) (k0_hw147 : k0_chk147 v1611), ∀ a, (k0_off588 v1611) a + S1x8000.size a ≤ S8000x8000.size a := fun v1611 k0_hw147 => k0_hw147

def k0_off589 (i : grid0.Coords) : Fin 1 → Nat :=
  let arg0 : BitVec 32 := BitVec.ofNat 32 (i 0).val
  let c128_i32 : BitVec 32 := 128#32
  let v0 : BitVec 32 := Scalar.muli arg0 c128_i32
  let c0_i32_610 : BitVec 32 := 0#32
  let c19_i32_608 : BitVec 32 := 19#32
  let c1_i32_609 : BitVec 32 := 1#32
  let v1618 : BitVec 32 := Scalar.muli c19_i32_608 c1_i32_609
  let v1619 : BitVec 32 := Scalar.addi c0_i32_610 v1618
  let v1620 : BitVec 32 := Scalar.addi v0 v1619
  let v1621 : Index := Scalar.indexCast v1620
  ![v1621.toNat]
def k0_off590 : Fin 1 → Nat :=
  let c0_i32_610 : BitVec 32 := 0#32
  let c19_i32_608 : BitVec 32 := 19#32
  let c1_i32_609 : BitVec 32 := 1#32
  let v1618 : BitVec 32 := Scalar.muli c19_i32_608 c1_i32_609
  let v1619 : BitVec 32 := Scalar.addi c0_i32_610 v1618
  ![v1619.toNat]
def k0_off591 : Fin 2 → Nat :=
  let c0_i32_610 : BitVec 32 := 0#32
  let c19_i32_608 : BitVec 32 := 19#32
  let c1_i32_609 : BitVec 32 := 1#32
  let v1618 : BitVec 32 := Scalar.muli c19_i32_608 c1_i32_609
  let v1619 : BitVec 32 := Scalar.addi c0_i32_610 v1618
  let c0_i32_611 : BitVec 32 := 0#32
  ![v1619.toNat, 0]
def k0_off592 (v1622 : BitVec 32) : Fin 2 → Nat :=
  let c0_i32_612 : BitVec 32 := 0#32
  ![v1622.toNat, 0]

def k0_chk148 (v1622 : BitVec 32) : Prop :=
  (∀ a, (k0_off592 v1622) a + S1x8000.size a ≤ S8000x8000.size a)
instance k0_chk148.dec : ∀ (v1622 : BitVec 32), Decidable (k0_chk148 v1622) := fun v1622 => decidable_of_iff' _ (Iff.of_eq (k0_chk148.eq_1 v1622))
theorem k0_off592_inb : ∀ (v1622 : BitVec 32) (k0_hw148 : k0_chk148 v1622), ∀ a, (k0_off592 v1622) a + S1x8000.size a ≤ S8000x8000.size a := fun v1622 k0_hw148 => k0_hw148

def k0_off593 (i : grid0.Coords) : Fin 1 → Nat :=
  let arg0 : BitVec 32 := BitVec.ofNat 32 (i 0).val
  let c128_i32 : BitVec 32 := 128#32
  let v0 : BitVec 32 := Scalar.muli arg0 c128_i32
  let c0_i32_615 : BitVec 32 := 0#32
  let c20_i32_613 : BitVec 32 := 20#32
  let c1_i32_614 : BitVec 32 := 1#32
  let v1629 : BitVec 32 := Scalar.muli c20_i32_613 c1_i32_614
  let v1630 : BitVec 32 := Scalar.addi c0_i32_615 v1629
  let v1631 : BitVec 32 := Scalar.addi v0 v1630
  let v1632 : Index := Scalar.indexCast v1631
  ![v1632.toNat]
def k0_off594 : Fin 1 → Nat :=
  let c0_i32_615 : BitVec 32 := 0#32
  let c20_i32_613 : BitVec 32 := 20#32
  let c1_i32_614 : BitVec 32 := 1#32
  let v1629 : BitVec 32 := Scalar.muli c20_i32_613 c1_i32_614
  let v1630 : BitVec 32 := Scalar.addi c0_i32_615 v1629
  ![v1630.toNat]
def k0_off595 : Fin 2 → Nat :=
  let c0_i32_615 : BitVec 32 := 0#32
  let c20_i32_613 : BitVec 32 := 20#32
  let c1_i32_614 : BitVec 32 := 1#32
  let v1629 : BitVec 32 := Scalar.muli c20_i32_613 c1_i32_614
  let v1630 : BitVec 32 := Scalar.addi c0_i32_615 v1629
  let c0_i32_616 : BitVec 32 := 0#32
  ![v1630.toNat, 0]
def k0_off596 (v1633 : BitVec 32) : Fin 2 → Nat :=
  let c0_i32_617 : BitVec 32 := 0#32
  ![v1633.toNat, 0]

def k0_chk149 (v1633 : BitVec 32) : Prop :=
  (∀ a, (k0_off596 v1633) a + S1x8000.size a ≤ S8000x8000.size a)
instance k0_chk149.dec : ∀ (v1633 : BitVec 32), Decidable (k0_chk149 v1633) := fun v1633 => decidable_of_iff' _ (Iff.of_eq (k0_chk149.eq_1 v1633))
theorem k0_off596_inb : ∀ (v1633 : BitVec 32) (k0_hw149 : k0_chk149 v1633), ∀ a, (k0_off596 v1633) a + S1x8000.size a ≤ S8000x8000.size a := fun v1633 k0_hw149 => k0_hw149

def k0_off597 (i : grid0.Coords) : Fin 1 → Nat :=
  let arg0 : BitVec 32 := BitVec.ofNat 32 (i 0).val
  let c128_i32 : BitVec 32 := 128#32
  let v0 : BitVec 32 := Scalar.muli arg0 c128_i32
  let c0_i32_620 : BitVec 32 := 0#32
  let c21_i32_618 : BitVec 32 := 21#32
  let c1_i32_619 : BitVec 32 := 1#32
  let v1640 : BitVec 32 := Scalar.muli c21_i32_618 c1_i32_619
  let v1641 : BitVec 32 := Scalar.addi c0_i32_620 v1640
  let v1642 : BitVec 32 := Scalar.addi v0 v1641
  let v1643 : Index := Scalar.indexCast v1642
  ![v1643.toNat]
def k0_off598 : Fin 1 → Nat :=
  let c0_i32_620 : BitVec 32 := 0#32
  let c21_i32_618 : BitVec 32 := 21#32
  let c1_i32_619 : BitVec 32 := 1#32
  let v1640 : BitVec 32 := Scalar.muli c21_i32_618 c1_i32_619
  let v1641 : BitVec 32 := Scalar.addi c0_i32_620 v1640
  ![v1641.toNat]
def k0_off599 : Fin 2 → Nat :=
  let c0_i32_620 : BitVec 32 := 0#32
  let c21_i32_618 : BitVec 32 := 21#32
  let c1_i32_619 : BitVec 32 := 1#32
  let v1640 : BitVec 32 := Scalar.muli c21_i32_618 c1_i32_619
  let v1641 : BitVec 32 := Scalar.addi c0_i32_620 v1640
  let c0_i32_621 : BitVec 32 := 0#32
  ![v1641.toNat, 0]
def k0_off600 (v1644 : BitVec 32) : Fin 2 → Nat :=
  let c0_i32_622 : BitVec 32 := 0#32
  ![v1644.toNat, 0]

def k0_chk150 (v1644 : BitVec 32) : Prop :=
  (∀ a, (k0_off600 v1644) a + S1x8000.size a ≤ S8000x8000.size a)
instance k0_chk150.dec : ∀ (v1644 : BitVec 32), Decidable (k0_chk150 v1644) := fun v1644 => decidable_of_iff' _ (Iff.of_eq (k0_chk150.eq_1 v1644))
theorem k0_off600_inb : ∀ (v1644 : BitVec 32) (k0_hw150 : k0_chk150 v1644), ∀ a, (k0_off600 v1644) a + S1x8000.size a ≤ S8000x8000.size a := fun v1644 k0_hw150 => k0_hw150

def k0_off601 (i : grid0.Coords) : Fin 1 → Nat :=
  let arg0 : BitVec 32 := BitVec.ofNat 32 (i 0).val
  let c128_i32 : BitVec 32 := 128#32
  let v0 : BitVec 32 := Scalar.muli arg0 c128_i32
  let c0_i32_625 : BitVec 32 := 0#32
  let c22_i32_623 : BitVec 32 := 22#32
  let c1_i32_624 : BitVec 32 := 1#32
  let v1651 : BitVec 32 := Scalar.muli c22_i32_623 c1_i32_624
  let v1652 : BitVec 32 := Scalar.addi c0_i32_625 v1651
  let v1653 : BitVec 32 := Scalar.addi v0 v1652
  let v1654 : Index := Scalar.indexCast v1653
  ![v1654.toNat]
def k0_off602 : Fin 1 → Nat :=
  let c0_i32_625 : BitVec 32 := 0#32
  let c22_i32_623 : BitVec 32 := 22#32
  let c1_i32_624 : BitVec 32 := 1#32
  let v1651 : BitVec 32 := Scalar.muli c22_i32_623 c1_i32_624
  let v1652 : BitVec 32 := Scalar.addi c0_i32_625 v1651
  ![v1652.toNat]
def k0_off603 : Fin 2 → Nat :=
  let c0_i32_625 : BitVec 32 := 0#32
  let c22_i32_623 : BitVec 32 := 22#32
  let c1_i32_624 : BitVec 32 := 1#32
  let v1651 : BitVec 32 := Scalar.muli c22_i32_623 c1_i32_624
  let v1652 : BitVec 32 := Scalar.addi c0_i32_625 v1651
  let c0_i32_626 : BitVec 32 := 0#32
  ![v1652.toNat, 0]
def k0_off604 (v1655 : BitVec 32) : Fin 2 → Nat :=
  let c0_i32_627 : BitVec 32 := 0#32
  ![v1655.toNat, 0]

def k0_chk151 (v1655 : BitVec 32) : Prop :=
  (∀ a, (k0_off604 v1655) a + S1x8000.size a ≤ S8000x8000.size a)
instance k0_chk151.dec : ∀ (v1655 : BitVec 32), Decidable (k0_chk151 v1655) := fun v1655 => decidable_of_iff' _ (Iff.of_eq (k0_chk151.eq_1 v1655))
theorem k0_off604_inb : ∀ (v1655 : BitVec 32) (k0_hw151 : k0_chk151 v1655), ∀ a, (k0_off604 v1655) a + S1x8000.size a ≤ S8000x8000.size a := fun v1655 k0_hw151 => k0_hw151

def k0_off605 (i : grid0.Coords) : Fin 1 → Nat :=
  let arg0 : BitVec 32 := BitVec.ofNat 32 (i 0).val
  let c128_i32 : BitVec 32 := 128#32
  let v0 : BitVec 32 := Scalar.muli arg0 c128_i32
  let c0_i32_630 : BitVec 32 := 0#32
  let c23_i32_628 : BitVec 32 := 23#32
  let c1_i32_629 : BitVec 32 := 1#32
  let v1662 : BitVec 32 := Scalar.muli c23_i32_628 c1_i32_629
  let v1663 : BitVec 32 := Scalar.addi c0_i32_630 v1662
  let v1664 : BitVec 32 := Scalar.addi v0 v1663
  let v1665 : Index := Scalar.indexCast v1664
  ![v1665.toNat]
def k0_off606 : Fin 1 → Nat :=
  let c0_i32_630 : BitVec 32 := 0#32
  let c23_i32_628 : BitVec 32 := 23#32
  let c1_i32_629 : BitVec 32 := 1#32
  let v1662 : BitVec 32 := Scalar.muli c23_i32_628 c1_i32_629
  let v1663 : BitVec 32 := Scalar.addi c0_i32_630 v1662
  ![v1663.toNat]
def k0_off607 : Fin 2 → Nat :=
  let c0_i32_630 : BitVec 32 := 0#32
  let c23_i32_628 : BitVec 32 := 23#32
  let c1_i32_629 : BitVec 32 := 1#32
  let v1662 : BitVec 32 := Scalar.muli c23_i32_628 c1_i32_629
  let v1663 : BitVec 32 := Scalar.addi c0_i32_630 v1662
  let c0_i32_631 : BitVec 32 := 0#32
  ![v1663.toNat, 0]
def k0_off608 (v1666 : BitVec 32) : Fin 2 → Nat :=
  let c0_i32_632 : BitVec 32 := 0#32
  ![v1666.toNat, 0]

def k0_chk152 (v1666 : BitVec 32) : Prop :=
  (∀ a, (k0_off608 v1666) a + S1x8000.size a ≤ S8000x8000.size a)
instance k0_chk152.dec : ∀ (v1666 : BitVec 32), Decidable (k0_chk152 v1666) := fun v1666 => decidable_of_iff' _ (Iff.of_eq (k0_chk152.eq_1 v1666))
theorem k0_off608_inb : ∀ (v1666 : BitVec 32) (k0_hw152 : k0_chk152 v1666), ∀ a, (k0_off608 v1666) a + S1x8000.size a ≤ S8000x8000.size a := fun v1666 k0_hw152 => k0_hw152

def k0_off609 (i : grid0.Coords) : Fin 1 → Nat :=
  let arg0 : BitVec 32 := BitVec.ofNat 32 (i 0).val
  let c128_i32 : BitVec 32 := 128#32
  let v0 : BitVec 32 := Scalar.muli arg0 c128_i32
  let c0_i32_635 : BitVec 32 := 0#32
  let c24_i32_633 : BitVec 32 := 24#32
  let c1_i32_634 : BitVec 32 := 1#32
  let v1673 : BitVec 32 := Scalar.muli c24_i32_633 c1_i32_634
  let v1674 : BitVec 32 := Scalar.addi c0_i32_635 v1673
  let v1675 : BitVec 32 := Scalar.addi v0 v1674
  let v1676 : Index := Scalar.indexCast v1675
  ![v1676.toNat]
def k0_off610 : Fin 1 → Nat :=
  let c0_i32_635 : BitVec 32 := 0#32
  let c24_i32_633 : BitVec 32 := 24#32
  let c1_i32_634 : BitVec 32 := 1#32
  let v1673 : BitVec 32 := Scalar.muli c24_i32_633 c1_i32_634
  let v1674 : BitVec 32 := Scalar.addi c0_i32_635 v1673
  ![v1674.toNat]
def k0_off611 : Fin 2 → Nat :=
  let c0_i32_635 : BitVec 32 := 0#32
  let c24_i32_633 : BitVec 32 := 24#32
  let c1_i32_634 : BitVec 32 := 1#32
  let v1673 : BitVec 32 := Scalar.muli c24_i32_633 c1_i32_634
  let v1674 : BitVec 32 := Scalar.addi c0_i32_635 v1673
  let c0_i32_636 : BitVec 32 := 0#32
  ![v1674.toNat, 0]
def k0_off612 (v1677 : BitVec 32) : Fin 2 → Nat :=
  let c0_i32_637 : BitVec 32 := 0#32
  ![v1677.toNat, 0]

def k0_chk153 (v1677 : BitVec 32) : Prop :=
  (∀ a, (k0_off612 v1677) a + S1x8000.size a ≤ S8000x8000.size a)
instance k0_chk153.dec : ∀ (v1677 : BitVec 32), Decidable (k0_chk153 v1677) := fun v1677 => decidable_of_iff' _ (Iff.of_eq (k0_chk153.eq_1 v1677))
theorem k0_off612_inb : ∀ (v1677 : BitVec 32) (k0_hw153 : k0_chk153 v1677), ∀ a, (k0_off612 v1677) a + S1x8000.size a ≤ S8000x8000.size a := fun v1677 k0_hw153 => k0_hw153

def k0_off613 (i : grid0.Coords) : Fin 1 → Nat :=
  let arg0 : BitVec 32 := BitVec.ofNat 32 (i 0).val
  let c128_i32 : BitVec 32 := 128#32
  let v0 : BitVec 32 := Scalar.muli arg0 c128_i32
  let c0_i32_640 : BitVec 32 := 0#32
  let c25_i32_638 : BitVec 32 := 25#32
  let c1_i32_639 : BitVec 32 := 1#32
  let v1684 : BitVec 32 := Scalar.muli c25_i32_638 c1_i32_639
  let v1685 : BitVec 32 := Scalar.addi c0_i32_640 v1684
  let v1686 : BitVec 32 := Scalar.addi v0 v1685
  let v1687 : Index := Scalar.indexCast v1686
  ![v1687.toNat]
def k0_off614 : Fin 1 → Nat :=
  let c0_i32_640 : BitVec 32 := 0#32
  let c25_i32_638 : BitVec 32 := 25#32
  let c1_i32_639 : BitVec 32 := 1#32
  let v1684 : BitVec 32 := Scalar.muli c25_i32_638 c1_i32_639
  let v1685 : BitVec 32 := Scalar.addi c0_i32_640 v1684
  ![v1685.toNat]
def k0_off615 : Fin 2 → Nat :=
  let c0_i32_640 : BitVec 32 := 0#32
  let c25_i32_638 : BitVec 32 := 25#32
  let c1_i32_639 : BitVec 32 := 1#32
  let v1684 : BitVec 32 := Scalar.muli c25_i32_638 c1_i32_639
  let v1685 : BitVec 32 := Scalar.addi c0_i32_640 v1684
  let c0_i32_641 : BitVec 32 := 0#32
  ![v1685.toNat, 0]
def k0_off616 (v1688 : BitVec 32) : Fin 2 → Nat :=
  let c0_i32_642 : BitVec 32 := 0#32
  ![v1688.toNat, 0]

def k0_chk154 (v1688 : BitVec 32) : Prop :=
  (∀ a, (k0_off616 v1688) a + S1x8000.size a ≤ S8000x8000.size a)
instance k0_chk154.dec : ∀ (v1688 : BitVec 32), Decidable (k0_chk154 v1688) := fun v1688 => decidable_of_iff' _ (Iff.of_eq (k0_chk154.eq_1 v1688))
theorem k0_off616_inb : ∀ (v1688 : BitVec 32) (k0_hw154 : k0_chk154 v1688), ∀ a, (k0_off616 v1688) a + S1x8000.size a ≤ S8000x8000.size a := fun v1688 k0_hw154 => k0_hw154

def k0_off617 (i : grid0.Coords) : Fin 1 → Nat :=
  let arg0 : BitVec 32 := BitVec.ofNat 32 (i 0).val
  let c128_i32 : BitVec 32 := 128#32
  let v0 : BitVec 32 := Scalar.muli arg0 c128_i32
  let c0_i32_645 : BitVec 32 := 0#32
  let c26_i32_643 : BitVec 32 := 26#32
  let c1_i32_644 : BitVec 32 := 1#32
  let v1695 : BitVec 32 := Scalar.muli c26_i32_643 c1_i32_644
  let v1696 : BitVec 32 := Scalar.addi c0_i32_645 v1695
  let v1697 : BitVec 32 := Scalar.addi v0 v1696
  let v1698 : Index := Scalar.indexCast v1697
  ![v1698.toNat]
def k0_off618 : Fin 1 → Nat :=
  let c0_i32_645 : BitVec 32 := 0#32
  let c26_i32_643 : BitVec 32 := 26#32
  let c1_i32_644 : BitVec 32 := 1#32
  let v1695 : BitVec 32 := Scalar.muli c26_i32_643 c1_i32_644
  let v1696 : BitVec 32 := Scalar.addi c0_i32_645 v1695
  ![v1696.toNat]
def k0_off619 : Fin 2 → Nat :=
  let c0_i32_645 : BitVec 32 := 0#32
  let c26_i32_643 : BitVec 32 := 26#32
  let c1_i32_644 : BitVec 32 := 1#32
  let v1695 : BitVec 32 := Scalar.muli c26_i32_643 c1_i32_644
  let v1696 : BitVec 32 := Scalar.addi c0_i32_645 v1695
  let c0_i32_646 : BitVec 32 := 0#32
  ![v1696.toNat, 0]
def k0_off620 (v1699 : BitVec 32) : Fin 2 → Nat :=
  let c0_i32_647 : BitVec 32 := 0#32
  ![v1699.toNat, 0]

def k0_chk155 (v1699 : BitVec 32) : Prop :=
  (∀ a, (k0_off620 v1699) a + S1x8000.size a ≤ S8000x8000.size a)
instance k0_chk155.dec : ∀ (v1699 : BitVec 32), Decidable (k0_chk155 v1699) := fun v1699 => decidable_of_iff' _ (Iff.of_eq (k0_chk155.eq_1 v1699))
theorem k0_off620_inb : ∀ (v1699 : BitVec 32) (k0_hw155 : k0_chk155 v1699), ∀ a, (k0_off620 v1699) a + S1x8000.size a ≤ S8000x8000.size a := fun v1699 k0_hw155 => k0_hw155

def k0_off621 (i : grid0.Coords) : Fin 1 → Nat :=
  let arg0 : BitVec 32 := BitVec.ofNat 32 (i 0).val
  let c128_i32 : BitVec 32 := 128#32
  let v0 : BitVec 32 := Scalar.muli arg0 c128_i32
  let c0_i32_650 : BitVec 32 := 0#32
  let c27_i32_648 : BitVec 32 := 27#32
  let c1_i32_649 : BitVec 32 := 1#32
  let v1706 : BitVec 32 := Scalar.muli c27_i32_648 c1_i32_649
  let v1707 : BitVec 32 := Scalar.addi c0_i32_650 v1706
  let v1708 : BitVec 32 := Scalar.addi v0 v1707
  let v1709 : Index := Scalar.indexCast v1708
  ![v1709.toNat]
def k0_off622 : Fin 1 → Nat :=
  let c0_i32_650 : BitVec 32 := 0#32
  let c27_i32_648 : BitVec 32 := 27#32
  let c1_i32_649 : BitVec 32 := 1#32
  let v1706 : BitVec 32 := Scalar.muli c27_i32_648 c1_i32_649
  let v1707 : BitVec 32 := Scalar.addi c0_i32_650 v1706
  ![v1707.toNat]
def k0_off623 : Fin 2 → Nat :=
  let c0_i32_650 : BitVec 32 := 0#32
  let c27_i32_648 : BitVec 32 := 27#32
  let c1_i32_649 : BitVec 32 := 1#32
  let v1706 : BitVec 32 := Scalar.muli c27_i32_648 c1_i32_649
  let v1707 : BitVec 32 := Scalar.addi c0_i32_650 v1706
  let c0_i32_651 : BitVec 32 := 0#32
  ![v1707.toNat, 0]
def k0_off624 (v1710 : BitVec 32) : Fin 2 → Nat :=
  let c0_i32_652 : BitVec 32 := 0#32
  ![v1710.toNat, 0]

def k0_chk156 (v1710 : BitVec 32) : Prop :=
  (∀ a, (k0_off624 v1710) a + S1x8000.size a ≤ S8000x8000.size a)
instance k0_chk156.dec : ∀ (v1710 : BitVec 32), Decidable (k0_chk156 v1710) := fun v1710 => decidable_of_iff' _ (Iff.of_eq (k0_chk156.eq_1 v1710))
theorem k0_off624_inb : ∀ (v1710 : BitVec 32) (k0_hw156 : k0_chk156 v1710), ∀ a, (k0_off624 v1710) a + S1x8000.size a ≤ S8000x8000.size a := fun v1710 k0_hw156 => k0_hw156

def k0_off625 (i : grid0.Coords) : Fin 1 → Nat :=
  let arg0 : BitVec 32 := BitVec.ofNat 32 (i 0).val
  let c128_i32 : BitVec 32 := 128#32
  let v0 : BitVec 32 := Scalar.muli arg0 c128_i32
  let c0_i32_655 : BitVec 32 := 0#32
  let c28_i32_653 : BitVec 32 := 28#32
  let c1_i32_654 : BitVec 32 := 1#32
  let v1717 : BitVec 32 := Scalar.muli c28_i32_653 c1_i32_654
  let v1718 : BitVec 32 := Scalar.addi c0_i32_655 v1717
  let v1719 : BitVec 32 := Scalar.addi v0 v1718
  let v1720 : Index := Scalar.indexCast v1719
  ![v1720.toNat]
def k0_off626 : Fin 1 → Nat :=
  let c0_i32_655 : BitVec 32 := 0#32
  let c28_i32_653 : BitVec 32 := 28#32
  let c1_i32_654 : BitVec 32 := 1#32
  let v1717 : BitVec 32 := Scalar.muli c28_i32_653 c1_i32_654
  let v1718 : BitVec 32 := Scalar.addi c0_i32_655 v1717
  ![v1718.toNat]
def k0_off627 : Fin 2 → Nat :=
  let c0_i32_655 : BitVec 32 := 0#32
  let c28_i32_653 : BitVec 32 := 28#32
  let c1_i32_654 : BitVec 32 := 1#32
  let v1717 : BitVec 32 := Scalar.muli c28_i32_653 c1_i32_654
  let v1718 : BitVec 32 := Scalar.addi c0_i32_655 v1717
  let c0_i32_656 : BitVec 32 := 0#32
  ![v1718.toNat, 0]
def k0_off628 (v1721 : BitVec 32) : Fin 2 → Nat :=
  let c0_i32_657 : BitVec 32 := 0#32
  ![v1721.toNat, 0]

def k0_chk157 (v1721 : BitVec 32) : Prop :=
  (∀ a, (k0_off628 v1721) a + S1x8000.size a ≤ S8000x8000.size a)
instance k0_chk157.dec : ∀ (v1721 : BitVec 32), Decidable (k0_chk157 v1721) := fun v1721 => decidable_of_iff' _ (Iff.of_eq (k0_chk157.eq_1 v1721))
theorem k0_off628_inb : ∀ (v1721 : BitVec 32) (k0_hw157 : k0_chk157 v1721), ∀ a, (k0_off628 v1721) a + S1x8000.size a ≤ S8000x8000.size a := fun v1721 k0_hw157 => k0_hw157

def k0_off629 (i : grid0.Coords) : Fin 1 → Nat :=
  let arg0 : BitVec 32 := BitVec.ofNat 32 (i 0).val
  let c128_i32 : BitVec 32 := 128#32
  let v0 : BitVec 32 := Scalar.muli arg0 c128_i32
  let c0_i32_660 : BitVec 32 := 0#32
  let c29_i32_658 : BitVec 32 := 29#32
  let c1_i32_659 : BitVec 32 := 1#32
  let v1728 : BitVec 32 := Scalar.muli c29_i32_658 c1_i32_659
  let v1729 : BitVec 32 := Scalar.addi c0_i32_660 v1728
  let v1730 : BitVec 32 := Scalar.addi v0 v1729
  let v1731 : Index := Scalar.indexCast v1730
  ![v1731.toNat]
def k0_off630 : Fin 1 → Nat :=
  let c0_i32_660 : BitVec 32 := 0#32
  let c29_i32_658 : BitVec 32 := 29#32
  let c1_i32_659 : BitVec 32 := 1#32
  let v1728 : BitVec 32 := Scalar.muli c29_i32_658 c1_i32_659
  let v1729 : BitVec 32 := Scalar.addi c0_i32_660 v1728
  ![v1729.toNat]
def k0_off631 : Fin 2 → Nat :=
  let c0_i32_660 : BitVec 32 := 0#32
  let c29_i32_658 : BitVec 32 := 29#32
  let c1_i32_659 : BitVec 32 := 1#32
  let v1728 : BitVec 32 := Scalar.muli c29_i32_658 c1_i32_659
  let v1729 : BitVec 32 := Scalar.addi c0_i32_660 v1728
  let c0_i32_661 : BitVec 32 := 0#32
  ![v1729.toNat, 0]
def k0_off632 (v1732 : BitVec 32) : Fin 2 → Nat :=
  let c0_i32_662 : BitVec 32 := 0#32
  ![v1732.toNat, 0]

def k0_chk158 (v1732 : BitVec 32) : Prop :=
  (∀ a, (k0_off632 v1732) a + S1x8000.size a ≤ S8000x8000.size a)
instance k0_chk158.dec : ∀ (v1732 : BitVec 32), Decidable (k0_chk158 v1732) := fun v1732 => decidable_of_iff' _ (Iff.of_eq (k0_chk158.eq_1 v1732))
theorem k0_off632_inb : ∀ (v1732 : BitVec 32) (k0_hw158 : k0_chk158 v1732), ∀ a, (k0_off632 v1732) a + S1x8000.size a ≤ S8000x8000.size a := fun v1732 k0_hw158 => k0_hw158

def k0_off633 (i : grid0.Coords) : Fin 1 → Nat :=
  let arg0 : BitVec 32 := BitVec.ofNat 32 (i 0).val
  let c128_i32 : BitVec 32 := 128#32
  let v0 : BitVec 32 := Scalar.muli arg0 c128_i32
  let c0_i32_665 : BitVec 32 := 0#32
  let c30_i32_663 : BitVec 32 := 30#32
  let c1_i32_664 : BitVec 32 := 1#32
  let v1739 : BitVec 32 := Scalar.muli c30_i32_663 c1_i32_664
  let v1740 : BitVec 32 := Scalar.addi c0_i32_665 v1739
  let v1741 : BitVec 32 := Scalar.addi v0 v1740
  let v1742 : Index := Scalar.indexCast v1741
  ![v1742.toNat]
def k0_off634 : Fin 1 → Nat :=
  let c0_i32_665 : BitVec 32 := 0#32
  let c30_i32_663 : BitVec 32 := 30#32
  let c1_i32_664 : BitVec 32 := 1#32
  let v1739 : BitVec 32 := Scalar.muli c30_i32_663 c1_i32_664
  let v1740 : BitVec 32 := Scalar.addi c0_i32_665 v1739
  ![v1740.toNat]
def k0_off635 : Fin 2 → Nat :=
  let c0_i32_665 : BitVec 32 := 0#32
  let c30_i32_663 : BitVec 32 := 30#32
  let c1_i32_664 : BitVec 32 := 1#32
  let v1739 : BitVec 32 := Scalar.muli c30_i32_663 c1_i32_664
  let v1740 : BitVec 32 := Scalar.addi c0_i32_665 v1739
  let c0_i32_666 : BitVec 32 := 0#32
  ![v1740.toNat, 0]
def k0_off636 (v1743 : BitVec 32) : Fin 2 → Nat :=
  let c0_i32_667 : BitVec 32 := 0#32
  ![v1743.toNat, 0]

def k0_chk159 (v1743 : BitVec 32) : Prop :=
  (∀ a, (k0_off636 v1743) a + S1x8000.size a ≤ S8000x8000.size a)
instance k0_chk159.dec : ∀ (v1743 : BitVec 32), Decidable (k0_chk159 v1743) := fun v1743 => decidable_of_iff' _ (Iff.of_eq (k0_chk159.eq_1 v1743))
theorem k0_off636_inb : ∀ (v1743 : BitVec 32) (k0_hw159 : k0_chk159 v1743), ∀ a, (k0_off636 v1743) a + S1x8000.size a ≤ S8000x8000.size a := fun v1743 k0_hw159 => k0_hw159

def k0_off637 (i : grid0.Coords) : Fin 1 → Nat :=
  let arg0 : BitVec 32 := BitVec.ofNat 32 (i 0).val
  let c128_i32 : BitVec 32 := 128#32
  let v0 : BitVec 32 := Scalar.muli arg0 c128_i32
  let c0_i32_670 : BitVec 32 := 0#32
  let c31_i32_668 : BitVec 32 := 31#32
  let c1_i32_669 : BitVec 32 := 1#32
  let v1750 : BitVec 32 := Scalar.muli c31_i32_668 c1_i32_669
  let v1751 : BitVec 32 := Scalar.addi c0_i32_670 v1750
  let v1752 : BitVec 32 := Scalar.addi v0 v1751
  let v1753 : Index := Scalar.indexCast v1752
  ![v1753.toNat]
def k0_off638 : Fin 1 → Nat :=
  let c0_i32_670 : BitVec 32 := 0#32
  let c31_i32_668 : BitVec 32 := 31#32
  let c1_i32_669 : BitVec 32 := 1#32
  let v1750 : BitVec 32 := Scalar.muli c31_i32_668 c1_i32_669
  let v1751 : BitVec 32 := Scalar.addi c0_i32_670 v1750
  ![v1751.toNat]
def k0_off639 : Fin 2 → Nat :=
  let c0_i32_670 : BitVec 32 := 0#32
  let c31_i32_668 : BitVec 32 := 31#32
  let c1_i32_669 : BitVec 32 := 1#32
  let v1750 : BitVec 32 := Scalar.muli c31_i32_668 c1_i32_669
  let v1751 : BitVec 32 := Scalar.addi c0_i32_670 v1750
  let c0_i32_671 : BitVec 32 := 0#32
  ![v1751.toNat, 0]
def k0_off640 (v1754 : BitVec 32) : Fin 2 → Nat :=
  let c0_i32_672 : BitVec 32 := 0#32
  ![v1754.toNat, 0]

def k0_chk160 (v1754 : BitVec 32) : Prop :=
  (∀ a, (k0_off640 v1754) a + S1x8000.size a ≤ S8000x8000.size a)
instance k0_chk160.dec : ∀ (v1754 : BitVec 32), Decidable (k0_chk160 v1754) := fun v1754 => decidable_of_iff' _ (Iff.of_eq (k0_chk160.eq_1 v1754))
theorem k0_off640_inb : ∀ (v1754 : BitVec 32) (k0_hw160 : k0_chk160 v1754), ∀ a, (k0_off640 v1754) a + S1x8000.size a ≤ S8000x8000.size a := fun v1754 k0_hw160 => k0_hw160

def k0_off641 (i : grid0.Coords) : Fin 1 → Nat :=
  let arg0 : BitVec 32 := BitVec.ofNat 32 (i 0).val
  let c128_i32 : BitVec 32 := 128#32
  let v0 : BitVec 32 := Scalar.muli arg0 c128_i32
  let c0_i32_675 : BitVec 32 := 0#32
  let c32_i32_673 : BitVec 32 := 32#32
  let c1_i32_674 : BitVec 32 := 1#32
  let v1761 : BitVec 32 := Scalar.muli c32_i32_673 c1_i32_674
  let v1762 : BitVec 32 := Scalar.addi c0_i32_675 v1761
  let v1763 : BitVec 32 := Scalar.addi v0 v1762
  let v1764 : Index := Scalar.indexCast v1763
  ![v1764.toNat]
def k0_off642 : Fin 1 → Nat :=
  let c0_i32_675 : BitVec 32 := 0#32
  let c32_i32_673 : BitVec 32 := 32#32
  let c1_i32_674 : BitVec 32 := 1#32
  let v1761 : BitVec 32 := Scalar.muli c32_i32_673 c1_i32_674
  let v1762 : BitVec 32 := Scalar.addi c0_i32_675 v1761
  ![v1762.toNat]
def k0_off643 : Fin 2 → Nat :=
  let c0_i32_675 : BitVec 32 := 0#32
  let c32_i32_673 : BitVec 32 := 32#32
  let c1_i32_674 : BitVec 32 := 1#32
  let v1761 : BitVec 32 := Scalar.muli c32_i32_673 c1_i32_674
  let v1762 : BitVec 32 := Scalar.addi c0_i32_675 v1761
  let c0_i32_676 : BitVec 32 := 0#32
  ![v1762.toNat, 0]
def k0_off644 (v1765 : BitVec 32) : Fin 2 → Nat :=
  let c0_i32_677 : BitVec 32 := 0#32
  ![v1765.toNat, 0]

def k0_chk161 (v1765 : BitVec 32) : Prop :=
  (∀ a, (k0_off644 v1765) a + S1x8000.size a ≤ S8000x8000.size a)
instance k0_chk161.dec : ∀ (v1765 : BitVec 32), Decidable (k0_chk161 v1765) := fun v1765 => decidable_of_iff' _ (Iff.of_eq (k0_chk161.eq_1 v1765))
theorem k0_off644_inb : ∀ (v1765 : BitVec 32) (k0_hw161 : k0_chk161 v1765), ∀ a, (k0_off644 v1765) a + S1x8000.size a ≤ S8000x8000.size a := fun v1765 k0_hw161 => k0_hw161

def k0_off645 (i : grid0.Coords) : Fin 1 → Nat :=
  let arg0 : BitVec 32 := BitVec.ofNat 32 (i 0).val
  let c128_i32 : BitVec 32 := 128#32
  let v0 : BitVec 32 := Scalar.muli arg0 c128_i32
  let c0_i32_680 : BitVec 32 := 0#32
  let c33_i32_678 : BitVec 32 := 33#32
  let c1_i32_679 : BitVec 32 := 1#32
  let v1772 : BitVec 32 := Scalar.muli c33_i32_678 c1_i32_679
  let v1773 : BitVec 32 := Scalar.addi c0_i32_680 v1772
  let v1774 : BitVec 32 := Scalar.addi v0 v1773
  let v1775 : Index := Scalar.indexCast v1774
  ![v1775.toNat]
def k0_off646 : Fin 1 → Nat :=
  let c0_i32_680 : BitVec 32 := 0#32
  let c33_i32_678 : BitVec 32 := 33#32
  let c1_i32_679 : BitVec 32 := 1#32
  let v1772 : BitVec 32 := Scalar.muli c33_i32_678 c1_i32_679
  let v1773 : BitVec 32 := Scalar.addi c0_i32_680 v1772
  ![v1773.toNat]
def k0_off647 : Fin 2 → Nat :=
  let c0_i32_680 : BitVec 32 := 0#32
  let c33_i32_678 : BitVec 32 := 33#32
  let c1_i32_679 : BitVec 32 := 1#32
  let v1772 : BitVec 32 := Scalar.muli c33_i32_678 c1_i32_679
  let v1773 : BitVec 32 := Scalar.addi c0_i32_680 v1772
  let c0_i32_681 : BitVec 32 := 0#32
  ![v1773.toNat, 0]
def k0_off648 (v1776 : BitVec 32) : Fin 2 → Nat :=
  let c0_i32_682 : BitVec 32 := 0#32
  ![v1776.toNat, 0]

def k0_chk162 (v1776 : BitVec 32) : Prop :=
  (∀ a, (k0_off648 v1776) a + S1x8000.size a ≤ S8000x8000.size a)
instance k0_chk162.dec : ∀ (v1776 : BitVec 32), Decidable (k0_chk162 v1776) := fun v1776 => decidable_of_iff' _ (Iff.of_eq (k0_chk162.eq_1 v1776))
theorem k0_off648_inb : ∀ (v1776 : BitVec 32) (k0_hw162 : k0_chk162 v1776), ∀ a, (k0_off648 v1776) a + S1x8000.size a ≤ S8000x8000.size a := fun v1776 k0_hw162 => k0_hw162

def k0_off649 (i : grid0.Coords) : Fin 1 → Nat :=
  let arg0 : BitVec 32 := BitVec.ofNat 32 (i 0).val
  let c128_i32 : BitVec 32 := 128#32
  let v0 : BitVec 32 := Scalar.muli arg0 c128_i32
  let c0_i32_685 : BitVec 32 := 0#32
  let c34_i32_683 : BitVec 32 := 34#32
  let c1_i32_684 : BitVec 32 := 1#32
  let v1783 : BitVec 32 := Scalar.muli c34_i32_683 c1_i32_684
  let v1784 : BitVec 32 := Scalar.addi c0_i32_685 v1783
  let v1785 : BitVec 32 := Scalar.addi v0 v1784
  let v1786 : Index := Scalar.indexCast v1785
  ![v1786.toNat]
def k0_off650 : Fin 1 → Nat :=
  let c0_i32_685 : BitVec 32 := 0#32
  let c34_i32_683 : BitVec 32 := 34#32
  let c1_i32_684 : BitVec 32 := 1#32
  let v1783 : BitVec 32 := Scalar.muli c34_i32_683 c1_i32_684
  let v1784 : BitVec 32 := Scalar.addi c0_i32_685 v1783
  ![v1784.toNat]
def k0_off651 : Fin 2 → Nat :=
  let c0_i32_685 : BitVec 32 := 0#32
  let c34_i32_683 : BitVec 32 := 34#32
  let c1_i32_684 : BitVec 32 := 1#32
  let v1783 : BitVec 32 := Scalar.muli c34_i32_683 c1_i32_684
  let v1784 : BitVec 32 := Scalar.addi c0_i32_685 v1783
  let c0_i32_686 : BitVec 32 := 0#32
  ![v1784.toNat, 0]
def k0_off652 (v1787 : BitVec 32) : Fin 2 → Nat :=
  let c0_i32_687 : BitVec 32 := 0#32
  ![v1787.toNat, 0]

def k0_chk163 (v1787 : BitVec 32) : Prop :=
  (∀ a, (k0_off652 v1787) a + S1x8000.size a ≤ S8000x8000.size a)
instance k0_chk163.dec : ∀ (v1787 : BitVec 32), Decidable (k0_chk163 v1787) := fun v1787 => decidable_of_iff' _ (Iff.of_eq (k0_chk163.eq_1 v1787))
theorem k0_off652_inb : ∀ (v1787 : BitVec 32) (k0_hw163 : k0_chk163 v1787), ∀ a, (k0_off652 v1787) a + S1x8000.size a ≤ S8000x8000.size a := fun v1787 k0_hw163 => k0_hw163

def k0_off653 (i : grid0.Coords) : Fin 1 → Nat :=
  let arg0 : BitVec 32 := BitVec.ofNat 32 (i 0).val
  let c128_i32 : BitVec 32 := 128#32
  let v0 : BitVec 32 := Scalar.muli arg0 c128_i32
  let c0_i32_690 : BitVec 32 := 0#32
  let c35_i32_688 : BitVec 32 := 35#32
  let c1_i32_689 : BitVec 32 := 1#32
  let v1794 : BitVec 32 := Scalar.muli c35_i32_688 c1_i32_689
  let v1795 : BitVec 32 := Scalar.addi c0_i32_690 v1794
  let v1796 : BitVec 32 := Scalar.addi v0 v1795
  let v1797 : Index := Scalar.indexCast v1796
  ![v1797.toNat]
def k0_off654 : Fin 1 → Nat :=
  let c0_i32_690 : BitVec 32 := 0#32
  let c35_i32_688 : BitVec 32 := 35#32
  let c1_i32_689 : BitVec 32 := 1#32
  let v1794 : BitVec 32 := Scalar.muli c35_i32_688 c1_i32_689
  let v1795 : BitVec 32 := Scalar.addi c0_i32_690 v1794
  ![v1795.toNat]
def k0_off655 : Fin 2 → Nat :=
  let c0_i32_690 : BitVec 32 := 0#32
  let c35_i32_688 : BitVec 32 := 35#32
  let c1_i32_689 : BitVec 32 := 1#32
  let v1794 : BitVec 32 := Scalar.muli c35_i32_688 c1_i32_689
  let v1795 : BitVec 32 := Scalar.addi c0_i32_690 v1794
  let c0_i32_691 : BitVec 32 := 0#32
  ![v1795.toNat, 0]
def k0_off656 (v1798 : BitVec 32) : Fin 2 → Nat :=
  let c0_i32_692 : BitVec 32 := 0#32
  ![v1798.toNat, 0]

def k0_chk164 (v1798 : BitVec 32) : Prop :=
  (∀ a, (k0_off656 v1798) a + S1x8000.size a ≤ S8000x8000.size a)
instance k0_chk164.dec : ∀ (v1798 : BitVec 32), Decidable (k0_chk164 v1798) := fun v1798 => decidable_of_iff' _ (Iff.of_eq (k0_chk164.eq_1 v1798))
theorem k0_off656_inb : ∀ (v1798 : BitVec 32) (k0_hw164 : k0_chk164 v1798), ∀ a, (k0_off656 v1798) a + S1x8000.size a ≤ S8000x8000.size a := fun v1798 k0_hw164 => k0_hw164

def k0_off657 (i : grid0.Coords) : Fin 1 → Nat :=
  let arg0 : BitVec 32 := BitVec.ofNat 32 (i 0).val
  let c128_i32 : BitVec 32 := 128#32
  let v0 : BitVec 32 := Scalar.muli arg0 c128_i32
  let c0_i32_695 : BitVec 32 := 0#32
  let c36_i32_693 : BitVec 32 := 36#32
  let c1_i32_694 : BitVec 32 := 1#32
  let v1805 : BitVec 32 := Scalar.muli c36_i32_693 c1_i32_694
  let v1806 : BitVec 32 := Scalar.addi c0_i32_695 v1805
  let v1807 : BitVec 32 := Scalar.addi v0 v1806
  let v1808 : Index := Scalar.indexCast v1807
  ![v1808.toNat]
def k0_off658 : Fin 1 → Nat :=
  let c0_i32_695 : BitVec 32 := 0#32
  let c36_i32_693 : BitVec 32 := 36#32
  let c1_i32_694 : BitVec 32 := 1#32
  let v1805 : BitVec 32 := Scalar.muli c36_i32_693 c1_i32_694
  let v1806 : BitVec 32 := Scalar.addi c0_i32_695 v1805
  ![v1806.toNat]
def k0_off659 : Fin 2 → Nat :=
  let c0_i32_695 : BitVec 32 := 0#32
  let c36_i32_693 : BitVec 32 := 36#32
  let c1_i32_694 : BitVec 32 := 1#32
  let v1805 : BitVec 32 := Scalar.muli c36_i32_693 c1_i32_694
  let v1806 : BitVec 32 := Scalar.addi c0_i32_695 v1805
  let c0_i32_696 : BitVec 32 := 0#32
  ![v1806.toNat, 0]
def k0_off660 (v1809 : BitVec 32) : Fin 2 → Nat :=
  let c0_i32_697 : BitVec 32 := 0#32
  ![v1809.toNat, 0]

def k0_chk165 (v1809 : BitVec 32) : Prop :=
  (∀ a, (k0_off660 v1809) a + S1x8000.size a ≤ S8000x8000.size a)
instance k0_chk165.dec : ∀ (v1809 : BitVec 32), Decidable (k0_chk165 v1809) := fun v1809 => decidable_of_iff' _ (Iff.of_eq (k0_chk165.eq_1 v1809))
theorem k0_off660_inb : ∀ (v1809 : BitVec 32) (k0_hw165 : k0_chk165 v1809), ∀ a, (k0_off660 v1809) a + S1x8000.size a ≤ S8000x8000.size a := fun v1809 k0_hw165 => k0_hw165

def k0_off661 (i : grid0.Coords) : Fin 1 → Nat :=
  let arg0 : BitVec 32 := BitVec.ofNat 32 (i 0).val
  let c128_i32 : BitVec 32 := 128#32
  let v0 : BitVec 32 := Scalar.muli arg0 c128_i32
  let c0_i32_700 : BitVec 32 := 0#32
  let c37_i32_698 : BitVec 32 := 37#32
  let c1_i32_699 : BitVec 32 := 1#32
  let v1816 : BitVec 32 := Scalar.muli c37_i32_698 c1_i32_699
  let v1817 : BitVec 32 := Scalar.addi c0_i32_700 v1816
  let v1818 : BitVec 32 := Scalar.addi v0 v1817
  let v1819 : Index := Scalar.indexCast v1818
  ![v1819.toNat]
def k0_off662 : Fin 1 → Nat :=
  let c0_i32_700 : BitVec 32 := 0#32
  let c37_i32_698 : BitVec 32 := 37#32
  let c1_i32_699 : BitVec 32 := 1#32
  let v1816 : BitVec 32 := Scalar.muli c37_i32_698 c1_i32_699
  let v1817 : BitVec 32 := Scalar.addi c0_i32_700 v1816
  ![v1817.toNat]
def k0_off663 : Fin 2 → Nat :=
  let c0_i32_700 : BitVec 32 := 0#32
  let c37_i32_698 : BitVec 32 := 37#32
  let c1_i32_699 : BitVec 32 := 1#32
  let v1816 : BitVec 32 := Scalar.muli c37_i32_698 c1_i32_699
  let v1817 : BitVec 32 := Scalar.addi c0_i32_700 v1816
  let c0_i32_701 : BitVec 32 := 0#32
  ![v1817.toNat, 0]
def k0_off664 (v1820 : BitVec 32) : Fin 2 → Nat :=
  let c0_i32_702 : BitVec 32 := 0#32
  ![v1820.toNat, 0]

def k0_chk166 (v1820 : BitVec 32) : Prop :=
  (∀ a, (k0_off664 v1820) a + S1x8000.size a ≤ S8000x8000.size a)
instance k0_chk166.dec : ∀ (v1820 : BitVec 32), Decidable (k0_chk166 v1820) := fun v1820 => decidable_of_iff' _ (Iff.of_eq (k0_chk166.eq_1 v1820))
theorem k0_off664_inb : ∀ (v1820 : BitVec 32) (k0_hw166 : k0_chk166 v1820), ∀ a, (k0_off664 v1820) a + S1x8000.size a ≤ S8000x8000.size a := fun v1820 k0_hw166 => k0_hw166

def k0_off665 (i : grid0.Coords) : Fin 1 → Nat :=
  let arg0 : BitVec 32 := BitVec.ofNat 32 (i 0).val
  let c128_i32 : BitVec 32 := 128#32
  let v0 : BitVec 32 := Scalar.muli arg0 c128_i32
  let c0_i32_705 : BitVec 32 := 0#32
  let c38_i32_703 : BitVec 32 := 38#32
  let c1_i32_704 : BitVec 32 := 1#32
  let v1827 : BitVec 32 := Scalar.muli c38_i32_703 c1_i32_704
  let v1828 : BitVec 32 := Scalar.addi c0_i32_705 v1827
  let v1829 : BitVec 32 := Scalar.addi v0 v1828
  let v1830 : Index := Scalar.indexCast v1829
  ![v1830.toNat]
def k0_off666 : Fin 1 → Nat :=
  let c0_i32_705 : BitVec 32 := 0#32
  let c38_i32_703 : BitVec 32 := 38#32
  let c1_i32_704 : BitVec 32 := 1#32
  let v1827 : BitVec 32 := Scalar.muli c38_i32_703 c1_i32_704
  let v1828 : BitVec 32 := Scalar.addi c0_i32_705 v1827
  ![v1828.toNat]
def k0_off667 : Fin 2 → Nat :=
  let c0_i32_705 : BitVec 32 := 0#32
  let c38_i32_703 : BitVec 32 := 38#32
  let c1_i32_704 : BitVec 32 := 1#32
  let v1827 : BitVec 32 := Scalar.muli c38_i32_703 c1_i32_704
  let v1828 : BitVec 32 := Scalar.addi c0_i32_705 v1827
  let c0_i32_706 : BitVec 32 := 0#32
  ![v1828.toNat, 0]
def k0_off668 (v1831 : BitVec 32) : Fin 2 → Nat :=
  let c0_i32_707 : BitVec 32 := 0#32
  ![v1831.toNat, 0]

def k0_chk167 (v1831 : BitVec 32) : Prop :=
  (∀ a, (k0_off668 v1831) a + S1x8000.size a ≤ S8000x8000.size a)
instance k0_chk167.dec : ∀ (v1831 : BitVec 32), Decidable (k0_chk167 v1831) := fun v1831 => decidable_of_iff' _ (Iff.of_eq (k0_chk167.eq_1 v1831))
theorem k0_off668_inb : ∀ (v1831 : BitVec 32) (k0_hw167 : k0_chk167 v1831), ∀ a, (k0_off668 v1831) a + S1x8000.size a ≤ S8000x8000.size a := fun v1831 k0_hw167 => k0_hw167

def k0_off669 (i : grid0.Coords) : Fin 1 → Nat :=
  let arg0 : BitVec 32 := BitVec.ofNat 32 (i 0).val
  let c128_i32 : BitVec 32 := 128#32
  let v0 : BitVec 32 := Scalar.muli arg0 c128_i32
  let c0_i32_710 : BitVec 32 := 0#32
  let c39_i32_708 : BitVec 32 := 39#32
  let c1_i32_709 : BitVec 32 := 1#32
  let v1838 : BitVec 32 := Scalar.muli c39_i32_708 c1_i32_709
  let v1839 : BitVec 32 := Scalar.addi c0_i32_710 v1838
  let v1840 : BitVec 32 := Scalar.addi v0 v1839
  let v1841 : Index := Scalar.indexCast v1840
  ![v1841.toNat]
def k0_off670 : Fin 1 → Nat :=
  let c0_i32_710 : BitVec 32 := 0#32
  let c39_i32_708 : BitVec 32 := 39#32
  let c1_i32_709 : BitVec 32 := 1#32
  let v1838 : BitVec 32 := Scalar.muli c39_i32_708 c1_i32_709
  let v1839 : BitVec 32 := Scalar.addi c0_i32_710 v1838
  ![v1839.toNat]
def k0_off671 : Fin 2 → Nat :=
  let c0_i32_710 : BitVec 32 := 0#32
  let c39_i32_708 : BitVec 32 := 39#32
  let c1_i32_709 : BitVec 32 := 1#32
  let v1838 : BitVec 32 := Scalar.muli c39_i32_708 c1_i32_709
  let v1839 : BitVec 32 := Scalar.addi c0_i32_710 v1838
  let c0_i32_711 : BitVec 32 := 0#32
  ![v1839.toNat, 0]
def k0_off672 (v1842 : BitVec 32) : Fin 2 → Nat :=
  let c0_i32_712 : BitVec 32 := 0#32
  ![v1842.toNat, 0]

def k0_chk168 (v1842 : BitVec 32) : Prop :=
  (∀ a, (k0_off672 v1842) a + S1x8000.size a ≤ S8000x8000.size a)
instance k0_chk168.dec : ∀ (v1842 : BitVec 32), Decidable (k0_chk168 v1842) := fun v1842 => decidable_of_iff' _ (Iff.of_eq (k0_chk168.eq_1 v1842))
theorem k0_off672_inb : ∀ (v1842 : BitVec 32) (k0_hw168 : k0_chk168 v1842), ∀ a, (k0_off672 v1842) a + S1x8000.size a ≤ S8000x8000.size a := fun v1842 k0_hw168 => k0_hw168

def k0_off673 (i : grid0.Coords) : Fin 1 → Nat :=
  let arg0 : BitVec 32 := BitVec.ofNat 32 (i 0).val
  let c128_i32 : BitVec 32 := 128#32
  let v0 : BitVec 32 := Scalar.muli arg0 c128_i32
  let c0_i32_715 : BitVec 32 := 0#32
  let c40_i32_713 : BitVec 32 := 40#32
  let c1_i32_714 : BitVec 32 := 1#32
  let v1849 : BitVec 32 := Scalar.muli c40_i32_713 c1_i32_714
  let v1850 : BitVec 32 := Scalar.addi c0_i32_715 v1849
  let v1851 : BitVec 32 := Scalar.addi v0 v1850
  let v1852 : Index := Scalar.indexCast v1851
  ![v1852.toNat]
def k0_off674 : Fin 1 → Nat :=
  let c0_i32_715 : BitVec 32 := 0#32
  let c40_i32_713 : BitVec 32 := 40#32
  let c1_i32_714 : BitVec 32 := 1#32
  let v1849 : BitVec 32 := Scalar.muli c40_i32_713 c1_i32_714
  let v1850 : BitVec 32 := Scalar.addi c0_i32_715 v1849
  ![v1850.toNat]
def k0_off675 : Fin 2 → Nat :=
  let c0_i32_715 : BitVec 32 := 0#32
  let c40_i32_713 : BitVec 32 := 40#32
  let c1_i32_714 : BitVec 32 := 1#32
  let v1849 : BitVec 32 := Scalar.muli c40_i32_713 c1_i32_714
  let v1850 : BitVec 32 := Scalar.addi c0_i32_715 v1849
  let c0_i32_716 : BitVec 32 := 0#32
  ![v1850.toNat, 0]
def k0_off676 (v1853 : BitVec 32) : Fin 2 → Nat :=
  let c0_i32_717 : BitVec 32 := 0#32
  ![v1853.toNat, 0]

def k0_chk169 (v1853 : BitVec 32) : Prop :=
  (∀ a, (k0_off676 v1853) a + S1x8000.size a ≤ S8000x8000.size a)
instance k0_chk169.dec : ∀ (v1853 : BitVec 32), Decidable (k0_chk169 v1853) := fun v1853 => decidable_of_iff' _ (Iff.of_eq (k0_chk169.eq_1 v1853))
theorem k0_off676_inb : ∀ (v1853 : BitVec 32) (k0_hw169 : k0_chk169 v1853), ∀ a, (k0_off676 v1853) a + S1x8000.size a ≤ S8000x8000.size a := fun v1853 k0_hw169 => k0_hw169

def k0_off677 (i : grid0.Coords) : Fin 1 → Nat :=
  let arg0 : BitVec 32 := BitVec.ofNat 32 (i 0).val
  let c128_i32 : BitVec 32 := 128#32
  let v0 : BitVec 32 := Scalar.muli arg0 c128_i32
  let c0_i32_720 : BitVec 32 := 0#32
  let c41_i32_718 : BitVec 32 := 41#32
  let c1_i32_719 : BitVec 32 := 1#32
  let v1860 : BitVec 32 := Scalar.muli c41_i32_718 c1_i32_719
  let v1861 : BitVec 32 := Scalar.addi c0_i32_720 v1860
  let v1862 : BitVec 32 := Scalar.addi v0 v1861
  let v1863 : Index := Scalar.indexCast v1862
  ![v1863.toNat]
def k0_off678 : Fin 1 → Nat :=
  let c0_i32_720 : BitVec 32 := 0#32
  let c41_i32_718 : BitVec 32 := 41#32
  let c1_i32_719 : BitVec 32 := 1#32
  let v1860 : BitVec 32 := Scalar.muli c41_i32_718 c1_i32_719
  let v1861 : BitVec 32 := Scalar.addi c0_i32_720 v1860
  ![v1861.toNat]
def k0_off679 : Fin 2 → Nat :=
  let c0_i32_720 : BitVec 32 := 0#32
  let c41_i32_718 : BitVec 32 := 41#32
  let c1_i32_719 : BitVec 32 := 1#32
  let v1860 : BitVec 32 := Scalar.muli c41_i32_718 c1_i32_719
  let v1861 : BitVec 32 := Scalar.addi c0_i32_720 v1860
  let c0_i32_721 : BitVec 32 := 0#32
  ![v1861.toNat, 0]
def k0_off680 (v1864 : BitVec 32) : Fin 2 → Nat :=
  let c0_i32_722 : BitVec 32 := 0#32
  ![v1864.toNat, 0]

def k0_chk170 (v1864 : BitVec 32) : Prop :=
  (∀ a, (k0_off680 v1864) a + S1x8000.size a ≤ S8000x8000.size a)
instance k0_chk170.dec : ∀ (v1864 : BitVec 32), Decidable (k0_chk170 v1864) := fun v1864 => decidable_of_iff' _ (Iff.of_eq (k0_chk170.eq_1 v1864))
theorem k0_off680_inb : ∀ (v1864 : BitVec 32) (k0_hw170 : k0_chk170 v1864), ∀ a, (k0_off680 v1864) a + S1x8000.size a ≤ S8000x8000.size a := fun v1864 k0_hw170 => k0_hw170

def k0_off681 (i : grid0.Coords) : Fin 1 → Nat :=
  let arg0 : BitVec 32 := BitVec.ofNat 32 (i 0).val
  let c128_i32 : BitVec 32 := 128#32
  let v0 : BitVec 32 := Scalar.muli arg0 c128_i32
  let c0_i32_725 : BitVec 32 := 0#32
  let c42_i32_723 : BitVec 32 := 42#32
  let c1_i32_724 : BitVec 32 := 1#32
  let v1871 : BitVec 32 := Scalar.muli c42_i32_723 c1_i32_724
  let v1872 : BitVec 32 := Scalar.addi c0_i32_725 v1871
  let v1873 : BitVec 32 := Scalar.addi v0 v1872
  let v1874 : Index := Scalar.indexCast v1873
  ![v1874.toNat]
def k0_off682 : Fin 1 → Nat :=
  let c0_i32_725 : BitVec 32 := 0#32
  let c42_i32_723 : BitVec 32 := 42#32
  let c1_i32_724 : BitVec 32 := 1#32
  let v1871 : BitVec 32 := Scalar.muli c42_i32_723 c1_i32_724
  let v1872 : BitVec 32 := Scalar.addi c0_i32_725 v1871
  ![v1872.toNat]
def k0_off683 : Fin 2 → Nat :=
  let c0_i32_725 : BitVec 32 := 0#32
  let c42_i32_723 : BitVec 32 := 42#32
  let c1_i32_724 : BitVec 32 := 1#32
  let v1871 : BitVec 32 := Scalar.muli c42_i32_723 c1_i32_724
  let v1872 : BitVec 32 := Scalar.addi c0_i32_725 v1871
  let c0_i32_726 : BitVec 32 := 0#32
  ![v1872.toNat, 0]
def k0_off684 (v1875 : BitVec 32) : Fin 2 → Nat :=
  let c0_i32_727 : BitVec 32 := 0#32
  ![v1875.toNat, 0]

def k0_chk171 (v1875 : BitVec 32) : Prop :=
  (∀ a, (k0_off684 v1875) a + S1x8000.size a ≤ S8000x8000.size a)
instance k0_chk171.dec : ∀ (v1875 : BitVec 32), Decidable (k0_chk171 v1875) := fun v1875 => decidable_of_iff' _ (Iff.of_eq (k0_chk171.eq_1 v1875))
theorem k0_off684_inb : ∀ (v1875 : BitVec 32) (k0_hw171 : k0_chk171 v1875), ∀ a, (k0_off684 v1875) a + S1x8000.size a ≤ S8000x8000.size a := fun v1875 k0_hw171 => k0_hw171

def k0_off685 (i : grid0.Coords) : Fin 1 → Nat :=
  let arg0 : BitVec 32 := BitVec.ofNat 32 (i 0).val
  let c128_i32 : BitVec 32 := 128#32
  let v0 : BitVec 32 := Scalar.muli arg0 c128_i32
  let c0_i32_730 : BitVec 32 := 0#32
  let c43_i32_728 : BitVec 32 := 43#32
  let c1_i32_729 : BitVec 32 := 1#32
  let v1882 : BitVec 32 := Scalar.muli c43_i32_728 c1_i32_729
  let v1883 : BitVec 32 := Scalar.addi c0_i32_730 v1882
  let v1884 : BitVec 32 := Scalar.addi v0 v1883
  let v1885 : Index := Scalar.indexCast v1884
  ![v1885.toNat]
def k0_off686 : Fin 1 → Nat :=
  let c0_i32_730 : BitVec 32 := 0#32
  let c43_i32_728 : BitVec 32 := 43#32
  let c1_i32_729 : BitVec 32 := 1#32
  let v1882 : BitVec 32 := Scalar.muli c43_i32_728 c1_i32_729
  let v1883 : BitVec 32 := Scalar.addi c0_i32_730 v1882
  ![v1883.toNat]
def k0_off687 : Fin 2 → Nat :=
  let c0_i32_730 : BitVec 32 := 0#32
  let c43_i32_728 : BitVec 32 := 43#32
  let c1_i32_729 : BitVec 32 := 1#32
  let v1882 : BitVec 32 := Scalar.muli c43_i32_728 c1_i32_729
  let v1883 : BitVec 32 := Scalar.addi c0_i32_730 v1882
  let c0_i32_731 : BitVec 32 := 0#32
  ![v1883.toNat, 0]
def k0_off688 (v1886 : BitVec 32) : Fin 2 → Nat :=
  let c0_i32_732 : BitVec 32 := 0#32
  ![v1886.toNat, 0]

def k0_chk172 (v1886 : BitVec 32) : Prop :=
  (∀ a, (k0_off688 v1886) a + S1x8000.size a ≤ S8000x8000.size a)
instance k0_chk172.dec : ∀ (v1886 : BitVec 32), Decidable (k0_chk172 v1886) := fun v1886 => decidable_of_iff' _ (Iff.of_eq (k0_chk172.eq_1 v1886))
theorem k0_off688_inb : ∀ (v1886 : BitVec 32) (k0_hw172 : k0_chk172 v1886), ∀ a, (k0_off688 v1886) a + S1x8000.size a ≤ S8000x8000.size a := fun v1886 k0_hw172 => k0_hw172

def k0_off689 (i : grid0.Coords) : Fin 1 → Nat :=
  let arg0 : BitVec 32 := BitVec.ofNat 32 (i 0).val
  let c128_i32 : BitVec 32 := 128#32
  let v0 : BitVec 32 := Scalar.muli arg0 c128_i32
  let c0_i32_735 : BitVec 32 := 0#32
  let c44_i32_733 : BitVec 32 := 44#32
  let c1_i32_734 : BitVec 32 := 1#32
  let v1893 : BitVec 32 := Scalar.muli c44_i32_733 c1_i32_734
  let v1894 : BitVec 32 := Scalar.addi c0_i32_735 v1893
  let v1895 : BitVec 32 := Scalar.addi v0 v1894
  let v1896 : Index := Scalar.indexCast v1895
  ![v1896.toNat]
def k0_off690 : Fin 1 → Nat :=
  let c0_i32_735 : BitVec 32 := 0#32
  let c44_i32_733 : BitVec 32 := 44#32
  let c1_i32_734 : BitVec 32 := 1#32
  let v1893 : BitVec 32 := Scalar.muli c44_i32_733 c1_i32_734
  let v1894 : BitVec 32 := Scalar.addi c0_i32_735 v1893
  ![v1894.toNat]
def k0_off691 : Fin 2 → Nat :=
  let c0_i32_735 : BitVec 32 := 0#32
  let c44_i32_733 : BitVec 32 := 44#32
  let c1_i32_734 : BitVec 32 := 1#32
  let v1893 : BitVec 32 := Scalar.muli c44_i32_733 c1_i32_734
  let v1894 : BitVec 32 := Scalar.addi c0_i32_735 v1893
  let c0_i32_736 : BitVec 32 := 0#32
  ![v1894.toNat, 0]
def k0_off692 (v1897 : BitVec 32) : Fin 2 → Nat :=
  let c0_i32_737 : BitVec 32 := 0#32
  ![v1897.toNat, 0]

def k0_chk173 (v1897 : BitVec 32) : Prop :=
  (∀ a, (k0_off692 v1897) a + S1x8000.size a ≤ S8000x8000.size a)
instance k0_chk173.dec : ∀ (v1897 : BitVec 32), Decidable (k0_chk173 v1897) := fun v1897 => decidable_of_iff' _ (Iff.of_eq (k0_chk173.eq_1 v1897))
theorem k0_off692_inb : ∀ (v1897 : BitVec 32) (k0_hw173 : k0_chk173 v1897), ∀ a, (k0_off692 v1897) a + S1x8000.size a ≤ S8000x8000.size a := fun v1897 k0_hw173 => k0_hw173

def k0_off693 (i : grid0.Coords) : Fin 1 → Nat :=
  let arg0 : BitVec 32 := BitVec.ofNat 32 (i 0).val
  let c128_i32 : BitVec 32 := 128#32
  let v0 : BitVec 32 := Scalar.muli arg0 c128_i32
  let c0_i32_740 : BitVec 32 := 0#32
  let c45_i32_738 : BitVec 32 := 45#32
  let c1_i32_739 : BitVec 32 := 1#32
  let v1904 : BitVec 32 := Scalar.muli c45_i32_738 c1_i32_739
  let v1905 : BitVec 32 := Scalar.addi c0_i32_740 v1904
  let v1906 : BitVec 32 := Scalar.addi v0 v1905
  let v1907 : Index := Scalar.indexCast v1906
  ![v1907.toNat]
def k0_off694 : Fin 1 → Nat :=
  let c0_i32_740 : BitVec 32 := 0#32
  let c45_i32_738 : BitVec 32 := 45#32
  let c1_i32_739 : BitVec 32 := 1#32
  let v1904 : BitVec 32 := Scalar.muli c45_i32_738 c1_i32_739
  let v1905 : BitVec 32 := Scalar.addi c0_i32_740 v1904
  ![v1905.toNat]
def k0_off695 : Fin 2 → Nat :=
  let c0_i32_740 : BitVec 32 := 0#32
  let c45_i32_738 : BitVec 32 := 45#32
  let c1_i32_739 : BitVec 32 := 1#32
  let v1904 : BitVec 32 := Scalar.muli c45_i32_738 c1_i32_739
  let v1905 : BitVec 32 := Scalar.addi c0_i32_740 v1904
  let c0_i32_741 : BitVec 32 := 0#32
  ![v1905.toNat, 0]
def k0_off696 (v1908 : BitVec 32) : Fin 2 → Nat :=
  let c0_i32_742 : BitVec 32 := 0#32
  ![v1908.toNat, 0]

def k0_chk174 (v1908 : BitVec 32) : Prop :=
  (∀ a, (k0_off696 v1908) a + S1x8000.size a ≤ S8000x8000.size a)
instance k0_chk174.dec : ∀ (v1908 : BitVec 32), Decidable (k0_chk174 v1908) := fun v1908 => decidable_of_iff' _ (Iff.of_eq (k0_chk174.eq_1 v1908))
theorem k0_off696_inb : ∀ (v1908 : BitVec 32) (k0_hw174 : k0_chk174 v1908), ∀ a, (k0_off696 v1908) a + S1x8000.size a ≤ S8000x8000.size a := fun v1908 k0_hw174 => k0_hw174

def k0_off697 (i : grid0.Coords) : Fin 1 → Nat :=
  let arg0 : BitVec 32 := BitVec.ofNat 32 (i 0).val
  let c128_i32 : BitVec 32 := 128#32
  let v0 : BitVec 32 := Scalar.muli arg0 c128_i32
  let c0_i32_745 : BitVec 32 := 0#32
  let c46_i32_743 : BitVec 32 := 46#32
  let c1_i32_744 : BitVec 32 := 1#32
  let v1915 : BitVec 32 := Scalar.muli c46_i32_743 c1_i32_744
  let v1916 : BitVec 32 := Scalar.addi c0_i32_745 v1915
  let v1917 : BitVec 32 := Scalar.addi v0 v1916
  let v1918 : Index := Scalar.indexCast v1917
  ![v1918.toNat]
def k0_off698 : Fin 1 → Nat :=
  let c0_i32_745 : BitVec 32 := 0#32
  let c46_i32_743 : BitVec 32 := 46#32
  let c1_i32_744 : BitVec 32 := 1#32
  let v1915 : BitVec 32 := Scalar.muli c46_i32_743 c1_i32_744
  let v1916 : BitVec 32 := Scalar.addi c0_i32_745 v1915
  ![v1916.toNat]
def k0_off699 : Fin 2 → Nat :=
  let c0_i32_745 : BitVec 32 := 0#32
  let c46_i32_743 : BitVec 32 := 46#32
  let c1_i32_744 : BitVec 32 := 1#32
  let v1915 : BitVec 32 := Scalar.muli c46_i32_743 c1_i32_744
  let v1916 : BitVec 32 := Scalar.addi c0_i32_745 v1915
  let c0_i32_746 : BitVec 32 := 0#32
  ![v1916.toNat, 0]
def k0_off700 (v1919 : BitVec 32) : Fin 2 → Nat :=
  let c0_i32_747 : BitVec 32 := 0#32
  ![v1919.toNat, 0]

def k0_chk175 (v1919 : BitVec 32) : Prop :=
  (∀ a, (k0_off700 v1919) a + S1x8000.size a ≤ S8000x8000.size a)
instance k0_chk175.dec : ∀ (v1919 : BitVec 32), Decidable (k0_chk175 v1919) := fun v1919 => decidable_of_iff' _ (Iff.of_eq (k0_chk175.eq_1 v1919))
theorem k0_off700_inb : ∀ (v1919 : BitVec 32) (k0_hw175 : k0_chk175 v1919), ∀ a, (k0_off700 v1919) a + S1x8000.size a ≤ S8000x8000.size a := fun v1919 k0_hw175 => k0_hw175

def k0_off701 (i : grid0.Coords) : Fin 1 → Nat :=
  let arg0 : BitVec 32 := BitVec.ofNat 32 (i 0).val
  let c128_i32 : BitVec 32 := 128#32
  let v0 : BitVec 32 := Scalar.muli arg0 c128_i32
  let c0_i32_750 : BitVec 32 := 0#32
  let c47_i32_748 : BitVec 32 := 47#32
  let c1_i32_749 : BitVec 32 := 1#32
  let v1926 : BitVec 32 := Scalar.muli c47_i32_748 c1_i32_749
  let v1927 : BitVec 32 := Scalar.addi c0_i32_750 v1926
  let v1928 : BitVec 32 := Scalar.addi v0 v1927
  let v1929 : Index := Scalar.indexCast v1928
  ![v1929.toNat]
def k0_off702 : Fin 1 → Nat :=
  let c0_i32_750 : BitVec 32 := 0#32
  let c47_i32_748 : BitVec 32 := 47#32
  let c1_i32_749 : BitVec 32 := 1#32
  let v1926 : BitVec 32 := Scalar.muli c47_i32_748 c1_i32_749
  let v1927 : BitVec 32 := Scalar.addi c0_i32_750 v1926
  ![v1927.toNat]
def k0_off703 : Fin 2 → Nat :=
  let c0_i32_750 : BitVec 32 := 0#32
  let c47_i32_748 : BitVec 32 := 47#32
  let c1_i32_749 : BitVec 32 := 1#32
  let v1926 : BitVec 32 := Scalar.muli c47_i32_748 c1_i32_749
  let v1927 : BitVec 32 := Scalar.addi c0_i32_750 v1926
  let c0_i32_751 : BitVec 32 := 0#32
  ![v1927.toNat, 0]
def k0_off704 (v1930 : BitVec 32) : Fin 2 → Nat :=
  let c0_i32_752 : BitVec 32 := 0#32
  ![v1930.toNat, 0]

def k0_chk176 (v1930 : BitVec 32) : Prop :=
  (∀ a, (k0_off704 v1930) a + S1x8000.size a ≤ S8000x8000.size a)
instance k0_chk176.dec : ∀ (v1930 : BitVec 32), Decidable (k0_chk176 v1930) := fun v1930 => decidable_of_iff' _ (Iff.of_eq (k0_chk176.eq_1 v1930))
theorem k0_off704_inb : ∀ (v1930 : BitVec 32) (k0_hw176 : k0_chk176 v1930), ∀ a, (k0_off704 v1930) a + S1x8000.size a ≤ S8000x8000.size a := fun v1930 k0_hw176 => k0_hw176

def k0_off705 (i : grid0.Coords) : Fin 1 → Nat :=
  let arg0 : BitVec 32 := BitVec.ofNat 32 (i 0).val
  let c128_i32 : BitVec 32 := 128#32
  let v0 : BitVec 32 := Scalar.muli arg0 c128_i32
  let c0_i32_755 : BitVec 32 := 0#32
  let c48_i32_753 : BitVec 32 := 48#32
  let c1_i32_754 : BitVec 32 := 1#32
  let v1937 : BitVec 32 := Scalar.muli c48_i32_753 c1_i32_754
  let v1938 : BitVec 32 := Scalar.addi c0_i32_755 v1937
  let v1939 : BitVec 32 := Scalar.addi v0 v1938
  let v1940 : Index := Scalar.indexCast v1939
  ![v1940.toNat]
def k0_off706 : Fin 1 → Nat :=
  let c0_i32_755 : BitVec 32 := 0#32
  let c48_i32_753 : BitVec 32 := 48#32
  let c1_i32_754 : BitVec 32 := 1#32
  let v1937 : BitVec 32 := Scalar.muli c48_i32_753 c1_i32_754
  let v1938 : BitVec 32 := Scalar.addi c0_i32_755 v1937
  ![v1938.toNat]
def k0_off707 : Fin 2 → Nat :=
  let c0_i32_755 : BitVec 32 := 0#32
  let c48_i32_753 : BitVec 32 := 48#32
  let c1_i32_754 : BitVec 32 := 1#32
  let v1937 : BitVec 32 := Scalar.muli c48_i32_753 c1_i32_754
  let v1938 : BitVec 32 := Scalar.addi c0_i32_755 v1937
  let c0_i32_756 : BitVec 32 := 0#32
  ![v1938.toNat, 0]
def k0_off708 (v1941 : BitVec 32) : Fin 2 → Nat :=
  let c0_i32_757 : BitVec 32 := 0#32
  ![v1941.toNat, 0]

def k0_chk177 (v1941 : BitVec 32) : Prop :=
  (∀ a, (k0_off708 v1941) a + S1x8000.size a ≤ S8000x8000.size a)
instance k0_chk177.dec : ∀ (v1941 : BitVec 32), Decidable (k0_chk177 v1941) := fun v1941 => decidable_of_iff' _ (Iff.of_eq (k0_chk177.eq_1 v1941))
theorem k0_off708_inb : ∀ (v1941 : BitVec 32) (k0_hw177 : k0_chk177 v1941), ∀ a, (k0_off708 v1941) a + S1x8000.size a ≤ S8000x8000.size a := fun v1941 k0_hw177 => k0_hw177

def k0_off709 (i : grid0.Coords) : Fin 1 → Nat :=
  let arg0 : BitVec 32 := BitVec.ofNat 32 (i 0).val
  let c128_i32 : BitVec 32 := 128#32
  let v0 : BitVec 32 := Scalar.muli arg0 c128_i32
  let c0_i32_760 : BitVec 32 := 0#32
  let c49_i32_758 : BitVec 32 := 49#32
  let c1_i32_759 : BitVec 32 := 1#32
  let v1948 : BitVec 32 := Scalar.muli c49_i32_758 c1_i32_759
  let v1949 : BitVec 32 := Scalar.addi c0_i32_760 v1948
  let v1950 : BitVec 32 := Scalar.addi v0 v1949
  let v1951 : Index := Scalar.indexCast v1950
  ![v1951.toNat]
def k0_off710 : Fin 1 → Nat :=
  let c0_i32_760 : BitVec 32 := 0#32
  let c49_i32_758 : BitVec 32 := 49#32
  let c1_i32_759 : BitVec 32 := 1#32
  let v1948 : BitVec 32 := Scalar.muli c49_i32_758 c1_i32_759
  let v1949 : BitVec 32 := Scalar.addi c0_i32_760 v1948
  ![v1949.toNat]
def k0_off711 : Fin 2 → Nat :=
  let c0_i32_760 : BitVec 32 := 0#32
  let c49_i32_758 : BitVec 32 := 49#32
  let c1_i32_759 : BitVec 32 := 1#32
  let v1948 : BitVec 32 := Scalar.muli c49_i32_758 c1_i32_759
  let v1949 : BitVec 32 := Scalar.addi c0_i32_760 v1948
  let c0_i32_761 : BitVec 32 := 0#32
  ![v1949.toNat, 0]
def k0_off712 (v1952 : BitVec 32) : Fin 2 → Nat :=
  let c0_i32_762 : BitVec 32 := 0#32
  ![v1952.toNat, 0]

def k0_chk178 (v1952 : BitVec 32) : Prop :=
  (∀ a, (k0_off712 v1952) a + S1x8000.size a ≤ S8000x8000.size a)
instance k0_chk178.dec : ∀ (v1952 : BitVec 32), Decidable (k0_chk178 v1952) := fun v1952 => decidable_of_iff' _ (Iff.of_eq (k0_chk178.eq_1 v1952))
theorem k0_off712_inb : ∀ (v1952 : BitVec 32) (k0_hw178 : k0_chk178 v1952), ∀ a, (k0_off712 v1952) a + S1x8000.size a ≤ S8000x8000.size a := fun v1952 k0_hw178 => k0_hw178

def k0_off713 (i : grid0.Coords) : Fin 1 → Nat :=
  let arg0 : BitVec 32 := BitVec.ofNat 32 (i 0).val
  let c128_i32 : BitVec 32 := 128#32
  let v0 : BitVec 32 := Scalar.muli arg0 c128_i32
  let c0_i32_765 : BitVec 32 := 0#32
  let c50_i32_763 : BitVec 32 := 50#32
  let c1_i32_764 : BitVec 32 := 1#32
  let v1959 : BitVec 32 := Scalar.muli c50_i32_763 c1_i32_764
  let v1960 : BitVec 32 := Scalar.addi c0_i32_765 v1959
  let v1961 : BitVec 32 := Scalar.addi v0 v1960
  let v1962 : Index := Scalar.indexCast v1961
  ![v1962.toNat]
def k0_off714 : Fin 1 → Nat :=
  let c0_i32_765 : BitVec 32 := 0#32
  let c50_i32_763 : BitVec 32 := 50#32
  let c1_i32_764 : BitVec 32 := 1#32
  let v1959 : BitVec 32 := Scalar.muli c50_i32_763 c1_i32_764
  let v1960 : BitVec 32 := Scalar.addi c0_i32_765 v1959
  ![v1960.toNat]
def k0_off715 : Fin 2 → Nat :=
  let c0_i32_765 : BitVec 32 := 0#32
  let c50_i32_763 : BitVec 32 := 50#32
  let c1_i32_764 : BitVec 32 := 1#32
  let v1959 : BitVec 32 := Scalar.muli c50_i32_763 c1_i32_764
  let v1960 : BitVec 32 := Scalar.addi c0_i32_765 v1959
  let c0_i32_766 : BitVec 32 := 0#32
  ![v1960.toNat, 0]
def k0_off716 (v1963 : BitVec 32) : Fin 2 → Nat :=
  let c0_i32_767 : BitVec 32 := 0#32
  ![v1963.toNat, 0]

def k0_chk179 (v1963 : BitVec 32) : Prop :=
  (∀ a, (k0_off716 v1963) a + S1x8000.size a ≤ S8000x8000.size a)
instance k0_chk179.dec : ∀ (v1963 : BitVec 32), Decidable (k0_chk179 v1963) := fun v1963 => decidable_of_iff' _ (Iff.of_eq (k0_chk179.eq_1 v1963))
theorem k0_off716_inb : ∀ (v1963 : BitVec 32) (k0_hw179 : k0_chk179 v1963), ∀ a, (k0_off716 v1963) a + S1x8000.size a ≤ S8000x8000.size a := fun v1963 k0_hw179 => k0_hw179

def k0_off717 (i : grid0.Coords) : Fin 1 → Nat :=
  let arg0 : BitVec 32 := BitVec.ofNat 32 (i 0).val
  let c128_i32 : BitVec 32 := 128#32
  let v0 : BitVec 32 := Scalar.muli arg0 c128_i32
  let c0_i32_770 : BitVec 32 := 0#32
  let c51_i32_768 : BitVec 32 := 51#32
  let c1_i32_769 : BitVec 32 := 1#32
  let v1970 : BitVec 32 := Scalar.muli c51_i32_768 c1_i32_769
  let v1971 : BitVec 32 := Scalar.addi c0_i32_770 v1970
  let v1972 : BitVec 32 := Scalar.addi v0 v1971
  let v1973 : Index := Scalar.indexCast v1972
  ![v1973.toNat]
def k0_off718 : Fin 1 → Nat :=
  let c0_i32_770 : BitVec 32 := 0#32
  let c51_i32_768 : BitVec 32 := 51#32
  let c1_i32_769 : BitVec 32 := 1#32
  let v1970 : BitVec 32 := Scalar.muli c51_i32_768 c1_i32_769
  let v1971 : BitVec 32 := Scalar.addi c0_i32_770 v1970
  ![v1971.toNat]
def k0_off719 : Fin 2 → Nat :=
  let c0_i32_770 : BitVec 32 := 0#32
  let c51_i32_768 : BitVec 32 := 51#32
  let c1_i32_769 : BitVec 32 := 1#32
  let v1970 : BitVec 32 := Scalar.muli c51_i32_768 c1_i32_769
  let v1971 : BitVec 32 := Scalar.addi c0_i32_770 v1970
  let c0_i32_771 : BitVec 32 := 0#32
  ![v1971.toNat, 0]
def k0_off720 (v1974 : BitVec 32) : Fin 2 → Nat :=
  let c0_i32_772 : BitVec 32 := 0#32
  ![v1974.toNat, 0]

def k0_chk180 (v1974 : BitVec 32) : Prop :=
  (∀ a, (k0_off720 v1974) a + S1x8000.size a ≤ S8000x8000.size a)
instance k0_chk180.dec : ∀ (v1974 : BitVec 32), Decidable (k0_chk180 v1974) := fun v1974 => decidable_of_iff' _ (Iff.of_eq (k0_chk180.eq_1 v1974))
theorem k0_off720_inb : ∀ (v1974 : BitVec 32) (k0_hw180 : k0_chk180 v1974), ∀ a, (k0_off720 v1974) a + S1x8000.size a ≤ S8000x8000.size a := fun v1974 k0_hw180 => k0_hw180

def k0_off721 (i : grid0.Coords) : Fin 1 → Nat :=
  let arg0 : BitVec 32 := BitVec.ofNat 32 (i 0).val
  let c128_i32 : BitVec 32 := 128#32
  let v0 : BitVec 32 := Scalar.muli arg0 c128_i32
  let c0_i32_775 : BitVec 32 := 0#32
  let c52_i32_773 : BitVec 32 := 52#32
  let c1_i32_774 : BitVec 32 := 1#32
  let v1981 : BitVec 32 := Scalar.muli c52_i32_773 c1_i32_774
  let v1982 : BitVec 32 := Scalar.addi c0_i32_775 v1981
  let v1983 : BitVec 32 := Scalar.addi v0 v1982
  let v1984 : Index := Scalar.indexCast v1983
  ![v1984.toNat]
def k0_off722 : Fin 1 → Nat :=
  let c0_i32_775 : BitVec 32 := 0#32
  let c52_i32_773 : BitVec 32 := 52#32
  let c1_i32_774 : BitVec 32 := 1#32
  let v1981 : BitVec 32 := Scalar.muli c52_i32_773 c1_i32_774
  let v1982 : BitVec 32 := Scalar.addi c0_i32_775 v1981
  ![v1982.toNat]
def k0_off723 : Fin 2 → Nat :=
  let c0_i32_775 : BitVec 32 := 0#32
  let c52_i32_773 : BitVec 32 := 52#32
  let c1_i32_774 : BitVec 32 := 1#32
  let v1981 : BitVec 32 := Scalar.muli c52_i32_773 c1_i32_774
  let v1982 : BitVec 32 := Scalar.addi c0_i32_775 v1981
  let c0_i32_776 : BitVec 32 := 0#32
  ![v1982.toNat, 0]
def k0_off724 (v1985 : BitVec 32) : Fin 2 → Nat :=
  let c0_i32_777 : BitVec 32 := 0#32
  ![v1985.toNat, 0]

def k0_chk181 (v1985 : BitVec 32) : Prop :=
  (∀ a, (k0_off724 v1985) a + S1x8000.size a ≤ S8000x8000.size a)
instance k0_chk181.dec : ∀ (v1985 : BitVec 32), Decidable (k0_chk181 v1985) := fun v1985 => decidable_of_iff' _ (Iff.of_eq (k0_chk181.eq_1 v1985))
theorem k0_off724_inb : ∀ (v1985 : BitVec 32) (k0_hw181 : k0_chk181 v1985), ∀ a, (k0_off724 v1985) a + S1x8000.size a ≤ S8000x8000.size a := fun v1985 k0_hw181 => k0_hw181

def k0_off725 (i : grid0.Coords) : Fin 1 → Nat :=
  let arg0 : BitVec 32 := BitVec.ofNat 32 (i 0).val
  let c128_i32 : BitVec 32 := 128#32
  let v0 : BitVec 32 := Scalar.muli arg0 c128_i32
  let c0_i32_780 : BitVec 32 := 0#32
  let c53_i32_778 : BitVec 32 := 53#32
  let c1_i32_779 : BitVec 32 := 1#32
  let v1992 : BitVec 32 := Scalar.muli c53_i32_778 c1_i32_779
  let v1993 : BitVec 32 := Scalar.addi c0_i32_780 v1992
  let v1994 : BitVec 32 := Scalar.addi v0 v1993
  let v1995 : Index := Scalar.indexCast v1994
  ![v1995.toNat]
def k0_off726 : Fin 1 → Nat :=
  let c0_i32_780 : BitVec 32 := 0#32
  let c53_i32_778 : BitVec 32 := 53#32
  let c1_i32_779 : BitVec 32 := 1#32
  let v1992 : BitVec 32 := Scalar.muli c53_i32_778 c1_i32_779
  let v1993 : BitVec 32 := Scalar.addi c0_i32_780 v1992
  ![v1993.toNat]
def k0_off727 : Fin 2 → Nat :=
  let c0_i32_780 : BitVec 32 := 0#32
  let c53_i32_778 : BitVec 32 := 53#32
  let c1_i32_779 : BitVec 32 := 1#32
  let v1992 : BitVec 32 := Scalar.muli c53_i32_778 c1_i32_779
  let v1993 : BitVec 32 := Scalar.addi c0_i32_780 v1992
  let c0_i32_781 : BitVec 32 := 0#32
  ![v1993.toNat, 0]
def k0_off728 (v1996 : BitVec 32) : Fin 2 → Nat :=
  let c0_i32_782 : BitVec 32 := 0#32
  ![v1996.toNat, 0]

def k0_chk182 (v1996 : BitVec 32) : Prop :=
  (∀ a, (k0_off728 v1996) a + S1x8000.size a ≤ S8000x8000.size a)
instance k0_chk182.dec : ∀ (v1996 : BitVec 32), Decidable (k0_chk182 v1996) := fun v1996 => decidable_of_iff' _ (Iff.of_eq (k0_chk182.eq_1 v1996))
theorem k0_off728_inb : ∀ (v1996 : BitVec 32) (k0_hw182 : k0_chk182 v1996), ∀ a, (k0_off728 v1996) a + S1x8000.size a ≤ S8000x8000.size a := fun v1996 k0_hw182 => k0_hw182

def k0_off729 (i : grid0.Coords) : Fin 1 → Nat :=
  let arg0 : BitVec 32 := BitVec.ofNat 32 (i 0).val
  let c128_i32 : BitVec 32 := 128#32
  let v0 : BitVec 32 := Scalar.muli arg0 c128_i32
  let c0_i32_785 : BitVec 32 := 0#32
  let c54_i32_783 : BitVec 32 := 54#32
  let c1_i32_784 : BitVec 32 := 1#32
  let v2003 : BitVec 32 := Scalar.muli c54_i32_783 c1_i32_784
  let v2004 : BitVec 32 := Scalar.addi c0_i32_785 v2003
  let v2005 : BitVec 32 := Scalar.addi v0 v2004
  let v2006 : Index := Scalar.indexCast v2005
  ![v2006.toNat]
def k0_off730 : Fin 1 → Nat :=
  let c0_i32_785 : BitVec 32 := 0#32
  let c54_i32_783 : BitVec 32 := 54#32
  let c1_i32_784 : BitVec 32 := 1#32
  let v2003 : BitVec 32 := Scalar.muli c54_i32_783 c1_i32_784
  let v2004 : BitVec 32 := Scalar.addi c0_i32_785 v2003
  ![v2004.toNat]
def k0_off731 : Fin 2 → Nat :=
  let c0_i32_785 : BitVec 32 := 0#32
  let c54_i32_783 : BitVec 32 := 54#32
  let c1_i32_784 : BitVec 32 := 1#32
  let v2003 : BitVec 32 := Scalar.muli c54_i32_783 c1_i32_784
  let v2004 : BitVec 32 := Scalar.addi c0_i32_785 v2003
  let c0_i32_786 : BitVec 32 := 0#32
  ![v2004.toNat, 0]
def k0_off732 (v2007 : BitVec 32) : Fin 2 → Nat :=
  let c0_i32_787 : BitVec 32 := 0#32
  ![v2007.toNat, 0]

def k0_chk183 (v2007 : BitVec 32) : Prop :=
  (∀ a, (k0_off732 v2007) a + S1x8000.size a ≤ S8000x8000.size a)
instance k0_chk183.dec : ∀ (v2007 : BitVec 32), Decidable (k0_chk183 v2007) := fun v2007 => decidable_of_iff' _ (Iff.of_eq (k0_chk183.eq_1 v2007))
theorem k0_off732_inb : ∀ (v2007 : BitVec 32) (k0_hw183 : k0_chk183 v2007), ∀ a, (k0_off732 v2007) a + S1x8000.size a ≤ S8000x8000.size a := fun v2007 k0_hw183 => k0_hw183

def k0_off733 (i : grid0.Coords) : Fin 1 → Nat :=
  let arg0 : BitVec 32 := BitVec.ofNat 32 (i 0).val
  let c128_i32 : BitVec 32 := 128#32
  let v0 : BitVec 32 := Scalar.muli arg0 c128_i32
  let c0_i32_790 : BitVec 32 := 0#32
  let c55_i32_788 : BitVec 32 := 55#32
  let c1_i32_789 : BitVec 32 := 1#32
  let v2014 : BitVec 32 := Scalar.muli c55_i32_788 c1_i32_789
  let v2015 : BitVec 32 := Scalar.addi c0_i32_790 v2014
  let v2016 : BitVec 32 := Scalar.addi v0 v2015
  let v2017 : Index := Scalar.indexCast v2016
  ![v2017.toNat]
def k0_off734 : Fin 1 → Nat :=
  let c0_i32_790 : BitVec 32 := 0#32
  let c55_i32_788 : BitVec 32 := 55#32
  let c1_i32_789 : BitVec 32 := 1#32
  let v2014 : BitVec 32 := Scalar.muli c55_i32_788 c1_i32_789
  let v2015 : BitVec 32 := Scalar.addi c0_i32_790 v2014
  ![v2015.toNat]
def k0_off735 : Fin 2 → Nat :=
  let c0_i32_790 : BitVec 32 := 0#32
  let c55_i32_788 : BitVec 32 := 55#32
  let c1_i32_789 : BitVec 32 := 1#32
  let v2014 : BitVec 32 := Scalar.muli c55_i32_788 c1_i32_789
  let v2015 : BitVec 32 := Scalar.addi c0_i32_790 v2014
  let c0_i32_791 : BitVec 32 := 0#32
  ![v2015.toNat, 0]
def k0_off736 (v2018 : BitVec 32) : Fin 2 → Nat :=
  let c0_i32_792 : BitVec 32 := 0#32
  ![v2018.toNat, 0]

def k0_chk184 (v2018 : BitVec 32) : Prop :=
  (∀ a, (k0_off736 v2018) a + S1x8000.size a ≤ S8000x8000.size a)
instance k0_chk184.dec : ∀ (v2018 : BitVec 32), Decidable (k0_chk184 v2018) := fun v2018 => decidable_of_iff' _ (Iff.of_eq (k0_chk184.eq_1 v2018))
theorem k0_off736_inb : ∀ (v2018 : BitVec 32) (k0_hw184 : k0_chk184 v2018), ∀ a, (k0_off736 v2018) a + S1x8000.size a ≤ S8000x8000.size a := fun v2018 k0_hw184 => k0_hw184

def k0_off737 (i : grid0.Coords) : Fin 1 → Nat :=
  let arg0 : BitVec 32 := BitVec.ofNat 32 (i 0).val
  let c128_i32 : BitVec 32 := 128#32
  let v0 : BitVec 32 := Scalar.muli arg0 c128_i32
  let c0_i32_795 : BitVec 32 := 0#32
  let c56_i32_793 : BitVec 32 := 56#32
  let c1_i32_794 : BitVec 32 := 1#32
  let v2025 : BitVec 32 := Scalar.muli c56_i32_793 c1_i32_794
  let v2026 : BitVec 32 := Scalar.addi c0_i32_795 v2025
  let v2027 : BitVec 32 := Scalar.addi v0 v2026
  let v2028 : Index := Scalar.indexCast v2027
  ![v2028.toNat]
def k0_off738 : Fin 1 → Nat :=
  let c0_i32_795 : BitVec 32 := 0#32
  let c56_i32_793 : BitVec 32 := 56#32
  let c1_i32_794 : BitVec 32 := 1#32
  let v2025 : BitVec 32 := Scalar.muli c56_i32_793 c1_i32_794
  let v2026 : BitVec 32 := Scalar.addi c0_i32_795 v2025
  ![v2026.toNat]
def k0_off739 : Fin 2 → Nat :=
  let c0_i32_795 : BitVec 32 := 0#32
  let c56_i32_793 : BitVec 32 := 56#32
  let c1_i32_794 : BitVec 32 := 1#32
  let v2025 : BitVec 32 := Scalar.muli c56_i32_793 c1_i32_794
  let v2026 : BitVec 32 := Scalar.addi c0_i32_795 v2025
  let c0_i32_796 : BitVec 32 := 0#32
  ![v2026.toNat, 0]
def k0_off740 (v2029 : BitVec 32) : Fin 2 → Nat :=
  let c0_i32_797 : BitVec 32 := 0#32
  ![v2029.toNat, 0]

def k0_chk185 (v2029 : BitVec 32) : Prop :=
  (∀ a, (k0_off740 v2029) a + S1x8000.size a ≤ S8000x8000.size a)
instance k0_chk185.dec : ∀ (v2029 : BitVec 32), Decidable (k0_chk185 v2029) := fun v2029 => decidable_of_iff' _ (Iff.of_eq (k0_chk185.eq_1 v2029))
theorem k0_off740_inb : ∀ (v2029 : BitVec 32) (k0_hw185 : k0_chk185 v2029), ∀ a, (k0_off740 v2029) a + S1x8000.size a ≤ S8000x8000.size a := fun v2029 k0_hw185 => k0_hw185

def k0_off741 (i : grid0.Coords) : Fin 1 → Nat :=
  let arg0 : BitVec 32 := BitVec.ofNat 32 (i 0).val
  let c128_i32 : BitVec 32 := 128#32
  let v0 : BitVec 32 := Scalar.muli arg0 c128_i32
  let c0_i32_800 : BitVec 32 := 0#32
  let c57_i32_798 : BitVec 32 := 57#32
  let c1_i32_799 : BitVec 32 := 1#32
  let v2036 : BitVec 32 := Scalar.muli c57_i32_798 c1_i32_799
  let v2037 : BitVec 32 := Scalar.addi c0_i32_800 v2036
  let v2038 : BitVec 32 := Scalar.addi v0 v2037
  let v2039 : Index := Scalar.indexCast v2038
  ![v2039.toNat]
def k0_off742 : Fin 1 → Nat :=
  let c0_i32_800 : BitVec 32 := 0#32
  let c57_i32_798 : BitVec 32 := 57#32
  let c1_i32_799 : BitVec 32 := 1#32
  let v2036 : BitVec 32 := Scalar.muli c57_i32_798 c1_i32_799
  let v2037 : BitVec 32 := Scalar.addi c0_i32_800 v2036
  ![v2037.toNat]
def k0_off743 : Fin 2 → Nat :=
  let c0_i32_800 : BitVec 32 := 0#32
  let c57_i32_798 : BitVec 32 := 57#32
  let c1_i32_799 : BitVec 32 := 1#32
  let v2036 : BitVec 32 := Scalar.muli c57_i32_798 c1_i32_799
  let v2037 : BitVec 32 := Scalar.addi c0_i32_800 v2036
  let c0_i32_801 : BitVec 32 := 0#32
  ![v2037.toNat, 0]
def k0_off744 (v2040 : BitVec 32) : Fin 2 → Nat :=
  let c0_i32_802 : BitVec 32 := 0#32
  ![v2040.toNat, 0]

def k0_chk186 (v2040 : BitVec 32) : Prop :=
  (∀ a, (k0_off744 v2040) a + S1x8000.size a ≤ S8000x8000.size a)
instance k0_chk186.dec : ∀ (v2040 : BitVec 32), Decidable (k0_chk186 v2040) := fun v2040 => decidable_of_iff' _ (Iff.of_eq (k0_chk186.eq_1 v2040))
theorem k0_off744_inb : ∀ (v2040 : BitVec 32) (k0_hw186 : k0_chk186 v2040), ∀ a, (k0_off744 v2040) a + S1x8000.size a ≤ S8000x8000.size a := fun v2040 k0_hw186 => k0_hw186

def k0_off745 (i : grid0.Coords) : Fin 1 → Nat :=
  let arg0 : BitVec 32 := BitVec.ofNat 32 (i 0).val
  let c128_i32 : BitVec 32 := 128#32
  let v0 : BitVec 32 := Scalar.muli arg0 c128_i32
  let c0_i32_805 : BitVec 32 := 0#32
  let c58_i32_803 : BitVec 32 := 58#32
  let c1_i32_804 : BitVec 32 := 1#32
  let v2047 : BitVec 32 := Scalar.muli c58_i32_803 c1_i32_804
  let v2048 : BitVec 32 := Scalar.addi c0_i32_805 v2047
  let v2049 : BitVec 32 := Scalar.addi v0 v2048
  let v2050 : Index := Scalar.indexCast v2049
  ![v2050.toNat]
def k0_off746 : Fin 1 → Nat :=
  let c0_i32_805 : BitVec 32 := 0#32
  let c58_i32_803 : BitVec 32 := 58#32
  let c1_i32_804 : BitVec 32 := 1#32
  let v2047 : BitVec 32 := Scalar.muli c58_i32_803 c1_i32_804
  let v2048 : BitVec 32 := Scalar.addi c0_i32_805 v2047
  ![v2048.toNat]
def k0_off747 : Fin 2 → Nat :=
  let c0_i32_805 : BitVec 32 := 0#32
  let c58_i32_803 : BitVec 32 := 58#32
  let c1_i32_804 : BitVec 32 := 1#32
  let v2047 : BitVec 32 := Scalar.muli c58_i32_803 c1_i32_804
  let v2048 : BitVec 32 := Scalar.addi c0_i32_805 v2047
  let c0_i32_806 : BitVec 32 := 0#32
  ![v2048.toNat, 0]
def k0_off748 (v2051 : BitVec 32) : Fin 2 → Nat :=
  let c0_i32_807 : BitVec 32 := 0#32
  ![v2051.toNat, 0]

def k0_chk187 (v2051 : BitVec 32) : Prop :=
  (∀ a, (k0_off748 v2051) a + S1x8000.size a ≤ S8000x8000.size a)
instance k0_chk187.dec : ∀ (v2051 : BitVec 32), Decidable (k0_chk187 v2051) := fun v2051 => decidable_of_iff' _ (Iff.of_eq (k0_chk187.eq_1 v2051))
theorem k0_off748_inb : ∀ (v2051 : BitVec 32) (k0_hw187 : k0_chk187 v2051), ∀ a, (k0_off748 v2051) a + S1x8000.size a ≤ S8000x8000.size a := fun v2051 k0_hw187 => k0_hw187

def k0_off749 (i : grid0.Coords) : Fin 1 → Nat :=
  let arg0 : BitVec 32 := BitVec.ofNat 32 (i 0).val
  let c128_i32 : BitVec 32 := 128#32
  let v0 : BitVec 32 := Scalar.muli arg0 c128_i32
  let c0_i32_810 : BitVec 32 := 0#32
  let c59_i32_808 : BitVec 32 := 59#32
  let c1_i32_809 : BitVec 32 := 1#32
  let v2058 : BitVec 32 := Scalar.muli c59_i32_808 c1_i32_809
  let v2059 : BitVec 32 := Scalar.addi c0_i32_810 v2058
  let v2060 : BitVec 32 := Scalar.addi v0 v2059
  let v2061 : Index := Scalar.indexCast v2060
  ![v2061.toNat]
def k0_off750 : Fin 1 → Nat :=
  let c0_i32_810 : BitVec 32 := 0#32
  let c59_i32_808 : BitVec 32 := 59#32
  let c1_i32_809 : BitVec 32 := 1#32
  let v2058 : BitVec 32 := Scalar.muli c59_i32_808 c1_i32_809
  let v2059 : BitVec 32 := Scalar.addi c0_i32_810 v2058
  ![v2059.toNat]
def k0_off751 : Fin 2 → Nat :=
  let c0_i32_810 : BitVec 32 := 0#32
  let c59_i32_808 : BitVec 32 := 59#32
  let c1_i32_809 : BitVec 32 := 1#32
  let v2058 : BitVec 32 := Scalar.muli c59_i32_808 c1_i32_809
  let v2059 : BitVec 32 := Scalar.addi c0_i32_810 v2058
  let c0_i32_811 : BitVec 32 := 0#32
  ![v2059.toNat, 0]
def k0_off752 (v2062 : BitVec 32) : Fin 2 → Nat :=
  let c0_i32_812 : BitVec 32 := 0#32
  ![v2062.toNat, 0]

def k0_chk188 (v2062 : BitVec 32) : Prop :=
  (∀ a, (k0_off752 v2062) a + S1x8000.size a ≤ S8000x8000.size a)
instance k0_chk188.dec : ∀ (v2062 : BitVec 32), Decidable (k0_chk188 v2062) := fun v2062 => decidable_of_iff' _ (Iff.of_eq (k0_chk188.eq_1 v2062))
theorem k0_off752_inb : ∀ (v2062 : BitVec 32) (k0_hw188 : k0_chk188 v2062), ∀ a, (k0_off752 v2062) a + S1x8000.size a ≤ S8000x8000.size a := fun v2062 k0_hw188 => k0_hw188

def k0_off753 (i : grid0.Coords) : Fin 1 → Nat :=
  let arg0 : BitVec 32 := BitVec.ofNat 32 (i 0).val
  let c128_i32 : BitVec 32 := 128#32
  let v0 : BitVec 32 := Scalar.muli arg0 c128_i32
  let c0_i32_815 : BitVec 32 := 0#32
  let c60_i32_813 : BitVec 32 := 60#32
  let c1_i32_814 : BitVec 32 := 1#32
  let v2069 : BitVec 32 := Scalar.muli c60_i32_813 c1_i32_814
  let v2070 : BitVec 32 := Scalar.addi c0_i32_815 v2069
  let v2071 : BitVec 32 := Scalar.addi v0 v2070
  let v2072 : Index := Scalar.indexCast v2071
  ![v2072.toNat]
def k0_off754 : Fin 1 → Nat :=
  let c0_i32_815 : BitVec 32 := 0#32
  let c60_i32_813 : BitVec 32 := 60#32
  let c1_i32_814 : BitVec 32 := 1#32
  let v2069 : BitVec 32 := Scalar.muli c60_i32_813 c1_i32_814
  let v2070 : BitVec 32 := Scalar.addi c0_i32_815 v2069
  ![v2070.toNat]
def k0_off755 : Fin 2 → Nat :=
  let c0_i32_815 : BitVec 32 := 0#32
  let c60_i32_813 : BitVec 32 := 60#32
  let c1_i32_814 : BitVec 32 := 1#32
  let v2069 : BitVec 32 := Scalar.muli c60_i32_813 c1_i32_814
  let v2070 : BitVec 32 := Scalar.addi c0_i32_815 v2069
  let c0_i32_816 : BitVec 32 := 0#32
  ![v2070.toNat, 0]
def k0_off756 (v2073 : BitVec 32) : Fin 2 → Nat :=
  let c0_i32_817 : BitVec 32 := 0#32
  ![v2073.toNat, 0]

def k0_chk189 (v2073 : BitVec 32) : Prop :=
  (∀ a, (k0_off756 v2073) a + S1x8000.size a ≤ S8000x8000.size a)
instance k0_chk189.dec : ∀ (v2073 : BitVec 32), Decidable (k0_chk189 v2073) := fun v2073 => decidable_of_iff' _ (Iff.of_eq (k0_chk189.eq_1 v2073))
theorem k0_off756_inb : ∀ (v2073 : BitVec 32) (k0_hw189 : k0_chk189 v2073), ∀ a, (k0_off756 v2073) a + S1x8000.size a ≤ S8000x8000.size a := fun v2073 k0_hw189 => k0_hw189

def k0_off757 (i : grid0.Coords) : Fin 1 → Nat :=
  let arg0 : BitVec 32 := BitVec.ofNat 32 (i 0).val
  let c128_i32 : BitVec 32 := 128#32
  let v0 : BitVec 32 := Scalar.muli arg0 c128_i32
  let c0_i32_820 : BitVec 32 := 0#32
  let c61_i32_818 : BitVec 32 := 61#32
  let c1_i32_819 : BitVec 32 := 1#32
  let v2080 : BitVec 32 := Scalar.muli c61_i32_818 c1_i32_819
  let v2081 : BitVec 32 := Scalar.addi c0_i32_820 v2080
  let v2082 : BitVec 32 := Scalar.addi v0 v2081
  let v2083 : Index := Scalar.indexCast v2082
  ![v2083.toNat]
def k0_off758 : Fin 1 → Nat :=
  let c0_i32_820 : BitVec 32 := 0#32
  let c61_i32_818 : BitVec 32 := 61#32
  let c1_i32_819 : BitVec 32 := 1#32
  let v2080 : BitVec 32 := Scalar.muli c61_i32_818 c1_i32_819
  let v2081 : BitVec 32 := Scalar.addi c0_i32_820 v2080
  ![v2081.toNat]
def k0_off759 : Fin 2 → Nat :=
  let c0_i32_820 : BitVec 32 := 0#32
  let c61_i32_818 : BitVec 32 := 61#32
  let c1_i32_819 : BitVec 32 := 1#32
  let v2080 : BitVec 32 := Scalar.muli c61_i32_818 c1_i32_819
  let v2081 : BitVec 32 := Scalar.addi c0_i32_820 v2080
  let c0_i32_821 : BitVec 32 := 0#32
  ![v2081.toNat, 0]
def k0_off760 (v2084 : BitVec 32) : Fin 2 → Nat :=
  let c0_i32_822 : BitVec 32 := 0#32
  ![v2084.toNat, 0]

def k0_chk190 (v2084 : BitVec 32) : Prop :=
  (∀ a, (k0_off760 v2084) a + S1x8000.size a ≤ S8000x8000.size a)
instance k0_chk190.dec : ∀ (v2084 : BitVec 32), Decidable (k0_chk190 v2084) := fun v2084 => decidable_of_iff' _ (Iff.of_eq (k0_chk190.eq_1 v2084))
theorem k0_off760_inb : ∀ (v2084 : BitVec 32) (k0_hw190 : k0_chk190 v2084), ∀ a, (k0_off760 v2084) a + S1x8000.size a ≤ S8000x8000.size a := fun v2084 k0_hw190 => k0_hw190

def k0_off761 (i : grid0.Coords) : Fin 1 → Nat :=
  let arg0 : BitVec 32 := BitVec.ofNat 32 (i 0).val
  let c128_i32 : BitVec 32 := 128#32
  let v0 : BitVec 32 := Scalar.muli arg0 c128_i32
  let c0_i32_825 : BitVec 32 := 0#32
  let c62_i32_823 : BitVec 32 := 62#32
  let c1_i32_824 : BitVec 32 := 1#32
  let v2091 : BitVec 32 := Scalar.muli c62_i32_823 c1_i32_824
  let v2092 : BitVec 32 := Scalar.addi c0_i32_825 v2091
  let v2093 : BitVec 32 := Scalar.addi v0 v2092
  let v2094 : Index := Scalar.indexCast v2093
  ![v2094.toNat]
def k0_off762 : Fin 1 → Nat :=
  let c0_i32_825 : BitVec 32 := 0#32
  let c62_i32_823 : BitVec 32 := 62#32
  let c1_i32_824 : BitVec 32 := 1#32
  let v2091 : BitVec 32 := Scalar.muli c62_i32_823 c1_i32_824
  let v2092 : BitVec 32 := Scalar.addi c0_i32_825 v2091
  ![v2092.toNat]
def k0_off763 : Fin 2 → Nat :=
  let c0_i32_825 : BitVec 32 := 0#32
  let c62_i32_823 : BitVec 32 := 62#32
  let c1_i32_824 : BitVec 32 := 1#32
  let v2091 : BitVec 32 := Scalar.muli c62_i32_823 c1_i32_824
  let v2092 : BitVec 32 := Scalar.addi c0_i32_825 v2091
  let c0_i32_826 : BitVec 32 := 0#32
  ![v2092.toNat, 0]
def k0_off764 (v2095 : BitVec 32) : Fin 2 → Nat :=
  let c0_i32_827 : BitVec 32 := 0#32
  ![v2095.toNat, 0]

def k0_chk191 (v2095 : BitVec 32) : Prop :=
  (∀ a, (k0_off764 v2095) a + S1x8000.size a ≤ S8000x8000.size a)
instance k0_chk191.dec : ∀ (v2095 : BitVec 32), Decidable (k0_chk191 v2095) := fun v2095 => decidable_of_iff' _ (Iff.of_eq (k0_chk191.eq_1 v2095))
theorem k0_off764_inb : ∀ (v2095 : BitVec 32) (k0_hw191 : k0_chk191 v2095), ∀ a, (k0_off764 v2095) a + S1x8000.size a ≤ S8000x8000.size a := fun v2095 k0_hw191 => k0_hw191

def k0_off765 (i : grid0.Coords) : Fin 1 → Nat :=
  let arg0 : BitVec 32 := BitVec.ofNat 32 (i 0).val
  let c128_i32 : BitVec 32 := 128#32
  let v0 : BitVec 32 := Scalar.muli arg0 c128_i32
  let c0_i32_830 : BitVec 32 := 0#32
  let c63_i32_828 : BitVec 32 := 63#32
  let c1_i32_829 : BitVec 32 := 1#32
  let v2102 : BitVec 32 := Scalar.muli c63_i32_828 c1_i32_829
  let v2103 : BitVec 32 := Scalar.addi c0_i32_830 v2102
  let v2104 : BitVec 32 := Scalar.addi v0 v2103
  let v2105 : Index := Scalar.indexCast v2104
  ![v2105.toNat]
def k0_off766 : Fin 1 → Nat :=
  let c0_i32_830 : BitVec 32 := 0#32
  let c63_i32_828 : BitVec 32 := 63#32
  let c1_i32_829 : BitVec 32 := 1#32
  let v2102 : BitVec 32 := Scalar.muli c63_i32_828 c1_i32_829
  let v2103 : BitVec 32 := Scalar.addi c0_i32_830 v2102
  ![v2103.toNat]
def k0_off767 : Fin 2 → Nat :=
  let c0_i32_830 : BitVec 32 := 0#32
  let c63_i32_828 : BitVec 32 := 63#32
  let c1_i32_829 : BitVec 32 := 1#32
  let v2102 : BitVec 32 := Scalar.muli c63_i32_828 c1_i32_829
  let v2103 : BitVec 32 := Scalar.addi c0_i32_830 v2102
  let c0_i32_831 : BitVec 32 := 0#32
  ![v2103.toNat, 0]
def k0_off768 (v2106 : BitVec 32) : Fin 2 → Nat :=
  let c0_i32_832 : BitVec 32 := 0#32
  ![v2106.toNat, 0]

def k0_chk192 (v2106 : BitVec 32) : Prop :=
  (∀ a, (k0_off768 v2106) a + S1x8000.size a ≤ S8000x8000.size a)
instance k0_chk192.dec : ∀ (v2106 : BitVec 32), Decidable (k0_chk192 v2106) := fun v2106 => decidable_of_iff' _ (Iff.of_eq (k0_chk192.eq_1 v2106))
theorem k0_off768_inb : ∀ (v2106 : BitVec 32) (k0_hw192 : k0_chk192 v2106), ∀ a, (k0_off768 v2106) a + S1x8000.size a ≤ S8000x8000.size a := fun v2106 k0_hw192 => k0_hw192

def k0_off769 (i : grid0.Coords) : Fin 1 → Nat :=
  let arg0 : BitVec 32 := BitVec.ofNat 32 (i 0).val
  let c128_i32 : BitVec 32 := 128#32
  let v0 : BitVec 32 := Scalar.muli arg0 c128_i32
  let c0_i32_835 : BitVec 32 := 0#32
  let c64_i32_833 : BitVec 32 := 64#32
  let c1_i32_834 : BitVec 32 := 1#32
  let v2113 : BitVec 32 := Scalar.muli c64_i32_833 c1_i32_834
  let v2114 : BitVec 32 := Scalar.addi c0_i32_835 v2113
  let v2115 : BitVec 32 := Scalar.addi v0 v2114
  let v2116 : Index := Scalar.indexCast v2115
  ![v2116.toNat]
def k0_off770 : Fin 1 → Nat :=
  let c0_i32_835 : BitVec 32 := 0#32
  let c64_i32_833 : BitVec 32 := 64#32
  let c1_i32_834 : BitVec 32 := 1#32
  let v2113 : BitVec 32 := Scalar.muli c64_i32_833 c1_i32_834
  let v2114 : BitVec 32 := Scalar.addi c0_i32_835 v2113
  ![v2114.toNat]
def k0_off771 : Fin 2 → Nat :=
  let c0_i32_835 : BitVec 32 := 0#32
  let c64_i32_833 : BitVec 32 := 64#32
  let c1_i32_834 : BitVec 32 := 1#32
  let v2113 : BitVec 32 := Scalar.muli c64_i32_833 c1_i32_834
  let v2114 : BitVec 32 := Scalar.addi c0_i32_835 v2113
  let c0_i32_836 : BitVec 32 := 0#32
  ![v2114.toNat, 0]
def k0_off772 (v2117 : BitVec 32) : Fin 2 → Nat :=
  let c0_i32_837 : BitVec 32 := 0#32
  ![v2117.toNat, 0]

def k0_chk193 (v2117 : BitVec 32) : Prop :=
  (∀ a, (k0_off772 v2117) a + S1x8000.size a ≤ S8000x8000.size a)
instance k0_chk193.dec : ∀ (v2117 : BitVec 32), Decidable (k0_chk193 v2117) := fun v2117 => decidable_of_iff' _ (Iff.of_eq (k0_chk193.eq_1 v2117))
theorem k0_off772_inb : ∀ (v2117 : BitVec 32) (k0_hw193 : k0_chk193 v2117), ∀ a, (k0_off772 v2117) a + S1x8000.size a ≤ S8000x8000.size a := fun v2117 k0_hw193 => k0_hw193

def k0_off773 (i : grid0.Coords) : Fin 1 → Nat :=
  let arg0 : BitVec 32 := BitVec.ofNat 32 (i 0).val
  let c128_i32 : BitVec 32 := 128#32
  let v0 : BitVec 32 := Scalar.muli arg0 c128_i32
  let c0_i32_840 : BitVec 32 := 0#32
  let c65_i32_838 : BitVec 32 := 65#32
  let c1_i32_839 : BitVec 32 := 1#32
  let v2124 : BitVec 32 := Scalar.muli c65_i32_838 c1_i32_839
  let v2125 : BitVec 32 := Scalar.addi c0_i32_840 v2124
  let v2126 : BitVec 32 := Scalar.addi v0 v2125
  let v2127 : Index := Scalar.indexCast v2126
  ![v2127.toNat]
def k0_off774 : Fin 1 → Nat :=
  let c0_i32_840 : BitVec 32 := 0#32
  let c65_i32_838 : BitVec 32 := 65#32
  let c1_i32_839 : BitVec 32 := 1#32
  let v2124 : BitVec 32 := Scalar.muli c65_i32_838 c1_i32_839
  let v2125 : BitVec 32 := Scalar.addi c0_i32_840 v2124
  ![v2125.toNat]
def k0_off775 : Fin 2 → Nat :=
  let c0_i32_840 : BitVec 32 := 0#32
  let c65_i32_838 : BitVec 32 := 65#32
  let c1_i32_839 : BitVec 32 := 1#32
  let v2124 : BitVec 32 := Scalar.muli c65_i32_838 c1_i32_839
  let v2125 : BitVec 32 := Scalar.addi c0_i32_840 v2124
  let c0_i32_841 : BitVec 32 := 0#32
  ![v2125.toNat, 0]
def k0_off776 (v2128 : BitVec 32) : Fin 2 → Nat :=
  let c0_i32_842 : BitVec 32 := 0#32
  ![v2128.toNat, 0]

def k0_chk194 (v2128 : BitVec 32) : Prop :=
  (∀ a, (k0_off776 v2128) a + S1x8000.size a ≤ S8000x8000.size a)
instance k0_chk194.dec : ∀ (v2128 : BitVec 32), Decidable (k0_chk194 v2128) := fun v2128 => decidable_of_iff' _ (Iff.of_eq (k0_chk194.eq_1 v2128))
theorem k0_off776_inb : ∀ (v2128 : BitVec 32) (k0_hw194 : k0_chk194 v2128), ∀ a, (k0_off776 v2128) a + S1x8000.size a ≤ S8000x8000.size a := fun v2128 k0_hw194 => k0_hw194

def k0_off777 (i : grid0.Coords) : Fin 1 → Nat :=
  let arg0 : BitVec 32 := BitVec.ofNat 32 (i 0).val
  let c128_i32 : BitVec 32 := 128#32
  let v0 : BitVec 32 := Scalar.muli arg0 c128_i32
  let c0_i32_845 : BitVec 32 := 0#32
  let c66_i32_843 : BitVec 32 := 66#32
  let c1_i32_844 : BitVec 32 := 1#32
  let v2135 : BitVec 32 := Scalar.muli c66_i32_843 c1_i32_844
  let v2136 : BitVec 32 := Scalar.addi c0_i32_845 v2135
  let v2137 : BitVec 32 := Scalar.addi v0 v2136
  let v2138 : Index := Scalar.indexCast v2137
  ![v2138.toNat]
def k0_off778 : Fin 1 → Nat :=
  let c0_i32_845 : BitVec 32 := 0#32
  let c66_i32_843 : BitVec 32 := 66#32
  let c1_i32_844 : BitVec 32 := 1#32
  let v2135 : BitVec 32 := Scalar.muli c66_i32_843 c1_i32_844
  let v2136 : BitVec 32 := Scalar.addi c0_i32_845 v2135
  ![v2136.toNat]
def k0_off779 : Fin 2 → Nat :=
  let c0_i32_845 : BitVec 32 := 0#32
  let c66_i32_843 : BitVec 32 := 66#32
  let c1_i32_844 : BitVec 32 := 1#32
  let v2135 : BitVec 32 := Scalar.muli c66_i32_843 c1_i32_844
  let v2136 : BitVec 32 := Scalar.addi c0_i32_845 v2135
  let c0_i32_846 : BitVec 32 := 0#32
  ![v2136.toNat, 0]
def k0_off780 (v2139 : BitVec 32) : Fin 2 → Nat :=
  let c0_i32_847 : BitVec 32 := 0#32
  ![v2139.toNat, 0]

def k0_chk195 (v2139 : BitVec 32) : Prop :=
  (∀ a, (k0_off780 v2139) a + S1x8000.size a ≤ S8000x8000.size a)
instance k0_chk195.dec : ∀ (v2139 : BitVec 32), Decidable (k0_chk195 v2139) := fun v2139 => decidable_of_iff' _ (Iff.of_eq (k0_chk195.eq_1 v2139))
theorem k0_off780_inb : ∀ (v2139 : BitVec 32) (k0_hw195 : k0_chk195 v2139), ∀ a, (k0_off780 v2139) a + S1x8000.size a ≤ S8000x8000.size a := fun v2139 k0_hw195 => k0_hw195

def k0_off781 (i : grid0.Coords) : Fin 1 → Nat :=
  let arg0 : BitVec 32 := BitVec.ofNat 32 (i 0).val
  let c128_i32 : BitVec 32 := 128#32
  let v0 : BitVec 32 := Scalar.muli arg0 c128_i32
  let c0_i32_850 : BitVec 32 := 0#32
  let c67_i32_848 : BitVec 32 := 67#32
  let c1_i32_849 : BitVec 32 := 1#32
  let v2146 : BitVec 32 := Scalar.muli c67_i32_848 c1_i32_849
  let v2147 : BitVec 32 := Scalar.addi c0_i32_850 v2146
  let v2148 : BitVec 32 := Scalar.addi v0 v2147
  let v2149 : Index := Scalar.indexCast v2148
  ![v2149.toNat]
def k0_off782 : Fin 1 → Nat :=
  let c0_i32_850 : BitVec 32 := 0#32
  let c67_i32_848 : BitVec 32 := 67#32
  let c1_i32_849 : BitVec 32 := 1#32
  let v2146 : BitVec 32 := Scalar.muli c67_i32_848 c1_i32_849
  let v2147 : BitVec 32 := Scalar.addi c0_i32_850 v2146
  ![v2147.toNat]
def k0_off783 : Fin 2 → Nat :=
  let c0_i32_850 : BitVec 32 := 0#32
  let c67_i32_848 : BitVec 32 := 67#32
  let c1_i32_849 : BitVec 32 := 1#32
  let v2146 : BitVec 32 := Scalar.muli c67_i32_848 c1_i32_849
  let v2147 : BitVec 32 := Scalar.addi c0_i32_850 v2146
  let c0_i32_851 : BitVec 32 := 0#32
  ![v2147.toNat, 0]
def k0_off784 (v2150 : BitVec 32) : Fin 2 → Nat :=
  let c0_i32_852 : BitVec 32 := 0#32
  ![v2150.toNat, 0]

def k0_chk196 (v2150 : BitVec 32) : Prop :=
  (∀ a, (k0_off784 v2150) a + S1x8000.size a ≤ S8000x8000.size a)
instance k0_chk196.dec : ∀ (v2150 : BitVec 32), Decidable (k0_chk196 v2150) := fun v2150 => decidable_of_iff' _ (Iff.of_eq (k0_chk196.eq_1 v2150))
theorem k0_off784_inb : ∀ (v2150 : BitVec 32) (k0_hw196 : k0_chk196 v2150), ∀ a, (k0_off784 v2150) a + S1x8000.size a ≤ S8000x8000.size a := fun v2150 k0_hw196 => k0_hw196

def k0_off785 (i : grid0.Coords) : Fin 1 → Nat :=
  let arg0 : BitVec 32 := BitVec.ofNat 32 (i 0).val
  let c128_i32 : BitVec 32 := 128#32
  let v0 : BitVec 32 := Scalar.muli arg0 c128_i32
  let c0_i32_855 : BitVec 32 := 0#32
  let c68_i32_853 : BitVec 32 := 68#32
  let c1_i32_854 : BitVec 32 := 1#32
  let v2157 : BitVec 32 := Scalar.muli c68_i32_853 c1_i32_854
  let v2158 : BitVec 32 := Scalar.addi c0_i32_855 v2157
  let v2159 : BitVec 32 := Scalar.addi v0 v2158
  let v2160 : Index := Scalar.indexCast v2159
  ![v2160.toNat]
def k0_off786 : Fin 1 → Nat :=
  let c0_i32_855 : BitVec 32 := 0#32
  let c68_i32_853 : BitVec 32 := 68#32
  let c1_i32_854 : BitVec 32 := 1#32
  let v2157 : BitVec 32 := Scalar.muli c68_i32_853 c1_i32_854
  let v2158 : BitVec 32 := Scalar.addi c0_i32_855 v2157
  ![v2158.toNat]
def k0_off787 : Fin 2 → Nat :=
  let c0_i32_855 : BitVec 32 := 0#32
  let c68_i32_853 : BitVec 32 := 68#32
  let c1_i32_854 : BitVec 32 := 1#32
  let v2157 : BitVec 32 := Scalar.muli c68_i32_853 c1_i32_854
  let v2158 : BitVec 32 := Scalar.addi c0_i32_855 v2157
  let c0_i32_856 : BitVec 32 := 0#32
  ![v2158.toNat, 0]
def k0_off788 (v2161 : BitVec 32) : Fin 2 → Nat :=
  let c0_i32_857 : BitVec 32 := 0#32
  ![v2161.toNat, 0]

def k0_chk197 (v2161 : BitVec 32) : Prop :=
  (∀ a, (k0_off788 v2161) a + S1x8000.size a ≤ S8000x8000.size a)
instance k0_chk197.dec : ∀ (v2161 : BitVec 32), Decidable (k0_chk197 v2161) := fun v2161 => decidable_of_iff' _ (Iff.of_eq (k0_chk197.eq_1 v2161))
theorem k0_off788_inb : ∀ (v2161 : BitVec 32) (k0_hw197 : k0_chk197 v2161), ∀ a, (k0_off788 v2161) a + S1x8000.size a ≤ S8000x8000.size a := fun v2161 k0_hw197 => k0_hw197

def k0_off789 (i : grid0.Coords) : Fin 1 → Nat :=
  let arg0 : BitVec 32 := BitVec.ofNat 32 (i 0).val
  let c128_i32 : BitVec 32 := 128#32
  let v0 : BitVec 32 := Scalar.muli arg0 c128_i32
  let c0_i32_860 : BitVec 32 := 0#32
  let c69_i32_858 : BitVec 32 := 69#32
  let c1_i32_859 : BitVec 32 := 1#32
  let v2168 : BitVec 32 := Scalar.muli c69_i32_858 c1_i32_859
  let v2169 : BitVec 32 := Scalar.addi c0_i32_860 v2168
  let v2170 : BitVec 32 := Scalar.addi v0 v2169
  let v2171 : Index := Scalar.indexCast v2170
  ![v2171.toNat]
def k0_off790 : Fin 1 → Nat :=
  let c0_i32_860 : BitVec 32 := 0#32
  let c69_i32_858 : BitVec 32 := 69#32
  let c1_i32_859 : BitVec 32 := 1#32
  let v2168 : BitVec 32 := Scalar.muli c69_i32_858 c1_i32_859
  let v2169 : BitVec 32 := Scalar.addi c0_i32_860 v2168
  ![v2169.toNat]
def k0_off791 : Fin 2 → Nat :=
  let c0_i32_860 : BitVec 32 := 0#32
  let c69_i32_858 : BitVec 32 := 69#32
  let c1_i32_859 : BitVec 32 := 1#32
  let v2168 : BitVec 32 := Scalar.muli c69_i32_858 c1_i32_859
  let v2169 : BitVec 32 := Scalar.addi c0_i32_860 v2168
  let c0_i32_861 : BitVec 32 := 0#32
  ![v2169.toNat, 0]
def k0_off792 (v2172 : BitVec 32) : Fin 2 → Nat :=
  let c0_i32_862 : BitVec 32 := 0#32
  ![v2172.toNat, 0]

def k0_chk198 (v2172 : BitVec 32) : Prop :=
  (∀ a, (k0_off792 v2172) a + S1x8000.size a ≤ S8000x8000.size a)
instance k0_chk198.dec : ∀ (v2172 : BitVec 32), Decidable (k0_chk198 v2172) := fun v2172 => decidable_of_iff' _ (Iff.of_eq (k0_chk198.eq_1 v2172))
theorem k0_off792_inb : ∀ (v2172 : BitVec 32) (k0_hw198 : k0_chk198 v2172), ∀ a, (k0_off792 v2172) a + S1x8000.size a ≤ S8000x8000.size a := fun v2172 k0_hw198 => k0_hw198

def k0_off793 (i : grid0.Coords) : Fin 1 → Nat :=
  let arg0 : BitVec 32 := BitVec.ofNat 32 (i 0).val
  let c128_i32 : BitVec 32 := 128#32
  let v0 : BitVec 32 := Scalar.muli arg0 c128_i32
  let c0_i32_865 : BitVec 32 := 0#32
  let c70_i32_863 : BitVec 32 := 70#32
  let c1_i32_864 : BitVec 32 := 1#32
  let v2179 : BitVec 32 := Scalar.muli c70_i32_863 c1_i32_864
  let v2180 : BitVec 32 := Scalar.addi c0_i32_865 v2179
  let v2181 : BitVec 32 := Scalar.addi v0 v2180
  let v2182 : Index := Scalar.indexCast v2181
  ![v2182.toNat]
def k0_off794 : Fin 1 → Nat :=
  let c0_i32_865 : BitVec 32 := 0#32
  let c70_i32_863 : BitVec 32 := 70#32
  let c1_i32_864 : BitVec 32 := 1#32
  let v2179 : BitVec 32 := Scalar.muli c70_i32_863 c1_i32_864
  let v2180 : BitVec 32 := Scalar.addi c0_i32_865 v2179
  ![v2180.toNat]
def k0_off795 : Fin 2 → Nat :=
  let c0_i32_865 : BitVec 32 := 0#32
  let c70_i32_863 : BitVec 32 := 70#32
  let c1_i32_864 : BitVec 32 := 1#32
  let v2179 : BitVec 32 := Scalar.muli c70_i32_863 c1_i32_864
  let v2180 : BitVec 32 := Scalar.addi c0_i32_865 v2179
  let c0_i32_866 : BitVec 32 := 0#32
  ![v2180.toNat, 0]
def k0_off796 (v2183 : BitVec 32) : Fin 2 → Nat :=
  let c0_i32_867 : BitVec 32 := 0#32
  ![v2183.toNat, 0]

def k0_chk199 (v2183 : BitVec 32) : Prop :=
  (∀ a, (k0_off796 v2183) a + S1x8000.size a ≤ S8000x8000.size a)
instance k0_chk199.dec : ∀ (v2183 : BitVec 32), Decidable (k0_chk199 v2183) := fun v2183 => decidable_of_iff' _ (Iff.of_eq (k0_chk199.eq_1 v2183))
theorem k0_off796_inb : ∀ (v2183 : BitVec 32) (k0_hw199 : k0_chk199 v2183), ∀ a, (k0_off796 v2183) a + S1x8000.size a ≤ S8000x8000.size a := fun v2183 k0_hw199 => k0_hw199

def k0_off797 (i : grid0.Coords) : Fin 1 → Nat :=
  let arg0 : BitVec 32 := BitVec.ofNat 32 (i 0).val
  let c128_i32 : BitVec 32 := 128#32
  let v0 : BitVec 32 := Scalar.muli arg0 c128_i32
  let c0_i32_870 : BitVec 32 := 0#32
  let c71_i32_868 : BitVec 32 := 71#32
  let c1_i32_869 : BitVec 32 := 1#32
  let v2190 : BitVec 32 := Scalar.muli c71_i32_868 c1_i32_869
  let v2191 : BitVec 32 := Scalar.addi c0_i32_870 v2190
  let v2192 : BitVec 32 := Scalar.addi v0 v2191
  let v2193 : Index := Scalar.indexCast v2192
  ![v2193.toNat]
def k0_off798 : Fin 1 → Nat :=
  let c0_i32_870 : BitVec 32 := 0#32
  let c71_i32_868 : BitVec 32 := 71#32
  let c1_i32_869 : BitVec 32 := 1#32
  let v2190 : BitVec 32 := Scalar.muli c71_i32_868 c1_i32_869
  let v2191 : BitVec 32 := Scalar.addi c0_i32_870 v2190
  ![v2191.toNat]
def k0_off799 : Fin 2 → Nat :=
  let c0_i32_870 : BitVec 32 := 0#32
  let c71_i32_868 : BitVec 32 := 71#32
  let c1_i32_869 : BitVec 32 := 1#32
  let v2190 : BitVec 32 := Scalar.muli c71_i32_868 c1_i32_869
  let v2191 : BitVec 32 := Scalar.addi c0_i32_870 v2190
  let c0_i32_871 : BitVec 32 := 0#32
  ![v2191.toNat, 0]
def k0_off800 (v2194 : BitVec 32) : Fin 2 → Nat :=
  let c0_i32_872 : BitVec 32 := 0#32
  ![v2194.toNat, 0]

def k0_chk200 (v2194 : BitVec 32) : Prop :=
  (∀ a, (k0_off800 v2194) a + S1x8000.size a ≤ S8000x8000.size a)
instance k0_chk200.dec : ∀ (v2194 : BitVec 32), Decidable (k0_chk200 v2194) := fun v2194 => decidable_of_iff' _ (Iff.of_eq (k0_chk200.eq_1 v2194))
theorem k0_off800_inb : ∀ (v2194 : BitVec 32) (k0_hw200 : k0_chk200 v2194), ∀ a, (k0_off800 v2194) a + S1x8000.size a ≤ S8000x8000.size a := fun v2194 k0_hw200 => k0_hw200

def k0_off801 (i : grid0.Coords) : Fin 1 → Nat :=
  let arg0 : BitVec 32 := BitVec.ofNat 32 (i 0).val
  let c128_i32 : BitVec 32 := 128#32
  let v0 : BitVec 32 := Scalar.muli arg0 c128_i32
  let c0_i32_875 : BitVec 32 := 0#32
  let c72_i32_873 : BitVec 32 := 72#32
  let c1_i32_874 : BitVec 32 := 1#32
  let v2201 : BitVec 32 := Scalar.muli c72_i32_873 c1_i32_874
  let v2202 : BitVec 32 := Scalar.addi c0_i32_875 v2201
  let v2203 : BitVec 32 := Scalar.addi v0 v2202
  let v2204 : Index := Scalar.indexCast v2203
  ![v2204.toNat]
def k0_off802 : Fin 1 → Nat :=
  let c0_i32_875 : BitVec 32 := 0#32
  let c72_i32_873 : BitVec 32 := 72#32
  let c1_i32_874 : BitVec 32 := 1#32
  let v2201 : BitVec 32 := Scalar.muli c72_i32_873 c1_i32_874
  let v2202 : BitVec 32 := Scalar.addi c0_i32_875 v2201
  ![v2202.toNat]
def k0_off803 : Fin 2 → Nat :=
  let c0_i32_875 : BitVec 32 := 0#32
  let c72_i32_873 : BitVec 32 := 72#32
  let c1_i32_874 : BitVec 32 := 1#32
  let v2201 : BitVec 32 := Scalar.muli c72_i32_873 c1_i32_874
  let v2202 : BitVec 32 := Scalar.addi c0_i32_875 v2201
  let c0_i32_876 : BitVec 32 := 0#32
  ![v2202.toNat, 0]
def k0_off804 (v2205 : BitVec 32) : Fin 2 → Nat :=
  let c0_i32_877 : BitVec 32 := 0#32
  ![v2205.toNat, 0]

def k0_chk201 (v2205 : BitVec 32) : Prop :=
  (∀ a, (k0_off804 v2205) a + S1x8000.size a ≤ S8000x8000.size a)
instance k0_chk201.dec : ∀ (v2205 : BitVec 32), Decidable (k0_chk201 v2205) := fun v2205 => decidable_of_iff' _ (Iff.of_eq (k0_chk201.eq_1 v2205))
theorem k0_off804_inb : ∀ (v2205 : BitVec 32) (k0_hw201 : k0_chk201 v2205), ∀ a, (k0_off804 v2205) a + S1x8000.size a ≤ S8000x8000.size a := fun v2205 k0_hw201 => k0_hw201

def k0_off805 (i : grid0.Coords) : Fin 1 → Nat :=
  let arg0 : BitVec 32 := BitVec.ofNat 32 (i 0).val
  let c128_i32 : BitVec 32 := 128#32
  let v0 : BitVec 32 := Scalar.muli arg0 c128_i32
  let c0_i32_880 : BitVec 32 := 0#32
  let c73_i32_878 : BitVec 32 := 73#32
  let c1_i32_879 : BitVec 32 := 1#32
  let v2212 : BitVec 32 := Scalar.muli c73_i32_878 c1_i32_879
  let v2213 : BitVec 32 := Scalar.addi c0_i32_880 v2212
  let v2214 : BitVec 32 := Scalar.addi v0 v2213
  let v2215 : Index := Scalar.indexCast v2214
  ![v2215.toNat]
def k0_off806 : Fin 1 → Nat :=
  let c0_i32_880 : BitVec 32 := 0#32
  let c73_i32_878 : BitVec 32 := 73#32
  let c1_i32_879 : BitVec 32 := 1#32
  let v2212 : BitVec 32 := Scalar.muli c73_i32_878 c1_i32_879
  let v2213 : BitVec 32 := Scalar.addi c0_i32_880 v2212
  ![v2213.toNat]
def k0_off807 : Fin 2 → Nat :=
  let c0_i32_880 : BitVec 32 := 0#32
  let c73_i32_878 : BitVec 32 := 73#32
  let c1_i32_879 : BitVec 32 := 1#32
  let v2212 : BitVec 32 := Scalar.muli c73_i32_878 c1_i32_879
  let v2213 : BitVec 32 := Scalar.addi c0_i32_880 v2212
  let c0_i32_881 : BitVec 32 := 0#32
  ![v2213.toNat, 0]
def k0_off808 (v2216 : BitVec 32) : Fin 2 → Nat :=
  let c0_i32_882 : BitVec 32 := 0#32
  ![v2216.toNat, 0]

def k0_chk202 (v2216 : BitVec 32) : Prop :=
  (∀ a, (k0_off808 v2216) a + S1x8000.size a ≤ S8000x8000.size a)
instance k0_chk202.dec : ∀ (v2216 : BitVec 32), Decidable (k0_chk202 v2216) := fun v2216 => decidable_of_iff' _ (Iff.of_eq (k0_chk202.eq_1 v2216))
theorem k0_off808_inb : ∀ (v2216 : BitVec 32) (k0_hw202 : k0_chk202 v2216), ∀ a, (k0_off808 v2216) a + S1x8000.size a ≤ S8000x8000.size a := fun v2216 k0_hw202 => k0_hw202

def k0_off809 (i : grid0.Coords) : Fin 1 → Nat :=
  let arg0 : BitVec 32 := BitVec.ofNat 32 (i 0).val
  let c128_i32 : BitVec 32 := 128#32
  let v0 : BitVec 32 := Scalar.muli arg0 c128_i32
  let c0_i32_885 : BitVec 32 := 0#32
  let c74_i32_883 : BitVec 32 := 74#32
  let c1_i32_884 : BitVec 32 := 1#32
  let v2223 : BitVec 32 := Scalar.muli c74_i32_883 c1_i32_884
  let v2224 : BitVec 32 := Scalar.addi c0_i32_885 v2223
  let v2225 : BitVec 32 := Scalar.addi v0 v2224
  let v2226 : Index := Scalar.indexCast v2225
  ![v2226.toNat]
def k0_off810 : Fin 1 → Nat :=
  let c0_i32_885 : BitVec 32 := 0#32
  let c74_i32_883 : BitVec 32 := 74#32
  let c1_i32_884 : BitVec 32 := 1#32
  let v2223 : BitVec 32 := Scalar.muli c74_i32_883 c1_i32_884
  let v2224 : BitVec 32 := Scalar.addi c0_i32_885 v2223
  ![v2224.toNat]
def k0_off811 : Fin 2 → Nat :=
  let c0_i32_885 : BitVec 32 := 0#32
  let c74_i32_883 : BitVec 32 := 74#32
  let c1_i32_884 : BitVec 32 := 1#32
  let v2223 : BitVec 32 := Scalar.muli c74_i32_883 c1_i32_884
  let v2224 : BitVec 32 := Scalar.addi c0_i32_885 v2223
  let c0_i32_886 : BitVec 32 := 0#32
  ![v2224.toNat, 0]
def k0_off812 (v2227 : BitVec 32) : Fin 2 → Nat :=
  let c0_i32_887 : BitVec 32 := 0#32
  ![v2227.toNat, 0]

def k0_chk203 (v2227 : BitVec 32) : Prop :=
  (∀ a, (k0_off812 v2227) a + S1x8000.size a ≤ S8000x8000.size a)
instance k0_chk203.dec : ∀ (v2227 : BitVec 32), Decidable (k0_chk203 v2227) := fun v2227 => decidable_of_iff' _ (Iff.of_eq (k0_chk203.eq_1 v2227))
theorem k0_off812_inb : ∀ (v2227 : BitVec 32) (k0_hw203 : k0_chk203 v2227), ∀ a, (k0_off812 v2227) a + S1x8000.size a ≤ S8000x8000.size a := fun v2227 k0_hw203 => k0_hw203

def k0_off813 (i : grid0.Coords) : Fin 1 → Nat :=
  let arg0 : BitVec 32 := BitVec.ofNat 32 (i 0).val
  let c128_i32 : BitVec 32 := 128#32
  let v0 : BitVec 32 := Scalar.muli arg0 c128_i32
  let c0_i32_890 : BitVec 32 := 0#32
  let c75_i32_888 : BitVec 32 := 75#32
  let c1_i32_889 : BitVec 32 := 1#32
  let v2234 : BitVec 32 := Scalar.muli c75_i32_888 c1_i32_889
  let v2235 : BitVec 32 := Scalar.addi c0_i32_890 v2234
  let v2236 : BitVec 32 := Scalar.addi v0 v2235
  let v2237 : Index := Scalar.indexCast v2236
  ![v2237.toNat]
def k0_off814 : Fin 1 → Nat :=
  let c0_i32_890 : BitVec 32 := 0#32
  let c75_i32_888 : BitVec 32 := 75#32
  let c1_i32_889 : BitVec 32 := 1#32
  let v2234 : BitVec 32 := Scalar.muli c75_i32_888 c1_i32_889
  let v2235 : BitVec 32 := Scalar.addi c0_i32_890 v2234
  ![v2235.toNat]
def k0_off815 : Fin 2 → Nat :=
  let c0_i32_890 : BitVec 32 := 0#32
  let c75_i32_888 : BitVec 32 := 75#32
  let c1_i32_889 : BitVec 32 := 1#32
  let v2234 : BitVec 32 := Scalar.muli c75_i32_888 c1_i32_889
  let v2235 : BitVec 32 := Scalar.addi c0_i32_890 v2234
  let c0_i32_891 : BitVec 32 := 0#32
  ![v2235.toNat, 0]
def k0_off816 (v2238 : BitVec 32) : Fin 2 → Nat :=
  let c0_i32_892 : BitVec 32 := 0#32
  ![v2238.toNat, 0]

def k0_chk204 (v2238 : BitVec 32) : Prop :=
  (∀ a, (k0_off816 v2238) a + S1x8000.size a ≤ S8000x8000.size a)
instance k0_chk204.dec : ∀ (v2238 : BitVec 32), Decidable (k0_chk204 v2238) := fun v2238 => decidable_of_iff' _ (Iff.of_eq (k0_chk204.eq_1 v2238))
theorem k0_off816_inb : ∀ (v2238 : BitVec 32) (k0_hw204 : k0_chk204 v2238), ∀ a, (k0_off816 v2238) a + S1x8000.size a ≤ S8000x8000.size a := fun v2238 k0_hw204 => k0_hw204

def k0_off817 (i : grid0.Coords) : Fin 1 → Nat :=
  let arg0 : BitVec 32 := BitVec.ofNat 32 (i 0).val
  let c128_i32 : BitVec 32 := 128#32
  let v0 : BitVec 32 := Scalar.muli arg0 c128_i32
  let c0_i32_895 : BitVec 32 := 0#32
  let c76_i32_893 : BitVec 32 := 76#32
  let c1_i32_894 : BitVec 32 := 1#32
  let v2245 : BitVec 32 := Scalar.muli c76_i32_893 c1_i32_894
  let v2246 : BitVec 32 := Scalar.addi c0_i32_895 v2245
  let v2247 : BitVec 32 := Scalar.addi v0 v2246
  let v2248 : Index := Scalar.indexCast v2247
  ![v2248.toNat]
def k0_off818 : Fin 1 → Nat :=
  let c0_i32_895 : BitVec 32 := 0#32
  let c76_i32_893 : BitVec 32 := 76#32
  let c1_i32_894 : BitVec 32 := 1#32
  let v2245 : BitVec 32 := Scalar.muli c76_i32_893 c1_i32_894
  let v2246 : BitVec 32 := Scalar.addi c0_i32_895 v2245
  ![v2246.toNat]
def k0_off819 : Fin 2 → Nat :=
  let c0_i32_895 : BitVec 32 := 0#32
  let c76_i32_893 : BitVec 32 := 76#32
  let c1_i32_894 : BitVec 32 := 1#32
  let v2245 : BitVec 32 := Scalar.muli c76_i32_893 c1_i32_894
  let v2246 : BitVec 32 := Scalar.addi c0_i32_895 v2245
  let c0_i32_896 : BitVec 32 := 0#32
  ![v2246.toNat, 0]
def k0_off820 (v2249 : BitVec 32) : Fin 2 → Nat :=
  let c0_i32_897 : BitVec 32 := 0#32
  ![v2249.toNat, 0]

def k0_chk205 (v2249 : BitVec 32) : Prop :=
  (∀ a, (k0_off820 v2249) a + S1x8000.size a ≤ S8000x8000.size a)
instance k0_chk205.dec : ∀ (v2249 : BitVec 32), Decidable (k0_chk205 v2249) := fun v2249 => decidable_of_iff' _ (Iff.of_eq (k0_chk205.eq_1 v2249))
theorem k0_off820_inb : ∀ (v2249 : BitVec 32) (k0_hw205 : k0_chk205 v2249), ∀ a, (k0_off820 v2249) a + S1x8000.size a ≤ S8000x8000.size a := fun v2249 k0_hw205 => k0_hw205

def k0_off821 (i : grid0.Coords) : Fin 1 → Nat :=
  let arg0 : BitVec 32 := BitVec.ofNat 32 (i 0).val
  let c128_i32 : BitVec 32 := 128#32
  let v0 : BitVec 32 := Scalar.muli arg0 c128_i32
  let c0_i32_900 : BitVec 32 := 0#32
  let c77_i32_898 : BitVec 32 := 77#32
  let c1_i32_899 : BitVec 32 := 1#32
  let v2256 : BitVec 32 := Scalar.muli c77_i32_898 c1_i32_899
  let v2257 : BitVec 32 := Scalar.addi c0_i32_900 v2256
  let v2258 : BitVec 32 := Scalar.addi v0 v2257
  let v2259 : Index := Scalar.indexCast v2258
  ![v2259.toNat]
def k0_off822 : Fin 1 → Nat :=
  let c0_i32_900 : BitVec 32 := 0#32
  let c77_i32_898 : BitVec 32 := 77#32
  let c1_i32_899 : BitVec 32 := 1#32
  let v2256 : BitVec 32 := Scalar.muli c77_i32_898 c1_i32_899
  let v2257 : BitVec 32 := Scalar.addi c0_i32_900 v2256
  ![v2257.toNat]
def k0_off823 : Fin 2 → Nat :=
  let c0_i32_900 : BitVec 32 := 0#32
  let c77_i32_898 : BitVec 32 := 77#32
  let c1_i32_899 : BitVec 32 := 1#32
  let v2256 : BitVec 32 := Scalar.muli c77_i32_898 c1_i32_899
  let v2257 : BitVec 32 := Scalar.addi c0_i32_900 v2256
  let c0_i32_901 : BitVec 32 := 0#32
  ![v2257.toNat, 0]
def k0_off824 (v2260 : BitVec 32) : Fin 2 → Nat :=
  let c0_i32_902 : BitVec 32 := 0#32
  ![v2260.toNat, 0]

def k0_chk206 (v2260 : BitVec 32) : Prop :=
  (∀ a, (k0_off824 v2260) a + S1x8000.size a ≤ S8000x8000.size a)
instance k0_chk206.dec : ∀ (v2260 : BitVec 32), Decidable (k0_chk206 v2260) := fun v2260 => decidable_of_iff' _ (Iff.of_eq (k0_chk206.eq_1 v2260))
theorem k0_off824_inb : ∀ (v2260 : BitVec 32) (k0_hw206 : k0_chk206 v2260), ∀ a, (k0_off824 v2260) a + S1x8000.size a ≤ S8000x8000.size a := fun v2260 k0_hw206 => k0_hw206

def k0_off825 (i : grid0.Coords) : Fin 1 → Nat :=
  let arg0 : BitVec 32 := BitVec.ofNat 32 (i 0).val
  let c128_i32 : BitVec 32 := 128#32
  let v0 : BitVec 32 := Scalar.muli arg0 c128_i32
  let c0_i32_905 : BitVec 32 := 0#32
  let c78_i32_903 : BitVec 32 := 78#32
  let c1_i32_904 : BitVec 32 := 1#32
  let v2267 : BitVec 32 := Scalar.muli c78_i32_903 c1_i32_904
  let v2268 : BitVec 32 := Scalar.addi c0_i32_905 v2267
  let v2269 : BitVec 32 := Scalar.addi v0 v2268
  let v2270 : Index := Scalar.indexCast v2269
  ![v2270.toNat]
def k0_off826 : Fin 1 → Nat :=
  let c0_i32_905 : BitVec 32 := 0#32
  let c78_i32_903 : BitVec 32 := 78#32
  let c1_i32_904 : BitVec 32 := 1#32
  let v2267 : BitVec 32 := Scalar.muli c78_i32_903 c1_i32_904
  let v2268 : BitVec 32 := Scalar.addi c0_i32_905 v2267
  ![v2268.toNat]
def k0_off827 : Fin 2 → Nat :=
  let c0_i32_905 : BitVec 32 := 0#32
  let c78_i32_903 : BitVec 32 := 78#32
  let c1_i32_904 : BitVec 32 := 1#32
  let v2267 : BitVec 32 := Scalar.muli c78_i32_903 c1_i32_904
  let v2268 : BitVec 32 := Scalar.addi c0_i32_905 v2267
  let c0_i32_906 : BitVec 32 := 0#32
  ![v2268.toNat, 0]
def k0_off828 (v2271 : BitVec 32) : Fin 2 → Nat :=
  let c0_i32_907 : BitVec 32 := 0#32
  ![v2271.toNat, 0]

def k0_chk207 (v2271 : BitVec 32) : Prop :=
  (∀ a, (k0_off828 v2271) a + S1x8000.size a ≤ S8000x8000.size a)
instance k0_chk207.dec : ∀ (v2271 : BitVec 32), Decidable (k0_chk207 v2271) := fun v2271 => decidable_of_iff' _ (Iff.of_eq (k0_chk207.eq_1 v2271))
theorem k0_off828_inb : ∀ (v2271 : BitVec 32) (k0_hw207 : k0_chk207 v2271), ∀ a, (k0_off828 v2271) a + S1x8000.size a ≤ S8000x8000.size a := fun v2271 k0_hw207 => k0_hw207

def k0_off829 (i : grid0.Coords) : Fin 1 → Nat :=
  let arg0 : BitVec 32 := BitVec.ofNat 32 (i 0).val
  let c128_i32 : BitVec 32 := 128#32
  let v0 : BitVec 32 := Scalar.muli arg0 c128_i32
  let c0_i32_910 : BitVec 32 := 0#32
  let c79_i32_908 : BitVec 32 := 79#32
  let c1_i32_909 : BitVec 32 := 1#32
  let v2278 : BitVec 32 := Scalar.muli c79_i32_908 c1_i32_909
  let v2279 : BitVec 32 := Scalar.addi c0_i32_910 v2278
  let v2280 : BitVec 32 := Scalar.addi v0 v2279
  let v2281 : Index := Scalar.indexCast v2280
  ![v2281.toNat]
def k0_off830 : Fin 1 → Nat :=
  let c0_i32_910 : BitVec 32 := 0#32
  let c79_i32_908 : BitVec 32 := 79#32
  let c1_i32_909 : BitVec 32 := 1#32
  let v2278 : BitVec 32 := Scalar.muli c79_i32_908 c1_i32_909
  let v2279 : BitVec 32 := Scalar.addi c0_i32_910 v2278
  ![v2279.toNat]
def k0_off831 : Fin 2 → Nat :=
  let c0_i32_910 : BitVec 32 := 0#32
  let c79_i32_908 : BitVec 32 := 79#32
  let c1_i32_909 : BitVec 32 := 1#32
  let v2278 : BitVec 32 := Scalar.muli c79_i32_908 c1_i32_909
  let v2279 : BitVec 32 := Scalar.addi c0_i32_910 v2278
  let c0_i32_911 : BitVec 32 := 0#32
  ![v2279.toNat, 0]
def k0_off832 (v2282 : BitVec 32) : Fin 2 → Nat :=
  let c0_i32_912 : BitVec 32 := 0#32
  ![v2282.toNat, 0]

def k0_chk208 (v2282 : BitVec 32) : Prop :=
  (∀ a, (k0_off832 v2282) a + S1x8000.size a ≤ S8000x8000.size a)
instance k0_chk208.dec : ∀ (v2282 : BitVec 32), Decidable (k0_chk208 v2282) := fun v2282 => decidable_of_iff' _ (Iff.of_eq (k0_chk208.eq_1 v2282))
theorem k0_off832_inb : ∀ (v2282 : BitVec 32) (k0_hw208 : k0_chk208 v2282), ∀ a, (k0_off832 v2282) a + S1x8000.size a ≤ S8000x8000.size a := fun v2282 k0_hw208 => k0_hw208

def k0_off833 (i : grid0.Coords) : Fin 1 → Nat :=
  let arg0 : BitVec 32 := BitVec.ofNat 32 (i 0).val
  let c128_i32 : BitVec 32 := 128#32
  let v0 : BitVec 32 := Scalar.muli arg0 c128_i32
  let c0_i32_915 : BitVec 32 := 0#32
  let c80_i32_913 : BitVec 32 := 80#32
  let c1_i32_914 : BitVec 32 := 1#32
  let v2289 : BitVec 32 := Scalar.muli c80_i32_913 c1_i32_914
  let v2290 : BitVec 32 := Scalar.addi c0_i32_915 v2289
  let v2291 : BitVec 32 := Scalar.addi v0 v2290
  let v2292 : Index := Scalar.indexCast v2291
  ![v2292.toNat]
def k0_off834 : Fin 1 → Nat :=
  let c0_i32_915 : BitVec 32 := 0#32
  let c80_i32_913 : BitVec 32 := 80#32
  let c1_i32_914 : BitVec 32 := 1#32
  let v2289 : BitVec 32 := Scalar.muli c80_i32_913 c1_i32_914
  let v2290 : BitVec 32 := Scalar.addi c0_i32_915 v2289
  ![v2290.toNat]
def k0_off835 : Fin 2 → Nat :=
  let c0_i32_915 : BitVec 32 := 0#32
  let c80_i32_913 : BitVec 32 := 80#32
  let c1_i32_914 : BitVec 32 := 1#32
  let v2289 : BitVec 32 := Scalar.muli c80_i32_913 c1_i32_914
  let v2290 : BitVec 32 := Scalar.addi c0_i32_915 v2289
  let c0_i32_916 : BitVec 32 := 0#32
  ![v2290.toNat, 0]
def k0_off836 (v2293 : BitVec 32) : Fin 2 → Nat :=
  let c0_i32_917 : BitVec 32 := 0#32
  ![v2293.toNat, 0]

def k0_chk209 (v2293 : BitVec 32) : Prop :=
  (∀ a, (k0_off836 v2293) a + S1x8000.size a ≤ S8000x8000.size a)
instance k0_chk209.dec : ∀ (v2293 : BitVec 32), Decidable (k0_chk209 v2293) := fun v2293 => decidable_of_iff' _ (Iff.of_eq (k0_chk209.eq_1 v2293))
theorem k0_off836_inb : ∀ (v2293 : BitVec 32) (k0_hw209 : k0_chk209 v2293), ∀ a, (k0_off836 v2293) a + S1x8000.size a ≤ S8000x8000.size a := fun v2293 k0_hw209 => k0_hw209

def k0_off837 (i : grid0.Coords) : Fin 1 → Nat :=
  let arg0 : BitVec 32 := BitVec.ofNat 32 (i 0).val
  let c128_i32 : BitVec 32 := 128#32
  let v0 : BitVec 32 := Scalar.muli arg0 c128_i32
  let c0_i32_920 : BitVec 32 := 0#32
  let c81_i32_918 : BitVec 32 := 81#32
  let c1_i32_919 : BitVec 32 := 1#32
  let v2300 : BitVec 32 := Scalar.muli c81_i32_918 c1_i32_919
  let v2301 : BitVec 32 := Scalar.addi c0_i32_920 v2300
  let v2302 : BitVec 32 := Scalar.addi v0 v2301
  let v2303 : Index := Scalar.indexCast v2302
  ![v2303.toNat]
def k0_off838 : Fin 1 → Nat :=
  let c0_i32_920 : BitVec 32 := 0#32
  let c81_i32_918 : BitVec 32 := 81#32
  let c1_i32_919 : BitVec 32 := 1#32
  let v2300 : BitVec 32 := Scalar.muli c81_i32_918 c1_i32_919
  let v2301 : BitVec 32 := Scalar.addi c0_i32_920 v2300
  ![v2301.toNat]
def k0_off839 : Fin 2 → Nat :=
  let c0_i32_920 : BitVec 32 := 0#32
  let c81_i32_918 : BitVec 32 := 81#32
  let c1_i32_919 : BitVec 32 := 1#32
  let v2300 : BitVec 32 := Scalar.muli c81_i32_918 c1_i32_919
  let v2301 : BitVec 32 := Scalar.addi c0_i32_920 v2300
  let c0_i32_921 : BitVec 32 := 0#32
  ![v2301.toNat, 0]
def k0_off840 (v2304 : BitVec 32) : Fin 2 → Nat :=
  let c0_i32_922 : BitVec 32 := 0#32
  ![v2304.toNat, 0]

def k0_chk210 (v2304 : BitVec 32) : Prop :=
  (∀ a, (k0_off840 v2304) a + S1x8000.size a ≤ S8000x8000.size a)
instance k0_chk210.dec : ∀ (v2304 : BitVec 32), Decidable (k0_chk210 v2304) := fun v2304 => decidable_of_iff' _ (Iff.of_eq (k0_chk210.eq_1 v2304))
theorem k0_off840_inb : ∀ (v2304 : BitVec 32) (k0_hw210 : k0_chk210 v2304), ∀ a, (k0_off840 v2304) a + S1x8000.size a ≤ S8000x8000.size a := fun v2304 k0_hw210 => k0_hw210

def k0_off841 (i : grid0.Coords) : Fin 1 → Nat :=
  let arg0 : BitVec 32 := BitVec.ofNat 32 (i 0).val
  let c128_i32 : BitVec 32 := 128#32
  let v0 : BitVec 32 := Scalar.muli arg0 c128_i32
  let c0_i32_925 : BitVec 32 := 0#32
  let c82_i32_923 : BitVec 32 := 82#32
  let c1_i32_924 : BitVec 32 := 1#32
  let v2311 : BitVec 32 := Scalar.muli c82_i32_923 c1_i32_924
  let v2312 : BitVec 32 := Scalar.addi c0_i32_925 v2311
  let v2313 : BitVec 32 := Scalar.addi v0 v2312
  let v2314 : Index := Scalar.indexCast v2313
  ![v2314.toNat]
def k0_off842 : Fin 1 → Nat :=
  let c0_i32_925 : BitVec 32 := 0#32
  let c82_i32_923 : BitVec 32 := 82#32
  let c1_i32_924 : BitVec 32 := 1#32
  let v2311 : BitVec 32 := Scalar.muli c82_i32_923 c1_i32_924
  let v2312 : BitVec 32 := Scalar.addi c0_i32_925 v2311
  ![v2312.toNat]
def k0_off843 : Fin 2 → Nat :=
  let c0_i32_925 : BitVec 32 := 0#32
  let c82_i32_923 : BitVec 32 := 82#32
  let c1_i32_924 : BitVec 32 := 1#32
  let v2311 : BitVec 32 := Scalar.muli c82_i32_923 c1_i32_924
  let v2312 : BitVec 32 := Scalar.addi c0_i32_925 v2311
  let c0_i32_926 : BitVec 32 := 0#32
  ![v2312.toNat, 0]
def k0_off844 (v2315 : BitVec 32) : Fin 2 → Nat :=
  let c0_i32_927 : BitVec 32 := 0#32
  ![v2315.toNat, 0]

def k0_chk211 (v2315 : BitVec 32) : Prop :=
  (∀ a, (k0_off844 v2315) a + S1x8000.size a ≤ S8000x8000.size a)
instance k0_chk211.dec : ∀ (v2315 : BitVec 32), Decidable (k0_chk211 v2315) := fun v2315 => decidable_of_iff' _ (Iff.of_eq (k0_chk211.eq_1 v2315))
theorem k0_off844_inb : ∀ (v2315 : BitVec 32) (k0_hw211 : k0_chk211 v2315), ∀ a, (k0_off844 v2315) a + S1x8000.size a ≤ S8000x8000.size a := fun v2315 k0_hw211 => k0_hw211

def k0_off845 (i : grid0.Coords) : Fin 1 → Nat :=
  let arg0 : BitVec 32 := BitVec.ofNat 32 (i 0).val
  let c128_i32 : BitVec 32 := 128#32
  let v0 : BitVec 32 := Scalar.muli arg0 c128_i32
  let c0_i32_930 : BitVec 32 := 0#32
  let c83_i32_928 : BitVec 32 := 83#32
  let c1_i32_929 : BitVec 32 := 1#32
  let v2322 : BitVec 32 := Scalar.muli c83_i32_928 c1_i32_929
  let v2323 : BitVec 32 := Scalar.addi c0_i32_930 v2322
  let v2324 : BitVec 32 := Scalar.addi v0 v2323
  let v2325 : Index := Scalar.indexCast v2324
  ![v2325.toNat]
def k0_off846 : Fin 1 → Nat :=
  let c0_i32_930 : BitVec 32 := 0#32
  let c83_i32_928 : BitVec 32 := 83#32
  let c1_i32_929 : BitVec 32 := 1#32
  let v2322 : BitVec 32 := Scalar.muli c83_i32_928 c1_i32_929
  let v2323 : BitVec 32 := Scalar.addi c0_i32_930 v2322
  ![v2323.toNat]
def k0_off847 : Fin 2 → Nat :=
  let c0_i32_930 : BitVec 32 := 0#32
  let c83_i32_928 : BitVec 32 := 83#32
  let c1_i32_929 : BitVec 32 := 1#32
  let v2322 : BitVec 32 := Scalar.muli c83_i32_928 c1_i32_929
  let v2323 : BitVec 32 := Scalar.addi c0_i32_930 v2322
  let c0_i32_931 : BitVec 32 := 0#32
  ![v2323.toNat, 0]
def k0_off848 (v2326 : BitVec 32) : Fin 2 → Nat :=
  let c0_i32_932 : BitVec 32 := 0#32
  ![v2326.toNat, 0]

def k0_chk212 (v2326 : BitVec 32) : Prop :=
  (∀ a, (k0_off848 v2326) a + S1x8000.size a ≤ S8000x8000.size a)
instance k0_chk212.dec : ∀ (v2326 : BitVec 32), Decidable (k0_chk212 v2326) := fun v2326 => decidable_of_iff' _ (Iff.of_eq (k0_chk212.eq_1 v2326))
theorem k0_off848_inb : ∀ (v2326 : BitVec 32) (k0_hw212 : k0_chk212 v2326), ∀ a, (k0_off848 v2326) a + S1x8000.size a ≤ S8000x8000.size a := fun v2326 k0_hw212 => k0_hw212

def k0_off849 (i : grid0.Coords) : Fin 1 → Nat :=
  let arg0 : BitVec 32 := BitVec.ofNat 32 (i 0).val
  let c128_i32 : BitVec 32 := 128#32
  let v0 : BitVec 32 := Scalar.muli arg0 c128_i32
  let c0_i32_935 : BitVec 32 := 0#32
  let c84_i32_933 : BitVec 32 := 84#32
  let c1_i32_934 : BitVec 32 := 1#32
  let v2333 : BitVec 32 := Scalar.muli c84_i32_933 c1_i32_934
  let v2334 : BitVec 32 := Scalar.addi c0_i32_935 v2333
  let v2335 : BitVec 32 := Scalar.addi v0 v2334
  let v2336 : Index := Scalar.indexCast v2335
  ![v2336.toNat]
def k0_off850 : Fin 1 → Nat :=
  let c0_i32_935 : BitVec 32 := 0#32
  let c84_i32_933 : BitVec 32 := 84#32
  let c1_i32_934 : BitVec 32 := 1#32
  let v2333 : BitVec 32 := Scalar.muli c84_i32_933 c1_i32_934
  let v2334 : BitVec 32 := Scalar.addi c0_i32_935 v2333
  ![v2334.toNat]
def k0_off851 : Fin 2 → Nat :=
  let c0_i32_935 : BitVec 32 := 0#32
  let c84_i32_933 : BitVec 32 := 84#32
  let c1_i32_934 : BitVec 32 := 1#32
  let v2333 : BitVec 32 := Scalar.muli c84_i32_933 c1_i32_934
  let v2334 : BitVec 32 := Scalar.addi c0_i32_935 v2333
  let c0_i32_936 : BitVec 32 := 0#32
  ![v2334.toNat, 0]
def k0_off852 (v2337 : BitVec 32) : Fin 2 → Nat :=
  let c0_i32_937 : BitVec 32 := 0#32
  ![v2337.toNat, 0]

def k0_chk213 (v2337 : BitVec 32) : Prop :=
  (∀ a, (k0_off852 v2337) a + S1x8000.size a ≤ S8000x8000.size a)
instance k0_chk213.dec : ∀ (v2337 : BitVec 32), Decidable (k0_chk213 v2337) := fun v2337 => decidable_of_iff' _ (Iff.of_eq (k0_chk213.eq_1 v2337))
theorem k0_off852_inb : ∀ (v2337 : BitVec 32) (k0_hw213 : k0_chk213 v2337), ∀ a, (k0_off852 v2337) a + S1x8000.size a ≤ S8000x8000.size a := fun v2337 k0_hw213 => k0_hw213

def k0_off853 (i : grid0.Coords) : Fin 1 → Nat :=
  let arg0 : BitVec 32 := BitVec.ofNat 32 (i 0).val
  let c128_i32 : BitVec 32 := 128#32
  let v0 : BitVec 32 := Scalar.muli arg0 c128_i32
  let c0_i32_940 : BitVec 32 := 0#32
  let c85_i32_938 : BitVec 32 := 85#32
  let c1_i32_939 : BitVec 32 := 1#32
  let v2344 : BitVec 32 := Scalar.muli c85_i32_938 c1_i32_939
  let v2345 : BitVec 32 := Scalar.addi c0_i32_940 v2344
  let v2346 : BitVec 32 := Scalar.addi v0 v2345
  let v2347 : Index := Scalar.indexCast v2346
  ![v2347.toNat]
def k0_off854 : Fin 1 → Nat :=
  let c0_i32_940 : BitVec 32 := 0#32
  let c85_i32_938 : BitVec 32 := 85#32
  let c1_i32_939 : BitVec 32 := 1#32
  let v2344 : BitVec 32 := Scalar.muli c85_i32_938 c1_i32_939
  let v2345 : BitVec 32 := Scalar.addi c0_i32_940 v2344
  ![v2345.toNat]
def k0_off855 : Fin 2 → Nat :=
  let c0_i32_940 : BitVec 32 := 0#32
  let c85_i32_938 : BitVec 32 := 85#32
  let c1_i32_939 : BitVec 32 := 1#32
  let v2344 : BitVec 32 := Scalar.muli c85_i32_938 c1_i32_939
  let v2345 : BitVec 32 := Scalar.addi c0_i32_940 v2344
  let c0_i32_941 : BitVec 32 := 0#32
  ![v2345.toNat, 0]
def k0_off856 (v2348 : BitVec 32) : Fin 2 → Nat :=
  let c0_i32_942 : BitVec 32 := 0#32
  ![v2348.toNat, 0]

def k0_chk214 (v2348 : BitVec 32) : Prop :=
  (∀ a, (k0_off856 v2348) a + S1x8000.size a ≤ S8000x8000.size a)
instance k0_chk214.dec : ∀ (v2348 : BitVec 32), Decidable (k0_chk214 v2348) := fun v2348 => decidable_of_iff' _ (Iff.of_eq (k0_chk214.eq_1 v2348))
theorem k0_off856_inb : ∀ (v2348 : BitVec 32) (k0_hw214 : k0_chk214 v2348), ∀ a, (k0_off856 v2348) a + S1x8000.size a ≤ S8000x8000.size a := fun v2348 k0_hw214 => k0_hw214

def k0_off857 (i : grid0.Coords) : Fin 1 → Nat :=
  let arg0 : BitVec 32 := BitVec.ofNat 32 (i 0).val
  let c128_i32 : BitVec 32 := 128#32
  let v0 : BitVec 32 := Scalar.muli arg0 c128_i32
  let c0_i32_945 : BitVec 32 := 0#32
  let c86_i32_943 : BitVec 32 := 86#32
  let c1_i32_944 : BitVec 32 := 1#32
  let v2355 : BitVec 32 := Scalar.muli c86_i32_943 c1_i32_944
  let v2356 : BitVec 32 := Scalar.addi c0_i32_945 v2355
  let v2357 : BitVec 32 := Scalar.addi v0 v2356
  let v2358 : Index := Scalar.indexCast v2357
  ![v2358.toNat]
def k0_off858 : Fin 1 → Nat :=
  let c0_i32_945 : BitVec 32 := 0#32
  let c86_i32_943 : BitVec 32 := 86#32
  let c1_i32_944 : BitVec 32 := 1#32
  let v2355 : BitVec 32 := Scalar.muli c86_i32_943 c1_i32_944
  let v2356 : BitVec 32 := Scalar.addi c0_i32_945 v2355
  ![v2356.toNat]
def k0_off859 : Fin 2 → Nat :=
  let c0_i32_945 : BitVec 32 := 0#32
  let c86_i32_943 : BitVec 32 := 86#32
  let c1_i32_944 : BitVec 32 := 1#32
  let v2355 : BitVec 32 := Scalar.muli c86_i32_943 c1_i32_944
  let v2356 : BitVec 32 := Scalar.addi c0_i32_945 v2355
  let c0_i32_946 : BitVec 32 := 0#32
  ![v2356.toNat, 0]
def k0_off860 (v2359 : BitVec 32) : Fin 2 → Nat :=
  let c0_i32_947 : BitVec 32 := 0#32
  ![v2359.toNat, 0]

def k0_chk215 (v2359 : BitVec 32) : Prop :=
  (∀ a, (k0_off860 v2359) a + S1x8000.size a ≤ S8000x8000.size a)
instance k0_chk215.dec : ∀ (v2359 : BitVec 32), Decidable (k0_chk215 v2359) := fun v2359 => decidable_of_iff' _ (Iff.of_eq (k0_chk215.eq_1 v2359))
theorem k0_off860_inb : ∀ (v2359 : BitVec 32) (k0_hw215 : k0_chk215 v2359), ∀ a, (k0_off860 v2359) a + S1x8000.size a ≤ S8000x8000.size a := fun v2359 k0_hw215 => k0_hw215

def k0_off861 (i : grid0.Coords) : Fin 1 → Nat :=
  let arg0 : BitVec 32 := BitVec.ofNat 32 (i 0).val
  let c128_i32 : BitVec 32 := 128#32
  let v0 : BitVec 32 := Scalar.muli arg0 c128_i32
  let c0_i32_950 : BitVec 32 := 0#32
  let c87_i32_948 : BitVec 32 := 87#32
  let c1_i32_949 : BitVec 32 := 1#32
  let v2366 : BitVec 32 := Scalar.muli c87_i32_948 c1_i32_949
  let v2367 : BitVec 32 := Scalar.addi c0_i32_950 v2366
  let v2368 : BitVec 32 := Scalar.addi v0 v2367
  let v2369 : Index := Scalar.indexCast v2368
  ![v2369.toNat]
def k0_off862 : Fin 1 → Nat :=
  let c0_i32_950 : BitVec 32 := 0#32
  let c87_i32_948 : BitVec 32 := 87#32
  let c1_i32_949 : BitVec 32 := 1#32
  let v2366 : BitVec 32 := Scalar.muli c87_i32_948 c1_i32_949
  let v2367 : BitVec 32 := Scalar.addi c0_i32_950 v2366
  ![v2367.toNat]
def k0_off863 : Fin 2 → Nat :=
  let c0_i32_950 : BitVec 32 := 0#32
  let c87_i32_948 : BitVec 32 := 87#32
  let c1_i32_949 : BitVec 32 := 1#32
  let v2366 : BitVec 32 := Scalar.muli c87_i32_948 c1_i32_949
  let v2367 : BitVec 32 := Scalar.addi c0_i32_950 v2366
  let c0_i32_951 : BitVec 32 := 0#32
  ![v2367.toNat, 0]
def k0_off864 (v2370 : BitVec 32) : Fin 2 → Nat :=
  let c0_i32_952 : BitVec 32 := 0#32
  ![v2370.toNat, 0]

def k0_chk216 (v2370 : BitVec 32) : Prop :=
  (∀ a, (k0_off864 v2370) a + S1x8000.size a ≤ S8000x8000.size a)
instance k0_chk216.dec : ∀ (v2370 : BitVec 32), Decidable (k0_chk216 v2370) := fun v2370 => decidable_of_iff' _ (Iff.of_eq (k0_chk216.eq_1 v2370))
theorem k0_off864_inb : ∀ (v2370 : BitVec 32) (k0_hw216 : k0_chk216 v2370), ∀ a, (k0_off864 v2370) a + S1x8000.size a ≤ S8000x8000.size a := fun v2370 k0_hw216 => k0_hw216

def k0_off865 (i : grid0.Coords) : Fin 1 → Nat :=
  let arg0 : BitVec 32 := BitVec.ofNat 32 (i 0).val
  let c128_i32 : BitVec 32 := 128#32
  let v0 : BitVec 32 := Scalar.muli arg0 c128_i32
  let c0_i32_955 : BitVec 32 := 0#32
  let c88_i32_953 : BitVec 32 := 88#32
  let c1_i32_954 : BitVec 32 := 1#32
  let v2377 : BitVec 32 := Scalar.muli c88_i32_953 c1_i32_954
  let v2378 : BitVec 32 := Scalar.addi c0_i32_955 v2377
  let v2379 : BitVec 32 := Scalar.addi v0 v2378
  let v2380 : Index := Scalar.indexCast v2379
  ![v2380.toNat]
def k0_off866 : Fin 1 → Nat :=
  let c0_i32_955 : BitVec 32 := 0#32
  let c88_i32_953 : BitVec 32 := 88#32
  let c1_i32_954 : BitVec 32 := 1#32
  let v2377 : BitVec 32 := Scalar.muli c88_i32_953 c1_i32_954
  let v2378 : BitVec 32 := Scalar.addi c0_i32_955 v2377
  ![v2378.toNat]
def k0_off867 : Fin 2 → Nat :=
  let c0_i32_955 : BitVec 32 := 0#32
  let c88_i32_953 : BitVec 32 := 88#32
  let c1_i32_954 : BitVec 32 := 1#32
  let v2377 : BitVec 32 := Scalar.muli c88_i32_953 c1_i32_954
  let v2378 : BitVec 32 := Scalar.addi c0_i32_955 v2377
  let c0_i32_956 : BitVec 32 := 0#32
  ![v2378.toNat, 0]
def k0_off868 (v2381 : BitVec 32) : Fin 2 → Nat :=
  let c0_i32_957 : BitVec 32 := 0#32
  ![v2381.toNat, 0]

def k0_chk217 (v2381 : BitVec 32) : Prop :=
  (∀ a, (k0_off868 v2381) a + S1x8000.size a ≤ S8000x8000.size a)
instance k0_chk217.dec : ∀ (v2381 : BitVec 32), Decidable (k0_chk217 v2381) := fun v2381 => decidable_of_iff' _ (Iff.of_eq (k0_chk217.eq_1 v2381))
theorem k0_off868_inb : ∀ (v2381 : BitVec 32) (k0_hw217 : k0_chk217 v2381), ∀ a, (k0_off868 v2381) a + S1x8000.size a ≤ S8000x8000.size a := fun v2381 k0_hw217 => k0_hw217

def k0_off869 (i : grid0.Coords) : Fin 1 → Nat :=
  let arg0 : BitVec 32 := BitVec.ofNat 32 (i 0).val
  let c128_i32 : BitVec 32 := 128#32
  let v0 : BitVec 32 := Scalar.muli arg0 c128_i32
  let c0_i32_960 : BitVec 32 := 0#32
  let c89_i32_958 : BitVec 32 := 89#32
  let c1_i32_959 : BitVec 32 := 1#32
  let v2388 : BitVec 32 := Scalar.muli c89_i32_958 c1_i32_959
  let v2389 : BitVec 32 := Scalar.addi c0_i32_960 v2388
  let v2390 : BitVec 32 := Scalar.addi v0 v2389
  let v2391 : Index := Scalar.indexCast v2390
  ![v2391.toNat]
def k0_off870 : Fin 1 → Nat :=
  let c0_i32_960 : BitVec 32 := 0#32
  let c89_i32_958 : BitVec 32 := 89#32
  let c1_i32_959 : BitVec 32 := 1#32
  let v2388 : BitVec 32 := Scalar.muli c89_i32_958 c1_i32_959
  let v2389 : BitVec 32 := Scalar.addi c0_i32_960 v2388
  ![v2389.toNat]
def k0_off871 : Fin 2 → Nat :=
  let c0_i32_960 : BitVec 32 := 0#32
  let c89_i32_958 : BitVec 32 := 89#32
  let c1_i32_959 : BitVec 32 := 1#32
  let v2388 : BitVec 32 := Scalar.muli c89_i32_958 c1_i32_959
  let v2389 : BitVec 32 := Scalar.addi c0_i32_960 v2388
  let c0_i32_961 : BitVec 32 := 0#32
  ![v2389.toNat, 0]
def k0_off872 (v2392 : BitVec 32) : Fin 2 → Nat :=
  let c0_i32_962 : BitVec 32 := 0#32
  ![v2392.toNat, 0]

def k0_chk218 (v2392 : BitVec 32) : Prop :=
  (∀ a, (k0_off872 v2392) a + S1x8000.size a ≤ S8000x8000.size a)
instance k0_chk218.dec : ∀ (v2392 : BitVec 32), Decidable (k0_chk218 v2392) := fun v2392 => decidable_of_iff' _ (Iff.of_eq (k0_chk218.eq_1 v2392))
theorem k0_off872_inb : ∀ (v2392 : BitVec 32) (k0_hw218 : k0_chk218 v2392), ∀ a, (k0_off872 v2392) a + S1x8000.size a ≤ S8000x8000.size a := fun v2392 k0_hw218 => k0_hw218

def k0_off873 (i : grid0.Coords) : Fin 1 → Nat :=
  let arg0 : BitVec 32 := BitVec.ofNat 32 (i 0).val
  let c128_i32 : BitVec 32 := 128#32
  let v0 : BitVec 32 := Scalar.muli arg0 c128_i32
  let c0_i32_965 : BitVec 32 := 0#32
  let c90_i32_963 : BitVec 32 := 90#32
  let c1_i32_964 : BitVec 32 := 1#32
  let v2399 : BitVec 32 := Scalar.muli c90_i32_963 c1_i32_964
  let v2400 : BitVec 32 := Scalar.addi c0_i32_965 v2399
  let v2401 : BitVec 32 := Scalar.addi v0 v2400
  let v2402 : Index := Scalar.indexCast v2401
  ![v2402.toNat]
def k0_off874 : Fin 1 → Nat :=
  let c0_i32_965 : BitVec 32 := 0#32
  let c90_i32_963 : BitVec 32 := 90#32
  let c1_i32_964 : BitVec 32 := 1#32
  let v2399 : BitVec 32 := Scalar.muli c90_i32_963 c1_i32_964
  let v2400 : BitVec 32 := Scalar.addi c0_i32_965 v2399
  ![v2400.toNat]
def k0_off875 : Fin 2 → Nat :=
  let c0_i32_965 : BitVec 32 := 0#32
  let c90_i32_963 : BitVec 32 := 90#32
  let c1_i32_964 : BitVec 32 := 1#32
  let v2399 : BitVec 32 := Scalar.muli c90_i32_963 c1_i32_964
  let v2400 : BitVec 32 := Scalar.addi c0_i32_965 v2399
  let c0_i32_966 : BitVec 32 := 0#32
  ![v2400.toNat, 0]
def k0_off876 (v2403 : BitVec 32) : Fin 2 → Nat :=
  let c0_i32_967 : BitVec 32 := 0#32
  ![v2403.toNat, 0]

def k0_chk219 (v2403 : BitVec 32) : Prop :=
  (∀ a, (k0_off876 v2403) a + S1x8000.size a ≤ S8000x8000.size a)
instance k0_chk219.dec : ∀ (v2403 : BitVec 32), Decidable (k0_chk219 v2403) := fun v2403 => decidable_of_iff' _ (Iff.of_eq (k0_chk219.eq_1 v2403))
theorem k0_off876_inb : ∀ (v2403 : BitVec 32) (k0_hw219 : k0_chk219 v2403), ∀ a, (k0_off876 v2403) a + S1x8000.size a ≤ S8000x8000.size a := fun v2403 k0_hw219 => k0_hw219

def k0_off877 (i : grid0.Coords) : Fin 1 → Nat :=
  let arg0 : BitVec 32 := BitVec.ofNat 32 (i 0).val
  let c128_i32 : BitVec 32 := 128#32
  let v0 : BitVec 32 := Scalar.muli arg0 c128_i32
  let c0_i32_970 : BitVec 32 := 0#32
  let c91_i32_968 : BitVec 32 := 91#32
  let c1_i32_969 : BitVec 32 := 1#32
  let v2410 : BitVec 32 := Scalar.muli c91_i32_968 c1_i32_969
  let v2411 : BitVec 32 := Scalar.addi c0_i32_970 v2410
  let v2412 : BitVec 32 := Scalar.addi v0 v2411
  let v2413 : Index := Scalar.indexCast v2412
  ![v2413.toNat]
def k0_off878 : Fin 1 → Nat :=
  let c0_i32_970 : BitVec 32 := 0#32
  let c91_i32_968 : BitVec 32 := 91#32
  let c1_i32_969 : BitVec 32 := 1#32
  let v2410 : BitVec 32 := Scalar.muli c91_i32_968 c1_i32_969
  let v2411 : BitVec 32 := Scalar.addi c0_i32_970 v2410
  ![v2411.toNat]
def k0_off879 : Fin 2 → Nat :=
  let c0_i32_970 : BitVec 32 := 0#32
  let c91_i32_968 : BitVec 32 := 91#32
  let c1_i32_969 : BitVec 32 := 1#32
  let v2410 : BitVec 32 := Scalar.muli c91_i32_968 c1_i32_969
  let v2411 : BitVec 32 := Scalar.addi c0_i32_970 v2410
  let c0_i32_971 : BitVec 32 := 0#32
  ![v2411.toNat, 0]
def k0_off880 (v2414 : BitVec 32) : Fin 2 → Nat :=
  let c0_i32_972 : BitVec 32 := 0#32
  ![v2414.toNat, 0]

def k0_chk220 (v2414 : BitVec 32) : Prop :=
  (∀ a, (k0_off880 v2414) a + S1x8000.size a ≤ S8000x8000.size a)
instance k0_chk220.dec : ∀ (v2414 : BitVec 32), Decidable (k0_chk220 v2414) := fun v2414 => decidable_of_iff' _ (Iff.of_eq (k0_chk220.eq_1 v2414))
theorem k0_off880_inb : ∀ (v2414 : BitVec 32) (k0_hw220 : k0_chk220 v2414), ∀ a, (k0_off880 v2414) a + S1x8000.size a ≤ S8000x8000.size a := fun v2414 k0_hw220 => k0_hw220

def k0_off881 (i : grid0.Coords) : Fin 1 → Nat :=
  let arg0 : BitVec 32 := BitVec.ofNat 32 (i 0).val
  let c128_i32 : BitVec 32 := 128#32
  let v0 : BitVec 32 := Scalar.muli arg0 c128_i32
  let c0_i32_975 : BitVec 32 := 0#32
  let c92_i32_973 : BitVec 32 := 92#32
  let c1_i32_974 : BitVec 32 := 1#32
  let v2421 : BitVec 32 := Scalar.muli c92_i32_973 c1_i32_974
  let v2422 : BitVec 32 := Scalar.addi c0_i32_975 v2421
  let v2423 : BitVec 32 := Scalar.addi v0 v2422
  let v2424 : Index := Scalar.indexCast v2423
  ![v2424.toNat]
def k0_off882 : Fin 1 → Nat :=
  let c0_i32_975 : BitVec 32 := 0#32
  let c92_i32_973 : BitVec 32 := 92#32
  let c1_i32_974 : BitVec 32 := 1#32
  let v2421 : BitVec 32 := Scalar.muli c92_i32_973 c1_i32_974
  let v2422 : BitVec 32 := Scalar.addi c0_i32_975 v2421
  ![v2422.toNat]
def k0_off883 : Fin 2 → Nat :=
  let c0_i32_975 : BitVec 32 := 0#32
  let c92_i32_973 : BitVec 32 := 92#32
  let c1_i32_974 : BitVec 32 := 1#32
  let v2421 : BitVec 32 := Scalar.muli c92_i32_973 c1_i32_974
  let v2422 : BitVec 32 := Scalar.addi c0_i32_975 v2421
  let c0_i32_976 : BitVec 32 := 0#32
  ![v2422.toNat, 0]
def k0_off884 (v2425 : BitVec 32) : Fin 2 → Nat :=
  let c0_i32_977 : BitVec 32 := 0#32
  ![v2425.toNat, 0]

def k0_chk221 (v2425 : BitVec 32) : Prop :=
  (∀ a, (k0_off884 v2425) a + S1x8000.size a ≤ S8000x8000.size a)
instance k0_chk221.dec : ∀ (v2425 : BitVec 32), Decidable (k0_chk221 v2425) := fun v2425 => decidable_of_iff' _ (Iff.of_eq (k0_chk221.eq_1 v2425))
theorem k0_off884_inb : ∀ (v2425 : BitVec 32) (k0_hw221 : k0_chk221 v2425), ∀ a, (k0_off884 v2425) a + S1x8000.size a ≤ S8000x8000.size a := fun v2425 k0_hw221 => k0_hw221

def k0_off885 (i : grid0.Coords) : Fin 1 → Nat :=
  let arg0 : BitVec 32 := BitVec.ofNat 32 (i 0).val
  let c128_i32 : BitVec 32 := 128#32
  let v0 : BitVec 32 := Scalar.muli arg0 c128_i32
  let c0_i32_980 : BitVec 32 := 0#32
  let c93_i32_978 : BitVec 32 := 93#32
  let c1_i32_979 : BitVec 32 := 1#32
  let v2432 : BitVec 32 := Scalar.muli c93_i32_978 c1_i32_979
  let v2433 : BitVec 32 := Scalar.addi c0_i32_980 v2432
  let v2434 : BitVec 32 := Scalar.addi v0 v2433
  let v2435 : Index := Scalar.indexCast v2434
  ![v2435.toNat]
def k0_off886 : Fin 1 → Nat :=
  let c0_i32_980 : BitVec 32 := 0#32
  let c93_i32_978 : BitVec 32 := 93#32
  let c1_i32_979 : BitVec 32 := 1#32
  let v2432 : BitVec 32 := Scalar.muli c93_i32_978 c1_i32_979
  let v2433 : BitVec 32 := Scalar.addi c0_i32_980 v2432
  ![v2433.toNat]
def k0_off887 : Fin 2 → Nat :=
  let c0_i32_980 : BitVec 32 := 0#32
  let c93_i32_978 : BitVec 32 := 93#32
  let c1_i32_979 : BitVec 32 := 1#32
  let v2432 : BitVec 32 := Scalar.muli c93_i32_978 c1_i32_979
  let v2433 : BitVec 32 := Scalar.addi c0_i32_980 v2432
  let c0_i32_981 : BitVec 32 := 0#32
  ![v2433.toNat, 0]
def k0_off888 (v2436 : BitVec 32) : Fin 2 → Nat :=
  let c0_i32_982 : BitVec 32 := 0#32
  ![v2436.toNat, 0]

def k0_chk222 (v2436 : BitVec 32) : Prop :=
  (∀ a, (k0_off888 v2436) a + S1x8000.size a ≤ S8000x8000.size a)
instance k0_chk222.dec : ∀ (v2436 : BitVec 32), Decidable (k0_chk222 v2436) := fun v2436 => decidable_of_iff' _ (Iff.of_eq (k0_chk222.eq_1 v2436))
theorem k0_off888_inb : ∀ (v2436 : BitVec 32) (k0_hw222 : k0_chk222 v2436), ∀ a, (k0_off888 v2436) a + S1x8000.size a ≤ S8000x8000.size a := fun v2436 k0_hw222 => k0_hw222

def k0_off889 (i : grid0.Coords) : Fin 1 → Nat :=
  let arg0 : BitVec 32 := BitVec.ofNat 32 (i 0).val
  let c128_i32 : BitVec 32 := 128#32
  let v0 : BitVec 32 := Scalar.muli arg0 c128_i32
  let c0_i32_985 : BitVec 32 := 0#32
  let c94_i32_983 : BitVec 32 := 94#32
  let c1_i32_984 : BitVec 32 := 1#32
  let v2443 : BitVec 32 := Scalar.muli c94_i32_983 c1_i32_984
  let v2444 : BitVec 32 := Scalar.addi c0_i32_985 v2443
  let v2445 : BitVec 32 := Scalar.addi v0 v2444
  let v2446 : Index := Scalar.indexCast v2445
  ![v2446.toNat]
def k0_off890 : Fin 1 → Nat :=
  let c0_i32_985 : BitVec 32 := 0#32
  let c94_i32_983 : BitVec 32 := 94#32
  let c1_i32_984 : BitVec 32 := 1#32
  let v2443 : BitVec 32 := Scalar.muli c94_i32_983 c1_i32_984
  let v2444 : BitVec 32 := Scalar.addi c0_i32_985 v2443
  ![v2444.toNat]
def k0_off891 : Fin 2 → Nat :=
  let c0_i32_985 : BitVec 32 := 0#32
  let c94_i32_983 : BitVec 32 := 94#32
  let c1_i32_984 : BitVec 32 := 1#32
  let v2443 : BitVec 32 := Scalar.muli c94_i32_983 c1_i32_984
  let v2444 : BitVec 32 := Scalar.addi c0_i32_985 v2443
  let c0_i32_986 : BitVec 32 := 0#32
  ![v2444.toNat, 0]
def k0_off892 (v2447 : BitVec 32) : Fin 2 → Nat :=
  let c0_i32_987 : BitVec 32 := 0#32
  ![v2447.toNat, 0]

def k0_chk223 (v2447 : BitVec 32) : Prop :=
  (∀ a, (k0_off892 v2447) a + S1x8000.size a ≤ S8000x8000.size a)
instance k0_chk223.dec : ∀ (v2447 : BitVec 32), Decidable (k0_chk223 v2447) := fun v2447 => decidable_of_iff' _ (Iff.of_eq (k0_chk223.eq_1 v2447))
theorem k0_off892_inb : ∀ (v2447 : BitVec 32) (k0_hw223 : k0_chk223 v2447), ∀ a, (k0_off892 v2447) a + S1x8000.size a ≤ S8000x8000.size a := fun v2447 k0_hw223 => k0_hw223

def k0_off893 (i : grid0.Coords) : Fin 1 → Nat :=
  let arg0 : BitVec 32 := BitVec.ofNat 32 (i 0).val
  let c128_i32 : BitVec 32 := 128#32
  let v0 : BitVec 32 := Scalar.muli arg0 c128_i32
  let c0_i32_990 : BitVec 32 := 0#32
  let c95_i32_988 : BitVec 32 := 95#32
  let c1_i32_989 : BitVec 32 := 1#32
  let v2454 : BitVec 32 := Scalar.muli c95_i32_988 c1_i32_989
  let v2455 : BitVec 32 := Scalar.addi c0_i32_990 v2454
  let v2456 : BitVec 32 := Scalar.addi v0 v2455
  let v2457 : Index := Scalar.indexCast v2456
  ![v2457.toNat]
def k0_off894 : Fin 1 → Nat :=
  let c0_i32_990 : BitVec 32 := 0#32
  let c95_i32_988 : BitVec 32 := 95#32
  let c1_i32_989 : BitVec 32 := 1#32
  let v2454 : BitVec 32 := Scalar.muli c95_i32_988 c1_i32_989
  let v2455 : BitVec 32 := Scalar.addi c0_i32_990 v2454
  ![v2455.toNat]
def k0_off895 : Fin 2 → Nat :=
  let c0_i32_990 : BitVec 32 := 0#32
  let c95_i32_988 : BitVec 32 := 95#32
  let c1_i32_989 : BitVec 32 := 1#32
  let v2454 : BitVec 32 := Scalar.muli c95_i32_988 c1_i32_989
  let v2455 : BitVec 32 := Scalar.addi c0_i32_990 v2454
  let c0_i32_991 : BitVec 32 := 0#32
  ![v2455.toNat, 0]
def k0_off896 (v2458 : BitVec 32) : Fin 2 → Nat :=
  let c0_i32_992 : BitVec 32 := 0#32
  ![v2458.toNat, 0]

def k0_chk224 (v2458 : BitVec 32) : Prop :=
  (∀ a, (k0_off896 v2458) a + S1x8000.size a ≤ S8000x8000.size a)
instance k0_chk224.dec : ∀ (v2458 : BitVec 32), Decidable (k0_chk224 v2458) := fun v2458 => decidable_of_iff' _ (Iff.of_eq (k0_chk224.eq_1 v2458))
theorem k0_off896_inb : ∀ (v2458 : BitVec 32) (k0_hw224 : k0_chk224 v2458), ∀ a, (k0_off896 v2458) a + S1x8000.size a ≤ S8000x8000.size a := fun v2458 k0_hw224 => k0_hw224

def k0_off897 (i : grid0.Coords) : Fin 1 → Nat :=
  let arg0 : BitVec 32 := BitVec.ofNat 32 (i 0).val
  let c128_i32 : BitVec 32 := 128#32
  let v0 : BitVec 32 := Scalar.muli arg0 c128_i32
  let c0_i32_995 : BitVec 32 := 0#32
  let c96_i32_993 : BitVec 32 := 96#32
  let c1_i32_994 : BitVec 32 := 1#32
  let v2465 : BitVec 32 := Scalar.muli c96_i32_993 c1_i32_994
  let v2466 : BitVec 32 := Scalar.addi c0_i32_995 v2465
  let v2467 : BitVec 32 := Scalar.addi v0 v2466
  let v2468 : Index := Scalar.indexCast v2467
  ![v2468.toNat]
def k0_off898 : Fin 1 → Nat :=
  let c0_i32_995 : BitVec 32 := 0#32
  let c96_i32_993 : BitVec 32 := 96#32
  let c1_i32_994 : BitVec 32 := 1#32
  let v2465 : BitVec 32 := Scalar.muli c96_i32_993 c1_i32_994
  let v2466 : BitVec 32 := Scalar.addi c0_i32_995 v2465
  ![v2466.toNat]
def k0_off899 : Fin 2 → Nat :=
  let c0_i32_995 : BitVec 32 := 0#32
  let c96_i32_993 : BitVec 32 := 96#32
  let c1_i32_994 : BitVec 32 := 1#32
  let v2465 : BitVec 32 := Scalar.muli c96_i32_993 c1_i32_994
  let v2466 : BitVec 32 := Scalar.addi c0_i32_995 v2465
  let c0_i32_996 : BitVec 32 := 0#32
  ![v2466.toNat, 0]
def k0_off900 (v2469 : BitVec 32) : Fin 2 → Nat :=
  let c0_i32_997 : BitVec 32 := 0#32
  ![v2469.toNat, 0]

def k0_chk225 (v2469 : BitVec 32) : Prop :=
  (∀ a, (k0_off900 v2469) a + S1x8000.size a ≤ S8000x8000.size a)
instance k0_chk225.dec : ∀ (v2469 : BitVec 32), Decidable (k0_chk225 v2469) := fun v2469 => decidable_of_iff' _ (Iff.of_eq (k0_chk225.eq_1 v2469))
theorem k0_off900_inb : ∀ (v2469 : BitVec 32) (k0_hw225 : k0_chk225 v2469), ∀ a, (k0_off900 v2469) a + S1x8000.size a ≤ S8000x8000.size a := fun v2469 k0_hw225 => k0_hw225

def k0_off901 (i : grid0.Coords) : Fin 1 → Nat :=
  let arg0 : BitVec 32 := BitVec.ofNat 32 (i 0).val
  let c128_i32 : BitVec 32 := 128#32
  let v0 : BitVec 32 := Scalar.muli arg0 c128_i32
  let c0_i32_1000 : BitVec 32 := 0#32
  let c97_i32_998 : BitVec 32 := 97#32
  let c1_i32_999 : BitVec 32 := 1#32
  let v2476 : BitVec 32 := Scalar.muli c97_i32_998 c1_i32_999
  let v2477 : BitVec 32 := Scalar.addi c0_i32_1000 v2476
  let v2478 : BitVec 32 := Scalar.addi v0 v2477
  let v2479 : Index := Scalar.indexCast v2478
  ![v2479.toNat]
def k0_off902 : Fin 1 → Nat :=
  let c0_i32_1000 : BitVec 32 := 0#32
  let c97_i32_998 : BitVec 32 := 97#32
  let c1_i32_999 : BitVec 32 := 1#32
  let v2476 : BitVec 32 := Scalar.muli c97_i32_998 c1_i32_999
  let v2477 : BitVec 32 := Scalar.addi c0_i32_1000 v2476
  ![v2477.toNat]
def k0_off903 : Fin 2 → Nat :=
  let c0_i32_1000 : BitVec 32 := 0#32
  let c97_i32_998 : BitVec 32 := 97#32
  let c1_i32_999 : BitVec 32 := 1#32
  let v2476 : BitVec 32 := Scalar.muli c97_i32_998 c1_i32_999
  let v2477 : BitVec 32 := Scalar.addi c0_i32_1000 v2476
  let c0_i32_1001 : BitVec 32 := 0#32
  ![v2477.toNat, 0]
def k0_off904 (v2480 : BitVec 32) : Fin 2 → Nat :=
  let c0_i32_1002 : BitVec 32 := 0#32
  ![v2480.toNat, 0]

def k0_chk226 (v2480 : BitVec 32) : Prop :=
  (∀ a, (k0_off904 v2480) a + S1x8000.size a ≤ S8000x8000.size a)
instance k0_chk226.dec : ∀ (v2480 : BitVec 32), Decidable (k0_chk226 v2480) := fun v2480 => decidable_of_iff' _ (Iff.of_eq (k0_chk226.eq_1 v2480))
theorem k0_off904_inb : ∀ (v2480 : BitVec 32) (k0_hw226 : k0_chk226 v2480), ∀ a, (k0_off904 v2480) a + S1x8000.size a ≤ S8000x8000.size a := fun v2480 k0_hw226 => k0_hw226

def k0_off905 (i : grid0.Coords) : Fin 1 → Nat :=
  let arg0 : BitVec 32 := BitVec.ofNat 32 (i 0).val
  let c128_i32 : BitVec 32 := 128#32
  let v0 : BitVec 32 := Scalar.muli arg0 c128_i32
  let c0_i32_1005 : BitVec 32 := 0#32
  let c98_i32_1003 : BitVec 32 := 98#32
  let c1_i32_1004 : BitVec 32 := 1#32
  let v2487 : BitVec 32 := Scalar.muli c98_i32_1003 c1_i32_1004
  let v2488 : BitVec 32 := Scalar.addi c0_i32_1005 v2487
  let v2489 : BitVec 32 := Scalar.addi v0 v2488
  let v2490 : Index := Scalar.indexCast v2489
  ![v2490.toNat]
def k0_off906 : Fin 1 → Nat :=
  let c0_i32_1005 : BitVec 32 := 0#32
  let c98_i32_1003 : BitVec 32 := 98#32
  let c1_i32_1004 : BitVec 32 := 1#32
  let v2487 : BitVec 32 := Scalar.muli c98_i32_1003 c1_i32_1004
  let v2488 : BitVec 32 := Scalar.addi c0_i32_1005 v2487
  ![v2488.toNat]
def k0_off907 : Fin 2 → Nat :=
  let c0_i32_1005 : BitVec 32 := 0#32
  let c98_i32_1003 : BitVec 32 := 98#32
  let c1_i32_1004 : BitVec 32 := 1#32
  let v2487 : BitVec 32 := Scalar.muli c98_i32_1003 c1_i32_1004
  let v2488 : BitVec 32 := Scalar.addi c0_i32_1005 v2487
  let c0_i32_1006 : BitVec 32 := 0#32
  ![v2488.toNat, 0]
def k0_off908 (v2491 : BitVec 32) : Fin 2 → Nat :=
  let c0_i32_1007 : BitVec 32 := 0#32
  ![v2491.toNat, 0]

def k0_chk227 (v2491 : BitVec 32) : Prop :=
  (∀ a, (k0_off908 v2491) a + S1x8000.size a ≤ S8000x8000.size a)
instance k0_chk227.dec : ∀ (v2491 : BitVec 32), Decidable (k0_chk227 v2491) := fun v2491 => decidable_of_iff' _ (Iff.of_eq (k0_chk227.eq_1 v2491))
theorem k0_off908_inb : ∀ (v2491 : BitVec 32) (k0_hw227 : k0_chk227 v2491), ∀ a, (k0_off908 v2491) a + S1x8000.size a ≤ S8000x8000.size a := fun v2491 k0_hw227 => k0_hw227

def k0_off909 (i : grid0.Coords) : Fin 1 → Nat :=
  let arg0 : BitVec 32 := BitVec.ofNat 32 (i 0).val
  let c128_i32 : BitVec 32 := 128#32
  let v0 : BitVec 32 := Scalar.muli arg0 c128_i32
  let c0_i32_1010 : BitVec 32 := 0#32
  let c99_i32_1008 : BitVec 32 := 99#32
  let c1_i32_1009 : BitVec 32 := 1#32
  let v2498 : BitVec 32 := Scalar.muli c99_i32_1008 c1_i32_1009
  let v2499 : BitVec 32 := Scalar.addi c0_i32_1010 v2498
  let v2500 : BitVec 32 := Scalar.addi v0 v2499
  let v2501 : Index := Scalar.indexCast v2500
  ![v2501.toNat]
def k0_off910 : Fin 1 → Nat :=
  let c0_i32_1010 : BitVec 32 := 0#32
  let c99_i32_1008 : BitVec 32 := 99#32
  let c1_i32_1009 : BitVec 32 := 1#32
  let v2498 : BitVec 32 := Scalar.muli c99_i32_1008 c1_i32_1009
  let v2499 : BitVec 32 := Scalar.addi c0_i32_1010 v2498
  ![v2499.toNat]
def k0_off911 : Fin 2 → Nat :=
  let c0_i32_1010 : BitVec 32 := 0#32
  let c99_i32_1008 : BitVec 32 := 99#32
  let c1_i32_1009 : BitVec 32 := 1#32
  let v2498 : BitVec 32 := Scalar.muli c99_i32_1008 c1_i32_1009
  let v2499 : BitVec 32 := Scalar.addi c0_i32_1010 v2498
  let c0_i32_1011 : BitVec 32 := 0#32
  ![v2499.toNat, 0]
def k0_off912 (v2502 : BitVec 32) : Fin 2 → Nat :=
  let c0_i32_1012 : BitVec 32 := 0#32
  ![v2502.toNat, 0]

def k0_chk228 (v2502 : BitVec 32) : Prop :=
  (∀ a, (k0_off912 v2502) a + S1x8000.size a ≤ S8000x8000.size a)
instance k0_chk228.dec : ∀ (v2502 : BitVec 32), Decidable (k0_chk228 v2502) := fun v2502 => decidable_of_iff' _ (Iff.of_eq (k0_chk228.eq_1 v2502))
theorem k0_off912_inb : ∀ (v2502 : BitVec 32) (k0_hw228 : k0_chk228 v2502), ∀ a, (k0_off912 v2502) a + S1x8000.size a ≤ S8000x8000.size a := fun v2502 k0_hw228 => k0_hw228

def k0_off913 (i : grid0.Coords) : Fin 1 → Nat :=
  let arg0 : BitVec 32 := BitVec.ofNat 32 (i 0).val
  let c128_i32 : BitVec 32 := 128#32
  let v0 : BitVec 32 := Scalar.muli arg0 c128_i32
  let c0_i32_1015 : BitVec 32 := 0#32
  let c100_i32_1013 : BitVec 32 := 100#32
  let c1_i32_1014 : BitVec 32 := 1#32
  let v2509 : BitVec 32 := Scalar.muli c100_i32_1013 c1_i32_1014
  let v2510 : BitVec 32 := Scalar.addi c0_i32_1015 v2509
  let v2511 : BitVec 32 := Scalar.addi v0 v2510
  let v2512 : Index := Scalar.indexCast v2511
  ![v2512.toNat]
def k0_off914 : Fin 1 → Nat :=
  let c0_i32_1015 : BitVec 32 := 0#32
  let c100_i32_1013 : BitVec 32 := 100#32
  let c1_i32_1014 : BitVec 32 := 1#32
  let v2509 : BitVec 32 := Scalar.muli c100_i32_1013 c1_i32_1014
  let v2510 : BitVec 32 := Scalar.addi c0_i32_1015 v2509
  ![v2510.toNat]
def k0_off915 : Fin 2 → Nat :=
  let c0_i32_1015 : BitVec 32 := 0#32
  let c100_i32_1013 : BitVec 32 := 100#32
  let c1_i32_1014 : BitVec 32 := 1#32
  let v2509 : BitVec 32 := Scalar.muli c100_i32_1013 c1_i32_1014
  let v2510 : BitVec 32 := Scalar.addi c0_i32_1015 v2509
  let c0_i32_1016 : BitVec 32 := 0#32
  ![v2510.toNat, 0]
def k0_off916 (v2513 : BitVec 32) : Fin 2 → Nat :=
  let c0_i32_1017 : BitVec 32 := 0#32
  ![v2513.toNat, 0]

def k0_chk229 (v2513 : BitVec 32) : Prop :=
  (∀ a, (k0_off916 v2513) a + S1x8000.size a ≤ S8000x8000.size a)
instance k0_chk229.dec : ∀ (v2513 : BitVec 32), Decidable (k0_chk229 v2513) := fun v2513 => decidable_of_iff' _ (Iff.of_eq (k0_chk229.eq_1 v2513))
theorem k0_off916_inb : ∀ (v2513 : BitVec 32) (k0_hw229 : k0_chk229 v2513), ∀ a, (k0_off916 v2513) a + S1x8000.size a ≤ S8000x8000.size a := fun v2513 k0_hw229 => k0_hw229

def k0_off917 (i : grid0.Coords) : Fin 1 → Nat :=
  let arg0 : BitVec 32 := BitVec.ofNat 32 (i 0).val
  let c128_i32 : BitVec 32 := 128#32
  let v0 : BitVec 32 := Scalar.muli arg0 c128_i32
  let c0_i32_1020 : BitVec 32 := 0#32
  let c101_i32_1018 : BitVec 32 := 101#32
  let c1_i32_1019 : BitVec 32 := 1#32
  let v2520 : BitVec 32 := Scalar.muli c101_i32_1018 c1_i32_1019
  let v2521 : BitVec 32 := Scalar.addi c0_i32_1020 v2520
  let v2522 : BitVec 32 := Scalar.addi v0 v2521
  let v2523 : Index := Scalar.indexCast v2522
  ![v2523.toNat]
def k0_off918 : Fin 1 → Nat :=
  let c0_i32_1020 : BitVec 32 := 0#32
  let c101_i32_1018 : BitVec 32 := 101#32
  let c1_i32_1019 : BitVec 32 := 1#32
  let v2520 : BitVec 32 := Scalar.muli c101_i32_1018 c1_i32_1019
  let v2521 : BitVec 32 := Scalar.addi c0_i32_1020 v2520
  ![v2521.toNat]
def k0_off919 : Fin 2 → Nat :=
  let c0_i32_1020 : BitVec 32 := 0#32
  let c101_i32_1018 : BitVec 32 := 101#32
  let c1_i32_1019 : BitVec 32 := 1#32
  let v2520 : BitVec 32 := Scalar.muli c101_i32_1018 c1_i32_1019
  let v2521 : BitVec 32 := Scalar.addi c0_i32_1020 v2520
  let c0_i32_1021 : BitVec 32 := 0#32
  ![v2521.toNat, 0]
def k0_off920 (v2524 : BitVec 32) : Fin 2 → Nat :=
  let c0_i32_1022 : BitVec 32 := 0#32
  ![v2524.toNat, 0]

def k0_chk230 (v2524 : BitVec 32) : Prop :=
  (∀ a, (k0_off920 v2524) a + S1x8000.size a ≤ S8000x8000.size a)
instance k0_chk230.dec : ∀ (v2524 : BitVec 32), Decidable (k0_chk230 v2524) := fun v2524 => decidable_of_iff' _ (Iff.of_eq (k0_chk230.eq_1 v2524))
theorem k0_off920_inb : ∀ (v2524 : BitVec 32) (k0_hw230 : k0_chk230 v2524), ∀ a, (k0_off920 v2524) a + S1x8000.size a ≤ S8000x8000.size a := fun v2524 k0_hw230 => k0_hw230

def k0_off921 (i : grid0.Coords) : Fin 1 → Nat :=
  let arg0 : BitVec 32 := BitVec.ofNat 32 (i 0).val
  let c128_i32 : BitVec 32 := 128#32
  let v0 : BitVec 32 := Scalar.muli arg0 c128_i32
  let c0_i32_1025 : BitVec 32 := 0#32
  let c102_i32_1023 : BitVec 32 := 102#32
  let c1_i32_1024 : BitVec 32 := 1#32
  let v2531 : BitVec 32 := Scalar.muli c102_i32_1023 c1_i32_1024
  let v2532 : BitVec 32 := Scalar.addi c0_i32_1025 v2531
  let v2533 : BitVec 32 := Scalar.addi v0 v2532
  let v2534 : Index := Scalar.indexCast v2533
  ![v2534.toNat]
def k0_off922 : Fin 1 → Nat :=
  let c0_i32_1025 : BitVec 32 := 0#32
  let c102_i32_1023 : BitVec 32 := 102#32
  let c1_i32_1024 : BitVec 32 := 1#32
  let v2531 : BitVec 32 := Scalar.muli c102_i32_1023 c1_i32_1024
  let v2532 : BitVec 32 := Scalar.addi c0_i32_1025 v2531
  ![v2532.toNat]
def k0_off923 : Fin 2 → Nat :=
  let c0_i32_1025 : BitVec 32 := 0#32
  let c102_i32_1023 : BitVec 32 := 102#32
  let c1_i32_1024 : BitVec 32 := 1#32
  let v2531 : BitVec 32 := Scalar.muli c102_i32_1023 c1_i32_1024
  let v2532 : BitVec 32 := Scalar.addi c0_i32_1025 v2531
  let c0_i32_1026 : BitVec 32 := 0#32
  ![v2532.toNat, 0]
def k0_off924 (v2535 : BitVec 32) : Fin 2 → Nat :=
  let c0_i32_1027 : BitVec 32 := 0#32
  ![v2535.toNat, 0]

def k0_chk231 (v2535 : BitVec 32) : Prop :=
  (∀ a, (k0_off924 v2535) a + S1x8000.size a ≤ S8000x8000.size a)
instance k0_chk231.dec : ∀ (v2535 : BitVec 32), Decidable (k0_chk231 v2535) := fun v2535 => decidable_of_iff' _ (Iff.of_eq (k0_chk231.eq_1 v2535))
theorem k0_off924_inb : ∀ (v2535 : BitVec 32) (k0_hw231 : k0_chk231 v2535), ∀ a, (k0_off924 v2535) a + S1x8000.size a ≤ S8000x8000.size a := fun v2535 k0_hw231 => k0_hw231

def k0_off925 (i : grid0.Coords) : Fin 1 → Nat :=
  let arg0 : BitVec 32 := BitVec.ofNat 32 (i 0).val
  let c128_i32 : BitVec 32 := 128#32
  let v0 : BitVec 32 := Scalar.muli arg0 c128_i32
  let c0_i32_1030 : BitVec 32 := 0#32
  let c103_i32_1028 : BitVec 32 := 103#32
  let c1_i32_1029 : BitVec 32 := 1#32
  let v2542 : BitVec 32 := Scalar.muli c103_i32_1028 c1_i32_1029
  let v2543 : BitVec 32 := Scalar.addi c0_i32_1030 v2542
  let v2544 : BitVec 32 := Scalar.addi v0 v2543
  let v2545 : Index := Scalar.indexCast v2544
  ![v2545.toNat]
def k0_off926 : Fin 1 → Nat :=
  let c0_i32_1030 : BitVec 32 := 0#32
  let c103_i32_1028 : BitVec 32 := 103#32
  let c1_i32_1029 : BitVec 32 := 1#32
  let v2542 : BitVec 32 := Scalar.muli c103_i32_1028 c1_i32_1029
  let v2543 : BitVec 32 := Scalar.addi c0_i32_1030 v2542
  ![v2543.toNat]
def k0_off927 : Fin 2 → Nat :=
  let c0_i32_1030 : BitVec 32 := 0#32
  let c103_i32_1028 : BitVec 32 := 103#32
  let c1_i32_1029 : BitVec 32 := 1#32
  let v2542 : BitVec 32 := Scalar.muli c103_i32_1028 c1_i32_1029
  let v2543 : BitVec 32 := Scalar.addi c0_i32_1030 v2542
  let c0_i32_1031 : BitVec 32 := 0#32
  ![v2543.toNat, 0]
def k0_off928 (v2546 : BitVec 32) : Fin 2 → Nat :=
  let c0_i32_1032 : BitVec 32 := 0#32
  ![v2546.toNat, 0]

def k0_chk232 (v2546 : BitVec 32) : Prop :=
  (∀ a, (k0_off928 v2546) a + S1x8000.size a ≤ S8000x8000.size a)
instance k0_chk232.dec : ∀ (v2546 : BitVec 32), Decidable (k0_chk232 v2546) := fun v2546 => decidable_of_iff' _ (Iff.of_eq (k0_chk232.eq_1 v2546))
theorem k0_off928_inb : ∀ (v2546 : BitVec 32) (k0_hw232 : k0_chk232 v2546), ∀ a, (k0_off928 v2546) a + S1x8000.size a ≤ S8000x8000.size a := fun v2546 k0_hw232 => k0_hw232

def k0_off929 (i : grid0.Coords) : Fin 1 → Nat :=
  let arg0 : BitVec 32 := BitVec.ofNat 32 (i 0).val
  let c128_i32 : BitVec 32 := 128#32
  let v0 : BitVec 32 := Scalar.muli arg0 c128_i32
  let c0_i32_1035 : BitVec 32 := 0#32
  let c104_i32_1033 : BitVec 32 := 104#32
  let c1_i32_1034 : BitVec 32 := 1#32
  let v2553 : BitVec 32 := Scalar.muli c104_i32_1033 c1_i32_1034
  let v2554 : BitVec 32 := Scalar.addi c0_i32_1035 v2553
  let v2555 : BitVec 32 := Scalar.addi v0 v2554
  let v2556 : Index := Scalar.indexCast v2555
  ![v2556.toNat]
def k0_off930 : Fin 1 → Nat :=
  let c0_i32_1035 : BitVec 32 := 0#32
  let c104_i32_1033 : BitVec 32 := 104#32
  let c1_i32_1034 : BitVec 32 := 1#32
  let v2553 : BitVec 32 := Scalar.muli c104_i32_1033 c1_i32_1034
  let v2554 : BitVec 32 := Scalar.addi c0_i32_1035 v2553
  ![v2554.toNat]
def k0_off931 : Fin 2 → Nat :=
  let c0_i32_1035 : BitVec 32 := 0#32
  let c104_i32_1033 : BitVec 32 := 104#32
  let c1_i32_1034 : BitVec 32 := 1#32
  let v2553 : BitVec 32 := Scalar.muli c104_i32_1033 c1_i32_1034
  let v2554 : BitVec 32 := Scalar.addi c0_i32_1035 v2553
  let c0_i32_1036 : BitVec 32 := 0#32
  ![v2554.toNat, 0]
def k0_off932 (v2557 : BitVec 32) : Fin 2 → Nat :=
  let c0_i32_1037 : BitVec 32 := 0#32
  ![v2557.toNat, 0]

def k0_chk233 (v2557 : BitVec 32) : Prop :=
  (∀ a, (k0_off932 v2557) a + S1x8000.size a ≤ S8000x8000.size a)
instance k0_chk233.dec : ∀ (v2557 : BitVec 32), Decidable (k0_chk233 v2557) := fun v2557 => decidable_of_iff' _ (Iff.of_eq (k0_chk233.eq_1 v2557))
theorem k0_off932_inb : ∀ (v2557 : BitVec 32) (k0_hw233 : k0_chk233 v2557), ∀ a, (k0_off932 v2557) a + S1x8000.size a ≤ S8000x8000.size a := fun v2557 k0_hw233 => k0_hw233

def k0_off933 (i : grid0.Coords) : Fin 1 → Nat :=
  let arg0 : BitVec 32 := BitVec.ofNat 32 (i 0).val
  let c128_i32 : BitVec 32 := 128#32
  let v0 : BitVec 32 := Scalar.muli arg0 c128_i32
  let c0_i32_1040 : BitVec 32 := 0#32
  let c105_i32_1038 : BitVec 32 := 105#32
  let c1_i32_1039 : BitVec 32 := 1#32
  let v2564 : BitVec 32 := Scalar.muli c105_i32_1038 c1_i32_1039
  let v2565 : BitVec 32 := Scalar.addi c0_i32_1040 v2564
  let v2566 : BitVec 32 := Scalar.addi v0 v2565
  let v2567 : Index := Scalar.indexCast v2566
  ![v2567.toNat]
def k0_off934 : Fin 1 → Nat :=
  let c0_i32_1040 : BitVec 32 := 0#32
  let c105_i32_1038 : BitVec 32 := 105#32
  let c1_i32_1039 : BitVec 32 := 1#32
  let v2564 : BitVec 32 := Scalar.muli c105_i32_1038 c1_i32_1039
  let v2565 : BitVec 32 := Scalar.addi c0_i32_1040 v2564
  ![v2565.toNat]
def k0_off935 : Fin 2 → Nat :=
  let c0_i32_1040 : BitVec 32 := 0#32
  let c105_i32_1038 : BitVec 32 := 105#32
  let c1_i32_1039 : BitVec 32 := 1#32
  let v2564 : BitVec 32 := Scalar.muli c105_i32_1038 c1_i32_1039
  let v2565 : BitVec 32 := Scalar.addi c0_i32_1040 v2564
  let c0_i32_1041 : BitVec 32 := 0#32
  ![v2565.toNat, 0]
def k0_off936 (v2568 : BitVec 32) : Fin 2 → Nat :=
  let c0_i32_1042 : BitVec 32 := 0#32
  ![v2568.toNat, 0]

def k0_chk234 (v2568 : BitVec 32) : Prop :=
  (∀ a, (k0_off936 v2568) a + S1x8000.size a ≤ S8000x8000.size a)
instance k0_chk234.dec : ∀ (v2568 : BitVec 32), Decidable (k0_chk234 v2568) := fun v2568 => decidable_of_iff' _ (Iff.of_eq (k0_chk234.eq_1 v2568))
theorem k0_off936_inb : ∀ (v2568 : BitVec 32) (k0_hw234 : k0_chk234 v2568), ∀ a, (k0_off936 v2568) a + S1x8000.size a ≤ S8000x8000.size a := fun v2568 k0_hw234 => k0_hw234

def k0_off937 (i : grid0.Coords) : Fin 1 → Nat :=
  let arg0 : BitVec 32 := BitVec.ofNat 32 (i 0).val
  let c128_i32 : BitVec 32 := 128#32
  let v0 : BitVec 32 := Scalar.muli arg0 c128_i32
  let c0_i32_1045 : BitVec 32 := 0#32
  let c106_i32_1043 : BitVec 32 := 106#32
  let c1_i32_1044 : BitVec 32 := 1#32
  let v2575 : BitVec 32 := Scalar.muli c106_i32_1043 c1_i32_1044
  let v2576 : BitVec 32 := Scalar.addi c0_i32_1045 v2575
  let v2577 : BitVec 32 := Scalar.addi v0 v2576
  let v2578 : Index := Scalar.indexCast v2577
  ![v2578.toNat]
def k0_off938 : Fin 1 → Nat :=
  let c0_i32_1045 : BitVec 32 := 0#32
  let c106_i32_1043 : BitVec 32 := 106#32
  let c1_i32_1044 : BitVec 32 := 1#32
  let v2575 : BitVec 32 := Scalar.muli c106_i32_1043 c1_i32_1044
  let v2576 : BitVec 32 := Scalar.addi c0_i32_1045 v2575
  ![v2576.toNat]
def k0_off939 : Fin 2 → Nat :=
  let c0_i32_1045 : BitVec 32 := 0#32
  let c106_i32_1043 : BitVec 32 := 106#32
  let c1_i32_1044 : BitVec 32 := 1#32
  let v2575 : BitVec 32 := Scalar.muli c106_i32_1043 c1_i32_1044
  let v2576 : BitVec 32 := Scalar.addi c0_i32_1045 v2575
  let c0_i32_1046 : BitVec 32 := 0#32
  ![v2576.toNat, 0]
def k0_off940 (v2579 : BitVec 32) : Fin 2 → Nat :=
  let c0_i32_1047 : BitVec 32 := 0#32
  ![v2579.toNat, 0]

def k0_chk235 (v2579 : BitVec 32) : Prop :=
  (∀ a, (k0_off940 v2579) a + S1x8000.size a ≤ S8000x8000.size a)
instance k0_chk235.dec : ∀ (v2579 : BitVec 32), Decidable (k0_chk235 v2579) := fun v2579 => decidable_of_iff' _ (Iff.of_eq (k0_chk235.eq_1 v2579))
theorem k0_off940_inb : ∀ (v2579 : BitVec 32) (k0_hw235 : k0_chk235 v2579), ∀ a, (k0_off940 v2579) a + S1x8000.size a ≤ S8000x8000.size a := fun v2579 k0_hw235 => k0_hw235

def k0_off941 (i : grid0.Coords) : Fin 1 → Nat :=
  let arg0 : BitVec 32 := BitVec.ofNat 32 (i 0).val
  let c128_i32 : BitVec 32 := 128#32
  let v0 : BitVec 32 := Scalar.muli arg0 c128_i32
  let c0_i32_1050 : BitVec 32 := 0#32
  let c107_i32_1048 : BitVec 32 := 107#32
  let c1_i32_1049 : BitVec 32 := 1#32
  let v2586 : BitVec 32 := Scalar.muli c107_i32_1048 c1_i32_1049
  let v2587 : BitVec 32 := Scalar.addi c0_i32_1050 v2586
  let v2588 : BitVec 32 := Scalar.addi v0 v2587
  let v2589 : Index := Scalar.indexCast v2588
  ![v2589.toNat]
def k0_off942 : Fin 1 → Nat :=
  let c0_i32_1050 : BitVec 32 := 0#32
  let c107_i32_1048 : BitVec 32 := 107#32
  let c1_i32_1049 : BitVec 32 := 1#32
  let v2586 : BitVec 32 := Scalar.muli c107_i32_1048 c1_i32_1049
  let v2587 : BitVec 32 := Scalar.addi c0_i32_1050 v2586
  ![v2587.toNat]
def k0_off943 : Fin 2 → Nat :=
  let c0_i32_1050 : BitVec 32 := 0#32
  let c107_i32_1048 : BitVec 32 := 107#32
  let c1_i32_1049 : BitVec 32 := 1#32
  let v2586 : BitVec 32 := Scalar.muli c107_i32_1048 c1_i32_1049
  let v2587 : BitVec 32 := Scalar.addi c0_i32_1050 v2586
  let c0_i32_1051 : BitVec 32 := 0#32
  ![v2587.toNat, 0]
def k0_off944 (v2590 : BitVec 32) : Fin 2 → Nat :=
  let c0_i32_1052 : BitVec 32 := 0#32
  ![v2590.toNat, 0]

def k0_chk236 (v2590 : BitVec 32) : Prop :=
  (∀ a, (k0_off944 v2590) a + S1x8000.size a ≤ S8000x8000.size a)
instance k0_chk236.dec : ∀ (v2590 : BitVec 32), Decidable (k0_chk236 v2590) := fun v2590 => decidable_of_iff' _ (Iff.of_eq (k0_chk236.eq_1 v2590))
theorem k0_off944_inb : ∀ (v2590 : BitVec 32) (k0_hw236 : k0_chk236 v2590), ∀ a, (k0_off944 v2590) a + S1x8000.size a ≤ S8000x8000.size a := fun v2590 k0_hw236 => k0_hw236

def k0_off945 (i : grid0.Coords) : Fin 1 → Nat :=
  let arg0 : BitVec 32 := BitVec.ofNat 32 (i 0).val
  let c128_i32 : BitVec 32 := 128#32
  let v0 : BitVec 32 := Scalar.muli arg0 c128_i32
  let c0_i32_1055 : BitVec 32 := 0#32
  let c108_i32_1053 : BitVec 32 := 108#32
  let c1_i32_1054 : BitVec 32 := 1#32
  let v2597 : BitVec 32 := Scalar.muli c108_i32_1053 c1_i32_1054
  let v2598 : BitVec 32 := Scalar.addi c0_i32_1055 v2597
  let v2599 : BitVec 32 := Scalar.addi v0 v2598
  let v2600 : Index := Scalar.indexCast v2599
  ![v2600.toNat]
def k0_off946 : Fin 1 → Nat :=
  let c0_i32_1055 : BitVec 32 := 0#32
  let c108_i32_1053 : BitVec 32 := 108#32
  let c1_i32_1054 : BitVec 32 := 1#32
  let v2597 : BitVec 32 := Scalar.muli c108_i32_1053 c1_i32_1054
  let v2598 : BitVec 32 := Scalar.addi c0_i32_1055 v2597
  ![v2598.toNat]
def k0_off947 : Fin 2 → Nat :=
  let c0_i32_1055 : BitVec 32 := 0#32
  let c108_i32_1053 : BitVec 32 := 108#32
  let c1_i32_1054 : BitVec 32 := 1#32
  let v2597 : BitVec 32 := Scalar.muli c108_i32_1053 c1_i32_1054
  let v2598 : BitVec 32 := Scalar.addi c0_i32_1055 v2597
  let c0_i32_1056 : BitVec 32 := 0#32
  ![v2598.toNat, 0]
def k0_off948 (v2601 : BitVec 32) : Fin 2 → Nat :=
  let c0_i32_1057 : BitVec 32 := 0#32
  ![v2601.toNat, 0]

def k0_chk237 (v2601 : BitVec 32) : Prop :=
  (∀ a, (k0_off948 v2601) a + S1x8000.size a ≤ S8000x8000.size a)
instance k0_chk237.dec : ∀ (v2601 : BitVec 32), Decidable (k0_chk237 v2601) := fun v2601 => decidable_of_iff' _ (Iff.of_eq (k0_chk237.eq_1 v2601))
theorem k0_off948_inb : ∀ (v2601 : BitVec 32) (k0_hw237 : k0_chk237 v2601), ∀ a, (k0_off948 v2601) a + S1x8000.size a ≤ S8000x8000.size a := fun v2601 k0_hw237 => k0_hw237

def k0_off949 (i : grid0.Coords) : Fin 1 → Nat :=
  let arg0 : BitVec 32 := BitVec.ofNat 32 (i 0).val
  let c128_i32 : BitVec 32 := 128#32
  let v0 : BitVec 32 := Scalar.muli arg0 c128_i32
  let c0_i32_1060 : BitVec 32 := 0#32
  let c109_i32_1058 : BitVec 32 := 109#32
  let c1_i32_1059 : BitVec 32 := 1#32
  let v2608 : BitVec 32 := Scalar.muli c109_i32_1058 c1_i32_1059
  let v2609 : BitVec 32 := Scalar.addi c0_i32_1060 v2608
  let v2610 : BitVec 32 := Scalar.addi v0 v2609
  let v2611 : Index := Scalar.indexCast v2610
  ![v2611.toNat]
def k0_off950 : Fin 1 → Nat :=
  let c0_i32_1060 : BitVec 32 := 0#32
  let c109_i32_1058 : BitVec 32 := 109#32
  let c1_i32_1059 : BitVec 32 := 1#32
  let v2608 : BitVec 32 := Scalar.muli c109_i32_1058 c1_i32_1059
  let v2609 : BitVec 32 := Scalar.addi c0_i32_1060 v2608
  ![v2609.toNat]
def k0_off951 : Fin 2 → Nat :=
  let c0_i32_1060 : BitVec 32 := 0#32
  let c109_i32_1058 : BitVec 32 := 109#32
  let c1_i32_1059 : BitVec 32 := 1#32
  let v2608 : BitVec 32 := Scalar.muli c109_i32_1058 c1_i32_1059
  let v2609 : BitVec 32 := Scalar.addi c0_i32_1060 v2608
  let c0_i32_1061 : BitVec 32 := 0#32
  ![v2609.toNat, 0]
def k0_off952 (v2612 : BitVec 32) : Fin 2 → Nat :=
  let c0_i32_1062 : BitVec 32 := 0#32
  ![v2612.toNat, 0]

def k0_chk238 (v2612 : BitVec 32) : Prop :=
  (∀ a, (k0_off952 v2612) a + S1x8000.size a ≤ S8000x8000.size a)
instance k0_chk238.dec : ∀ (v2612 : BitVec 32), Decidable (k0_chk238 v2612) := fun v2612 => decidable_of_iff' _ (Iff.of_eq (k0_chk238.eq_1 v2612))
theorem k0_off952_inb : ∀ (v2612 : BitVec 32) (k0_hw238 : k0_chk238 v2612), ∀ a, (k0_off952 v2612) a + S1x8000.size a ≤ S8000x8000.size a := fun v2612 k0_hw238 => k0_hw238

def k0_off953 (i : grid0.Coords) : Fin 1 → Nat :=
  let arg0 : BitVec 32 := BitVec.ofNat 32 (i 0).val
  let c128_i32 : BitVec 32 := 128#32
  let v0 : BitVec 32 := Scalar.muli arg0 c128_i32
  let c0_i32_1065 : BitVec 32 := 0#32
  let c110_i32_1063 : BitVec 32 := 110#32
  let c1_i32_1064 : BitVec 32 := 1#32
  let v2619 : BitVec 32 := Scalar.muli c110_i32_1063 c1_i32_1064
  let v2620 : BitVec 32 := Scalar.addi c0_i32_1065 v2619
  let v2621 : BitVec 32 := Scalar.addi v0 v2620
  let v2622 : Index := Scalar.indexCast v2621
  ![v2622.toNat]
def k0_off954 : Fin 1 → Nat :=
  let c0_i32_1065 : BitVec 32 := 0#32
  let c110_i32_1063 : BitVec 32 := 110#32
  let c1_i32_1064 : BitVec 32 := 1#32
  let v2619 : BitVec 32 := Scalar.muli c110_i32_1063 c1_i32_1064
  let v2620 : BitVec 32 := Scalar.addi c0_i32_1065 v2619
  ![v2620.toNat]
def k0_off955 : Fin 2 → Nat :=
  let c0_i32_1065 : BitVec 32 := 0#32
  let c110_i32_1063 : BitVec 32 := 110#32
  let c1_i32_1064 : BitVec 32 := 1#32
  let v2619 : BitVec 32 := Scalar.muli c110_i32_1063 c1_i32_1064
  let v2620 : BitVec 32 := Scalar.addi c0_i32_1065 v2619
  let c0_i32_1066 : BitVec 32 := 0#32
  ![v2620.toNat, 0]
def k0_off956 (v2623 : BitVec 32) : Fin 2 → Nat :=
  let c0_i32_1067 : BitVec 32 := 0#32
  ![v2623.toNat, 0]

def k0_chk239 (v2623 : BitVec 32) : Prop :=
  (∀ a, (k0_off956 v2623) a + S1x8000.size a ≤ S8000x8000.size a)
instance k0_chk239.dec : ∀ (v2623 : BitVec 32), Decidable (k0_chk239 v2623) := fun v2623 => decidable_of_iff' _ (Iff.of_eq (k0_chk239.eq_1 v2623))
theorem k0_off956_inb : ∀ (v2623 : BitVec 32) (k0_hw239 : k0_chk239 v2623), ∀ a, (k0_off956 v2623) a + S1x8000.size a ≤ S8000x8000.size a := fun v2623 k0_hw239 => k0_hw239

def k0_off957 (i : grid0.Coords) : Fin 1 → Nat :=
  let arg0 : BitVec 32 := BitVec.ofNat 32 (i 0).val
  let c128_i32 : BitVec 32 := 128#32
  let v0 : BitVec 32 := Scalar.muli arg0 c128_i32
  let c0_i32_1070 : BitVec 32 := 0#32
  let c111_i32_1068 : BitVec 32 := 111#32
  let c1_i32_1069 : BitVec 32 := 1#32
  let v2630 : BitVec 32 := Scalar.muli c111_i32_1068 c1_i32_1069
  let v2631 : BitVec 32 := Scalar.addi c0_i32_1070 v2630
  let v2632 : BitVec 32 := Scalar.addi v0 v2631
  let v2633 : Index := Scalar.indexCast v2632
  ![v2633.toNat]
def k0_off958 : Fin 1 → Nat :=
  let c0_i32_1070 : BitVec 32 := 0#32
  let c111_i32_1068 : BitVec 32 := 111#32
  let c1_i32_1069 : BitVec 32 := 1#32
  let v2630 : BitVec 32 := Scalar.muli c111_i32_1068 c1_i32_1069
  let v2631 : BitVec 32 := Scalar.addi c0_i32_1070 v2630
  ![v2631.toNat]
def k0_off959 : Fin 2 → Nat :=
  let c0_i32_1070 : BitVec 32 := 0#32
  let c111_i32_1068 : BitVec 32 := 111#32
  let c1_i32_1069 : BitVec 32 := 1#32
  let v2630 : BitVec 32 := Scalar.muli c111_i32_1068 c1_i32_1069
  let v2631 : BitVec 32 := Scalar.addi c0_i32_1070 v2630
  let c0_i32_1071 : BitVec 32 := 0#32
  ![v2631.toNat, 0]
def k0_off960 (v2634 : BitVec 32) : Fin 2 → Nat :=
  let c0_i32_1072 : BitVec 32 := 0#32
  ![v2634.toNat, 0]

def k0_chk240 (v2634 : BitVec 32) : Prop :=
  (∀ a, (k0_off960 v2634) a + S1x8000.size a ≤ S8000x8000.size a)
instance k0_chk240.dec : ∀ (v2634 : BitVec 32), Decidable (k0_chk240 v2634) := fun v2634 => decidable_of_iff' _ (Iff.of_eq (k0_chk240.eq_1 v2634))
theorem k0_off960_inb : ∀ (v2634 : BitVec 32) (k0_hw240 : k0_chk240 v2634), ∀ a, (k0_off960 v2634) a + S1x8000.size a ≤ S8000x8000.size a := fun v2634 k0_hw240 => k0_hw240

def k0_off961 (i : grid0.Coords) : Fin 1 → Nat :=
  let arg0 : BitVec 32 := BitVec.ofNat 32 (i 0).val
  let c128_i32 : BitVec 32 := 128#32
  let v0 : BitVec 32 := Scalar.muli arg0 c128_i32
  let c0_i32_1075 : BitVec 32 := 0#32
  let c112_i32_1073 : BitVec 32 := 112#32
  let c1_i32_1074 : BitVec 32 := 1#32
  let v2641 : BitVec 32 := Scalar.muli c112_i32_1073 c1_i32_1074
  let v2642 : BitVec 32 := Scalar.addi c0_i32_1075 v2641
  let v2643 : BitVec 32 := Scalar.addi v0 v2642
  let v2644 : Index := Scalar.indexCast v2643
  ![v2644.toNat]
def k0_off962 : Fin 1 → Nat :=
  let c0_i32_1075 : BitVec 32 := 0#32
  let c112_i32_1073 : BitVec 32 := 112#32
  let c1_i32_1074 : BitVec 32 := 1#32
  let v2641 : BitVec 32 := Scalar.muli c112_i32_1073 c1_i32_1074
  let v2642 : BitVec 32 := Scalar.addi c0_i32_1075 v2641
  ![v2642.toNat]
def k0_off963 : Fin 2 → Nat :=
  let c0_i32_1075 : BitVec 32 := 0#32
  let c112_i32_1073 : BitVec 32 := 112#32
  let c1_i32_1074 : BitVec 32 := 1#32
  let v2641 : BitVec 32 := Scalar.muli c112_i32_1073 c1_i32_1074
  let v2642 : BitVec 32 := Scalar.addi c0_i32_1075 v2641
  let c0_i32_1076 : BitVec 32 := 0#32
  ![v2642.toNat, 0]
def k0_off964 (v2645 : BitVec 32) : Fin 2 → Nat :=
  let c0_i32_1077 : BitVec 32 := 0#32
  ![v2645.toNat, 0]

def k0_chk241 (v2645 : BitVec 32) : Prop :=
  (∀ a, (k0_off964 v2645) a + S1x8000.size a ≤ S8000x8000.size a)
instance k0_chk241.dec : ∀ (v2645 : BitVec 32), Decidable (k0_chk241 v2645) := fun v2645 => decidable_of_iff' _ (Iff.of_eq (k0_chk241.eq_1 v2645))
theorem k0_off964_inb : ∀ (v2645 : BitVec 32) (k0_hw241 : k0_chk241 v2645), ∀ a, (k0_off964 v2645) a + S1x8000.size a ≤ S8000x8000.size a := fun v2645 k0_hw241 => k0_hw241

def k0_off965 (i : grid0.Coords) : Fin 1 → Nat :=
  let arg0 : BitVec 32 := BitVec.ofNat 32 (i 0).val
  let c128_i32 : BitVec 32 := 128#32
  let v0 : BitVec 32 := Scalar.muli arg0 c128_i32
  let c0_i32_1080 : BitVec 32 := 0#32
  let c113_i32_1078 : BitVec 32 := 113#32
  let c1_i32_1079 : BitVec 32 := 1#32
  let v2652 : BitVec 32 := Scalar.muli c113_i32_1078 c1_i32_1079
  let v2653 : BitVec 32 := Scalar.addi c0_i32_1080 v2652
  let v2654 : BitVec 32 := Scalar.addi v0 v2653
  let v2655 : Index := Scalar.indexCast v2654
  ![v2655.toNat]
def k0_off966 : Fin 1 → Nat :=
  let c0_i32_1080 : BitVec 32 := 0#32
  let c113_i32_1078 : BitVec 32 := 113#32
  let c1_i32_1079 : BitVec 32 := 1#32
  let v2652 : BitVec 32 := Scalar.muli c113_i32_1078 c1_i32_1079
  let v2653 : BitVec 32 := Scalar.addi c0_i32_1080 v2652
  ![v2653.toNat]
def k0_off967 : Fin 2 → Nat :=
  let c0_i32_1080 : BitVec 32 := 0#32
  let c113_i32_1078 : BitVec 32 := 113#32
  let c1_i32_1079 : BitVec 32 := 1#32
  let v2652 : BitVec 32 := Scalar.muli c113_i32_1078 c1_i32_1079
  let v2653 : BitVec 32 := Scalar.addi c0_i32_1080 v2652
  let c0_i32_1081 : BitVec 32 := 0#32
  ![v2653.toNat, 0]
def k0_off968 (v2656 : BitVec 32) : Fin 2 → Nat :=
  let c0_i32_1082 : BitVec 32 := 0#32
  ![v2656.toNat, 0]

def k0_chk242 (v2656 : BitVec 32) : Prop :=
  (∀ a, (k0_off968 v2656) a + S1x8000.size a ≤ S8000x8000.size a)
instance k0_chk242.dec : ∀ (v2656 : BitVec 32), Decidable (k0_chk242 v2656) := fun v2656 => decidable_of_iff' _ (Iff.of_eq (k0_chk242.eq_1 v2656))
theorem k0_off968_inb : ∀ (v2656 : BitVec 32) (k0_hw242 : k0_chk242 v2656), ∀ a, (k0_off968 v2656) a + S1x8000.size a ≤ S8000x8000.size a := fun v2656 k0_hw242 => k0_hw242

def k0_off969 (i : grid0.Coords) : Fin 1 → Nat :=
  let arg0 : BitVec 32 := BitVec.ofNat 32 (i 0).val
  let c128_i32 : BitVec 32 := 128#32
  let v0 : BitVec 32 := Scalar.muli arg0 c128_i32
  let c0_i32_1085 : BitVec 32 := 0#32
  let c114_i32_1083 : BitVec 32 := 114#32
  let c1_i32_1084 : BitVec 32 := 1#32
  let v2663 : BitVec 32 := Scalar.muli c114_i32_1083 c1_i32_1084
  let v2664 : BitVec 32 := Scalar.addi c0_i32_1085 v2663
  let v2665 : BitVec 32 := Scalar.addi v0 v2664
  let v2666 : Index := Scalar.indexCast v2665
  ![v2666.toNat]
def k0_off970 : Fin 1 → Nat :=
  let c0_i32_1085 : BitVec 32 := 0#32
  let c114_i32_1083 : BitVec 32 := 114#32
  let c1_i32_1084 : BitVec 32 := 1#32
  let v2663 : BitVec 32 := Scalar.muli c114_i32_1083 c1_i32_1084
  let v2664 : BitVec 32 := Scalar.addi c0_i32_1085 v2663
  ![v2664.toNat]
def k0_off971 : Fin 2 → Nat :=
  let c0_i32_1085 : BitVec 32 := 0#32
  let c114_i32_1083 : BitVec 32 := 114#32
  let c1_i32_1084 : BitVec 32 := 1#32
  let v2663 : BitVec 32 := Scalar.muli c114_i32_1083 c1_i32_1084
  let v2664 : BitVec 32 := Scalar.addi c0_i32_1085 v2663
  let c0_i32_1086 : BitVec 32 := 0#32
  ![v2664.toNat, 0]
def k0_off972 (v2667 : BitVec 32) : Fin 2 → Nat :=
  let c0_i32_1087 : BitVec 32 := 0#32
  ![v2667.toNat, 0]

def k0_chk243 (v2667 : BitVec 32) : Prop :=
  (∀ a, (k0_off972 v2667) a + S1x8000.size a ≤ S8000x8000.size a)
instance k0_chk243.dec : ∀ (v2667 : BitVec 32), Decidable (k0_chk243 v2667) := fun v2667 => decidable_of_iff' _ (Iff.of_eq (k0_chk243.eq_1 v2667))
theorem k0_off972_inb : ∀ (v2667 : BitVec 32) (k0_hw243 : k0_chk243 v2667), ∀ a, (k0_off972 v2667) a + S1x8000.size a ≤ S8000x8000.size a := fun v2667 k0_hw243 => k0_hw243

def k0_off973 (i : grid0.Coords) : Fin 1 → Nat :=
  let arg0 : BitVec 32 := BitVec.ofNat 32 (i 0).val
  let c128_i32 : BitVec 32 := 128#32
  let v0 : BitVec 32 := Scalar.muli arg0 c128_i32
  let c0_i32_1090 : BitVec 32 := 0#32
  let c115_i32_1088 : BitVec 32 := 115#32
  let c1_i32_1089 : BitVec 32 := 1#32
  let v2674 : BitVec 32 := Scalar.muli c115_i32_1088 c1_i32_1089
  let v2675 : BitVec 32 := Scalar.addi c0_i32_1090 v2674
  let v2676 : BitVec 32 := Scalar.addi v0 v2675
  let v2677 : Index := Scalar.indexCast v2676
  ![v2677.toNat]
def k0_off974 : Fin 1 → Nat :=
  let c0_i32_1090 : BitVec 32 := 0#32
  let c115_i32_1088 : BitVec 32 := 115#32
  let c1_i32_1089 : BitVec 32 := 1#32
  let v2674 : BitVec 32 := Scalar.muli c115_i32_1088 c1_i32_1089
  let v2675 : BitVec 32 := Scalar.addi c0_i32_1090 v2674
  ![v2675.toNat]
def k0_off975 : Fin 2 → Nat :=
  let c0_i32_1090 : BitVec 32 := 0#32
  let c115_i32_1088 : BitVec 32 := 115#32
  let c1_i32_1089 : BitVec 32 := 1#32
  let v2674 : BitVec 32 := Scalar.muli c115_i32_1088 c1_i32_1089
  let v2675 : BitVec 32 := Scalar.addi c0_i32_1090 v2674
  let c0_i32_1091 : BitVec 32 := 0#32
  ![v2675.toNat, 0]
def k0_off976 (v2678 : BitVec 32) : Fin 2 → Nat :=
  let c0_i32_1092 : BitVec 32 := 0#32
  ![v2678.toNat, 0]

def k0_chk244 (v2678 : BitVec 32) : Prop :=
  (∀ a, (k0_off976 v2678) a + S1x8000.size a ≤ S8000x8000.size a)
instance k0_chk244.dec : ∀ (v2678 : BitVec 32), Decidable (k0_chk244 v2678) := fun v2678 => decidable_of_iff' _ (Iff.of_eq (k0_chk244.eq_1 v2678))
theorem k0_off976_inb : ∀ (v2678 : BitVec 32) (k0_hw244 : k0_chk244 v2678), ∀ a, (k0_off976 v2678) a + S1x8000.size a ≤ S8000x8000.size a := fun v2678 k0_hw244 => k0_hw244

def k0_off977 (i : grid0.Coords) : Fin 1 → Nat :=
  let arg0 : BitVec 32 := BitVec.ofNat 32 (i 0).val
  let c128_i32 : BitVec 32 := 128#32
  let v0 : BitVec 32 := Scalar.muli arg0 c128_i32
  let c0_i32_1095 : BitVec 32 := 0#32
  let c116_i32_1093 : BitVec 32 := 116#32
  let c1_i32_1094 : BitVec 32 := 1#32
  let v2685 : BitVec 32 := Scalar.muli c116_i32_1093 c1_i32_1094
  let v2686 : BitVec 32 := Scalar.addi c0_i32_1095 v2685
  let v2687 : BitVec 32 := Scalar.addi v0 v2686
  let v2688 : Index := Scalar.indexCast v2687
  ![v2688.toNat]
def k0_off978 : Fin 1 → Nat :=
  let c0_i32_1095 : BitVec 32 := 0#32
  let c116_i32_1093 : BitVec 32 := 116#32
  let c1_i32_1094 : BitVec 32 := 1#32
  let v2685 : BitVec 32 := Scalar.muli c116_i32_1093 c1_i32_1094
  let v2686 : BitVec 32 := Scalar.addi c0_i32_1095 v2685
  ![v2686.toNat]
def k0_off979 : Fin 2 → Nat :=
  let c0_i32_1095 : BitVec 32 := 0#32
  let c116_i32_1093 : BitVec 32 := 116#32
  let c1_i32_1094 : BitVec 32 := 1#32
  let v2685 : BitVec 32 := Scalar.muli c116_i32_1093 c1_i32_1094
  let v2686 : BitVec 32 := Scalar.addi c0_i32_1095 v2685
  let c0_i32_1096 : BitVec 32 := 0#32
  ![v2686.toNat, 0]
def k0_off980 (v2689 : BitVec 32) : Fin 2 → Nat :=
  let c0_i32_1097 : BitVec 32 := 0#32
  ![v2689.toNat, 0]

def k0_chk245 (v2689 : BitVec 32) : Prop :=
  (∀ a, (k0_off980 v2689) a + S1x8000.size a ≤ S8000x8000.size a)
instance k0_chk245.dec : ∀ (v2689 : BitVec 32), Decidable (k0_chk245 v2689) := fun v2689 => decidable_of_iff' _ (Iff.of_eq (k0_chk245.eq_1 v2689))
theorem k0_off980_inb : ∀ (v2689 : BitVec 32) (k0_hw245 : k0_chk245 v2689), ∀ a, (k0_off980 v2689) a + S1x8000.size a ≤ S8000x8000.size a := fun v2689 k0_hw245 => k0_hw245

def k0_off981 (i : grid0.Coords) : Fin 1 → Nat :=
  let arg0 : BitVec 32 := BitVec.ofNat 32 (i 0).val
  let c128_i32 : BitVec 32 := 128#32
  let v0 : BitVec 32 := Scalar.muli arg0 c128_i32
  let c0_i32_1100 : BitVec 32 := 0#32
  let c117_i32_1098 : BitVec 32 := 117#32
  let c1_i32_1099 : BitVec 32 := 1#32
  let v2696 : BitVec 32 := Scalar.muli c117_i32_1098 c1_i32_1099
  let v2697 : BitVec 32 := Scalar.addi c0_i32_1100 v2696
  let v2698 : BitVec 32 := Scalar.addi v0 v2697
  let v2699 : Index := Scalar.indexCast v2698
  ![v2699.toNat]
def k0_off982 : Fin 1 → Nat :=
  let c0_i32_1100 : BitVec 32 := 0#32
  let c117_i32_1098 : BitVec 32 := 117#32
  let c1_i32_1099 : BitVec 32 := 1#32
  let v2696 : BitVec 32 := Scalar.muli c117_i32_1098 c1_i32_1099
  let v2697 : BitVec 32 := Scalar.addi c0_i32_1100 v2696
  ![v2697.toNat]
def k0_off983 : Fin 2 → Nat :=
  let c0_i32_1100 : BitVec 32 := 0#32
  let c117_i32_1098 : BitVec 32 := 117#32
  let c1_i32_1099 : BitVec 32 := 1#32
  let v2696 : BitVec 32 := Scalar.muli c117_i32_1098 c1_i32_1099
  let v2697 : BitVec 32 := Scalar.addi c0_i32_1100 v2696
  let c0_i32_1101 : BitVec 32 := 0#32
  ![v2697.toNat, 0]
def k0_off984 (v2700 : BitVec 32) : Fin 2 → Nat :=
  let c0_i32_1102 : BitVec 32 := 0#32
  ![v2700.toNat, 0]

def k0_chk246 (v2700 : BitVec 32) : Prop :=
  (∀ a, (k0_off984 v2700) a + S1x8000.size a ≤ S8000x8000.size a)
instance k0_chk246.dec : ∀ (v2700 : BitVec 32), Decidable (k0_chk246 v2700) := fun v2700 => decidable_of_iff' _ (Iff.of_eq (k0_chk246.eq_1 v2700))
theorem k0_off984_inb : ∀ (v2700 : BitVec 32) (k0_hw246 : k0_chk246 v2700), ∀ a, (k0_off984 v2700) a + S1x8000.size a ≤ S8000x8000.size a := fun v2700 k0_hw246 => k0_hw246

def k0_off985 (i : grid0.Coords) : Fin 1 → Nat :=
  let arg0 : BitVec 32 := BitVec.ofNat 32 (i 0).val
  let c128_i32 : BitVec 32 := 128#32
  let v0 : BitVec 32 := Scalar.muli arg0 c128_i32
  let c0_i32_1105 : BitVec 32 := 0#32
  let c118_i32_1103 : BitVec 32 := 118#32
  let c1_i32_1104 : BitVec 32 := 1#32
  let v2707 : BitVec 32 := Scalar.muli c118_i32_1103 c1_i32_1104
  let v2708 : BitVec 32 := Scalar.addi c0_i32_1105 v2707
  let v2709 : BitVec 32 := Scalar.addi v0 v2708
  let v2710 : Index := Scalar.indexCast v2709
  ![v2710.toNat]
def k0_off986 : Fin 1 → Nat :=
  let c0_i32_1105 : BitVec 32 := 0#32
  let c118_i32_1103 : BitVec 32 := 118#32
  let c1_i32_1104 : BitVec 32 := 1#32
  let v2707 : BitVec 32 := Scalar.muli c118_i32_1103 c1_i32_1104
  let v2708 : BitVec 32 := Scalar.addi c0_i32_1105 v2707
  ![v2708.toNat]
def k0_off987 : Fin 2 → Nat :=
  let c0_i32_1105 : BitVec 32 := 0#32
  let c118_i32_1103 : BitVec 32 := 118#32
  let c1_i32_1104 : BitVec 32 := 1#32
  let v2707 : BitVec 32 := Scalar.muli c118_i32_1103 c1_i32_1104
  let v2708 : BitVec 32 := Scalar.addi c0_i32_1105 v2707
  let c0_i32_1106 : BitVec 32 := 0#32
  ![v2708.toNat, 0]
def k0_off988 (v2711 : BitVec 32) : Fin 2 → Nat :=
  let c0_i32_1107 : BitVec 32 := 0#32
  ![v2711.toNat, 0]

def k0_chk247 (v2711 : BitVec 32) : Prop :=
  (∀ a, (k0_off988 v2711) a + S1x8000.size a ≤ S8000x8000.size a)
instance k0_chk247.dec : ∀ (v2711 : BitVec 32), Decidable (k0_chk247 v2711) := fun v2711 => decidable_of_iff' _ (Iff.of_eq (k0_chk247.eq_1 v2711))
theorem k0_off988_inb : ∀ (v2711 : BitVec 32) (k0_hw247 : k0_chk247 v2711), ∀ a, (k0_off988 v2711) a + S1x8000.size a ≤ S8000x8000.size a := fun v2711 k0_hw247 => k0_hw247

def k0_off989 (i : grid0.Coords) : Fin 1 → Nat :=
  let arg0 : BitVec 32 := BitVec.ofNat 32 (i 0).val
  let c128_i32 : BitVec 32 := 128#32
  let v0 : BitVec 32 := Scalar.muli arg0 c128_i32
  let c0_i32_1110 : BitVec 32 := 0#32
  let c119_i32_1108 : BitVec 32 := 119#32
  let c1_i32_1109 : BitVec 32 := 1#32
  let v2718 : BitVec 32 := Scalar.muli c119_i32_1108 c1_i32_1109
  let v2719 : BitVec 32 := Scalar.addi c0_i32_1110 v2718
  let v2720 : BitVec 32 := Scalar.addi v0 v2719
  let v2721 : Index := Scalar.indexCast v2720
  ![v2721.toNat]
def k0_off990 : Fin 1 → Nat :=
  let c0_i32_1110 : BitVec 32 := 0#32
  let c119_i32_1108 : BitVec 32 := 119#32
  let c1_i32_1109 : BitVec 32 := 1#32
  let v2718 : BitVec 32 := Scalar.muli c119_i32_1108 c1_i32_1109
  let v2719 : BitVec 32 := Scalar.addi c0_i32_1110 v2718
  ![v2719.toNat]
def k0_off991 : Fin 2 → Nat :=
  let c0_i32_1110 : BitVec 32 := 0#32
  let c119_i32_1108 : BitVec 32 := 119#32
  let c1_i32_1109 : BitVec 32 := 1#32
  let v2718 : BitVec 32 := Scalar.muli c119_i32_1108 c1_i32_1109
  let v2719 : BitVec 32 := Scalar.addi c0_i32_1110 v2718
  let c0_i32_1111 : BitVec 32 := 0#32
  ![v2719.toNat, 0]
def k0_off992 (v2722 : BitVec 32) : Fin 2 → Nat :=
  let c0_i32_1112 : BitVec 32 := 0#32
  ![v2722.toNat, 0]

def k0_chk248 (v2722 : BitVec 32) : Prop :=
  (∀ a, (k0_off992 v2722) a + S1x8000.size a ≤ S8000x8000.size a)
instance k0_chk248.dec : ∀ (v2722 : BitVec 32), Decidable (k0_chk248 v2722) := fun v2722 => decidable_of_iff' _ (Iff.of_eq (k0_chk248.eq_1 v2722))
theorem k0_off992_inb : ∀ (v2722 : BitVec 32) (k0_hw248 : k0_chk248 v2722), ∀ a, (k0_off992 v2722) a + S1x8000.size a ≤ S8000x8000.size a := fun v2722 k0_hw248 => k0_hw248

def k0_off993 (i : grid0.Coords) : Fin 1 → Nat :=
  let arg0 : BitVec 32 := BitVec.ofNat 32 (i 0).val
  let c128_i32 : BitVec 32 := 128#32
  let v0 : BitVec 32 := Scalar.muli arg0 c128_i32
  let c0_i32_1115 : BitVec 32 := 0#32
  let c120_i32_1113 : BitVec 32 := 120#32
  let c1_i32_1114 : BitVec 32 := 1#32
  let v2729 : BitVec 32 := Scalar.muli c120_i32_1113 c1_i32_1114
  let v2730 : BitVec 32 := Scalar.addi c0_i32_1115 v2729
  let v2731 : BitVec 32 := Scalar.addi v0 v2730
  let v2732 : Index := Scalar.indexCast v2731
  ![v2732.toNat]
def k0_off994 : Fin 1 → Nat :=
  let c0_i32_1115 : BitVec 32 := 0#32
  let c120_i32_1113 : BitVec 32 := 120#32
  let c1_i32_1114 : BitVec 32 := 1#32
  let v2729 : BitVec 32 := Scalar.muli c120_i32_1113 c1_i32_1114
  let v2730 : BitVec 32 := Scalar.addi c0_i32_1115 v2729
  ![v2730.toNat]
def k0_off995 : Fin 2 → Nat :=
  let c0_i32_1115 : BitVec 32 := 0#32
  let c120_i32_1113 : BitVec 32 := 120#32
  let c1_i32_1114 : BitVec 32 := 1#32
  let v2729 : BitVec 32 := Scalar.muli c120_i32_1113 c1_i32_1114
  let v2730 : BitVec 32 := Scalar.addi c0_i32_1115 v2729
  let c0_i32_1116 : BitVec 32 := 0#32
  ![v2730.toNat, 0]
def k0_off996 (v2733 : BitVec 32) : Fin 2 → Nat :=
  let c0_i32_1117 : BitVec 32 := 0#32
  ![v2733.toNat, 0]

def k0_chk249 (v2733 : BitVec 32) : Prop :=
  (∀ a, (k0_off996 v2733) a + S1x8000.size a ≤ S8000x8000.size a)
instance k0_chk249.dec : ∀ (v2733 : BitVec 32), Decidable (k0_chk249 v2733) := fun v2733 => decidable_of_iff' _ (Iff.of_eq (k0_chk249.eq_1 v2733))
theorem k0_off996_inb : ∀ (v2733 : BitVec 32) (k0_hw249 : k0_chk249 v2733), ∀ a, (k0_off996 v2733) a + S1x8000.size a ≤ S8000x8000.size a := fun v2733 k0_hw249 => k0_hw249

def k0_off997 (i : grid0.Coords) : Fin 1 → Nat :=
  let arg0 : BitVec 32 := BitVec.ofNat 32 (i 0).val
  let c128_i32 : BitVec 32 := 128#32
  let v0 : BitVec 32 := Scalar.muli arg0 c128_i32
  let c0_i32_1120 : BitVec 32 := 0#32
  let c121_i32_1118 : BitVec 32 := 121#32
  let c1_i32_1119 : BitVec 32 := 1#32
  let v2740 : BitVec 32 := Scalar.muli c121_i32_1118 c1_i32_1119
  let v2741 : BitVec 32 := Scalar.addi c0_i32_1120 v2740
  let v2742 : BitVec 32 := Scalar.addi v0 v2741
  let v2743 : Index := Scalar.indexCast v2742
  ![v2743.toNat]
def k0_off998 : Fin 1 → Nat :=
  let c0_i32_1120 : BitVec 32 := 0#32
  let c121_i32_1118 : BitVec 32 := 121#32
  let c1_i32_1119 : BitVec 32 := 1#32
  let v2740 : BitVec 32 := Scalar.muli c121_i32_1118 c1_i32_1119
  let v2741 : BitVec 32 := Scalar.addi c0_i32_1120 v2740
  ![v2741.toNat]
def k0_off999 : Fin 2 → Nat :=
  let c0_i32_1120 : BitVec 32 := 0#32
  let c121_i32_1118 : BitVec 32 := 121#32
  let c1_i32_1119 : BitVec 32 := 1#32
  let v2740 : BitVec 32 := Scalar.muli c121_i32_1118 c1_i32_1119
  let v2741 : BitVec 32 := Scalar.addi c0_i32_1120 v2740
  let c0_i32_1121 : BitVec 32 := 0#32
  ![v2741.toNat, 0]
def k0_off1000 (v2744 : BitVec 32) : Fin 2 → Nat :=
  let c0_i32_1122 : BitVec 32 := 0#32
  ![v2744.toNat, 0]

def k0_chk250 (v2744 : BitVec 32) : Prop :=
  (∀ a, (k0_off1000 v2744) a + S1x8000.size a ≤ S8000x8000.size a)
instance k0_chk250.dec : ∀ (v2744 : BitVec 32), Decidable (k0_chk250 v2744) := fun v2744 => decidable_of_iff' _ (Iff.of_eq (k0_chk250.eq_1 v2744))
theorem k0_off1000_inb : ∀ (v2744 : BitVec 32) (k0_hw250 : k0_chk250 v2744), ∀ a, (k0_off1000 v2744) a + S1x8000.size a ≤ S8000x8000.size a := fun v2744 k0_hw250 => k0_hw250

def k0_off1001 (i : grid0.Coords) : Fin 1 → Nat :=
  let arg0 : BitVec 32 := BitVec.ofNat 32 (i 0).val
  let c128_i32 : BitVec 32 := 128#32
  let v0 : BitVec 32 := Scalar.muli arg0 c128_i32
  let c0_i32_1125 : BitVec 32 := 0#32
  let c122_i32_1123 : BitVec 32 := 122#32
  let c1_i32_1124 : BitVec 32 := 1#32
  let v2751 : BitVec 32 := Scalar.muli c122_i32_1123 c1_i32_1124
  let v2752 : BitVec 32 := Scalar.addi c0_i32_1125 v2751
  let v2753 : BitVec 32 := Scalar.addi v0 v2752
  let v2754 : Index := Scalar.indexCast v2753
  ![v2754.toNat]
def k0_off1002 : Fin 1 → Nat :=
  let c0_i32_1125 : BitVec 32 := 0#32
  let c122_i32_1123 : BitVec 32 := 122#32
  let c1_i32_1124 : BitVec 32 := 1#32
  let v2751 : BitVec 32 := Scalar.muli c122_i32_1123 c1_i32_1124
  let v2752 : BitVec 32 := Scalar.addi c0_i32_1125 v2751
  ![v2752.toNat]
def k0_off1003 : Fin 2 → Nat :=
  let c0_i32_1125 : BitVec 32 := 0#32
  let c122_i32_1123 : BitVec 32 := 122#32
  let c1_i32_1124 : BitVec 32 := 1#32
  let v2751 : BitVec 32 := Scalar.muli c122_i32_1123 c1_i32_1124
  let v2752 : BitVec 32 := Scalar.addi c0_i32_1125 v2751
  let c0_i32_1126 : BitVec 32 := 0#32
  ![v2752.toNat, 0]
def k0_off1004 (v2755 : BitVec 32) : Fin 2 → Nat :=
  let c0_i32_1127 : BitVec 32 := 0#32
  ![v2755.toNat, 0]

def k0_chk251 (v2755 : BitVec 32) : Prop :=
  (∀ a, (k0_off1004 v2755) a + S1x8000.size a ≤ S8000x8000.size a)
instance k0_chk251.dec : ∀ (v2755 : BitVec 32), Decidable (k0_chk251 v2755) := fun v2755 => decidable_of_iff' _ (Iff.of_eq (k0_chk251.eq_1 v2755))
theorem k0_off1004_inb : ∀ (v2755 : BitVec 32) (k0_hw251 : k0_chk251 v2755), ∀ a, (k0_off1004 v2755) a + S1x8000.size a ≤ S8000x8000.size a := fun v2755 k0_hw251 => k0_hw251

def k0_off1005 (i : grid0.Coords) : Fin 1 → Nat :=
  let arg0 : BitVec 32 := BitVec.ofNat 32 (i 0).val
  let c128_i32 : BitVec 32 := 128#32
  let v0 : BitVec 32 := Scalar.muli arg0 c128_i32
  let c0_i32_1130 : BitVec 32 := 0#32
  let c123_i32_1128 : BitVec 32 := 123#32
  let c1_i32_1129 : BitVec 32 := 1#32
  let v2762 : BitVec 32 := Scalar.muli c123_i32_1128 c1_i32_1129
  let v2763 : BitVec 32 := Scalar.addi c0_i32_1130 v2762
  let v2764 : BitVec 32 := Scalar.addi v0 v2763
  let v2765 : Index := Scalar.indexCast v2764
  ![v2765.toNat]
def k0_off1006 : Fin 1 → Nat :=
  let c0_i32_1130 : BitVec 32 := 0#32
  let c123_i32_1128 : BitVec 32 := 123#32
  let c1_i32_1129 : BitVec 32 := 1#32
  let v2762 : BitVec 32 := Scalar.muli c123_i32_1128 c1_i32_1129
  let v2763 : BitVec 32 := Scalar.addi c0_i32_1130 v2762
  ![v2763.toNat]
def k0_off1007 : Fin 2 → Nat :=
  let c0_i32_1130 : BitVec 32 := 0#32
  let c123_i32_1128 : BitVec 32 := 123#32
  let c1_i32_1129 : BitVec 32 := 1#32
  let v2762 : BitVec 32 := Scalar.muli c123_i32_1128 c1_i32_1129
  let v2763 : BitVec 32 := Scalar.addi c0_i32_1130 v2762
  let c0_i32_1131 : BitVec 32 := 0#32
  ![v2763.toNat, 0]
def k0_off1008 (v2766 : BitVec 32) : Fin 2 → Nat :=
  let c0_i32_1132 : BitVec 32 := 0#32
  ![v2766.toNat, 0]

def k0_chk252 (v2766 : BitVec 32) : Prop :=
  (∀ a, (k0_off1008 v2766) a + S1x8000.size a ≤ S8000x8000.size a)
instance k0_chk252.dec : ∀ (v2766 : BitVec 32), Decidable (k0_chk252 v2766) := fun v2766 => decidable_of_iff' _ (Iff.of_eq (k0_chk252.eq_1 v2766))
theorem k0_off1008_inb : ∀ (v2766 : BitVec 32) (k0_hw252 : k0_chk252 v2766), ∀ a, (k0_off1008 v2766) a + S1x8000.size a ≤ S8000x8000.size a := fun v2766 k0_hw252 => k0_hw252

def k0_off1009 (i : grid0.Coords) : Fin 1 → Nat :=
  let arg0 : BitVec 32 := BitVec.ofNat 32 (i 0).val
  let c128_i32 : BitVec 32 := 128#32
  let v0 : BitVec 32 := Scalar.muli arg0 c128_i32
  let c0_i32_1135 : BitVec 32 := 0#32
  let c124_i32_1133 : BitVec 32 := 124#32
  let c1_i32_1134 : BitVec 32 := 1#32
  let v2773 : BitVec 32 := Scalar.muli c124_i32_1133 c1_i32_1134
  let v2774 : BitVec 32 := Scalar.addi c0_i32_1135 v2773
  let v2775 : BitVec 32 := Scalar.addi v0 v2774
  let v2776 : Index := Scalar.indexCast v2775
  ![v2776.toNat]
def k0_off1010 : Fin 1 → Nat :=
  let c0_i32_1135 : BitVec 32 := 0#32
  let c124_i32_1133 : BitVec 32 := 124#32
  let c1_i32_1134 : BitVec 32 := 1#32
  let v2773 : BitVec 32 := Scalar.muli c124_i32_1133 c1_i32_1134
  let v2774 : BitVec 32 := Scalar.addi c0_i32_1135 v2773
  ![v2774.toNat]
def k0_off1011 : Fin 2 → Nat :=
  let c0_i32_1135 : BitVec 32 := 0#32
  let c124_i32_1133 : BitVec 32 := 124#32
  let c1_i32_1134 : BitVec 32 := 1#32
  let v2773 : BitVec 32 := Scalar.muli c124_i32_1133 c1_i32_1134
  let v2774 : BitVec 32 := Scalar.addi c0_i32_1135 v2773
  let c0_i32_1136 : BitVec 32 := 0#32
  ![v2774.toNat, 0]
def k0_off1012 (v2777 : BitVec 32) : Fin 2 → Nat :=
  let c0_i32_1137 : BitVec 32 := 0#32
  ![v2777.toNat, 0]

def k0_chk253 (v2777 : BitVec 32) : Prop :=
  (∀ a, (k0_off1012 v2777) a + S1x8000.size a ≤ S8000x8000.size a)
instance k0_chk253.dec : ∀ (v2777 : BitVec 32), Decidable (k0_chk253 v2777) := fun v2777 => decidable_of_iff' _ (Iff.of_eq (k0_chk253.eq_1 v2777))
theorem k0_off1012_inb : ∀ (v2777 : BitVec 32) (k0_hw253 : k0_chk253 v2777), ∀ a, (k0_off1012 v2777) a + S1x8000.size a ≤ S8000x8000.size a := fun v2777 k0_hw253 => k0_hw253

def k0_off1013 (i : grid0.Coords) : Fin 1 → Nat :=
  let arg0 : BitVec 32 := BitVec.ofNat 32 (i 0).val
  let c128_i32 : BitVec 32 := 128#32
  let v0 : BitVec 32 := Scalar.muli arg0 c128_i32
  let c0_i32_1140 : BitVec 32 := 0#32
  let c125_i32_1138 : BitVec 32 := 125#32
  let c1_i32_1139 : BitVec 32 := 1#32
  let v2784 : BitVec 32 := Scalar.muli c125_i32_1138 c1_i32_1139
  let v2785 : BitVec 32 := Scalar.addi c0_i32_1140 v2784
  let v2786 : BitVec 32 := Scalar.addi v0 v2785
  let v2787 : Index := Scalar.indexCast v2786
  ![v2787.toNat]
def k0_off1014 : Fin 1 → Nat :=
  let c0_i32_1140 : BitVec 32 := 0#32
  let c125_i32_1138 : BitVec 32 := 125#32
  let c1_i32_1139 : BitVec 32 := 1#32
  let v2784 : BitVec 32 := Scalar.muli c125_i32_1138 c1_i32_1139
  let v2785 : BitVec 32 := Scalar.addi c0_i32_1140 v2784
  ![v2785.toNat]
def k0_off1015 : Fin 2 → Nat :=
  let c0_i32_1140 : BitVec 32 := 0#32
  let c125_i32_1138 : BitVec 32 := 125#32
  let c1_i32_1139 : BitVec 32 := 1#32
  let v2784 : BitVec 32 := Scalar.muli c125_i32_1138 c1_i32_1139
  let v2785 : BitVec 32 := Scalar.addi c0_i32_1140 v2784
  let c0_i32_1141 : BitVec 32 := 0#32
  ![v2785.toNat, 0]
def k0_off1016 (v2788 : BitVec 32) : Fin 2 → Nat :=
  let c0_i32_1142 : BitVec 32 := 0#32
  ![v2788.toNat, 0]

def k0_chk254 (v2788 : BitVec 32) : Prop :=
  (∀ a, (k0_off1016 v2788) a + S1x8000.size a ≤ S8000x8000.size a)
instance k0_chk254.dec : ∀ (v2788 : BitVec 32), Decidable (k0_chk254 v2788) := fun v2788 => decidable_of_iff' _ (Iff.of_eq (k0_chk254.eq_1 v2788))
theorem k0_off1016_inb : ∀ (v2788 : BitVec 32) (k0_hw254 : k0_chk254 v2788), ∀ a, (k0_off1016 v2788) a + S1x8000.size a ≤ S8000x8000.size a := fun v2788 k0_hw254 => k0_hw254

def k0_off1017 (i : grid0.Coords) : Fin 1 → Nat :=
  let arg0 : BitVec 32 := BitVec.ofNat 32 (i 0).val
  let c128_i32 : BitVec 32 := 128#32
  let v0 : BitVec 32 := Scalar.muli arg0 c128_i32
  let c0_i32_1145 : BitVec 32 := 0#32
  let c126_i32_1143 : BitVec 32 := 126#32
  let c1_i32_1144 : BitVec 32 := 1#32
  let v2795 : BitVec 32 := Scalar.muli c126_i32_1143 c1_i32_1144
  let v2796 : BitVec 32 := Scalar.addi c0_i32_1145 v2795
  let v2797 : BitVec 32 := Scalar.addi v0 v2796
  let v2798 : Index := Scalar.indexCast v2797
  ![v2798.toNat]
def k0_off1018 : Fin 1 → Nat :=
  let c0_i32_1145 : BitVec 32 := 0#32
  let c126_i32_1143 : BitVec 32 := 126#32
  let c1_i32_1144 : BitVec 32 := 1#32
  let v2795 : BitVec 32 := Scalar.muli c126_i32_1143 c1_i32_1144
  let v2796 : BitVec 32 := Scalar.addi c0_i32_1145 v2795
  ![v2796.toNat]
def k0_off1019 : Fin 2 → Nat :=
  let c0_i32_1145 : BitVec 32 := 0#32
  let c126_i32_1143 : BitVec 32 := 126#32
  let c1_i32_1144 : BitVec 32 := 1#32
  let v2795 : BitVec 32 := Scalar.muli c126_i32_1143 c1_i32_1144
  let v2796 : BitVec 32 := Scalar.addi c0_i32_1145 v2795
  let c0_i32_1146 : BitVec 32 := 0#32
  ![v2796.toNat, 0]
def k0_off1020 (v2799 : BitVec 32) : Fin 2 → Nat :=
  let c0_i32_1147 : BitVec 32 := 0#32
  ![v2799.toNat, 0]

def k0_chk255 (v2799 : BitVec 32) : Prop :=
  (∀ a, (k0_off1020 v2799) a + S1x8000.size a ≤ S8000x8000.size a)
instance k0_chk255.dec : ∀ (v2799 : BitVec 32), Decidable (k0_chk255 v2799) := fun v2799 => decidable_of_iff' _ (Iff.of_eq (k0_chk255.eq_1 v2799))
theorem k0_off1020_inb : ∀ (v2799 : BitVec 32) (k0_hw255 : k0_chk255 v2799), ∀ a, (k0_off1020 v2799) a + S1x8000.size a ≤ S8000x8000.size a := fun v2799 k0_hw255 => k0_hw255

def k0_off1021 (i : grid0.Coords) : Fin 1 → Nat :=
  let arg0 : BitVec 32 := BitVec.ofNat 32 (i 0).val
  let c128_i32 : BitVec 32 := 128#32
  let v0 : BitVec 32 := Scalar.muli arg0 c128_i32
  let c0_i32_1150 : BitVec 32 := 0#32
  let c127_i32_1148 : BitVec 32 := 127#32
  let c1_i32_1149 : BitVec 32 := 1#32
  let v2806 : BitVec 32 := Scalar.muli c127_i32_1148 c1_i32_1149
  let v2807 : BitVec 32 := Scalar.addi c0_i32_1150 v2806
  let v2808 : BitVec 32 := Scalar.addi v0 v2807
  let v2809 : Index := Scalar.indexCast v2808
  ![v2809.toNat]
def k0_off1022 : Fin 1 → Nat :=
  let c0_i32_1150 : BitVec 32 := 0#32
  let c127_i32_1148 : BitVec 32 := 127#32
  let c1_i32_1149 : BitVec 32 := 1#32
  let v2806 : BitVec 32 := Scalar.muli c127_i32_1148 c1_i32_1149
  let v2807 : BitVec 32 := Scalar.addi c0_i32_1150 v2806
  ![v2807.toNat]
def k0_off1023 : Fin 2 → Nat :=
  let c0_i32_1150 : BitVec 32 := 0#32
  let c127_i32_1148 : BitVec 32 := 127#32
  let c1_i32_1149 : BitVec 32 := 1#32
  let v2806 : BitVec 32 := Scalar.muli c127_i32_1148 c1_i32_1149
  let v2807 : BitVec 32 := Scalar.addi c0_i32_1150 v2806
  let c0_i32_1151 : BitVec 32 := 0#32
  ![v2807.toNat, 0]
def k0_off1024 (v2810 : BitVec 32) : Fin 2 → Nat :=
  let c0_i32_1152 : BitVec 32 := 0#32
  ![v2810.toNat, 0]

def k0_chk256 (v2810 : BitVec 32) : Prop :=
  (∀ a, (k0_off1024 v2810) a + S1x8000.size a ≤ S8000x8000.size a)
instance k0_chk256.dec : ∀ (v2810 : BitVec 32), Decidable (k0_chk256 v2810) := fun v2810 => decidable_of_iff' _ (Iff.of_eq (k0_chk256.eq_1 v2810))
theorem k0_off1024_inb : ∀ (v2810 : BitVec 32) (k0_hw256 : k0_chk256 v2810), ∀ a, (k0_off1024 v2810) a + S1x8000.size a ≤ S8000x8000.size a := fun v2810 k0_hw256 => k0_hw256

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8000x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S1024_S1024x1_0 : S1024.BroadcastsInDim S1024x1 (![0] : Fin 1 → Fin S1024x1.rank)
  bcast_S1024x1_S1024x8000_0_1 : S1024x1.BroadcastsInDim S1024x8000 (![0, 1] : Fin 2 → Fin S1024x8000.rank)
  bcast_S1x8000_S1024x8000_0_1 : S1x8000.BroadcastsInDim S1024x8000 (![0, 1] : Fin 2 → Fin S1024x8000.rank)
  transposes_S1024x8000_S8000x1024_1_0 : S1024x8000.Transposes [1, 0] S8000x1024
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  numel1_S1 : S1.numel = 1
  squeezes_S1_S_ : S1.Squeezes S_
  squeezes_S1x8000_S8000 : S1x8000.Squeezes S8000
  inb_S128x8000_S128x8000_0_0 : ∀ a, (![0, 0] : Fin 2 → Nat) a + S128x8000.size a ≤ S128x8000.size a
  h_S128x8000 : 0 < S128x8000.numel
  bitsLt_bf16_f32 : FTy.bits .bf16 < FTy.bits .f32
  inb_S8000x1024_S8000x1024_0_0 : ∀ a, (![0, 0] : Fin 2 → Nat) a + S8000x1024.size a ≤ S8000x1024.size a
  h_S8000x1024 : 0 < S8000x1024.numel
  shapeCasts_S8000x1024_S8000x1024 : S8000x1024.ShapeCasts S8000x1024
  inb_S128x1024_S128x1024_0_0 : ∀ a, (![0, 0] : Fin 2 → Nat) a + S128x1024.size a ≤ S128x1024.size a
  h_S128x1024 : 0 < S128x1024.numel
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S128x128_S128x128_0_0 : ∀ a, (![0, 0] : Fin 2 → Nat) a + S128x128.size a ≤ S128x128.size a
  h_S128x128 : 0 < S128x128.numel
  inb_S256x128_S256x128_0_0 : ∀ a, (![0, 0] : Fin 2 → Nat) a + S256x128.size a ≤ S256x128.size a
  h_S256x128 : 0 < S256x128.numel
  slices_S128x128_o0_0_S128x32 : S128x128.Slices ![0, 0] S128x32
  slices_S256x128_o0_0_S256x32 : S256x128.Slices ![0, 0] S256x32
  shapeCasts_S128x32_S128x1x32 : S128x32.ShapeCasts S128x1x32
  shapeCasts_S256x32_S1x256x32 : S256x32.ShapeCasts S1x256x32
  broadcasts_S128x1x32_S128x256x32 : S128x1x32.Broadcasts S128x256x32
  broadcasts_S1x256x32_S128x256x32 : S1x256x32.Broadcasts S128x256x32
  reduces_S128x256x32_S128x256 : S128x256x32.Reduces [2] S128x256
  slices_S128x128_o0_32_S128x32 : S128x128.Slices ![0, 32] S128x32
  slices_S256x128_o0_32_S256x32 : S256x128.Slices ![0, 32] S256x32
  slices_S128x128_o0_64_S128x32 : S128x128.Slices ![0, 64] S128x32
  slices_S256x128_o0_64_S256x32 : S256x128.Slices ![0, 64] S256x32
  slices_S128x128_o0_96_S128x32 : S128x128.Slices ![0, 96] S128x32
  slices_S256x128_o0_96_S256x32 : S256x128.Slices ![0, 96] S256x32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S128x256_S128 : S128x256.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  broadcasts_S1x1_S8x128 : S1x1.Broadcasts S8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  dot_S128x8000_S8000x1024_S128x1024_1_0_0_1_n_n_wf : DotDims.WF S128x8000 S8000x1024 S128x1024 [1] [0] [0] [1] [] []
  hcc0_scratch1 : 3 + S128.numel ≤ 143
  hrank0 : 0 < grid0.rank
  k0_off1_inb : ∀ i : grid0.Coords, ∀ a, (k0_off1 i) a + S1.size a ≤ S1024.size a
  k0_off2_inb : ∀ a, k0_off2 a + S1.size a ≤ S128.size a
  k0_off3_inb : ∀ a, k0_off3 a + S1x8000.size a ≤ S128x8000.size a
  k0_off5_inb : ∀ i : grid0.Coords, ∀ a, (k0_off5 i) a + S1.size a ≤ S1024.size a
  k0_off6_inb : ∀ a, k0_off6 a + S1.size a ≤ S128.size a
  k0_off7_inb : ∀ a, k0_off7 a + S1x8000.size a ≤ S128x8000.size a
  k0_off9_inb : ∀ i : grid0.Coords, ∀ a, (k0_off9 i) a + S1.size a ≤ S1024.size a
  k0_off10_inb : ∀ a, k0_off10 a + S1.size a ≤ S128.size a
  k0_off11_inb : ∀ a, k0_off11 a + S1x8000.size a ≤ S128x8000.size a
  k0_off13_inb : ∀ i : grid0.Coords, ∀ a, (k0_off13 i) a + S1.size a ≤ S1024.size a
  k0_off14_inb : ∀ a, k0_off14 a + S1.size a ≤ S128.size a
  k0_off15_inb : ∀ a, k0_off15 a + S1x8000.size a ≤ S128x8000.size a
  k0_off17_inb : ∀ i : grid0.Coords, ∀ a, (k0_off17 i) a + S1.size a ≤ S1024.size a
  k0_off18_inb : ∀ a, k0_off18 a + S1.size a ≤ S128.size a
  k0_off19_inb : ∀ a, k0_off19 a + S1x8000.size a ≤ S128x8000.size a
  k0_off21_inb : ∀ i : grid0.Coords, ∀ a, (k0_off21 i) a + S1.size a ≤ S1024.size a
  k0_off22_inb : ∀ a, k0_off22 a + S1.size a ≤ S128.size a
  k0_off23_inb : ∀ a, k0_off23 a + S1x8000.size a ≤ S128x8000.size a
  k0_off25_inb : ∀ i : grid0.Coords, ∀ a, (k0_off25 i) a + S1.size a ≤ S1024.size a
  k0_off26_inb : ∀ a, k0_off26 a + S1.size a ≤ S128.size a
  k0_off27_inb : ∀ a, k0_off27 a + S1x8000.size a ≤ S128x8000.size a
  k0_off29_inb : ∀ i : grid0.Coords, ∀ a, (k0_off29 i) a + S1.size a ≤ S1024.size a
  k0_off30_inb : ∀ a, k0_off30 a + S1.size a ≤ S128.size a
  k0_off31_inb : ∀ a, k0_off31 a + S1x8000.size a ≤ S128x8000.size a
  k0_off33_inb : ∀ i : grid0.Coords, ∀ a, (k0_off33 i) a + S1.size a ≤ S1024.size a
  k0_off34_inb : ∀ a, k0_off34 a + S1.size a ≤ S128.size a
  k0_off35_inb : ∀ a, k0_off35 a + S1x8000.size a ≤ S128x8000.size a
  k0_off37_inb : ∀ i : grid0.Coords, ∀ a, (k0_off37 i) a + S1.size a ≤ S1024.size a
  k0_off38_inb : ∀ a, k0_off38 a + S1.size a ≤ S128.size a
  k0_off39_inb : ∀ a, k0_off39 a + S1x8000.size a ≤ S128x8000.size a
  k0_off41_inb : ∀ i : grid0.Coords, ∀ a, (k0_off41 i) a + S1.size a ≤ S1024.size a
  k0_off42_inb : ∀ a, k0_off42 a + S1.size a ≤ S128.size a
  k0_off43_inb : ∀ a, k0_off43 a + S1x8000.size a ≤ S128x8000.size a
  k0_off45_inb : ∀ i : grid0.Coords, ∀ a, (k0_off45 i) a + S1.size a ≤ S1024.size a
  k0_off46_inb : ∀ a, k0_off46 a + S1.size a ≤ S128.size a
  k0_off47_inb : ∀ a, k0_off47 a + S1x8000.size a ≤ S128x8000.size a
  k0_off49_inb : ∀ i : grid0.Coords, ∀ a, (k0_off49 i) a + S1.size a ≤ S1024.size a
  k0_off50_inb : ∀ a, k0_off50 a + S1.size a ≤ S128.size a
  k0_off51_inb : ∀ a, k0_off51 a + S1x8000.size a ≤ S128x8000.size a
  k0_off53_inb : ∀ i : grid0.Coords, ∀ a, (k0_off53 i) a + S1.size a ≤ S1024.size a
  k0_off54_inb : ∀ a, k0_off54 a + S1.size a ≤ S128.size a
  k0_off55_inb : ∀ a, k0_off55 a + S1x8000.size a ≤ S128x8000.size a
  k0_off57_inb : ∀ i : grid0.Coords, ∀ a, (k0_off57 i) a + S1.size a ≤ S1024.size a
  k0_off58_inb : ∀ a, k0_off58 a + S1.size a ≤ S128.size a
  k0_off59_inb : ∀ a, k0_off59 a + S1x8000.size a ≤ S128x8000.size a
  k0_off61_inb : ∀ i : grid0.Coords, ∀ a, (k0_off61 i) a + S1.size a ≤ S1024.size a
  k0_off62_inb : ∀ a, k0_off62 a + S1.size a ≤ S128.size a
  k0_off63_inb : ∀ a, k0_off63 a + S1x8000.size a ≤ S128x8000.size a
  k0_off65_inb : ∀ i : grid0.Coords, ∀ a, (k0_off65 i) a + S1.size a ≤ S1024.size a
  k0_off66_inb : ∀ a, k0_off66 a + S1.size a ≤ S128.size a
  k0_off67_inb : ∀ a, k0_off67 a + S1x8000.size a ≤ S128x8000.size a
  k0_off69_inb : ∀ i : grid0.Coords, ∀ a, (k0_off69 i) a + S1.size a ≤ S1024.size a
  k0_off70_inb : ∀ a, k0_off70 a + S1.size a ≤ S128.size a
  k0_off71_inb : ∀ a, k0_off71 a + S1x8000.size a ≤ S128x8000.size a
  k0_off73_inb : ∀ i : grid0.Coords, ∀ a, (k0_off73 i) a + S1.size a ≤ S1024.size a
  k0_off74_inb : ∀ a, k0_off74 a + S1.size a ≤ S128.size a
  k0_off75_inb : ∀ a, k0_off75 a + S1x8000.size a ≤ S128x8000.size a
  k0_off77_inb : ∀ i : grid0.Coords, ∀ a, (k0_off77 i) a + S1.size a ≤ S1024.size a
  k0_off78_inb : ∀ a, k0_off78 a + S1.size a ≤ S128.size a
  k0_off79_inb : ∀ a, k0_off79 a + S1x8000.size a ≤ S128x8000.size a
  k0_off81_inb : ∀ i : grid0.Coords, ∀ a, (k0_off81 i) a + S1.size a ≤ S1024.size a
  k0_off82_inb : ∀ a, k0_off82 a + S1.size a ≤ S128.size a
  k0_off83_inb : ∀ a, k0_off83 a + S1x8000.size a ≤ S128x8000.size a
  k0_off85_inb : ∀ i : grid0.Coords, ∀ a, (k0_off85 i) a + S1.size a ≤ S1024.size a
  k0_off86_inb : ∀ a, k0_off86 a + S1.size a ≤ S128.size a
  k0_off87_inb : ∀ a, k0_off87 a + S1x8000.size a ≤ S128x8000.size a
  k0_off89_inb : ∀ i : grid0.Coords, ∀ a, (k0_off89 i) a + S1.size a ≤ S1024.size a
  k0_off90_inb : ∀ a, k0_off90 a + S1.size a ≤ S128.size a
  k0_off91_inb : ∀ a, k0_off91 a + S1x8000.size a ≤ S128x8000.size a
  k0_off93_inb : ∀ i : grid0.Coords, ∀ a, (k0_off93 i) a + S1.size a ≤ S1024.size a
  k0_off94_inb : ∀ a, k0_off94 a + S1.size a ≤ S128.size a
  k0_off95_inb : ∀ a, k0_off95 a + S1x8000.size a ≤ S128x8000.size a
  k0_off97_inb : ∀ i : grid0.Coords, ∀ a, (k0_off97 i) a + S1.size a ≤ S1024.size a
  k0_off98_inb : ∀ a, k0_off98 a + S1.size a ≤ S128.size a
  k0_off99_inb : ∀ a, k0_off99 a + S1x8000.size a ≤ S128x8000.size a
  k0_off101_inb : ∀ i : grid0.Coords, ∀ a, (k0_off101 i) a + S1.size a ≤ S1024.size a
  k0_off102_inb : ∀ a, k0_off102 a + S1.size a ≤ S128.size a
  k0_off103_inb : ∀ a, k0_off103 a + S1x8000.size a ≤ S128x8000.size a
  k0_off105_inb : ∀ i : grid0.Coords, ∀ a, (k0_off105 i) a + S1.size a ≤ S1024.size a
  k0_off106_inb : ∀ a, k0_off106 a + S1.size a ≤ S128.size a
  k0_off107_inb : ∀ a, k0_off107 a + S1x8000.size a ≤ S128x8000.size a
  k0_off109_inb : ∀ i : grid0.Coords, ∀ a, (k0_off109 i) a + S1.size a ≤ S1024.size a
  k0_off110_inb : ∀ a, k0_off110 a + S1.size a ≤ S128.size a
  k0_off111_inb : ∀ a, k0_off111 a + S1x8000.size a ≤ S128x8000.size a
  k0_off113_inb : ∀ i : grid0.Coords, ∀ a, (k0_off113 i) a + S1.size a ≤ S1024.size a
  k0_off114_inb : ∀ a, k0_off114 a + S1.size a ≤ S128.size a
  k0_off115_inb : ∀ a, k0_off115 a + S1x8000.size a ≤ S128x8000.size a
  k0_off117_inb : ∀ i : grid0.Coords, ∀ a, (k0_off117 i) a + S1.size a ≤ S1024.size a
  k0_off118_inb : ∀ a, k0_off118 a + S1.size a ≤ S128.size a
  k0_off119_inb : ∀ a, k0_off119 a + S1x8000.size a ≤ S128x8000.size a
  k0_off121_inb : ∀ i : grid0.Coords, ∀ a, (k0_off121 i) a + S1.size a ≤ S1024.size a
  k0_off122_inb : ∀ a, k0_off122 a + S1.size a ≤ S128.size a
  k0_off123_inb : ∀ a, k0_off123 a + S1x8000.size a ≤ S128x8000.size a
  k0_off125_inb : ∀ i : grid0.Coords, ∀ a, (k0_off125 i) a + S1.size a ≤ S1024.size a
  k0_off126_inb : ∀ a, k0_off126 a + S1.size a ≤ S128.size a
  k0_off127_inb : ∀ a, k0_off127 a + S1x8000.size a ≤ S128x8000.size a
  k0_off129_inb : ∀ i : grid0.Coords, ∀ a, (k0_off129 i) a + S1.size a ≤ S1024.size a
  k0_off130_inb : ∀ a, k0_off130 a + S1.size a ≤ S128.size a
  k0_off131_inb : ∀ a, k0_off131 a + S1x8000.size a ≤ S128x8000.size a
  k0_off133_inb : ∀ i : grid0.Coords, ∀ a, (k0_off133 i) a + S1.size a ≤ S1024.size a
  k0_off134_inb : ∀ a, k0_off134 a + S1.size a ≤ S128.size a
  k0_off135_inb : ∀ a, k0_off135 a + S1x8000.size a ≤ S128x8000.size a
  k0_off137_inb : ∀ i : grid0.Coords, ∀ a, (k0_off137 i) a + S1.size a ≤ S1024.size a
  k0_off138_inb : ∀ a, k0_off138 a + S1.size a ≤ S128.size a
  k0_off139_inb : ∀ a, k0_off139 a + S1x8000.size a ≤ S128x8000.size a
  k0_off141_inb : ∀ i : grid0.Coords, ∀ a, (k0_off141 i) a + S1.size a ≤ S1024.size a
  k0_off142_inb : ∀ a, k0_off142 a + S1.size a ≤ S128.size a
  k0_off143_inb : ∀ a, k0_off143 a + S1x8000.size a ≤ S128x8000.size a
  k0_off145_inb : ∀ i : grid0.Coords, ∀ a, (k0_off145 i) a + S1.size a ≤ S1024.size a
  k0_off146_inb : ∀ a, k0_off146 a + S1.size a ≤ S128.size a
  k0_off147_inb : ∀ a, k0_off147 a + S1x8000.size a ≤ S128x8000.size a
  k0_off149_inb : ∀ i : grid0.Coords, ∀ a, (k0_off149 i) a + S1.size a ≤ S1024.size a
  k0_off150_inb : ∀ a, k0_off150 a + S1.size a ≤ S128.size a
  k0_off151_inb : ∀ a, k0_off151 a + S1x8000.size a ≤ S128x8000.size a
  k0_off153_inb : ∀ i : grid0.Coords, ∀ a, (k0_off153 i) a + S1.size a ≤ S1024.size a
  k0_off154_inb : ∀ a, k0_off154 a + S1.size a ≤ S128.size a
  k0_off155_inb : ∀ a, k0_off155 a + S1x8000.size a ≤ S128x8000.size a
  k0_off157_inb : ∀ i : grid0.Coords, ∀ a, (k0_off157 i) a + S1.size a ≤ S1024.size a
  k0_off158_inb : ∀ a, k0_off158 a + S1.size a ≤ S128.size a
  k0_off159_inb : ∀ a, k0_off159 a + S1x8000.size a ≤ S128x8000.size a
  k0_off161_inb : ∀ i : grid0.Coords, ∀ a, (k0_off161 i) a + S1.size a ≤ S1024.size a
  k0_off162_inb : ∀ a, k0_off162 a + S1.size a ≤ S128.size a
  k0_off163_inb : ∀ a, k0_off163 a + S1x8000.size a ≤ S128x8000.size a
  k0_off165_inb : ∀ i : grid0.Coords, ∀ a, (k0_off165 i) a + S1.size a ≤ S1024.size a
  k0_off166_inb : ∀ a, k0_off166 a + S1.size a ≤ S128.size a
  k0_off167_inb : ∀ a, k0_off167 a + S1x8000.size a ≤ S128x8000.size a
  k0_off169_inb : ∀ i : grid0.Coords, ∀ a, (k0_off169 i) a + S1.size a ≤ S1024.size a
  k0_off170_inb : ∀ a, k0_off170 a + S1.size a ≤ S128.size a
  k0_off171_inb : ∀ a, k0_off171 a + S1x8000.size a ≤ S128x8000.size a
  k0_off173_inb : ∀ i : grid0.Coords, ∀ a, (k0_off173 i) a + S1.size a ≤ S1024.size a
  k0_off174_inb : ∀ a, k0_off174 a + S1.size a ≤ S128.size a
  k0_off175_inb : ∀ a, k0_off175 a + S1x8000.size a ≤ S128x8000.size a
  k0_off177_inb : ∀ i : grid0.Coords, ∀ a, (k0_off177 i) a + S1.size a ≤ S1024.size a
  k0_off178_inb : ∀ a, k0_off178 a + S1.size a ≤ S128.size a
  k0_off179_inb : ∀ a, k0_off179 a + S1x8000.size a ≤ S128x8000.size a
  k0_off181_inb : ∀ i : grid0.Coords, ∀ a, (k0_off181 i) a + S1.size a ≤ S1024.size a
  k0_off182_inb : ∀ a, k0_off182 a + S1.size a ≤ S128.size a
  k0_off183_inb : ∀ a, k0_off183 a + S1x8000.size a ≤ S128x8000.size a
  k0_off185_inb : ∀ i : grid0.Coords, ∀ a, (k0_off185 i) a + S1.size a ≤ S1024.size a
  k0_off186_inb : ∀ a, k0_off186 a + S1.size a ≤ S128.size a
  k0_off187_inb : ∀ a, k0_off187 a + S1x8000.size a ≤ S128x8000.size a
  k0_off189_inb : ∀ i : grid0.Coords, ∀ a, (k0_off189 i) a + S1.size a ≤ S1024.size a
  k0_off190_inb : ∀ a, k0_off190 a + S1.size a ≤ S128.size a
  k0_off191_inb : ∀ a, k0_off191 a + S1x8000.size a ≤ S128x8000.size a
  k0_off193_inb : ∀ i : grid0.Coords, ∀ a, (k0_off193 i) a + S1.size a ≤ S1024.size a
  k0_off194_inb : ∀ a, k0_off194 a + S1.size a ≤ S128.size a
  k0_off195_inb : ∀ a, k0_off195 a + S1x8000.size a ≤ S128x8000.size a
  k0_off197_inb : ∀ i : grid0.Coords, ∀ a, (k0_off197 i) a + S1.size a ≤ S1024.size a
  k0_off198_inb : ∀ a, k0_off198 a + S1.size a ≤ S128.size a
  k0_off199_inb : ∀ a, k0_off199 a + S1x8000.size a ≤ S128x8000.size a
  k0_off201_inb : ∀ i : grid0.Coords, ∀ a, (k0_off201 i) a + S1.size a ≤ S1024.size a
  k0_off202_inb : ∀ a, k0_off202 a + S1.size a ≤ S128.size a
  k0_off203_inb : ∀ a, k0_off203 a + S1x8000.size a ≤ S128x8000.size a
  k0_off205_inb : ∀ i : grid0.Coords, ∀ a, (k0_off205 i) a + S1.size a ≤ S1024.size a
  k0_off206_inb : ∀ a, k0_off206 a + S1.size a ≤ S128.size a
  k0_off207_inb : ∀ a, k0_off207 a + S1x8000.size a ≤ S128x8000.size a
  k0_off209_inb : ∀ i : grid0.Coords, ∀ a, (k0_off209 i) a + S1.size a ≤ S1024.size a
  k0_off210_inb : ∀ a, k0_off210 a + S1.size a ≤ S128.size a
  k0_off211_inb : ∀ a, k0_off211 a + S1x8000.size a ≤ S128x8000.size a
  k0_off213_inb : ∀ i : grid0.Coords, ∀ a, (k0_off213 i) a + S1.size a ≤ S1024.size a
  k0_off214_inb : ∀ a, k0_off214 a + S1.size a ≤ S128.size a
  k0_off215_inb : ∀ a, k0_off215 a + S1x8000.size a ≤ S128x8000.size a
  k0_off217_inb : ∀ i : grid0.Coords, ∀ a, (k0_off217 i) a + S1.size a ≤ S1024.size a
  k0_off218_inb : ∀ a, k0_off218 a + S1.size a ≤ S128.size a
  k0_off219_inb : ∀ a, k0_off219 a + S1x8000.size a ≤ S128x8000.size a
  k0_off221_inb : ∀ i : grid0.Coords, ∀ a, (k0_off221 i) a + S1.size a ≤ S1024.size a
  k0_off222_inb : ∀ a, k0_off222 a + S1.size a ≤ S128.size a
  k0_off223_inb : ∀ a, k0_off223 a + S1x8000.size a ≤ S128x8000.size a
  k0_off225_inb : ∀ i : grid0.Coords, ∀ a, (k0_off225 i) a + S1.size a ≤ S1024.size a
  k0_off226_inb : ∀ a, k0_off226 a + S1.size a ≤ S128.size a
  k0_off227_inb : ∀ a, k0_off227 a + S1x8000.size a ≤ S128x8000.size a
  k0_off229_inb : ∀ i : grid0.Coords, ∀ a, (k0_off229 i) a + S1.size a ≤ S1024.size a
  k0_off230_inb : ∀ a, k0_off230 a + S1.size a ≤ S128.size a
  k0_off231_inb : ∀ a, k0_off231 a + S1x8000.size a ≤ S128x8000.size a
  k0_off233_inb : ∀ i : grid0.Coords, ∀ a, (k0_off233 i) a + S1.size a ≤ S1024.size a
  k0_off234_inb : ∀ a, k0_off234 a + S1.size a ≤ S128.size a
  k0_off235_inb : ∀ a, k0_off235 a + S1x8000.size a ≤ S128x8000.size a
  k0_off237_inb : ∀ i : grid0.Coords, ∀ a, (k0_off237 i) a + S1.size a ≤ S1024.size a
  k0_off238_inb : ∀ a, k0_off238 a + S1.size a ≤ S128.size a
  k0_off239_inb : ∀ a, k0_off239 a + S1x8000.size a ≤ S128x8000.size a
  k0_off241_inb : ∀ i : grid0.Coords, ∀ a, (k0_off241 i) a + S1.size a ≤ S1024.size a
  k0_off242_inb : ∀ a, k0_off242 a + S1.size a ≤ S128.size a
  k0_off243_inb : ∀ a, k0_off243 a + S1x8000.size a ≤ S128x8000.size a
  k0_off245_inb : ∀ i : grid0.Coords, ∀ a, (k0_off245 i) a + S1.size a ≤ S1024.size a
  k0_off246_inb : ∀ a, k0_off246 a + S1.size a ≤ S128.size a
  k0_off247_inb : ∀ a, k0_off247 a + S1x8000.size a ≤ S128x8000.size a
  k0_off249_inb : ∀ i : grid0.Coords, ∀ a, (k0_off249 i) a + S1.size a ≤ S1024.size a
  k0_off250_inb : ∀ a, k0_off250 a + S1.size a ≤ S128.size a
  k0_off251_inb : ∀ a, k0_off251 a + S1x8000.size a ≤ S128x8000.size a
  k0_off253_inb : ∀ i : grid0.Coords, ∀ a, (k0_off253 i) a + S1.size a ≤ S1024.size a
  k0_off254_inb : ∀ a, k0_off254 a + S1.size a ≤ S128.size a
  k0_off255_inb : ∀ a, k0_off255 a + S1x8000.size a ≤ S128x8000.size a
  k0_off257_inb : ∀ i : grid0.Coords, ∀ a, (k0_off257 i) a + S1.size a ≤ S1024.size a
  k0_off258_inb : ∀ a, k0_off258 a + S1.size a ≤ S128.size a
  k0_off259_inb : ∀ a, k0_off259 a + S1x8000.size a ≤ S128x8000.size a
  k0_off261_inb : ∀ i : grid0.Coords, ∀ a, (k0_off261 i) a + S1.size a ≤ S1024.size a
  k0_off262_inb : ∀ a, k0_off262 a + S1.size a ≤ S128.size a
  k0_off263_inb : ∀ a, k0_off263 a + S1x8000.size a ≤ S128x8000.size a
  k0_off265_inb : ∀ i : grid0.Coords, ∀ a, (k0_off265 i) a + S1.size a ≤ S1024.size a
  k0_off266_inb : ∀ a, k0_off266 a + S1.size a ≤ S128.size a
  k0_off267_inb : ∀ a, k0_off267 a + S1x8000.size a ≤ S128x8000.size a
  k0_off269_inb : ∀ i : grid0.Coords, ∀ a, (k0_off269 i) a + S1.size a ≤ S1024.size a
  k0_off270_inb : ∀ a, k0_off270 a + S1.size a ≤ S128.size a
  k0_off271_inb : ∀ a, k0_off271 a + S1x8000.size a ≤ S128x8000.size a
  k0_off273_inb : ∀ i : grid0.Coords, ∀ a, (k0_off273 i) a + S1.size a ≤ S1024.size a
  k0_off274_inb : ∀ a, k0_off274 a + S1.size a ≤ S128.size a
  k0_off275_inb : ∀ a, k0_off275 a + S1x8000.size a ≤ S128x8000.size a
  k0_off277_inb : ∀ i : grid0.Coords, ∀ a, (k0_off277 i) a + S1.size a ≤ S1024.size a
  k0_off278_inb : ∀ a, k0_off278 a + S1.size a ≤ S128.size a
  k0_off279_inb : ∀ a, k0_off279 a + S1x8000.size a ≤ S128x8000.size a
  k0_off281_inb : ∀ i : grid0.Coords, ∀ a, (k0_off281 i) a + S1.size a ≤ S1024.size a
  k0_off282_inb : ∀ a, k0_off282 a + S1.size a ≤ S128.size a
  k0_off283_inb : ∀ a, k0_off283 a + S1x8000.size a ≤ S128x8000.size a
  k0_off285_inb : ∀ i : grid0.Coords, ∀ a, (k0_off285 i) a + S1.size a ≤ S1024.size a
  k0_off286_inb : ∀ a, k0_off286 a + S1.size a ≤ S128.size a
  k0_off287_inb : ∀ a, k0_off287 a + S1x8000.size a ≤ S128x8000.size a
  k0_off289_inb : ∀ i : grid0.Coords, ∀ a, (k0_off289 i) a + S1.size a ≤ S1024.size a
  k0_off290_inb : ∀ a, k0_off290 a + S1.size a ≤ S128.size a
  k0_off291_inb : ∀ a, k0_off291 a + S1x8000.size a ≤ S128x8000.size a
  k0_off293_inb : ∀ i : grid0.Coords, ∀ a, (k0_off293 i) a + S1.size a ≤ S1024.size a
  k0_off294_inb : ∀ a, k0_off294 a + S1.size a ≤ S128.size a
  k0_off295_inb : ∀ a, k0_off295 a + S1x8000.size a ≤ S128x8000.size a
  k0_off297_inb : ∀ i : grid0.Coords, ∀ a, (k0_off297 i) a + S1.size a ≤ S1024.size a
  k0_off298_inb : ∀ a, k0_off298 a + S1.size a ≤ S128.size a
  k0_off299_inb : ∀ a, k0_off299 a + S1x8000.size a ≤ S128x8000.size a
  k0_off301_inb : ∀ i : grid0.Coords, ∀ a, (k0_off301 i) a + S1.size a ≤ S1024.size a
  k0_off302_inb : ∀ a, k0_off302 a + S1.size a ≤ S128.size a
  k0_off303_inb : ∀ a, k0_off303 a + S1x8000.size a ≤ S128x8000.size a
  k0_off305_inb : ∀ i : grid0.Coords, ∀ a, (k0_off305 i) a + S1.size a ≤ S1024.size a
  k0_off306_inb : ∀ a, k0_off306 a + S1.size a ≤ S128.size a
  k0_off307_inb : ∀ a, k0_off307 a + S1x8000.size a ≤ S128x8000.size a
  k0_off309_inb : ∀ i : grid0.Coords, ∀ a, (k0_off309 i) a + S1.size a ≤ S1024.size a
  k0_off310_inb : ∀ a, k0_off310 a + S1.size a ≤ S128.size a
  k0_off311_inb : ∀ a, k0_off311 a + S1x8000.size a ≤ S128x8000.size a
  k0_off313_inb : ∀ i : grid0.Coords, ∀ a, (k0_off313 i) a + S1.size a ≤ S1024.size a
  k0_off314_inb : ∀ a, k0_off314 a + S1.size a ≤ S128.size a
  k0_off315_inb : ∀ a, k0_off315 a + S1x8000.size a ≤ S128x8000.size a
  k0_off317_inb : ∀ i : grid0.Coords, ∀ a, (k0_off317 i) a + S1.size a ≤ S1024.size a
  k0_off318_inb : ∀ a, k0_off318 a + S1.size a ≤ S128.size a
  k0_off319_inb : ∀ a, k0_off319 a + S1x8000.size a ≤ S128x8000.size a
  k0_off321_inb : ∀ i : grid0.Coords, ∀ a, (k0_off321 i) a + S1.size a ≤ S1024.size a
  k0_off322_inb : ∀ a, k0_off322 a + S1.size a ≤ S128.size a
  k0_off323_inb : ∀ a, k0_off323 a + S1x8000.size a ≤ S128x8000.size a
  k0_off325_inb : ∀ i : grid0.Coords, ∀ a, (k0_off325 i) a + S1.size a ≤ S1024.size a
  k0_off326_inb : ∀ a, k0_off326 a + S1.size a ≤ S128.size a
  k0_off327_inb : ∀ a, k0_off327 a + S1x8000.size a ≤ S128x8000.size a
  k0_off329_inb : ∀ i : grid0.Coords, ∀ a, (k0_off329 i) a + S1.size a ≤ S1024.size a
  k0_off330_inb : ∀ a, k0_off330 a + S1.size a ≤ S128.size a
  k0_off331_inb : ∀ a, k0_off331 a + S1x8000.size a ≤ S128x8000.size a
  k0_off333_inb : ∀ i : grid0.Coords, ∀ a, (k0_off333 i) a + S1.size a ≤ S1024.size a
  k0_off334_inb : ∀ a, k0_off334 a + S1.size a ≤ S128.size a
  k0_off335_inb : ∀ a, k0_off335 a + S1x8000.size a ≤ S128x8000.size a
  k0_off337_inb : ∀ i : grid0.Coords, ∀ a, (k0_off337 i) a + S1.size a ≤ S1024.size a
  k0_off338_inb : ∀ a, k0_off338 a + S1.size a ≤ S128.size a
  k0_off339_inb : ∀ a, k0_off339 a + S1x8000.size a ≤ S128x8000.size a
  k0_off341_inb : ∀ i : grid0.Coords, ∀ a, (k0_off341 i) a + S1.size a ≤ S1024.size a
  k0_off342_inb : ∀ a, k0_off342 a + S1.size a ≤ S128.size a
  k0_off343_inb : ∀ a, k0_off343 a + S1x8000.size a ≤ S128x8000.size a
  k0_off345_inb : ∀ i : grid0.Coords, ∀ a, (k0_off345 i) a + S1.size a ≤ S1024.size a
  k0_off346_inb : ∀ a, k0_off346 a + S1.size a ≤ S128.size a
  k0_off347_inb : ∀ a, k0_off347 a + S1x8000.size a ≤ S128x8000.size a
  k0_off349_inb : ∀ i : grid0.Coords, ∀ a, (k0_off349 i) a + S1.size a ≤ S1024.size a
  k0_off350_inb : ∀ a, k0_off350 a + S1.size a ≤ S128.size a
  k0_off351_inb : ∀ a, k0_off351 a + S1x8000.size a ≤ S128x8000.size a
  k0_off353_inb : ∀ i : grid0.Coords, ∀ a, (k0_off353 i) a + S1.size a ≤ S1024.size a
  k0_off354_inb : ∀ a, k0_off354 a + S1.size a ≤ S128.size a
  k0_off355_inb : ∀ a, k0_off355 a + S1x8000.size a ≤ S128x8000.size a
  k0_off357_inb : ∀ i : grid0.Coords, ∀ a, (k0_off357 i) a + S1.size a ≤ S1024.size a
  k0_off358_inb : ∀ a, k0_off358 a + S1.size a ≤ S128.size a
  k0_off359_inb : ∀ a, k0_off359 a + S1x8000.size a ≤ S128x8000.size a
  k0_off361_inb : ∀ i : grid0.Coords, ∀ a, (k0_off361 i) a + S1.size a ≤ S1024.size a
  k0_off362_inb : ∀ a, k0_off362 a + S1.size a ≤ S128.size a
  k0_off363_inb : ∀ a, k0_off363 a + S1x8000.size a ≤ S128x8000.size a
  k0_off365_inb : ∀ i : grid0.Coords, ∀ a, (k0_off365 i) a + S1.size a ≤ S1024.size a
  k0_off366_inb : ∀ a, k0_off366 a + S1.size a ≤ S128.size a
  k0_off367_inb : ∀ a, k0_off367 a + S1x8000.size a ≤ S128x8000.size a
  k0_off369_inb : ∀ i : grid0.Coords, ∀ a, (k0_off369 i) a + S1.size a ≤ S1024.size a
  k0_off370_inb : ∀ a, k0_off370 a + S1.size a ≤ S128.size a
  k0_off371_inb : ∀ a, k0_off371 a + S1x8000.size a ≤ S128x8000.size a
  k0_off373_inb : ∀ i : grid0.Coords, ∀ a, (k0_off373 i) a + S1.size a ≤ S1024.size a
  k0_off374_inb : ∀ a, k0_off374 a + S1.size a ≤ S128.size a
  k0_off375_inb : ∀ a, k0_off375 a + S1x8000.size a ≤ S128x8000.size a
  k0_off377_inb : ∀ i : grid0.Coords, ∀ a, (k0_off377 i) a + S1.size a ≤ S1024.size a
  k0_off378_inb : ∀ a, k0_off378 a + S1.size a ≤ S128.size a
  k0_off379_inb : ∀ a, k0_off379 a + S1x8000.size a ≤ S128x8000.size a
  k0_off381_inb : ∀ i : grid0.Coords, ∀ a, (k0_off381 i) a + S1.size a ≤ S1024.size a
  k0_off382_inb : ∀ a, k0_off382 a + S1.size a ≤ S128.size a
  k0_off383_inb : ∀ a, k0_off383 a + S1x8000.size a ≤ S128x8000.size a
  k0_off385_inb : ∀ i : grid0.Coords, ∀ a, (k0_off385 i) a + S1.size a ≤ S1024.size a
  k0_off386_inb : ∀ a, k0_off386 a + S1.size a ≤ S128.size a
  k0_off387_inb : ∀ a, k0_off387 a + S1x8000.size a ≤ S128x8000.size a
  k0_off389_inb : ∀ i : grid0.Coords, ∀ a, (k0_off389 i) a + S1.size a ≤ S1024.size a
  k0_off390_inb : ∀ a, k0_off390 a + S1.size a ≤ S128.size a
  k0_off391_inb : ∀ a, k0_off391 a + S1x8000.size a ≤ S128x8000.size a
  k0_off393_inb : ∀ i : grid0.Coords, ∀ a, (k0_off393 i) a + S1.size a ≤ S1024.size a
  k0_off394_inb : ∀ a, k0_off394 a + S1.size a ≤ S128.size a
  k0_off395_inb : ∀ a, k0_off395 a + S1x8000.size a ≤ S128x8000.size a
  k0_off397_inb : ∀ i : grid0.Coords, ∀ a, (k0_off397 i) a + S1.size a ≤ S1024.size a
  k0_off398_inb : ∀ a, k0_off398 a + S1.size a ≤ S128.size a
  k0_off399_inb : ∀ a, k0_off399 a + S1x8000.size a ≤ S128x8000.size a
  k0_off401_inb : ∀ i : grid0.Coords, ∀ a, (k0_off401 i) a + S1.size a ≤ S1024.size a
  k0_off402_inb : ∀ a, k0_off402 a + S1.size a ≤ S128.size a
  k0_off403_inb : ∀ a, k0_off403 a + S1x8000.size a ≤ S128x8000.size a
  k0_off405_inb : ∀ i : grid0.Coords, ∀ a, (k0_off405 i) a + S1.size a ≤ S1024.size a
  k0_off406_inb : ∀ a, k0_off406 a + S1.size a ≤ S128.size a
  k0_off407_inb : ∀ a, k0_off407 a + S1x8000.size a ≤ S128x8000.size a
  k0_off409_inb : ∀ i : grid0.Coords, ∀ a, (k0_off409 i) a + S1.size a ≤ S1024.size a
  k0_off410_inb : ∀ a, k0_off410 a + S1.size a ≤ S128.size a
  k0_off411_inb : ∀ a, k0_off411 a + S1x8000.size a ≤ S128x8000.size a
  k0_off413_inb : ∀ i : grid0.Coords, ∀ a, (k0_off413 i) a + S1.size a ≤ S1024.size a
  k0_off414_inb : ∀ a, k0_off414 a + S1.size a ≤ S128.size a
  k0_off415_inb : ∀ a, k0_off415 a + S1x8000.size a ≤ S128x8000.size a
  k0_off417_inb : ∀ i : grid0.Coords, ∀ a, (k0_off417 i) a + S1.size a ≤ S1024.size a
  k0_off418_inb : ∀ a, k0_off418 a + S1.size a ≤ S128.size a
  k0_off419_inb : ∀ a, k0_off419 a + S1x8000.size a ≤ S128x8000.size a
  k0_off421_inb : ∀ i : grid0.Coords, ∀ a, (k0_off421 i) a + S1.size a ≤ S1024.size a
  k0_off422_inb : ∀ a, k0_off422 a + S1.size a ≤ S128.size a
  k0_off423_inb : ∀ a, k0_off423 a + S1x8000.size a ≤ S128x8000.size a
  k0_off425_inb : ∀ i : grid0.Coords, ∀ a, (k0_off425 i) a + S1.size a ≤ S1024.size a
  k0_off426_inb : ∀ a, k0_off426 a + S1.size a ≤ S128.size a
  k0_off427_inb : ∀ a, k0_off427 a + S1x8000.size a ≤ S128x8000.size a
  k0_off429_inb : ∀ i : grid0.Coords, ∀ a, (k0_off429 i) a + S1.size a ≤ S1024.size a
  k0_off430_inb : ∀ a, k0_off430 a + S1.size a ≤ S128.size a
  k0_off431_inb : ∀ a, k0_off431 a + S1x8000.size a ≤ S128x8000.size a
  k0_off433_inb : ∀ i : grid0.Coords, ∀ a, (k0_off433 i) a + S1.size a ≤ S1024.size a
  k0_off434_inb : ∀ a, k0_off434 a + S1.size a ≤ S128.size a
  k0_off435_inb : ∀ a, k0_off435 a + S1x8000.size a ≤ S128x8000.size a
  k0_off437_inb : ∀ i : grid0.Coords, ∀ a, (k0_off437 i) a + S1.size a ≤ S1024.size a
  k0_off438_inb : ∀ a, k0_off438 a + S1.size a ≤ S128.size a
  k0_off439_inb : ∀ a, k0_off439 a + S1x8000.size a ≤ S128x8000.size a
  k0_off441_inb : ∀ i : grid0.Coords, ∀ a, (k0_off441 i) a + S1.size a ≤ S1024.size a
  k0_off442_inb : ∀ a, k0_off442 a + S1.size a ≤ S128.size a
  k0_off443_inb : ∀ a, k0_off443 a + S1x8000.size a ≤ S128x8000.size a
  k0_off445_inb : ∀ i : grid0.Coords, ∀ a, (k0_off445 i) a + S1.size a ≤ S1024.size a
  k0_off446_inb : ∀ a, k0_off446 a + S1.size a ≤ S128.size a
  k0_off447_inb : ∀ a, k0_off447 a + S1x8000.size a ≤ S128x8000.size a
  k0_off449_inb : ∀ i : grid0.Coords, ∀ a, (k0_off449 i) a + S1.size a ≤ S1024.size a
  k0_off450_inb : ∀ a, k0_off450 a + S1.size a ≤ S128.size a
  k0_off451_inb : ∀ a, k0_off451 a + S1x8000.size a ≤ S128x8000.size a
  k0_off453_inb : ∀ i : grid0.Coords, ∀ a, (k0_off453 i) a + S1.size a ≤ S1024.size a
  k0_off454_inb : ∀ a, k0_off454 a + S1.size a ≤ S128.size a
  k0_off455_inb : ∀ a, k0_off455 a + S1x8000.size a ≤ S128x8000.size a
  k0_off457_inb : ∀ i : grid0.Coords, ∀ a, (k0_off457 i) a + S1.size a ≤ S1024.size a
  k0_off458_inb : ∀ a, k0_off458 a + S1.size a ≤ S128.size a
  k0_off459_inb : ∀ a, k0_off459 a + S1x8000.size a ≤ S128x8000.size a
  k0_off461_inb : ∀ i : grid0.Coords, ∀ a, (k0_off461 i) a + S1.size a ≤ S1024.size a
  k0_off462_inb : ∀ a, k0_off462 a + S1.size a ≤ S128.size a
  k0_off463_inb : ∀ a, k0_off463 a + S1x8000.size a ≤ S128x8000.size a
  k0_off465_inb : ∀ i : grid0.Coords, ∀ a, (k0_off465 i) a + S1.size a ≤ S1024.size a
  k0_off466_inb : ∀ a, k0_off466 a + S1.size a ≤ S128.size a
  k0_off467_inb : ∀ a, k0_off467 a + S1x8000.size a ≤ S128x8000.size a
  k0_off469_inb : ∀ i : grid0.Coords, ∀ a, (k0_off469 i) a + S1.size a ≤ S1024.size a
  k0_off470_inb : ∀ a, k0_off470 a + S1.size a ≤ S128.size a
  k0_off471_inb : ∀ a, k0_off471 a + S1x8000.size a ≤ S128x8000.size a
  k0_off473_inb : ∀ i : grid0.Coords, ∀ a, (k0_off473 i) a + S1.size a ≤ S1024.size a
  k0_off474_inb : ∀ a, k0_off474 a + S1.size a ≤ S128.size a
  k0_off475_inb : ∀ a, k0_off475 a + S1x8000.size a ≤ S128x8000.size a
  k0_off477_inb : ∀ i : grid0.Coords, ∀ a, (k0_off477 i) a + S1.size a ≤ S1024.size a
  k0_off478_inb : ∀ a, k0_off478 a + S1.size a ≤ S128.size a
  k0_off479_inb : ∀ a, k0_off479 a + S1x8000.size a ≤ S128x8000.size a
  k0_off481_inb : ∀ i : grid0.Coords, ∀ a, (k0_off481 i) a + S1.size a ≤ S1024.size a
  k0_off482_inb : ∀ a, k0_off482 a + S1.size a ≤ S128.size a
  k0_off483_inb : ∀ a, k0_off483 a + S1x8000.size a ≤ S128x8000.size a
  k0_off485_inb : ∀ i : grid0.Coords, ∀ a, (k0_off485 i) a + S1.size a ≤ S1024.size a
  k0_off486_inb : ∀ a, k0_off486 a + S1.size a ≤ S128.size a
  k0_off487_inb : ∀ a, k0_off487 a + S1x8000.size a ≤ S128x8000.size a
  k0_off489_inb : ∀ i : grid0.Coords, ∀ a, (k0_off489 i) a + S1.size a ≤ S1024.size a
  k0_off490_inb : ∀ a, k0_off490 a + S1.size a ≤ S128.size a
  k0_off491_inb : ∀ a, k0_off491 a + S1x8000.size a ≤ S128x8000.size a
  k0_off493_inb : ∀ i : grid0.Coords, ∀ a, (k0_off493 i) a + S1.size a ≤ S1024.size a
  k0_off494_inb : ∀ a, k0_off494 a + S1.size a ≤ S128.size a
  k0_off495_inb : ∀ a, k0_off495 a + S1x8000.size a ≤ S128x8000.size a
  k0_off497_inb : ∀ i : grid0.Coords, ∀ a, (k0_off497 i) a + S1.size a ≤ S1024.size a
  k0_off498_inb : ∀ a, k0_off498 a + S1.size a ≤ S128.size a
  k0_off499_inb : ∀ a, k0_off499 a + S1x8000.size a ≤ S128x8000.size a
  k0_off501_inb : ∀ i : grid0.Coords, ∀ a, (k0_off501 i) a + S1.size a ≤ S1024.size a
  k0_off502_inb : ∀ a, k0_off502 a + S1.size a ≤ S128.size a
  k0_off503_inb : ∀ a, k0_off503 a + S1x8000.size a ≤ S128x8000.size a
  k0_off505_inb : ∀ i : grid0.Coords, ∀ a, (k0_off505 i) a + S1.size a ≤ S1024.size a
  k0_off506_inb : ∀ a, k0_off506 a + S1.size a ≤ S128.size a
  k0_off507_inb : ∀ a, k0_off507 a + S1x8000.size a ≤ S128x8000.size a
  k0_off509_inb : ∀ i : grid0.Coords, ∀ a, (k0_off509 i) a + S1.size a ≤ S1024.size a
  k0_off510_inb : ∀ a, k0_off510 a + S1.size a ≤ S128.size a
  k0_off511_inb : ∀ a, k0_off511 a + S1x8000.size a ≤ S128x8000.size a
  k0_off513_inb : ∀ i : grid0.Coords, ∀ a, (k0_off513 i) a + S1.size a ≤ S1024.size a
  k0_off514_inb : ∀ a, k0_off514 a + S1.size a ≤ S128.size a
  k0_off515_inb : ∀ a, k0_off515 a + S1x8000.size a ≤ S128x8000.size a
  k0_off517_inb : ∀ i : grid0.Coords, ∀ a, (k0_off517 i) a + S1.size a ≤ S1024.size a
  k0_off518_inb : ∀ a, k0_off518 a + S1.size a ≤ S128.size a
  k0_off519_inb : ∀ a, k0_off519 a + S1x8000.size a ≤ S128x8000.size a
  k0_off521_inb : ∀ i : grid0.Coords, ∀ a, (k0_off521 i) a + S1.size a ≤ S1024.size a
  k0_off522_inb : ∀ a, k0_off522 a + S1.size a ≤ S128.size a
  k0_off523_inb : ∀ a, k0_off523 a + S1x8000.size a ≤ S128x8000.size a
  k0_off525_inb : ∀ i : grid0.Coords, ∀ a, (k0_off525 i) a + S1.size a ≤ S1024.size a
  k0_off526_inb : ∀ a, k0_off526 a + S1.size a ≤ S128.size a
  k0_off527_inb : ∀ a, k0_off527 a + S1x8000.size a ≤ S128x8000.size a
  k0_off529_inb : ∀ i : grid0.Coords, ∀ a, (k0_off529 i) a + S1.size a ≤ S1024.size a
  k0_off530_inb : ∀ a, k0_off530 a + S1.size a ≤ S128.size a
  k0_off531_inb : ∀ a, k0_off531 a + S1x8000.size a ≤ S128x8000.size a
  k0_off533_inb : ∀ i : grid0.Coords, ∀ a, (k0_off533 i) a + S1.size a ≤ S1024.size a
  k0_off534_inb : ∀ a, k0_off534 a + S1.size a ≤ S128.size a
  k0_off535_inb : ∀ a, k0_off535 a + S1x8000.size a ≤ S128x8000.size a
  k0_off537_inb : ∀ i : grid0.Coords, ∀ a, (k0_off537 i) a + S1.size a ≤ S1024.size a
  k0_off538_inb : ∀ a, k0_off538 a + S1.size a ≤ S128.size a
  k0_off539_inb : ∀ a, k0_off539 a + S1x8000.size a ≤ S128x8000.size a
  k0_off541_inb : ∀ i : grid0.Coords, ∀ a, (k0_off541 i) a + S1.size a ≤ S1024.size a
  k0_off542_inb : ∀ a, k0_off542 a + S1.size a ≤ S128.size a
  k0_off543_inb : ∀ a, k0_off543 a + S1x8000.size a ≤ S128x8000.size a
  k0_off545_inb : ∀ i : grid0.Coords, ∀ a, (k0_off545 i) a + S1.size a ≤ S1024.size a
  k0_off546_inb : ∀ a, k0_off546 a + S1.size a ≤ S128.size a
  k0_off547_inb : ∀ a, k0_off547 a + S1x8000.size a ≤ S128x8000.size a
  k0_off549_inb : ∀ i : grid0.Coords, ∀ a, (k0_off549 i) a + S1.size a ≤ S1024.size a
  k0_off550_inb : ∀ a, k0_off550 a + S1.size a ≤ S128.size a
  k0_off551_inb : ∀ a, k0_off551 a + S1x8000.size a ≤ S128x8000.size a
  k0_off553_inb : ∀ i : grid0.Coords, ∀ a, (k0_off553 i) a + S1.size a ≤ S1024.size a
  k0_off554_inb : ∀ a, k0_off554 a + S1.size a ≤ S128.size a
  k0_off555_inb : ∀ a, k0_off555 a + S1x8000.size a ≤ S128x8000.size a
  k0_off557_inb : ∀ i : grid0.Coords, ∀ a, (k0_off557 i) a + S1.size a ≤ S1024.size a
  k0_off558_inb : ∀ a, k0_off558 a + S1.size a ≤ S128.size a
  k0_off559_inb : ∀ a, k0_off559 a + S1x8000.size a ≤ S128x8000.size a
  k0_off561_inb : ∀ i : grid0.Coords, ∀ a, (k0_off561 i) a + S1.size a ≤ S1024.size a
  k0_off562_inb : ∀ a, k0_off562 a + S1.size a ≤ S128.size a
  k0_off563_inb : ∀ a, k0_off563 a + S1x8000.size a ≤ S128x8000.size a
  k0_off565_inb : ∀ i : grid0.Coords, ∀ a, (k0_off565 i) a + S1.size a ≤ S1024.size a
  k0_off566_inb : ∀ a, k0_off566 a + S1.size a ≤ S128.size a
  k0_off567_inb : ∀ a, k0_off567 a + S1x8000.size a ≤ S128x8000.size a
  k0_off569_inb : ∀ i : grid0.Coords, ∀ a, (k0_off569 i) a + S1.size a ≤ S1024.size a
  k0_off570_inb : ∀ a, k0_off570 a + S1.size a ≤ S128.size a
  k0_off571_inb : ∀ a, k0_off571 a + S1x8000.size a ≤ S128x8000.size a
  k0_off573_inb : ∀ i : grid0.Coords, ∀ a, (k0_off573 i) a + S1.size a ≤ S1024.size a
  k0_off574_inb : ∀ a, k0_off574 a + S1.size a ≤ S128.size a
  k0_off575_inb : ∀ a, k0_off575 a + S1x8000.size a ≤ S128x8000.size a
  k0_off577_inb : ∀ i : grid0.Coords, ∀ a, (k0_off577 i) a + S1.size a ≤ S1024.size a
  k0_off578_inb : ∀ a, k0_off578 a + S1.size a ≤ S128.size a
  k0_off579_inb : ∀ a, k0_off579 a + S1x8000.size a ≤ S128x8000.size a
  k0_off581_inb : ∀ i : grid0.Coords, ∀ a, (k0_off581 i) a + S1.size a ≤ S1024.size a
  k0_off582_inb : ∀ a, k0_off582 a + S1.size a ≤ S128.size a
  k0_off583_inb : ∀ a, k0_off583 a + S1x8000.size a ≤ S128x8000.size a
  k0_off585_inb : ∀ i : grid0.Coords, ∀ a, (k0_off585 i) a + S1.size a ≤ S1024.size a
  k0_off586_inb : ∀ a, k0_off586 a + S1.size a ≤ S128.size a
  k0_off587_inb : ∀ a, k0_off587 a + S1x8000.size a ≤ S128x8000.size a
  k0_off589_inb : ∀ i : grid0.Coords, ∀ a, (k0_off589 i) a + S1.size a ≤ S1024.size a
  k0_off590_inb : ∀ a, k0_off590 a + S1.size a ≤ S128.size a
  k0_off591_inb : ∀ a, k0_off591 a + S1x8000.size a ≤ S128x8000.size a
  k0_off593_inb : ∀ i : grid0.Coords, ∀ a, (k0_off593 i) a + S1.size a ≤ S1024.size a
  k0_off594_inb : ∀ a, k0_off594 a + S1.size a ≤ S128.size a
  k0_off595_inb : ∀ a, k0_off595 a + S1x8000.size a ≤ S128x8000.size a
  k0_off597_inb : ∀ i : grid0.Coords, ∀ a, (k0_off597 i) a + S1.size a ≤ S1024.size a
  k0_off598_inb : ∀ a, k0_off598 a + S1.size a ≤ S128.size a
  k0_off599_inb : ∀ a, k0_off599 a + S1x8000.size a ≤ S128x8000.size a
  k0_off601_inb : ∀ i : grid0.Coords, ∀ a, (k0_off601 i) a + S1.size a ≤ S1024.size a
  k0_off602_inb : ∀ a, k0_off602 a + S1.size a ≤ S128.size a
  k0_off603_inb : ∀ a, k0_off603 a + S1x8000.size a ≤ S128x8000.size a
  k0_off605_inb : ∀ i : grid0.Coords, ∀ a, (k0_off605 i) a + S1.size a ≤ S1024.size a
  k0_off606_inb : ∀ a, k0_off606 a + S1.size a ≤ S128.size a
  k0_off607_inb : ∀ a, k0_off607 a + S1x8000.size a ≤ S128x8000.size a
  k0_off609_inb : ∀ i : grid0.Coords, ∀ a, (k0_off609 i) a + S1.size a ≤ S1024.size a
  k0_off610_inb : ∀ a, k0_off610 a + S1.size a ≤ S128.size a
  k0_off611_inb : ∀ a, k0_off611 a + S1x8000.size a ≤ S128x8000.size a
  k0_off613_inb : ∀ i : grid0.Coords, ∀ a, (k0_off613 i) a + S1.size a ≤ S1024.size a
  k0_off614_inb : ∀ a, k0_off614 a + S1.size a ≤ S128.size a
  k0_off615_inb : ∀ a, k0_off615 a + S1x8000.size a ≤ S128x8000.size a
  k0_off617_inb : ∀ i : grid0.Coords, ∀ a, (k0_off617 i) a + S1.size a ≤ S1024.size a
  k0_off618_inb : ∀ a, k0_off618 a + S1.size a ≤ S128.size a
  k0_off619_inb : ∀ a, k0_off619 a + S1x8000.size a ≤ S128x8000.size a
  k0_off621_inb : ∀ i : grid0.Coords, ∀ a, (k0_off621 i) a + S1.size a ≤ S1024.size a
  k0_off622_inb : ∀ a, k0_off622 a + S1.size a ≤ S128.size a
  k0_off623_inb : ∀ a, k0_off623 a + S1x8000.size a ≤ S128x8000.size a
  k0_off625_inb : ∀ i : grid0.Coords, ∀ a, (k0_off625 i) a + S1.size a ≤ S1024.size a
  k0_off626_inb : ∀ a, k0_off626 a + S1.size a ≤ S128.size a
  k0_off627_inb : ∀ a, k0_off627 a + S1x8000.size a ≤ S128x8000.size a
  k0_off629_inb : ∀ i : grid0.Coords, ∀ a, (k0_off629 i) a + S1.size a ≤ S1024.size a
  k0_off630_inb : ∀ a, k0_off630 a + S1.size a ≤ S128.size a
  k0_off631_inb : ∀ a, k0_off631 a + S1x8000.size a ≤ S128x8000.size a
  k0_off633_inb : ∀ i : grid0.Coords, ∀ a, (k0_off633 i) a + S1.size a ≤ S1024.size a
  k0_off634_inb : ∀ a, k0_off634 a + S1.size a ≤ S128.size a
  k0_off635_inb : ∀ a, k0_off635 a + S1x8000.size a ≤ S128x8000.size a
  k0_off637_inb : ∀ i : grid0.Coords, ∀ a, (k0_off637 i) a + S1.size a ≤ S1024.size a
  k0_off638_inb : ∀ a, k0_off638 a + S1.size a ≤ S128.size a
  k0_off639_inb : ∀ a, k0_off639 a + S1x8000.size a ≤ S128x8000.size a
  k0_off641_inb : ∀ i : grid0.Coords, ∀ a, (k0_off641 i) a + S1.size a ≤ S1024.size a
  k0_off642_inb : ∀ a, k0_off642 a + S1.size a ≤ S128.size a
  k0_off643_inb : ∀ a, k0_off643 a + S1x8000.size a ≤ S128x8000.size a
  k0_off645_inb : ∀ i : grid0.Coords, ∀ a, (k0_off645 i) a + S1.size a ≤ S1024.size a
  k0_off646_inb : ∀ a, k0_off646 a + S1.size a ≤ S128.size a
  k0_off647_inb : ∀ a, k0_off647 a + S1x8000.size a ≤ S128x8000.size a
  k0_off649_inb : ∀ i : grid0.Coords, ∀ a, (k0_off649 i) a + S1.size a ≤ S1024.size a
  k0_off650_inb : ∀ a, k0_off650 a + S1.size a ≤ S128.size a
  k0_off651_inb : ∀ a, k0_off651 a + S1x8000.size a ≤ S128x8000.size a
  k0_off653_inb : ∀ i : grid0.Coords, ∀ a, (k0_off653 i) a + S1.size a ≤ S1024.size a
  k0_off654_inb : ∀ a, k0_off654 a + S1.size a ≤ S128.size a
  k0_off655_inb : ∀ a, k0_off655 a + S1x8000.size a ≤ S128x8000.size a
  k0_off657_inb : ∀ i : grid0.Coords, ∀ a, (k0_off657 i) a + S1.size a ≤ S1024.size a
  k0_off658_inb : ∀ a, k0_off658 a + S1.size a ≤ S128.size a
  k0_off659_inb : ∀ a, k0_off659 a + S1x8000.size a ≤ S128x8000.size a
  k0_off661_inb : ∀ i : grid0.Coords, ∀ a, (k0_off661 i) a + S1.size a ≤ S1024.size a
  k0_off662_inb : ∀ a, k0_off662 a + S1.size a ≤ S128.size a
  k0_off663_inb : ∀ a, k0_off663 a + S1x8000.size a ≤ S128x8000.size a
  k0_off665_inb : ∀ i : grid0.Coords, ∀ a, (k0_off665 i) a + S1.size a ≤ S1024.size a
  k0_off666_inb : ∀ a, k0_off666 a + S1.size a ≤ S128.size a
  k0_off667_inb : ∀ a, k0_off667 a + S1x8000.size a ≤ S128x8000.size a
  k0_off669_inb : ∀ i : grid0.Coords, ∀ a, (k0_off669 i) a + S1.size a ≤ S1024.size a
  k0_off670_inb : ∀ a, k0_off670 a + S1.size a ≤ S128.size a
  k0_off671_inb : ∀ a, k0_off671 a + S1x8000.size a ≤ S128x8000.size a
  k0_off673_inb : ∀ i : grid0.Coords, ∀ a, (k0_off673 i) a + S1.size a ≤ S1024.size a
  k0_off674_inb : ∀ a, k0_off674 a + S1.size a ≤ S128.size a
  k0_off675_inb : ∀ a, k0_off675 a + S1x8000.size a ≤ S128x8000.size a
  k0_off677_inb : ∀ i : grid0.Coords, ∀ a, (k0_off677 i) a + S1.size a ≤ S1024.size a
  k0_off678_inb : ∀ a, k0_off678 a + S1.size a ≤ S128.size a
  k0_off679_inb : ∀ a, k0_off679 a + S1x8000.size a ≤ S128x8000.size a
  k0_off681_inb : ∀ i : grid0.Coords, ∀ a, (k0_off681 i) a + S1.size a ≤ S1024.size a
  k0_off682_inb : ∀ a, k0_off682 a + S1.size a ≤ S128.size a
  k0_off683_inb : ∀ a, k0_off683 a + S1x8000.size a ≤ S128x8000.size a
  k0_off685_inb : ∀ i : grid0.Coords, ∀ a, (k0_off685 i) a + S1.size a ≤ S1024.size a
  k0_off686_inb : ∀ a, k0_off686 a + S1.size a ≤ S128.size a
  k0_off687_inb : ∀ a, k0_off687 a + S1x8000.size a ≤ S128x8000.size a
  k0_off689_inb : ∀ i : grid0.Coords, ∀ a, (k0_off689 i) a + S1.size a ≤ S1024.size a
  k0_off690_inb : ∀ a, k0_off690 a + S1.size a ≤ S128.size a
  k0_off691_inb : ∀ a, k0_off691 a + S1x8000.size a ≤ S128x8000.size a
  k0_off693_inb : ∀ i : grid0.Coords, ∀ a, (k0_off693 i) a + S1.size a ≤ S1024.size a
  k0_off694_inb : ∀ a, k0_off694 a + S1.size a ≤ S128.size a
  k0_off695_inb : ∀ a, k0_off695 a + S1x8000.size a ≤ S128x8000.size a
  k0_off697_inb : ∀ i : grid0.Coords, ∀ a, (k0_off697 i) a + S1.size a ≤ S1024.size a
  k0_off698_inb : ∀ a, k0_off698 a + S1.size a ≤ S128.size a
  k0_off699_inb : ∀ a, k0_off699 a + S1x8000.size a ≤ S128x8000.size a
  k0_off701_inb : ∀ i : grid0.Coords, ∀ a, (k0_off701 i) a + S1.size a ≤ S1024.size a
  k0_off702_inb : ∀ a, k0_off702 a + S1.size a ≤ S128.size a
  k0_off703_inb : ∀ a, k0_off703 a + S1x8000.size a ≤ S128x8000.size a
  k0_off705_inb : ∀ i : grid0.Coords, ∀ a, (k0_off705 i) a + S1.size a ≤ S1024.size a
  k0_off706_inb : ∀ a, k0_off706 a + S1.size a ≤ S128.size a
  k0_off707_inb : ∀ a, k0_off707 a + S1x8000.size a ≤ S128x8000.size a
  k0_off709_inb : ∀ i : grid0.Coords, ∀ a, (k0_off709 i) a + S1.size a ≤ S1024.size a
  k0_off710_inb : ∀ a, k0_off710 a + S1.size a ≤ S128.size a
  k0_off711_inb : ∀ a, k0_off711 a + S1x8000.size a ≤ S128x8000.size a
  k0_off713_inb : ∀ i : grid0.Coords, ∀ a, (k0_off713 i) a + S1.size a ≤ S1024.size a
  k0_off714_inb : ∀ a, k0_off714 a + S1.size a ≤ S128.size a
  k0_off715_inb : ∀ a, k0_off715 a + S1x8000.size a ≤ S128x8000.size a
  k0_off717_inb : ∀ i : grid0.Coords, ∀ a, (k0_off717 i) a + S1.size a ≤ S1024.size a
  k0_off718_inb : ∀ a, k0_off718 a + S1.size a ≤ S128.size a
  k0_off719_inb : ∀ a, k0_off719 a + S1x8000.size a ≤ S128x8000.size a
  k0_off721_inb : ∀ i : grid0.Coords, ∀ a, (k0_off721 i) a + S1.size a ≤ S1024.size a
  k0_off722_inb : ∀ a, k0_off722 a + S1.size a ≤ S128.size a
  k0_off723_inb : ∀ a, k0_off723 a + S1x8000.size a ≤ S128x8000.size a
  k0_off725_inb : ∀ i : grid0.Coords, ∀ a, (k0_off725 i) a + S1.size a ≤ S1024.size a
  k0_off726_inb : ∀ a, k0_off726 a + S1.size a ≤ S128.size a
  k0_off727_inb : ∀ a, k0_off727 a + S1x8000.size a ≤ S128x8000.size a
  k0_off729_inb : ∀ i : grid0.Coords, ∀ a, (k0_off729 i) a + S1.size a ≤ S1024.size a
  k0_off730_inb : ∀ a, k0_off730 a + S1.size a ≤ S128.size a
  k0_off731_inb : ∀ a, k0_off731 a + S1x8000.size a ≤ S128x8000.size a
  k0_off733_inb : ∀ i : grid0.Coords, ∀ a, (k0_off733 i) a + S1.size a ≤ S1024.size a
  k0_off734_inb : ∀ a, k0_off734 a + S1.size a ≤ S128.size a
  k0_off735_inb : ∀ a, k0_off735 a + S1x8000.size a ≤ S128x8000.size a
  k0_off737_inb : ∀ i : grid0.Coords, ∀ a, (k0_off737 i) a + S1.size a ≤ S1024.size a
  k0_off738_inb : ∀ a, k0_off738 a + S1.size a ≤ S128.size a
  k0_off739_inb : ∀ a, k0_off739 a + S1x8000.size a ≤ S128x8000.size a
  k0_off741_inb : ∀ i : grid0.Coords, ∀ a, (k0_off741 i) a + S1.size a ≤ S1024.size a
  k0_off742_inb : ∀ a, k0_off742 a + S1.size a ≤ S128.size a
  k0_off743_inb : ∀ a, k0_off743 a + S1x8000.size a ≤ S128x8000.size a
  k0_off745_inb : ∀ i : grid0.Coords, ∀ a, (k0_off745 i) a + S1.size a ≤ S1024.size a
  k0_off746_inb : ∀ a, k0_off746 a + S1.size a ≤ S128.size a
  k0_off747_inb : ∀ a, k0_off747 a + S1x8000.size a ≤ S128x8000.size a
  k0_off749_inb : ∀ i : grid0.Coords, ∀ a, (k0_off749 i) a + S1.size a ≤ S1024.size a
  k0_off750_inb : ∀ a, k0_off750 a + S1.size a ≤ S128.size a
  k0_off751_inb : ∀ a, k0_off751 a + S1x8000.size a ≤ S128x8000.size a
  k0_off753_inb : ∀ i : grid0.Coords, ∀ a, (k0_off753 i) a + S1.size a ≤ S1024.size a
  k0_off754_inb : ∀ a, k0_off754 a + S1.size a ≤ S128.size a
  k0_off755_inb : ∀ a, k0_off755 a + S1x8000.size a ≤ S128x8000.size a
  k0_off757_inb : ∀ i : grid0.Coords, ∀ a, (k0_off757 i) a + S1.size a ≤ S1024.size a
  k0_off758_inb : ∀ a, k0_off758 a + S1.size a ≤ S128.size a
  k0_off759_inb : ∀ a, k0_off759 a + S1x8000.size a ≤ S128x8000.size a
  k0_off761_inb : ∀ i : grid0.Coords, ∀ a, (k0_off761 i) a + S1.size a ≤ S1024.size a
  k0_off762_inb : ∀ a, k0_off762 a + S1.size a ≤ S128.size a
  k0_off763_inb : ∀ a, k0_off763 a + S1x8000.size a ≤ S128x8000.size a
  k0_off765_inb : ∀ i : grid0.Coords, ∀ a, (k0_off765 i) a + S1.size a ≤ S1024.size a
  k0_off766_inb : ∀ a, k0_off766 a + S1.size a ≤ S128.size a
  k0_off767_inb : ∀ a, k0_off767 a + S1x8000.size a ≤ S128x8000.size a
  k0_off769_inb : ∀ i : grid0.Coords, ∀ a, (k0_off769 i) a + S1.size a ≤ S1024.size a
  k0_off770_inb : ∀ a, k0_off770 a + S1.size a ≤ S128.size a
  k0_off771_inb : ∀ a, k0_off771 a + S1x8000.size a ≤ S128x8000.size a
  k0_off773_inb : ∀ i : grid0.Coords, ∀ a, (k0_off773 i) a + S1.size a ≤ S1024.size a
  k0_off774_inb : ∀ a, k0_off774 a + S1.size a ≤ S128.size a
  k0_off775_inb : ∀ a, k0_off775 a + S1x8000.size a ≤ S128x8000.size a
  k0_off777_inb : ∀ i : grid0.Coords, ∀ a, (k0_off777 i) a + S1.size a ≤ S1024.size a
  k0_off778_inb : ∀ a, k0_off778 a + S1.size a ≤ S128.size a
  k0_off779_inb : ∀ a, k0_off779 a + S1x8000.size a ≤ S128x8000.size a
  k0_off781_inb : ∀ i : grid0.Coords, ∀ a, (k0_off781 i) a + S1.size a ≤ S1024.size a
  k0_off782_inb : ∀ a, k0_off782 a + S1.size a ≤ S128.size a
  k0_off783_inb : ∀ a, k0_off783 a + S1x8000.size a ≤ S128x8000.size a
  k0_off785_inb : ∀ i : grid0.Coords, ∀ a, (k0_off785 i) a + S1.size a ≤ S1024.size a
  k0_off786_inb : ∀ a, k0_off786 a + S1.size a ≤ S128.size a
  k0_off787_inb : ∀ a, k0_off787 a + S1x8000.size a ≤ S128x8000.size a
  k0_off789_inb : ∀ i : grid0.Coords, ∀ a, (k0_off789 i) a + S1.size a ≤ S1024.size a
  k0_off790_inb : ∀ a, k0_off790 a + S1.size a ≤ S128.size a
  k0_off791_inb : ∀ a, k0_off791 a + S1x8000.size a ≤ S128x8000.size a
  k0_off793_inb : ∀ i : grid0.Coords, ∀ a, (k0_off793 i) a + S1.size a ≤ S1024.size a
  k0_off794_inb : ∀ a, k0_off794 a + S1.size a ≤ S128.size a
  k0_off795_inb : ∀ a, k0_off795 a + S1x8000.size a ≤ S128x8000.size a
  k0_off797_inb : ∀ i : grid0.Coords, ∀ a, (k0_off797 i) a + S1.size a ≤ S1024.size a
  k0_off798_inb : ∀ a, k0_off798 a + S1.size a ≤ S128.size a
  k0_off799_inb : ∀ a, k0_off799 a + S1x8000.size a ≤ S128x8000.size a
  k0_off801_inb : ∀ i : grid0.Coords, ∀ a, (k0_off801 i) a + S1.size a ≤ S1024.size a
  k0_off802_inb : ∀ a, k0_off802 a + S1.size a ≤ S128.size a
  k0_off803_inb : ∀ a, k0_off803 a + S1x8000.size a ≤ S128x8000.size a
  k0_off805_inb : ∀ i : grid0.Coords, ∀ a, (k0_off805 i) a + S1.size a ≤ S1024.size a
  k0_off806_inb : ∀ a, k0_off806 a + S1.size a ≤ S128.size a
  k0_off807_inb : ∀ a, k0_off807 a + S1x8000.size a ≤ S128x8000.size a
  k0_off809_inb : ∀ i : grid0.Coords, ∀ a, (k0_off809 i) a + S1.size a ≤ S1024.size a
  k0_off810_inb : ∀ a, k0_off810 a + S1.size a ≤ S128.size a
  k0_off811_inb : ∀ a, k0_off811 a + S1x8000.size a ≤ S128x8000.size a
  k0_off813_inb : ∀ i : grid0.Coords, ∀ a, (k0_off813 i) a + S1.size a ≤ S1024.size a
  k0_off814_inb : ∀ a, k0_off814 a + S1.size a ≤ S128.size a
  k0_off815_inb : ∀ a, k0_off815 a + S1x8000.size a ≤ S128x8000.size a
  k0_off817_inb : ∀ i : grid0.Coords, ∀ a, (k0_off817 i) a + S1.size a ≤ S1024.size a
  k0_off818_inb : ∀ a, k0_off818 a + S1.size a ≤ S128.size a
  k0_off819_inb : ∀ a, k0_off819 a + S1x8000.size a ≤ S128x8000.size a
  k0_off821_inb : ∀ i : grid0.Coords, ∀ a, (k0_off821 i) a + S1.size a ≤ S1024.size a
  k0_off822_inb : ∀ a, k0_off822 a + S1.size a ≤ S128.size a
  k0_off823_inb : ∀ a, k0_off823 a + S1x8000.size a ≤ S128x8000.size a
  k0_off825_inb : ∀ i : grid0.Coords, ∀ a, (k0_off825 i) a + S1.size a ≤ S1024.size a
  k0_off826_inb : ∀ a, k0_off826 a + S1.size a ≤ S128.size a
  k0_off827_inb : ∀ a, k0_off827 a + S1x8000.size a ≤ S128x8000.size a
  k0_off829_inb : ∀ i : grid0.Coords, ∀ a, (k0_off829 i) a + S1.size a ≤ S1024.size a
  k0_off830_inb : ∀ a, k0_off830 a + S1.size a ≤ S128.size a
  k0_off831_inb : ∀ a, k0_off831 a + S1x8000.size a ≤ S128x8000.size a
  k0_off833_inb : ∀ i : grid0.Coords, ∀ a, (k0_off833 i) a + S1.size a ≤ S1024.size a
  k0_off834_inb : ∀ a, k0_off834 a + S1.size a ≤ S128.size a
  k0_off835_inb : ∀ a, k0_off835 a + S1x8000.size a ≤ S128x8000.size a
  k0_off837_inb : ∀ i : grid0.Coords, ∀ a, (k0_off837 i) a + S1.size a ≤ S1024.size a
  k0_off838_inb : ∀ a, k0_off838 a + S1.size a ≤ S128.size a
  k0_off839_inb : ∀ a, k0_off839 a + S1x8000.size a ≤ S128x8000.size a
  k0_off841_inb : ∀ i : grid0.Coords, ∀ a, (k0_off841 i) a + S1.size a ≤ S1024.size a
  k0_off842_inb : ∀ a, k0_off842 a + S1.size a ≤ S128.size a
  k0_off843_inb : ∀ a, k0_off843 a + S1x8000.size a ≤ S128x8000.size a
  k0_off845_inb : ∀ i : grid0.Coords, ∀ a, (k0_off845 i) a + S1.size a ≤ S1024.size a
  k0_off846_inb : ∀ a, k0_off846 a + S1.size a ≤ S128.size a
  k0_off847_inb : ∀ a, k0_off847 a + S1x8000.size a ≤ S128x8000.size a
  k0_off849_inb : ∀ i : grid0.Coords, ∀ a, (k0_off849 i) a + S1.size a ≤ S1024.size a
  k0_off850_inb : ∀ a, k0_off850 a + S1.size a ≤ S128.size a
  k0_off851_inb : ∀ a, k0_off851 a + S1x8000.size a ≤ S128x8000.size a
  k0_off853_inb : ∀ i : grid0.Coords, ∀ a, (k0_off853 i) a + S1.size a ≤ S1024.size a
  k0_off854_inb : ∀ a, k0_off854 a + S1.size a ≤ S128.size a
  k0_off855_inb : ∀ a, k0_off855 a + S1x8000.size a ≤ S128x8000.size a
  k0_off857_inb : ∀ i : grid0.Coords, ∀ a, (k0_off857 i) a + S1.size a ≤ S1024.size a
  k0_off858_inb : ∀ a, k0_off858 a + S1.size a ≤ S128.size a
  k0_off859_inb : ∀ a, k0_off859 a + S1x8000.size a ≤ S128x8000.size a
  k0_off861_inb : ∀ i : grid0.Coords, ∀ a, (k0_off861 i) a + S1.size a ≤ S1024.size a
  k0_off862_inb : ∀ a, k0_off862 a + S1.size a ≤ S128.size a
  k0_off863_inb : ∀ a, k0_off863 a + S1x8000.size a ≤ S128x8000.size a
  k0_off865_inb : ∀ i : grid0.Coords, ∀ a, (k0_off865 i) a + S1.size a ≤ S1024.size a
  k0_off866_inb : ∀ a, k0_off866 a + S1.size a ≤ S128.size a
  k0_off867_inb : ∀ a, k0_off867 a + S1x8000.size a ≤ S128x8000.size a
  k0_off869_inb : ∀ i : grid0.Coords, ∀ a, (k0_off869 i) a + S1.size a ≤ S1024.size a
  k0_off870_inb : ∀ a, k0_off870 a + S1.size a ≤ S128.size a
  k0_off871_inb : ∀ a, k0_off871 a + S1x8000.size a ≤ S128x8000.size a
  k0_off873_inb : ∀ i : grid0.Coords, ∀ a, (k0_off873 i) a + S1.size a ≤ S1024.size a
  k0_off874_inb : ∀ a, k0_off874 a + S1.size a ≤ S128.size a
  k0_off875_inb : ∀ a, k0_off875 a + S1x8000.size a ≤ S128x8000.size a
  k0_off877_inb : ∀ i : grid0.Coords, ∀ a, (k0_off877 i) a + S1.size a ≤ S1024.size a
  k0_off878_inb : ∀ a, k0_off878 a + S1.size a ≤ S128.size a
  k0_off879_inb : ∀ a, k0_off879 a + S1x8000.size a ≤ S128x8000.size a
  k0_off881_inb : ∀ i : grid0.Coords, ∀ a, (k0_off881 i) a + S1.size a ≤ S1024.size a
  k0_off882_inb : ∀ a, k0_off882 a + S1.size a ≤ S128.size a
  k0_off883_inb : ∀ a, k0_off883 a + S1x8000.size a ≤ S128x8000.size a
  k0_off885_inb : ∀ i : grid0.Coords, ∀ a, (k0_off885 i) a + S1.size a ≤ S1024.size a
  k0_off886_inb : ∀ a, k0_off886 a + S1.size a ≤ S128.size a
  k0_off887_inb : ∀ a, k0_off887 a + S1x8000.size a ≤ S128x8000.size a
  k0_off889_inb : ∀ i : grid0.Coords, ∀ a, (k0_off889 i) a + S1.size a ≤ S1024.size a
  k0_off890_inb : ∀ a, k0_off890 a + S1.size a ≤ S128.size a
  k0_off891_inb : ∀ a, k0_off891 a + S1x8000.size a ≤ S128x8000.size a
  k0_off893_inb : ∀ i : grid0.Coords, ∀ a, (k0_off893 i) a + S1.size a ≤ S1024.size a
  k0_off894_inb : ∀ a, k0_off894 a + S1.size a ≤ S128.size a
  k0_off895_inb : ∀ a, k0_off895 a + S1x8000.size a ≤ S128x8000.size a
  k0_off897_inb : ∀ i : grid0.Coords, ∀ a, (k0_off897 i) a + S1.size a ≤ S1024.size a
  k0_off898_inb : ∀ a, k0_off898 a + S1.size a ≤ S128.size a
  k0_off899_inb : ∀ a, k0_off899 a + S1x8000.size a ≤ S128x8000.size a
  k0_off901_inb : ∀ i : grid0.Coords, ∀ a, (k0_off901 i) a + S1.size a ≤ S1024.size a
  k0_off902_inb : ∀ a, k0_off902 a + S1.size a ≤ S128.size a
  k0_off903_inb : ∀ a, k0_off903 a + S1x8000.size a ≤ S128x8000.size a
  k0_off905_inb : ∀ i : grid0.Coords, ∀ a, (k0_off905 i) a + S1.size a ≤ S1024.size a
  k0_off906_inb : ∀ a, k0_off906 a + S1.size a ≤ S128.size a
  k0_off907_inb : ∀ a, k0_off907 a + S1x8000.size a ≤ S128x8000.size a
  k0_off909_inb : ∀ i : grid0.Coords, ∀ a, (k0_off909 i) a + S1.size a ≤ S1024.size a
  k0_off910_inb : ∀ a, k0_off910 a + S1.size a ≤ S128.size a
  k0_off911_inb : ∀ a, k0_off911 a + S1x8000.size a ≤ S128x8000.size a
  k0_off913_inb : ∀ i : grid0.Coords, ∀ a, (k0_off913 i) a + S1.size a ≤ S1024.size a
  k0_off914_inb : ∀ a, k0_off914 a + S1.size a ≤ S128.size a
  k0_off915_inb : ∀ a, k0_off915 a + S1x8000.size a ≤ S128x8000.size a
  k0_off917_inb : ∀ i : grid0.Coords, ∀ a, (k0_off917 i) a + S1.size a ≤ S1024.size a
  k0_off918_inb : ∀ a, k0_off918 a + S1.size a ≤ S128.size a
  k0_off919_inb : ∀ a, k0_off919 a + S1x8000.size a ≤ S128x8000.size a
  k0_off921_inb : ∀ i : grid0.Coords, ∀ a, (k0_off921 i) a + S1.size a ≤ S1024.size a
  k0_off922_inb : ∀ a, k0_off922 a + S1.size a ≤ S128.size a
  k0_off923_inb : ∀ a, k0_off923 a + S1x8000.size a ≤ S128x8000.size a
  k0_off925_inb : ∀ i : grid0.Coords, ∀ a, (k0_off925 i) a + S1.size a ≤ S1024.size a
  k0_off926_inb : ∀ a, k0_off926 a + S1.size a ≤ S128.size a
  k0_off927_inb : ∀ a, k0_off927 a + S1x8000.size a ≤ S128x8000.size a
  k0_off929_inb : ∀ i : grid0.Coords, ∀ a, (k0_off929 i) a + S1.size a ≤ S1024.size a
  k0_off930_inb : ∀ a, k0_off930 a + S1.size a ≤ S128.size a
  k0_off931_inb : ∀ a, k0_off931 a + S1x8000.size a ≤ S128x8000.size a
  k0_off933_inb : ∀ i : grid0.Coords, ∀ a, (k0_off933 i) a + S1.size a ≤ S1024.size a
  k0_off934_inb : ∀ a, k0_off934 a + S1.size a ≤ S128.size a
  k0_off935_inb : ∀ a, k0_off935 a + S1x8000.size a ≤ S128x8000.size a
  k0_off937_inb : ∀ i : grid0.Coords, ∀ a, (k0_off937 i) a + S1.size a ≤ S1024.size a
  k0_off938_inb : ∀ a, k0_off938 a + S1.size a ≤ S128.size a
  k0_off939_inb : ∀ a, k0_off939 a + S1x8000.size a ≤ S128x8000.size a
  k0_off941_inb : ∀ i : grid0.Coords, ∀ a, (k0_off941 i) a + S1.size a ≤ S1024.size a
  k0_off942_inb : ∀ a, k0_off942 a + S1.size a ≤ S128.size a
  k0_off943_inb : ∀ a, k0_off943 a + S1x8000.size a ≤ S128x8000.size a
  k0_off945_inb : ∀ i : grid0.Coords, ∀ a, (k0_off945 i) a + S1.size a ≤ S1024.size a
  k0_off946_inb : ∀ a, k0_off946 a + S1.size a ≤ S128.size a
  k0_off947_inb : ∀ a, k0_off947 a + S1x8000.size a ≤ S128x8000.size a
  k0_off949_inb : ∀ i : grid0.Coords, ∀ a, (k0_off949 i) a + S1.size a ≤ S1024.size a
  k0_off950_inb : ∀ a, k0_off950 a + S1.size a ≤ S128.size a
  k0_off951_inb : ∀ a, k0_off951 a + S1x8000.size a ≤ S128x8000.size a
  k0_off953_inb : ∀ i : grid0.Coords, ∀ a, (k0_off953 i) a + S1.size a ≤ S1024.size a
  k0_off954_inb : ∀ a, k0_off954 a + S1.size a ≤ S128.size a
  k0_off955_inb : ∀ a, k0_off955 a + S1x8000.size a ≤ S128x8000.size a
  k0_off957_inb : ∀ i : grid0.Coords, ∀ a, (k0_off957 i) a + S1.size a ≤ S1024.size a
  k0_off958_inb : ∀ a, k0_off958 a + S1.size a ≤ S128.size a
  k0_off959_inb : ∀ a, k0_off959 a + S1x8000.size a ≤ S128x8000.size a
  k0_off961_inb : ∀ i : grid0.Coords, ∀ a, (k0_off961 i) a + S1.size a ≤ S1024.size a
  k0_off962_inb : ∀ a, k0_off962 a + S1.size a ≤ S128.size a
  k0_off963_inb : ∀ a, k0_off963 a + S1x8000.size a ≤ S128x8000.size a
  k0_off965_inb : ∀ i : grid0.Coords, ∀ a, (k0_off965 i) a + S1.size a ≤ S1024.size a
  k0_off966_inb : ∀ a, k0_off966 a + S1.size a ≤ S128.size a
  k0_off967_inb : ∀ a, k0_off967 a + S1x8000.size a ≤ S128x8000.size a
  k0_off969_inb : ∀ i : grid0.Coords, ∀ a, (k0_off969 i) a + S1.size a ≤ S1024.size a
  k0_off970_inb : ∀ a, k0_off970 a + S1.size a ≤ S128.size a
  k0_off971_inb : ∀ a, k0_off971 a + S1x8000.size a ≤ S128x8000.size a
  k0_off973_inb : ∀ i : grid0.Coords, ∀ a, (k0_off973 i) a + S1.size a ≤ S1024.size a
  k0_off974_inb : ∀ a, k0_off974 a + S1.size a ≤ S128.size a
  k0_off975_inb : ∀ a, k0_off975 a + S1x8000.size a ≤ S128x8000.size a
  k0_off977_inb : ∀ i : grid0.Coords, ∀ a, (k0_off977 i) a + S1.size a ≤ S1024.size a
  k0_off978_inb : ∀ a, k0_off978 a + S1.size a ≤ S128.size a
  k0_off979_inb : ∀ a, k0_off979 a + S1x8000.size a ≤ S128x8000.size a
  k0_off981_inb : ∀ i : grid0.Coords, ∀ a, (k0_off981 i) a + S1.size a ≤ S1024.size a
  k0_off982_inb : ∀ a, k0_off982 a + S1.size a ≤ S128.size a
  k0_off983_inb : ∀ a, k0_off983 a + S1x8000.size a ≤ S128x8000.size a
  k0_off985_inb : ∀ i : grid0.Coords, ∀ a, (k0_off985 i) a + S1.size a ≤ S1024.size a
  k0_off986_inb : ∀ a, k0_off986 a + S1.size a ≤ S128.size a
  k0_off987_inb : ∀ a, k0_off987 a + S1x8000.size a ≤ S128x8000.size a
  k0_off989_inb : ∀ i : grid0.Coords, ∀ a, (k0_off989 i) a + S1.size a ≤ S1024.size a
  k0_off990_inb : ∀ a, k0_off990 a + S1.size a ≤ S128.size a
  k0_off991_inb : ∀ a, k0_off991 a + S1x8000.size a ≤ S128x8000.size a
  k0_off993_inb : ∀ i : grid0.Coords, ∀ a, (k0_off993 i) a + S1.size a ≤ S1024.size a
  k0_off994_inb : ∀ a, k0_off994 a + S1.size a ≤ S128.size a
  k0_off995_inb : ∀ a, k0_off995 a + S1x8000.size a ≤ S128x8000.size a
  k0_off997_inb : ∀ i : grid0.Coords, ∀ a, (k0_off997 i) a + S1.size a ≤ S1024.size a
  k0_off998_inb : ∀ a, k0_off998 a + S1.size a ≤ S128.size a
  k0_off999_inb : ∀ a, k0_off999 a + S1x8000.size a ≤ S128x8000.size a
  k0_off1001_inb : ∀ i : grid0.Coords, ∀ a, (k0_off1001 i) a + S1.size a ≤ S1024.size a
  k0_off1002_inb : ∀ a, k0_off1002 a + S1.size a ≤ S128.size a
  k0_off1003_inb : ∀ a, k0_off1003 a + S1x8000.size a ≤ S128x8000.size a
  k0_off1005_inb : ∀ i : grid0.Coords, ∀ a, (k0_off1005 i) a + S1.size a ≤ S1024.size a
  k0_off1006_inb : ∀ a, k0_off1006 a + S1.size a ≤ S128.size a
  k0_off1007_inb : ∀ a, k0_off1007 a + S1x8000.size a ≤ S128x8000.size a
  k0_off1009_inb : ∀ i : grid0.Coords, ∀ a, (k0_off1009 i) a + S1.size a ≤ S1024.size a
  k0_off1010_inb : ∀ a, k0_off1010 a + S1.size a ≤ S128.size a
  k0_off1011_inb : ∀ a, k0_off1011 a + S1x8000.size a ≤ S128x8000.size a
  k0_off1013_inb : ∀ i : grid0.Coords, ∀ a, (k0_off1013 i) a + S1.size a ≤ S1024.size a
  k0_off1014_inb : ∀ a, k0_off1014 a + S1.size a ≤ S128.size a
  k0_off1015_inb : ∀ a, k0_off1015 a + S1x8000.size a ≤ S128x8000.size a
  k0_off1017_inb : ∀ i : grid0.Coords, ∀ a, (k0_off1017 i) a + S1.size a ≤ S1024.size a
  k0_off1018_inb : ∀ a, k0_off1018 a + S1.size a ≤ S128.size a
  k0_off1019_inb : ∀ a, k0_off1019 a + S1x8000.size a ≤ S128x8000.size a
  k0_off1021_inb : ∀ i : grid0.Coords, ∀ a, (k0_off1021 i) a + S1.size a ≤ S1024.size a
  k0_off1022_inb : ∀ a, k0_off1022 a + S1.size a ≤ S128.size a
  k0_off1023_inb : ∀ a, k0_off1023 a + S1x8000.size a ≤ S128x8000.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S8000x1024.size a ≤ S8000x1024.size a
  hwx0_0 : ∀ i : grid0.Coords, EltTy.bits .bf16 = 32 ∨ (Rect.block (s := S8000x1024) S8000x1024.size (cc0_transform_1 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S128x1024.size a ≤ S1024x1024.size a
  hwx0_1 : ∀ i : grid0.Coords, EltTy.bits .f32 = 32 ∨ (Rect.block (s := S1024x1024) S128x1024.size (cc0_transform_2 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S1024x1024.size a
  hwx1_0 : ∀ i : grid1.Coords, EltTy.bits .f32 = 32 ∨ (Rect.block (s := S1024x1024) S128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S1024x1024.size a
  hwx1_1 : ∀ i : grid1.Coords, EltTy.bits .f32 = 32 ∨ (Rect.block (s := S1024x1024) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S1024x128.size a
  hwx1_2 : ∀ i : grid1.Coords, EltTy.bits .f32 = 32 ∨ (Rect.block (s := S1024x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S1024x128.size a
  hwx1_3 : ∀ i : grid1.Coords, EltTy.bits .f32 = 32 ∨ (Rect.block (s := S1024x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x128.size a ≤ S8x8x128.size a
  hwx1_4 : ∀ i : grid1.Coords, EltTy.bits .f32 = 32 ∨ (Rect.block (s := S8x8x128) S1x8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x128.size a ≤ S8x8x128.size a
  hwx1_5 : ∀ i : grid1.Coords, EltTy.bits .f32 = 32 ∨ (Rect.block (s := S8x8x128) S1x8x128.size (cc1_transform_5 i) (hinb1_5 i)).WholeWords (EltTy.packing .f32)

variable [Facts₀]

abbrev cc0_scratch1 : DmaSems sig S128 := SemArray.consecutive 3 S128 hcc0_scratch1
def dot_S128x8000_S8000x1024_S128x1024_1_0_0_1_n_n : DotDims S128x8000 S8000x1024 S128x1024 where
  lhsContracting := [1]
  rhsContracting := [0]
  lhsNonContracting := [0]
  rhsNonContracting := [1]
  lhsBatch := []
  rhsBatch := []
  wf := dot_S128x8000_S8000x1024_S128x1024_1_0_0_1_n_n_wf

abbrev spec0_0 : Pipeline.WinSpec sig grid0.rank :=
  Pipeline.WinSpec.ofSpec (Memref.whole main_v1) S8000x1024.size reads0_0 false true 1 stage0_0 sem0_0 nbuf0_0 hstage0_0

abbrev spec0_1 : Pipeline.WinSpec sig grid0.rank :=
  Pipeline.WinSpec.ofSpec (Memref.whole main_v8) S128x1024.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev win1_0 : Pipeline.Window sig grid1 :=
  Pipeline.Window.ofSpec (Memref.whole main_v8) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_0) S1x8x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_1) S1x8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  harr0 : ∀ w, (spec0 w).arr.IsWhole

variable [Facts]
-- ==== ReferenceIdeal.lean ====
abbrev S1024 : Shape := ⟨1, ![1024]⟩
abbrev S1024x128 : Shape := ⟨2, ![1024, 128]⟩
abbrev S8000x8000 : Shape := ⟨2, ![8000, 8000]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S_ : Shape := ⟨0, ![]⟩
abbrev S1024x1024 : Shape := ⟨2, ![1024, 1024]⟩
abbrev S1024x1 : Shape := ⟨2, ![1024, 1]⟩
abbrev S1x1024 : Shape := ⟨2, ![1, 1024]⟩
abbrev S1024x1024x1 : Shape := ⟨3, ![1024, 1024, 1]⟩
abbrev S1024x1024x2 : Shape := ⟨3, ![1024, 1024, 2]⟩

abbrev nBuf : Space → Nat
  | .hbm => 50
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024x128, .f32⟩
  | .hbm, ⟨2, _⟩ => ⟨S8000x8000, .f32⟩
  | .hbm, ⟨3, _⟩ => ⟨S1024x1x128, .f32⟩
  | .hbm, ⟨4, _⟩ => ⟨S1x1024x128, .f32⟩
  | .hbm, ⟨5, _⟩ => ⟨S1024x1024x128, .f32⟩
  | .hbm, ⟨6, _⟩ => ⟨S1024x1024x128, .f32⟩
  | .hbm, ⟨7, _⟩ => ⟨S1024x1024x128, .f32⟩
  | .hbm, ⟨8, _⟩ => ⟨S1024x1024x128, .f32⟩
  | .hbm, ⟨9, _⟩ => ⟨S_, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1, .i32⟩
  | .hbm, ⟨15, _⟩ => ⟨S1x1024, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S_, .i32⟩
  | .hbm, ⟨20, _⟩ => ⟨S1024x1, .i32⟩
  | .hbm, ⟨21, _⟩ => ⟨S1024x1, .i32⟩
  | .hbm, ⟨22, _⟩ => ⟨S1024x1, .i32⟩
  | .hbm, ⟨23, _⟩ => ⟨S_, .i32⟩
  | .hbm, ⟨24, _⟩ => ⟨S1x1024, .i32⟩
  | .hbm, ⟨25, _⟩ => ⟨S1x1024, .i1⟩
  | .hbm, ⟨26, _⟩ => ⟨S_, .i32⟩
  | .hbm, ⟨27, _⟩ => ⟨S1x1024, .i32⟩
  | .hbm, ⟨28, _⟩ => ⟨S1x1024, .i32⟩
  | .hbm, ⟨29, _⟩ => ⟨S1x1024, .i32⟩
  | .hbm, ⟨30, _⟩ => ⟨S1024x1024, .i32⟩
  | .hbm, ⟨31, _⟩ => ⟨S1024x1024, .i32⟩
  | .hbm, ⟨32, _⟩ => ⟨S1024x1024x1, .i32⟩
  | .hbm, ⟨33, _⟩ => ⟨S1024x1024x1, .i32⟩
  | .hbm, ⟨34, _⟩ => ⟨S1024x1024x2, .i32⟩
  | .hbm, ⟨35, _⟩ => ⟨S1024x1024, .f32⟩
  | .hbm, ⟨36, _⟩ => ⟨S1024x1, .i32⟩
  | .hbm, ⟨37, _⟩ => ⟨S1x1024, .i32⟩
  | .hbm, ⟨38, _⟩ => ⟨S1024x1024, .i32⟩
  | .hbm, ⟨39, _⟩ => ⟨S1024x1024, .i32⟩
  | .hbm, ⟨40, _⟩ => ⟨S1024x1024, .i1⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  h_S_ : 0 < S_.numel
  bcast_S_S1024x1024 : S_.BroadcastsInDim S1024x1024 (![] : Fin 0 → Fin S1024x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S_S1024x1 : S_.BroadcastsInDim S1024x1 (![] : Fin 0 → Fin S1024x1.rank)
  bcast_S_S1x1024 : S_.BroadcastsInDim S1x1024 (![] : Fin 0 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S1024x1024x1_0_1 : S1024x1024.BroadcastsInDim S1024x1024x1 (![0, 1] : Fin 2 → Fin S1024x1024x1.rank)
  concatenates_S1024x1024x1_S1024x1024x1_S1024x1024x2_d2 : Shape.Concatenates [S1024x1024x1, S1024x1024x1] S1024x1024x2 2
  reducesTo_S1024x1024_S_d0_1 : S1024x1024.ReducesTo [0, 1] S_
  gather_S8000x8000_S1024x1024x2_S1024x1024_n_01_n_n_01_2_11_wf : GatherDims.WF S8000x8000 S1024x1024x2 S1024x1024 [] [0, 1] [] [0, 1] [] 2 ![1, 1]

variable [Facts₀]

def gather_S8000x8000_S1024x1024x2_S1024x1024_n_01_n_n_01_2_11 : GatherDims S8000x8000 S1024x1024x2 S1024x1024 where
  offsetDims := []
  collapsedSliceDims := [0, 1]
  operandBatchingDims := []
  startIndicesBatchingDims := []
  startIndexMap := [0, 1]
  indexVectorDim := 2
  sliceSizes := ![1, 1]
  wf := gather_S8000x8000_S1024x1024x2_S1024x1024_n_01_n_n_01_2_11_wf

class Facts : Prop extends Facts₀ where

variable [Facts]
-- ==== Proof.K.R0Defs.lean ====
/-
  Region 0 (the row gather and column select): the names its run, its proof data and the launch share.
  The kernel copies 128 rows of the distance table, one per id of the tile, from the table left in HBM
  into a scratch block, each copy on a semaphore of its own, waits for all of them, and multiplies the
  block by the selector window.
-/
import proofs.«403333_j71021579206675_3_alg».proof.Proof.Gen.Kernel.Launch
import proofs.«403333_j71021579206675_3_alg».proof.Proof.Gen.Kernel.Skeleton
import proofs.«403333_j71021579206675_3_alg».proof.Proof.Gen.Kernel.Points
import proofs.«403333_j71021579206675_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead
import Idealize.ShloMosaic.Lib.ValueIdx

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The id table, the scratch block the rows are gathered into, and the distance table left in HBM. -/
abbrev tblM0 : Memref sig .tc .smem S1024 .i32 := Memref.whole main_arg0
abbrev scM0_0 : Memref sig .tc .vmem S128x8000 .f32 := Memref.whole cc0_scratch0
abbrev hbM0_0 : Memref sig .tc .hbm S8000x8000 .f32 := Memref.whole main_arg2
abbrev HbBuf0 (c : Dev nD) {sp : Space} {S : Shape} {e : EltTy} (M : Memref sig .tc sp S e) : Type := Buf (Elt F) (M.view.loc (c : Thread nD τ))
/-- A buffer held whole at a share. -/
abbrev hbPtq (c : Dev nD) {sp : Space} {S : Shape} {e : EltTy} (M : Memref sig .tc sp S e) (q : PosShare TreeShare) (f : HbBuf0 (F := F) c M) : sProp 𝕄 :=
  M.view.loc (c : Thread nD τ) ↦{q} f

/-- A word below 8000 names a row of the distance table: the row's 8000 entries lie inside the table. -/
theorem chk_of_lt (v : BitVec 32) (h : v.toNat < 8000) :
    ∀ a : Fin 2, (![v.toNat, 0] : Fin 2 → ℕ) a + S1x8000.size a ≤ S8000x8000.size a := by
  intro a
  match a with
  | ⟨0, _⟩ => exact Nat.succ_le_of_lt h
  | ⟨1, _⟩ => exact Nat.le_refl _

/-- The rows the tile gathers, as one block: row `r` of the block at grid point `i` is the row of the distance table
    `X` that id `128 i + r` of the table `xt` names (indices reduced into range, so that the block is a total function of
    its arguments; where every id is below 8000 the reduction changes nothing). -/
def gathered (i : grid0.Coords) (xt : S1024.Idx → BitVec 32) (X : S8000x8000.Idx → Elt F .f32) : S128x8000.Idx → Elt F .f32 :=
  fun y => X (ValueIdx.ix2 (n0 := 8000) (n1 := 8000)
    ⟨(xt (ValueIdx.ix1 (n := 1024) ⟨(128 * (i 0).val + (y 0).val) % 1024, Nat.mod_lt _ (by decide)⟩)).toNat % 8000, Nat.mod_lt _ (by decide)⟩
    ⟨(y 1).val, (y 1).isLt⟩)

/-- The kernel's own semaphores: one per row of the tile. -/
abbrev osem0 : Fin 128 → SemLoc sig := fun j => SemLoc.dma ⟨3 + j.val, by have := j.isLt; show 3 + j.val < 143; omega⟩
theorem ownSemFacts0 : Pipeline.OwnSemFacts spec0 osem0 := by decide
/-- The operand the kernel reads by its own copies. -/
def H0 : Finset (Ref sig .tc) := {main_arg2}

end Cert.Kernel.H

end
-- ==== Proof.K.R0Rows.lean ====
/-
  Region 0's scratch block row by row: the 128 rows of the gathered block, each held by its own elements while its
  copy is in flight, joined back into the whole block; and the row memref the program names, its elements and what is
  read and written through it.
-/
import proofs.«403333_j71021579206675_3_alg».proof.Proof.K.R0Defs
import Idealize.ShloMosaic.Lib.SparseCore.Stream
import Idealize.ShloMosaic.Lib.ValueIdx

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The block held whole, and row by row -/

/-- The block held whole at contents `f` is its 128 rows, each held by its own elements at `f`. -/
theorem split_rows (c : Dev nD) (f : Buf (Elt F) (scM0_0.view.loc (c : Thread nD τ))) :
    (scM0_0.view.loc (c : Thread nD τ) ↦[scM0_0.view.set]{fullShare} f : sProp 𝕄)
      ⊢ bigSep Finset.univ (fun k : Fin 128 => scM0_0.view.loc (c : Thread nD τ) ↦[(scM0_0.view.slice (S128x8000.rowRect 0 k)).set]{fullShare} f) :=
  Entails.of_eq (pointsTo_rows (c : Thread nD τ) scM0_0.view 0 fullShare f)

/-- The 128 rows, row `k` held at contents that agree with `G` on the row, are the block held whole at `G`. -/
theorem join_rows (c : Dev nD) (Fk : Fin 128 → Buf (Elt F) (scM0_0.view.loc (c : Thread nD τ)))
    (G : Buf (Elt F) (scM0_0.view.loc (c : Thread nD τ)))
    (h : ∀ k, ∀ i ∈ (scM0_0.view.slice (S128x8000.rowRect 0 k)).set, Fk k i = G i) :
    (bigSep Finset.univ (fun k : Fin 128 => scM0_0.view.loc (c : Thread nD τ) ↦[(scM0_0.view.slice (S128x8000.rowRect 0 k)).set]{fullShare} Fk k) : sProp 𝕄)
      ⊢ (scM0_0.view.loc (c : Thread nD τ) ↦[scM0_0.view.set]{fullShare} G) :=
  (bigSep_mono fun k _ => Entails.of_eq (pointsTo_congr (h k))).trans
    (Entails.of_eq (pointsTo_rows (c : Thread nD τ) scM0_0.view 0 fullShare G).symm)

/-! ## The row memref as the program spells it -/

/-- Row `off 0` of the block, cut out as a `[1, 8000]` window and its unit axis dropped. -/
abbrev rowM (off : Fin 2 → ℕ) (inb : ∀ a, off a + S1x8000.size a ≤ S128x8000.size a) : Memref sig .tc .vmem S8000 .f32 :=
  (scM0_0.slice (Rect.unit (s := S128x8000) off S1x8000.size inb) (fun _ => rfl)).squeeze S8000 squeezes_S1x8000_S8000

/-- The window at offsets `(k, 0)` is row `k`'s rectangle. -/
theorem rowRect_eq (k : Fin 128) (inb : ∀ a, (![k.val, 0] : Fin 2 → ℕ) a + S1x8000.size a ≤ S128x8000.size a) :
    Rect.unit (s := S128x8000) ![k.val, 0] S1x8000.size inb = S128x8000.rowRect 0 k := by
  unfold Shape.rowRect
  congr 1
  · funext b
    match b with
    | ⟨0, _⟩ => rfl
    | ⟨1, _⟩ => rfl
  · funext b
    match b with
    | ⟨0, _⟩ => rfl
    | ⟨1, _⟩ => rfl

/-- The row memref has row `k`'s elements. -/
theorem rowM_set (off : Fin 2 → ℕ) (inb : ∀ a, off a + S1x8000.size a ≤ S128x8000.size a) (k : Fin 128) (hoff : off = ![k.val, 0]) :
    (rowM off inb).view.set = (scM0_0.view.slice (S128x8000.rowRect 0 k)).set := by
  subst hoff
  have h1 : (rowM ![k.val, 0] inb).view.set
      = (scM0_0.view.slice (Rect.unit (s := S128x8000) ![k.val, 0] S1x8000.size inb)).set := View.set_reshape _ _
  rw [h1, View.set_slice, View.set_slice, rowRect_eq k inb]

/-- Entry `j` of a row matched with the `[1, 8000]` window is `(0, j)`. -/
theorem reshape_row (h : S8000.numel = S1x8000.numel) (j : S8000.Idx) :
    Shape.reshapeEquiv h j = (ValueIdx.ix2 (0 : Fin 1) (⟨(j 0).val, (j 0).isLt⟩ : Fin 8000) : S1x8000.Idx) :=
  Shape.reshapeEquiv_eq_of_rowMajor h (by
    rw [Shape.rowMajor_val_two, Shape.rowMajor_val_one]
    show 0 * 8000 + (j 0).val = (j 0).val
    rw [Nat.zero_mul, Nat.zero_add])

/-- The row memref's `j`-th element is the block's element `(k, j)`. -/
theorem rowM_emb (k : Fin 128) (inb : ∀ a, (![k.val, 0] : Fin 2 → ℕ) a + S1x8000.size a ≤ S128x8000.size a) (j : S8000.Idx) :
    ((rowM ![k.val, 0] inb).view.emb j : S128x8000.Idx) = ValueIdx.ix2 k (⟨(j 0).val, (j 0).isLt⟩ : Fin 8000) := by
  show (Rect.unit (s := S128x8000) ![k.val, 0] S1x8000.size inb).emb (Shape.reshapeEquiv squeezes_S1x8000_S8000.numel_eq j) = _
  rw [reshape_row]
  funext b
  refine Fin.ext ?_
  match b with
  | ⟨0, _⟩ => show k.val + 1 * 0 = k.val; omega
  | ⟨1, _⟩ => show 0 + 1 * (j 0).val = (j 0).val; omega

/-- The block rebuilt from what it reads, under the row memref's `j`-th element, is what it reads at `(k, j)`. -/
theorem unread_at_row (X : S128x8000.Idx → Elt F .f32) (off : Fin 2 → ℕ) (inb : ∀ a, off a + S1x8000.size a ≤ S128x8000.size a)
    (k : Fin 128) (hoff : off = ![k.val, 0]) (j : S8000.Idx) :
    ((Memref.isWhole_whole cc0_scratch0).unread (Val := Elt F) X) ((rowM off inb).view.emb j)
      = X (ValueIdx.ix2 k (⟨(j 0).val, (j 0).isLt⟩ : Fin 8000)) := by
  subst hoff
  have hr := congrFun ((Memref.isWhole_whole cc0_scratch0).read_unread (Val := Elt F) X) ((rowM ![k.val, 0] inb).view.emb j)
  rw [rowM_emb k inb j] at hr
  rw [rowM_emb k inb j]
  exact hr

/-- A write through the row memref, read back under its `j`-th element, is the payload's entry `j`. -/
theorem write_row_at (off : Fin 2 → ℕ) (inb : ∀ a, off a + S1x8000.size a ≤ S128x8000.size a)
    (fs : (rowM off inb).view.ty.Contents (Elt F)) (p : S8000.Idx → Elt F .f32) (j : S8000.Idx) :
    (View.write (Elt F) (rowM off inb).view fs p Finset.univ) ((rowM off inb).view.emb j) = p j :=
  (View.write_emb_of_mem (Val := Elt F) (v := (rowM off inb).view) fs p (M := Finset.univ) (Finset.mem_univ j)).trans (cast_eq _ _)

/-- Every element of the row memref is one of its entries. -/
theorem mem_rowM_set (off : Fin 2 → ℕ) (inb : ∀ a, off a + S1x8000.size a ≤ S128x8000.size a)
    (i : (rowM off inb).view.ty.Idx) (hi : i ∈ (rowM off inb).view.set) : ∃ j : S8000.Idx, (rowM off inb).view.emb j = i := by
  obtain ⟨j, -, rfl⟩ := Finset.mem_map.mp hi
  exact ⟨j, rfl⟩

/-! ## The rows in the program's spelling: held through the row memref, location and elements both -/

/-- A row held by its own elements, the location and the element set both read through the row memref. -/
abbrev rowPtW (c : Dev nD) (off : Fin 2 → ℕ) (inb : ∀ a, off a + S1x8000.size a ≤ S128x8000.size a)
    (f : Buf (Elt F) ((rowM off inb).view.loc (c : Thread nD τ))) : sProp 𝕄 :=
  (rowM off inb).view.loc (c : Thread nD τ) ↦[(rowM off inb).view.set]{fullShare} f

/-- Row `k` of the block held by its elements is the row memref's own points-to. -/
theorem rowPtW_of_row (c : Dev nD) (off : Fin 2 → ℕ) (inb : ∀ a, off a + S1x8000.size a ≤ S128x8000.size a) (k : Fin 128)
    (hoff : off = ![k.val, 0]) (f : Buf (Elt F) (scM0_0.view.loc (c : Thread nD τ))) :
    (scM0_0.view.loc (c : Thread nD τ) ↦[(scM0_0.view.slice (S128x8000.rowRect 0 k)).set]{fullShare} f : sProp 𝕄)
      = rowPtW c off inb f := by
  show _ = ((rowM off inb).view.loc (c : Thread nD τ) ↦[(rowM off inb).view.set]{fullShare} f : sProp 𝕄)
  rw [rowM_set off inb k hoff]

/-- The block whose row `k` is the payload `p k`. -/
def blockOf (p : Fin 128 → S8000.Idx → Elt F .f32) : S128x8000.Idx → Elt F .f32 :=
  fun y => p ⟨(y 0).val, (y 0).isLt⟩ (ValueIdx.ix1 (⟨(y 1).val, (y 1).isLt⟩ : Fin 8000))

/-- The block rebuilt from the payloads reads the payloads. -/
theorem read_unread_block (p : Fin 128 → S8000.Idx → Elt F .f32) :
    scM0_0.view.read (Elt F) ((Memref.isWhole_whole cc0_scratch0).unread (Val := Elt F) (blockOf p)) = blockOf p :=
  (Memref.isWhole_whole cc0_scratch0).read_unread (Val := Elt F) (blockOf p)

section Chain

variable (offT : Fin 128 → Fin 2 → ℕ) (inbT : ∀ k a, offT k a + S1x8000.size a ≤ S128x8000.size a)
  (hoffT : ∀ k : Fin 128, offT k = ![k.val, 0])

include hoffT in
/-- The block held whole is its rows, each in the program's spelling. -/
theorem rows_split_big (c : Dev nD) (fs : Buf (Elt F) (scM0_0.view.loc (c : Thread nD τ))) :
    (scM0_0.view.loc (c : Thread nD τ) ↦[scM0_0.view.set]{fullShare} fs : sProp 𝕄)
      ⊢ bigSep Finset.univ fun k : Fin 128 => rowPtW c (offT k) (inbT k) fs :=
  (split_rows c fs).trans (Entails.of_eq (bigSep_congr fun k _ => rowPtW_of_row c (offT k) (inbT k) k (hoffT k) fs))

include hoffT in
/-- The rows, row `k` written whole with the payload `p k`, are the block held whole at the contents that read the
    payloads. -/
theorem rows_join_big (c : Dev nD) (fs : Buf (Elt F) (scM0_0.view.loc (c : Thread nD τ))) (p : Fin 128 → S8000.Idx → Elt F .f32) :
    (bigSep Finset.univ fun k : Fin 128 =>
        rowPtW c (offT k) (inbT k) ((rowM (offT k) (inbT k)).view.writes (Elt F) fs [⟨Rect.whole S8000, p k⟩]) : sProp 𝕄)
      ⊢ (scM0_0.view.loc (c : Thread nD τ) ↦[scM0_0.view.set]{fullShare}
          (Memref.isWhole_whole cc0_scratch0).unread (Val := Elt F) (blockOf p)) := by
  refine (Entails.of_eq (bigSep_congr fun k _ => (rowPtW_of_row c (offT k) (inbT k) k (hoffT k) _).symm)).trans
    (join_rows c (fun k => (rowM (offT k) (inbT k)).view.writes (Elt F) fs [⟨Rect.whole S8000, p k⟩]) _ fun k i hi => ?_)
  rw [← rowM_set (offT k) (inbT k) k (hoffT k)] at hi
  obtain ⟨j, rfl⟩ := mem_rowM_set (offT k) (inbT k) i hi
  have hw : (rowM (offT k) (inbT k)).view.writes (Elt F) fs [⟨Rect.whole S8000, p k⟩]
      = View.write (Elt F) (rowM (offT k) (inbT k)).view fs (p k) Finset.univ :=
    (View.write_univ_eq_writes_whole (rowM (offT k) (inbT k)).view fs [] (p k)).symm
  rw [hw, write_row_at (offT k) (inbT k) fs (p k) j, unread_at_row (blockOf p) (offT k) (inbT k) k (hoffT k) j]
  show p k j = p ⟨k.val, _⟩ (ValueIdx.ix1 (⟨(j 0).val, (j 0).isLt⟩ : Fin 8000))
  congr 1
  exact ValueIdx.eq_ix1 j

end Chain

-- GENERATED BLOCK (a table of cases): python3 proofs/403333_j71021579206675_3_alg/scratch/gen_rows.py, run from the certs directory; its output is this block verbatim, from this line to the line 'END OF GENERATED BLOCK'.

/-- Row `k`'s offsets as the program prints them. -/
abbrev offT : Fin 128 → Fin 2 → ℕ := fun
  | ⟨0, _⟩ => k0_off3
  | ⟨1, _⟩ => k0_off7
  | ⟨2, _⟩ => k0_off11
  | ⟨3, _⟩ => k0_off15
  | ⟨4, _⟩ => k0_off19
  | ⟨5, _⟩ => k0_off23
  | ⟨6, _⟩ => k0_off27
  | ⟨7, _⟩ => k0_off31
  | ⟨8, _⟩ => k0_off35
  | ⟨9, _⟩ => k0_off39
  | ⟨10, _⟩ => k0_off43
  | ⟨11, _⟩ => k0_off47
  | ⟨12, _⟩ => k0_off51
  | ⟨13, _⟩ => k0_off55
  | ⟨14, _⟩ => k0_off59
  | ⟨15, _⟩ => k0_off63
  | ⟨16, _⟩ => k0_off67
  | ⟨17, _⟩ => k0_off71
  | ⟨18, _⟩ => k0_off75
  | ⟨19, _⟩ => k0_off79
  | ⟨20, _⟩ => k0_off83
  | ⟨21, _⟩ => k0_off87
  | ⟨22, _⟩ => k0_off91
  | ⟨23, _⟩ => k0_off95
  | ⟨24, _⟩ => k0_off99
  | ⟨25, _⟩ => k0_off103
  | ⟨26, _⟩ => k0_off107
  | ⟨27, _⟩ => k0_off111
  | ⟨28, _⟩ => k0_off115
  | ⟨29, _⟩ => k0_off119
  | ⟨30, _⟩ => k0_off123
  | ⟨31, _⟩ => k0_off127
  | ⟨32, _⟩ => k0_off131
  | ⟨33, _⟩ => k0_off135
  | ⟨34, _⟩ => k0_off139
  | ⟨35, _⟩ => k0_off143
  | ⟨36, _⟩ => k0_off147
  | ⟨37, _⟩ => k0_off151
  | ⟨38, _⟩ => k0_off155
  | ⟨39, _⟩ => k0_off159
  | ⟨40, _⟩ => k0_off163
  | ⟨41, _⟩ => k0_off167
  | ⟨42, _⟩ => k0_off171
  | ⟨43, _⟩ => k0_off175
  | ⟨44, _⟩ => k0_off179
  | ⟨45, _⟩ => k0_off183
  | ⟨46, _⟩ => k0_off187
  | ⟨47, _⟩ => k0_off191
  | ⟨48, _⟩ => k0_off195
  | ⟨49, _⟩ => k0_off199
  | ⟨50, _⟩ => k0_off203
  | ⟨51, _⟩ => k0_off207
  | ⟨52, _⟩ => k0_off211
  | ⟨53, _⟩ => k0_off215
  | ⟨54, _⟩ => k0_off219
  | ⟨55, _⟩ => k0_off223
  | ⟨56, _⟩ => k0_off227
  | ⟨57, _⟩ => k0_off231
  | ⟨58, _⟩ => k0_off235
  | ⟨59, _⟩ => k0_off239
  | ⟨60, _⟩ => k0_off243
  | ⟨61, _⟩ => k0_off247
  | ⟨62, _⟩ => k0_off251
  | ⟨63, _⟩ => k0_off255
  | ⟨64, _⟩ => k0_off259
  | ⟨65, _⟩ => k0_off263
  | ⟨66, _⟩ => k0_off267
  | ⟨67, _⟩ => k0_off271
  | ⟨68, _⟩ => k0_off275
  | ⟨69, _⟩ => k0_off279
  | ⟨70, _⟩ => k0_off283
  | ⟨71, _⟩ => k0_off287
  | ⟨72, _⟩ => k0_off291
  | ⟨73, _⟩ => k0_off295
  | ⟨74, _⟩ => k0_off299
  | ⟨75, _⟩ => k0_off303
  | ⟨76, _⟩ => k0_off307
  | ⟨77, _⟩ => k0_off311
  | ⟨78, _⟩ => k0_off315
  | ⟨79, _⟩ => k0_off319
  | ⟨80, _⟩ => k0_off323
  | ⟨81, _⟩ => k0_off327
  | ⟨82, _⟩ => k0_off331
  | ⟨83, _⟩ => k0_off335
  | ⟨84, _⟩ => k0_off339
  | ⟨85, _⟩ => k0_off343
  | ⟨86, _⟩ => k0_off347
  | ⟨87, _⟩ => k0_off351
  | ⟨88, _⟩ => k0_off355
  | ⟨89, _⟩ => k0_off359
  | ⟨90, _⟩ => k0_off363
  | ⟨91, _⟩ => k0_off367
  | ⟨92, _⟩ => k0_off371
  | ⟨93, _⟩ => k0_off375
  | ⟨94, _⟩ => k0_off379
  | ⟨95, _⟩ => k0_off383
  | ⟨96, _⟩ => k0_off387
  | ⟨97, _⟩ => k0_off391
  | ⟨98, _⟩ => k0_off395
  | ⟨99, _⟩ => k0_off399
  | ⟨100, _⟩ => k0_off403
  | ⟨101, _⟩ => k0_off407
  | ⟨102, _⟩ => k0_off411
  | ⟨103, _⟩ => k0_off415
  | ⟨104, _⟩ => k0_off419
  | ⟨105, _⟩ => k0_off423
  | ⟨106, _⟩ => k0_off427
  | ⟨107, _⟩ => k0_off431
  | ⟨108, _⟩ => k0_off435
  | ⟨109, _⟩ => k0_off439
  | ⟨110, _⟩ => k0_off443
  | ⟨111, _⟩ => k0_off447
  | ⟨112, _⟩ => k0_off451
  | ⟨113, _⟩ => k0_off455
  | ⟨114, _⟩ => k0_off459
  | ⟨115, _⟩ => k0_off463
  | ⟨116, _⟩ => k0_off467
  | ⟨117, _⟩ => k0_off471
  | ⟨118, _⟩ => k0_off475
  | ⟨119, _⟩ => k0_off479
  | ⟨120, _⟩ => k0_off483
  | ⟨121, _⟩ => k0_off487
  | ⟨122, _⟩ => k0_off491
  | ⟨123, _⟩ => k0_off495
  | ⟨124, _⟩ => k0_off499
  | ⟨125, _⟩ => k0_off503
  | ⟨126, _⟩ => k0_off507
  | ⟨127, _⟩ => k0_off511
  | ⟨_ + 128, h⟩ => absurd h (Nat.not_lt.2 (Nat.le_add_left _ _))
/-- and their bounds. -/
theorem inbT : ∀ (k : Fin 128) (a : Fin 2), offT k a + S1x8000.size a ≤ S128x8000.size a := fun
  | ⟨0, _⟩ => k0_off3_inb
  | ⟨1, _⟩ => k0_off7_inb
  | ⟨2, _⟩ => k0_off11_inb
  | ⟨3, _⟩ => k0_off15_inb
  | ⟨4, _⟩ => k0_off19_inb
  | ⟨5, _⟩ => k0_off23_inb
  | ⟨6, _⟩ => k0_off27_inb
  | ⟨7, _⟩ => k0_off31_inb
  | ⟨8, _⟩ => k0_off35_inb
  | ⟨9, _⟩ => k0_off39_inb
  | ⟨10, _⟩ => k0_off43_inb
  | ⟨11, _⟩ => k0_off47_inb
  | ⟨12, _⟩ => k0_off51_inb
  | ⟨13, _⟩ => k0_off55_inb
  | ⟨14, _⟩ => k0_off59_inb
  | ⟨15, _⟩ => k0_off63_inb
  | ⟨16, _⟩ => k0_off67_inb
  | ⟨17, _⟩ => k0_off71_inb
  | ⟨18, _⟩ => k0_off75_inb
  | ⟨19, _⟩ => k0_off79_inb
  | ⟨20, _⟩ => k0_off83_inb
  | ⟨21, _⟩ => k0_off87_inb
  | ⟨22, _⟩ => k0_off91_inb
  | ⟨23, _⟩ => k0_off95_inb
  | ⟨24, _⟩ => k0_off99_inb
  | ⟨25, _⟩ => k0_off103_inb
  | ⟨26, _⟩ => k0_off107_inb
  | ⟨27, _⟩ => k0_off111_inb
  | ⟨28, _⟩ => k0_off115_inb
  | ⟨29, _⟩ => k0_off119_inb
  | ⟨30, _⟩ => k0_off123_inb
  | ⟨31, _⟩ => k0_off127_inb
  | ⟨32, _⟩ => k0_off131_inb
  | ⟨33, _⟩ => k0_off135_inb
  | ⟨34, _⟩ => k0_off139_inb
  | ⟨35, _⟩ => k0_off143_inb
  | ⟨36, _⟩ => k0_off147_inb
  | ⟨37, _⟩ => k0_off151_inb
  | ⟨38, _⟩ => k0_off155_inb
  | ⟨39, _⟩ => k0_off159_inb
  | ⟨40, _⟩ => k0_off163_inb
  | ⟨41, _⟩ => k0_off167_inb
  | ⟨42, _⟩ => k0_off171_inb
  | ⟨43, _⟩ => k0_off175_inb
  | ⟨44, _⟩ => k0_off179_inb
  | ⟨45, _⟩ => k0_off183_inb
  | ⟨46, _⟩ => k0_off187_inb
  | ⟨47, _⟩ => k0_off191_inb
  | ⟨48, _⟩ => k0_off195_inb
  | ⟨49, _⟩ => k0_off199_inb
  | ⟨50, _⟩ => k0_off203_inb
  | ⟨51, _⟩ => k0_off207_inb
  | ⟨52, _⟩ => k0_off211_inb
  | ⟨53, _⟩ => k0_off215_inb
  | ⟨54, _⟩ => k0_off219_inb
  | ⟨55, _⟩ => k0_off223_inb
  | ⟨56, _⟩ => k0_off227_inb
  | ⟨57, _⟩ => k0_off231_inb
  | ⟨58, _⟩ => k0_off235_inb
  | ⟨59, _⟩ => k0_off239_inb
  | ⟨60, _⟩ => k0_off243_inb
  | ⟨61, _⟩ => k0_off247_inb
  | ⟨62, _⟩ => k0_off251_inb
  | ⟨63, _⟩ => k0_off255_inb
  | ⟨64, _⟩ => k0_off259_inb
  | ⟨65, _⟩ => k0_off263_inb
  | ⟨66, _⟩ => k0_off267_inb
  | ⟨67, _⟩ => k0_off271_inb
  | ⟨68, _⟩ => k0_off275_inb
  | ⟨69, _⟩ => k0_off279_inb
  | ⟨70, _⟩ => k0_off283_inb
  | ⟨71, _⟩ => k0_off287_inb
  | ⟨72, _⟩ => k0_off291_inb
  | ⟨73, _⟩ => k0_off295_inb
  | ⟨74, _⟩ => k0_off299_inb
  | ⟨75, _⟩ => k0_off303_inb
  | ⟨76, _⟩ => k0_off307_inb
  | ⟨77, _⟩ => k0_off311_inb
  | ⟨78, _⟩ => k0_off315_inb
  | ⟨79, _⟩ => k0_off319_inb
  | ⟨80, _⟩ => k0_off323_inb
  | ⟨81, _⟩ => k0_off327_inb
  | ⟨82, _⟩ => k0_off331_inb
  | ⟨83, _⟩ => k0_off335_inb
  | ⟨84, _⟩ => k0_off339_inb
  | ⟨85, _⟩ => k0_off343_inb
  | ⟨86, _⟩ => k0_off347_inb
  | ⟨87, _⟩ => k0_off351_inb
  | ⟨88, _⟩ => k0_off355_inb
  | ⟨89, _⟩ => k0_off359_inb
  | ⟨90, _⟩ => k0_off363_inb
  | ⟨91, _⟩ => k0_off367_inb
  | ⟨92, _⟩ => k0_off371_inb
  | ⟨93, _⟩ => k0_off375_inb
  | ⟨94, _⟩ => k0_off379_inb
  | ⟨95, _⟩ => k0_off383_inb
  | ⟨96, _⟩ => k0_off387_inb
  | ⟨97, _⟩ => k0_off391_inb
  | ⟨98, _⟩ => k0_off395_inb
  | ⟨99, _⟩ => k0_off399_inb
  | ⟨100, _⟩ => k0_off403_inb
  | ⟨101, _⟩ => k0_off407_inb
  | ⟨102, _⟩ => k0_off411_inb
  | ⟨103, _⟩ => k0_off415_inb
  | ⟨104, _⟩ => k0_off419_inb
  | ⟨105, _⟩ => k0_off423_inb
  | ⟨106, _⟩ => k0_off427_inb
  | ⟨107, _⟩ => k0_off431_inb
  | ⟨108, _⟩ => k0_off435_inb
  | ⟨109, _⟩ => k0_off439_inb
  | ⟨110, _⟩ => k0_off443_inb
  | ⟨111, _⟩ => k0_off447_inb
  | ⟨112, _⟩ => k0_off451_inb
  | ⟨113, _⟩ => k0_off455_inb
  | ⟨114, _⟩ => k0_off459_inb
  | ⟨115, _⟩ => k0_off463_inb
  | ⟨116, _⟩ => k0_off467_inb
  | ⟨117, _⟩ => k0_off471_inb
  | ⟨118, _⟩ => k0_off475_inb
  | ⟨119, _⟩ => k0_off479_inb
  | ⟨120, _⟩ => k0_off483_inb
  | ⟨121, _⟩ => k0_off487_inb
  | ⟨122, _⟩ => k0_off491_inb
  | ⟨123, _⟩ => k0_off495_inb
  | ⟨124, _⟩ => k0_off499_inb
  | ⟨125, _⟩ => k0_off503_inb
  | ⟨126, _⟩ => k0_off507_inb
  | ⟨127, _⟩ => k0_off511_inb
  | ⟨_ + 128, h⟩ => absurd h (Nat.not_lt.2 (Nat.le_add_left _ _))
/-- Each evaluates to `(k, 0)`. -/
theorem hoffT : ∀ k : Fin 128, offT k = ![k.val, 0] := fun
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨24, _⟩ => rfl
  | ⟨25, _⟩ => rfl
  | ⟨26, _⟩ => rfl
  | ⟨27, _⟩ => rfl
  | ⟨28, _⟩ => rfl
  | ⟨29, _⟩ => rfl
  | ⟨30, _⟩ => rfl
  | ⟨31, _⟩ => rfl
  | ⟨32, _⟩ => rfl
  | ⟨33, _⟩ => rfl
  | ⟨34, _⟩ => rfl
  | ⟨35, _⟩ => rfl
  | ⟨36, _⟩ => rfl
  | ⟨37, _⟩ => rfl
  | ⟨38, _⟩ => rfl
  | ⟨39, _⟩ => rfl
  | ⟨40, _⟩ => rfl
  | ⟨41, _⟩ => rfl
  | ⟨42, _⟩ => rfl
  | ⟨43, _⟩ => rfl
  | ⟨44, _⟩ => rfl
  | ⟨45, _⟩ => rfl
  | ⟨46, _⟩ => rfl
  | ⟨47, _⟩ => rfl
  | ⟨48, _⟩ => rfl
  | ⟨49, _⟩ => rfl
  | ⟨50, _⟩ => rfl
  | ⟨51, _⟩ => rfl
  | ⟨52, _⟩ => rfl
  | ⟨53, _⟩ => rfl
  | ⟨54, _⟩ => rfl
  | ⟨55, _⟩ => rfl
  | ⟨56, _⟩ => rfl
  | ⟨57, _⟩ => rfl
  | ⟨58, _⟩ => rfl
  | ⟨59, _⟩ => rfl
  | ⟨60, _⟩ => rfl
  | ⟨61, _⟩ => rfl
  | ⟨62, _⟩ => rfl
  | ⟨63, _⟩ => rfl
  | ⟨64, _⟩ => rfl
  | ⟨65, _⟩ => rfl
  | ⟨66, _⟩ => rfl
  | ⟨67, _⟩ => rfl
  | ⟨68, _⟩ => rfl
  | ⟨69, _⟩ => rfl
  | ⟨70, _⟩ => rfl
  | ⟨71, _⟩ => rfl
  | ⟨72, _⟩ => rfl
  | ⟨73, _⟩ => rfl
  | ⟨74, _⟩ => rfl
  | ⟨75, _⟩ => rfl
  | ⟨76, _⟩ => rfl
  | ⟨77, _⟩ => rfl
  | ⟨78, _⟩ => rfl
  | ⟨79, _⟩ => rfl
  | ⟨80, _⟩ => rfl
  | ⟨81, _⟩ => rfl
  | ⟨82, _⟩ => rfl
  | ⟨83, _⟩ => rfl
  | ⟨84, _⟩ => rfl
  | ⟨85, _⟩ => rfl
  | ⟨86, _⟩ => rfl
  | ⟨87, _⟩ => rfl
  | ⟨88, _⟩ => rfl
  | ⟨89, _⟩ => rfl
  | ⟨90, _⟩ => rfl
  | ⟨91, _⟩ => rfl
  | ⟨92, _⟩ => rfl
  | ⟨93, _⟩ => rfl
  | ⟨94, _⟩ => rfl
  | ⟨95, _⟩ => rfl
  | ⟨96, _⟩ => rfl
  | ⟨97, _⟩ => rfl
  | ⟨98, _⟩ => rfl
  | ⟨99, _⟩ => rfl
  | ⟨100, _⟩ => rfl
  | ⟨101, _⟩ => rfl
  | ⟨102, _⟩ => rfl
  | ⟨103, _⟩ => rfl
  | ⟨104, _⟩ => rfl
  | ⟨105, _⟩ => rfl
  | ⟨106, _⟩ => rfl
  | ⟨107, _⟩ => rfl
  | ⟨108, _⟩ => rfl
  | ⟨109, _⟩ => rfl
  | ⟨110, _⟩ => rfl
  | ⟨111, _⟩ => rfl
  | ⟨112, _⟩ => rfl
  | ⟨113, _⟩ => rfl
  | ⟨114, _⟩ => rfl
  | ⟨115, _⟩ => rfl
  | ⟨116, _⟩ => rfl
  | ⟨117, _⟩ => rfl
  | ⟨118, _⟩ => rfl
  | ⟨119, _⟩ => rfl
  | ⟨120, _⟩ => rfl
  | ⟨121, _⟩ => rfl
  | ⟨122, _⟩ => rfl
  | ⟨123, _⟩ => rfl
  | ⟨124, _⟩ => rfl
  | ⟨125, _⟩ => rfl
  | ⟨126, _⟩ => rfl
  | ⟨127, _⟩ => rfl
  | ⟨_ + 128, h⟩ => absurd h (Nat.not_lt.2 (Nat.le_add_left _ _))
/-- The 128 rows, listed. -/
abbrev rowsL : List (Fin 128) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127]
theorem rowsL_univ : (Finset.univ : Finset (Fin 128)) = rowsL.toFinset := by decide
theorem rowsL_nodup : rowsL.Nodup := by decide

set_option maxHeartbeats 4000000 in
/-- The block held whole is its 128 rows one by one, each in the program's spelling. -/
theorem rows_split (c : Dev nD) (fs : Buf (Elt F) (scM0_0.view.loc (c : Thread nD τ))) :
    (scM0_0.view.loc (c : Thread nD τ) ↦[scM0_0.view.set]{fullShare} fs : sProp 𝕄)
      ⊢ iprop(rowPtW c k0_off3 k0_off3_inb fs ∗ rowPtW c k0_off7 k0_off7_inb fs ∗ rowPtW c k0_off11 k0_off11_inb fs ∗ rowPtW c k0_off15 k0_off15_inb fs ∗ rowPtW c k0_off19 k0_off19_inb fs ∗ rowPtW c k0_off23 k0_off23_inb fs ∗ rowPtW c k0_off27 k0_off27_inb fs ∗ rowPtW c k0_off31 k0_off31_inb fs ∗ rowPtW c k0_off35 k0_off35_inb fs ∗ rowPtW c k0_off39 k0_off39_inb fs ∗ rowPtW c k0_off43 k0_off43_inb fs ∗ rowPtW c k0_off47 k0_off47_inb fs ∗ rowPtW c k0_off51 k0_off51_inb fs ∗ rowPtW c k0_off55 k0_off55_inb fs ∗ rowPtW c k0_off59 k0_off59_inb fs ∗ rowPtW c k0_off63 k0_off63_inb fs ∗ rowPtW c k0_off67 k0_off67_inb fs ∗ rowPtW c k0_off71 k0_off71_inb fs ∗ rowPtW c k0_off75 k0_off75_inb fs ∗ rowPtW c k0_off79 k0_off79_inb fs ∗ rowPtW c k0_off83 k0_off83_inb fs ∗ rowPtW c k0_off87 k0_off87_inb fs ∗ rowPtW c k0_off91 k0_off91_inb fs ∗ rowPtW c k0_off95 k0_off95_inb fs ∗ rowPtW c k0_off99 k0_off99_inb fs ∗ rowPtW c k0_off103 k0_off103_inb fs ∗ rowPtW c k0_off107 k0_off107_inb fs ∗ rowPtW c k0_off111 k0_off111_inb fs ∗ rowPtW c k0_off115 k0_off115_inb fs ∗ rowPtW c k0_off119 k0_off119_inb fs ∗ rowPtW c k0_off123 k0_off123_inb fs ∗ rowPtW c k0_off127 k0_off127_inb fs ∗ rowPtW c k0_off131 k0_off131_inb fs ∗ rowPtW c k0_off135 k0_off135_inb fs ∗ rowPtW c k0_off139 k0_off139_inb fs ∗ rowPtW c k0_off143 k0_off143_inb fs ∗ rowPtW c k0_off147 k0_off147_inb fs ∗ rowPtW c k0_off151 k0_off151_inb fs ∗ rowPtW c k0_off155 k0_off155_inb fs ∗ rowPtW c k0_off159 k0_off159_inb fs ∗ rowPtW c k0_off163 k0_off163_inb fs ∗ rowPtW c k0_off167 k0_off167_inb fs ∗ rowPtW c k0_off171 k0_off171_inb fs ∗ rowPtW c k0_off175 k0_off175_inb fs ∗ rowPtW c k0_off179 k0_off179_inb fs ∗ rowPtW c k0_off183 k0_off183_inb fs ∗ rowPtW c k0_off187 k0_off187_inb fs ∗ rowPtW c k0_off191 k0_off191_inb fs ∗ rowPtW c k0_off195 k0_off195_inb fs ∗ rowPtW c k0_off199 k0_off199_inb fs ∗ rowPtW c k0_off203 k0_off203_inb fs ∗ rowPtW c k0_off207 k0_off207_inb fs ∗ rowPtW c k0_off211 k0_off211_inb fs ∗ rowPtW c k0_off215 k0_off215_inb fs ∗ rowPtW c k0_off219 k0_off219_inb fs ∗ rowPtW c k0_off223 k0_off223_inb fs ∗ rowPtW c k0_off227 k0_off227_inb fs ∗ rowPtW c k0_off231 k0_off231_inb fs ∗ rowPtW c k0_off235 k0_off235_inb fs ∗ rowPtW c k0_off239 k0_off239_inb fs ∗ rowPtW c k0_off243 k0_off243_inb fs ∗ rowPtW c k0_off247 k0_off247_inb fs ∗ rowPtW c k0_off251 k0_off251_inb fs ∗ rowPtW c k0_off255 k0_off255_inb fs ∗ rowPtW c k0_off259 k0_off259_inb fs ∗ rowPtW c k0_off263 k0_off263_inb fs ∗ rowPtW c k0_off267 k0_off267_inb fs ∗ rowPtW c k0_off271 k0_off271_inb fs ∗ rowPtW c k0_off275 k0_off275_inb fs ∗ rowPtW c k0_off279 k0_off279_inb fs ∗ rowPtW c k0_off283 k0_off283_inb fs ∗ rowPtW c k0_off287 k0_off287_inb fs ∗ rowPtW c k0_off291 k0_off291_inb fs ∗ rowPtW c k0_off295 k0_off295_inb fs ∗ rowPtW c k0_off299 k0_off299_inb fs ∗ rowPtW c k0_off303 k0_off303_inb fs ∗ rowPtW c k0_off307 k0_off307_inb fs ∗ rowPtW c k0_off311 k0_off311_inb fs ∗ rowPtW c k0_off315 k0_off315_inb fs ∗ rowPtW c k0_off319 k0_off319_inb fs ∗ rowPtW c k0_off323 k0_off323_inb fs ∗ rowPtW c k0_off327 k0_off327_inb fs ∗ rowPtW c k0_off331 k0_off331_inb fs ∗ rowPtW c k0_off335 k0_off335_inb fs ∗ rowPtW c k0_off339 k0_off339_inb fs ∗ rowPtW c k0_off343 k0_off343_inb fs ∗ rowPtW c k0_off347 k0_off347_inb fs ∗ rowPtW c k0_off351 k0_off351_inb fs ∗ rowPtW c k0_off355 k0_off355_inb fs ∗ rowPtW c k0_off359 k0_off359_inb fs ∗ rowPtW c k0_off363 k0_off363_inb fs ∗ rowPtW c k0_off367 k0_off367_inb fs ∗ rowPtW c k0_off371 k0_off371_inb fs ∗ rowPtW c k0_off375 k0_off375_inb fs ∗ rowPtW c k0_off379 k0_off379_inb fs ∗ rowPtW c k0_off383 k0_off383_inb fs ∗ rowPtW c k0_off387 k0_off387_inb fs ∗ rowPtW c k0_off391 k0_off391_inb fs ∗ rowPtW c k0_off395 k0_off395_inb fs ∗ rowPtW c k0_off399 k0_off399_inb fs ∗ rowPtW c k0_off403 k0_off403_inb fs ∗ rowPtW c k0_off407 k0_off407_inb fs ∗ rowPtW c k0_off411 k0_off411_inb fs ∗ rowPtW c k0_off415 k0_off415_inb fs ∗ rowPtW c k0_off419 k0_off419_inb fs ∗ rowPtW c k0_off423 k0_off423_inb fs ∗ rowPtW c k0_off427 k0_off427_inb fs ∗ rowPtW c k0_off431 k0_off431_inb fs ∗ rowPtW c k0_off435 k0_off435_inb fs ∗ rowPtW c k0_off439 k0_off439_inb fs ∗ rowPtW c k0_off443 k0_off443_inb fs ∗ rowPtW c k0_off447 k0_off447_inb fs ∗ rowPtW c k0_off451 k0_off451_inb fs ∗ rowPtW c k0_off455 k0_off455_inb fs ∗ rowPtW c k0_off459 k0_off459_inb fs ∗ rowPtW c k0_off463 k0_off463_inb fs ∗ rowPtW c k0_off467 k0_off467_inb fs ∗ rowPtW c k0_off471 k0_off471_inb fs ∗ rowPtW c k0_off475 k0_off475_inb fs ∗ rowPtW c k0_off479 k0_off479_inb fs ∗ rowPtW c k0_off483 k0_off483_inb fs ∗ rowPtW c k0_off487 k0_off487_inb fs ∗ rowPtW c k0_off491 k0_off491_inb fs ∗ rowPtW c k0_off495 k0_off495_inb fs ∗ rowPtW c k0_off499 k0_off499_inb fs ∗ rowPtW c k0_off503 k0_off503_inb fs ∗ rowPtW c k0_off507 k0_off507_inb fs ∗ rowPtW c k0_off511 k0_off511_inb fs) :=
  (rows_split_big offT inbT hoffT c fs).trans (Entails.of_eq
    ((bigSep_univ_eq_bigSepL rowsL rowsL_univ rowsL_nodup (fun k : Fin 128 => rowPtW (F := F) c (offT k) (inbT k) fs)).trans (by sl_kernel_rfl)))

set_option maxHeartbeats 4000000 in
/-- The 128 rows one by one, row `k` written whole with the payload `p k`, are the block held whole at the contents that read the payloads. -/
theorem rows_join (c : Dev nD) (fs : Buf (Elt F) (scM0_0.view.loc (c : Thread nD τ))) (p : Fin 128 → S8000.Idx → Elt F .f32) :
    (iprop(rowPtW c k0_off3 k0_off3_inb ((rowM k0_off3 k0_off3_inb).view.writes (Elt F) fs [⟨Rect.whole S8000, p 0⟩]) ∗ rowPtW c k0_off7 k0_off7_inb ((rowM k0_off7 k0_off7_inb).view.writes (Elt F) fs [⟨Rect.whole S8000, p 1⟩]) ∗ rowPtW c k0_off11 k0_off11_inb ((rowM k0_off11 k0_off11_inb).view.writes (Elt F) fs [⟨Rect.whole S8000, p 2⟩]) ∗ rowPtW c k0_off15 k0_off15_inb ((rowM k0_off15 k0_off15_inb).view.writes (Elt F) fs [⟨Rect.whole S8000, p 3⟩]) ∗ rowPtW c k0_off19 k0_off19_inb ((rowM k0_off19 k0_off19_inb).view.writes (Elt F) fs [⟨Rect.whole S8000, p 4⟩]) ∗ rowPtW c k0_off23 k0_off23_inb ((rowM k0_off23 k0_off23_inb).view.writes (Elt F) fs [⟨Rect.whole S8000, p 5⟩]) ∗ rowPtW c k0_off27 k0_off27_inb ((rowM k0_off27 k0_off27_inb).view.writes (Elt F) fs [⟨Rect.whole S8000, p 6⟩]) ∗ rowPtW c k0_off31 k0_off31_inb ((rowM k0_off31 k0_off31_inb).view.writes (Elt F) fs [⟨Rect.whole S8000, p 7⟩]) ∗ rowPtW c k0_off35 k0_off35_inb ((rowM k0_off35 k0_off35_inb).view.writes (Elt F) fs [⟨Rect.whole S8000, p 8⟩]) ∗ rowPtW c k0_off39 k0_off39_inb ((rowM k0_off39 k0_off39_inb).view.writes (Elt F) fs [⟨Rect.whole S8000, p 9⟩]) ∗ rowPtW c k0_off43 k0_off43_inb ((rowM k0_off43 k0_off43_inb).view.writes (Elt F) fs [⟨Rect.whole S8000, p 10⟩]) ∗ rowPtW c k0_off47 k0_off47_inb ((rowM k0_off47 k0_off47_inb).view.writes (Elt F) fs [⟨Rect.whole S8000, p 11⟩]) ∗ rowPtW c k0_off51 k0_off51_inb ((rowM k0_off51 k0_off51_inb).view.writes (Elt F) fs [⟨Rect.whole S8000, p 12⟩]) ∗ rowPtW c k0_off55 k0_off55_inb ((rowM k0_off55 k0_off55_inb).view.writes (Elt F) fs [⟨Rect.whole S8000, p 13⟩]) ∗ rowPtW c k0_off59 k0_off59_inb ((rowM k0_off59 k0_off59_inb).view.writes (Elt F) fs [⟨Rect.whole S8000, p 14⟩]) ∗ rowPtW c k0_off63 k0_off63_inb ((rowM k0_off63 k0_off63_inb).view.writes (Elt F) fs [⟨Rect.whole S8000, p 15⟩]) ∗ rowPtW c k0_off67 k0_off67_inb ((rowM k0_off67 k0_off67_inb).view.writes (Elt F) fs [⟨Rect.whole S8000, p 16⟩]) ∗ rowPtW c k0_off71 k0_off71_inb ((rowM k0_off71 k0_off71_inb).view.writes (Elt F) fs [⟨Rect.whole S8000, p 17⟩]) ∗ rowPtW c k0_off75 k0_off75_inb ((rowM k0_off75 k0_off75_inb).view.writes (Elt F) fs [⟨Rect.whole S8000, p 18⟩]) ∗ rowPtW c k0_off79 k0_off79_inb ((rowM k0_off79 k0_off79_inb).view.writes (Elt F) fs [⟨Rect.whole S8000, p 19⟩]) ∗ rowPtW c k0_off83 k0_off83_inb ((rowM k0_off83 k0_off83_inb).view.writes (Elt F) fs [⟨Rect.whole S8000, p 20⟩]) ∗ rowPtW c k0_off87 k0_off87_inb ((rowM k0_off87 k0_off87_inb).view.writes (Elt F) fs [⟨Rect.whole S8000, p 21⟩]) ∗ rowPtW c k0_off91 k0_off91_inb ((rowM k0_off91 k0_off91_inb).view.writes (Elt F) fs [⟨Rect.whole S8000, p 22⟩]) ∗ rowPtW c k0_off95 k0_off95_inb ((rowM k0_off95 k0_off95_inb).view.writes (Elt F) fs [⟨Rect.whole S8000, p 23⟩]) ∗ rowPtW c k0_off99 k0_off99_inb ((rowM k0_off99 k0_off99_inb).view.writes (Elt F) fs [⟨Rect.whole S8000, p 24⟩]) ∗ rowPtW c k0_off103 k0_off103_inb ((rowM k0_off103 k0_off103_inb).view.writes (Elt F) fs [⟨Rect.whole S8000, p 25⟩]) ∗ rowPtW c k0_off107 k0_off107_inb ((rowM k0_off107 k0_off107_inb).view.writes (Elt F) fs [⟨Rect.whole S8000, p 26⟩]) ∗ rowPtW c k0_off111 k0_off111_inb ((rowM k0_off111 k0_off111_inb).view.writes (Elt F) fs [⟨Rect.whole S8000, p 27⟩]) ∗ rowPtW c k0_off115 k0_off115_inb ((rowM k0_off115 k0_off115_inb).view.writes (Elt F) fs [⟨Rect.whole S8000, p 28⟩]) ∗ rowPtW c k0_off119 k0_off119_inb ((rowM k0_off119 k0_off119_inb).view.writes (Elt F) fs [⟨Rect.whole S8000, p 29⟩]) ∗ rowPtW c k0_off123 k0_off123_inb ((rowM k0_off123 k0_off123_inb).view.writes (Elt F) fs [⟨Rect.whole S8000, p 30⟩]) ∗ rowPtW c k0_off127 k0_off127_inb ((rowM k0_off127 k0_off127_inb).view.writes (Elt F) fs [⟨Rect.whole S8000, p 31⟩]) ∗ rowPtW c k0_off131 k0_off131_inb ((rowM k0_off131 k0_off131_inb).view.writes (Elt F) fs [⟨Rect.whole S8000, p 32⟩]) ∗ rowPtW c k0_off135 k0_off135_inb ((rowM k0_off135 k0_off135_inb).view.writes (Elt F) fs [⟨Rect.whole S8000, p 33⟩]) ∗ rowPtW c k0_off139 k0_off139_inb ((rowM k0_off139 k0_off139_inb).view.writes (Elt F) fs [⟨Rect.whole S8000, p 34⟩]) ∗ rowPtW c k0_off143 k0_off143_inb ((rowM k0_off143 k0_off143_inb).view.writes (Elt F) fs [⟨Rect.whole S8000, p 35⟩]) ∗ rowPtW c k0_off147 k0_off147_inb ((rowM k0_off147 k0_off147_inb).view.writes (Elt F) fs [⟨Rect.whole S8000, p 36⟩]) ∗ rowPtW c k0_off151 k0_off151_inb ((rowM k0_off151 k0_off151_inb).view.writes (Elt F) fs [⟨Rect.whole S8000, p 37⟩]) ∗ rowPtW c k0_off155 k0_off155_inb ((rowM k0_off155 k0_off155_inb).view.writes (Elt F) fs [⟨Rect.whole S8000, p 38⟩]) ∗ rowPtW c k0_off159 k0_off159_inb ((rowM k0_off159 k0_off159_inb).view.writes (Elt F) fs [⟨Rect.whole S8000, p 39⟩]) ∗ rowPtW c k0_off163 k0_off163_inb ((rowM k0_off163 k0_off163_inb).view.writes (Elt F) fs [⟨Rect.whole S8000, p 40⟩]) ∗ rowPtW c k0_off167 k0_off167_inb ((rowM k0_off167 k0_off167_inb).view.writes (Elt F) fs [⟨Rect.whole S8000, p 41⟩]) ∗ rowPtW c k0_off171 k0_off171_inb ((rowM k0_off171 k0_off171_inb).view.writes (Elt F) fs [⟨Rect.whole S8000, p 42⟩]) ∗ rowPtW c k0_off175 k0_off175_inb ((rowM k0_off175 k0_off175_inb).view.writes (Elt F) fs [⟨Rect.whole S8000, p 43⟩]) ∗ rowPtW c k0_off179 k0_off179_inb ((rowM k0_off179 k0_off179_inb).view.writes (Elt F) fs [⟨Rect.whole S8000, p 44⟩]) ∗ rowPtW c k0_off183 k0_off183_inb ((rowM k0_off183 k0_off183_inb).view.writes (Elt F) fs [⟨Rect.whole S8000, p 45⟩]) ∗ rowPtW c k0_off187 k0_off187_inb ((rowM k0_off187 k0_off187_inb).view.writes (Elt F) fs [⟨Rect.whole S8000, p 46⟩]) ∗ rowPtW c k0_off191 k0_off191_inb ((rowM k0_off191 k0_off191_inb).view.writes (Elt F) fs [⟨Rect.whole S8000, p 47⟩]) ∗ rowPtW c k0_off195 k0_off195_inb ((rowM k0_off195 k0_off195_inb).view.writes (Elt F) fs [⟨Rect.whole S8000, p 48⟩]) ∗ rowPtW c k0_off199 k0_off199_inb ((rowM k0_off199 k0_off199_inb).view.writes (Elt F) fs [⟨Rect.whole S8000, p 49⟩]) ∗ rowPtW c k0_off203 k0_off203_inb ((rowM k0_off203 k0_off203_inb).view.writes (Elt F) fs [⟨Rect.whole S8000, p 50⟩]) ∗ rowPtW c k0_off207 k0_off207_inb ((rowM k0_off207 k0_off207_inb).view.writes (Elt F) fs [⟨Rect.whole S8000, p 51⟩]) ∗ rowPtW c k0_off211 k0_off211_inb ((rowM k0_off211 k0_off211_inb).view.writes (Elt F) fs [⟨Rect.whole S8000, p 52⟩]) ∗ rowPtW c k0_off215 k0_off215_inb ((rowM k0_off215 k0_off215_inb).view.writes (Elt F) fs [⟨Rect.whole S8000, p 53⟩]) ∗ rowPtW c k0_off219 k0_off219_inb ((rowM k0_off219 k0_off219_inb).view.writes (Elt F) fs [⟨Rect.whole S8000, p 54⟩]) ∗ rowPtW c k0_off223 k0_off223_inb ((rowM k0_off223 k0_off223_inb).view.writes (Elt F) fs [⟨Rect.whole S8000, p 55⟩]) ∗ rowPtW c k0_off227 k0_off227_inb ((rowM k0_off227 k0_off227_inb).view.writes (Elt F) fs [⟨Rect.whole S8000, p 56⟩]) ∗ rowPtW c k0_off231 k0_off231_inb ((rowM k0_off231 k0_off231_inb).view.writes (Elt F) fs [⟨Rect.whole S8000, p 57⟩]) ∗ rowPtW c k0_off235 k0_off235_inb ((rowM k0_off235 k0_off235_inb).view.writes (Elt F) fs [⟨Rect.whole S8000, p 58⟩]) ∗ rowPtW c k0_off239 k0_off239_inb ((rowM k0_off239 k0_off239_inb).view.writes (Elt F) fs [⟨Rect.whole S8000, p 59⟩]) ∗ rowPtW c k0_off243 k0_off243_inb ((rowM k0_off243 k0_off243_inb).view.writes (Elt F) fs [⟨Rect.whole S8000, p 60⟩]) ∗ rowPtW c k0_off247 k0_off247_inb ((rowM k0_off247 k0_off247_inb).view.writes (Elt F) fs [⟨Rect.whole S8000, p 61⟩]) ∗ rowPtW c k0_off251 k0_off251_inb ((rowM k0_off251 k0_off251_inb).view.writes (Elt F) fs [⟨Rect.whole S8000, p 62⟩]) ∗ rowPtW c k0_off255 k0_off255_inb ((rowM k0_off255 k0_off255_inb).view.writes (Elt F) fs [⟨Rect.whole S8000, p 63⟩]) ∗ rowPtW c k0_off259 k0_off259_inb ((rowM k0_off259 k0_off259_inb).view.writes (Elt F) fs [⟨Rect.whole S8000, p 64⟩]) ∗ rowPtW c k0_off263 k0_off263_inb ((rowM k0_off263 k0_off263_inb).view.writes (Elt F) fs [⟨Rect.whole S8000, p 65⟩]) ∗ rowPtW c k0_off267 k0_off267_inb ((rowM k0_off267 k0_off267_inb).view.writes (Elt F) fs [⟨Rect.whole S8000, p 66⟩]) ∗ rowPtW c k0_off271 k0_off271_inb ((rowM k0_off271 k0_off271_inb).view.writes (Elt F) fs [⟨Rect.whole S8000, p 67⟩]) ∗ rowPtW c k0_off275 k0_off275_inb ((rowM k0_off275 k0_off275_inb).view.writes (Elt F) fs [⟨Rect.whole S8000, p 68⟩]) ∗ rowPtW c k0_off279 k0_off279_inb ((rowM k0_off279 k0_off279_inb).view.writes (Elt F) fs [⟨Rect.whole S8000, p 69⟩]) ∗ rowPtW c k0_off283 k0_off283_inb ((rowM k0_off283 k0_off283_inb).view.writes (Elt F) fs [⟨Rect.whole S8000, p 70⟩]) ∗ rowPtW c k0_off287 k0_off287_inb ((rowM k0_off287 k0_off287_inb).view.writes (Elt F) fs [⟨Rect.whole S8000, p 71⟩]) ∗ rowPtW c k0_off291 k0_off291_inb ((rowM k0_off291 k0_off291_inb).view.writes (Elt F) fs [⟨Rect.whole S8000, p 72⟩]) ∗ rowPtW c k0_off295 k0_off295_inb ((rowM k0_off295 k0_off295_inb).view.writes (Elt F) fs [⟨Rect.whole S8000, p 73⟩]) ∗ rowPtW c k0_off299 k0_off299_inb ((rowM k0_off299 k0_off299_inb).view.writes (Elt F) fs [⟨Rect.whole S8000, p 74⟩]) ∗ rowPtW c k0_off303 k0_off303_inb ((rowM k0_off303 k0_off303_inb).view.writes (Elt F) fs [⟨Rect.whole S8000, p 75⟩]) ∗ rowPtW c k0_off307 k0_off307_inb ((rowM k0_off307 k0_off307_inb).view.writes (Elt F) fs [⟨Rect.whole S8000, p 76⟩]) ∗ rowPtW c k0_off311 k0_off311_inb ((rowM k0_off311 k0_off311_inb).view.writes (Elt F) fs [⟨Rect.whole S8000, p 77⟩]) ∗ rowPtW c k0_off315 k0_off315_inb ((rowM k0_off315 k0_off315_inb).view.writes (Elt F) fs [⟨Rect.whole S8000, p 78⟩]) ∗ rowPtW c k0_off319 k0_off319_inb ((rowM k0_off319 k0_off319_inb).view.writes (Elt F) fs [⟨Rect.whole S8000, p 79⟩]) ∗ rowPtW c k0_off323 k0_off323_inb ((rowM k0_off323 k0_off323_inb).view.writes (Elt F) fs [⟨Rect.whole S8000, p 80⟩]) ∗ rowPtW c k0_off327 k0_off327_inb ((rowM k0_off327 k0_off327_inb).view.writes (Elt F) fs [⟨Rect.whole S8000, p 81⟩]) ∗ rowPtW c k0_off331 k0_off331_inb ((rowM k0_off331 k0_off331_inb).view.writes (Elt F) fs [⟨Rect.whole S8000, p 82⟩]) ∗ rowPtW c k0_off335 k0_off335_inb ((rowM k0_off335 k0_off335_inb).view.writes (Elt F) fs [⟨Rect.whole S8000, p 83⟩]) ∗ rowPtW c k0_off339 k0_off339_inb ((rowM k0_off339 k0_off339_inb).view.writes (Elt F) fs [⟨Rect.whole S8000, p 84⟩]) ∗ rowPtW c k0_off343 k0_off343_inb ((rowM k0_off343 k0_off343_inb).view.writes (Elt F) fs [⟨Rect.whole S8000, p 85⟩]) ∗ rowPtW c k0_off347 k0_off347_inb ((rowM k0_off347 k0_off347_inb).view.writes (Elt F) fs [⟨Rect.whole S8000, p 86⟩]) ∗ rowPtW c k0_off351 k0_off351_inb ((rowM k0_off351 k0_off351_inb).view.writes (Elt F) fs [⟨Rect.whole S8000, p 87⟩]) ∗ rowPtW c k0_off355 k0_off355_inb ((rowM k0_off355 k0_off355_inb).view.writes (Elt F) fs [⟨Rect.whole S8000, p 88⟩]) ∗ rowPtW c k0_off359 k0_off359_inb ((rowM k0_off359 k0_off359_inb).view.writes (Elt F) fs [⟨Rect.whole S8000, p 89⟩]) ∗ rowPtW c k0_off363 k0_off363_inb ((rowM k0_off363 k0_off363_inb).view.writes (Elt F) fs [⟨Rect.whole S8000, p 90⟩]) ∗ rowPtW c k0_off367 k0_off367_inb ((rowM k0_off367 k0_off367_inb).view.writes (Elt F) fs [⟨Rect.whole S8000, p 91⟩]) ∗ rowPtW c k0_off371 k0_off371_inb ((rowM k0_off371 k0_off371_inb).view.writes (Elt F) fs [⟨Rect.whole S8000, p 92⟩]) ∗ rowPtW c k0_off375 k0_off375_inb ((rowM k0_off375 k0_off375_inb).view.writes (Elt F) fs [⟨Rect.whole S8000, p 93⟩]) ∗ rowPtW c k0_off379 k0_off379_inb ((rowM k0_off379 k0_off379_inb).view.writes (Elt F) fs [⟨Rect.whole S8000, p 94⟩]) ∗ rowPtW c k0_off383 k0_off383_inb ((rowM k0_off383 k0_off383_inb).view.writes (Elt F) fs [⟨Rect.whole S8000, p 95⟩]) ∗ rowPtW c k0_off387 k0_off387_inb ((rowM k0_off387 k0_off387_inb).view.writes (Elt F) fs [⟨Rect.whole S8000, p 96⟩]) ∗ rowPtW c k0_off391 k0_off391_inb ((rowM k0_off391 k0_off391_inb).view.writes (Elt F) fs [⟨Rect.whole S8000, p 97⟩]) ∗ rowPtW c k0_off395 k0_off395_inb ((rowM k0_off395 k0_off395_inb).view.writes (Elt F) fs [⟨Rect.whole S8000, p 98⟩]) ∗ rowPtW c k0_off399 k0_off399_inb ((rowM k0_off399 k0_off399_inb).view.writes (Elt F) fs [⟨Rect.whole S8000, p 99⟩]) ∗ rowPtW c k0_off403 k0_off403_inb ((rowM k0_off403 k0_off403_inb).view.writes (Elt F) fs [⟨Rect.whole S8000, p 100⟩]) ∗ rowPtW c k0_off407 k0_off407_inb ((rowM k0_off407 k0_off407_inb).view.writes (Elt F) fs [⟨Rect.whole S8000, p 101⟩]) ∗ rowPtW c k0_off411 k0_off411_inb ((rowM k0_off411 k0_off411_inb).view.writes (Elt F) fs [⟨Rect.whole S8000, p 102⟩]) ∗ rowPtW c k0_off415 k0_off415_inb ((rowM k0_off415 k0_off415_inb).view.writes (Elt F) fs [⟨Rect.whole S8000, p 103⟩]) ∗ rowPtW c k0_off419 k0_off419_inb ((rowM k0_off419 k0_off419_inb).view.writes (Elt F) fs [⟨Rect.whole S8000, p 104⟩]) ∗ rowPtW c k0_off423 k0_off423_inb ((rowM k0_off423 k0_off423_inb).view.writes (Elt F) fs [⟨Rect.whole S8000, p 105⟩]) ∗ rowPtW c k0_off427 k0_off427_inb ((rowM k0_off427 k0_off427_inb).view.writes (Elt F) fs [⟨Rect.whole S8000, p 106⟩]) ∗ rowPtW c k0_off431 k0_off431_inb ((rowM k0_off431 k0_off431_inb).view.writes (Elt F) fs [⟨Rect.whole S8000, p 107⟩]) ∗ rowPtW c k0_off435 k0_off435_inb ((rowM k0_off435 k0_off435_inb).view.writes (Elt F) fs [⟨Rect.whole S8000, p 108⟩]) ∗ rowPtW c k0_off439 k0_off439_inb ((rowM k0_off439 k0_off439_inb).view.writes (Elt F) fs [⟨Rect.whole S8000, p 109⟩]) ∗ rowPtW c k0_off443 k0_off443_inb ((rowM k0_off443 k0_off443_inb).view.writes (Elt F) fs [⟨Rect.whole S8000, p 110⟩]) ∗ rowPtW c k0_off447 k0_off447_inb ((rowM k0_off447 k0_off447_inb).view.writes (Elt F) fs [⟨Rect.whole S8000, p 111⟩]) ∗ rowPtW c k0_off451 k0_off451_inb ((rowM k0_off451 k0_off451_inb).view.writes (Elt F) fs [⟨Rect.whole S8000, p 112⟩]) ∗ rowPtW c k0_off455 k0_off455_inb ((rowM k0_off455 k0_off455_inb).view.writes (Elt F) fs [⟨Rect.whole S8000, p 113⟩]) ∗ rowPtW c k0_off459 k0_off459_inb ((rowM k0_off459 k0_off459_inb).view.writes (Elt F) fs [⟨Rect.whole S8000, p 114⟩]) ∗ rowPtW c k0_off463 k0_off463_inb ((rowM k0_off463 k0_off463_inb).view.writes (Elt F) fs [⟨Rect.whole S8000, p 115⟩]) ∗ rowPtW c k0_off467 k0_off467_inb ((rowM k0_off467 k0_off467_inb).view.writes (Elt F) fs [⟨Rect.whole S8000, p 116⟩]) ∗ rowPtW c k0_off471 k0_off471_inb ((rowM k0_off471 k0_off471_inb).view.writes (Elt F) fs [⟨Rect.whole S8000, p 117⟩]) ∗ rowPtW c k0_off475 k0_off475_inb ((rowM k0_off475 k0_off475_inb).view.writes (Elt F) fs [⟨Rect.whole S8000, p 118⟩]) ∗ rowPtW c k0_off479 k0_off479_inb ((rowM k0_off479 k0_off479_inb).view.writes (Elt F) fs [⟨Rect.whole S8000, p 119⟩]) ∗ rowPtW c k0_off483 k0_off483_inb ((rowM k0_off483 k0_off483_inb).view.writes (Elt F) fs [⟨Rect.whole S8000, p 120⟩]) ∗ rowPtW c k0_off487 k0_off487_inb ((rowM k0_off487 k0_off487_inb).view.writes (Elt F) fs [⟨Rect.whole S8000, p 121⟩]) ∗ rowPtW c k0_off491 k0_off491_inb ((rowM k0_off491 k0_off491_inb).view.writes (Elt F) fs [⟨Rect.whole S8000, p 122⟩]) ∗ rowPtW c k0_off495 k0_off495_inb ((rowM k0_off495 k0_off495_inb).view.writes (Elt F) fs [⟨Rect.whole S8000, p 123⟩]) ∗ rowPtW c k0_off499 k0_off499_inb ((rowM k0_off499 k0_off499_inb).view.writes (Elt F) fs [⟨Rect.whole S8000, p 124⟩]) ∗ rowPtW c k0_off503 k0_off503_inb ((rowM k0_off503 k0_off503_inb).view.writes (Elt F) fs [⟨Rect.whole S8000, p 125⟩]) ∗ rowPtW c k0_off507 k0_off507_inb ((rowM k0_off507 k0_off507_inb).view.writes (Elt F) fs [⟨Rect.whole S8000, p 126⟩]) ∗ rowPtW c k0_off511 k0_off511_inb ((rowM k0_off511 k0_off511_inb).view.writes (Elt F) fs [⟨Rect.whole S8000, p 127⟩])) : sProp 𝕄)
      ⊢ (scM0_0.view.loc (c : Thread nD τ) ↦[scM0_0.view.set]{fullShare} (Memref.isWhole_whole cc0_scratch0).unread (Val := Elt F) (blockOf p)) :=
  (Entails.of_eq (((bigSep_univ_eq_bigSepL rowsL rowsL_univ rowsL_nodup
    (fun k : Fin 128 => rowPtW (F := F) c (offT k) (inbT k) ((rowM (offT k) (inbT k)).view.writes (Elt F) fs [⟨Rect.whole S8000, p k⟩]))).trans (by sl_kernel_rfl)).symm)).trans
    (rows_join_big offT inbT hoffT c fs p)

-- END OF GENERATED BLOCK

end Cert.Kernel.H

end
-- ==== Proof.K.R0Run.lean ====
/-
  Region 0's kernel body, run once at a symbolic grid point: 128 row copies out of the distance table, each on its own
  semaphore and into its own row of the scratch block, the 128 waits, then the two products and the store of their sum.
  The table is held as one read share per semaphore, since two ids of a tile may name the same row.
-/
import proofs.«403333_j71021579206675_3_alg».proof.Proof.K.R0Rows

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
noncomputable def kernelRun0 (c : Dev nD) (i : grid0.Coords) (arg3 : Memref sig .tc .vmem S8000x1024 .bf16) (harg3 : arg3.IsWhole) (arg4 : Memref sig .tc .vmem S128x1024 .f32) (harg4 : arg4.IsWhole)
    (xt : Vec F S1024 .i32) (x0 : Vec F S8000x1024 .bf16) (fh0 : HbBuf0 (F := F) c hbM0_0)
    (hxt : ∀ y : S1024.Idx, (xt y : BitVec 32).toNat < 8000) :
    { L1 : List (View.Piece (Elt F) S128x1024 .f32) //
      ∀ (W : Waits sig Unit) (K : PUnit → sProp 𝕄),
        iprop(owns (c : Thread nD τ) tblM0 fullShare xt ∗ owns (c : Thread nD τ) arg3 fullShare x0 ∗ (∃ d, owns (c : Thread nD τ) arg4 fullShare d) ∗ (∃ d, owns (c : Thread nD τ) scM0_0 fullShare d) ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ hbPtq c hbM0_0 (Transfers.shareDrop fullShare 131) fh0 ∗ hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ owes (c : Thread nD τ) 0 W
            ∗ (iprop(owns (c : Thread nD τ) tblM0 fullShare xt ∗ owns (c : Thread nD τ) arg3 fullShare x0 ∗ (∃ f, arg4.view.loc (c : Thread nD τ) ↦[arg4.view.set]{fullShare} arg4.view.writes (Elt F) f L1) ∗ (∃ d, owns (c : Thread nD τ) scM0_0 fullShare d) ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ hbPtq c hbM0_0 (Transfers.shareDrop fullShare 131) fh0 ∗ hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ (∃ W', owes (c : Thread nD τ) 0 W')) -∗ K ⟨⟩))
          ⊢ wp frame (wpE (defs₀ (F := F)) Variants.none c none) Set.univ (cc0__gather_select_kernel i tblM0 (Memref.isWhole_whole _) hbM0_0 (Memref.isWhole_whole _) arg3 harg3 arg4 harg4 scM0_0 (Memref.isWhole_whole _) cc0_scratch1) K } := by
  have hx : ∀ (R : LoadRect S1024) (j : R.shape.Idx), (tblM0.view.readAt (Elt F) R ((Memref.isWhole_whole main_arg0).unread xt) j : BitVec 32).toNat < 8000 :=
    fun R j => by rw [Memref.IsWhole.readAt_unread]; exact hxt _
  refine ⟨?_, fun W K => ?run⟩
  case run =>
    simp only [cc0__gather_select_kernel_eq_skeleton]; unfold cc0__gather_select_kernel_skel
    unfold owns
    iintro ⟨⟨%ft, %hft, HT⟩, ⟨%f0, %hf0, H0⟩, ⟨%d1, %f1, -, H1⟩, ⟨%ds0, %fs0, -, HS0⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127, Hr, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63, Ht64, Ht65, Ht66, Ht67, Ht68, Ht69, Ht70, Ht71, Ht72, Ht73, Ht74, Ht75, Ht76, Ht77, Ht78, Ht79, Ht80, Ht81, Ht82, Ht83, Ht84, Ht85, Ht86, Ht87, Ht88, Ht89, Ht90, Ht91, Ht92, Ht93, Ht94, Ht95, Ht96, Ht97, Ht98, Ht99, Ht100, Ht101, Ht102, Ht103, Ht104, Ht105, Ht106, Ht107, Ht108, Ht109, Ht110, Ht111, Ht112, Ht113, Ht114, Ht115, Ht116, Ht117, Ht118, Ht119, Ht120, Ht121, Ht122, Ht123, Ht124, Ht125, Ht126, Ht127, Ht128, Ht129, Ht130, HW, Hk⟩
    obtain rfl := (Memref.isWhole_whole main_arg0).eq_unread hft; obtain rfl := harg3.eq_unread hf0
    -- the scratch block row by row, each row held by its own elements while its copy is in flight
    ihave HS := (rows_split c fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HR66, HR67, HR68, HR69, HR70, HR71, HR72, HR73, HR74, HR75, HR76, HR77, HR78, HR79, HR80, HR81, HR82, HR83, HR84, HR85, HR86, HR87, HR88, HR89, HR90, HR91, HR92, HR93, HR94, HR95, HR96, HR97, HR98, HR99, HR100, HR101, HR102, HR103, HR104, HR105, HR106, HR107, HR108, HR109, HR110, HR111, HR112, HR113, HR114, HR115, HR116, HR117, HR118, HR119, HR120, HR121, HR122, HR123, HR124, HR125, HR126, HR127⟩
    sl_exec (disch := exact chk_of_lt _ (hx _ _))
    -- every copy waited for: the rows joined back into the block, read as one function of the delivered rows
    ihave HS0 := (rows_join c fs0 (fun
      | ⟨0, _⟩ => kernelRun0.sl.dma1 c i xt fh0 hx
      | ⟨1, _⟩ => kernelRun0.sl.dma2 c i xt fh0 hx
      | ⟨2, _⟩ => kernelRun0.sl.dma3 c i xt fh0 hx
      | ⟨3, _⟩ => kernelRun0.sl.dma4 c i xt fh0 hx
      | ⟨4, _⟩ => kernelRun0.sl.dma5 c i xt fh0 hx
      | ⟨5, _⟩ => kernelRun0.sl.dma6 c i xt fh0 hx
      | ⟨6, _⟩ => kernelRun0.sl.dma7 c i xt fh0 hx
      | ⟨7, _⟩ => kernelRun0.sl.dma8 c i xt fh0 hx
      | ⟨8, _⟩ => kernelRun0.sl.dma9 c i xt fh0 hx
      | ⟨9, _⟩ => kernelRun0.sl.dma10 c i xt fh0 hx
      | ⟨10, _⟩ => kernelRun0.sl.dma11 c i xt fh0 hx
      | ⟨11, _⟩ => kernelRun0.sl.dma12 c i xt fh0 hx
      | ⟨12, _⟩ => kernelRun0.sl.dma13 c i xt fh0 hx
      | ⟨13, _⟩ => kernelRun0.sl.dma14 c i xt fh0 hx
      | ⟨14, _⟩ => kernelRun0.sl.dma15 c i xt fh0 hx
      | ⟨15, _⟩ => kernelRun0.sl.dma16 c i xt fh0 hx
      | ⟨16, _⟩ => kernelRun0.sl.dma17 c i xt fh0 hx
      | ⟨17, _⟩ => kernelRun0.sl.dma18 c i xt fh0 hx
      | ⟨18, _⟩ => kernelRun0.sl.dma19 c i xt fh0 hx
      | ⟨19, _⟩ => kernelRun0.sl.dma20 c i xt fh0 hx
      | ⟨20, _⟩ => kernelRun0.sl.dma21 c i xt fh0 hx
      | ⟨21, _⟩ => kernelRun0.sl.dma22 c i xt fh0 hx
      | ⟨22, _⟩ => kernelRun0.sl.dma23 c i xt fh0 hx
      | ⟨23, _⟩ => kernelRun0.sl.dma24 c i xt fh0 hx
      | ⟨24, _⟩ => kernelRun0.sl.dma25 c i xt fh0 hx
      | ⟨25, _⟩ => kernelRun0.sl.dma26 c i xt fh0 hx
      | ⟨26, _⟩ => kernelRun0.sl.dma27 c i xt fh0 hx
      | ⟨27, _⟩ => kernelRun0.sl.dma28 c i xt fh0 hx
      | ⟨28, _⟩ => kernelRun0.sl.dma29 c i xt fh0 hx
      | ⟨29, _⟩ => kernelRun0.sl.dma30 c i xt fh0 hx
      | ⟨30, _⟩ => kernelRun0.sl.dma31 c i xt fh0 hx
      | ⟨31, _⟩ => kernelRun0.sl.dma32 c i xt fh0 hx
      | ⟨32, _⟩ => kernelRun0.sl.dma33 c i xt fh0 hx
      | ⟨33, _⟩ => kernelRun0.sl.dma34 c i xt fh0 hx
      | ⟨34, _⟩ => kernelRun0.sl.dma35 c i xt fh0 hx
      | ⟨35, _⟩ => kernelRun0.sl.dma36 c i xt fh0 hx
      | ⟨36, _⟩ => kernelRun0.sl.dma37 c i xt fh0 hx
      | ⟨37, _⟩ => kernelRun0.sl.dma38 c i xt fh0 hx
      | ⟨38, _⟩ => kernelRun0.sl.dma39 c i xt fh0 hx
      | ⟨39, _⟩ => kernelRun0.sl.dma40 c i xt fh0 hx
      | ⟨40, _⟩ => kernelRun0.sl.dma41 c i xt fh0 hx
      | ⟨41, _⟩ => kernelRun0.sl.dma42 c i xt fh0 hx
      | ⟨42, _⟩ => kernelRun0.sl.dma43 c i xt fh0 hx
      | ⟨43, _⟩ => kernelRun0.sl.dma44 c i xt fh0 hx
      | ⟨44, _⟩ => kernelRun0.sl.dma45 c i xt fh0 hx
      | ⟨45, _⟩ => kernelRun0.sl.dma46 c i xt fh0 hx
      | ⟨46, _⟩ => kernelRun0.sl.dma47 c i xt fh0 hx
      | ⟨47, _⟩ => kernelRun0.sl.dma48 c i xt fh0 hx
      | ⟨48, _⟩ => kernelRun0.sl.dma49 c i xt fh0 hx
      | ⟨49, _⟩ => kernelRun0.sl.dma50 c i xt fh0 hx
      | ⟨50, _⟩ => kernelRun0.sl.dma51 c i xt fh0 hx
      | ⟨51, _⟩ => kernelRun0.sl.dma52 c i xt fh0 hx
      | ⟨52, _⟩ => kernelRun0.sl.dma53 c i xt fh0 hx
      | ⟨53, _⟩ => kernelRun0.sl.dma54 c i xt fh0 hx
      | ⟨54, _⟩ => kernelRun0.sl.dma55 c i xt fh0 hx
      | ⟨55, _⟩ => kernelRun0.sl.dma56 c i xt fh0 hx
      | ⟨56, _⟩ => kernelRun0.sl.dma57 c i xt fh0 hx
      | ⟨57, _⟩ => kernelRun0.sl.dma58 c i xt fh0 hx
      | ⟨58, _⟩ => kernelRun0.sl.dma59 c i xt fh0 hx
      | ⟨59, _⟩ => kernelRun0.sl.dma60 c i xt fh0 hx
      | ⟨60, _⟩ => kernelRun0.sl.dma61 c i xt fh0 hx
      | ⟨61, _⟩ => kernelRun0.sl.dma62 c i xt fh0 hx
      | ⟨62, _⟩ => kernelRun0.sl.dma63 c i xt fh0 hx
      | ⟨63, _⟩ => kernelRun0.sl.dma64 c i xt fh0 hx
      | ⟨64, _⟩ => kernelRun0.sl.dma65 c i xt fh0 hx
      | ⟨65, _⟩ => kernelRun0.sl.dma66 c i xt fh0 hx
      | ⟨66, _⟩ => kernelRun0.sl.dma67 c i xt fh0 hx
      | ⟨67, _⟩ => kernelRun0.sl.dma68 c i xt fh0 hx
      | ⟨68, _⟩ => kernelRun0.sl.dma69 c i xt fh0 hx
      | ⟨69, _⟩ => kernelRun0.sl.dma70 c i xt fh0 hx
      | ⟨70, _⟩ => kernelRun0.sl.dma71 c i xt fh0 hx
      | ⟨71, _⟩ => kernelRun0.sl.dma72 c i xt fh0 hx
      | ⟨72, _⟩ => kernelRun0.sl.dma73 c i xt fh0 hx
      | ⟨73, _⟩ => kernelRun0.sl.dma74 c i xt fh0 hx
      | ⟨74, _⟩ => kernelRun0.sl.dma75 c i xt fh0 hx
      | ⟨75, _⟩ => kernelRun0.sl.dma76 c i xt fh0 hx
      | ⟨76, _⟩ => kernelRun0.sl.dma77 c i xt fh0 hx
      | ⟨77, _⟩ => kernelRun0.sl.dma78 c i xt fh0 hx
      | ⟨78, _⟩ => kernelRun0.sl.dma79 c i xt fh0 hx
      | ⟨79, _⟩ => kernelRun0.sl.dma80 c i xt fh0 hx
      | ⟨80, _⟩ => kernelRun0.sl.dma81 c i xt fh0 hx
      | ⟨81, _⟩ => kernelRun0.sl.dma82 c i xt fh0 hx
      | ⟨82, _⟩ => kernelRun0.sl.dma83 c i xt fh0 hx
      | ⟨83, _⟩ => kernelRun0.sl.dma84 c i xt fh0 hx
      | ⟨84, _⟩ => kernelRun0.sl.dma85 c i xt fh0 hx
      | ⟨85, _⟩ => kernelRun0.sl.dma86 c i xt fh0 hx
      | ⟨86, _⟩ => kernelRun0.sl.dma87 c i xt fh0 hx
      | ⟨87, _⟩ => kernelRun0.sl.dma88 c i xt fh0 hx
      | ⟨88, _⟩ => kernelRun0.sl.dma89 c i xt fh0 hx
      | ⟨89, _⟩ => kernelRun0.sl.dma90 c i xt fh0 hx
      | ⟨90, _⟩ => kernelRun0.sl.dma91 c i xt fh0 hx
      | ⟨91, _⟩ => kernelRun0.sl.dma92 c i xt fh0 hx
      | ⟨92, _⟩ => kernelRun0.sl.dma93 c i xt fh0 hx
      | ⟨93, _⟩ => kernelRun0.sl.dma94 c i xt fh0 hx
      | ⟨94, _⟩ => kernelRun0.sl.dma95 c i xt fh0 hx
      | ⟨95, _⟩ => kernelRun0.sl.dma96 c i xt fh0 hx
      | ⟨96, _⟩ => kernelRun0.sl.dma97 c i xt fh0 hx
      | ⟨97, _⟩ => kernelRun0.sl.dma98 c i xt fh0 hx
      | ⟨98, _⟩ => kernelRun0.sl.dma99 c i xt fh0 hx
      | ⟨99, _⟩ => kernelRun0.sl.dma100 c i xt fh0 hx
      | ⟨100, _⟩ => kernelRun0.sl.dma101 c i xt fh0 hx
      | ⟨101, _⟩ => kernelRun0.sl.dma102 c i xt fh0 hx
      | ⟨102, _⟩ => kernelRun0.sl.dma103 c i xt fh0 hx
      | ⟨103, _⟩ => kernelRun0.sl.dma104 c i xt fh0 hx
      | ⟨104, _⟩ => kernelRun0.sl.dma105 c i xt fh0 hx
      | ⟨105, _⟩ => kernelRun0.sl.dma106 c i xt fh0 hx
      | ⟨106, _⟩ => kernelRun0.sl.dma107 c i xt fh0 hx
      | ⟨107, _⟩ => kernelRun0.sl.dma108 c i xt fh0 hx
      | ⟨108, _⟩ => kernelRun0.sl.dma109 c i xt fh0 hx
      | ⟨109, _⟩ => kernelRun0.sl.dma110 c i xt fh0 hx
      | ⟨110, _⟩ => kernelRun0.sl.dma111 c i xt fh0 hx
      | ⟨111, _⟩ => kernelRun0.sl.dma112 c i xt fh0 hx
      | ⟨112, _⟩ => kernelRun0.sl.dma113 c i xt fh0 hx
      | ⟨113, _⟩ => kernelRun0.sl.dma114 c i xt fh0 hx
      | ⟨114, _⟩ => kernelRun0.sl.dma115 c i xt fh0 hx
      | ⟨115, _⟩ => kernelRun0.sl.dma116 c i xt fh0 hx
      | ⟨116, _⟩ => kernelRun0.sl.dma117 c i xt fh0 hx
      | ⟨117, _⟩ => kernelRun0.sl.dma118 c i xt fh0 hx
      | ⟨118, _⟩ => kernelRun0.sl.dma119 c i xt fh0 hx
      | ⟨119, _⟩ => kernelRun0.sl.dma120 c i xt fh0 hx
      | ⟨120, _⟩ => kernelRun0.sl.dma121 c i xt fh0 hx
      | ⟨121, _⟩ => kernelRun0.sl.dma122 c i xt fh0 hx
      | ⟨122, _⟩ => kernelRun0.sl.dma123 c i xt fh0 hx
      | ⟨123, _⟩ => kernelRun0.sl.dma124 c i xt fh0 hx
      | ⟨124, _⟩ => kernelRun0.sl.dma125 c i xt fh0 hx
      | ⟨125, _⟩ => kernelRun0.sl.dma126 c i xt fh0 hx
      | ⟨126, _⟩ => kernelRun0.sl.dma127 c i xt fh0 hx
      | ⟨127, _⟩ => kernelRun0.sl.dma128 c i xt fh0 hx
      | ⟨_ + 128, h⟩ => absurd h (Nat.not_lt.2 (Nat.le_add_left _ _)))) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76 HR77 HR78 HR79 HR80 HR81 HR82 HR83 HR84 HR85 HR86 HR87 HR88 HR89 HR90 HR91 HR92 HR93 HR94 HR95 HR96 HR97 HR98 HR99 HR100 HR101 HR102 HR103 HR104 HR105 HR106 HR107 HR108 HR109 HR110 HR111 HR112 HR113 HR114 HR115 HR116 HR117 HR118 HR119 HR120 HR121 HR122 HR123 HR124 HR125 HR126 HR127]
    ·
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      isplitl [HR39]; · iexact HR39
      isplitl [HR40]; · iexact HR40
      isplitl [HR41]; · iexact HR41
      isplitl [HR42]; · iexact HR42
      isplitl [HR43]; · iexact HR43
      isplitl [HR44]; · iexact HR44
      isplitl [HR45]; · iexact HR45
      isplitl [HR46]; · iexact HR46
      isplitl [HR47]; · iexact HR47
      isplitl [HR48]; · iexact HR48
      isplitl [HR49]; · iexact HR49
      isplitl [HR50]; · iexact HR50
      isplitl [HR51]; · iexact HR51
      isplitl [HR52]; · iexact HR52
      isplitl [HR53]; · iexact HR53
      isplitl [HR54]; · iexact HR54
      isplitl [HR55]; · iexact HR55
      isplitl [HR56]; · iexact HR56
      isplitl [HR57]; · iexact HR57
      isplitl [HR58]; · iexact HR58
      isplitl [HR59]; · iexact HR59
      isplitl [HR60]; · iexact HR60
      isplitl [HR61]; · iexact HR61
      isplitl [HR62]; · iexact HR62
      isplitl [HR63]; · iexact HR63
      isplitl [HR64]; · iexact HR64
      isplitl [HR65]; · iexact HR65
      isplitl [HR66]; · iexact HR66
      isplitl [HR67]; · iexact HR67
      isplitl [HR68]; · iexact HR68
      isplitl [HR69]; · iexact HR69
      isplitl [HR70]; · iexact HR70
      isplitl [HR71]; · iexact HR71
      isplitl [HR72]; · iexact HR72
      isplitl [HR73]; · iexact HR73
      isplitl [HR74]; · iexact HR74
      isplitl [HR75]; · iexact HR75
      isplitl [HR76]; · iexact HR76
      isplitl [HR77]; · iexact HR77
      isplitl [HR78]; · iexact HR78
      isplitl [HR79]; · iexact HR79
      isplitl [HR80]; · iexact HR80
      isplitl [HR81]; · iexact HR81
      isplitl [HR82]; · iexact HR82
      isplitl [HR83]; · iexact HR83
      isplitl [HR84]; · iexact HR84
      isplitl [HR85]; · iexact HR85
      isplitl [HR86]; · iexact HR86
      isplitl [HR87]; · iexact HR87
      isplitl [HR88]; · iexact HR88
      isplitl [HR89]; · iexact HR89
      isplitl [HR90]; · iexact HR90
      isplitl [HR91]; · iexact HR91
      isplitl [HR92]; · iexact HR92
      isplitl [HR93]; · iexact HR93
      isplitl [HR94]; · iexact HR94
      isplitl [HR95]; · iexact HR95
      isplitl [HR96]; · iexact HR96
      isplitl [HR97]; · iexact HR97
      isplitl [HR98]; · iexact HR98
      isplitl [HR99]; · iexact HR99
      isplitl [HR100]; · iexact HR100
      isplitl [HR101]; · iexact HR101
      isplitl [HR102]; · iexact HR102
      isplitl [HR103]; · iexact HR103
      isplitl [HR104]; · iexact HR104
      isplitl [HR105]; · iexact HR105
      isplitl [HR106]; · iexact HR106
      isplitl [HR107]; · iexact HR107
      isplitl [HR108]; · iexact HR108
      isplitl [HR109]; · iexact HR109
      isplitl [HR110]; · iexact HR110
      isplitl [HR111]; · iexact HR111
      isplitl [HR112]; · iexact HR112
      isplitl [HR113]; · iexact HR113
      isplitl [HR114]; · iexact HR114
      isplitl [HR115]; · iexact HR115
      isplitl [HR116]; · iexact HR116
      isplitl [HR117]; · iexact HR117
      isplitl [HR118]; · iexact HR118
      isplitl [HR119]; · iexact HR119
      isplitl [HR120]; · iexact HR120
      isplitl [HR121]; · iexact HR121
      isplitl [HR122]; · iexact HR122
      isplitl [HR123]; · iexact HR123
      isplitl [HR124]; · iexact HR124
      isplitl [HR125]; · iexact HR125
      isplitl [HR126]; · iexact HR126
      iexact HR127
    sl_exec
    sl_step
    iapply Hk
    isplitl [HT]
    · iexists _; isplitr; · ipureintro; exact (Memref.isWhole_whole main_arg0).read_unread _
      iexact HT
    isplitl [H0]
    · iexists _; isplitr; · ipureintro; exact harg3.read_unread _
      iexact H0
    isplitl [H1]; · iexists _; iexact H1
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    isplitl [Hq70]; · iexact Hq70
    isplitl [Hq71]; · iexact Hq71
    isplitl [Hq72]; · iexact Hq72
    isplitl [Hq73]; · iexact Hq73
    isplitl [Hq74]; · iexact Hq74
    isplitl [Hq75]; · iexact Hq75
    isplitl [Hq76]; · iexact Hq76
    isplitl [Hq77]; · iexact Hq77
    isplitl [Hq78]; · iexact Hq78
    isplitl [Hq79]; · iexact Hq79
    isplitl [Hq80]; · iexact Hq80
    isplitl [Hq81]; · iexact Hq81
    isplitl [Hq82]; · iexact Hq82
    isplitl [Hq83]; · iexact Hq83
    isplitl [Hq84]; · iexact Hq84
    isplitl [Hq85]; · iexact Hq85
    isplitl [Hq86]; · iexact Hq86
    isplitl [Hq87]; · iexact Hq87
    isplitl [Hq88]; · iexact Hq88
    isplitl [Hq89]; · iexact Hq89
    isplitl [Hq90]; · iexact Hq90
    isplitl [Hq91]; · iexact Hq91
    isplitl [Hq92]; · iexact Hq92
    isplitl [Hq93]; · iexact Hq93
    isplitl [Hq94]; · iexact Hq94
    isplitl [Hq95]; · iexact Hq95
    isplitl [Hq96]; · iexact Hq96
    isplitl [Hq97]; · iexact Hq97
    isplitl [Hq98]; · iexact Hq98
    isplitl [Hq99]; · iexact Hq99
    isplitl [Hq100]; · iexact Hq100
    isplitl [Hq101]; · iexact Hq101
    isplitl [Hq102]; · iexact Hq102
    isplitl [Hq103]; · iexact Hq103
    isplitl [Hq104]; · iexact Hq104
    isplitl [Hq105]; · iexact Hq105
    isplitl [Hq106]; · iexact Hq106
    isplitl [Hq107]; · iexact Hq107
    isplitl [Hq108]; · iexact Hq108
    isplitl [Hq109]; · iexact Hq109
    isplitl [Hq110]; · iexact Hq110
    isplitl [Hq111]; · iexact Hq111
    isplitl [Hq112]; · iexact Hq112
    isplitl [Hq113]; · iexact Hq113
    isplitl [Hq114]; · iexact Hq114
    isplitl [Hq115]; · iexact Hq115
    isplitl [Hq116]; · iexact Hq116
    isplitl [Hq117]; · iexact Hq117
    isplitl [Hq118]; · iexact Hq118
    isplitl [Hq119]; · iexact Hq119
    isplitl [Hq120]; · iexact Hq120
    isplitl [Hq121]; · iexact Hq121
    isplitl [Hq122]; · iexact Hq122
    isplitl [Hq123]; · iexact Hq123
    isplitl [Hq124]; · iexact Hq124
    isplitl [Hq125]; · iexact Hq125
    isplitl [Hq126]; · iexact Hq126
    isplitl [Hq127]; · iexact Hq127
    isplitl [Hr]; · iexact Hr
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    isplitl [Ht33]; · iexact Ht33
    isplitl [Ht34]; · iexact Ht34
    isplitl [Ht35]; · iexact Ht35
    isplitl [Ht36]; · iexact Ht36
    isplitl [Ht37]; · iexact Ht37
    isplitl [Ht38]; · iexact Ht38
    isplitl [Ht39]; · iexact Ht39
    isplitl [Ht40]; · iexact Ht40
    isplitl [Ht41]; · iexact Ht41
    isplitl [Ht42]; · iexact Ht42
    isplitl [Ht43]; · iexact Ht43
    isplitl [Ht44]; · iexact Ht44
    isplitl [Ht45]; · iexact Ht45
    isplitl [Ht46]; · iexact Ht46
    isplitl [Ht47]; · iexact Ht47
    isplitl [Ht48]; · iexact Ht48
    isplitl [Ht49]; · iexact Ht49
    isplitl [Ht50]; · iexact Ht50
    isplitl [Ht51]; · iexact Ht51
    isplitl [Ht52]; · iexact Ht52
    isplitl [Ht53]; · iexact Ht53
    isplitl [Ht54]; · iexact Ht54
    isplitl [Ht55]; · iexact Ht55
    isplitl [Ht56]; · iexact Ht56
    isplitl [Ht57]; · iexact Ht57
    isplitl [Ht58]; · iexact Ht58
    isplitl [Ht59]; · iexact Ht59
    isplitl [Ht60]; · iexact Ht60
    isplitl [Ht61]; · iexact Ht61
    isplitl [Ht62]; · iexact Ht62
    isplitl [Ht63]; · iexact Ht63
    isplitl [Ht64]; · iexact Ht64
    isplitl [Ht65]; · iexact Ht65
    isplitl [Ht66]; · iexact Ht66
    isplitl [Ht67]; · iexact Ht67
    isplitl [Ht68]; · iexact Ht68
    isplitl [Ht69]; · iexact Ht69
    isplitl [Ht70]; · iexact Ht70
    isplitl [Ht71]; · iexact Ht71
    isplitl [Ht72]; · iexact Ht72
    isplitl [Ht73]; · iexact Ht73
    isplitl [Ht74]; · iexact Ht74
    isplitl [Ht75]; · iexact Ht75
    isplitl [Ht76]; · iexact Ht76
    isplitl [Ht77]; · iexact Ht77
    isplitl [Ht78]; · iexact Ht78
    isplitl [Ht79]; · iexact Ht79
    isplitl [Ht80]; · iexact Ht80
    isplitl [Ht81]; · iexact Ht81
    isplitl [Ht82]; · iexact Ht82
    isplitl [Ht83]; · iexact Ht83
    isplitl [Ht84]; · iexact Ht84
    isplitl [Ht85]; · iexact Ht85
    isplitl [Ht86]; · iexact Ht86
    isplitl [Ht87]; · iexact Ht87
    isplitl [Ht88]; · iexact Ht88
    isplitl [Ht89]; · iexact Ht89
    isplitl [Ht90]; · iexact Ht90
    isplitl [Ht91]; · iexact Ht91
    isplitl [Ht92]; · iexact Ht92
    isplitl [Ht93]; · iexact Ht93
    isplitl [Ht94]; · iexact Ht94
    isplitl [Ht95]; · iexact Ht95
    isplitl [Ht96]; · iexact Ht96
    isplitl [Ht97]; · iexact Ht97
    isplitl [Ht98]; · iexact Ht98
    isplitl [Ht99]; · iexact Ht99
    isplitl [Ht100]; · iexact Ht100
    isplitl [Ht101]; · iexact Ht101
    isplitl [Ht102]; · iexact Ht102
    isplitl [Ht103]; · iexact Ht103
    isplitl [Ht104]; · iexact Ht104
    isplitl [Ht105]; · iexact Ht105
    isplitl [Ht106]; · iexact Ht106
    isplitl [Ht107]; · iexact Ht107
    isplitl [Ht108]; · iexact Ht108
    isplitl [Ht109]; · iexact Ht109
    isplitl [Ht110]; · iexact Ht110
    isplitl [Ht111]; · iexact Ht111
    isplitl [Ht112]; · iexact Ht112
    isplitl [Ht113]; · iexact Ht113
    isplitl [Ht114]; · iexact Ht114
    isplitl [Ht115]; · iexact Ht115
    isplitl [Ht116]; · iexact Ht116
    isplitl [Ht117]; · iexact Ht117
    isplitl [Ht118]; · iexact Ht118
    isplitl [Ht119]; · iexact Ht119
    isplitl [Ht120]; · iexact Ht120
    isplitl [Ht121]; · iexact Ht121
    isplitl [Ht122]; · iexact Ht122
    isplitl [Ht123]; · iexact Ht123
    isplitl [Ht124]; · iexact Ht124
    isplitl [Ht125]; · iexact Ht125
    isplitl [Ht126]; · iexact Ht126
    isplitl [Ht127]; · iexact Ht127
    isplitl [Ht128]; · iexact Ht128
    isplitl [Ht129]; · iexact Ht129
    isplitl [Ht130]; · iexact Ht130
    iexists _; iexact HW

end Cert.Kernel.H

end
-- ==== Proof.K.R0Payload.lean ====
/- One row copy of region 0's gather, read as a value: the row of the distance table that the copy delivers into scratch
   row k is the row the k-th id of the tile names, so the delivered payload is row k of the gathered block. -/
import proofs.«403333_j71021579206675_3_alg».proof.Proof.K.R0Defs
import Idealize.ShloMosaic.Lib.WholeRead
import Idealize.ShloMosaic.Lib.ValueIdx

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Entry j of a row of 8000, matched with a 1 × 8000 window, is the window's entry (0, j). -/
theorem hbRow_reshape (h : S8000.numel = S1x8000.numel) (j : S8000.Idx) :
    Shape.reshapeEquiv h j = (ValueIdx.ix2 (0 : Fin 1) (⟨(j 0).val, (j 0).isLt⟩ : Fin 8000) : S1x8000.Idx) :=
  Shape.reshapeEquiv_eq_of_rowMajor h (by
    rw [Shape.rowMajor_val_two, Shape.rowMajor_val_one]
    show 0 * 8000 + (j 0).val = (j 0).val
    omega)

/-- The word the body loads at position 128 i + k of the id table held at contents that read `xt` is `xt`'s entry
    there (the position is inside the table, so reducing it modulo 1024 changes nothing). -/
theorem id_word_eq (i : grid0.Coords) (hi : (i 0).val < 8) (xt : Vec F S1024 .i32) (k : Fin 128)
    (off1 : Fin 1 → ℕ) (inb1 : ∀ a, off1 a + S1.size a ≤ S1024.size a) (hoff1 : off1 = ![128 * (i 0).val + k.val])
    (h1 : 0 < (Rect.unit (s := S1024) off1 S1.size inb1).toLoadRect.shape.numel) :
    (View.readAt (Elt F) tblM0.view (Rect.unit (s := S1024) off1 S1.size inb1).toLoadRect
        ((Memref.isWhole_whole main_arg0).unread xt) (Shape.Idx.first h1) : BitVec 32)
      = (xt : S1024.Idx → BitVec 32) (ValueIdx.ix1 (n := 1024) ⟨(128 * (i 0).val + k.val) % 1024, Nat.mod_lt _ (by decide)⟩) := by
  subst hoff1
  have hk : 128 * (i 0).val + k.val < 1024 := by have := k.isLt; omega
  refine ((Memref.isWhole_whole main_arg0).readAt_unread (Val := Elt F) xt _ _).trans (congrArg xt ?_)
  funext a
  refine Fin.ext ?_
  match a with
  | ⟨0, _⟩ =>
    show 128 * (i 0).val + k.val + 1 * 0 = (128 * (i 0).val + k.val) % 1024
    rw [Nat.mod_eq_of_lt hk]
    omega

/-- THE DELIVERED PAYLOAD. The copy whose source is the table row named by the word loaded at position 128 i + k of the id
    table delivers, entry by entry, row k of the gathered block. -/
theorem dma_payload_eq (c : Dev nD) (i : grid0.Coords) (hi : (i 0).val < 8) (xt : Vec F S1024 .i32)
    (hxt : ∀ y : S1024.Idx, (xt y : BitVec 32).toNat < 8000) (fh0 : HbBuf0 (F := F) c hbM0_0) (k : Fin 128)
    (off1 : Fin 1 → ℕ) (inb1 : ∀ a, off1 a + S1.size a ≤ S1024.size a) (hoff1 : off1 = ![128 * (i 0).val + k.val])
    (h1 : 0 < (Rect.unit (s := S1024) off1 S1.size inb1).toLoadRect.shape.numel)
    (offH : Fin 2 → ℕ) (inbH : ∀ a, offH a + S1x8000.size a ≤ S8000x8000.size a)
    (hoffH : offH = ![(View.readAt (Elt F) tblM0.view (Rect.unit (s := S1024) off1 S1.size inb1).toLoadRect
        ((Memref.isWhole_whole main_arg0).unread xt) (Shape.Idx.first h1) : BitVec 32).toNat, 0]) (j : S8000.Idx) :
    ReadAs.same.apply (View.read (Elt F) ((hbM0_0.slice (Rect.unit (s := S8000x8000) offH S1x8000.size inbH) (fun _ => rfl)).squeeze S8000 squeezes_S1x8000_S8000).view fh0) j
      = gathered i (xt : S1024.Idx → BitVec 32) (hbM0_0.view.read (Elt F) fh0) (ValueIdx.ix2 k (⟨(j 0).val, (j 0).isLt⟩ : Fin 8000)) := by
  rw [id_word_eq i hi xt k off1 inb1 hoff1 h1] at hoffH
  subst hoffH
  show hbM0_0.view.read (Elt F) fh0 ((Rect.unit (s := S8000x8000)
      ![((xt : S1024.Idx → BitVec 32) (ValueIdx.ix1 (n := 1024) ⟨(128 * (i 0).val + k.val) % 1024, Nat.mod_lt _ (by decide)⟩)).toNat, 0]
      S1x8000.size inbH).emb (Shape.reshapeEquiv squeezes_S1x8000_S8000.numel_eq j)) = _
  unfold gathered
  refine congrArg (hbM0_0.view.read (Elt F) fh0) ?_
  rw [hbRow_reshape]
  funext b
  refine Fin.ext ?_
  match b with
  | ⟨0, _⟩ =>
    show ((xt : S1024.Idx → BitVec 32) (ValueIdx.ix1 (n := 1024) ⟨(128 * (i 0).val + k.val) % 1024, Nat.mod_lt _ (by decide)⟩)).toNat + 1 * 0
      = ((xt : S1024.Idx → BitVec 32) (ValueIdx.ix1 (n := 1024) ⟨(128 * (i 0).val + k.val) % 1024, Nat.mod_lt _ (by decide)⟩)).toNat % 8000
    rw [Nat.mod_eq_of_lt (hxt _)]
    omega
  | ⟨1, _⟩ =>
    show 0 + 1 * (j 0).val = (j 0).val
    omega

end Cert.Kernel.H

end
-- ==== Proof.K.R0.lean ====
/-
  Region 0: the proof data of the row-gather pipeline, its body obligation, and the value its output window holds.
-/
import proofs.«403333_j71021579206675_3_alg».proof.Proof.K.R0Run
import proofs.«403333_j71021579206675_3_alg».proof.Proof.K.R0Rows
import proofs.«403333_j71021579206675_3_alg».proof.Proof.K.R0Payload
import Idealize.ShloMosaic.Lib.Pipeline.Value

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem H0_sub : H0 ⊆ Pipeline.restRefsP sig pre0 spec0 := by decide

/-! ## The staging memrefs and the body as the pipeline calls it -/

/-- One staging buffer of the output window, through which its contents are stated (the choice does not matter). -/
abbrev VO0_1 : View sig .tc .vmem S128x1024 .f32 := (Memref.whole cc0_stg1_0 : Memref sig .tc .vmem S128x1024 .f32).view
/-- Each window's current staging memref at point `t`, spelled as the pipeline passes it, and its wholeness. -/
abbrev ms0_0 (a : (pcfg0 (F := F)).Adm) (t : Fin (cfg0 a).N) : Memref sig .tc .vmem S8000x1024 .bf16 := spec0_0.stage ((cfg0 a).slots t (0 : Fin 2))
abbrev hs0_0 (a : (pcfg0 (F := F)).Adm) (t : Fin (cfg0 a).N) : (ms0_0 a t).IsWhole := hstage0_0 (((cfg0 a).slots t (0 : Fin 2)).cast nbuf0_0)
abbrev ms0_1 (a : (pcfg0 (F := F)).Adm) (t : Fin (cfg0 a).N) : Memref sig .tc .vmem S128x1024 .f32 := spec0_1.stage ((cfg0 a).slots t (1 : Fin 2))
abbrev hs0_1 (a : (pcfg0 (F := F)).Adm) (t : Fin (cfg0 a).N) : (ms0_1 a t).IsWhole := hstage0_1 (((cfg0 a).slots t (1 : Fin 2)).cast nbuf0_1)

/-- The kernel body at point `t`, on what the pipeline calls it with: the id table and the distance table whole, the
    two windows' current staging memrefs, the scratch block and the row semaphores. -/
abbrev bodyAt0 (a : (pcfg0 (F := F)).Adm) (t : Fin (cfg0 a).N) : Prog (TpuEff nD τ sig (Elt F) Λ₀ .tc) PUnit :=
  cc0__gather_select_kernel (grid0.coords t) tblM0 (Memref.isWhole_whole _) hbM0_0 (Memref.isWhole_whole _) (ms0_0 a t) (hs0_0 a t) (ms0_1 a t) (hs0_1 a t) scM0_0 (Memref.isWhole_whole _) cc0_scratch1

section
variable (V : (c : Dev nD) → (b : Ref sig .tc) → Buf (Elt F) ((c : Thread nD τ).loc b))

/-- Window `w`'s block at point `t`, read off its array as the region finds it. -/
def iblk0 (a : (pcfg0 (F := F)).Adm) (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The selector window's staging buffer holds its block (the whole selector) at every point, though it is fetched at
    the first only: afterwards the block index has not moved. -/
theorem before0_0_of (a : (pcfg0 (F := F)).Adm) {c : Dev nD} (dat : Dat τ (Elt F) Unit ℕ (Pipeline.UD sig nD τ) ℕ (cfg0 a) c)
    (hA : dat.A (0 : Fin 2) = V c (Pipeline.arrRef spec0 0))
    (hafter : ∀ t, dat.after (0 : Fin 2) t = iblk0 V a c (0 : Fin 2) t) (t : Fin (cfg0 a).N) (d) : dat.before (0 : Fin 2) t d = iblk0 V a c (0 : Fin 2) t :=
  (dat.before_in_eq_fetched (0 : Fin 2) rfl (fun _ => rfl) (fun _ _ _ => rfl) (fun t => by rw [hafter]; unfold Dat.blockOf iblk0; rw [hA]; try rfl) t d).trans
    (by unfold Dat.fetched Dat.blockOf iblk0; rw [hA]; try rfl)

/-- The region's invariant: the scratch block and the other scoped buffers at some contents, the generator register,
    the 128 semaphores at zero, the distance table whole at its entry contents, and the id table at its contents. -/
def Φ0 (a : (pcfg0 (F := F)).Adm) (c : Dev nD) : sProp 𝕄 :=
  iprop(Pipeline.ΦD osem0 spec0 H0 V c ∗ Pipeline.prefHeld pre0 c (fun _ => fullShare) a.1)

end

/-! ## A list's conjuncts in front of a remainder, nested to the right

The run states its 128 semaphore cells and its 131 read shares of the distance table as conjuncts written out one by one
in front of the rest of its pre- and postcondition; the invariant holds each family as one iterated conjunction. The two
forms are exchanged here, once for any list. -/

/-- `Φ i₁ ∗ (Φ i₂ ∗ … (Φ iₙ ∗ R))`. -/
def chainR {M : Type} [URA M] {I : Type} (Φ : I → sProp M) (R : sProp M) : List I → sProp M
  | [] => R
  | i :: l => BI.sep (Φ i) (chainR Φ R l)

theorem chainR_nil {M : Type} [URA M] {I : Type} (Φ : I → sProp M) (R : sProp M) : chainR Φ R [] = R := rfl
theorem chainR_cons {M : Type} [URA M] {I : Type} (Φ : I → sProp M) (R : sProp M) (i : I) (l : List I) :
    chainR Φ R (i :: l) = BI.sep (Φ i) (chainR Φ R l) := rfl

theorem chainR_of_bigSepL {M : Type} [URA M] {I : Type} (Φ : I → sProp M) (R : sProp M) :
    ∀ l : List I, iprop(bigSepL l Φ ∗ R) ⊢ chainR Φ R l
  | [] => by
    rw [chainR_nil, BI.bigSepL_nil]
    exact _root_.Idealize.SL.BI.emp_sep_elim
  | i :: l => by
    rw [chainR_cons, BI.bigSepL_cons]
    exact _root_.Idealize.SL.BI.sep_assoc.trans (_root_.Idealize.SL.BI.sep_mono_r (chainR_of_bigSepL Φ R l))

theorem bigSepL_of_chainR {M : Type} [URA M] {I : Type} (Φ : I → sProp M) (R : sProp M) :
    ∀ l : List I, chainR Φ R l ⊢ iprop(bigSepL l Φ ∗ R)
  | [] => by
    rw [chainR_nil, BI.bigSepL_nil]
    exact _root_.Idealize.SL.BI.emp_sep_intro
  | i :: l => by
    rw [chainR_cons, BI.bigSepL_cons]
    exact (_root_.Idealize.SL.BI.sep_mono_r (bigSepL_of_chainR Φ R l)).trans _root_.Idealize.SL.BI.sep_assoc'

/-! ## The kernel's 128 semaphore cells and its 131 read shares of the distance table, listed -/

section Cells
variable (c : Dev nD)

theorem sems0_chain (R : sProp 𝕄) :
    chainR (fun k : Fin 128 => (semVal ((c : Thread nD τ), osem0 k) 0 : sProp 𝕄)) R (List.finRange 128)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ R) := by
  sl_kernel_rfl

theorem ownSems0_list : (Pipeline.ownSems0 (Ix := Unit) (Name := ℕ) (U := Pipeline.UD sig nD τ) (Lvl := ℕ) (Val := Elt F) (τ := τ) osem0 c : sProp 𝕄)
    = bigSepL (List.finRange 128) (fun k => semVal ((c : Thread nD τ), osem0 k) 0) :=
  Pipeline.ownSems0_eq_of_list c osem0 (List.finRange 128) (List.toFinset_finRange 128).symm (List.nodup_finRange 128)

/-- The cells at zero, as the invariant holds them, are the run's conjuncts one by one, -/
theorem sems0_intro (R : sProp 𝕄) : iprop((Pipeline.ownSems0 (Ix := Unit) (Name := ℕ) (U := Pipeline.UD sig nD τ) (Lvl := ℕ) (Val := Elt F) (τ := τ) osem0 c : sProp 𝕄) ∗ R) ⊢ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ R) := by
  rw [ownSems0_list, ← sems0_chain c R]
  exact chainR_of_bigSepL _ R _
/-- and back. -/
theorem sems0_elim (R : sProp 𝕄) : iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ R) ⊢ iprop((Pipeline.ownSems0 (Ix := Unit) (Name := ℕ) (U := Pipeline.UD sig nD τ) (Lvl := ℕ) (Val := Elt F) (τ := τ) osem0 c : sProp 𝕄) ∗ R) := by
  rw [ownSems0_list, ← sems0_chain c R]
  exact bigSepL_of_chainR _ R _

theorem toks0_chain (fh0 : HbBuf0 (F := F) c hbM0_0) (R : sProp 𝕄) :
    chainR (fun i : Fin 131 => (hbPtq c hbM0_0 (Transfers.shareTok fullShare 131 i) fh0 : sProp 𝕄)) R (List.finRange 131)
      = iprop(hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ R) := by
  sl_kernel_rfl

/-- The distance table held whole at the full share is the remainder after 131 read shares and the shares, one per
    transfer that may be in flight at once (two ids of a tile may name one row), -/
theorem toks0_intro (fh0 : HbBuf0 (F := F) c hbM0_0) (R : sProp 𝕄) :
    iprop(hbPtq c hbM0_0 fullShare fh0 ∗ R) ⊢ iprop(hbPtq c hbM0_0 (Transfers.shareDrop fullShare 131) fh0 ∗ hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ R) := by
  have hs := Transfers.pointsTo_toks_split (Ix := Unit) (Name := ℕ) (U := Pipeline.UD sig nD τ) (Lvl := ℕ)
    (ℓ := hbM0_0.view.loc (c : Thread nD τ)) (S := Finset.univ) (f := fh0) fullShare 131
  rw [BI.bigSep_univ_eq_bigSepL (List.finRange 131) (List.toFinset_finRange 131).symm (List.nodup_finRange 131)] at hs
  rw [← toks0_chain c fh0 R]
  exact (_root_.Idealize.SL.BI.sep_mono_l hs).trans (_root_.Idealize.SL.BI.sep_assoc.trans (_root_.Idealize.SL.BI.sep_mono_r (chainR_of_bigSepL _ R _)))
/-- and joined back. -/
theorem toks0_elim (fh0 : HbBuf0 (F := F) c hbM0_0) (R : sProp 𝕄) :
    iprop(hbPtq c hbM0_0 (Transfers.shareDrop fullShare 131) fh0 ∗ hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ R) ⊢ iprop(hbPtq c hbM0_0 fullShare fh0 ∗ R) := by
  have hj := Transfers.pointsTo_toks_join (Ix := Unit) (Name := ℕ) (U := Pipeline.UD sig nD τ) (Lvl := ℕ)
    (ℓ := hbM0_0.view.loc (c : Thread nD τ)) (S := Finset.univ) (f := fh0) fullShare 131
  rw [BI.bigSep_univ_eq_bigSepL (List.finRange 131) (List.toFinset_finRange 131).symm (List.nodup_finRange 131)] at hj
  rw [← toks0_chain c fh0 R]
  exact (_root_.Idealize.SL.BI.sep_mono_r (bigSepL_of_chainR _ R _)).trans (_root_.Idealize.SL.BI.sep_assoc'.trans (_root_.Idealize.SL.BI.sep_mono_l hj))

end Cells

/-! ## What the body leaves in the output window -/

section Out
variable (c : Dev nD)

/-- The run's pieces for the output window (one store of the whole block) tile its block, so they cover it. -/
theorem cover0_1 (i : grid0.Coords) (arg3 : Memref sig .tc .vmem S8000x1024 .bf16) (harg3 : arg3.IsWhole) (arg4 : Memref sig .tc .vmem S128x1024 .f32) (harg4 : arg4.IsWhole)
    (xt : Vec F S1024 .i32) (x0 : Vec F S8000x1024 .bf16) (fh0 : HbBuf0 (F := F) c hbM0_0) (hxt : ∀ y : S1024.Idx, (xt y : BitVec 32).toNat < 8000) (y : S128x1024.Idx) :
    ∃ pc ∈ (kernelRun0 c i arg3 harg3 arg4 harg4 xt x0 fh0 hxt).1, y ∈ pc.1.set :=
  View.cover_of_tiledL (kernelRun0 c i arg3 harg3 arg4 harg4 xt x0 fh0 hxt).1 S128x1024.size (by sl_kernel_rfl) y

/-- What the run leaves in the output window's staging buffer: its pieces read back over junk. -/
def out0_1 (i : grid0.Coords) (arg3 : Memref sig .tc .vmem S8000x1024 .bf16) (harg3 : arg3.IsWhole) (arg4 : Memref sig .tc .vmem S128x1024 .f32) (harg4 : arg4.IsWhole)
    (xt : Vec F S1024 .i32) (x0 : Vec F S8000x1024 .bf16) (fh0 : HbBuf0 (F := F) c hbM0_0) (hxt : ∀ y : S1024.Idx, (xt y : BitVec 32).toNat < 8000) : Vec F S128x1024 .f32 :=
  VO0_1.read (Elt F) (VO0_1.writes (Elt F) VO0_1.junk (kernelRun0 c i arg3 harg3 arg4 harg4 xt x0 fh0 hxt).1)

end Out

theorem zeroOff0_2 : (![0, 0] : Fin 2 → Nat) = fun _ => 0 := funext fun a => by fin_cases a <;> rfl

/-- A block whose every row is the matching row of the gathered block is the gathered block. -/
theorem blockOf_eq_gathered (i : grid0.Coords) (xt : S1024.Idx → BitVec 32) (X : S8000x8000.Idx → Elt F .f32)
    (p : Fin 128 → S8000.Idx → Elt F .f32)
    (hp : ∀ (k : Fin 128) (j : S8000.Idx), p k j = gathered i xt X (ValueIdx.ix2 k (⟨(j 0).val, (j 0).isLt⟩ : Fin 8000))) :
    blockOf p = gathered i xt X := by
  funext y
  unfold blockOf
  rw [hp]
  refine congrArg (gathered i xt X) ?_
  funext b
  refine Fin.ext ?_
  match b with
  | ⟨0, _⟩ => rfl
  | ⟨1, _⟩ => rfl

/-- The stored block is a function of the scratch block and the selector: equal arguments, equal blocks. -/
theorem pay0_congr {A G : Vec F S128x8000 .f32} {B x0 : Vec F S8000x1024 .bf16} (hA : A = G) (hB : B = x0) :
    k0_pay1 (k0_pay2 A) (k0_pay3 A) B = k0_pay1 (k0_pay2 G) (k0_pay3 G) x0 := by
  subst hA hB; rfl

set_option maxHeartbeats 8000000 in
/-- THE VALUE the body leaves in the output window: the scratch block after the 128 copies is the gathered block — row
    `k` is the row of the distance table that the `k`-th id of the tile names, one case per row —, and the stored block
    is the sum of the two products of its high and low parts with the selector. -/
theorem out0_1_eq (c : Dev nD) (i : grid0.Coords) (hi : (i 0).val < 8) (arg3 : Memref sig .tc .vmem S8000x1024 .bf16) (harg3 : arg3.IsWhole) (arg4 : Memref sig .tc .vmem S128x1024 .f32) (harg4 : arg4.IsWhole)
    (xt : Vec F S1024 .i32) (x0 : Vec F S8000x1024 .bf16) (fh0 : HbBuf0 (F := F) c hbM0_0) (hxt : ∀ y : S1024.Idx, (xt y : BitVec 32).toNat < 8000) :
    out0_1 c i arg3 harg3 arg4 harg4 xt x0 fh0 hxt
      = k0_pay1 (k0_pay2 (gathered i xt (hbM0_0.view.read (Elt F) fh0))) (k0_pay3 (gathered i xt (hbM0_0.view.read (Elt F) fh0))) x0 := by
  unfold out0_1
  rw [View.read_writes_junk_eq_canon]
  unfold kernelRun0
  dsimp only
  unfold kernelRun0.sl.r_256 kernelRun0.sl.r_257 kernelRun0.sl.v2817
  rw [View.canon_unit_zero (S := S128x1024) zeroOff0_2]
  refine pay0_congr ?_ ?_
  · rw [View.readAt_eq_ld, read_unread_block, View.ld_unit_zero (S := S128x8000) zeroOff0_2]
    refine blockOf_eq_gathered i xt (hbM0_0.view.read (Elt F) fh0) _ ?_
    intro k j
    match k with
    | ⟨0, _⟩ => exact dma_payload_eq c i hi xt hxt fh0 ⟨0, by decide⟩ _ _ (k0_off1_eq i) _ _ _ rfl j
    | ⟨1, _⟩ => exact dma_payload_eq c i hi xt hxt fh0 ⟨1, by decide⟩ _ _ (k0_off5_eq i) _ _ _ rfl j
    | ⟨2, _⟩ => exact dma_payload_eq c i hi xt hxt fh0 ⟨2, by decide⟩ _ _ (k0_off9_eq i) _ _ _ rfl j
    | ⟨3, _⟩ => exact dma_payload_eq c i hi xt hxt fh0 ⟨3, by decide⟩ _ _ (k0_off13_eq i) _ _ _ rfl j
    | ⟨4, _⟩ => exact dma_payload_eq c i hi xt hxt fh0 ⟨4, by decide⟩ _ _ (k0_off17_eq i) _ _ _ rfl j
    | ⟨5, _⟩ => exact dma_payload_eq c i hi xt hxt fh0 ⟨5, by decide⟩ _ _ (k0_off21_eq i) _ _ _ rfl j
    | ⟨6, _⟩ => exact dma_payload_eq c i hi xt hxt fh0 ⟨6, by decide⟩ _ _ (k0_off25_eq i) _ _ _ rfl j
    | ⟨7, _⟩ => exact dma_payload_eq c i hi xt hxt fh0 ⟨7, by decide⟩ _ _ (k0_off29_eq i) _ _ _ rfl j
    | ⟨8, _⟩ => exact dma_payload_eq c i hi xt hxt fh0 ⟨8, by decide⟩ _ _ (k0_off33_eq i) _ _ _ rfl j
    | ⟨9, _⟩ => exact dma_payload_eq c i hi xt hxt fh0 ⟨9, by decide⟩ _ _ (k0_off37_eq i) _ _ _ rfl j
    | ⟨10, _⟩ => exact dma_payload_eq c i hi xt hxt fh0 ⟨10, by decide⟩ _ _ (k0_off41_eq i) _ _ _ rfl j
    | ⟨11, _⟩ => exact dma_payload_eq c i hi xt hxt fh0 ⟨11, by decide⟩ _ _ (k0_off45_eq i) _ _ _ rfl j
    | ⟨12, _⟩ => exact dma_payload_eq c i hi xt hxt fh0 ⟨12, by decide⟩ _ _ (k0_off49_eq i) _ _ _ rfl j
    | ⟨13, _⟩ => exact dma_payload_eq c i hi xt hxt fh0 ⟨13, by decide⟩ _ _ (k0_off53_eq i) _ _ _ rfl j
    | ⟨14, _⟩ => exact dma_payload_eq c i hi xt hxt fh0 ⟨14, by decide⟩ _ _ (k0_off57_eq i) _ _ _ rfl j
    | ⟨15, _⟩ => exact dma_payload_eq c i hi xt hxt fh0 ⟨15, by decide⟩ _ _ (k0_off61_eq i) _ _ _ rfl j
    | ⟨16, _⟩ => exact dma_payload_eq c i hi xt hxt fh0 ⟨16, by decide⟩ _ _ (k0_off65_eq i) _ _ _ rfl j
    | ⟨17, _⟩ => exact dma_payload_eq c i hi xt hxt fh0 ⟨17, by decide⟩ _ _ (k0_off69_eq i) _ _ _ rfl j
    | ⟨18, _⟩ => exact dma_payload_eq c i hi xt hxt fh0 ⟨18, by decide⟩ _ _ (k0_off73_eq i) _ _ _ rfl j
    | ⟨19, _⟩ => exact dma_payload_eq c i hi xt hxt fh0 ⟨19, by decide⟩ _ _ (k0_off77_eq i) _ _ _ rfl j
    | ⟨20, _⟩ => exact dma_payload_eq c i hi xt hxt fh0 ⟨20, by decide⟩ _ _ (k0_off81_eq i) _ _ _ rfl j
    | ⟨21, _⟩ => exact dma_payload_eq c i hi xt hxt fh0 ⟨21, by decide⟩ _ _ (k0_off85_eq i) _ _ _ rfl j
    | ⟨22, _⟩ => exact dma_payload_eq c i hi xt hxt fh0 ⟨22, by decide⟩ _ _ (k0_off89_eq i) _ _ _ rfl j
    | ⟨23, _⟩ => exact dma_payload_eq c i hi xt hxt fh0 ⟨23, by decide⟩ _ _ (k0_off93_eq i) _ _ _ rfl j
    | ⟨24, _⟩ => exact dma_payload_eq c i hi xt hxt fh0 ⟨24, by decide⟩ _ _ (k0_off97_eq i) _ _ _ rfl j
    | ⟨25, _⟩ => exact dma_payload_eq c i hi xt hxt fh0 ⟨25, by decide⟩ _ _ (k0_off101_eq i) _ _ _ rfl j
    | ⟨26, _⟩ => exact dma_payload_eq c i hi xt hxt fh0 ⟨26, by decide⟩ _ _ (k0_off105_eq i) _ _ _ rfl j
    | ⟨27, _⟩ => exact dma_payload_eq c i hi xt hxt fh0 ⟨27, by decide⟩ _ _ (k0_off109_eq i) _ _ _ rfl j
    | ⟨28, _⟩ => exact dma_payload_eq c i hi xt hxt fh0 ⟨28, by decide⟩ _ _ (k0_off113_eq i) _ _ _ rfl j
    | ⟨29, _⟩ => exact dma_payload_eq c i hi xt hxt fh0 ⟨29, by decide⟩ _ _ (k0_off117_eq i) _ _ _ rfl j
    | ⟨30, _⟩ => exact dma_payload_eq c i hi xt hxt fh0 ⟨30, by decide⟩ _ _ (k0_off121_eq i) _ _ _ rfl j
    | ⟨31, _⟩ => exact dma_payload_eq c i hi xt hxt fh0 ⟨31, by decide⟩ _ _ (k0_off125_eq i) _ _ _ rfl j
    | ⟨32, _⟩ => exact dma_payload_eq c i hi xt hxt fh0 ⟨32, by decide⟩ _ _ (k0_off129_eq i) _ _ _ rfl j
    | ⟨33, _⟩ => exact dma_payload_eq c i hi xt hxt fh0 ⟨33, by decide⟩ _ _ (k0_off133_eq i) _ _ _ rfl j
    | ⟨34, _⟩ => exact dma_payload_eq c i hi xt hxt fh0 ⟨34, by decide⟩ _ _ (k0_off137_eq i) _ _ _ rfl j
    | ⟨35, _⟩ => exact dma_payload_eq c i hi xt hxt fh0 ⟨35, by decide⟩ _ _ (k0_off141_eq i) _ _ _ rfl j
    | ⟨36, _⟩ => exact dma_payload_eq c i hi xt hxt fh0 ⟨36, by decide⟩ _ _ (k0_off145_eq i) _ _ _ rfl j
    | ⟨37, _⟩ => exact dma_payload_eq c i hi xt hxt fh0 ⟨37, by decide⟩ _ _ (k0_off149_eq i) _ _ _ rfl j
    | ⟨38, _⟩ => exact dma_payload_eq c i hi xt hxt fh0 ⟨38, by decide⟩ _ _ (k0_off153_eq i) _ _ _ rfl j
    | ⟨39, _⟩ => exact dma_payload_eq c i hi xt hxt fh0 ⟨39, by decide⟩ _ _ (k0_off157_eq i) _ _ _ rfl j
    | ⟨40, _⟩ => exact dma_payload_eq c i hi xt hxt fh0 ⟨40, by decide⟩ _ _ (k0_off161_eq i) _ _ _ rfl j
    | ⟨41, _⟩ => exact dma_payload_eq c i hi xt hxt fh0 ⟨41, by decide⟩ _ _ (k0_off165_eq i) _ _ _ rfl j
    | ⟨42, _⟩ => exact dma_payload_eq c i hi xt hxt fh0 ⟨42, by decide⟩ _ _ (k0_off169_eq i) _ _ _ rfl j
    | ⟨43, _⟩ => exact dma_payload_eq c i hi xt hxt fh0 ⟨43, by decide⟩ _ _ (k0_off173_eq i) _ _ _ rfl j
    | ⟨44, _⟩ => exact dma_payload_eq c i hi xt hxt fh0 ⟨44, by decide⟩ _ _ (k0_off177_eq i) _ _ _ rfl j
    | ⟨45, _⟩ => exact dma_payload_eq c i hi xt hxt fh0 ⟨45, by decide⟩ _ _ (k0_off181_eq i) _ _ _ rfl j
    | ⟨46, _⟩ => exact dma_payload_eq c i hi xt hxt fh0 ⟨46, by decide⟩ _ _ (k0_off185_eq i) _ _ _ rfl j
    | ⟨47, _⟩ => exact dma_payload_eq c i hi xt hxt fh0 ⟨47, by decide⟩ _ _ (k0_off189_eq i) _ _ _ rfl j
    | ⟨48, _⟩ => exact dma_payload_eq c i hi xt hxt fh0 ⟨48, by decide⟩ _ _ (k0_off193_eq i) _ _ _ rfl j
    | ⟨49, _⟩ => exact dma_payload_eq c i hi xt hxt fh0 ⟨49, by decide⟩ _ _ (k0_off197_eq i) _ _ _ rfl j
    | ⟨50, _⟩ => exact dma_payload_eq c i hi xt hxt fh0 ⟨50, by decide⟩ _ _ (k0_off201_eq i) _ _ _ rfl j
    | ⟨51, _⟩ => exact dma_payload_eq c i hi xt hxt fh0 ⟨51, by decide⟩ _ _ (k0_off205_eq i) _ _ _ rfl j
    | ⟨52, _⟩ => exact dma_payload_eq c i hi xt hxt fh0 ⟨52, by decide⟩ _ _ (k0_off209_eq i) _ _ _ rfl j
    | ⟨53, _⟩ => exact dma_payload_eq c i hi xt hxt fh0 ⟨53, by decide⟩ _ _ (k0_off213_eq i) _ _ _ rfl j
    | ⟨54, _⟩ => exact dma_payload_eq c i hi xt hxt fh0 ⟨54, by decide⟩ _ _ (k0_off217_eq i) _ _ _ rfl j
    | ⟨55, _⟩ => exact dma_payload_eq c i hi xt hxt fh0 ⟨55, by decide⟩ _ _ (k0_off221_eq i) _ _ _ rfl j
    | ⟨56, _⟩ => exact dma_payload_eq c i hi xt hxt fh0 ⟨56, by decide⟩ _ _ (k0_off225_eq i) _ _ _ rfl j
    | ⟨57, _⟩ => exact dma_payload_eq c i hi xt hxt fh0 ⟨57, by decide⟩ _ _ (k0_off229_eq i) _ _ _ rfl j
    | ⟨58, _⟩ => exact dma_payload_eq c i hi xt hxt fh0 ⟨58, by decide⟩ _ _ (k0_off233_eq i) _ _ _ rfl j
    | ⟨59, _⟩ => exact dma_payload_eq c i hi xt hxt fh0 ⟨59, by decide⟩ _ _ (k0_off237_eq i) _ _ _ rfl j
    | ⟨60, _⟩ => exact dma_payload_eq c i hi xt hxt fh0 ⟨60, by decide⟩ _ _ (k0_off241_eq i) _ _ _ rfl j
    | ⟨61, _⟩ => exact dma_payload_eq c i hi xt hxt fh0 ⟨61, by decide⟩ _ _ (k0_off245_eq i) _ _ _ rfl j
    | ⟨62, _⟩ => exact dma_payload_eq c i hi xt hxt fh0 ⟨62, by decide⟩ _ _ (k0_off249_eq i) _ _ _ rfl j
    | ⟨63, _⟩ => exact dma_payload_eq c i hi xt hxt fh0 ⟨63, by decide⟩ _ _ (k0_off253_eq i) _ _ _ rfl j
    | ⟨64, _⟩ => exact dma_payload_eq c i hi xt hxt fh0 ⟨64, by decide⟩ _ _ (k0_off257_eq i) _ _ _ rfl j
    | ⟨65, _⟩ => exact dma_payload_eq c i hi xt hxt fh0 ⟨65, by decide⟩ _ _ (k0_off261_eq i) _ _ _ rfl j
    | ⟨66, _⟩ => exact dma_payload_eq c i hi xt hxt fh0 ⟨66, by decide⟩ _ _ (k0_off265_eq i) _ _ _ rfl j
    | ⟨67, _⟩ => exact dma_payload_eq c i hi xt hxt fh0 ⟨67, by decide⟩ _ _ (k0_off269_eq i) _ _ _ rfl j
    | ⟨68, _⟩ => exact dma_payload_eq c i hi xt hxt fh0 ⟨68, by decide⟩ _ _ (k0_off273_eq i) _ _ _ rfl j
    | ⟨69, _⟩ => exact dma_payload_eq c i hi xt hxt fh0 ⟨69, by decide⟩ _ _ (k0_off277_eq i) _ _ _ rfl j
    | ⟨70, _⟩ => exact dma_payload_eq c i hi xt hxt fh0 ⟨70, by decide⟩ _ _ (k0_off281_eq i) _ _ _ rfl j
    | ⟨71, _⟩ => exact dma_payload_eq c i hi xt hxt fh0 ⟨71, by decide⟩ _ _ (k0_off285_eq i) _ _ _ rfl j
    | ⟨72, _⟩ => exact dma_payload_eq c i hi xt hxt fh0 ⟨72, by decide⟩ _ _ (k0_off289_eq i) _ _ _ rfl j
    | ⟨73, _⟩ => exact dma_payload_eq c i hi xt hxt fh0 ⟨73, by decide⟩ _ _ (k0_off293_eq i) _ _ _ rfl j
    | ⟨74, _⟩ => exact dma_payload_eq c i hi xt hxt fh0 ⟨74, by decide⟩ _ _ (k0_off297_eq i) _ _ _ rfl j
    | ⟨75, _⟩ => exact dma_payload_eq c i hi xt hxt fh0 ⟨75, by decide⟩ _ _ (k0_off301_eq i) _ _ _ rfl j
    | ⟨76, _⟩ => exact dma_payload_eq c i hi xt hxt fh0 ⟨76, by decide⟩ _ _ (k0_off305_eq i) _ _ _ rfl j
    | ⟨77, _⟩ => exact dma_payload_eq c i hi xt hxt fh0 ⟨77, by decide⟩ _ _ (k0_off309_eq i) _ _ _ rfl j
    | ⟨78, _⟩ => exact dma_payload_eq c i hi xt hxt fh0 ⟨78, by decide⟩ _ _ (k0_off313_eq i) _ _ _ rfl j
    | ⟨79, _⟩ => exact dma_payload_eq c i hi xt hxt fh0 ⟨79, by decide⟩ _ _ (k0_off317_eq i) _ _ _ rfl j
    | ⟨80, _⟩ => exact dma_payload_eq c i hi xt hxt fh0 ⟨80, by decide⟩ _ _ (k0_off321_eq i) _ _ _ rfl j
    | ⟨81, _⟩ => exact dma_payload_eq c i hi xt hxt fh0 ⟨81, by decide⟩ _ _ (k0_off325_eq i) _ _ _ rfl j
    | ⟨82, _⟩ => exact dma_payload_eq c i hi xt hxt fh0 ⟨82, by decide⟩ _ _ (k0_off329_eq i) _ _ _ rfl j
    | ⟨83, _⟩ => exact dma_payload_eq c i hi xt hxt fh0 ⟨83, by decide⟩ _ _ (k0_off333_eq i) _ _ _ rfl j
    | ⟨84, _⟩ => exact dma_payload_eq c i hi xt hxt fh0 ⟨84, by decide⟩ _ _ (k0_off337_eq i) _ _ _ rfl j
    | ⟨85, _⟩ => exact dma_payload_eq c i hi xt hxt fh0 ⟨85, by decide⟩ _ _ (k0_off341_eq i) _ _ _ rfl j
    | ⟨86, _⟩ => exact dma_payload_eq c i hi xt hxt fh0 ⟨86, by decide⟩ _ _ (k0_off345_eq i) _ _ _ rfl j
    | ⟨87, _⟩ => exact dma_payload_eq c i hi xt hxt fh0 ⟨87, by decide⟩ _ _ (k0_off349_eq i) _ _ _ rfl j
    | ⟨88, _⟩ => exact dma_payload_eq c i hi xt hxt fh0 ⟨88, by decide⟩ _ _ (k0_off353_eq i) _ _ _ rfl j
    | ⟨89, _⟩ => exact dma_payload_eq c i hi xt hxt fh0 ⟨89, by decide⟩ _ _ (k0_off357_eq i) _ _ _ rfl j
    | ⟨90, _⟩ => exact dma_payload_eq c i hi xt hxt fh0 ⟨90, by decide⟩ _ _ (k0_off361_eq i) _ _ _ rfl j
    | ⟨91, _⟩ => exact dma_payload_eq c i hi xt hxt fh0 ⟨91, by decide⟩ _ _ (k0_off365_eq i) _ _ _ rfl j
    | ⟨92, _⟩ => exact dma_payload_eq c i hi xt hxt fh0 ⟨92, by decide⟩ _ _ (k0_off369_eq i) _ _ _ rfl j
    | ⟨93, _⟩ => exact dma_payload_eq c i hi xt hxt fh0 ⟨93, by decide⟩ _ _ (k0_off373_eq i) _ _ _ rfl j
    | ⟨94, _⟩ => exact dma_payload_eq c i hi xt hxt fh0 ⟨94, by decide⟩ _ _ (k0_off377_eq i) _ _ _ rfl j
    | ⟨95, _⟩ => exact dma_payload_eq c i hi xt hxt fh0 ⟨95, by decide⟩ _ _ (k0_off381_eq i) _ _ _ rfl j
    | ⟨96, _⟩ => exact dma_payload_eq c i hi xt hxt fh0 ⟨96, by decide⟩ _ _ (k0_off385_eq i) _ _ _ rfl j
    | ⟨97, _⟩ => exact dma_payload_eq c i hi xt hxt fh0 ⟨97, by decide⟩ _ _ (k0_off389_eq i) _ _ _ rfl j
    | ⟨98, _⟩ => exact dma_payload_eq c i hi xt hxt fh0 ⟨98, by decide⟩ _ _ (k0_off393_eq i) _ _ _ rfl j
    | ⟨99, _⟩ => exact dma_payload_eq c i hi xt hxt fh0 ⟨99, by decide⟩ _ _ (k0_off397_eq i) _ _ _ rfl j
    | ⟨100, _⟩ => exact dma_payload_eq c i hi xt hxt fh0 ⟨100, by decide⟩ _ _ (k0_off401_eq i) _ _ _ rfl j
    | ⟨101, _⟩ => exact dma_payload_eq c i hi xt hxt fh0 ⟨101, by decide⟩ _ _ (k0_off405_eq i) _ _ _ rfl j
    | ⟨102, _⟩ => exact dma_payload_eq c i hi xt hxt fh0 ⟨102, by decide⟩ _ _ (k0_off409_eq i) _ _ _ rfl j
    | ⟨103, _⟩ => exact dma_payload_eq c i hi xt hxt fh0 ⟨103, by decide⟩ _ _ (k0_off413_eq i) _ _ _ rfl j
    | ⟨104, _⟩ => exact dma_payload_eq c i hi xt hxt fh0 ⟨104, by decide⟩ _ _ (k0_off417_eq i) _ _ _ rfl j
    | ⟨105, _⟩ => exact dma_payload_eq c i hi xt hxt fh0 ⟨105, by decide⟩ _ _ (k0_off421_eq i) _ _ _ rfl j
    | ⟨106, _⟩ => exact dma_payload_eq c i hi xt hxt fh0 ⟨106, by decide⟩ _ _ (k0_off425_eq i) _ _ _ rfl j
    | ⟨107, _⟩ => exact dma_payload_eq c i hi xt hxt fh0 ⟨107, by decide⟩ _ _ (k0_off429_eq i) _ _ _ rfl j
    | ⟨108, _⟩ => exact dma_payload_eq c i hi xt hxt fh0 ⟨108, by decide⟩ _ _ (k0_off433_eq i) _ _ _ rfl j
    | ⟨109, _⟩ => exact dma_payload_eq c i hi xt hxt fh0 ⟨109, by decide⟩ _ _ (k0_off437_eq i) _ _ _ rfl j
    | ⟨110, _⟩ => exact dma_payload_eq c i hi xt hxt fh0 ⟨110, by decide⟩ _ _ (k0_off441_eq i) _ _ _ rfl j
    | ⟨111, _⟩ => exact dma_payload_eq c i hi xt hxt fh0 ⟨111, by decide⟩ _ _ (k0_off445_eq i) _ _ _ rfl j
    | ⟨112, _⟩ => exact dma_payload_eq c i hi xt hxt fh0 ⟨112, by decide⟩ _ _ (k0_off449_eq i) _ _ _ rfl j
    | ⟨113, _⟩ => exact dma_payload_eq c i hi xt hxt fh0 ⟨113, by decide⟩ _ _ (k0_off453_eq i) _ _ _ rfl j
    | ⟨114, _⟩ => exact dma_payload_eq c i hi xt hxt fh0 ⟨114, by decide⟩ _ _ (k0_off457_eq i) _ _ _ rfl j
    | ⟨115, _⟩ => exact dma_payload_eq c i hi xt hxt fh0 ⟨115, by decide⟩ _ _ (k0_off461_eq i) _ _ _ rfl j
    | ⟨116, _⟩ => exact dma_payload_eq c i hi xt hxt fh0 ⟨116, by decide⟩ _ _ (k0_off465_eq i) _ _ _ rfl j
    | ⟨117, _⟩ => exact dma_payload_eq c i hi xt hxt fh0 ⟨117, by decide⟩ _ _ (k0_off469_eq i) _ _ _ rfl j
    | ⟨118, _⟩ => exact dma_payload_eq c i hi xt hxt fh0 ⟨118, by decide⟩ _ _ (k0_off473_eq i) _ _ _ rfl j
    | ⟨119, _⟩ => exact dma_payload_eq c i hi xt hxt fh0 ⟨119, by decide⟩ _ _ (k0_off477_eq i) _ _ _ rfl j
    | ⟨120, _⟩ => exact dma_payload_eq c i hi xt hxt fh0 ⟨120, by decide⟩ _ _ (k0_off481_eq i) _ _ _ rfl j
    | ⟨121, _⟩ => exact dma_payload_eq c i hi xt hxt fh0 ⟨121, by decide⟩ _ _ (k0_off485_eq i) _ _ _ rfl j
    | ⟨122, _⟩ => exact dma_payload_eq c i hi xt hxt fh0 ⟨122, by decide⟩ _ _ (k0_off489_eq i) _ _ _ rfl j
    | ⟨123, _⟩ => exact dma_payload_eq c i hi xt hxt fh0 ⟨123, by decide⟩ _ _ (k0_off493_eq i) _ _ _ rfl j
    | ⟨124, _⟩ => exact dma_payload_eq c i hi xt hxt fh0 ⟨124, by decide⟩ _ _ (k0_off497_eq i) _ _ _ rfl j
    | ⟨125, _⟩ => exact dma_payload_eq c i hi xt hxt fh0 ⟨125, by decide⟩ _ _ (k0_off501_eq i) _ _ _ rfl j
    | ⟨126, _⟩ => exact dma_payload_eq c i hi xt hxt fh0 ⟨126, by decide⟩ _ _ (k0_off505_eq i) _ _ _ rfl j
    | ⟨127, _⟩ => exact dma_payload_eq c i hi xt hxt fh0 ⟨127, by decide⟩ _ _ (k0_off509_eq i) _ _ _ rfl j
    | ⟨n + 128, h⟩ => exact absurd h (Nat.not_lt.2 (Nat.le_add_left _ _))
  · rw [View.readAt_eq_ld, harg3.read_unread, View.ld_unit_zero (S := S8000x1024) zeroOff0_2]

section
variable (V : (c : Dev nD) → (b : Ref sig .tc) → Buf (Elt F) ((c : Thread nD τ).loc b))

open Classical in
/-- What the body leaves in the output window's buffer at point `t`: the run's contents at the point's memrefs, the
    id table's contents, the selector and the distance table as the region finds it — when every id names a row of
    the distance table (otherwise nothing is claimed of it). -/
def outsAt0 (a : (pcfg0 (F := F)).Adm) (c : Dev nD) (t : Fin (cfg0 a).N) : Vec F S128x1024 .f32 :=
  if hx : ∀ y : S1024.Idx, ((a.1 0 : S1024.Idx → Elt F .i32) y : BitVec 32).toNat < 8000 then
    out0_1 c (grid0.coords t) (ms0_0 a t) (hs0_0 a t) (ms0_1 a t) (hs0_1 a t) (a.1 0) (iblk0 V a c (0 : Fin 2) t) (V c main_arg2) hx
  else VO0_1.read (Elt F) VO0_1.junk

def dat0 (a : (pcfg0 (F := F)).Adm) (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => outsAt0 V a c t
  Φ _ := Φ0 V a c
  q _ := fullShare
  owed _ := 0

theorem A_eq0 (a : (pcfg0 (F := F)).Adm) (c : Dev nD) (w : Fin (cfg0 a).W) : (dat0 V a c).A w = V c (Pipeline.arrRef spec0 w) := by
  dsimp only [dat0]

/-- What the body leaves, window by window. -/
theorem after0_0 (a : (pcfg0 (F := F)).Adm) (c : Dev nD) (t : Fin (cfg0 a).N) : (dat0 V a c).after (0 : Fin 2) t = iblk0 V a c (0 : Fin 2) t := rfl
theorem after0_1 (a : (pcfg0 (F := F)).Adm) (c : Dev nD) (t : Fin (cfg0 a).N) : (dat0 V a c).after (1 : Fin 2) t = outsAt0 V a c t := rfl

/-- The selector's staging buffer holds the selector at every point. -/
theorem before0_0 (a : (pcfg0 (F := F)).Adm) (c : Dev nD) (t : Fin (cfg0 a).N) (d) : (dat0 V a c).before (0 : Fin 2) t d = iblk0 V a c (0 : Fin 2) t :=
  before0_0_of V a (dat0 V a c) (A_eq0 V a c (0 : Fin 2)) (after0_0 V a c) t d

/-! ## The invariant, conjunct by conjunct -/

/-- The other pallas_call's staging buffers, each whole at some contents: scoped buffers this kernel does not touch. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The distance table's points-to at the region-entry contents. -/
theorem hbmPts0_eq (c : Dev nD) :
    (bigSep H0 (fun b => ((c : Thread nD τ).loc b) ↦{fullShare} V c b) : sProp 𝕄) = iprop(hbPtq c hbM0_0 fullShare (V c main_arg2)) := by
  rw [BI.bigSep_eq_bigSepL_of_eq [main_arg2] (by decide) (by decide)]; rfl

/-- The invariant's first half: the scratch block owned at some contents and the other scoped buffers, the generator
    register at some state, the 128 cells at zero, the distance table whole at its region-entry contents. -/
theorem PhiD0_eq (c : Dev nD) :
    (Pipeline.ΦD osem0 spec0 H0 V c : sProp 𝕄)
      = iprop(iprop((∃ d, owns (c : Thread nD τ) scM0_0 fullShare d) ∗ otherScoped0 (F := F) c) ∗ (∃ r, prngReg c r) ∗ (Pipeline.ownSems0 (Ix := Unit) (Name := ℕ) (U := Pipeline.UD sig nD τ) (Lvl := ℕ) (Val := Elt F) (τ := τ) osem0 c : sProp 𝕄) ∗ iprop(hbPtq c hbM0_0 fullShare (V c main_arg2))) := by
  rw [Pipeline.ΦD_eq, scopedRest0_eq, hbmPts0_eq]; simp only [scM0_0, owns_whole]; try rfl

/-- Its second half: the id table owned whole at the contents the pipeline runs at. -/
theorem prefHeld0_eq (a : (pcfg0 (F := F)).Adm) (c : Dev nD) :
    (Pipeline.prefHeld pre0 c (fun _ => fullShare) a.1 : sProp 𝕄) = owns (c : Thread nD τ) tblM0 fullShare (a.1 0) := by
  unfold Pipeline.prefHeld
  rw [show (Finset.univ : Finset (Fin pre0.K)) = {0} from by decide, bigSep_singleton]
  exact (owns_whole (c : Thread nD τ) main_arg0 fullShare (a.1 0)).symm

/-! ## The body obligation, at a generic point -/

/-- What the body is called with at point `t`, the windows one by one, -/
def bodyPre0 (a : (pcfg0 (F := F)).Adm) (c : Dev nD) (t : Fin (cfg0 a).N) : sProp 𝕄 :=
  iprop((dat0 V a c).Φ t.castSucc ∗ (dat0 V a c).owesAt () t.castSucc
    ∗ (∃ d, owns (c : Thread nD τ) (ms0_0 a t) fullShare ((dat0 V a c).before (0 : Fin 2) t d))
    ∗ (∃ d, owns (c : Thread nD τ) (ms0_1 a t) fullShare ((dat0 V a c).before (1 : Fin 2) t d)))

/-- and what it returns. -/
def bodyPost0 (a : (pcfg0 (F := F)).Adm) (c : Dev nD) (t : Fin (cfg0 a).N) : sProp 𝕄 :=
  iprop((dat0 V a c).Φ t.succ ∗ (dat0 V a c).owesAt () t.succ
    ∗ owns (c : Thread nD τ) (ms0_0 a t) fullShare ((dat0 V a c).after (0 : Fin 2) t)
    ∗ owns (c : Thread nD τ) (ms0_1 a t) fullShare ((dat0 V a c).after (1 : Fin 2) t))

set_option maxHeartbeats 1600000 in
/-- The body at any point: the selector's memref holds the selector; the invariant hands the body the id table, its
    scratch, its 128 cells at zero and the distance table — split into one read share per cell and the remainder — and
    takes them back as they were, the shares joined; the core's dues go in at whatever the points before recorded and
    come back with this point's waits. -/
theorem sound_body0 (a : (pcfg0 (F := F)).Adm) (hx : ∀ y : S1024.Idx, ((a.1 0 : S1024.Idx → Elt F .i32) y : BitVec 32).toNat < 8000)
    (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0]
  rw [show (dat0 V a c).Φ t.succ = (dat0 V a c).Φ t.castSucc from rfl, after0_0, after0_1]
  rw [show (dat0 V a c).Φ t.castSucc = Φ0 V a c from rfl]
  unfold Φ0
  rw [PhiD0_eq, prefHeld0_eq]
  unfold Dat.owesAt Pipeline.owesWithin
  rw [show (dat0 V a c).owed t.castSucc = 0 from rfl, show (dat0 V a c).owed t.succ = 0 from rfl]
  unfold outsAt0
  rw [dif_pos hx]
  unfold out0_1
  iintro ⟨⟨⟨⟨HS0, HR⟩, Hg, Hq, Hh0⟩, Htbl⟩, ⟨%W, -, HW⟩, ⟨%d0, H0⟩, ⟨%d1, H1⟩⟩
  iapply ((kernelRun0 c (grid0.coords t) _ _ _ _ (a.1 0) (iblk0 V a c (0 : Fin 2) t) (V c main_arg2) hx).2 W _)
  isplitl [Htbl]; · iexact Htbl
  isplitl [H0]; · iexact H0
  isplitl [H1]; · iexists _; iexact H1
  isplitl [HS0]; · iexact HS0
  iapply (sems0_intro c _)
  isplitl [Hq]; · iexact Hq
  iapply (toks0_intro c _ _)
  isplitl [Hh0]; · iexact Hh0
  isplitl [HW]; · iexact HW
  iintro ⟨Htbl, H0, ⟨%e1, H1⟩, HS0, Hrest⟩
  ihave Hrest1 := (sems0_elim c _) $$ Hrest
  icases Hrest1 with ⟨Hq, Hrest⟩
  ihave Hrest2 := (toks0_elim c _ _) $$ Hrest
  icases Hrest2 with ⟨Hh0, ⟨%W', HW'⟩⟩
  isplitl [HS0 HR Hg Hq Hh0 Htbl]
  · isplitl [HS0 HR Hg Hq Hh0]
    · isplitl [HS0 HR]
      · isplitl [HS0]; · iexact HS0
        iexact HR
      isplitl [Hg]; · iexact Hg
      isplitl [Hq]; · iexact Hq
      iexact Hh0
    iexact Htbl
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover0_1 c _ _ _ _ _ _ _ _ _)

set_option maxRecDepth 400000 in
/-- The library's body obligation, at every point. -/
theorem body_obligation0 (a : (pcfg0 (F := F)).Adm) (hx : ∀ y : S1024.Idx, ((a.1 0 : S1024.Idx → Elt F .i32) y : BitVec 32).toNat < 8000) (c : Dev nD) :
    BodyObligation (dat0 (F := F) V a c) (defs₀ (F := F)) Variants.none () Set.univ := fun t => by
  rw [bigSep_W0, bigSep_W0]
  rw [show defs₀ (F := F) .tc (cfg0 a).body ((cfg0 a).bodyArgs t ((cfg0 a).slots t)) = bodyAt0 a t from rfl]
  exact sound_body0 V a hx c t

/-- THE VALUE the output window holds after point `t`, every id naming a row of the distance table: the two products of
    the gathered rows' high and low parts with the selector, added. -/
theorem outsAt0_eq (a : (pcfg0 (F := F)).Adm) (hx : ∀ y : S1024.Idx, ((a.1 0 : S1024.Idx → Elt F .i32) y : BitVec 32).toNat < 8000) (c : Dev nD) (t : Fin (cfg0 a).N) :
    outsAt0 V a c t = Gen.k0_pay1 (Gen.k0_pay2 (gathered (grid0.coords t) (a.1 0) (hbM0_0.view.read (Elt F) (V c main_arg2)))) (Gen.k0_pay3 (gathered (grid0.coords t) (a.1 0) (hbM0_0.view.read (Elt F) (V c main_arg2)))) (iblk0 V a c (0 : Fin 2) t) := by
  unfold outsAt0
  rw [dif_pos hx]
  exact out0_1_eq c (grid0.coords t) (grid0.coords t 0).isLt (ms0_0 a t) (hs0_0 a t) (ms0_1 a t) (hs0_1 a t) (a.1 0) (iblk0 V a c (0 : Fin 2) t) (V c main_arg2) hx

end

end Cert.Kernel.H

end
-- ==== Proof.K.R1Runs.lean ====
/- REGION 1 (the second pallas_call, the combine kernel) of the idealized kernel program: what its two control
   cases' runs share. The region's half of the frame is stated at a parameter `V`, the TensorCore's buffer
   contents when the region is entered. Here: each window's block read off `V`; the four input windows' staging
   buffers hold their blocks at every point; the body's one branch condition (the reduction axis' coordinate is
   zero) in closed form over the grid; the staging memrefs as the pipeline passes them. -/
import proofs.«403333_j71021579206675_3_alg».proof.Proof.Gen.Kernel.Launch
import proofs.«403333_j71021579206675_3_alg».proof.Proof.Gen.Kernel.Skeleton
import proofs.«403333_j71021579206675_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch condition -/

/-- The condition of the body's one `scf.if` (the accumulators' reset), from the grid coordinates: the reduction
    axis' coordinate is zero (the skeleton's scalar chain substituted). -/
abbrev cond1_0 (i : grid1.Coords) : Prop := (Scalar.cmpi .ne (Scalar.extui (Scalar.cmpi .eq (BitVec.ofNat 32 (i 1).val) 0#32)) 0#32) = 1#1
/-- It holds at the first point of each row of the grid — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The staging memrefs -/

/-- One staging buffer of each output window, through which its contents are stated (the choice does not matter). -/
abbrev VO1_4 : View sig .tc .vmem S1x8x128 .f32 := (Memref.whole cc1_stg4_0 : Memref sig .tc .vmem S1x8x128 .f32).view
abbrev VO1_5 : View sig .tc .vmem S1x8x128 .f32 := (Memref.whole cc1_stg5_0 : Memref sig .tc .vmem S1x8x128 .f32).view
/-- Each window's current staging memref at point `t`, spelled as the pipeline passes it, and its wholeness. -/
abbrev ms1_0 (t : Fin cfg1.N) : Memref sig .tc .vmem S128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x8x128 .f32 := win1_5.stage (cfg1.slots t 5)
abbrev hs1_5 (t : Fin cfg1.N) : (ms1_5 t).IsWhole := hstage1_5 ((cfg1.slots t 5).cast nbuf1_5)

end Cert.Kernel.H

end
-- ==== Proof.K.R1RunA.lean ====
/- REGION 1 of the idealized kernel program, the combine kernel's whole-body run in the case where the accumulators
   are reset (the reduction coordinate is zero). -/
import proofs.«403333_j71021579206675_3_alg».proof.Proof.K.R1Runs

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two accumulators' staging memrefs, as pieces (last first), AT A POINT WHERE
    THE REDUCTION COORDINATE IS ZERO (the reset is taken), with the proof that on whole staging memrefs — the four
    inputs' at their contents, the two accumulators' at anything — the body runs to the continuation holding the
    inputs' as they were and each accumulator's buffer with its pieces written: the zero fill, then the sum added to
    what was read back. The pieces are the witness the run finds. -/
noncomputable def kernelRun1_A (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) :
    Σ' (L4 : List (View.Piece (Elt F) S1x8x128 .f32)), { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc1__combine_kernel i arg2 harg2 arg3 harg3 arg4 harg4 arg5 harg5 arg6 harg6 arg7 harg7) K } := by
  refine ⟨?_, ?_, fun E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.Kernel.H

end
-- ==== Proof.K.R1RunB.lean ====
/- REGION 1 of the idealized kernel program, the combine kernel's whole-body run in the case where the accumulators
   carry on from the point before (the reduction coordinate is not zero). -/
import proofs.«403333_j71021579206675_3_alg».proof.Proof.K.R1RunA

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two accumulators' staging memrefs, as pieces (last first), AT A POINT WHERE
    THE REDUCTION COORDINATE IS NOT ZERO (no reset), with the proof that on whole staging memrefs — the four inputs'
    at their contents, the two accumulators' at their running contents `xo4`, `xo5` — the body runs to the
    continuation holding the inputs' as they were and each accumulator's buffer with its piece written: the sum added
    to the running contents. The pieces are the witness the run finds. -/
noncomputable def kernelRun1_B (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) :
    Σ' (L4 : List (View.Piece (Elt F) S1x8x128 .f32)), { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc1__combine_kernel i arg2 harg2 arg3 harg3 arg4 harg4 arg5 harg5 arg6 harg6 arg7 harg7) K } := by
  refine ⟨?_, ?_, fun E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.Kernel.H

end
-- ==== Proof.K.R1.lean ====
/- REGION 1 (the second pallas_call, the combine kernel) of the idealized kernel program, its half of the frame and
   value run, stated at the TensorCore's buffer contents `V` when the region is entered: what each control case
   leaves in the two accumulators (the pieces the runs found, covering their blocks), what the accumulators hold
   point by point (by recursion on the point, with its two case equations), the pipeline's proof data, and the body
   obligation at every point. Then the accumulators' contents read as the body's arithmetic: the zero fill and one
   point's contribution added to the running contents. -/
import proofs.«403333_j71021579206675_3_alg».proof.Proof.K.R1RunB
import Idealize.ShloMosaic.Lib.Pipeline.Value

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## What each case leaves in the two accumulators -/

/-- The reset case's pieces for the first accumulator (the zero fill, then the sum's store) tile its block, so they cover it. -/
theorem cover1_A_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) (y : S1x8x128.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S1x8x128.size (by sl_kernel_rfl) y
/-- and likewise for the second accumulator. -/
theorem cover1_A_5 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) (y : S1x8x128.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S1x8x128.size (by sl_kernel_rfl) y

/-- What the reset case leaves in the first accumulator's staging buffer: its pieces read back over junk. -/
def out1_A_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) : Vec F S1x8x128 .f32 :=
  VO1_4.read (Elt F) (VO1_4.writes (Elt F) VO1_4.junk (kernelRun1_A c i arg2 harg2 arg3 harg3 arg4 harg4 arg5 harg5 arg6 harg6 arg7 harg7 hc0 x0 x1 x2 x3).1)
/-- What the reset case leaves in the second accumulator's staging buffer. -/
def out1_A_5 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) : Vec F S1x8x128 .f32 :=
  VO1_5.read (Elt F) (VO1_5.writes (Elt F) VO1_5.junk (kernelRun1_A c i arg2 harg2 arg3 harg3 arg4 harg4 arg5 harg5 arg6 harg6 arg7 harg7 hc0 x0 x1 x2 x3).2.1)

/-- The carrying case's piece for the first accumulator (the one store of the updated sum) covers its block. -/
theorem cover1_B_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) (y : S1x8x128.Idx) :
    ∃ pc ∈ (kernelRun1_B c i arg2 harg2 arg3 harg3 arg4 harg4 arg5 harg5 arg6 harg6 arg7 harg7 hc0 x0 x1 x2 x3 xo4 xo5).1, y ∈ pc.1.set :=
  View.cover_of_tiledL (kernelRun1_B c i arg2 harg2 arg3 harg3 arg4 harg4 arg5 harg5 arg6 harg6 arg7 harg7 hc0 x0 x1 x2 x3 xo4 xo5).1 S1x8x128.size (by sl_kernel_rfl) y
/-- and likewise for the second accumulator. -/
theorem cover1_B_5 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) (y : S1x8x128.Idx) :
    ∃ pc ∈ (kernelRun1_B c i arg2 harg2 arg3 harg3 arg4 harg4 arg5 harg5 arg6 harg6 arg7 harg7 hc0 x0 x1 x2 x3 xo4 xo5).2.1, y ∈ pc.1.set :=
  View.cover_of_tiledL (kernelRun1_B c i arg2 harg2 arg3 harg3 arg4 harg4 arg5 harg5 arg6 harg6 arg7 harg7 hc0 x0 x1 x2 x3 xo4 xo5).2.1 S1x8x128.size (by sl_kernel_rfl) y

/-- What the carrying case leaves in the first accumulator's staging buffer, over the running contents `xo4`, `xo5`. -/
def out1_B_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) : Vec F S1x8x128 .f32 :=
  VO1_4.read (Elt F) (VO1_4.writes (Elt F) VO1_4.junk (kernelRun1_B c i arg2 harg2 arg3 harg3 arg4 harg4 arg5 harg5 arg6 harg6 arg7 harg7 hc0 x0 x1 x2 x3 xo4 xo5).1)
/-- What the carrying case leaves in the second accumulator's staging buffer. -/
def out1_B_5 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) : Vec F S1x8x128 .f32 :=
  VO1_5.read (Elt F) (VO1_5.writes (Elt F) VO1_5.junk (kernelRun1_B c i arg2 harg2 arg3 harg3 arg4 harg4 arg5 harg5 arg6 harg6 arg7 harg7 hc0 x0 x1 x2 x3 xo4 xo5).2.1)

/-! ## What the accumulators hold after each point -/

/-- THE ACCUMULATION. What the two accumulators' staging buffers hold after the body at position `n`: at the first
    point of a row of the grid (the reduction coordinate zero) the reset case run at the point's memrefs and input
    blocks; elsewhere the carrying case, over what this leaves at `n - 1` (the buffers are not written back
    between). -/
def outsAt1 (c : Dev nD) : (n : ℕ) → n < cfg1.N → Vec F S1x8x128 .f32 × Vec F S1x8x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2,
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)

/-- `outsAt1` at a point of the reset case: that case's contents. -/
theorem outsAt1_A (c : Dev nD) (t : Fin cfg1.N) (h0 : t.val % 4 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t),
      out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of the carrying case: that case's contents, over what the point before left. -/
theorem outsAt1_B (c : Dev nD) (t : Fin cfg1.N) (h0 : ¬t.val % 4 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2,
      out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the two accumulators' at `outsAt1`; the invariant the scoped
    rest and the generator register; nothing owed; each input array at the full share, but the one array the third
    and fourth windows both read, held as its two halves. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q := fun
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point of the carrying case each accumulator's current staging buffer holds what the body left at the point
    before: the point is not the first, and the buffer was not written back between (the write-backs come after the
    last point of a row). -/
theorem before1_4_B (c : Dev nD) (t : Fin cfg1.N) (h0 : ¬t.val % 4 = 0) (d) :
    (dat1 V c).before 4 t d = (outsAt1 V c (t.val - 1) (Nat.lt_of_le_of_lt (Nat.sub_le _ _) t.isLt)).1 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]
theorem before1_5_B (c : Dev nD) (t : Fin cfg1.N) (h0 : ¬t.val % 4 = 0) (d) :
    (dat1 V c).before 5 t d = (outsAt1 V c (t.val - 1) (Nat.lt_of_le_of_lt (Nat.sub_le _ _) t.isLt)).2 := by
  have hN : t.val < 32 := lt_of_lt_of_eq t.isLt (show cfg1.N = 32 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' memrefs hold their blocks; the closed form says which case the point is in; in
    the carrying case the accumulators hold what the point before left; so that case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 32 := lt_of_lt_of_eq t.isLt (show cfg1.N = 32 from N_1)
  by_cases h0 : t.val % 4 = 0
  · rw [outsAt1_A V c t h0]
    (try dsimp only)
    unfold out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _ _)
  · rw [outsAt1_B V c t h0]
    simp only [before1_4_B V c t h0, before1_5_B V c t h0]
    (try dsimp only)
    unfold out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! ## The accumulators' contents as the body's arithmetic

The body's pure terms are the skeleton's payloads: `k1_pay6 e_i e_j` the four chunked lane sums of `|e_i - e_j|` added up,
`k1_pay2 s md mask xo` the running contents `xo` plus the broadcast total of `|s / 128 - md| * mask`, `k1_pay3 mask xo` the
running contents plus the broadcast total of `mask`, and `k1_pay4`, `k1_pay5` the zero blocks the reset stores. -/

theorem zeroOff1_2 : (![0, 0] : Fin 2 → Nat) = fun _ => 0 := funext fun a => by fin_cases a <;> rfl
theorem zeroOff1_3 : (![0, 0, 0] : Fin 3 → Nat) = fun _ => 0 := funext fun a => by fin_cases a <;> rfl

/-- THE CARRYING CASE's value, first accumulator: over running contents `xo4` the body leaves `xo4` plus the point's
    masked distance error total — its one covering store's payload, whose loads read the whole buffers. -/
theorem out1_B_4_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) :
    out1_B_4 c i arg2 harg2 arg3 harg3 arg4 harg4 arg5 harg5 arg6 harg6 arg7 harg7 hc0 x0 x1 x2 x3 xo4 xo5 = k1_pay2 (k1_pay6 x2 x3) x0 x1 xo4 := by
  unfold out1_B_4
  rw [View.read_writes_junk_eq_canon]
  unfold kernelRun1_B
  dsimp only
  sl_unfold_words
  rw [View.canon_unit_zero (S := S1x8x128) zeroOff1_3]
  simp only [View.readAt_eq_ld, harg2.read_unread, harg3.read_unread, harg4.read_unread, harg5.read_unread, harg6.read_unread, harg7.read_unread,
    View.ld_unit_zero (S := S128x256) zeroOff1_2, View.ld_unit_zero (S := S128x128) zeroOff1_2, View.ld_unit_zero (S := S256x128) zeroOff1_2, View.ld_unit_zero (S := S1x8x128) zeroOff1_3]

/-- The carrying case's value, second accumulator: `xo5` plus the point's mask total. -/
theorem out1_B_5_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) :
    out1_B_5 c i arg2 harg2 arg3 harg3 arg4 harg4 arg5 harg5 arg6 harg6 arg7 harg7 hc0 x0 x1 x2 x3 xo4 xo5 = k1_pay3 x1 xo5 := by
  unfold out1_B_5
  rw [View.read_writes_junk_eq_canon]
  unfold kernelRun1_B
  dsimp only
  sl_unfold_words
  rw [View.canon_unit_zero (S := S1x8x128) zeroOff1_3]
  simp only [View.readAt_eq_ld, harg2.read_unread, harg3.read_unread, harg4.read_unread, harg5.read_unread, harg6.read_unread, harg7.read_unread,
    View.ld_unit_zero (S := S128x256) zeroOff1_2, View.ld_unit_zero (S := S128x128) zeroOff1_2, View.ld_unit_zero (S := S256x128) zeroOff1_2, View.ld_unit_zero (S := S1x8x128) zeroOff1_3]

/-- THE RESET CASE's value, first accumulator: the body stores the zero block, reads it back and leaves zero plus the
    point's masked distance error total. -/
theorem out1_A_4_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) :
    out1_A_4 c i arg2 harg2 arg3 harg3 arg4 harg4 arg5 harg5 arg6 harg6 arg7 harg7 hc0 x0 x1 x2 x3 = k1_pay2 (k1_pay6 x2 x3) x0 x1 (k1_pay4 (F := F)) := by
  unfold out1_A_4
  rw [View.read_writes_junk_eq_canon]
  unfold kernelRun1_A
  dsimp only
  sl_unfold_words
  rw [View.canon_cons_unit_zero (S := S1x8x128) zeroOff1_3, View.readCov_unit_zero (S := S1x8x128) _ zeroOff1_3]
  simp only [View.readAt_eq_ld, harg2.read_unread, harg3.read_unread, harg4.read_unread, harg5.read_unread, harg6.read_unread, harg7.read_unread,
    View.ld_unit_zero (S := S128x256) zeroOff1_2, View.ld_unit_zero (S := S128x128) zeroOff1_2, View.ld_unit_zero (S := S256x128) zeroOff1_2, View.ld_unit_zero (S := S1x8x128) zeroOff1_3]

/-- The reset case's value, second accumulator: zero plus the point's mask total. -/
theorem out1_A_5_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) :
    out1_A_5 c i arg2 harg2 arg3 harg3 arg4 harg4 arg5 harg5 arg6 harg6 arg7 harg7 hc0 x0 x1 x2 x3 = k1_pay3 x1 (k1_pay5 (F := F)) := by
  unfold out1_A_5
  rw [View.read_writes_junk_eq_canon]
  unfold kernelRun1_A
  dsimp only
  sl_unfold_words
  rw [View.canon_cons_unit_zero (S := S1x8x128) zeroOff1_3, View.readCov_unit_zero (S := S1x8x128) _ zeroOff1_3]
  simp only [View.readAt_eq_ld, harg2.read_unread, harg3.read_unread, harg4.read_unread, harg5.read_unread, harg6.read_unread, harg7.read_unread,
    View.ld_unit_zero (S := S128x256) zeroOff1_2, View.ld_unit_zero (S := S128x128) zeroOff1_2, View.ld_unit_zero (S := S256x128) zeroOff1_2, View.ld_unit_zero (S := S1x8x128) zeroOff1_3]

section Regions
variable (V : (c : Dev nD) → (b : Ref sig .tc) → Buf (Elt F) ((c : Thread nD τ).loc b))

/-- After a point where the reduction coordinate is zero the first accumulator holds zero plus that point's term, a
    function of the point's four input blocks only; -/
theorem after1_4_A (c : Dev nD) (t : Fin cfg1.N) (h0 : t.val % 4 = 0) :
    (dat1 V c).after 4 t = k1_pay2 (k1_pay6 (iblk1 V c 2 t) (iblk1 V c 3 t)) (iblk1 V c 0 t) (iblk1 V c 1 t) (k1_pay4 (F := F)) := by
  rw [after1_4 V c t, outsAt1_A V c t h0]
  dsimp only
  exact out1_A_4_eq c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)
/-- the second accumulator zero plus that point's mask total. -/
theorem after1_5_A (c : Dev nD) (t : Fin cfg1.N) (h0 : t.val % 4 = 0) :
    (dat1 V c).after 5 t = k1_pay3 (iblk1 V c 1 t) (k1_pay5 (F := F)) := by
  rw [after1_5 V c t, outsAt1_A V c t h0]
  dsimp only
  exact out1_A_5_eq c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)
/-- After any other point the first accumulator holds what it held after the point before plus this point's term; -/
theorem after1_4_B (c : Dev nD) (t : Fin cfg1.N) (h0 : ¬t.val % 4 = 0) :
    (dat1 V c).after 4 t = k1_pay2 (k1_pay6 (iblk1 V c 2 t) (iblk1 V c 3 t)) (iblk1 V c 0 t) (iblk1 V c 1 t) ((dat1 V c).after 4 ⟨t.val - 1, (Nat.lt_of_le_of_lt (Nat.sub_le _ _) t.isLt)⟩) := by
  rw [after1_4 V c t, after1_4 V c ⟨t.val - 1, (Nat.lt_of_le_of_lt (Nat.sub_le _ _) t.isLt)⟩, outsAt1_B V c t h0]
  dsimp only
  exact out1_B_4_eq c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2
/-- the second accumulator what it held after the point before plus this point's mask total. -/
theorem after1_5_B (c : Dev nD) (t : Fin cfg1.N) (h0 : ¬t.val % 4 = 0) :
    (dat1 V c).after 5 t = k1_pay3 (iblk1 V c 1 t) ((dat1 V c).after 5 ⟨t.val - 1, (Nat.lt_of_le_of_lt (Nat.sub_le _ _) t.isLt)⟩) := by
  rw [after1_5 V c t, after1_5 V c ⟨t.val - 1, (Nat.lt_of_le_of_lt (Nat.sub_le _ _) t.isLt)⟩, outsAt1_B V c t h0]
  dsimp only
  exact out1_B_5_eq c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2

end Regions

end Cert.Kernel.H

end
-- ==== Proof.K.Run.lean ====
/-
  The launch of the printed program: @main as host stretches and kernel regions, from the launch memory to the
  return, and what every unscoped buffer of the core holds at the end (a fold through @main's items).
-/
import proofs.«403333_j71021579206675_3_alg».proof.Proof.K.R0
import proofs.«403333_j71021579206675_3_alg».proof.Proof.K.R1

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffer contents at each boundary between two items of @main -/

/-- The one core of the mesh. -/
abbrev c₀ : Dev nD := 0
theorem dev_eq (c : Dev nD) : c = c₀ := Subsingleton.elim _ _

/-- Core `c`'s buffers at launch. -/
abbrev W0 (m : (ℓ : Loc nD τ sig) → Buf (Elt F) ℓ) (ρ : Dev nD → PrngReg) : Dev nD → Valuation τ sig (Elt F) :=
  fun c b => m (c, b)
/-- After the first host stretch (the one-hot selector). -/
abbrev W1 (m : (ℓ : Loc nD τ sig) → Buf (Elt F) ℓ) (ρ : Dev nD → PrngReg) : Dev nD → Valuation τ sig (Elt F) :=
  fun c => StableHlo.after hostOps0 (W0 m ρ c)
/-- After the second host stretch (the selector transposed, the pair mask): region 0's entry. -/
abbrev W2 (m : (ℓ : Loc nD τ sig) → Buf (Elt F) ℓ) (ρ : Dev nD → PrngReg) : Dev nD → Valuation τ sig (Elt F) :=
  fun c => StableHlo.after hostOps0_1 (W1 m ρ c)
/-- The same read at the TensorCore's references (what region 0's proof data take). -/
abbrev U2 (m : (ℓ : Loc nD τ sig) → Buf (Elt F) ℓ) (ρ : Dev nD → PrngReg) :
    (c : Dev nD) → (b : Ref sig .tc) → Buf (Elt F) ((c : Thread nD τ).loc b) := fun c b => W2 m ρ c b

/-- The tables' contents: the id table as launched (the mesh has one core), and no table for the second call. -/
def adm (m : (ℓ : Loc nD τ sig) → Buf (Elt F) ℓ) : (p : Fin 2) → (pcfgs (F := F) p).Adm
  | ⟨0, _⟩ => ⟨fun | ⟨0, _⟩ => m ((c₀ : Thread nD τ).loc main_arg0), trivial⟩
  | ⟨1, _⟩ => cfg1.toPCfg_adm

theorem W1_of (m : (ℓ : Loc nD τ sig) → Buf (Elt F) ℓ) (ρ : Dev nD → PrngReg) (c : Dev nD) (r : Ref sig .tc)
    (h : r ∉ hostOps0_W) : W1 m ρ c r = W0 m ρ c r := Gen.V1_of m c r h
theorem W2_of (m : (ℓ : Loc nD τ sig) → Buf (Elt F) ℓ) (ρ : Dev nD → PrngReg) (c : Dev nD) (r : Ref sig .tc)
    (h : r ∉ hostOps0_1_W) : W2 m ρ c r = W1 m ρ c r := Gen.V2_of m c r h

/-- At region 0's exit: its arrays at what the pipeline leaves, every other buffer as entered. -/
def W3 (m : (ℓ : Loc nD τ sig) → Buf (Elt F) ℓ) (ρ : Dev nD → PrngReg) (c : Dev nD) : Valuation τ sig (Elt F) :=
  Pipeline.withArrays spec0 c (W2 m ρ c) fun w => (dat0 (U2 m ρ) (adm m 0) c).arrAt w (cfg0 (adm m 0)).N
theorem W3_arr (m : (ℓ : Loc nD τ sig) → Buf (Elt F) ℓ) (ρ : Dev nD → PrngReg) (c : Dev nD) (w : Fin (cfg0 (adm m 0)).W) :
    W3 m ρ c (Proc.devRef .tc (Pipeline.arrRef spec0 w)) = (dat0 (U2 m ρ) (adm m 0) c).arrAt w (cfg0 (adm m 0)).N := by
  unfold W3; exact Pipeline.withArrays_arr spec0 winFacts0.arr_inj c _ _ w
theorem W3_of_ne (m : (ℓ : Loc nD τ sig) → Buf (Elt F) ℓ) (ρ : Dev nD → PrngReg) (c : Dev nD) (b : Ref sig .tc)
    (hb : ∀ w, Pipeline.arrRef spec0 w ≠ b) : W3 m ρ c (Proc.devRef .tc b) = W2 m ρ c (Proc.devRef .tc b) := by
  unfold W3; exact Pipeline.withArrays_of_ne spec0 c _ _ b hb
/-- The same read at the TensorCore's references (region 0's exit contents, region 1's entry). -/
abbrev U3 (m : (ℓ : Loc nD τ sig) → Buf (Elt F) ℓ) (ρ : Dev nD → PrngReg) :
    (c : Dev nD) → (b : Ref sig .tc) → Buf (Elt F) ((c : Thread nD τ).loc b) := fun c b => W3 m ρ c b
theorem hF0 (m : (ℓ : Loc nD τ sig) → Buf (Elt F) ℓ) (ρ : Dev nD → PrngReg) (c : Dev nD) (w : Fin (cfg0 (adm m 0)).W) :
    (dat0 (U2 m ρ) (adm m 0) c).arrAt w (cfg0 (adm m 0)).N = U3 m ρ c (Pipeline.arrRef spec0 w) := (W3_arr m ρ c w).symm
theorem hrest0 (m : (ℓ : Loc nD τ sig) → Buf (Elt F) ℓ) (ρ : Dev nD → PrngReg) (c : Dev nD) :
    ∀ b, b ∉ Finset.univ.image (Pipeline.arrRef spec0) → U3 m ρ c b = U2 m ρ c b :=
  fun b hb => W3_of_ne m ρ c b fun w e => hb (Finset.mem_image.mpr ⟨w, Finset.mem_univ _, e⟩)

/-- At region 1's exit: the two accumulators at what the pipeline leaves, every other buffer as entered (the region's
    other four windows are inputs, two of them on one array). -/
def W4 (m : (ℓ : Loc nD τ sig) → Buf (Elt F) ℓ) (ρ : Dev nD → PrngReg) (c : Dev nD) : Valuation τ sig (Elt F) :=
  Function.update (Function.update (W3 m ρ c) (Proc.devRef .tc main_v9_0) ((dat1 (U3 m ρ) c).arrAt 4 cfg1.N))
    (Proc.devRef .tc main_v9_1) ((dat1 (U3 m ρ) c).arrAt 5 cfg1.N)
theorem W4_main_v9_0 (m : (ℓ : Loc nD τ sig) → Buf (Elt F) ℓ) (ρ : Dev nD → PrngReg) (c : Dev nD) :
    W4 m ρ c (Proc.devRef .tc main_v9_0) = (dat1 (U3 m ρ) c).arrAt 4 cfg1.N := by
  unfold W4
  rw [Function.update_of_ne (StableHlo.devRef_ne_of_ne (by decide) : (Proc.devRef .tc main_v9_0 : DevRef τ sig) ≠ Proc.devRef .tc main_v9_1),
    Function.update_self]
theorem W4_main_v9_1 (m : (ℓ : Loc nD τ sig) → Buf (Elt F) ℓ) (ρ : Dev nD → PrngReg) (c : Dev nD) :
    W4 m ρ c (Proc.devRef .tc main_v9_1) = (dat1 (U3 m ρ) c).arrAt 5 cfg1.N := by
  unfold W4; rw [Function.update_self]
theorem W4_of_ne (m : (ℓ : Loc nD τ sig) → Buf (Elt F) ℓ) (ρ : Dev nD → PrngReg) (c : Dev nD) (r : Ref sig .tc)
    (h : r ∉ ([main_v9_0, main_v9_1] : List (Ref sig .tc))) : W4 m ρ c (Proc.devRef .tc r) = W3 m ρ c (Proc.devRef .tc r) := by
  unfold W4
  rw [Function.update_of_ne (StableHlo.devRef_ne_of_ne (List.ne_of_not_mem_cons (List.not_mem_of_not_mem_cons h)) : (Proc.devRef .tc r : DevRef τ sig) ≠ Proc.devRef .tc main_v9_1),
    Function.update_of_ne (StableHlo.devRef_ne_of_ne (List.ne_of_not_mem_cons h) : (Proc.devRef .tc r : DevRef τ sig) ≠ Proc.devRef .tc main_v9_0)]
/-- The same read at the TensorCore's references (region 1's exit contents). -/
abbrev U4 (m : (ℓ : Loc nD τ sig) → Buf (Elt F) ℓ) (ρ : Dev nD → PrngReg) :
    (c : Dev nD) → (b : Ref sig .tc) → Buf (Elt F) ((c : Thread nD τ).loc b) := fun c b => W4 m ρ c b

/-- After the last host stretch (the two sums and their quotient): the return. -/
abbrev W5 (m : (ℓ : Loc nD τ sig) → Buf (Elt F) ℓ) (ρ : Dev nD → PrngReg) : Dev nD → Valuation τ sig (Elt F) :=
  fun c => StableHlo.after hostOps2 (W4 m ρ c)
theorem W5_of (m : (ℓ : Loc nD τ sig) → Buf (Elt F) ℓ) (ρ : Dev nD → PrngReg) (c : Dev nD) (r : Ref sig .tc)
    (h : r ∉ hostOps2_W) : W5 m ρ c r = W4 m ρ c r :=
  StableHlo.after_of_writes_sub hostOps2 _ hostOps2_writes h

/-! ### The arguments end as launched -/

theorem W2_main_arg0 (m : (ℓ : Loc nD τ sig) → Buf (Elt F) ℓ) (ρ : Dev nD → PrngReg) (c : Dev nD) :
    W2 m ρ c (Proc.devRef .tc main_arg0) = m ((c : Thread nD τ).loc main_arg0) :=
  (W2_of m ρ c main_arg0 (by decide)).trans <| (W1_of m ρ c main_arg0 (by decide)).trans rfl
theorem W5_main_arg0 (m : (ℓ : Loc nD τ sig) → Buf (Elt F) ℓ) (ρ : Dev nD → PrngReg) (c : Dev nD) :
    W5 m ρ c (Proc.devRef .tc main_arg0) = m ((c : Thread nD τ).loc main_arg0) :=
  (W5_of m ρ c main_arg0 (by decide)).trans <| (W4_of_ne m ρ c main_arg0 (by decide)).trans <|
    (W3_of_ne m ρ c main_arg0 (by decide)).trans <| W2_main_arg0 m ρ c
theorem W5_main_arg1 (m : (ℓ : Loc nD τ sig) → Buf (Elt F) ℓ) (ρ : Dev nD → PrngReg) (c : Dev nD) :
    W5 m ρ c (Proc.devRef .tc main_arg1) = m ((c : Thread nD τ).loc main_arg1) :=
  (W5_of m ρ c main_arg1 (by decide)).trans <| (W4_of_ne m ρ c main_arg1 (by decide)).trans <|
    (W3_of_ne m ρ c main_arg1 (by decide)).trans <| (W2_of m ρ c main_arg1 (by decide)).trans <|
    (W1_of m ρ c main_arg1 (by decide)).trans rfl
theorem W5_main_arg2 (m : (ℓ : Loc nD τ sig) → Buf (Elt F) ℓ) (ρ : Dev nD → PrngReg) (c : Dev nD) :
    W5 m ρ c (Proc.devRef .tc main_arg2) = m ((c : Thread nD τ).loc main_arg2) :=
  (W5_of m ρ c main_arg2 (by decide)).trans <| (W4_of_ne m ρ c main_arg2 (by decide)).trans <|
    (W3_of_ne m ρ c main_arg2 (by decide)).trans <| (W2_of m ρ c main_arg2 (by decide)).trans <|
    (W1_of m ρ c main_arg2 (by decide)).trans rfl

/-! ## The proof data family and the thread state -/

/-- Every pipeline's proof data, each at its region's entry contents. -/
def pdats (m : (ℓ : Loc nD τ sig) → Buf (Elt F) ℓ) (ρ : Dev nD → PrngReg) :
    (p : Fin 2) → (c : Dev nD) → Dat τ (Elt F) Unit ℕ (Pipeline.UD sig nD τ) ℕ (Pipeline.pin (pcfgs (F := F)) (adm m) p) c
  | ⟨0, _⟩ => fun c => dat0 (U2 m ρ) (adm m 0) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (m : (ℓ : Loc nD τ sig) → Buf (Elt F) ℓ) (ρ : Dev nD → PrngReg) (c : Dev nD) : sProp 𝕄 :=
  iprop(StableHlo.held (c : Thread nD τ) (Pipeline.ucRefs τ sig) (W5 m ρ c) ∗ ∃ r, prngReg c r)

/-- The id table's entry contents are the tables' admissible contents. -/
theorem pref_eq (m : (ℓ : Loc nD τ sig) → Buf (Elt F) ℓ) (ρ : Dev nD → PrngReg) (c : Dev nD) :
    (fun k => U2 m ρ c (pre0.ref k)) = (adm m 0).1 := by
  funext k
  match k with
  | ⟨0, _⟩ => obtain rfl := dev_eq c; exact W2_main_arg0 m ρ c₀

/-! ## The regions as segments -/

set_option backward.isDefEq.respectTransparency.types false in
/-- REGION 0 over the thread state: entered from every unscoped buffer at `W2`, left at `W3`. Its arrays split out of the
    unscoped buffers and put back at the exit contents; the id table held beside them, handed to the pipeline at entry and
    returned at exit; the generator register, the kernel's 128 cells at zero and the distance table into the invariant and
    out; nothing owed. -/
def reg0 (m : (ℓ : Loc nD τ sig) → Buf (Elt F) ℓ) (ρ : Dev nD → PrngReg)
    (hx : ∀ (c : Dev nD) (y : S1024.Idx), ((m ((c : Thread nD τ).loc main_arg0) : S1024.Idx → Elt F .i32) y : BitVec 32).toNat < 8000) :
    Pipeline.RegionSeg (pcfgs (F := F)) (adm m) (pdats m ρ) () defs₀ 𝒱₀ L lv 0 where
  win := winFacts0.to₀
  block_pos := block_pos0
  stage_whole := stage_whole0
  K := Fin 128
  osem := osem0
  ho := ownSemFacts0
  hbody c := (body_obligation0 (U2 m ρ) (adm m 0) (fun y => hx c₀ y) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} U2 m ρ c b))
  Y c := iprop((∃ r, prngReg c r) ∗ (bigSep H0 fun b => (((c : Thread nD τ)).loc b) ↦{fullShare} U2 m ρ c b) ∗ Pipeline.prefHeld pre0 c (fun _ => fullShare) (adm m 0).1)
  Z c := bigSep (Pipeline.restRefsP sig pre0 spec0 \ H0) fun b => (((c : Thread nD τ)).loc b) ↦{fullShare} U2 m ρ c b
  hentry c := by
    have hsplit := Pipeline.arrays_of_unscopedBufs (p := 0) (pcfgs (F := F)) (adm m) (pdats m ρ) winFacts0 arr_whole0 c
      ((pdats m ρ 0 c).share_full fun _ => rfl) (U2 m ρ c) fun _ => rfl
    rw [Pipeline.unscopedBufs_held] at hsplit
    have hP : (Pipeline.unscopedRest (Ix := Unit) (Name := ℕ) (U := Pipeline.UD sig nD τ) (Lvl := ℕ) spec0 c (U2 m ρ c) : sProp 𝕄)
        = iprop(Pipeline.prefHeld pre0 c (fun _ => fullShare) (adm m 0).1 ∗ Pipeline.unscopedRestP pre0 spec0 c (U2 m ρ c)) := by
      rw [Pipeline.unscopedRest_split preFacts0 c (U2 m ρ c), pref_eq m ρ c]
    have hH := Pipeline.unscopedRestP_sdiff (Val := Elt F) (nD := nD) (τ := τ) pre0 spec0 H0 H0_sub c (U2 m ρ c)
    iintro ⟨⟨Hub, Hp, HO⟩, Hos, -⟩
    ihave H := hsplit $$ Hub
    icases H with ⟨Ha, Hrest⟩
    ihave H' := (Entails.of_eq hP) $$ Hrest
    icases H' with ⟨Hpf, HrestP⟩
    ihave H'' := (Entails.of_eq hH) $$ HrestP
    icases H'' with ⟨HH, HR⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 0 c).Φ 0 = Φ0 (U2 m ρ) (adm m 0) c from rfl]; unfold Φ0; rw [Pipeline.ΦD_eq]
    iintro ⟨⟨Hp, Ho, HH⟩, Hpf, Hr⟩
    isplitr [Hpf]
    · isplitl [Hr]; · iexact Hr
      isplitl [Hp]; · iexact Hp
      isplitl [Ho]; · iexact Ho
      iexact HH
    iexact Hpf
  hout c := by
    rw [show (pdats m ρ 0 c).Φ (Fin.last _) = Φ0 (U2 m ρ) (adm m 0) c from rfl]; unfold Φ0; rw [Pipeline.ΦD_eq]
    iintro ⟨⟨Hr, Hp, Ho, HH⟩, Hpf⟩
    isplitl [Hp HH Hpf]
    · isplitl [Hp]; · iexact Hp
      isplitl [HH]; · iexact HH
      iexact Hpf
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m ρ) ((pdats m ρ 0 c).share_full fun _ => rfl)
      (U2 m ρ c) (U3 m ρ c) ((pdats m ρ 0 c).arrAt · (cfg0 (adm m 0)).N) (hF0 m ρ c) (hrest0 m ρ c)
    rw [Pipeline.unscopedBufs_held] at hjoin
    have hP : (Pipeline.unscopedRest (Ix := Unit) (Name := ℕ) (U := Pipeline.UD sig nD τ) (Lvl := ℕ) spec0 c (U2 m ρ c) : sProp 𝕄)
        = iprop(Pipeline.prefHeld pre0 c (fun _ => fullShare) (adm m 0).1 ∗ Pipeline.unscopedRestP pre0 spec0 c (U2 m ρ c)) := by
      rw [Pipeline.unscopedRest_split preFacts0 c (U2 m ρ c), pref_eq m ρ c]
    have hH := Pipeline.unscopedRestP_sdiff (Val := Elt F) (nD := nD) (τ := τ) pre0 spec0 H0 H0_sub c (U2 m ρ c)
    iintro ⟨Ha, HO, ⟨HY, HH, Hpf⟩, HR⟩
    ihave HrestP := (Entails.of_eq hH.symm) $$ [HH HR]
    · isplitl [HH]; · iexact HH
      iexact HR
    ihave Hrest := (Entails.of_eq hP.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1's arrays: six windows on five buffers (two input windows read the embeddings' array) -/

/-- A window's array is a whole buffer: its points-to at the array's elements is the buffer's. -/
theorem arr1_pt (c : Dev nD) (w : Fin 6) (q : PosShare TreeShare) (f : Buf (Elt F) ((cfg1.win w).arr.view.loc (c : Thread nD τ))) :
    (((cfg1.win w).arr.view.loc (c : Thread nD τ)) ↦[(cfg1.win w).arr.view.set]{q} f : sProp 𝕄)
      = (((c : Thread nD τ).loc (Pipeline.arrRef spec1 w)) ↦{q} f) := by
  rw [show (cfg1.win w).arr.view.set = Finset.univ from (arr_whole1 w).set_eq_univ]

/-- The region's arrays window by window: the embeddings' array read by two windows, each at one half of it. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v8) ↦{fullShare} G 0) ∗ (((c : Thread nD τ).loc main_v7) ↦{fullShare} G 1)
          ∗ (((c : Thread nD τ).loc main_arg1) ↦{fullShare.left} G 2) ∗ (((c : Thread nD τ).loc main_arg1) ↦{fullShare.right} G 3)
          ∗ (((c : Thread nD τ).loc main_v9_0) ↦{fullShare} G 4) ∗ (((c : Thread nD τ).loc main_v9_1) ↦{fullShare} G 5)) := by
  unfold Pipeline.Dat.arrays
  rw [bigSep_W1, arr1_pt c 0, arr1_pt c 1, arr1_pt c 2, arr1_pt c 3, arr1_pt c 4, arr1_pt c 5]
  rfl

/-- The five buffers behind the region's arrays, one by one. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v8) ↦{fullShare} V main_v8) ∗ (((c : Thread nD τ).loc main_v7) ↦{fullShare} V main_v7)
          ∗ (((c : Thread nD τ).loc main_arg1) ↦{fullShare} V main_arg1)
          ∗ (((c : Thread nD τ).loc main_v9_0) ↦{fullShare} V main_v9_0) ∗ (((c : Thread nD τ).loc main_v9_1) ↦{fullShare} V main_v9_1)) := by
  unfold Pipeline.arrBufs
  exact bigSep_eq_bigSepL_of_eq [main_v8, main_v7, main_arg1, main_v9_0, main_v9_1] (by decide) (by decide) _

/-- ENTRY: the five buffers at the entry contents make the region's arrays, the embeddings' array split in two halves. -/
theorem hsplit1 (m : (ℓ : Loc nD τ sig) → Buf (Elt F) ℓ) (ρ : Dev nD → PrngReg) (c : Dev nD) :
    (Pipeline.arrBufs (Ix := Unit) (Name := ℕ) (U := Pipeline.UD sig nD τ) (Lvl := ℕ) spec1 c (U3 m ρ c) : sProp 𝕄)
      ⊢ (dat1 (U3 m ρ) c).arrays ((dat1 (U3 m ρ) c).arrAt · 0) := by
  rw [arrays1_eq, arrBufs1_eq]
  iintro ⟨H0, H1, H2, H4, H5⟩
  ihave H23 := (pointsTo_share (PosShare.mem_left_op_right fullShare)).1 $$ H2
  icases H23 with ⟨H2, H3⟩
  isplitl [H0]; · iexact H0
  isplitl [H1]; · iexact H1
  isplitl [H2]; · iexact H2
  isplitl [H3]; · iexact H3
  isplitl [H4]; · iexact H4
  iexact H5

/-- EXIT: the region's arrays at their final contents are the five buffers at the exit contents, the two halves of the
    embeddings' array (both as entered: neither window writes) rejoined. -/
theorem hjoin1 (m : (ℓ : Loc nD τ sig) → Buf (Elt F) ℓ) (ρ : Dev nD → PrngReg) (c : Dev nD) :
    ((dat1 (U3 m ρ) c).arrays ((dat1 (U3 m ρ) c).arrAt · cfg1.N) : sProp 𝕄)
      ⊢ Pipeline.arrBufs (Ix := Unit) (Name := ℕ) (U := Pipeline.UD sig nD τ) (Lvl := ℕ) spec1 c (U4 m ρ c) := by
  have e0 : (dat1 (U3 m ρ) c).arrAt 0 cfg1.N = U4 m ρ c main_v8 :=
    (((dat1 (U3 m ρ) c).arrAt_in 0 rfl _).trans (A_eq1 (U3 m ρ) c 0)).trans (W4_of_ne m ρ c main_v8 (by decide)).symm
  have e1 : (dat1 (U3 m ρ) c).arrAt 1 cfg1.N = U4 m ρ c main_v7 :=
    (((dat1 (U3 m ρ) c).arrAt_in 1 rfl _).trans (A_eq1 (U3 m ρ) c 1)).trans (W4_of_ne m ρ c main_v7 (by decide)).symm
  have e2 : (dat1 (U3 m ρ) c).arrAt 2 cfg1.N = U4 m ρ c main_arg1 :=
    (((dat1 (U3 m ρ) c).arrAt_in 2 rfl _).trans (A_eq1 (U3 m ρ) c 2)).trans (W4_of_ne m ρ c main_arg1 (by decide)).symm
  have e3 : (dat1 (U3 m ρ) c).arrAt 3 cfg1.N = U4 m ρ c main_arg1 :=
    (((dat1 (U3 m ρ) c).arrAt_in 3 rfl _).trans (A_eq1 (U3 m ρ) c 3)).trans (W4_of_ne m ρ c main_arg1 (by decide)).symm
  have e4 : (dat1 (U3 m ρ) c).arrAt 4 cfg1.N = U4 m ρ c main_v9_0 := (W4_main_v9_0 m ρ c).symm
  have e5 : (dat1 (U3 m ρ) c).arrAt 5 cfg1.N = U4 m ρ c main_v9_1 := (W4_main_v9_1 m ρ c).symm
  rw [arrays1_eq, arrBufs1_eq, e0, e1, e2, e3, e4, e5]
  iintro ⟨H0, H1, H2, H3, H4, H5⟩
  ihave H23 := (pointsTo_share (PosShare.mem_left_op_right fullShare)).2 $$ [H2 H3]
  · isplitl [H2] <;> iassumption
  isplitl [H0]; · iexact H0
  isplitl [H1]; · iexact H1
  isplitl [H23]; · iexact H23
  isplitl [H4]; · iexact H4
  iexact H5

/-- The buffers that bypass region 1 hold at its exit what they held at its entry. -/
theorem rest1_eq (m : (ℓ : Loc nD τ sig) → Buf (Elt F) ℓ) (ρ : Dev nD → PrngReg) (c : Dev nD) :
    (Pipeline.unscopedRest (Ix := Unit) (Name := ℕ) (U := Pipeline.UD sig nD τ) (Lvl := ℕ) spec1 c (U4 m ρ c) : sProp 𝕄)
      = Pipeline.unscopedRest spec1 c (U3 m ρ c) := by
  unfold Pipeline.unscopedRest
  refine bigSep_congr fun b hb => ?_
  have hb' := (Finset.mem_sdiff.mp hb).2
  have h4 : b ≠ main_v9_0 := fun e => hb' (e ▸ Finset.mem_image.mpr ⟨4, Finset.mem_univ _, rfl⟩)
  have h5 : b ≠ main_v9_1 := fun e => hb' (e ▸ Finset.mem_image.mpr ⟨5, Finset.mem_univ _, rfl⟩)
  rw [show U4 m ρ c b = U3 m ρ c b from W4_of_ne m ρ c b (by simp [h4, h5])]

set_option backward.isDefEq.respectTransparency.types false in
/-- REGION 1 over the thread state: entered from every unscoped buffer at `W3`, left at `W4`. The buffers behind its
    arrays split out of the unscoped buffers (the embeddings' array in two halves, one per window reading it) and put back
    at the exit contents; the generator register into the class invariant and out; nothing owed; no cell of its own. -/
def reg1 (m : (ℓ : Loc nD τ sig) → Buf (Elt F) ℓ) (ρ : Dev nD → PrngReg) :
    Pipeline.RegionSeg (pcfgs (F := F)) (adm m) (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (U3 m ρ c)
  hentry c := by
    rw [Pipeline.ownSems0_none]
    have hs : (StableHlo.held (c : Thread nD τ) (Pipeline.ucRefs τ sig) (W3 m ρ c) : sProp 𝕄)
        = iprop(Pipeline.arrBufs spec1 c (U3 m ρ c) ∗ Pipeline.unscopedRest spec1 c (U3 m ρ c)) := by
      rw [← Pipeline.unscopedBufs_held (Ix := Unit) (Name := ℕ) (U := Pipeline.UD sig nD τ) (Lvl := ℕ) c (W3 m ρ c)]
      exact Pipeline.unscopedBufs_split₀ (Pipeline.pin (pcfgs (F := F)) (adm m)) 1 winFacts₀1.arr_unscoped c (U3 m ρ c)
    have hsplit := hsplit1 m ρ c
    iintro ⟨⟨Hub, Hp, HO⟩, -, -⟩
    ihave H := (Entails.of_eq hs) $$ Hub
    icases H with ⟨Hb, Hrest⟩
    ihave Ha := hsplit $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hs : (StableHlo.held (c : Thread nD τ) (Pipeline.ucRefs τ sig) (W4 m ρ c) : sProp 𝕄)
        = iprop(Pipeline.arrBufs spec1 c (U4 m ρ c) ∗ Pipeline.unscopedRest spec1 c (U3 m ρ c)) := by
      rw [← Pipeline.unscopedBufs_held (Ix := Unit) (Name := ℕ) (U := Pipeline.UD sig nD τ) (Lvl := ℕ) c (W4 m ρ c), ← rest1_eq m ρ c]
      exact Pipeline.unscopedBufs_split₀ (Pipeline.pin (pcfgs (F := F)) (adm m)) 1 winFacts₀1.arr_unscoped c (U4 m ρ c)
    have hjoin : ((pdats m ρ 1 c).arrays ((pdats m ρ 1 c).arrAt · (Pipeline.pin (pcfgs (F := F)) (adm m) 1).N) : sProp 𝕄)
        ⊢ Pipeline.arrBufs (Ix := Unit) (Name := ℕ) (U := Pipeline.UD sig nD τ) (Lvl := ℕ) spec1 c (U4 m ρ c) := hjoin1 m ρ c
    iintro ⟨Ha, HO, HY, Hrest⟩
    ihave Hb := hjoin $$ Ha
    imodintro
    isplitl [Hb Hrest]
    · iapply (Entails.of_eq hs.symm); isplitl [Hb] <;> iassumption
    isplitl [HY]; · iexact HY
    unfold Pipeline.Dat.owesAt Pipeline.owesWithin
    icases HO with ⟨%W, -, HO⟩; iexists W; iexact HO

/-! ## @main as segments, and the launch -/

/-- @main's five items in order: a host segment per stretch from its boundary's contents, a region per kernel call. -/
abbrev segs (m : (ℓ : Loc nD τ sig) → Buf (Elt F) ℓ) (ρ : Dev nD → PrngReg)
    (hx : ∀ (c : Dev nD) (y : S1024.Idx), ((m ((c : Thread nD τ).loc main_arg0) : S1024.Idx → Elt F .i32) y : BitVec 32).toNat < 8000) :
    List (Pipeline.Seg (pcfgs (F := F)) (adm m) (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ hx),
    .region (reg1 m ρ),
    .host (hseg hostOps2 hostOps2_sub hostOps2_fresh (W4 m ρ)) ]

/-- @main is the run of the segments: the printed chain of items, item by item. -/
theorem main_run (m : (ℓ : Loc nD τ sig) → Buf (Elt F) ℓ) (ρ : Dev nD → PrngReg)
    (hx : ∀ (c : Dev nD) (y : S1024.Idx), ((m ((c : Thread nD τ).loc main_arg0) : S1024.Idx → Elt F .i32) y : BitVec 32).toNat < 8000)
    (c : Dev nD) : main (F := F) c = Pipeline.Seg.run (segs m ρ hx) := by
  rw [main_chain c, Pipeline.Seg.run_eq_chain]
  rfl

set_option backward.isDefEq.respectTransparency.types false in
/-- THE RUN: at the compiled mesh, from any memory with zero counters whose id table names rows of the distance table,
    every weakly fair execution of @main terminates, nothing faulting, and every final state holds every unscoped buffer
    at the fold's last contents. -/
theorem run_all (m : (ℓ : Loc nD τ sig) → Buf (Elt F) ℓ) (ρ : Dev nD → PrngReg)
    (hx : ∀ (c : Dev nD) (y : S1024.Idx), ((m ((c : Thread nD τ).loc main_arg0) : S1024.Idx → Elt F .i32) y : BitVec 32).toNat < 8000) :
    θ_run defs (onTc (τ := τ) (main (F := F))) ⟨m, fun _ => 0, ρ⟩ (fun r => ∀ c : Dev nD, ∀ b ∈ Pipeline.ucRefs τ sig,
      r.2.mem ((c : Thread nD τ).1, b) = W5 m ρ c b) :=
  Pipeline.θ_run_regions_kit (pcfgs (F := F)) (adm m) (pdats m ρ) () (cellOf_inj (adm m)) embL defs₀ 𝒱₀ L lv m ρ main (segs m ρ hx)
    (fun c Q => by rw [main_run m ρ hx c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.H

end
-- ==== Proof.KI.R0Defs.lean ====
/-
  Region 0 (the row gather and column select): the names its run, its proof data and the launch share.
  The kernel copies 128 rows of the distance table, one per id of the tile, from the table left in HBM
  into a scratch block, each copy on a semaphore of its own, waits for all of them, and multiplies the
  block by the selector window.
-/
import proofs.«403333_j71021579206675_3_alg».proof.Proof.Gen.KernelIdeal.Launch
import proofs.«403333_j71021579206675_3_alg».proof.Proof.Gen.KernelIdeal.Skeleton
import proofs.«403333_j71021579206675_3_alg».proof.Proof.Gen.KernelIdeal.Points
import proofs.«403333_j71021579206675_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The id table, the scratch block the rows are gathered into, and the distance table left in HBM. -/
abbrev tblM0 : Memref sig .tc .smem S1024 .i32 := Memref.whole main_arg0
abbrev scM0_0 : Memref sig .tc .vmem S128x8000 .f32 := Memref.whole cc0_scratch0
abbrev hbM0_0 : Memref sig .tc .hbm S8000x8000 .f32 := Memref.whole main_arg2
abbrev HbBuf0 (c : Dev nD) {sp : Space} {S : Shape} {e : EltTy} (M : Memref sig .tc sp S e) : Type := Buf (Elt F) (M.view.loc (c : Thread nD τ))
/-- A buffer held whole at a share. -/
abbrev hbPtq (c : Dev nD) {sp : Space} {S : Shape} {e : EltTy} (M : Memref sig .tc sp S e) (q : PosShare TreeShare) (f : HbBuf0 (F := F) c M) : sProp 𝕄 :=
  M.view.loc (c : Thread nD τ) ↦{q} f

/-- A word below 8000 names a row of the distance table: the row's 8000 entries lie inside the table. -/
theorem chk_of_lt (v : BitVec 32) (h : v.toNat < 8000) :
    ∀ a : Fin 2, (![v.toNat, 0] : Fin 2 → ℕ) a + S1x8000.size a ≤ S8000x8000.size a := by
  intro a
  match a with
  | ⟨0, _⟩ => exact Nat.succ_le_of_lt h
  | ⟨1, _⟩ => exact Nat.le_refl _

/-- The rows the tile gathers, as one block: row `r` of the block at grid point `i` is the row of the distance table
    `X` that id `128 i + r` of the table `xt` names (indices reduced into range, so that the block is a total function of
    its arguments; where every id is below 8000 the reduction changes nothing). -/
def gathered (i : grid0.Coords) (xt : S1024.Idx → BitVec 32) (X : S8000x8000.Idx → Elt F .f32) : S128x8000.Idx → Elt F .f32 :=
  fun y => X (ValueIdx.ix2 (n0 := 8000) (n1 := 8000)
    ⟨(xt (ValueIdx.ix1 (n := 1024) ⟨(128 * (i 0).val + (y 0).val) % 1024, Nat.mod_lt _ (by decide)⟩)).toNat % 8000, Nat.mod_lt _ (by decide)⟩
    ⟨(y 1).val, (y 1).isLt⟩)

/-- The kernel's own semaphores: one per row of the tile. -/
abbrev osem0 : Fin 128 → SemLoc sig := fun j => SemLoc.dma ⟨3 + j.val, by have := j.isLt; show 3 + j.val < 143; omega⟩
theorem ownSemFacts0 : Pipeline.OwnSemFacts spec0 osem0 := by decide
/-- The operand the kernel reads by its own copies. -/
def H0 : Finset (Ref sig .tc) := {main_arg2}

end Cert.KernelIdeal.H

end
-- ==== Proof.KI.R0Rows.lean ====
/-
  Region 0's scratch block row by row: the 128 rows of the gathered block, each held by its own elements while its
  copy is in flight, joined back into the whole block; and the row memref the program names, its elements and what is
  read and written through it.
-/
import proofs.«403333_j71021579206675_3_alg».proof.Proof.KI.R0Defs
import Idealize.ShloMosaic.Lib.SparseCore.Stream
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The block held whole, and row by row -/

/-- The block held whole at contents `f` is its 128 rows, each held by its own elements at `f`. -/
theorem split_rows (c : Dev nD) (f : Buf (Elt F) (scM0_0.view.loc (c : Thread nD τ))) :
    (scM0_0.view.loc (c : Thread nD τ) ↦[scM0_0.view.set]{fullShare} f : sProp 𝕄)
      ⊢ bigSep Finset.univ (fun k : Fin 128 => scM0_0.view.loc (c : Thread nD τ) ↦[(scM0_0.view.slice (S128x8000.rowRect 0 k)).set]{fullShare} f) :=
  Entails.of_eq (pointsTo_rows (c : Thread nD τ) scM0_0.view 0 fullShare f)

/-- The 128 rows, row `k` held at contents that agree with `G` on the row, are the block held whole at `G`. -/
theorem join_rows (c : Dev nD) (Fk : Fin 128 → Buf (Elt F) (scM0_0.view.loc (c : Thread nD τ)))
    (G : Buf (Elt F) (scM0_0.view.loc (c : Thread nD τ)))
    (h : ∀ k, ∀ i ∈ (scM0_0.view.slice (S128x8000.rowRect 0 k)).set, Fk k i = G i) :
    (bigSep Finset.univ (fun k : Fin 128 => scM0_0.view.loc (c : Thread nD τ) ↦[(scM0_0.view.slice (S128x8000.rowRect 0 k)).set]{fullShare} Fk k) : sProp 𝕄)
      ⊢ (scM0_0.view.loc (c : Thread nD τ) ↦[scM0_0.view.set]{fullShare} G) :=
  (bigSep_mono fun k _ => Entails.of_eq (pointsTo_congr (h k))).trans
    (Entails.of_eq (pointsTo_rows (c : Thread nD τ) scM0_0.view 0 fullShare G).symm)

/-! ## The row memref as the program spells it -/

/-- Row `off 0` of the block, cut out as a `[1, 8000]` window and its unit axis dropped. -/
abbrev rowM (off : Fin 2 → ℕ) (inb : ∀ a, off a + S1x8000.size a ≤ S128x8000.size a) : Memref sig .tc .vmem S8000 .f32 :=
  (scM0_0.slice (Rect.unit (s := S128x8000) off S1x8000.size inb) (fun _ => rfl)).squeeze S8000 squeezes_S1x8000_S8000

/-- The window at offsets `(k, 0)` is row `k`'s rectangle. -/
theorem rowRect_eq (k : Fin 128) (inb : ∀ a, (![k.val, 0] : Fin 2 → ℕ) a + S1x8000.size a ≤ S128x8000.size a) :
    Rect.unit (s := S128x8000) ![k.val, 0] S1x8000.size inb = S128x8000.rowRect 0 k := by
  unfold Shape.rowRect
  congr 1
  · funext b
    match b with
    | ⟨0, _⟩ => rfl
    | ⟨1, _⟩ => rfl
  · funext b
    match b with
    | ⟨0, _⟩ => rfl
    | ⟨1, _⟩ => rfl

/-- The row memref has row `k`'s elements. -/
theorem rowM_set (off : Fin 2 → ℕ) (inb : ∀ a, off a + S1x8000.size a ≤ S128x8000.size a) (k : Fin 128) (hoff : off = ![k.val, 0]) :
    (rowM off inb).view.set = (scM0_0.view.slice (S128x8000.rowRect 0 k)).set := by
  subst hoff
  have h1 : (rowM ![k.val, 0] inb).view.set
      = (scM0_0.view.slice (Rect.unit (s := S128x8000) ![k.val, 0] S1x8000.size inb)).set := View.set_reshape _ _
  rw [h1, View.set_slice, View.set_slice, rowRect_eq k inb]

/-- Entry `j` of a row matched with the `[1, 8000]` window is `(0, j)`. -/
theorem reshape_row (h : S8000.numel = S1x8000.numel) (j : S8000.Idx) :
    Shape.reshapeEquiv h j = (ValueIdx.ix2 (0 : Fin 1) (⟨(j 0).val, (j 0).isLt⟩ : Fin 8000) : S1x8000.Idx) :=
  Shape.reshapeEquiv_eq_of_rowMajor h (by
    rw [Shape.rowMajor_val_two, Shape.rowMajor_val_one]
    show 0 * 8000 + (j 0).val = (j 0).val
    rw [Nat.zero_mul, Nat.zero_add])

/-- The row memref's `j`-th element is the block's element `(k, j)`. -/
theorem rowM_emb (k : Fin 128) (inb : ∀ a, (![k.val, 0] : Fin 2 → ℕ) a + S1x8000.size a ≤ S128x8000.size a) (j : S8000.Idx) :
    ((rowM ![k.val, 0] inb).view.emb j : S128x8000.Idx) = ValueIdx.ix2 k (⟨(j 0).val, (j 0).isLt⟩ : Fin 8000) := by
  show (Rect.unit (s := S128x8000) ![k.val, 0] S1x8000.size inb).emb (Shape.reshapeEquiv squeezes_S1x8000_S8000.numel_eq j) = _
  rw [reshape_row]
  funext b
  refine Fin.ext ?_
  match b with
  | ⟨0, _⟩ => show k.val + 1 * 0 = k.val; omega
  | ⟨1, _⟩ => show 0 + 1 * (j 0).val = (j 0).val; omega

/-- The block rebuilt from what it reads, under the row memref's `j`-th element, is what it reads at `(k, j)`. -/
theorem unread_at_row (X : S128x8000.Idx → Elt F .f32) (off : Fin 2 → ℕ) (inb : ∀ a, off a + S1x8000.size a ≤ S128x8000.size a)
    (k : Fin 128) (hoff : off = ![k.val, 0]) (j : S8000.Idx) :
    ((Memref.isWhole_whole cc0_scratch0).unread (Val := Elt F) X) ((rowM off inb).view.emb j)
      = X (ValueIdx.ix2 k (⟨(j 0).val, (j 0).isLt⟩ : Fin 8000)) := by
  subst hoff
  have hr := congrFun ((Memref.isWhole_whole cc0_scratch0).read_unread (Val := Elt F) X) ((rowM ![k.val, 0] inb).view.emb j)
  rw [rowM_emb k inb j] at hr
  rw [rowM_emb k inb j]
  exact hr

/-- A write through the row memref, read back under its `j`-th element, is the payload's entry `j`. -/
theorem write_row_at (off : Fin 2 → ℕ) (inb : ∀ a, off a + S1x8000.size a ≤ S128x8000.size a)
    (fs : (rowM off inb).view.ty.Contents (Elt F)) (p : S8000.Idx → Elt F .f32) (j : S8000.Idx) :
    (View.write (Elt F) (rowM off inb).view fs p Finset.univ) ((rowM off inb).view.emb j) = p j :=
  (View.write_emb_of_mem (Val := Elt F) (v := (rowM off inb).view) fs p (M := Finset.univ) (Finset.mem_univ j)).trans (cast_eq _ _)

/-- Every element of the row memref is one of its entries. -/
theorem mem_rowM_set (off : Fin 2 → ℕ) (inb : ∀ a, off a + S1x8000.size a ≤ S128x8000.size a)
    (i : (rowM off inb).view.ty.Idx) (hi : i ∈ (rowM off inb).view.set) : ∃ j : S8000.Idx, (rowM off inb).view.emb j = i := by
  obtain ⟨j, -, rfl⟩ := Finset.mem_map.mp hi
  exact ⟨j, rfl⟩

/-! ## The rows in the program's spelling: held through the row memref, location and elements both -/

/-- A row held by its own elements, the location and the element set both read through the row memref. -/
abbrev rowPtW (c : Dev nD) (off : Fin 2 → ℕ) (inb : ∀ a, off a + S1x8000.size a ≤ S128x8000.size a)
    (f : Buf (Elt F) ((rowM off inb).view.loc (c : Thread nD τ))) : sProp 𝕄 :=
  (rowM off inb).view.loc (c : Thread nD τ) ↦[(rowM off inb).view.set]{fullShare} f

/-- Row `k` of the block held by its elements is the row memref's own points-to. -/
theorem rowPtW_of_row (c : Dev nD) (off : Fin 2 → ℕ) (inb : ∀ a, off a + S1x8000.size a ≤ S128x8000.size a) (k : Fin 128)
    (hoff : off = ![k.val, 0]) (f : Buf (Elt F) (scM0_0.view.loc (c : Thread nD τ))) :
    (scM0_0.view.loc (c : Thread nD τ) ↦[(scM0_0.view.slice (S128x8000.rowRect 0 k)).set]{fullShare} f : sProp 𝕄)
      = rowPtW c off inb f := by
  show _ = ((rowM off inb).view.loc (c : Thread nD τ) ↦[(rowM off inb).view.set]{fullShare} f : sProp 𝕄)
  rw [rowM_set off inb k hoff]

/-- The block whose row `k` is the payload `p k`. -/
def blockOf (p : Fin 128 → S8000.Idx → Elt F .f32) : S128x8000.Idx → Elt F .f32 :=
  fun y => p ⟨(y 0).val, (y 0).isLt⟩ (ValueIdx.ix1 (⟨(y 1).val, (y 1).isLt⟩ : Fin 8000))

/-- The block rebuilt from the payloads reads the payloads. -/
theorem read_unread_block (p : Fin 128 → S8000.Idx → Elt F .f32) :
    scM0_0.view.read (Elt F) ((Memref.isWhole_whole cc0_scratch0).unread (Val := Elt F) (blockOf p)) = blockOf p :=
  (Memref.isWhole_whole cc0_scratch0).read_unread (Val := Elt F) (blockOf p)

section Chain

variable (offT : Fin 128 → Fin 2 → ℕ) (inbT : ∀ k a, offT k a + S1x8000.size a ≤ S128x8000.size a)
  (hoffT : ∀ k : Fin 128, offT k = ![k.val, 0])

include hoffT in
/-- The block held whole is its rows, each in the program's spelling. -/
theorem rows_split_big (c : Dev nD) (fs : Buf (Elt F) (scM0_0.view.loc (c : Thread nD τ))) :
    (scM0_0.view.loc (c : Thread nD τ) ↦[scM0_0.view.set]{fullShare} fs : sProp 𝕄)
      ⊢ bigSep Finset.univ fun k : Fin 128 => rowPtW c (offT k) (inbT k) fs :=
  (split_rows c fs).trans (Entails.of_eq (bigSep_congr fun k _ => rowPtW_of_row c (offT k) (inbT k) k (hoffT k) fs))

include hoffT in
/-- The rows, row `k` written whole with the payload `p k`, are the block held whole at the contents that read the
    payloads. -/
theorem rows_join_big (c : Dev nD) (fs : Buf (Elt F) (scM0_0.view.loc (c : Thread nD τ))) (p : Fin 128 → S8000.Idx → Elt F .f32) :
    (bigSep Finset.univ fun k : Fin 128 =>
        rowPtW c (offT k) (inbT k) ((rowM (offT k) (inbT k)).view.writes (Elt F) fs [⟨Rect.whole S8000, p k⟩]) : sProp 𝕄)
      ⊢ (scM0_0.view.loc (c : Thread nD τ) ↦[scM0_0.view.set]{fullShare}
          (Memref.isWhole_whole cc0_scratch0).unread (Val := Elt F) (blockOf p)) := by
  refine (Entails.of_eq (bigSep_congr fun k _ => (rowPtW_of_row c (offT k) (inbT k) k (hoffT k) _).symm)).trans
    (join_rows c (fun k => (rowM (offT k) (inbT k)).view.writes (Elt F) fs [⟨Rect.whole S8000, p k⟩]) _ fun k i hi => ?_)
  rw [← rowM_set (offT k) (inbT k) k (hoffT k)] at hi
  obtain ⟨j, rfl⟩ := mem_rowM_set (offT k) (inbT k) i hi
  have hw : (rowM (offT k) (inbT k)).view.writes (Elt F) fs [⟨Rect.whole S8000, p k⟩]
      = View.write (Elt F) (rowM (offT k) (inbT k)).view fs (p k) Finset.univ :=
    (View.write_univ_eq_writes_whole (rowM (offT k) (inbT k)).view fs [] (p k)).symm
  rw [hw, write_row_at (offT k) (inbT k) fs (p k) j, unread_at_row (blockOf p) (offT k) (inbT k) k (hoffT k) j]
  show p k j = p ⟨k.val, _⟩ (ValueIdx.ix1 (⟨(j 0).val, (j 0).isLt⟩ : Fin 8000))
  congr 1
  exact ValueIdx.eq_ix1 j

end Chain

-- GENERATED BLOCK (a table of cases): python3 proofs/403333_j71021579206675_3_alg/scratch/gen_rows.py, run from the certs directory; its output is this block verbatim, from this line to the line 'END OF GENERATED BLOCK'.

/-- Row `k`'s offsets as the program prints them. -/
abbrev offT : Fin 128 → Fin 2 → ℕ := fun
  | ⟨0, _⟩ => k0_off3
  | ⟨1, _⟩ => k0_off7
  | ⟨2, _⟩ => k0_off11
  | ⟨3, _⟩ => k0_off15
  | ⟨4, _⟩ => k0_off19
  | ⟨5, _⟩ => k0_off23
  | ⟨6, _⟩ => k0_off27
  | ⟨7, _⟩ => k0_off31
  | ⟨8, _⟩ => k0_off35
  | ⟨9, _⟩ => k0_off39
  | ⟨10, _⟩ => k0_off43
  | ⟨11, _⟩ => k0_off47
  | ⟨12, _⟩ => k0_off51
  | ⟨13, _⟩ => k0_off55
  | ⟨14, _⟩ => k0_off59
  | ⟨15, _⟩ => k0_off63
  | ⟨16, _⟩ => k0_off67
  | ⟨17, _⟩ => k0_off71
  | ⟨18, _⟩ => k0_off75
  | ⟨19, _⟩ => k0_off79
  | ⟨20, _⟩ => k0_off83
  | ⟨21, _⟩ => k0_off87
  | ⟨22, _⟩ => k0_off91
  | ⟨23, _⟩ => k0_off95
  | ⟨24, _⟩ => k0_off99
  | ⟨25, _⟩ => k0_off103
  | ⟨26, _⟩ => k0_off107
  | ⟨27, _⟩ => k0_off111
  | ⟨28, _⟩ => k0_off115
  | ⟨29, _⟩ => k0_off119
  | ⟨30, _⟩ => k0_off123
  | ⟨31, _⟩ => k0_off127
  | ⟨32, _⟩ => k0_off131
  | ⟨33, _⟩ => k0_off135
  | ⟨34, _⟩ => k0_off139
  | ⟨35, _⟩ => k0_off143
  | ⟨36, _⟩ => k0_off147
  | ⟨37, _⟩ => k0_off151
  | ⟨38, _⟩ => k0_off155
  | ⟨39, _⟩ => k0_off159
  | ⟨40, _⟩ => k0_off163
  | ⟨41, _⟩ => k0_off167
  | ⟨42, _⟩ => k0_off171
  | ⟨43, _⟩ => k0_off175
  | ⟨44, _⟩ => k0_off179
  | ⟨45, _⟩ => k0_off183
  | ⟨46, _⟩ => k0_off187
  | ⟨47, _⟩ => k0_off191
  | ⟨48, _⟩ => k0_off195
  | ⟨49, _⟩ => k0_off199
  | ⟨50, _⟩ => k0_off203
  | ⟨51, _⟩ => k0_off207
  | ⟨52, _⟩ => k0_off211
  | ⟨53, _⟩ => k0_off215
  | ⟨54, _⟩ => k0_off219
  | ⟨55, _⟩ => k0_off223
  | ⟨56, _⟩ => k0_off227
  | ⟨57, _⟩ => k0_off231
  | ⟨58, _⟩ => k0_off235
  | ⟨59, _⟩ => k0_off239
  | ⟨60, _⟩ => k0_off243
  | ⟨61, _⟩ => k0_off247
  | ⟨62, _⟩ => k0_off251
  | ⟨63, _⟩ => k0_off255
  | ⟨64, _⟩ => k0_off259
  | ⟨65, _⟩ => k0_off263
  | ⟨66, _⟩ => k0_off267
  | ⟨67, _⟩ => k0_off271
  | ⟨68, _⟩ => k0_off275
  | ⟨69, _⟩ => k0_off279
  | ⟨70, _⟩ => k0_off283
  | ⟨71, _⟩ => k0_off287
  | ⟨72, _⟩ => k0_off291
  | ⟨73, _⟩ => k0_off295
  | ⟨74, _⟩ => k0_off299
  | ⟨75, _⟩ => k0_off303
  | ⟨76, _⟩ => k0_off307
  | ⟨77, _⟩ => k0_off311
  | ⟨78, _⟩ => k0_off315
  | ⟨79, _⟩ => k0_off319
  | ⟨80, _⟩ => k0_off323
  | ⟨81, _⟩ => k0_off327
  | ⟨82, _⟩ => k0_off331
  | ⟨83, _⟩ => k0_off335
  | ⟨84, _⟩ => k0_off339
  | ⟨85, _⟩ => k0_off343
  | ⟨86, _⟩ => k0_off347
  | ⟨87, _⟩ => k0_off351
  | ⟨88, _⟩ => k0_off355
  | ⟨89, _⟩ => k0_off359
  | ⟨90, _⟩ => k0_off363
  | ⟨91, _⟩ => k0_off367
  | ⟨92, _⟩ => k0_off371
  | ⟨93, _⟩ => k0_off375
  | ⟨94, _⟩ => k0_off379
  | ⟨95, _⟩ => k0_off383
  | ⟨96, _⟩ => k0_off387
  | ⟨97, _⟩ => k0_off391
  | ⟨98, _⟩ => k0_off395
  | ⟨99, _⟩ => k0_off399
  | ⟨100, _⟩ => k0_off403
  | ⟨101, _⟩ => k0_off407
  | ⟨102, _⟩ => k0_off411
  | ⟨103, _⟩ => k0_off415
  | ⟨104, _⟩ => k0_off419
  | ⟨105, _⟩ => k0_off423
  | ⟨106, _⟩ => k0_off427
  | ⟨107, _⟩ => k0_off431
  | ⟨108, _⟩ => k0_off435
  | ⟨109, _⟩ => k0_off439
  | ⟨110, _⟩ => k0_off443
  | ⟨111, _⟩ => k0_off447
  | ⟨112, _⟩ => k0_off451
  | ⟨113, _⟩ => k0_off455
  | ⟨114, _⟩ => k0_off459
  | ⟨115, _⟩ => k0_off463
  | ⟨116, _⟩ => k0_off467
  | ⟨117, _⟩ => k0_off471
  | ⟨118, _⟩ => k0_off475
  | ⟨119, _⟩ => k0_off479
  | ⟨120, _⟩ => k0_off483
  | ⟨121, _⟩ => k0_off487
  | ⟨122, _⟩ => k0_off491
  | ⟨123, _⟩ => k0_off495
  | ⟨124, _⟩ => k0_off499
  | ⟨125, _⟩ => k0_off503
  | ⟨126, _⟩ => k0_off507
  | ⟨127, _⟩ => k0_off511
  | ⟨_ + 128, h⟩ => absurd h (Nat.not_lt.2 (Nat.le_add_left _ _))
/-- and their bounds. -/
theorem inbT : ∀ (k : Fin 128) (a : Fin 2), offT k a + S1x8000.size a ≤ S128x8000.size a := fun
  | ⟨0, _⟩ => k0_off3_inb
  | ⟨1, _⟩ => k0_off7_inb
  | ⟨2, _⟩ => k0_off11_inb
  | ⟨3, _⟩ => k0_off15_inb
  | ⟨4, _⟩ => k0_off19_inb
  | ⟨5, _⟩ => k0_off23_inb
  | ⟨6, _⟩ => k0_off27_inb
  | ⟨7, _⟩ => k0_off31_inb
  | ⟨8, _⟩ => k0_off35_inb
  | ⟨9, _⟩ => k0_off39_inb
  | ⟨10, _⟩ => k0_off43_inb
  | ⟨11, _⟩ => k0_off47_inb
  | ⟨12, _⟩ => k0_off51_inb
  | ⟨13, _⟩ => k0_off55_inb
  | ⟨14, _⟩ => k0_off59_inb
  | ⟨15, _⟩ => k0_off63_inb
  | ⟨16, _⟩ => k0_off67_inb
  | ⟨17, _⟩ => k0_off71_inb
  | ⟨18, _⟩ => k0_off75_inb
  | ⟨19, _⟩ => k0_off79_inb
  | ⟨20, _⟩ => k0_off83_inb
  | ⟨21, _⟩ => k0_off87_inb
  | ⟨22, _⟩ => k0_off91_inb
  | ⟨23, _⟩ => k0_off95_inb
  | ⟨24, _⟩ => k0_off99_inb
  | ⟨25, _⟩ => k0_off103_inb
  | ⟨26, _⟩ => k0_off107_inb
  | ⟨27, _⟩ => k0_off111_inb
  | ⟨28, _⟩ => k0_off115_inb
  | ⟨29, _⟩ => k0_off119_inb
  | ⟨30, _⟩ => k0_off123_inb
  | ⟨31, _⟩ => k0_off127_inb
  | ⟨32, _⟩ => k0_off131_inb
  | ⟨33, _⟩ => k0_off135_inb
  | ⟨34, _⟩ => k0_off139_inb
  | ⟨35, _⟩ => k0_off143_inb
  | ⟨36, _⟩ => k0_off147_inb
  | ⟨37, _⟩ => k0_off151_inb
  | ⟨38, _⟩ => k0_off155_inb
  | ⟨39, _⟩ => k0_off159_inb
  | ⟨40, _⟩ => k0_off163_inb
  | ⟨41, _⟩ => k0_off167_inb
  | ⟨42, _⟩ => k0_off171_inb
  | ⟨43, _⟩ => k0_off175_inb
  | ⟨44, _⟩ => k0_off179_inb
  | ⟨45, _⟩ => k0_off183_inb
  | ⟨46, _⟩ => k0_off187_inb
  | ⟨47, _⟩ => k0_off191_inb
  | ⟨48, _⟩ => k0_off195_inb
  | ⟨49, _⟩ => k0_off199_inb
  | ⟨50, _⟩ => k0_off203_inb
  | ⟨51, _⟩ => k0_off207_inb
  | ⟨52, _⟩ => k0_off211_inb
  | ⟨53, _⟩ => k0_off215_inb
  | ⟨54, _⟩ => k0_off219_inb
  | ⟨55, _⟩ => k0_off223_inb
  | ⟨56, _⟩ => k0_off227_inb
  | ⟨57, _⟩ => k0_off231_inb
  | ⟨58, _⟩ => k0_off235_inb
  | ⟨59, _⟩ => k0_off239_inb
  | ⟨60, _⟩ => k0_off243_inb
  | ⟨61, _⟩ => k0_off247_inb
  | ⟨62, _⟩ => k0_off251_inb
  | ⟨63, _⟩ => k0_off255_inb
  | ⟨64, _⟩ => k0_off259_inb
  | ⟨65, _⟩ => k0_off263_inb
  | ⟨66, _⟩ => k0_off267_inb
  | ⟨67, _⟩ => k0_off271_inb
  | ⟨68, _⟩ => k0_off275_inb
  | ⟨69, _⟩ => k0_off279_inb
  | ⟨70, _⟩ => k0_off283_inb
  | ⟨71, _⟩ => k0_off287_inb
  | ⟨72, _⟩ => k0_off291_inb
  | ⟨73, _⟩ => k0_off295_inb
  | ⟨74, _⟩ => k0_off299_inb
  | ⟨75, _⟩ => k0_off303_inb
  | ⟨76, _⟩ => k0_off307_inb
  | ⟨77, _⟩ => k0_off311_inb
  | ⟨78, _⟩ => k0_off315_inb
  | ⟨79, _⟩ => k0_off319_inb
  | ⟨80, _⟩ => k0_off323_inb
  | ⟨81, _⟩ => k0_off327_inb
  | ⟨82, _⟩ => k0_off331_inb
  | ⟨83, _⟩ => k0_off335_inb
  | ⟨84, _⟩ => k0_off339_inb
  | ⟨85, _⟩ => k0_off343_inb
  | ⟨86, _⟩ => k0_off347_inb
  | ⟨87, _⟩ => k0_off351_inb
  | ⟨88, _⟩ => k0_off355_inb
  | ⟨89, _⟩ => k0_off359_inb
  | ⟨90, _⟩ => k0_off363_inb
  | ⟨91, _⟩ => k0_off367_inb
  | ⟨92, _⟩ => k0_off371_inb
  | ⟨93, _⟩ => k0_off375_inb
  | ⟨94, _⟩ => k0_off379_inb
  | ⟨95, _⟩ => k0_off383_inb
  | ⟨96, _⟩ => k0_off387_inb
  | ⟨97, _⟩ => k0_off391_inb
  | ⟨98, _⟩ => k0_off395_inb
  | ⟨99, _⟩ => k0_off399_inb
  | ⟨100, _⟩ => k0_off403_inb
  | ⟨101, _⟩ => k0_off407_inb
  | ⟨102, _⟩ => k0_off411_inb
  | ⟨103, _⟩ => k0_off415_inb
  | ⟨104, _⟩ => k0_off419_inb
  | ⟨105, _⟩ => k0_off423_inb
  | ⟨106, _⟩ => k0_off427_inb
  | ⟨107, _⟩ => k0_off431_inb
  | ⟨108, _⟩ => k0_off435_inb
  | ⟨109, _⟩ => k0_off439_inb
  | ⟨110, _⟩ => k0_off443_inb
  | ⟨111, _⟩ => k0_off447_inb
  | ⟨112, _⟩ => k0_off451_inb
  | ⟨113, _⟩ => k0_off455_inb
  | ⟨114, _⟩ => k0_off459_inb
  | ⟨115, _⟩ => k0_off463_inb
  | ⟨116, _⟩ => k0_off467_inb
  | ⟨117, _⟩ => k0_off471_inb
  | ⟨118, _⟩ => k0_off475_inb
  | ⟨119, _⟩ => k0_off479_inb
  | ⟨120, _⟩ => k0_off483_inb
  | ⟨121, _⟩ => k0_off487_inb
  | ⟨122, _⟩ => k0_off491_inb
  | ⟨123, _⟩ => k0_off495_inb
  | ⟨124, _⟩ => k0_off499_inb
  | ⟨125, _⟩ => k0_off503_inb
  | ⟨126, _⟩ => k0_off507_inb
  | ⟨127, _⟩ => k0_off511_inb
  | ⟨_ + 128, h⟩ => absurd h (Nat.not_lt.2 (Nat.le_add_left _ _))
/-- Each evaluates to `(k, 0)`. -/
theorem hoffT : ∀ k : Fin 128, offT k = ![k.val, 0] := fun
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨24, _⟩ => rfl
  | ⟨25, _⟩ => rfl
  | ⟨26, _⟩ => rfl
  | ⟨27, _⟩ => rfl
  | ⟨28, _⟩ => rfl
  | ⟨29, _⟩ => rfl
  | ⟨30, _⟩ => rfl
  | ⟨31, _⟩ => rfl
  | ⟨32, _⟩ => rfl
  | ⟨33, _⟩ => rfl
  | ⟨34, _⟩ => rfl
  | ⟨35, _⟩ => rfl
  | ⟨36, _⟩ => rfl
  | ⟨37, _⟩ => rfl
  | ⟨38, _⟩ => rfl
  | ⟨39, _⟩ => rfl
  | ⟨40, _⟩ => rfl
  | ⟨41, _⟩ => rfl
  | ⟨42, _⟩ => rfl
  | ⟨43, _⟩ => rfl
  | ⟨44, _⟩ => rfl
  | ⟨45, _⟩ => rfl
  | ⟨46, _⟩ => rfl
  | ⟨47, _⟩ => rfl
  | ⟨48, _⟩ => rfl
  | ⟨49, _⟩ => rfl
  | ⟨50, _⟩ => rfl
  | ⟨51, _⟩ => rfl
  | ⟨52, _⟩ => rfl
  | ⟨53, _⟩ => rfl
  | ⟨54, _⟩ => rfl
  | ⟨55, _⟩ => rfl
  | ⟨56, _⟩ => rfl
  | ⟨57, _⟩ => rfl
  | ⟨58, _⟩ => rfl
  | ⟨59, _⟩ => rfl
  | ⟨60, _⟩ => rfl
  | ⟨61, _⟩ => rfl
  | ⟨62, _⟩ => rfl
  | ⟨63, _⟩ => rfl
  | ⟨64, _⟩ => rfl
  | ⟨65, _⟩ => rfl
  | ⟨66, _⟩ => rfl
  | ⟨67, _⟩ => rfl
  | ⟨68, _⟩ => rfl
  | ⟨69, _⟩ => rfl
  | ⟨70, _⟩ => rfl
  | ⟨71, _⟩ => rfl
  | ⟨72, _⟩ => rfl
  | ⟨73, _⟩ => rfl
  | ⟨74, _⟩ => rfl
  | ⟨75, _⟩ => rfl
  | ⟨76, _⟩ => rfl
  | ⟨77, _⟩ => rfl
  | ⟨78, _⟩ => rfl
  | ⟨79, _⟩ => rfl
  | ⟨80, _⟩ => rfl
  | ⟨81, _⟩ => rfl
  | ⟨82, _⟩ => rfl
  | ⟨83, _⟩ => rfl
  | ⟨84, _⟩ => rfl
  | ⟨85, _⟩ => rfl
  | ⟨86, _⟩ => rfl
  | ⟨87, _⟩ => rfl
  | ⟨88, _⟩ => rfl
  | ⟨89, _⟩ => rfl
  | ⟨90, _⟩ => rfl
  | ⟨91, _⟩ => rfl
  | ⟨92, _⟩ => rfl
  | ⟨93, _⟩ => rfl
  | ⟨94, _⟩ => rfl
  | ⟨95, _⟩ => rfl
  | ⟨96, _⟩ => rfl
  | ⟨97, _⟩ => rfl
  | ⟨98, _⟩ => rfl
  | ⟨99, _⟩ => rfl
  | ⟨100, _⟩ => rfl
  | ⟨101, _⟩ => rfl
  | ⟨102, _⟩ => rfl
  | ⟨103, _⟩ => rfl
  | ⟨104, _⟩ => rfl
  | ⟨105, _⟩ => rfl
  | ⟨106, _⟩ => rfl
  | ⟨107, _⟩ => rfl
  | ⟨108, _⟩ => rfl
  | ⟨109, _⟩ => rfl
  | ⟨110, _⟩ => rfl
  | ⟨111, _⟩ => rfl
  | ⟨112, _⟩ => rfl
  | ⟨113, _⟩ => rfl
  | ⟨114, _⟩ => rfl
  | ⟨115, _⟩ => rfl
  | ⟨116, _⟩ => rfl
  | ⟨117, _⟩ => rfl
  | ⟨118, _⟩ => rfl
  | ⟨119, _⟩ => rfl
  | ⟨120, _⟩ => rfl
  | ⟨121, _⟩ => rfl
  | ⟨122, _⟩ => rfl
  | ⟨123, _⟩ => rfl
  | ⟨124, _⟩ => rfl
  | ⟨125, _⟩ => rfl
  | ⟨126, _⟩ => rfl
  | ⟨127, _⟩ => rfl
  | ⟨_ + 128, h⟩ => absurd h (Nat.not_lt.2 (Nat.le_add_left _ _))
/-- The 128 rows, listed. -/
abbrev rowsL : List (Fin 128) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127]
theorem rowsL_univ : (Finset.univ : Finset (Fin 128)) = rowsL.toFinset := by decide
theorem rowsL_nodup : rowsL.Nodup := by decide

set_option maxHeartbeats 4000000 in
/-- The block held whole is its 128 rows one by one, each in the program's spelling. -/
theorem rows_split (c : Dev nD) (fs : Buf (Elt F) (scM0_0.view.loc (c : Thread nD τ))) :
    (scM0_0.view.loc (c : Thread nD τ) ↦[scM0_0.view.set]{fullShare} fs : sProp 𝕄)
      ⊢ iprop(rowPtW c k0_off3 k0_off3_inb fs ∗ rowPtW c k0_off7 k0_off7_inb fs ∗ rowPtW c k0_off11 k0_off11_inb fs ∗ rowPtW c k0_off15 k0_off15_inb fs ∗ rowPtW c k0_off19 k0_off19_inb fs ∗ rowPtW c k0_off23 k0_off23_inb fs ∗ rowPtW c k0_off27 k0_off27_inb fs ∗ rowPtW c k0_off31 k0_off31_inb fs ∗ rowPtW c k0_off35 k0_off35_inb fs ∗ rowPtW c k0_off39 k0_off39_inb fs ∗ rowPtW c k0_off43 k0_off43_inb fs ∗ rowPtW c k0_off47 k0_off47_inb fs ∗ rowPtW c k0_off51 k0_off51_inb fs ∗ rowPtW c k0_off55 k0_off55_inb fs ∗ rowPtW c k0_off59 k0_off59_inb fs ∗ rowPtW c k0_off63 k0_off63_inb fs ∗ rowPtW c k0_off67 k0_off67_inb fs ∗ rowPtW c k0_off71 k0_off71_inb fs ∗ rowPtW c k0_off75 k0_off75_inb fs ∗ rowPtW c k0_off79 k0_off79_inb fs ∗ rowPtW c k0_off83 k0_off83_inb fs ∗ rowPtW c k0_off87 k0_off87_inb fs ∗ rowPtW c k0_off91 k0_off91_inb fs ∗ rowPtW c k0_off95 k0_off95_inb fs ∗ rowPtW c k0_off99 k0_off99_inb fs ∗ rowPtW c k0_off103 k0_off103_inb fs ∗ rowPtW c k0_off107 k0_off107_inb fs ∗ rowPtW c k0_off111 k0_off111_inb fs ∗ rowPtW c k0_off115 k0_off115_inb fs ∗ rowPtW c k0_off119 k0_off119_inb fs ∗ rowPtW c k0_off123 k0_off123_inb fs ∗ rowPtW c k0_off127 k0_off127_inb fs ∗ rowPtW c k0_off131 k0_off131_inb fs ∗ rowPtW c k0_off135 k0_off135_inb fs ∗ rowPtW c k0_off139 k0_off139_inb fs ∗ rowPtW c k0_off143 k0_off143_inb fs ∗ rowPtW c k0_off147 k0_off147_inb fs ∗ rowPtW c k0_off151 k0_off151_inb fs ∗ rowPtW c k0_off155 k0_off155_inb fs ∗ rowPtW c k0_off159 k0_off159_inb fs ∗ rowPtW c k0_off163 k0_off163_inb fs ∗ rowPtW c k0_off167 k0_off167_inb fs ∗ rowPtW c k0_off171 k0_off171_inb fs ∗ rowPtW c k0_off175 k0_off175_inb fs ∗ rowPtW c k0_off179 k0_off179_inb fs ∗ rowPtW c k0_off183 k0_off183_inb fs ∗ rowPtW c k0_off187 k0_off187_inb fs ∗ rowPtW c k0_off191 k0_off191_inb fs ∗ rowPtW c k0_off195 k0_off195_inb fs ∗ rowPtW c k0_off199 k0_off199_inb fs ∗ rowPtW c k0_off203 k0_off203_inb fs ∗ rowPtW c k0_off207 k0_off207_inb fs ∗ rowPtW c k0_off211 k0_off211_inb fs ∗ rowPtW c k0_off215 k0_off215_inb fs ∗ rowPtW c k0_off219 k0_off219_inb fs ∗ rowPtW c k0_off223 k0_off223_inb fs ∗ rowPtW c k0_off227 k0_off227_inb fs ∗ rowPtW c k0_off231 k0_off231_inb fs ∗ rowPtW c k0_off235 k0_off235_inb fs ∗ rowPtW c k0_off239 k0_off239_inb fs ∗ rowPtW c k0_off243 k0_off243_inb fs ∗ rowPtW c k0_off247 k0_off247_inb fs ∗ rowPtW c k0_off251 k0_off251_inb fs ∗ rowPtW c k0_off255 k0_off255_inb fs ∗ rowPtW c k0_off259 k0_off259_inb fs ∗ rowPtW c k0_off263 k0_off263_inb fs ∗ rowPtW c k0_off267 k0_off267_inb fs ∗ rowPtW c k0_off271 k0_off271_inb fs ∗ rowPtW c k0_off275 k0_off275_inb fs ∗ rowPtW c k0_off279 k0_off279_inb fs ∗ rowPtW c k0_off283 k0_off283_inb fs ∗ rowPtW c k0_off287 k0_off287_inb fs ∗ rowPtW c k0_off291 k0_off291_inb fs ∗ rowPtW c k0_off295 k0_off295_inb fs ∗ rowPtW c k0_off299 k0_off299_inb fs ∗ rowPtW c k0_off303 k0_off303_inb fs ∗ rowPtW c k0_off307 k0_off307_inb fs ∗ rowPtW c k0_off311 k0_off311_inb fs ∗ rowPtW c k0_off315 k0_off315_inb fs ∗ rowPtW c k0_off319 k0_off319_inb fs ∗ rowPtW c k0_off323 k0_off323_inb fs ∗ rowPtW c k0_off327 k0_off327_inb fs ∗ rowPtW c k0_off331 k0_off331_inb fs ∗ rowPtW c k0_off335 k0_off335_inb fs ∗ rowPtW c k0_off339 k0_off339_inb fs ∗ rowPtW c k0_off343 k0_off343_inb fs ∗ rowPtW c k0_off347 k0_off347_inb fs ∗ rowPtW c k0_off351 k0_off351_inb fs ∗ rowPtW c k0_off355 k0_off355_inb fs ∗ rowPtW c k0_off359 k0_off359_inb fs ∗ rowPtW c k0_off363 k0_off363_inb fs ∗ rowPtW c k0_off367 k0_off367_inb fs ∗ rowPtW c k0_off371 k0_off371_inb fs ∗ rowPtW c k0_off375 k0_off375_inb fs ∗ rowPtW c k0_off379 k0_off379_inb fs ∗ rowPtW c k0_off383 k0_off383_inb fs ∗ rowPtW c k0_off387 k0_off387_inb fs ∗ rowPtW c k0_off391 k0_off391_inb fs ∗ rowPtW c k0_off395 k0_off395_inb fs ∗ rowPtW c k0_off399 k0_off399_inb fs ∗ rowPtW c k0_off403 k0_off403_inb fs ∗ rowPtW c k0_off407 k0_off407_inb fs ∗ rowPtW c k0_off411 k0_off411_inb fs ∗ rowPtW c k0_off415 k0_off415_inb fs ∗ rowPtW c k0_off419 k0_off419_inb fs ∗ rowPtW c k0_off423 k0_off423_inb fs ∗ rowPtW c k0_off427 k0_off427_inb fs ∗ rowPtW c k0_off431 k0_off431_inb fs ∗ rowPtW c k0_off435 k0_off435_inb fs ∗ rowPtW c k0_off439 k0_off439_inb fs ∗ rowPtW c k0_off443 k0_off443_inb fs ∗ rowPtW c k0_off447 k0_off447_inb fs ∗ rowPtW c k0_off451 k0_off451_inb fs ∗ rowPtW c k0_off455 k0_off455_inb fs ∗ rowPtW c k0_off459 k0_off459_inb fs ∗ rowPtW c k0_off463 k0_off463_inb fs ∗ rowPtW c k0_off467 k0_off467_inb fs ∗ rowPtW c k0_off471 k0_off471_inb fs ∗ rowPtW c k0_off475 k0_off475_inb fs ∗ rowPtW c k0_off479 k0_off479_inb fs ∗ rowPtW c k0_off483 k0_off483_inb fs ∗ rowPtW c k0_off487 k0_off487_inb fs ∗ rowPtW c k0_off491 k0_off491_inb fs ∗ rowPtW c k0_off495 k0_off495_inb fs ∗ rowPtW c k0_off499 k0_off499_inb fs ∗ rowPtW c k0_off503 k0_off503_inb fs ∗ rowPtW c k0_off507 k0_off507_inb fs ∗ rowPtW c k0_off511 k0_off511_inb fs) :=
  (rows_split_big offT inbT hoffT c fs).trans (Entails.of_eq
    ((bigSep_univ_eq_bigSepL rowsL rowsL_univ rowsL_nodup (fun k : Fin 128 => rowPtW (F := F) c (offT k) (inbT k) fs)).trans (by sl_kernel_rfl)))

set_option maxHeartbeats 4000000 in
/-- The 128 rows one by one, row `k` written whole with the payload `p k`, are the block held whole at the contents that read the payloads. -/
theorem rows_join (c : Dev nD) (fs : Buf (Elt F) (scM0_0.view.loc (c : Thread nD τ))) (p : Fin 128 → S8000.Idx → Elt F .f32) :
    (iprop(rowPtW c k0_off3 k0_off3_inb ((rowM k0_off3 k0_off3_inb).view.writes (Elt F) fs [⟨Rect.whole S8000, p 0⟩]) ∗ rowPtW c k0_off7 k0_off7_inb ((rowM k0_off7 k0_off7_inb).view.writes (Elt F) fs [⟨Rect.whole S8000, p 1⟩]) ∗ rowPtW c k0_off11 k0_off11_inb ((rowM k0_off11 k0_off11_inb).view.writes (Elt F) fs [⟨Rect.whole S8000, p 2⟩]) ∗ rowPtW c k0_off15 k0_off15_inb ((rowM k0_off15 k0_off15_inb).view.writes (Elt F) fs [⟨Rect.whole S8000, p 3⟩]) ∗ rowPtW c k0_off19 k0_off19_inb ((rowM k0_off19 k0_off19_inb).view.writes (Elt F) fs [⟨Rect.whole S8000, p 4⟩]) ∗ rowPtW c k0_off23 k0_off23_inb ((rowM k0_off23 k0_off23_inb).view.writes (Elt F) fs [⟨Rect.whole S8000, p 5⟩]) ∗ rowPtW c k0_off27 k0_off27_inb ((rowM k0_off27 k0_off27_inb).view.writes (Elt F) fs [⟨Rect.whole S8000, p 6⟩]) ∗ rowPtW c k0_off31 k0_off31_inb ((rowM k0_off31 k0_off31_inb).view.writes (Elt F) fs [⟨Rect.whole S8000, p 7⟩]) ∗ rowPtW c k0_off35 k0_off35_inb ((rowM k0_off35 k0_off35_inb).view.writes (Elt F) fs [⟨Rect.whole S8000, p 8⟩]) ∗ rowPtW c k0_off39 k0_off39_inb ((rowM k0_off39 k0_off39_inb).view.writes (Elt F) fs [⟨Rect.whole S8000, p 9⟩]) ∗ rowPtW c k0_off43 k0_off43_inb ((rowM k0_off43 k0_off43_inb).view.writes (Elt F) fs [⟨Rect.whole S8000, p 10⟩]) ∗ rowPtW c k0_off47 k0_off47_inb ((rowM k0_off47 k0_off47_inb).view.writes (Elt F) fs [⟨Rect.whole S8000, p 11⟩]) ∗ rowPtW c k0_off51 k0_off51_inb ((rowM k0_off51 k0_off51_inb).view.writes (Elt F) fs [⟨Rect.whole S8000, p 12⟩]) ∗ rowPtW c k0_off55 k0_off55_inb ((rowM k0_off55 k0_off55_inb).view.writes (Elt F) fs [⟨Rect.whole S8000, p 13⟩]) ∗ rowPtW c k0_off59 k0_off59_inb ((rowM k0_off59 k0_off59_inb).view.writes (Elt F) fs [⟨Rect.whole S8000, p 14⟩]) ∗ rowPtW c k0_off63 k0_off63_inb ((rowM k0_off63 k0_off63_inb).view.writes (Elt F) fs [⟨Rect.whole S8000, p 15⟩]) ∗ rowPtW c k0_off67 k0_off67_inb ((rowM k0_off67 k0_off67_inb).view.writes (Elt F) fs [⟨Rect.whole S8000, p 16⟩]) ∗ rowPtW c k0_off71 k0_off71_inb ((rowM k0_off71 k0_off71_inb).view.writes (Elt F) fs [⟨Rect.whole S8000, p 17⟩]) ∗ rowPtW c k0_off75 k0_off75_inb ((rowM k0_off75 k0_off75_inb).view.writes (Elt F) fs [⟨Rect.whole S8000, p 18⟩]) ∗ rowPtW c k0_off79 k0_off79_inb ((rowM k0_off79 k0_off79_inb).view.writes (Elt F) fs [⟨Rect.whole S8000, p 19⟩]) ∗ rowPtW c k0_off83 k0_off83_inb ((rowM k0_off83 k0_off83_inb).view.writes (Elt F) fs [⟨Rect.whole S8000, p 20⟩]) ∗ rowPtW c k0_off87 k0_off87_inb ((rowM k0_off87 k0_off87_inb).view.writes (Elt F) fs [⟨Rect.whole S8000, p 21⟩]) ∗ rowPtW c k0_off91 k0_off91_inb ((rowM k0_off91 k0_off91_inb).view.writes (Elt F) fs [⟨Rect.whole S8000, p 22⟩]) ∗ rowPtW c k0_off95 k0_off95_inb ((rowM k0_off95 k0_off95_inb).view.writes (Elt F) fs [⟨Rect.whole S8000, p 23⟩]) ∗ rowPtW c k0_off99 k0_off99_inb ((rowM k0_off99 k0_off99_inb).view.writes (Elt F) fs [⟨Rect.whole S8000, p 24⟩]) ∗ rowPtW c k0_off103 k0_off103_inb ((rowM k0_off103 k0_off103_inb).view.writes (Elt F) fs [⟨Rect.whole S8000, p 25⟩]) ∗ rowPtW c k0_off107 k0_off107_inb ((rowM k0_off107 k0_off107_inb).view.writes (Elt F) fs [⟨Rect.whole S8000, p 26⟩]) ∗ rowPtW c k0_off111 k0_off111_inb ((rowM k0_off111 k0_off111_inb).view.writes (Elt F) fs [⟨Rect.whole S8000, p 27⟩]) ∗ rowPtW c k0_off115 k0_off115_inb ((rowM k0_off115 k0_off115_inb).view.writes (Elt F) fs [⟨Rect.whole S8000, p 28⟩]) ∗ rowPtW c k0_off119 k0_off119_inb ((rowM k0_off119 k0_off119_inb).view.writes (Elt F) fs [⟨Rect.whole S8000, p 29⟩]) ∗ rowPtW c k0_off123 k0_off123_inb ((rowM k0_off123 k0_off123_inb).view.writes (Elt F) fs [⟨Rect.whole S8000, p 30⟩]) ∗ rowPtW c k0_off127 k0_off127_inb ((rowM k0_off127 k0_off127_inb).view.writes (Elt F) fs [⟨Rect.whole S8000, p 31⟩]) ∗ rowPtW c k0_off131 k0_off131_inb ((rowM k0_off131 k0_off131_inb).view.writes (Elt F) fs [⟨Rect.whole S8000, p 32⟩]) ∗ rowPtW c k0_off135 k0_off135_inb ((rowM k0_off135 k0_off135_inb).view.writes (Elt F) fs [⟨Rect.whole S8000, p 33⟩]) ∗ rowPtW c k0_off139 k0_off139_inb ((rowM k0_off139 k0_off139_inb).view.writes (Elt F) fs [⟨Rect.whole S8000, p 34⟩]) ∗ rowPtW c k0_off143 k0_off143_inb ((rowM k0_off143 k0_off143_inb).view.writes (Elt F) fs [⟨Rect.whole S8000, p 35⟩]) ∗ rowPtW c k0_off147 k0_off147_inb ((rowM k0_off147 k0_off147_inb).view.writes (Elt F) fs [⟨Rect.whole S8000, p 36⟩]) ∗ rowPtW c k0_off151 k0_off151_inb ((rowM k0_off151 k0_off151_inb).view.writes (Elt F) fs [⟨Rect.whole S8000, p 37⟩]) ∗ rowPtW c k0_off155 k0_off155_inb ((rowM k0_off155 k0_off155_inb).view.writes (Elt F) fs [⟨Rect.whole S8000, p 38⟩]) ∗ rowPtW c k0_off159 k0_off159_inb ((rowM k0_off159 k0_off159_inb).view.writes (Elt F) fs [⟨Rect.whole S8000, p 39⟩]) ∗ rowPtW c k0_off163 k0_off163_inb ((rowM k0_off163 k0_off163_inb).view.writes (Elt F) fs [⟨Rect.whole S8000, p 40⟩]) ∗ rowPtW c k0_off167 k0_off167_inb ((rowM k0_off167 k0_off167_inb).view.writes (Elt F) fs [⟨Rect.whole S8000, p 41⟩]) ∗ rowPtW c k0_off171 k0_off171_inb ((rowM k0_off171 k0_off171_inb).view.writes (Elt F) fs [⟨Rect.whole S8000, p 42⟩]) ∗ rowPtW c k0_off175 k0_off175_inb ((rowM k0_off175 k0_off175_inb).view.writes (Elt F) fs [⟨Rect.whole S8000, p 43⟩]) ∗ rowPtW c k0_off179 k0_off179_inb ((rowM k0_off179 k0_off179_inb).view.writes (Elt F) fs [⟨Rect.whole S8000, p 44⟩]) ∗ rowPtW c k0_off183 k0_off183_inb ((rowM k0_off183 k0_off183_inb).view.writes (Elt F) fs [⟨Rect.whole S8000, p 45⟩]) ∗ rowPtW c k0_off187 k0_off187_inb ((rowM k0_off187 k0_off187_inb).view.writes (Elt F) fs [⟨Rect.whole S8000, p 46⟩]) ∗ rowPtW c k0_off191 k0_off191_inb ((rowM k0_off191 k0_off191_inb).view.writes (Elt F) fs [⟨Rect.whole S8000, p 47⟩]) ∗ rowPtW c k0_off195 k0_off195_inb ((rowM k0_off195 k0_off195_inb).view.writes (Elt F) fs [⟨Rect.whole S8000, p 48⟩]) ∗ rowPtW c k0_off199 k0_off199_inb ((rowM k0_off199 k0_off199_inb).view.writes (Elt F) fs [⟨Rect.whole S8000, p 49⟩]) ∗ rowPtW c k0_off203 k0_off203_inb ((rowM k0_off203 k0_off203_inb).view.writes (Elt F) fs [⟨Rect.whole S8000, p 50⟩]) ∗ rowPtW c k0_off207 k0_off207_inb ((rowM k0_off207 k0_off207_inb).view.writes (Elt F) fs [⟨Rect.whole S8000, p 51⟩]) ∗ rowPtW c k0_off211 k0_off211_inb ((rowM k0_off211 k0_off211_inb).view.writes (Elt F) fs [⟨Rect.whole S8000, p 52⟩]) ∗ rowPtW c k0_off215 k0_off215_inb ((rowM k0_off215 k0_off215_inb).view.writes (Elt F) fs [⟨Rect.whole S8000, p 53⟩]) ∗ rowPtW c k0_off219 k0_off219_inb ((rowM k0_off219 k0_off219_inb).view.writes (Elt F) fs [⟨Rect.whole S8000, p 54⟩]) ∗ rowPtW c k0_off223 k0_off223_inb ((rowM k0_off223 k0_off223_inb).view.writes (Elt F) fs [⟨Rect.whole S8000, p 55⟩]) ∗ rowPtW c k0_off227 k0_off227_inb ((rowM k0_off227 k0_off227_inb).view.writes (Elt F) fs [⟨Rect.whole S8000, p 56⟩]) ∗ rowPtW c k0_off231 k0_off231_inb ((rowM k0_off231 k0_off231_inb).view.writes (Elt F) fs [⟨Rect.whole S8000, p 57⟩]) ∗ rowPtW c k0_off235 k0_off235_inb ((rowM k0_off235 k0_off235_inb).view.writes (Elt F) fs [⟨Rect.whole S8000, p 58⟩]) ∗ rowPtW c k0_off239 k0_off239_inb ((rowM k0_off239 k0_off239_inb).view.writes (Elt F) fs [⟨Rect.whole S8000, p 59⟩]) ∗ rowPtW c k0_off243 k0_off243_inb ((rowM k0_off243 k0_off243_inb).view.writes (Elt F) fs [⟨Rect.whole S8000, p 60⟩]) ∗ rowPtW c k0_off247 k0_off247_inb ((rowM k0_off247 k0_off247_inb).view.writes (Elt F) fs [⟨Rect.whole S8000, p 61⟩]) ∗ rowPtW c k0_off251 k0_off251_inb ((rowM k0_off251 k0_off251_inb).view.writes (Elt F) fs [⟨Rect.whole S8000, p 62⟩]) ∗ rowPtW c k0_off255 k0_off255_inb ((rowM k0_off255 k0_off255_inb).view.writes (Elt F) fs [⟨Rect.whole S8000, p 63⟩]) ∗ rowPtW c k0_off259 k0_off259_inb ((rowM k0_off259 k0_off259_inb).view.writes (Elt F) fs [⟨Rect.whole S8000, p 64⟩]) ∗ rowPtW c k0_off263 k0_off263_inb ((rowM k0_off263 k0_off263_inb).view.writes (Elt F) fs [⟨Rect.whole S8000, p 65⟩]) ∗ rowPtW c k0_off267 k0_off267_inb ((rowM k0_off267 k0_off267_inb).view.writes (Elt F) fs [⟨Rect.whole S8000, p 66⟩]) ∗ rowPtW c k0_off271 k0_off271_inb ((rowM k0_off271 k0_off271_inb).view.writes (Elt F) fs [⟨Rect.whole S8000, p 67⟩]) ∗ rowPtW c k0_off275 k0_off275_inb ((rowM k0_off275 k0_off275_inb).view.writes (Elt F) fs [⟨Rect.whole S8000, p 68⟩]) ∗ rowPtW c k0_off279 k0_off279_inb ((rowM k0_off279 k0_off279_inb).view.writes (Elt F) fs [⟨Rect.whole S8000, p 69⟩]) ∗ rowPtW c k0_off283 k0_off283_inb ((rowM k0_off283 k0_off283_inb).view.writes (Elt F) fs [⟨Rect.whole S8000, p 70⟩]) ∗ rowPtW c k0_off287 k0_off287_inb ((rowM k0_off287 k0_off287_inb).view.writes (Elt F) fs [⟨Rect.whole S8000, p 71⟩]) ∗ rowPtW c k0_off291 k0_off291_inb ((rowM k0_off291 k0_off291_inb).view.writes (Elt F) fs [⟨Rect.whole S8000, p 72⟩]) ∗ rowPtW c k0_off295 k0_off295_inb ((rowM k0_off295 k0_off295_inb).view.writes (Elt F) fs [⟨Rect.whole S8000, p 73⟩]) ∗ rowPtW c k0_off299 k0_off299_inb ((rowM k0_off299 k0_off299_inb).view.writes (Elt F) fs [⟨Rect.whole S8000, p 74⟩]) ∗ rowPtW c k0_off303 k0_off303_inb ((rowM k0_off303 k0_off303_inb).view.writes (Elt F) fs [⟨Rect.whole S8000, p 75⟩]) ∗ rowPtW c k0_off307 k0_off307_inb ((rowM k0_off307 k0_off307_inb).view.writes (Elt F) fs [⟨Rect.whole S8000, p 76⟩]) ∗ rowPtW c k0_off311 k0_off311_inb ((rowM k0_off311 k0_off311_inb).view.writes (Elt F) fs [⟨Rect.whole S8000, p 77⟩]) ∗ rowPtW c k0_off315 k0_off315_inb ((rowM k0_off315 k0_off315_inb).view.writes (Elt F) fs [⟨Rect.whole S8000, p 78⟩]) ∗ rowPtW c k0_off319 k0_off319_inb ((rowM k0_off319 k0_off319_inb).view.writes (Elt F) fs [⟨Rect.whole S8000, p 79⟩]) ∗ rowPtW c k0_off323 k0_off323_inb ((rowM k0_off323 k0_off323_inb).view.writes (Elt F) fs [⟨Rect.whole S8000, p 80⟩]) ∗ rowPtW c k0_off327 k0_off327_inb ((rowM k0_off327 k0_off327_inb).view.writes (Elt F) fs [⟨Rect.whole S8000, p 81⟩]) ∗ rowPtW c k0_off331 k0_off331_inb ((rowM k0_off331 k0_off331_inb).view.writes (Elt F) fs [⟨Rect.whole S8000, p 82⟩]) ∗ rowPtW c k0_off335 k0_off335_inb ((rowM k0_off335 k0_off335_inb).view.writes (Elt F) fs [⟨Rect.whole S8000, p 83⟩]) ∗ rowPtW c k0_off339 k0_off339_inb ((rowM k0_off339 k0_off339_inb).view.writes (Elt F) fs [⟨Rect.whole S8000, p 84⟩]) ∗ rowPtW c k0_off343 k0_off343_inb ((rowM k0_off343 k0_off343_inb).view.writes (Elt F) fs [⟨Rect.whole S8000, p 85⟩]) ∗ rowPtW c k0_off347 k0_off347_inb ((rowM k0_off347 k0_off347_inb).view.writes (Elt F) fs [⟨Rect.whole S8000, p 86⟩]) ∗ rowPtW c k0_off351 k0_off351_inb ((rowM k0_off351 k0_off351_inb).view.writes (Elt F) fs [⟨Rect.whole S8000, p 87⟩]) ∗ rowPtW c k0_off355 k0_off355_inb ((rowM k0_off355 k0_off355_inb).view.writes (Elt F) fs [⟨Rect.whole S8000, p 88⟩]) ∗ rowPtW c k0_off359 k0_off359_inb ((rowM k0_off359 k0_off359_inb).view.writes (Elt F) fs [⟨Rect.whole S8000, p 89⟩]) ∗ rowPtW c k0_off363 k0_off363_inb ((rowM k0_off363 k0_off363_inb).view.writes (Elt F) fs [⟨Rect.whole S8000, p 90⟩]) ∗ rowPtW c k0_off367 k0_off367_inb ((rowM k0_off367 k0_off367_inb).view.writes (Elt F) fs [⟨Rect.whole S8000, p 91⟩]) ∗ rowPtW c k0_off371 k0_off371_inb ((rowM k0_off371 k0_off371_inb).view.writes (Elt F) fs [⟨Rect.whole S8000, p 92⟩]) ∗ rowPtW c k0_off375 k0_off375_inb ((rowM k0_off375 k0_off375_inb).view.writes (Elt F) fs [⟨Rect.whole S8000, p 93⟩]) ∗ rowPtW c k0_off379 k0_off379_inb ((rowM k0_off379 k0_off379_inb).view.writes (Elt F) fs [⟨Rect.whole S8000, p 94⟩]) ∗ rowPtW c k0_off383 k0_off383_inb ((rowM k0_off383 k0_off383_inb).view.writes (Elt F) fs [⟨Rect.whole S8000, p 95⟩]) ∗ rowPtW c k0_off387 k0_off387_inb ((rowM k0_off387 k0_off387_inb).view.writes (Elt F) fs [⟨Rect.whole S8000, p 96⟩]) ∗ rowPtW c k0_off391 k0_off391_inb ((rowM k0_off391 k0_off391_inb).view.writes (Elt F) fs [⟨Rect.whole S8000, p 97⟩]) ∗ rowPtW c k0_off395 k0_off395_inb ((rowM k0_off395 k0_off395_inb).view.writes (Elt F) fs [⟨Rect.whole S8000, p 98⟩]) ∗ rowPtW c k0_off399 k0_off399_inb ((rowM k0_off399 k0_off399_inb).view.writes (Elt F) fs [⟨Rect.whole S8000, p 99⟩]) ∗ rowPtW c k0_off403 k0_off403_inb ((rowM k0_off403 k0_off403_inb).view.writes (Elt F) fs [⟨Rect.whole S8000, p 100⟩]) ∗ rowPtW c k0_off407 k0_off407_inb ((rowM k0_off407 k0_off407_inb).view.writes (Elt F) fs [⟨Rect.whole S8000, p 101⟩]) ∗ rowPtW c k0_off411 k0_off411_inb ((rowM k0_off411 k0_off411_inb).view.writes (Elt F) fs [⟨Rect.whole S8000, p 102⟩]) ∗ rowPtW c k0_off415 k0_off415_inb ((rowM k0_off415 k0_off415_inb).view.writes (Elt F) fs [⟨Rect.whole S8000, p 103⟩]) ∗ rowPtW c k0_off419 k0_off419_inb ((rowM k0_off419 k0_off419_inb).view.writes (Elt F) fs [⟨Rect.whole S8000, p 104⟩]) ∗ rowPtW c k0_off423 k0_off423_inb ((rowM k0_off423 k0_off423_inb).view.writes (Elt F) fs [⟨Rect.whole S8000, p 105⟩]) ∗ rowPtW c k0_off427 k0_off427_inb ((rowM k0_off427 k0_off427_inb).view.writes (Elt F) fs [⟨Rect.whole S8000, p 106⟩]) ∗ rowPtW c k0_off431 k0_off431_inb ((rowM k0_off431 k0_off431_inb).view.writes (Elt F) fs [⟨Rect.whole S8000, p 107⟩]) ∗ rowPtW c k0_off435 k0_off435_inb ((rowM k0_off435 k0_off435_inb).view.writes (Elt F) fs [⟨Rect.whole S8000, p 108⟩]) ∗ rowPtW c k0_off439 k0_off439_inb ((rowM k0_off439 k0_off439_inb).view.writes (Elt F) fs [⟨Rect.whole S8000, p 109⟩]) ∗ rowPtW c k0_off443 k0_off443_inb ((rowM k0_off443 k0_off443_inb).view.writes (Elt F) fs [⟨Rect.whole S8000, p 110⟩]) ∗ rowPtW c k0_off447 k0_off447_inb ((rowM k0_off447 k0_off447_inb).view.writes (Elt F) fs [⟨Rect.whole S8000, p 111⟩]) ∗ rowPtW c k0_off451 k0_off451_inb ((rowM k0_off451 k0_off451_inb).view.writes (Elt F) fs [⟨Rect.whole S8000, p 112⟩]) ∗ rowPtW c k0_off455 k0_off455_inb ((rowM k0_off455 k0_off455_inb).view.writes (Elt F) fs [⟨Rect.whole S8000, p 113⟩]) ∗ rowPtW c k0_off459 k0_off459_inb ((rowM k0_off459 k0_off459_inb).view.writes (Elt F) fs [⟨Rect.whole S8000, p 114⟩]) ∗ rowPtW c k0_off463 k0_off463_inb ((rowM k0_off463 k0_off463_inb).view.writes (Elt F) fs [⟨Rect.whole S8000, p 115⟩]) ∗ rowPtW c k0_off467 k0_off467_inb ((rowM k0_off467 k0_off467_inb).view.writes (Elt F) fs [⟨Rect.whole S8000, p 116⟩]) ∗ rowPtW c k0_off471 k0_off471_inb ((rowM k0_off471 k0_off471_inb).view.writes (Elt F) fs [⟨Rect.whole S8000, p 117⟩]) ∗ rowPtW c k0_off475 k0_off475_inb ((rowM k0_off475 k0_off475_inb).view.writes (Elt F) fs [⟨Rect.whole S8000, p 118⟩]) ∗ rowPtW c k0_off479 k0_off479_inb ((rowM k0_off479 k0_off479_inb).view.writes (Elt F) fs [⟨Rect.whole S8000, p 119⟩]) ∗ rowPtW c k0_off483 k0_off483_inb ((rowM k0_off483 k0_off483_inb).view.writes (Elt F) fs [⟨Rect.whole S8000, p 120⟩]) ∗ rowPtW c k0_off487 k0_off487_inb ((rowM k0_off487 k0_off487_inb).view.writes (Elt F) fs [⟨Rect.whole S8000, p 121⟩]) ∗ rowPtW c k0_off491 k0_off491_inb ((rowM k0_off491 k0_off491_inb).view.writes (Elt F) fs [⟨Rect.whole S8000, p 122⟩]) ∗ rowPtW c k0_off495 k0_off495_inb ((rowM k0_off495 k0_off495_inb).view.writes (Elt F) fs [⟨Rect.whole S8000, p 123⟩]) ∗ rowPtW c k0_off499 k0_off499_inb ((rowM k0_off499 k0_off499_inb).view.writes (Elt F) fs [⟨Rect.whole S8000, p 124⟩]) ∗ rowPtW c k0_off503 k0_off503_inb ((rowM k0_off503 k0_off503_inb).view.writes (Elt F) fs [⟨Rect.whole S8000, p 125⟩]) ∗ rowPtW c k0_off507 k0_off507_inb ((rowM k0_off507 k0_off507_inb).view.writes (Elt F) fs [⟨Rect.whole S8000, p 126⟩]) ∗ rowPtW c k0_off511 k0_off511_inb ((rowM k0_off511 k0_off511_inb).view.writes (Elt F) fs [⟨Rect.whole S8000, p 127⟩])) : sProp 𝕄)
      ⊢ (scM0_0.view.loc (c : Thread nD τ) ↦[scM0_0.view.set]{fullShare} (Memref.isWhole_whole cc0_scratch0).unread (Val := Elt F) (blockOf p)) :=
  (Entails.of_eq (((bigSep_univ_eq_bigSepL rowsL rowsL_univ rowsL_nodup
    (fun k : Fin 128 => rowPtW (F := F) c (offT k) (inbT k) ((rowM (offT k) (inbT k)).view.writes (Elt F) fs [⟨Rect.whole S8000, p k⟩]))).trans (by sl_kernel_rfl)).symm)).trans
    (rows_join_big offT inbT hoffT c fs p)

-- END OF GENERATED BLOCK

end Cert.KernelIdeal.H

end
-- ==== Proof.KI.R0Run.lean ====
/-
  Region 0's kernel body, run once at a symbolic grid point: 128 row copies out of the distance table, each on its own
  semaphore and into its own row of the scratch block, the 128 waits, then the two products and the store of their sum.
  The table is held as one read share per semaphore, since two ids of a tile may name the same row.
-/
import proofs.«403333_j71021579206675_3_alg».proof.Proof.KI.R0Rows

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
noncomputable def kernelRun0 (c : Dev nD) (i : grid0.Coords) (arg3 : Memref sig .tc .vmem S8000x1024 .bf16) (harg3 : arg3.IsWhole) (arg4 : Memref sig .tc .vmem S128x1024 .f32) (harg4 : arg4.IsWhole)
    (xt : Vec F S1024 .i32) (x0 : Vec F S8000x1024 .bf16) (fh0 : HbBuf0 (F := F) c hbM0_0)
    (hxt : ∀ y : S1024.Idx, (xt y : BitVec 32).toNat < 8000) :
    { L1 : List (View.Piece (Elt F) S128x1024 .f32) //
      ∀ (W : Waits sig Unit) (K : PUnit → sProp 𝕄),
        iprop(owns (c : Thread nD τ) tblM0 fullShare xt ∗ owns (c : Thread nD τ) arg3 fullShare x0 ∗ (∃ d, owns (c : Thread nD τ) arg4 fullShare d) ∗ (∃ d, owns (c : Thread nD τ) scM0_0 fullShare d) ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ hbPtq c hbM0_0 (Transfers.shareDrop fullShare 131) fh0 ∗ hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ owes (c : Thread nD τ) 0 W
            ∗ (iprop(owns (c : Thread nD τ) tblM0 fullShare xt ∗ owns (c : Thread nD τ) arg3 fullShare x0 ∗ (∃ f, arg4.view.loc (c : Thread nD τ) ↦[arg4.view.set]{fullShare} arg4.view.writes (Elt F) f L1) ∗ (∃ d, owns (c : Thread nD τ) scM0_0 fullShare d) ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ hbPtq c hbM0_0 (Transfers.shareDrop fullShare 131) fh0 ∗ hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ (∃ W', owes (c : Thread nD τ) 0 W')) -∗ K ⟨⟩))
          ⊢ wp frame (wpE (defs₀ (F := F)) Variants.none c none) Set.univ (cc0__gather_select_kernel i tblM0 (Memref.isWhole_whole _) hbM0_0 (Memref.isWhole_whole _) arg3 harg3 arg4 harg4 scM0_0 (Memref.isWhole_whole _) cc0_scratch1) K } := by
  have hx : ∀ (R : LoadRect S1024) (j : R.shape.Idx), (tblM0.view.readAt (Elt F) R ((Memref.isWhole_whole main_arg0).unread xt) j : BitVec 32).toNat < 8000 :=
    fun R j => by rw [Memref.IsWhole.readAt_unread]; exact hxt _
  refine ⟨?_, fun W K => ?run⟩
  case run =>
    simp only [cc0__gather_select_kernel_eq_skeleton]; unfold cc0__gather_select_kernel_skel
    unfold owns
    iintro ⟨⟨%ft, %hft, HT⟩, ⟨%f0, %hf0, H0⟩, ⟨%d1, %f1, -, H1⟩, ⟨%ds0, %fs0, -, HS0⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127, Hr, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63, Ht64, Ht65, Ht66, Ht67, Ht68, Ht69, Ht70, Ht71, Ht72, Ht73, Ht74, Ht75, Ht76, Ht77, Ht78, Ht79, Ht80, Ht81, Ht82, Ht83, Ht84, Ht85, Ht86, Ht87, Ht88, Ht89, Ht90, Ht91, Ht92, Ht93, Ht94, Ht95, Ht96, Ht97, Ht98, Ht99, Ht100, Ht101, Ht102, Ht103, Ht104, Ht105, Ht106, Ht107, Ht108, Ht109, Ht110, Ht111, Ht112, Ht113, Ht114, Ht115, Ht116, Ht117, Ht118, Ht119, Ht120, Ht121, Ht122, Ht123, Ht124, Ht125, Ht126, Ht127, Ht128, Ht129, Ht130, HW, Hk⟩
    obtain rfl := (Memref.isWhole_whole main_arg0).eq_unread hft; obtain rfl := harg3.eq_unread hf0
    -- the scratch block row by row, each row held by its own elements while its copy is in flight
    ihave HS := (rows_split c fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HR66, HR67, HR68, HR69, HR70, HR71, HR72, HR73, HR74, HR75, HR76, HR77, HR78, HR79, HR80, HR81, HR82, HR83, HR84, HR85, HR86, HR87, HR88, HR89, HR90, HR91, HR92, HR93, HR94, HR95, HR96, HR97, HR98, HR99, HR100, HR101, HR102, HR103, HR104, HR105, HR106, HR107, HR108, HR109, HR110, HR111, HR112, HR113, HR114, HR115, HR116, HR117, HR118, HR119, HR120, HR121, HR122, HR123, HR124, HR125, HR126, HR127⟩
    sl_exec (disch := exact chk_of_lt _ (hx _ _))
    -- every copy waited for: the rows joined back into the block, read as one function of the delivered rows
    ihave HS0 := (rows_join c fs0 (fun
      | ⟨0, _⟩ => kernelRun0.sl.dma1 c i xt fh0 hx
      | ⟨1, _⟩ => kernelRun0.sl.dma2 c i xt fh0 hx
      | ⟨2, _⟩ => kernelRun0.sl.dma3 c i xt fh0 hx
      | ⟨3, _⟩ => kernelRun0.sl.dma4 c i xt fh0 hx
      | ⟨4, _⟩ => kernelRun0.sl.dma5 c i xt fh0 hx
      | ⟨5, _⟩ => kernelRun0.sl.dma6 c i xt fh0 hx
      | ⟨6, _⟩ => kernelRun0.sl.dma7 c i xt fh0 hx
      | ⟨7, _⟩ => kernelRun0.sl.dma8 c i xt fh0 hx
      | ⟨8, _⟩ => kernelRun0.sl.dma9 c i xt fh0 hx
      | ⟨9, _⟩ => kernelRun0.sl.dma10 c i xt fh0 hx
      | ⟨10, _⟩ => kernelRun0.sl.dma11 c i xt fh0 hx
      | ⟨11, _⟩ => kernelRun0.sl.dma12 c i xt fh0 hx
      | ⟨12, _⟩ => kernelRun0.sl.dma13 c i xt fh0 hx
      | ⟨13, _⟩ => kernelRun0.sl.dma14 c i xt fh0 hx
      | ⟨14, _⟩ => kernelRun0.sl.dma15 c i xt fh0 hx
      | ⟨15, _⟩ => kernelRun0.sl.dma16 c i xt fh0 hx
      | ⟨16, _⟩ => kernelRun0.sl.dma17 c i xt fh0 hx
      | ⟨17, _⟩ => kernelRun0.sl.dma18 c i xt fh0 hx
      | ⟨18, _⟩ => kernelRun0.sl.dma19 c i xt fh0 hx
      | ⟨19, _⟩ => kernelRun0.sl.dma20 c i xt fh0 hx
      | ⟨20, _⟩ => kernelRun0.sl.dma21 c i xt fh0 hx
      | ⟨21, _⟩ => kernelRun0.sl.dma22 c i xt fh0 hx
      | ⟨22, _⟩ => kernelRun0.sl.dma23 c i xt fh0 hx
      | ⟨23, _⟩ => kernelRun0.sl.dma24 c i xt fh0 hx
      | ⟨24, _⟩ => kernelRun0.sl.dma25 c i xt fh0 hx
      | ⟨25, _⟩ => kernelRun0.sl.dma26 c i xt fh0 hx
      | ⟨26, _⟩ => kernelRun0.sl.dma27 c i xt fh0 hx
      | ⟨27, _⟩ => kernelRun0.sl.dma28 c i xt fh0 hx
      | ⟨28, _⟩ => kernelRun0.sl.dma29 c i xt fh0 hx
      | ⟨29, _⟩ => kernelRun0.sl.dma30 c i xt fh0 hx
      | ⟨30, _⟩ => kernelRun0.sl.dma31 c i xt fh0 hx
      | ⟨31, _⟩ => kernelRun0.sl.dma32 c i xt fh0 hx
      | ⟨32, _⟩ => kernelRun0.sl.dma33 c i xt fh0 hx
      | ⟨33, _⟩ => kernelRun0.sl.dma34 c i xt fh0 hx
      | ⟨34, _⟩ => kernelRun0.sl.dma35 c i xt fh0 hx
      | ⟨35, _⟩ => kernelRun0.sl.dma36 c i xt fh0 hx
      | ⟨36, _⟩ => kernelRun0.sl.dma37 c i xt fh0 hx
      | ⟨37, _⟩ => kernelRun0.sl.dma38 c i xt fh0 hx
      | ⟨38, _⟩ => kernelRun0.sl.dma39 c i xt fh0 hx
      | ⟨39, _⟩ => kernelRun0.sl.dma40 c i xt fh0 hx
      | ⟨40, _⟩ => kernelRun0.sl.dma41 c i xt fh0 hx
      | ⟨41, _⟩ => kernelRun0.sl.dma42 c i xt fh0 hx
      | ⟨42, _⟩ => kernelRun0.sl.dma43 c i xt fh0 hx
      | ⟨43, _⟩ => kernelRun0.sl.dma44 c i xt fh0 hx
      | ⟨44, _⟩ => kernelRun0.sl.dma45 c i xt fh0 hx
      | ⟨45, _⟩ => kernelRun0.sl.dma46 c i xt fh0 hx
      | ⟨46, _⟩ => kernelRun0.sl.dma47 c i xt fh0 hx
      | ⟨47, _⟩ => kernelRun0.sl.dma48 c i xt fh0 hx
      | ⟨48, _⟩ => kernelRun0.sl.dma49 c i xt fh0 hx
      | ⟨49, _⟩ => kernelRun0.sl.dma50 c i xt fh0 hx
      | ⟨50, _⟩ => kernelRun0.sl.dma51 c i xt fh0 hx
      | ⟨51, _⟩ => kernelRun0.sl.dma52 c i xt fh0 hx
      | ⟨52, _⟩ => kernelRun0.sl.dma53 c i xt fh0 hx
      | ⟨53, _⟩ => kernelRun0.sl.dma54 c i xt fh0 hx
      | ⟨54, _⟩ => kernelRun0.sl.dma55 c i xt fh0 hx
      | ⟨55, _⟩ => kernelRun0.sl.dma56 c i xt fh0 hx
      | ⟨56, _⟩ => kernelRun0.sl.dma57 c i xt fh0 hx
      | ⟨57, _⟩ => kernelRun0.sl.dma58 c i xt fh0 hx
      | ⟨58, _⟩ => kernelRun0.sl.dma59 c i xt fh0 hx
      | ⟨59, _⟩ => kernelRun0.sl.dma60 c i xt fh0 hx
      | ⟨60, _⟩ => kernelRun0.sl.dma61 c i xt fh0 hx
      | ⟨61, _⟩ => kernelRun0.sl.dma62 c i xt fh0 hx
      | ⟨62, _⟩ => kernelRun0.sl.dma63 c i xt fh0 hx
      | ⟨63, _⟩ => kernelRun0.sl.dma64 c i xt fh0 hx
      | ⟨64, _⟩ => kernelRun0.sl.dma65 c i xt fh0 hx
      | ⟨65, _⟩ => kernelRun0.sl.dma66 c i xt fh0 hx
      | ⟨66, _⟩ => kernelRun0.sl.dma67 c i xt fh0 hx
      | ⟨67, _⟩ => kernelRun0.sl.dma68 c i xt fh0 hx
      | ⟨68, _⟩ => kernelRun0.sl.dma69 c i xt fh0 hx
      | ⟨69, _⟩ => kernelRun0.sl.dma70 c i xt fh0 hx
      | ⟨70, _⟩ => kernelRun0.sl.dma71 c i xt fh0 hx
      | ⟨71, _⟩ => kernelRun0.sl.dma72 c i xt fh0 hx
      | ⟨72, _⟩ => kernelRun0.sl.dma73 c i xt fh0 hx
      | ⟨73, _⟩ => kernelRun0.sl.dma74 c i xt fh0 hx
      | ⟨74, _⟩ => kernelRun0.sl.dma75 c i xt fh0 hx
      | ⟨75, _⟩ => kernelRun0.sl.dma76 c i xt fh0 hx
      | ⟨76, _⟩ => kernelRun0.sl.dma77 c i xt fh0 hx
      | ⟨77, _⟩ => kernelRun0.sl.dma78 c i xt fh0 hx
      | ⟨78, _⟩ => kernelRun0.sl.dma79 c i xt fh0 hx
      | ⟨79, _⟩ => kernelRun0.sl.dma80 c i xt fh0 hx
      | ⟨80, _⟩ => kernelRun0.sl.dma81 c i xt fh0 hx
      | ⟨81, _⟩ => kernelRun0.sl.dma82 c i xt fh0 hx
      | ⟨82, _⟩ => kernelRun0.sl.dma83 c i xt fh0 hx
      | ⟨83, _⟩ => kernelRun0.sl.dma84 c i xt fh0 hx
      | ⟨84, _⟩ => kernelRun0.sl.dma85 c i xt fh0 hx
      | ⟨85, _⟩ => kernelRun0.sl.dma86 c i xt fh0 hx
      | ⟨86, _⟩ => kernelRun0.sl.dma87 c i xt fh0 hx
      | ⟨87, _⟩ => kernelRun0.sl.dma88 c i xt fh0 hx
      | ⟨88, _⟩ => kernelRun0.sl.dma89 c i xt fh0 hx
      | ⟨89, _⟩ => kernelRun0.sl.dma90 c i xt fh0 hx
      | ⟨90, _⟩ => kernelRun0.sl.dma91 c i xt fh0 hx
      | ⟨91, _⟩ => kernelRun0.sl.dma92 c i xt fh0 hx
      | ⟨92, _⟩ => kernelRun0.sl.dma93 c i xt fh0 hx
      | ⟨93, _⟩ => kernelRun0.sl.dma94 c i xt fh0 hx
      | ⟨94, _⟩ => kernelRun0.sl.dma95 c i xt fh0 hx
      | ⟨95, _⟩ => kernelRun0.sl.dma96 c i xt fh0 hx
      | ⟨96, _⟩ => kernelRun0.sl.dma97 c i xt fh0 hx
      | ⟨97, _⟩ => kernelRun0.sl.dma98 c i xt fh0 hx
      | ⟨98, _⟩ => kernelRun0.sl.dma99 c i xt fh0 hx
      | ⟨99, _⟩ => kernelRun0.sl.dma100 c i xt fh0 hx
      | ⟨100, _⟩ => kernelRun0.sl.dma101 c i xt fh0 hx
      | ⟨101, _⟩ => kernelRun0.sl.dma102 c i xt fh0 hx
      | ⟨102, _⟩ => kernelRun0.sl.dma103 c i xt fh0 hx
      | ⟨103, _⟩ => kernelRun0.sl.dma104 c i xt fh0 hx
      | ⟨104, _⟩ => kernelRun0.sl.dma105 c i xt fh0 hx
      | ⟨105, _⟩ => kernelRun0.sl.dma106 c i xt fh0 hx
      | ⟨106, _⟩ => kernelRun0.sl.dma107 c i xt fh0 hx
      | ⟨107, _⟩ => kernelRun0.sl.dma108 c i xt fh0 hx
      | ⟨108, _⟩ => kernelRun0.sl.dma109 c i xt fh0 hx
      | ⟨109, _⟩ => kernelRun0.sl.dma110 c i xt fh0 hx
      | ⟨110, _⟩ => kernelRun0.sl.dma111 c i xt fh0 hx
      | ⟨111, _⟩ => kernelRun0.sl.dma112 c i xt fh0 hx
      | ⟨112, _⟩ => kernelRun0.sl.dma113 c i xt fh0 hx
      | ⟨113, _⟩ => kernelRun0.sl.dma114 c i xt fh0 hx
      | ⟨114, _⟩ => kernelRun0.sl.dma115 c i xt fh0 hx
      | ⟨115, _⟩ => kernelRun0.sl.dma116 c i xt fh0 hx
      | ⟨116, _⟩ => kernelRun0.sl.dma117 c i xt fh0 hx
      | ⟨117, _⟩ => kernelRun0.sl.dma118 c i xt fh0 hx
      | ⟨118, _⟩ => kernelRun0.sl.dma119 c i xt fh0 hx
      | ⟨119, _⟩ => kernelRun0.sl.dma120 c i xt fh0 hx
      | ⟨120, _⟩ => kernelRun0.sl.dma121 c i xt fh0 hx
      | ⟨121, _⟩ => kernelRun0.sl.dma122 c i xt fh0 hx
      | ⟨122, _⟩ => kernelRun0.sl.dma123 c i xt fh0 hx
      | ⟨123, _⟩ => kernelRun0.sl.dma124 c i xt fh0 hx
      | ⟨124, _⟩ => kernelRun0.sl.dma125 c i xt fh0 hx
      | ⟨125, _⟩ => kernelRun0.sl.dma126 c i xt fh0 hx
      | ⟨126, _⟩ => kernelRun0.sl.dma127 c i xt fh0 hx
      | ⟨127, _⟩ => kernelRun0.sl.dma128 c i xt fh0 hx
      | ⟨_ + 128, h⟩ => absurd h (Nat.not_lt.2 (Nat.le_add_left _ _)))) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76 HR77 HR78 HR79 HR80 HR81 HR82 HR83 HR84 HR85 HR86 HR87 HR88 HR89 HR90 HR91 HR92 HR93 HR94 HR95 HR96 HR97 HR98 HR99 HR100 HR101 HR102 HR103 HR104 HR105 HR106 HR107 HR108 HR109 HR110 HR111 HR112 HR113 HR114 HR115 HR116 HR117 HR118 HR119 HR120 HR121 HR122 HR123 HR124 HR125 HR126 HR127]
    ·
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      isplitl [HR39]; · iexact HR39
      isplitl [HR40]; · iexact HR40
      isplitl [HR41]; · iexact HR41
      isplitl [HR42]; · iexact HR42
      isplitl [HR43]; · iexact HR43
      isplitl [HR44]; · iexact HR44
      isplitl [HR45]; · iexact HR45
      isplitl [HR46]; · iexact HR46
      isplitl [HR47]; · iexact HR47
      isplitl [HR48]; · iexact HR48
      isplitl [HR49]; · iexact HR49
      isplitl [HR50]; · iexact HR50
      isplitl [HR51]; · iexact HR51
      isplitl [HR52]; · iexact HR52
      isplitl [HR53]; · iexact HR53
      isplitl [HR54]; · iexact HR54
      isplitl [HR55]; · iexact HR55
      isplitl [HR56]; · iexact HR56
      isplitl [HR57]; · iexact HR57
      isplitl [HR58]; · iexact HR58
      isplitl [HR59]; · iexact HR59
      isplitl [HR60]; · iexact HR60
      isplitl [HR61]; · iexact HR61
      isplitl [HR62]; · iexact HR62
      isplitl [HR63]; · iexact HR63
      isplitl [HR64]; · iexact HR64
      isplitl [HR65]; · iexact HR65
      isplitl [HR66]; · iexact HR66
      isplitl [HR67]; · iexact HR67
      isplitl [HR68]; · iexact HR68
      isplitl [HR69]; · iexact HR69
      isplitl [HR70]; · iexact HR70
      isplitl [HR71]; · iexact HR71
      isplitl [HR72]; · iexact HR72
      isplitl [HR73]; · iexact HR73
      isplitl [HR74]; · iexact HR74
      isplitl [HR75]; · iexact HR75
      isplitl [HR76]; · iexact HR76
      isplitl [HR77]; · iexact HR77
      isplitl [HR78]; · iexact HR78
      isplitl [HR79]; · iexact HR79
      isplitl [HR80]; · iexact HR80
      isplitl [HR81]; · iexact HR81
      isplitl [HR82]; · iexact HR82
      isplitl [HR83]; · iexact HR83
      isplitl [HR84]; · iexact HR84
      isplitl [HR85]; · iexact HR85
      isplitl [HR86]; · iexact HR86
      isplitl [HR87]; · iexact HR87
      isplitl [HR88]; · iexact HR88
      isplitl [HR89]; · iexact HR89
      isplitl [HR90]; · iexact HR90
      isplitl [HR91]; · iexact HR91
      isplitl [HR92]; · iexact HR92
      isplitl [HR93]; · iexact HR93
      isplitl [HR94]; · iexact HR94
      isplitl [HR95]; · iexact HR95
      isplitl [HR96]; · iexact HR96
      isplitl [HR97]; · iexact HR97
      isplitl [HR98]; · iexact HR98
      isplitl [HR99]; · iexact HR99
      isplitl [HR100]; · iexact HR100
      isplitl [HR101]; · iexact HR101
      isplitl [HR102]; · iexact HR102
      isplitl [HR103]; · iexact HR103
      isplitl [HR104]; · iexact HR104
      isplitl [HR105]; · iexact HR105
      isplitl [HR106]; · iexact HR106
      isplitl [HR107]; · iexact HR107
      isplitl [HR108]; · iexact HR108
      isplitl [HR109]; · iexact HR109
      isplitl [HR110]; · iexact HR110
      isplitl [HR111]; · iexact HR111
      isplitl [HR112]; · iexact HR112
      isplitl [HR113]; · iexact HR113
      isplitl [HR114]; · iexact HR114
      isplitl [HR115]; · iexact HR115
      isplitl [HR116]; · iexact HR116
      isplitl [HR117]; · iexact HR117
      isplitl [HR118]; · iexact HR118
      isplitl [HR119]; · iexact HR119
      isplitl [HR120]; · iexact HR120
      isplitl [HR121]; · iexact HR121
      isplitl [HR122]; · iexact HR122
      isplitl [HR123]; · iexact HR123
      isplitl [HR124]; · iexact HR124
      isplitl [HR125]; · iexact HR125
      isplitl [HR126]; · iexact HR126
      iexact HR127
    sl_exec
    sl_step
    iapply Hk
    isplitl [HT]
    · iexists _; isplitr; · ipureintro; exact (Memref.isWhole_whole main_arg0).read_unread _
      iexact HT
    isplitl [H0]
    · iexists _; isplitr; · ipureintro; exact harg3.read_unread _
      iexact H0
    isplitl [H1]; · iexists _; iexact H1
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    isplitl [Hq70]; · iexact Hq70
    isplitl [Hq71]; · iexact Hq71
    isplitl [Hq72]; · iexact Hq72
    isplitl [Hq73]; · iexact Hq73
    isplitl [Hq74]; · iexact Hq74
    isplitl [Hq75]; · iexact Hq75
    isplitl [Hq76]; · iexact Hq76
    isplitl [Hq77]; · iexact Hq77
    isplitl [Hq78]; · iexact Hq78
    isplitl [Hq79]; · iexact Hq79
    isplitl [Hq80]; · iexact Hq80
    isplitl [Hq81]; · iexact Hq81
    isplitl [Hq82]; · iexact Hq82
    isplitl [Hq83]; · iexact Hq83
    isplitl [Hq84]; · iexact Hq84
    isplitl [Hq85]; · iexact Hq85
    isplitl [Hq86]; · iexact Hq86
    isplitl [Hq87]; · iexact Hq87
    isplitl [Hq88]; · iexact Hq88
    isplitl [Hq89]; · iexact Hq89
    isplitl [Hq90]; · iexact Hq90
    isplitl [Hq91]; · iexact Hq91
    isplitl [Hq92]; · iexact Hq92
    isplitl [Hq93]; · iexact Hq93
    isplitl [Hq94]; · iexact Hq94
    isplitl [Hq95]; · iexact Hq95
    isplitl [Hq96]; · iexact Hq96
    isplitl [Hq97]; · iexact Hq97
    isplitl [Hq98]; · iexact Hq98
    isplitl [Hq99]; · iexact Hq99
    isplitl [Hq100]; · iexact Hq100
    isplitl [Hq101]; · iexact Hq101
    isplitl [Hq102]; · iexact Hq102
    isplitl [Hq103]; · iexact Hq103
    isplitl [Hq104]; · iexact Hq104
    isplitl [Hq105]; · iexact Hq105
    isplitl [Hq106]; · iexact Hq106
    isplitl [Hq107]; · iexact Hq107
    isplitl [Hq108]; · iexact Hq108
    isplitl [Hq109]; · iexact Hq109
    isplitl [Hq110]; · iexact Hq110
    isplitl [Hq111]; · iexact Hq111
    isplitl [Hq112]; · iexact Hq112
    isplitl [Hq113]; · iexact Hq113
    isplitl [Hq114]; · iexact Hq114
    isplitl [Hq115]; · iexact Hq115
    isplitl [Hq116]; · iexact Hq116
    isplitl [Hq117]; · iexact Hq117
    isplitl [Hq118]; · iexact Hq118
    isplitl [Hq119]; · iexact Hq119
    isplitl [Hq120]; · iexact Hq120
    isplitl [Hq121]; · iexact Hq121
    isplitl [Hq122]; · iexact Hq122
    isplitl [Hq123]; · iexact Hq123
    isplitl [Hq124]; · iexact Hq124
    isplitl [Hq125]; · iexact Hq125
    isplitl [Hq126]; · iexact Hq126
    isplitl [Hq127]; · iexact Hq127
    isplitl [Hr]; · iexact Hr
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    isplitl [Ht33]; · iexact Ht33
    isplitl [Ht34]; · iexact Ht34
    isplitl [Ht35]; · iexact Ht35
    isplitl [Ht36]; · iexact Ht36
    isplitl [Ht37]; · iexact Ht37
    isplitl [Ht38]; · iexact Ht38
    isplitl [Ht39]; · iexact Ht39
    isplitl [Ht40]; · iexact Ht40
    isplitl [Ht41]; · iexact Ht41
    isplitl [Ht42]; · iexact Ht42
    isplitl [Ht43]; · iexact Ht43
    isplitl [Ht44]; · iexact Ht44
    isplitl [Ht45]; · iexact Ht45
    isplitl [Ht46]; · iexact Ht46
    isplitl [Ht47]; · iexact Ht47
    isplitl [Ht48]; · iexact Ht48
    isplitl [Ht49]; · iexact Ht49
    isplitl [Ht50]; · iexact Ht50
    isplitl [Ht51]; · iexact Ht51
    isplitl [Ht52]; · iexact Ht52
    isplitl [Ht53]; · iexact Ht53
    isplitl [Ht54]; · iexact Ht54
    isplitl [Ht55]; · iexact Ht55
    isplitl [Ht56]; · iexact Ht56
    isplitl [Ht57]; · iexact Ht57
    isplitl [Ht58]; · iexact Ht58
    isplitl [Ht59]; · iexact Ht59
    isplitl [Ht60]; · iexact Ht60
    isplitl [Ht61]; · iexact Ht61
    isplitl [Ht62]; · iexact Ht62
    isplitl [Ht63]; · iexact Ht63
    isplitl [Ht64]; · iexact Ht64
    isplitl [Ht65]; · iexact Ht65
    isplitl [Ht66]; · iexact Ht66
    isplitl [Ht67]; · iexact Ht67
    isplitl [Ht68]; · iexact Ht68
    isplitl [Ht69]; · iexact Ht69
    isplitl [Ht70]; · iexact Ht70
    isplitl [Ht71]; · iexact Ht71
    isplitl [Ht72]; · iexact Ht72
    isplitl [Ht73]; · iexact Ht73
    isplitl [Ht74]; · iexact Ht74
    isplitl [Ht75]; · iexact Ht75
    isplitl [Ht76]; · iexact Ht76
    isplitl [Ht77]; · iexact Ht77
    isplitl [Ht78]; · iexact Ht78
    isplitl [Ht79]; · iexact Ht79
    isplitl [Ht80]; · iexact Ht80
    isplitl [Ht81]; · iexact Ht81
    isplitl [Ht82]; · iexact Ht82
    isplitl [Ht83]; · iexact Ht83
    isplitl [Ht84]; · iexact Ht84
    isplitl [Ht85]; · iexact Ht85
    isplitl [Ht86]; · iexact Ht86
    isplitl [Ht87]; · iexact Ht87
    isplitl [Ht88]; · iexact Ht88
    isplitl [Ht89]; · iexact Ht89
    isplitl [Ht90]; · iexact Ht90
    isplitl [Ht91]; · iexact Ht91
    isplitl [Ht92]; · iexact Ht92
    isplitl [Ht93]; · iexact Ht93
    isplitl [Ht94]; · iexact Ht94
    isplitl [Ht95]; · iexact Ht95
    isplitl [Ht96]; · iexact Ht96
    isplitl [Ht97]; · iexact Ht97
    isplitl [Ht98]; · iexact Ht98
    isplitl [Ht99]; · iexact Ht99
    isplitl [Ht100]; · iexact Ht100
    isplitl [Ht101]; · iexact Ht101
    isplitl [Ht102]; · iexact Ht102
    isplitl [Ht103]; · iexact Ht103
    isplitl [Ht104]; · iexact Ht104
    isplitl [Ht105]; · iexact Ht105
    isplitl [Ht106]; · iexact Ht106
    isplitl [Ht107]; · iexact Ht107
    isplitl [Ht108]; · iexact Ht108
    isplitl [Ht109]; · iexact Ht109
    isplitl [Ht110]; · iexact Ht110
    isplitl [Ht111]; · iexact Ht111
    isplitl [Ht112]; · iexact Ht112
    isplitl [Ht113]; · iexact Ht113
    isplitl [Ht114]; · iexact Ht114
    isplitl [Ht115]; · iexact Ht115
    isplitl [Ht116]; · iexact Ht116
    isplitl [Ht117]; · iexact Ht117
    isplitl [Ht118]; · iexact Ht118
    isplitl [Ht119]; · iexact Ht119
    isplitl [Ht120]; · iexact Ht120
    isplitl [Ht121]; · iexact Ht121
    isplitl [Ht122]; · iexact Ht122
    isplitl [Ht123]; · iexact Ht123
    isplitl [Ht124]; · iexact Ht124
    isplitl [Ht125]; · iexact Ht125
    isplitl [Ht126]; · iexact Ht126
    isplitl [Ht127]; · iexact Ht127
    isplitl [Ht128]; · iexact Ht128
    isplitl [Ht129]; · iexact Ht129
    isplitl [Ht130]; · iexact Ht130
    iexists _; iexact HW

end Cert.KernelIdeal.H

end
-- ==== Proof.KI.R0Payload.lean ====
/- One row copy of region 0's gather, read as a value: the row of the distance table that the copy delivers into scratch
   row k is the row the k-th id of the tile names, so the delivered payload is row k of the gathered block. -/
import proofs.«403333_j71021579206675_3_alg».proof.Proof.KI.R0Defs
import Idealize.ShloMosaic.Lib.WholeRead
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Entry j of a row of 8000, matched with a 1 × 8000 window, is the window's entry (0, j). -/
theorem hbRow_reshape (h : S8000.numel = S1x8000.numel) (j : S8000.Idx) :
    Shape.reshapeEquiv h j = (ValueIdx.ix2 (0 : Fin 1) (⟨(j 0).val, (j 0).isLt⟩ : Fin 8000) : S1x8000.Idx) :=
  Shape.reshapeEquiv_eq_of_rowMajor h (by
    rw [Shape.rowMajor_val_two, Shape.rowMajor_val_one]
    show 0 * 8000 + (j 0).val = (j 0).val
    omega)

/-- The word the body loads at position 128 i + k of the id table held at contents that read `xt` is `xt`'s entry
    there (the position is inside the table, so reducing it modulo 1024 changes nothing). -/
theorem id_word_eq (i : grid0.Coords) (hi : (i 0).val < 8) (xt : Vec F S1024 .i32) (k : Fin 128)
    (off1 : Fin 1 → ℕ) (inb1 : ∀ a, off1 a + S1.size a ≤ S1024.size a) (hoff1 : off1 = ![128 * (i 0).val + k.val])
    (h1 : 0 < (Rect.unit (s := S1024) off1 S1.size inb1).toLoadRect.shape.numel) :
    (View.readAt (Elt F) tblM0.view (Rect.unit (s := S1024) off1 S1.size inb1).toLoadRect
        ((Memref.isWhole_whole main_arg0).unread xt) (Shape.Idx.first h1) : BitVec 32)
      = (xt : S1024.Idx → BitVec 32) (ValueIdx.ix1 (n := 1024) ⟨(128 * (i 0).val + k.val) % 1024, Nat.mod_lt _ (by decide)⟩) := by
  subst hoff1
  have hk : 128 * (i 0).val + k.val < 1024 := by have := k.isLt; omega
  refine ((Memref.isWhole_whole main_arg0).readAt_unread (Val := Elt F) xt _ _).trans (congrArg xt ?_)
  funext a
  refine Fin.ext ?_
  match a with
  | ⟨0, _⟩ =>
    show 128 * (i 0).val + k.val + 1 * 0 = (128 * (i 0).val + k.val) % 1024
    rw [Nat.mod_eq_of_lt hk]
    omega

/-- THE DELIVERED PAYLOAD. The copy whose source is the table row named by the word loaded at position 128 i + k of the id
    table delivers, entry by entry, row k of the gathered block. -/
theorem dma_payload_eq (c : Dev nD) (i : grid0.Coords) (hi : (i 0).val < 8) (xt : Vec F S1024 .i32)
    (hxt : ∀ y : S1024.Idx, (xt y : BitVec 32).toNat < 8000) (fh0 : HbBuf0 (F := F) c hbM0_0) (k : Fin 128)
    (off1 : Fin 1 → ℕ) (inb1 : ∀ a, off1 a + S1.size a ≤ S1024.size a) (hoff1 : off1 = ![128 * (i 0).val + k.val])
    (h1 : 0 < (Rect.unit (s := S1024) off1 S1.size inb1).toLoadRect.shape.numel)
    (offH : Fin 2 → ℕ) (inbH : ∀ a, offH a + S1x8000.size a ≤ S8000x8000.size a)
    (hoffH : offH = ![(View.readAt (Elt F) tblM0.view (Rect.unit (s := S1024) off1 S1.size inb1).toLoadRect
        ((Memref.isWhole_whole main_arg0).unread xt) (Shape.Idx.first h1) : BitVec 32).toNat, 0]) (j : S8000.Idx) :
    ReadAs.same.apply (View.read (Elt F) ((hbM0_0.slice (Rect.unit (s := S8000x8000) offH S1x8000.size inbH) (fun _ => rfl)).squeeze S8000 squeezes_S1x8000_S8000).view fh0) j
      = gathered i (xt : S1024.Idx → BitVec 32) (hbM0_0.view.read (Elt F) fh0) (ValueIdx.ix2 k (⟨(j 0).val, (j 0).isLt⟩ : Fin 8000)) := by
  rw [id_word_eq i hi xt k off1 inb1 hoff1 h1] at hoffH
  subst hoffH
  show hbM0_0.view.read (Elt F) fh0 ((Rect.unit (s := S8000x8000)
      ![((xt : S1024.Idx → BitVec 32) (ValueIdx.ix1 (n := 1024) ⟨(128 * (i 0).val + k.val) % 1024, Nat.mod_lt _ (by decide)⟩)).toNat, 0]
      S1x8000.size inbH).emb (Shape.reshapeEquiv squeezes_S1x8000_S8000.numel_eq j)) = _
  unfold gathered
  refine congrArg (hbM0_0.view.read (Elt F) fh0) ?_
  rw [hbRow_reshape]
  funext b
  refine Fin.ext ?_
  match b with
  | ⟨0, _⟩ =>
    show ((xt : S1024.Idx → BitVec 32) (ValueIdx.ix1 (n := 1024) ⟨(128 * (i 0).val + k.val) % 1024, Nat.mod_lt _ (by decide)⟩)).toNat + 1 * 0
      = ((xt : S1024.Idx → BitVec 32) (ValueIdx.ix1 (n := 1024) ⟨(128 * (i 0).val + k.val) % 1024, Nat.mod_lt _ (by decide)⟩)).toNat % 8000
    rw [Nat.mod_eq_of_lt (hxt _)]
    omega
  | ⟨1, _⟩ =>
    show 0 + 1 * (j 0).val = (j 0).val
    omega

end Cert.KernelIdeal.H

end
-- ==== Proof.KI.R0.lean ====
/-
  Region 0: the proof data of the row-gather pipeline, its body obligation, and the value its output window holds.
-/
import proofs.«403333_j71021579206675_3_alg».proof.Proof.KI.R0Run
import proofs.«403333_j71021579206675_3_alg».proof.Proof.KI.R0Rows
import proofs.«403333_j71021579206675_3_alg».proof.Proof.KI.R0Payload
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem H0_sub : H0 ⊆ Pipeline.restRefsP sig pre0 spec0 := by decide

/-! ## The staging memrefs and the body as the pipeline calls it -/

/-- One staging buffer of the output window, through which its contents are stated (the choice does not matter). -/
abbrev VO0_1 : View sig .tc .vmem S128x1024 .f32 := (Memref.whole cc0_stg1_0 : Memref sig .tc .vmem S128x1024 .f32).view
/-- Each window's current staging memref at point `t`, spelled as the pipeline passes it, and its wholeness. -/
abbrev ms0_0 (a : (pcfg0 (F := F)).Adm) (t : Fin (cfg0 a).N) : Memref sig .tc .vmem S8000x1024 .bf16 := spec0_0.stage ((cfg0 a).slots t (0 : Fin 2))
abbrev hs0_0 (a : (pcfg0 (F := F)).Adm) (t : Fin (cfg0 a).N) : (ms0_0 a t).IsWhole := hstage0_0 (((cfg0 a).slots t (0 : Fin 2)).cast nbuf0_0)
abbrev ms0_1 (a : (pcfg0 (F := F)).Adm) (t : Fin (cfg0 a).N) : Memref sig .tc .vmem S128x1024 .f32 := spec0_1.stage ((cfg0 a).slots t (1 : Fin 2))
abbrev hs0_1 (a : (pcfg0 (F := F)).Adm) (t : Fin (cfg0 a).N) : (ms0_1 a t).IsWhole := hstage0_1 (((cfg0 a).slots t (1 : Fin 2)).cast nbuf0_1)

/-- The kernel body at point `t`, on what the pipeline calls it with: the id table and the distance table whole, the
    two windows' current staging memrefs, the scratch block and the row semaphores. -/
abbrev bodyAt0 (a : (pcfg0 (F := F)).Adm) (t : Fin (cfg0 a).N) : Prog (TpuEff nD τ sig (Elt F) Λ₀ .tc) PUnit :=
  cc0__gather_select_kernel (grid0.coords t) tblM0 (Memref.isWhole_whole _) hbM0_0 (Memref.isWhole_whole _) (ms0_0 a t) (hs0_0 a t) (ms0_1 a t) (hs0_1 a t) scM0_0 (Memref.isWhole_whole _) cc0_scratch1

section
variable (V : (c : Dev nD) → (b : Ref sig .tc) → Buf (Elt F) ((c : Thread nD τ).loc b))

/-- Window `w`'s block at point `t`, read off its array as the region finds it. -/
def iblk0 (a : (pcfg0 (F := F)).Adm) (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The selector window's staging buffer holds its block (the whole selector) at every point, though it is fetched at
    the first only: afterwards the block index has not moved. -/
theorem before0_0_of (a : (pcfg0 (F := F)).Adm) {c : Dev nD} (dat : Dat τ (Elt F) Unit ℕ (Pipeline.UD sig nD τ) ℕ (cfg0 a) c)
    (hA : dat.A (0 : Fin 2) = V c (Pipeline.arrRef spec0 0))
    (hafter : ∀ t, dat.after (0 : Fin 2) t = iblk0 V a c (0 : Fin 2) t) (t : Fin (cfg0 a).N) (d) : dat.before (0 : Fin 2) t d = iblk0 V a c (0 : Fin 2) t :=
  (dat.before_in_eq_fetched (0 : Fin 2) rfl (fun _ => rfl) (fun _ _ _ => rfl) (fun t => by rw [hafter]; unfold Dat.blockOf iblk0; rw [hA]; try rfl) t d).trans
    (by unfold Dat.fetched Dat.blockOf iblk0; rw [hA]; try rfl)

/-- The region's invariant: the scratch block and the other scoped buffers at some contents, the generator register,
    the 128 semaphores at zero, the distance table whole at its entry contents, and the id table at its contents. -/
def Φ0 (a : (pcfg0 (F := F)).Adm) (c : Dev nD) : sProp 𝕄 :=
  iprop(Pipeline.ΦD osem0 spec0 H0 V c ∗ Pipeline.prefHeld pre0 c (fun _ => fullShare) a.1)

end

/-! ## A list's conjuncts in front of a remainder, nested to the right

The run states its 128 semaphore cells and its 131 read shares of the distance table as conjuncts written out one by one
in front of the rest of its pre- and postcondition; the invariant holds each family as one iterated conjunction. The two
forms are exchanged here, once for any list. -/

/-- `Φ i₁ ∗ (Φ i₂ ∗ … (Φ iₙ ∗ R))`. -/
def chainR {M : Type} [URA M] {I : Type} (Φ : I → sProp M) (R : sProp M) : List I → sProp M
  | [] => R
  | i :: l => BI.sep (Φ i) (chainR Φ R l)

theorem chainR_nil {M : Type} [URA M] {I : Type} (Φ : I → sProp M) (R : sProp M) : chainR Φ R [] = R := rfl
theorem chainR_cons {M : Type} [URA M] {I : Type} (Φ : I → sProp M) (R : sProp M) (i : I) (l : List I) :
    chainR Φ R (i :: l) = BI.sep (Φ i) (chainR Φ R l) := rfl

theorem chainR_of_bigSepL {M : Type} [URA M] {I : Type} (Φ : I → sProp M) (R : sProp M) :
    ∀ l : List I, iprop(bigSepL l Φ ∗ R) ⊢ chainR Φ R l
  | [] => by
    rw [chainR_nil, BI.bigSepL_nil]
    exact _root_.Idealize.SL.BI.emp_sep_elim
  | i :: l => by
    rw [chainR_cons, BI.bigSepL_cons]
    exact _root_.Idealize.SL.BI.sep_assoc.trans (_root_.Idealize.SL.BI.sep_mono_r (chainR_of_bigSepL Φ R l))

theorem bigSepL_of_chainR {M : Type} [URA M] {I : Type} (Φ : I → sProp M) (R : sProp M) :
    ∀ l : List I, chainR Φ R l ⊢ iprop(bigSepL l Φ ∗ R)
  | [] => by
    rw [chainR_nil, BI.bigSepL_nil]
    exact _root_.Idealize.SL.BI.emp_sep_intro
  | i :: l => by
    rw [chainR_cons, BI.bigSepL_cons]
    exact (_root_.Idealize.SL.BI.sep_mono_r (bigSepL_of_chainR Φ R l)).trans _root_.Idealize.SL.BI.sep_assoc'

/-! ## The kernel's 128 semaphore cells and its 131 read shares of the distance table, listed -/

section Cells
variable (c : Dev nD)

theorem sems0_chain (R : sProp 𝕄) :
    chainR (fun k : Fin 128 => (semVal ((c : Thread nD τ), osem0 k) 0 : sProp 𝕄)) R (List.finRange 128)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ R) := by
  sl_kernel_rfl

theorem ownSems0_list : (Pipeline.ownSems0 (Ix := Unit) (Name := ℕ) (U := Pipeline.UD sig nD τ) (Lvl := ℕ) (Val := Elt F) (τ := τ) osem0 c : sProp 𝕄)
    = bigSepL (List.finRange 128) (fun k => semVal ((c : Thread nD τ), osem0 k) 0) :=
  Pipeline.ownSems0_eq_of_list c osem0 (List.finRange 128) (List.toFinset_finRange 128).symm (List.nodup_finRange 128)

/-- The cells at zero, as the invariant holds them, are the run's conjuncts one by one, -/
theorem sems0_intro (R : sProp 𝕄) : iprop((Pipeline.ownSems0 (Ix := Unit) (Name := ℕ) (U := Pipeline.UD sig nD τ) (Lvl := ℕ) (Val := Elt F) (τ := τ) osem0 c : sProp 𝕄) ∗ R) ⊢ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ R) := by
  rw [ownSems0_list, ← sems0_chain c R]
  exact chainR_of_bigSepL _ R _
/-- and back. -/
theorem sems0_elim (R : sProp 𝕄) : iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ R) ⊢ iprop((Pipeline.ownSems0 (Ix := Unit) (Name := ℕ) (U := Pipeline.UD sig nD τ) (Lvl := ℕ) (Val := Elt F) (τ := τ) osem0 c : sProp 𝕄) ∗ R) := by
  rw [ownSems0_list, ← sems0_chain c R]
  exact bigSepL_of_chainR _ R _

theorem toks0_chain (fh0 : HbBuf0 (F := F) c hbM0_0) (R : sProp 𝕄) :
    chainR (fun i : Fin 131 => (hbPtq c hbM0_0 (Transfers.shareTok fullShare 131 i) fh0 : sProp 𝕄)) R (List.finRange 131)
      = iprop(hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ R) := by
  sl_kernel_rfl

/-- The distance table held whole at the full share is the remainder after 131 read shares and the shares, one per
    transfer that may be in flight at once (two ids of a tile may name one row), -/
theorem toks0_intro (fh0 : HbBuf0 (F := F) c hbM0_0) (R : sProp 𝕄) :
    iprop(hbPtq c hbM0_0 fullShare fh0 ∗ R) ⊢ iprop(hbPtq c hbM0_0 (Transfers.shareDrop fullShare 131) fh0 ∗ hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ R) := by
  have hs := Transfers.pointsTo_toks_split (Ix := Unit) (Name := ℕ) (U := Pipeline.UD sig nD τ) (Lvl := ℕ)
    (ℓ := hbM0_0.view.loc (c : Thread nD τ)) (S := Finset.univ) (f := fh0) fullShare 131
  rw [BI.bigSep_univ_eq_bigSepL (List.finRange 131) (List.toFinset_finRange 131).symm (List.nodup_finRange 131)] at hs
  rw [← toks0_chain c fh0 R]
  exact (_root_.Idealize.SL.BI.sep_mono_l hs).trans (_root_.Idealize.SL.BI.sep_assoc.trans (_root_.Idealize.SL.BI.sep_mono_r (chainR_of_bigSepL _ R _)))
/-- and joined back. -/
theorem toks0_elim (fh0 : HbBuf0 (F := F) c hbM0_0) (R : sProp 𝕄) :
    iprop(hbPtq c hbM0_0 (Transfers.shareDrop fullShare 131) fh0 ∗ hbPtq c hbM0_0 (Transfers.shareTok fullShare 131 0) fh0 ∗ hbPtq c hbM0_0 (Transfers.shareTok fullShare 131 1) fh0 ∗ hbPtq c hbM0_0 (Transfers.shareTok fullShare 131 2) fh0 ∗ hbPtq c hbM0_0 (Transfers.shareTok fullShare 131 3) fh0 ∗ hbPtq c hbM0_0 (Transfers.shareTok fullShare 131 4) fh0 ∗ hbPtq c hbM0_0 (Transfers.shareTok fullShare 131 5) fh0 ∗ hbPtq c hbM0_0 (Transfers.shareTok fullShare 131 6) fh0 ∗ hbPtq c hbM0_0 (Transfers.shareTok fullShare 131 7) fh0 ∗ hbPtq c hbM0_0 (Transfers.shareTok fullShare 131 8) fh0 ∗ hbPtq c hbM0_0 (Transfers.shareTok fullShare 131 9) fh0 ∗ hbPtq c hbM0_0 (Transfers.shareTok fullShare 131 10) fh0 ∗ hbPtq c hbM0_0 (Transfers.shareTok fullShare 131 11) fh0 ∗ hbPtq c hbM0_0 (Transfers.shareTok fullShare 131 12) fh0 ∗ hbPtq c hbM0_0 (Transfers.shareTok fullShare 131 13) fh0 ∗ hbPtq c hbM0_0 (Transfers.shareTok fullShare 131 14) fh0 ∗ hbPtq c hbM0_0 (Transfers.shareTok fullShare 131 15) fh0 ∗ hbPtq c hbM0_0 (Transfers.shareTok fullShare 131 16) fh0 ∗ hbPtq c hbM0_0 (Transfers.shareTok fullShare 131 17) fh0 ∗ hbPtq c hbM0_0 (Transfers.shareTok fullShare 131 18) fh0 ∗ hbPtq c hbM0_0 (Transfers.shareTok fullShare 131 19) fh0 ∗ hbPtq c hbM0_0 (Transfers.shareTok fullShare 131 20) fh0 ∗ hbPtq c hbM0_0 (Transfers.shareTok fullShare 131 21) fh0 ∗ hbPtq c hbM0_0 (Transfers.shareTok fullShare 131 22) fh0 ∗ hbPtq c hbM0_0 (Transfers.shareTok fullShare 131 23) fh0 ∗ hbPtq c hbM0_0 (Transfers.shareTok fullShare 131 24) fh0 ∗ hbPtq c hbM0_0 (Transfers.shareTok fullShare 131 25) fh0 ∗ hbPtq c hbM0_0 (Transfers.shareTok fullShare 131 26) fh0 ∗ hbPtq c hbM0_0 (Transfers.shareTok fullShare 131 27) fh0 ∗ hbPtq c hbM0_0 (Transfers.shareTok fullShare 131 28) fh0 ∗ hbPtq c hbM0_0 (Transfers.shareTok fullShare 131 29) fh0 ∗ hbPtq c hbM0_0 (Transfers.shareTok fullShare 131 30) fh0 ∗ hbPtq c hbM0_0 (Transfers.shareTok fullShare 131 31) fh0 ∗ hbPtq c hbM0_0 (Transfers.shareTok fullShare 131 32) fh0 ∗ hbPtq c hbM0_0 (Transfers.shareTok fullShare 131 33) fh0 ∗ hbPtq c hbM0_0 (Transfers.shareTok fullShare 131 34) fh0 ∗ hbPtq c hbM0_0 (Transfers.shareTok fullShare 131 35) fh0 ∗ hbPtq c hbM0_0 (Transfers.shareTok fullShare 131 36) fh0 ∗ hbPtq c hbM0_0 (Transfers.shareTok fullShare 131 37) fh0 ∗ hbPtq c hbM0_0 (Transfers.shareTok fullShare 131 38) fh0 ∗ hbPtq c hbM0_0 (Transfers.shareTok fullShare 131 39) fh0 ∗ hbPtq c hbM0_0 (Transfers.shareTok fullShare 131 40) fh0 ∗ hbPtq c hbM0_0 (Transfers.shareTok fullShare 131 41) fh0 ∗ hbPtq c hbM0_0 (Transfers.shareTok fullShare 131 42) fh0 ∗ hbPtq c hbM0_0 (Transfers.shareTok fullShare 131 43) fh0 ∗ hbPtq c hbM0_0 (Transfers.shareTok fullShare 131 44) fh0 ∗ hbPtq c hbM0_0 (Transfers.shareTok fullShare 131 45) fh0 ∗ hbPtq c hbM0_0 (Transfers.shareTok fullShare 131 46) fh0 ∗ hbPtq c hbM0_0 (Transfers.shareTok fullShare 131 47) fh0 ∗ hbPtq c hbM0_0 (Transfers.shareTok fullShare 131 48) fh0 ∗ hbPtq c hbM0_0 (Transfers.shareTok fullShare 131 49) fh0 ∗ hbPtq c hbM0_0 (Transfers.shareTok fullShare 131 50) fh0 ∗ hbPtq c hbM0_0 (Transfers.shareTok fullShare 131 51) fh0 ∗ hbPtq c hbM0_0 (Transfers.shareTok fullShare 131 52) fh0 ∗ hbPtq c hbM0_0 (Transfers.shareTok fullShare 131 53) fh0 ∗ hbPtq c hbM0_0 (Transfers.shareTok fullShare 131 54) fh0 ∗ hbPtq c hbM0_0 (Transfers.shareTok fullShare 131 55) fh0 ∗ hbPtq c hbM0_0 (Transfers.shareTok fullShare 131 56) fh0 ∗ hbPtq c hbM0_0 (Transfers.shareTok fullShare 131 57) fh0 ∗ hbPtq c hbM0_0 (Transfers.shareTok fullShare 131 58) fh0 ∗ hbPtq c hbM0_0 (Transfers.shareTok fullShare 131 59) fh0 ∗ hbPtq c hbM0_0 (Transfers.shareTok fullShare 131 60) fh0 ∗ hbPtq c hbM0_0 (Transfers.shareTok fullShare 131 61) fh0 ∗ hbPtq c hbM0_0 (Transfers.shareTok fullShare 131 62) fh0 ∗ hbPtq c hbM0_0 (Transfers.shareTok fullShare 131 63) fh0 ∗ hbPtq c hbM0_0 (Transfers.shareTok fullShare 131 64) fh0 ∗ hbPtq c hbM0_0 (Transfers.shareTok fullShare 131 65) fh0 ∗ hbPtq c hbM0_0 (Transfers.shareTok fullShare 131 66) fh0 ∗ hbPtq c hbM0_0 (Transfers.shareTok fullShare 131 67) fh0 ∗ hbPtq c hbM0_0 (Transfers.shareTok fullShare 131 68) fh0 ∗ hbPtq c hbM0_0 (Transfers.shareTok fullShare 131 69) fh0 ∗ hbPtq c hbM0_0 (Transfers.shareTok fullShare 131 70) fh0 ∗ hbPtq c hbM0_0 (Transfers.shareTok fullShare 131 71) fh0 ∗ hbPtq c hbM0_0 (Transfers.shareTok fullShare 131 72) fh0 ∗ hbPtq c hbM0_0 (Transfers.shareTok fullShare 131 73) fh0 ∗ hbPtq c hbM0_0 (Transfers.shareTok fullShare 131 74) fh0 ∗ hbPtq c hbM0_0 (Transfers.shareTok fullShare 131 75) fh0 ∗ hbPtq c hbM0_0 (Transfers.shareTok fullShare 131 76) fh0 ∗ hbPtq c hbM0_0 (Transfers.shareTok fullShare 131 77) fh0 ∗ hbPtq c hbM0_0 (Transfers.shareTok fullShare 131 78) fh0 ∗ hbPtq c hbM0_0 (Transfers.shareTok fullShare 131 79) fh0 ∗ hbPtq c hbM0_0 (Transfers.shareTok fullShare 131 80) fh0 ∗ hbPtq c hbM0_0 (Transfers.shareTok fullShare 131 81) fh0 ∗ hbPtq c hbM0_0 (Transfers.shareTok fullShare 131 82) fh0 ∗ hbPtq c hbM0_0 (Transfers.shareTok fullShare 131 83) fh0 ∗ hbPtq c hbM0_0 (Transfers.shareTok fullShare 131 84) fh0 ∗ hbPtq c hbM0_0 (Transfers.shareTok fullShare 131 85) fh0 ∗ hbPtq c hbM0_0 (Transfers.shareTok fullShare 131 86) fh0 ∗ hbPtq c hbM0_0 (Transfers.shareTok fullShare 131 87) fh0 ∗ hbPtq c hbM0_0 (Transfers.shareTok fullShare 131 88) fh0 ∗ hbPtq c hbM0_0 (Transfers.shareTok fullShare 131 89) fh0 ∗ hbPtq c hbM0_0 (Transfers.shareTok fullShare 131 90) fh0 ∗ hbPtq c hbM0_0 (Transfers.shareTok fullShare 131 91) fh0 ∗ hbPtq c hbM0_0 (Transfers.shareTok fullShare 131 92) fh0 ∗ hbPtq c hbM0_0 (Transfers.shareTok fullShare 131 93) fh0 ∗ hbPtq c hbM0_0 (Transfers.shareTok fullShare 131 94) fh0 ∗ hbPtq c hbM0_0 (Transfers.shareTok fullShare 131 95) fh0 ∗ hbPtq c hbM0_0 (Transfers.shareTok fullShare 131 96) fh0 ∗ hbPtq c hbM0_0 (Transfers.shareTok fullShare 131 97) fh0 ∗ hbPtq c hbM0_0 (Transfers.shareTok fullShare 131 98) fh0 ∗ hbPtq c hbM0_0 (Transfers.shareTok fullShare 131 99) fh0 ∗ hbPtq c hbM0_0 (Transfers.shareTok fullShare 131 100) fh0 ∗ hbPtq c hbM0_0 (Transfers.shareTok fullShare 131 101) fh0 ∗ hbPtq c hbM0_0 (Transfers.shareTok fullShare 131 102) fh0 ∗ hbPtq c hbM0_0 (Transfers.shareTok fullShare 131 103) fh0 ∗ hbPtq c hbM0_0 (Transfers.shareTok fullShare 131 104) fh0 ∗ hbPtq c hbM0_0 (Transfers.shareTok fullShare 131 105) fh0 ∗ hbPtq c hbM0_0 (Transfers.shareTok fullShare 131 106) fh0 ∗ hbPtq c hbM0_0 (Transfers.shareTok fullShare 131 107) fh0 ∗ hbPtq c hbM0_0 (Transfers.shareTok fullShare 131 108) fh0 ∗ hbPtq c hbM0_0 (Transfers.shareTok fullShare 131 109) fh0 ∗ hbPtq c hbM0_0 (Transfers.shareTok fullShare 131 110) fh0 ∗ hbPtq c hbM0_0 (Transfers.shareTok fullShare 131 111) fh0 ∗ hbPtq c hbM0_0 (Transfers.shareTok fullShare 131 112) fh0 ∗ hbPtq c hbM0_0 (Transfers.shareTok fullShare 131 113) fh0 ∗ hbPtq c hbM0_0 (Transfers.shareTok fullShare 131 114) fh0 ∗ hbPtq c hbM0_0 (Transfers.shareTok fullShare 131 115) fh0 ∗ hbPtq c hbM0_0 (Transfers.shareTok fullShare 131 116) fh0 ∗ hbPtq c hbM0_0 (Transfers.shareTok fullShare 131 117) fh0 ∗ hbPtq c hbM0_0 (Transfers.shareTok fullShare 131 118) fh0 ∗ hbPtq c hbM0_0 (Transfers.shareTok fullShare 131 119) fh0 ∗ hbPtq c hbM0_0 (Transfers.shareTok fullShare 131 120) fh0 ∗ hbPtq c hbM0_0 (Transfers.shareTok fullShare 131 121) fh0 ∗ hbPtq c hbM0_0 (Transfers.shareTok fullShare 131 122) fh0 ∗ hbPtq c hbM0_0 (Transfers.shareTok fullShare 131 123) fh0 ∗ hbPtq c hbM0_0 (Transfers.shareTok fullShare 131 124) fh0 ∗ hbPtq c hbM0_0 (Transfers.shareTok fullShare 131 125) fh0 ∗ hbPtq c hbM0_0 (Transfers.shareTok fullShare 131 126) fh0 ∗ hbPtq c hbM0_0 (Transfers.shareTok fullShare 131 127) fh0 ∗ hbPtq c hbM0_0 (Transfers.shareTok fullShare 131 128) fh0 ∗ hbPtq c hbM0_0 (Transfers.shareTok fullShare 131 129) fh0 ∗ hbPtq c hbM0_0 (Transfers.shareTok fullShare 131 130) fh0 ∗ R) ⊢ iprop(hbPtq c hbM0_0 fullShare fh0 ∗ R) := by
  have hj := Transfers.pointsTo_toks_join (Ix := Unit) (Name := ℕ) (U := Pipeline.UD sig nD τ) (Lvl := ℕ)
    (ℓ := hbM0_0.view.loc (c : Thread nD τ)) (S := Finset.univ) (f := fh0) fullShare 131
  rw [BI.bigSep_univ_eq_bigSepL (List.finRange 131) (List.toFinset_finRange 131).symm (List.nodup_finRange 131)] at hj
  rw [← toks0_chain c fh0 R]
  exact (_root_.Idealize.SL.BI.sep_mono_r (bigSepL_of_chainR _ R _)).trans (_root_.Idealize.SL.BI.sep_assoc'.trans (_root_.Idealize.SL.BI.sep_mono_l hj))

end Cells

/-! ## What the body leaves in the output window -/

section Out
variable (c : Dev nD)

/-- The run's pieces for the output window (one store of the whole block) tile its block, so they cover it. -/
theorem cover0_1 (i : grid0.Coords) (arg3 : Memref sig .tc .vmem S8000x1024 .bf16) (harg3 : arg3.IsWhole) (arg4 : Memref sig .tc .vmem S128x1024 .f32) (harg4 : arg4.IsWhole)
    (xt : Vec F S1024 .i32) (x0 : Vec F S8000x1024 .bf16) (fh0 : HbBuf0 (F := F) c hbM0_0) (hxt : ∀ y : S1024.Idx, (xt y : BitVec 32).toNat < 8000) (y : S128x1024.Idx) :
    ∃ pc ∈ (kernelRun0 c i arg3 harg3 arg4 harg4 xt x0 fh0 hxt).1, y ∈ pc.1.set :=
  View.cover_of_tiledL (kernelRun0 c i arg3 harg3 arg4 harg4 xt x0 fh0 hxt).1 S128x1024.size (by sl_kernel_rfl) y

/-- What the run leaves in the output window's staging buffer: its pieces read back over junk. -/
def out0_1 (i : grid0.Coords) (arg3 : Memref sig .tc .vmem S8000x1024 .bf16) (harg3 : arg3.IsWhole) (arg4 : Memref sig .tc .vmem S128x1024 .f32) (harg4 : arg4.IsWhole)
    (xt : Vec F S1024 .i32) (x0 : Vec F S8000x1024 .bf16) (fh0 : HbBuf0 (F := F) c hbM0_0) (hxt : ∀ y : S1024.Idx, (xt y : BitVec 32).toNat < 8000) : Vec F S128x1024 .f32 :=
  VO0_1.read (Elt F) (VO0_1.writes (Elt F) VO0_1.junk (kernelRun0 c i arg3 harg3 arg4 harg4 xt x0 fh0 hxt).1)

end Out

theorem zeroOff0_2 : (![0, 0] : Fin 2 → Nat) = fun _ => 0 := funext fun a => by fin_cases a <;> rfl

/-- A block whose every row is the matching row of the gathered block is the gathered block. -/
theorem blockOf_eq_gathered (i : grid0.Coords) (xt : S1024.Idx → BitVec 32) (X : S8000x8000.Idx → Elt F .f32)
    (p : Fin 128 → S8000.Idx → Elt F .f32)
    (hp : ∀ (k : Fin 128) (j : S8000.Idx), p k j = gathered i xt X (ValueIdx.ix2 k (⟨(j 0).val, (j 0).isLt⟩ : Fin 8000))) :
    blockOf p = gathered i xt X := by
  funext y
  unfold blockOf
  rw [hp]
  refine congrArg (gathered i xt X) ?_
  funext b
  refine Fin.ext ?_
  match b with
  | ⟨0, _⟩ => rfl
  | ⟨1, _⟩ => rfl

/-- The stored block is a function of the scratch block and the selector: equal arguments, equal blocks. -/
theorem pay0_congr {A G : Vec F S128x8000 .f32} {B x0 : Vec F S8000x1024 .bf16} (hA : A = G) (hB : B = x0) :
    k0_pay1 (k0_pay2 A) (k0_pay3 A) B = k0_pay1 (k0_pay2 G) (k0_pay3 G) x0 := by
  subst hA hB; rfl

set_option maxHeartbeats 8000000 in
/-- THE VALUE the body leaves in the output window: the scratch block after the 128 copies is the gathered block — row
    `k` is the row of the distance table that the `k`-th id of the tile names, one case per row —, and the stored block
    is the sum of the two products of its high and low parts with the selector. -/
theorem out0_1_eq (c : Dev nD) (i : grid0.Coords) (hi : (i 0).val < 8) (arg3 : Memref sig .tc .vmem S8000x1024 .bf16) (harg3 : arg3.IsWhole) (arg4 : Memref sig .tc .vmem S128x1024 .f32) (harg4 : arg4.IsWhole)
    (xt : Vec F S1024 .i32) (x0 : Vec F S8000x1024 .bf16) (fh0 : HbBuf0 (F := F) c hbM0_0) (hxt : ∀ y : S1024.Idx, (xt y : BitVec 32).toNat < 8000) :
    out0_1 c i arg3 harg3 arg4 harg4 xt x0 fh0 hxt
      = k0_pay1 (k0_pay2 (gathered i xt (hbM0_0.view.read (Elt F) fh0))) (k0_pay3 (gathered i xt (hbM0_0.view.read (Elt F) fh0))) x0 := by
  unfold out0_1
  rw [View.read_writes_junk_eq_canon]
  unfold kernelRun0
  dsimp only
  unfold kernelRun0.sl.r_256 kernelRun0.sl.r_257 kernelRun0.sl.v2817
  rw [View.canon_unit_zero (S := S128x1024) zeroOff0_2]
  refine pay0_congr ?_ ?_
  · rw [View.readAt_eq_ld, read_unread_block, View.ld_unit_zero (S := S128x8000) zeroOff0_2]
    refine blockOf_eq_gathered i xt (hbM0_0.view.read (Elt F) fh0) _ ?_
    intro k j
    match k with
    | ⟨0, _⟩ => exact dma_payload_eq c i hi xt hxt fh0 ⟨0, by decide⟩ _ _ (k0_off1_eq i) _ _ _ rfl j
    | ⟨1, _⟩ => exact dma_payload_eq c i hi xt hxt fh0 ⟨1, by decide⟩ _ _ (k0_off5_eq i) _ _ _ rfl j
    | ⟨2, _⟩ => exact dma_payload_eq c i hi xt hxt fh0 ⟨2, by decide⟩ _ _ (k0_off9_eq i) _ _ _ rfl j
    | ⟨3, _⟩ => exact dma_payload_eq c i hi xt hxt fh0 ⟨3, by decide⟩ _ _ (k0_off13_eq i) _ _ _ rfl j
    | ⟨4, _⟩ => exact dma_payload_eq c i hi xt hxt fh0 ⟨4, by decide⟩ _ _ (k0_off17_eq i) _ _ _ rfl j
    | ⟨5, _⟩ => exact dma_payload_eq c i hi xt hxt fh0 ⟨5, by decide⟩ _ _ (k0_off21_eq i) _ _ _ rfl j
    | ⟨6, _⟩ => exact dma_payload_eq c i hi xt hxt fh0 ⟨6, by decide⟩ _ _ (k0_off25_eq i) _ _ _ rfl j
    | ⟨7, _⟩ => exact dma_payload_eq c i hi xt hxt fh0 ⟨7, by decide⟩ _ _ (k0_off29_eq i) _ _ _ rfl j
    | ⟨8, _⟩ => exact dma_payload_eq c i hi xt hxt fh0 ⟨8, by decide⟩ _ _ (k0_off33_eq i) _ _ _ rfl j
    | ⟨9, _⟩ => exact dma_payload_eq c i hi xt hxt fh0 ⟨9, by decide⟩ _ _ (k0_off37_eq i) _ _ _ rfl j
    | ⟨10, _⟩ => exact dma_payload_eq c i hi xt hxt fh0 ⟨10, by decide⟩ _ _ (k0_off41_eq i) _ _ _ rfl j
    | ⟨11, _⟩ => exact dma_payload_eq c i hi xt hxt fh0 ⟨11, by decide⟩ _ _ (k0_off45_eq i) _ _ _ rfl j
    | ⟨12, _⟩ => exact dma_payload_eq c i hi xt hxt fh0 ⟨12, by decide⟩ _ _ (k0_off49_eq i) _ _ _ rfl j
    | ⟨13, _⟩ => exact dma_payload_eq c i hi xt hxt fh0 ⟨13, by decide⟩ _ _ (k0_off53_eq i) _ _ _ rfl j
    | ⟨14, _⟩ => exact dma_payload_eq c i hi xt hxt fh0 ⟨14, by decide⟩ _ _ (k0_off57_eq i) _ _ _ rfl j
    | ⟨15, _⟩ => exact dma_payload_eq c i hi xt hxt fh0 ⟨15, by decide⟩ _ _ (k0_off61_eq i) _ _ _ rfl j
    | ⟨16, _⟩ => exact dma_payload_eq c i hi xt hxt fh0 ⟨16, by decide⟩ _ _ (k0_off65_eq i) _ _ _ rfl j
    | ⟨17, _⟩ => exact dma_payload_eq c i hi xt hxt fh0 ⟨17, by decide⟩ _ _ (k0_off69_eq i) _ _ _ rfl j
    | ⟨18, _⟩ => exact dma_payload_eq c i hi xt hxt fh0 ⟨18, by decide⟩ _ _ (k0_off73_eq i) _ _ _ rfl j
    | ⟨19, _⟩ => exact dma_payload_eq c i hi xt hxt fh0 ⟨19, by decide⟩ _ _ (k0_off77_eq i) _ _ _ rfl j
    | ⟨20, _⟩ => exact dma_payload_eq c i hi xt hxt fh0 ⟨20, by decide⟩ _ _ (k0_off81_eq i) _ _ _ rfl j
    | ⟨21, _⟩ => exact dma_payload_eq c i hi xt hxt fh0 ⟨21, by decide⟩ _ _ (k0_off85_eq i) _ _ _ rfl j
    | ⟨22, _⟩ => exact dma_payload_eq c i hi xt hxt fh0 ⟨22, by decide⟩ _ _ (k0_off89_eq i) _ _ _ rfl j
    | ⟨23, _⟩ => exact dma_payload_eq c i hi xt hxt fh0 ⟨23, by decide⟩ _ _ (k0_off93_eq i) _ _ _ rfl j
    | ⟨24, _⟩ => exact dma_payload_eq c i hi xt hxt fh0 ⟨24, by decide⟩ _ _ (k0_off97_eq i) _ _ _ rfl j
    | ⟨25, _⟩ => exact dma_payload_eq c i hi xt hxt fh0 ⟨25, by decide⟩ _ _ (k0_off101_eq i) _ _ _ rfl j
    | ⟨26, _⟩ => exact dma_payload_eq c i hi xt hxt fh0 ⟨26, by decide⟩ _ _ (k0_off105_eq i) _ _ _ rfl j
    | ⟨27, _⟩ => exact dma_payload_eq c i hi xt hxt fh0 ⟨27, by decide⟩ _ _ (k0_off109_eq i) _ _ _ rfl j
    | ⟨28, _⟩ => exact dma_payload_eq c i hi xt hxt fh0 ⟨28, by decide⟩ _ _ (k0_off113_eq i) _ _ _ rfl j
    | ⟨29, _⟩ => exact dma_payload_eq c i hi xt hxt fh0 ⟨29, by decide⟩ _ _ (k0_off117_eq i) _ _ _ rfl j
    | ⟨30, _⟩ => exact dma_payload_eq c i hi xt hxt fh0 ⟨30, by decide⟩ _ _ (k0_off121_eq i) _ _ _ rfl j
    | ⟨31, _⟩ => exact dma_payload_eq c i hi xt hxt fh0 ⟨31, by decide⟩ _ _ (k0_off125_eq i) _ _ _ rfl j
    | ⟨32, _⟩ => exact dma_payload_eq c i hi xt hxt fh0 ⟨32, by decide⟩ _ _ (k0_off129_eq i) _ _ _ rfl j
    | ⟨33, _⟩ => exact dma_payload_eq c i hi xt hxt fh0 ⟨33, by decide⟩ _ _ (k0_off133_eq i) _ _ _ rfl j
    | ⟨34, _⟩ => exact dma_payload_eq c i hi xt hxt fh0 ⟨34, by decide⟩ _ _ (k0_off137_eq i) _ _ _ rfl j
    | ⟨35, _⟩ => exact dma_payload_eq c i hi xt hxt fh0 ⟨35, by decide⟩ _ _ (k0_off141_eq i) _ _ _ rfl j
    | ⟨36, _⟩ => exact dma_payload_eq c i hi xt hxt fh0 ⟨36, by decide⟩ _ _ (k0_off145_eq i) _ _ _ rfl j
    | ⟨37, _⟩ => exact dma_payload_eq c i hi xt hxt fh0 ⟨37, by decide⟩ _ _ (k0_off149_eq i) _ _ _ rfl j
    | ⟨38, _⟩ => exact dma_payload_eq c i hi xt hxt fh0 ⟨38, by decide⟩ _ _ (k0_off153_eq i) _ _ _ rfl j
    | ⟨39, _⟩ => exact dma_payload_eq c i hi xt hxt fh0 ⟨39, by decide⟩ _ _ (k0_off157_eq i) _ _ _ rfl j
    | ⟨40, _⟩ => exact dma_payload_eq c i hi xt hxt fh0 ⟨40, by decide⟩ _ _ (k0_off161_eq i) _ _ _ rfl j
    | ⟨41, _⟩ => exact dma_payload_eq c i hi xt hxt fh0 ⟨41, by decide⟩ _ _ (k0_off165_eq i) _ _ _ rfl j
    | ⟨42, _⟩ => exact dma_payload_eq c i hi xt hxt fh0 ⟨42, by decide⟩ _ _ (k0_off169_eq i) _ _ _ rfl j
    | ⟨43, _⟩ => exact dma_payload_eq c i hi xt hxt fh0 ⟨43, by decide⟩ _ _ (k0_off173_eq i) _ _ _ rfl j
    | ⟨44, _⟩ => exact dma_payload_eq c i hi xt hxt fh0 ⟨44, by decide⟩ _ _ (k0_off177_eq i) _ _ _ rfl j
    | ⟨45, _⟩ => exact dma_payload_eq c i hi xt hxt fh0 ⟨45, by decide⟩ _ _ (k0_off181_eq i) _ _ _ rfl j
    | ⟨46, _⟩ => exact dma_payload_eq c i hi xt hxt fh0 ⟨46, by decide⟩ _ _ (k0_off185_eq i) _ _ _ rfl j
    | ⟨47, _⟩ => exact dma_payload_eq c i hi xt hxt fh0 ⟨47, by decide⟩ _ _ (k0_off189_eq i) _ _ _ rfl j
    | ⟨48, _⟩ => exact dma_payload_eq c i hi xt hxt fh0 ⟨48, by decide⟩ _ _ (k0_off193_eq i) _ _ _ rfl j
    | ⟨49, _⟩ => exact dma_payload_eq c i hi xt hxt fh0 ⟨49, by decide⟩ _ _ (k0_off197_eq i) _ _ _ rfl j
    | ⟨50, _⟩ => exact dma_payload_eq c i hi xt hxt fh0 ⟨50, by decide⟩ _ _ (k0_off201_eq i) _ _ _ rfl j
    | ⟨51, _⟩ => exact dma_payload_eq c i hi xt hxt fh0 ⟨51, by decide⟩ _ _ (k0_off205_eq i) _ _ _ rfl j
    | ⟨52, _⟩ => exact dma_payload_eq c i hi xt hxt fh0 ⟨52, by decide⟩ _ _ (k0_off209_eq i) _ _ _ rfl j
    | ⟨53, _⟩ => exact dma_payload_eq c i hi xt hxt fh0 ⟨53, by decide⟩ _ _ (k0_off213_eq i) _ _ _ rfl j
    | ⟨54, _⟩ => exact dma_payload_eq c i hi xt hxt fh0 ⟨54, by decide⟩ _ _ (k0_off217_eq i) _ _ _ rfl j
    | ⟨55, _⟩ => exact dma_payload_eq c i hi xt hxt fh0 ⟨55, by decide⟩ _ _ (k0_off221_eq i) _ _ _ rfl j
    | ⟨56, _⟩ => exact dma_payload_eq c i hi xt hxt fh0 ⟨56, by decide⟩ _ _ (k0_off225_eq i) _ _ _ rfl j
    | ⟨57, _⟩ => exact dma_payload_eq c i hi xt hxt fh0 ⟨57, by decide⟩ _ _ (k0_off229_eq i) _ _ _ rfl j
    | ⟨58, _⟩ => exact dma_payload_eq c i hi xt hxt fh0 ⟨58, by decide⟩ _ _ (k0_off233_eq i) _ _ _ rfl j
    | ⟨59, _⟩ => exact dma_payload_eq c i hi xt hxt fh0 ⟨59, by decide⟩ _ _ (k0_off237_eq i) _ _ _ rfl j
    | ⟨60, _⟩ => exact dma_payload_eq c i hi xt hxt fh0 ⟨60, by decide⟩ _ _ (k0_off241_eq i) _ _ _ rfl j
    | ⟨61, _⟩ => exact dma_payload_eq c i hi xt hxt fh0 ⟨61, by decide⟩ _ _ (k0_off245_eq i) _ _ _ rfl j
    | ⟨62, _⟩ => exact dma_payload_eq c i hi xt hxt fh0 ⟨62, by decide⟩ _ _ (k0_off249_eq i) _ _ _ rfl j
    | ⟨63, _⟩ => exact dma_payload_eq c i hi xt hxt fh0 ⟨63, by decide⟩ _ _ (k0_off253_eq i) _ _ _ rfl j
    | ⟨64, _⟩ => exact dma_payload_eq c i hi xt hxt fh0 ⟨64, by decide⟩ _ _ (k0_off257_eq i) _ _ _ rfl j
    | ⟨65, _⟩ => exact dma_payload_eq c i hi xt hxt fh0 ⟨65, by decide⟩ _ _ (k0_off261_eq i) _ _ _ rfl j
    | ⟨66, _⟩ => exact dma_payload_eq c i hi xt hxt fh0 ⟨66, by decide⟩ _ _ (k0_off265_eq i) _ _ _ rfl j
    | ⟨67, _⟩ => exact dma_payload_eq c i hi xt hxt fh0 ⟨67, by decide⟩ _ _ (k0_off269_eq i) _ _ _ rfl j
    | ⟨68, _⟩ => exact dma_payload_eq c i hi xt hxt fh0 ⟨68, by decide⟩ _ _ (k0_off273_eq i) _ _ _ rfl j
    | ⟨69, _⟩ => exact dma_payload_eq c i hi xt hxt fh0 ⟨69, by decide⟩ _ _ (k0_off277_eq i) _ _ _ rfl j
    | ⟨70, _⟩ => exact dma_payload_eq c i hi xt hxt fh0 ⟨70, by decide⟩ _ _ (k0_off281_eq i) _ _ _ rfl j
    | ⟨71, _⟩ => exact dma_payload_eq c i hi xt hxt fh0 ⟨71, by decide⟩ _ _ (k0_off285_eq i) _ _ _ rfl j
    | ⟨72, _⟩ => exact dma_payload_eq c i hi xt hxt fh0 ⟨72, by decide⟩ _ _ (k0_off289_eq i) _ _ _ rfl j
    | ⟨73, _⟩ => exact dma_payload_eq c i hi xt hxt fh0 ⟨73, by decide⟩ _ _ (k0_off293_eq i) _ _ _ rfl j
    | ⟨74, _⟩ => exact dma_payload_eq c i hi xt hxt fh0 ⟨74, by decide⟩ _ _ (k0_off297_eq i) _ _ _ rfl j
    | ⟨75, _⟩ => exact dma_payload_eq c i hi xt hxt fh0 ⟨75, by decide⟩ _ _ (k0_off301_eq i) _ _ _ rfl j
    | ⟨76, _⟩ => exact dma_payload_eq c i hi xt hxt fh0 ⟨76, by decide⟩ _ _ (k0_off305_eq i) _ _ _ rfl j
    | ⟨77, _⟩ => exact dma_payload_eq c i hi xt hxt fh0 ⟨77, by decide⟩ _ _ (k0_off309_eq i) _ _ _ rfl j
    | ⟨78, _⟩ => exact dma_payload_eq c i hi xt hxt fh0 ⟨78, by decide⟩ _ _ (k0_off313_eq i) _ _ _ rfl j
    | ⟨79, _⟩ => exact dma_payload_eq c i hi xt hxt fh0 ⟨79, by decide⟩ _ _ (k0_off317_eq i) _ _ _ rfl j
    | ⟨80, _⟩ => exact dma_payload_eq c i hi xt hxt fh0 ⟨80, by decide⟩ _ _ (k0_off321_eq i) _ _ _ rfl j
    | ⟨81, _⟩ => exact dma_payload_eq c i hi xt hxt fh0 ⟨81, by decide⟩ _ _ (k0_off325_eq i) _ _ _ rfl j
    | ⟨82, _⟩ => exact dma_payload_eq c i hi xt hxt fh0 ⟨82, by decide⟩ _ _ (k0_off329_eq i) _ _ _ rfl j
    | ⟨83, _⟩ => exact dma_payload_eq c i hi xt hxt fh0 ⟨83, by decide⟩ _ _ (k0_off333_eq i) _ _ _ rfl j
    | ⟨84, _⟩ => exact dma_payload_eq c i hi xt hxt fh0 ⟨84, by decide⟩ _ _ (k0_off337_eq i) _ _ _ rfl j
    | ⟨85, _⟩ => exact dma_payload_eq c i hi xt hxt fh0 ⟨85, by decide⟩ _ _ (k0_off341_eq i) _ _ _ rfl j
    | ⟨86, _⟩ => exact dma_payload_eq c i hi xt hxt fh0 ⟨86, by decide⟩ _ _ (k0_off345_eq i) _ _ _ rfl j
    | ⟨87, _⟩ => exact dma_payload_eq c i hi xt hxt fh0 ⟨87, by decide⟩ _ _ (k0_off349_eq i) _ _ _ rfl j
    | ⟨88, _⟩ => exact dma_payload_eq c i hi xt hxt fh0 ⟨88, by decide⟩ _ _ (k0_off353_eq i) _ _ _ rfl j
    | ⟨89, _⟩ => exact dma_payload_eq c i hi xt hxt fh0 ⟨89, by decide⟩ _ _ (k0_off357_eq i) _ _ _ rfl j
    | ⟨90, _⟩ => exact dma_payload_eq c i hi xt hxt fh0 ⟨90, by decide⟩ _ _ (k0_off361_eq i) _ _ _ rfl j
    | ⟨91, _⟩ => exact dma_payload_eq c i hi xt hxt fh0 ⟨91, by decide⟩ _ _ (k0_off365_eq i) _ _ _ rfl j
    | ⟨92, _⟩ => exact dma_payload_eq c i hi xt hxt fh0 ⟨92, by decide⟩ _ _ (k0_off369_eq i) _ _ _ rfl j
    | ⟨93, _⟩ => exact dma_payload_eq c i hi xt hxt fh0 ⟨93, by decide⟩ _ _ (k0_off373_eq i) _ _ _ rfl j
    | ⟨94, _⟩ => exact dma_payload_eq c i hi xt hxt fh0 ⟨94, by decide⟩ _ _ (k0_off377_eq i) _ _ _ rfl j
    | ⟨95, _⟩ => exact dma_payload_eq c i hi xt hxt fh0 ⟨95, by decide⟩ _ _ (k0_off381_eq i) _ _ _ rfl j
    | ⟨96, _⟩ => exact dma_payload_eq c i hi xt hxt fh0 ⟨96, by decide⟩ _ _ (k0_off385_eq i) _ _ _ rfl j
    | ⟨97, _⟩ => exact dma_payload_eq c i hi xt hxt fh0 ⟨97, by decide⟩ _ _ (k0_off389_eq i) _ _ _ rfl j
    | ⟨98, _⟩ => exact dma_payload_eq c i hi xt hxt fh0 ⟨98, by decide⟩ _ _ (k0_off393_eq i) _ _ _ rfl j
    | ⟨99, _⟩ => exact dma_payload_eq c i hi xt hxt fh0 ⟨99, by decide⟩ _ _ (k0_off397_eq i) _ _ _ rfl j
    | ⟨100, _⟩ => exact dma_payload_eq c i hi xt hxt fh0 ⟨100, by decide⟩ _ _ (k0_off401_eq i) _ _ _ rfl j
    | ⟨101, _⟩ => exact dma_payload_eq c i hi xt hxt fh0 ⟨101, by decide⟩ _ _ (k0_off405_eq i) _ _ _ rfl j
    | ⟨102, _⟩ => exact dma_payload_eq c i hi xt hxt fh0 ⟨102, by decide⟩ _ _ (k0_off409_eq i) _ _ _ rfl j
    | ⟨103, _⟩ => exact dma_payload_eq c i hi xt hxt fh0 ⟨103, by decide⟩ _ _ (k0_off413_eq i) _ _ _ rfl j
    | ⟨104, _⟩ => exact dma_payload_eq c i hi xt hxt fh0 ⟨104, by decide⟩ _ _ (k0_off417_eq i) _ _ _ rfl j
    | ⟨105, _⟩ => exact dma_payload_eq c i hi xt hxt fh0 ⟨105, by decide⟩ _ _ (k0_off421_eq i) _ _ _ rfl j
    | ⟨106, _⟩ => exact dma_payload_eq c i hi xt hxt fh0 ⟨106, by decide⟩ _ _ (k0_off425_eq i) _ _ _ rfl j
    | ⟨107, _⟩ => exact dma_payload_eq c i hi xt hxt fh0 ⟨107, by decide⟩ _ _ (k0_off429_eq i) _ _ _ rfl j
    | ⟨108, _⟩ => exact dma_payload_eq c i hi xt hxt fh0 ⟨108, by decide⟩ _ _ (k0_off433_eq i) _ _ _ rfl j
    | ⟨109, _⟩ => exact dma_payload_eq c i hi xt hxt fh0 ⟨109, by decide⟩ _ _ (k0_off437_eq i) _ _ _ rfl j
    | ⟨110, _⟩ => exact dma_payload_eq c i hi xt hxt fh0 ⟨110, by decide⟩ _ _ (k0_off441_eq i) _ _ _ rfl j
    | ⟨111, _⟩ => exact dma_payload_eq c i hi xt hxt fh0 ⟨111, by decide⟩ _ _ (k0_off445_eq i) _ _ _ rfl j
    | ⟨112, _⟩ => exact dma_payload_eq c i hi xt hxt fh0 ⟨112, by decide⟩ _ _ (k0_off449_eq i) _ _ _ rfl j
    | ⟨113, _⟩ => exact dma_payload_eq c i hi xt hxt fh0 ⟨113, by decide⟩ _ _ (k0_off453_eq i) _ _ _ rfl j
    | ⟨114, _⟩ => exact dma_payload_eq c i hi xt hxt fh0 ⟨114, by decide⟩ _ _ (k0_off457_eq i) _ _ _ rfl j
    | ⟨115, _⟩ => exact dma_payload_eq c i hi xt hxt fh0 ⟨115, by decide⟩ _ _ (k0_off461_eq i) _ _ _ rfl j
    | ⟨116, _⟩ => exact dma_payload_eq c i hi xt hxt fh0 ⟨116, by decide⟩ _ _ (k0_off465_eq i) _ _ _ rfl j
    | ⟨117, _⟩ => exact dma_payload_eq c i hi xt hxt fh0 ⟨117, by decide⟩ _ _ (k0_off469_eq i) _ _ _ rfl j
    | ⟨118, _⟩ => exact dma_payload_eq c i hi xt hxt fh0 ⟨118, by decide⟩ _ _ (k0_off473_eq i) _ _ _ rfl j
    | ⟨119, _⟩ => exact dma_payload_eq c i hi xt hxt fh0 ⟨119, by decide⟩ _ _ (k0_off477_eq i) _ _ _ rfl j
    | ⟨120, _⟩ => exact dma_payload_eq c i hi xt hxt fh0 ⟨120, by decide⟩ _ _ (k0_off481_eq i) _ _ _ rfl j
    | ⟨121, _⟩ => exact dma_payload_eq c i hi xt hxt fh0 ⟨121, by decide⟩ _ _ (k0_off485_eq i) _ _ _ rfl j
    | ⟨122, _⟩ => exact dma_payload_eq c i hi xt hxt fh0 ⟨122, by decide⟩ _ _ (k0_off489_eq i) _ _ _ rfl j
    | ⟨123, _⟩ => exact dma_payload_eq c i hi xt hxt fh0 ⟨123, by decide⟩ _ _ (k0_off493_eq i) _ _ _ rfl j
    | ⟨124, _⟩ => exact dma_payload_eq c i hi xt hxt fh0 ⟨124, by decide⟩ _ _ (k0_off497_eq i) _ _ _ rfl j
    | ⟨125, _⟩ => exact dma_payload_eq c i hi xt hxt fh0 ⟨125, by decide⟩ _ _ (k0_off501_eq i) _ _ _ rfl j
    | ⟨126, _⟩ => exact dma_payload_eq c i hi xt hxt fh0 ⟨126, by decide⟩ _ _ (k0_off505_eq i) _ _ _ rfl j
    | ⟨127, _⟩ => exact dma_payload_eq c i hi xt hxt fh0 ⟨127, by decide⟩ _ _ (k0_off509_eq i) _ _ _ rfl j
    | ⟨n + 128, h⟩ => exact absurd h (Nat.not_lt.2 (Nat.le_add_left _ _))
  · rw [View.readAt_eq_ld, harg3.read_unread, View.ld_unit_zero (S := S8000x1024) zeroOff0_2]

section
variable (V : (c : Dev nD) → (b : Ref sig .tc) → Buf (Elt F) ((c : Thread nD τ).loc b))

open Classical in
/-- What the body leaves in the output window's buffer at point `t`: the run's contents at the point's memrefs, the
    id table's contents, the selector and the distance table as the region finds it — when every id names a row of
    the distance table (otherwise nothing is claimed of it). -/
def outsAt0 (a : (pcfg0 (F := F)).Adm) (c : Dev nD) (t : Fin (cfg0 a).N) : Vec F S128x1024 .f32 :=
  if hx : ∀ y : S1024.Idx, ((a.1 0 : S1024.Idx → Elt F .i32) y : BitVec 32).toNat < 8000 then
    out0_1 c (grid0.coords t) (ms0_0 a t) (hs0_0 a t) (ms0_1 a t) (hs0_1 a t) (a.1 0) (iblk0 V a c (0 : Fin 2) t) (V c main_arg2) hx
  else VO0_1.read (Elt F) VO0_1.junk

def dat0 (a : (pcfg0 (F := F)).Adm) (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => outsAt0 V a c t
  Φ _ := Φ0 V a c
  q _ := fullShare
  owed _ := 0

theorem A_eq0 (a : (pcfg0 (F := F)).Adm) (c : Dev nD) (w : Fin (cfg0 a).W) : (dat0 V a c).A w = V c (Pipeline.arrRef spec0 w) := by
  dsimp only [dat0]

/-- What the body leaves, window by window. -/
theorem after0_0 (a : (pcfg0 (F := F)).Adm) (c : Dev nD) (t : Fin (cfg0 a).N) : (dat0 V a c).after (0 : Fin 2) t = iblk0 V a c (0 : Fin 2) t := rfl
theorem after0_1 (a : (pcfg0 (F := F)).Adm) (c : Dev nD) (t : Fin (cfg0 a).N) : (dat0 V a c).after (1 : Fin 2) t = outsAt0 V a c t := rfl

/-- The selector's staging buffer holds the selector at every point. -/
theorem before0_0 (a : (pcfg0 (F := F)).Adm) (c : Dev nD) (t : Fin (cfg0 a).N) (d) : (dat0 V a c).before (0 : Fin 2) t d = iblk0 V a c (0 : Fin 2) t :=
  before0_0_of V a (dat0 V a c) (A_eq0 V a c (0 : Fin 2)) (after0_0 V a c) t d

/-! ## The invariant, conjunct by conjunct -/

/-- The other pallas_call's staging buffers, each whole at some contents: scoped buffers this kernel does not touch. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The distance table's points-to at the region-entry contents. -/
theorem hbmPts0_eq (c : Dev nD) :
    (bigSep H0 (fun b => ((c : Thread nD τ).loc b) ↦{fullShare} V c b) : sProp 𝕄) = iprop(hbPtq c hbM0_0 fullShare (V c main_arg2)) := by
  rw [BI.bigSep_eq_bigSepL_of_eq [main_arg2] (by decide) (by decide)]; rfl

/-- The invariant's first half: the scratch block owned at some contents and the other scoped buffers, the generator
    register at some state, the 128 cells at zero, the distance table whole at its region-entry contents. -/
theorem PhiD0_eq (c : Dev nD) :
    (Pipeline.ΦD osem0 spec0 H0 V c : sProp 𝕄)
      = iprop(iprop((∃ d, owns (c : Thread nD τ) scM0_0 fullShare d) ∗ otherScoped0 (F := F) c) ∗ (∃ r, prngReg c r) ∗ (Pipeline.ownSems0 (Ix := Unit) (Name := ℕ) (U := Pipeline.UD sig nD τ) (Lvl := ℕ) (Val := Elt F) (τ := τ) osem0 c : sProp 𝕄) ∗ iprop(hbPtq c hbM0_0 fullShare (V c main_arg2))) := by
  rw [Pipeline.ΦD_eq, scopedRest0_eq, hbmPts0_eq]; simp only [scM0_0, owns_whole]; try rfl

/-- Its second half: the id table owned whole at the contents the pipeline runs at. -/
theorem prefHeld0_eq (a : (pcfg0 (F := F)).Adm) (c : Dev nD) :
    (Pipeline.prefHeld pre0 c (fun _ => fullShare) a.1 : sProp 𝕄) = owns (c : Thread nD τ) tblM0 fullShare (a.1 0) := by
  unfold Pipeline.prefHeld
  rw [show (Finset.univ : Finset (Fin pre0.K)) = {0} from by decide, bigSep_singleton]
  exact (owns_whole (c : Thread nD τ) main_arg0 fullShare (a.1 0)).symm

/-! ## The body obligation, at a generic point -/

/-- What the body is called with at point `t`, the windows one by one, -/
def bodyPre0 (a : (pcfg0 (F := F)).Adm) (c : Dev nD) (t : Fin (cfg0 a).N) : sProp 𝕄 :=
  iprop((dat0 V a c).Φ t.castSucc ∗ (dat0 V a c).owesAt () t.castSucc
    ∗ (∃ d, owns (c : Thread nD τ) (ms0_0 a t) fullShare ((dat0 V a c).before (0 : Fin 2) t d))
    ∗ (∃ d, owns (c : Thread nD τ) (ms0_1 a t) fullShare ((dat0 V a c).before (1 : Fin 2) t d)))

/-- and what it returns. -/
def bodyPost0 (a : (pcfg0 (F := F)).Adm) (c : Dev nD) (t : Fin (cfg0 a).N) : sProp 𝕄 :=
  iprop((dat0 V a c).Φ t.succ ∗ (dat0 V a c).owesAt () t.succ
    ∗ owns (c : Thread nD τ) (ms0_0 a t) fullShare ((dat0 V a c).after (0 : Fin 2) t)
    ∗ owns (c : Thread nD τ) (ms0_1 a t) fullShare ((dat0 V a c).after (1 : Fin 2) t))

set_option maxHeartbeats 1600000 in
/-- The body at any point: the selector's memref holds the selector; the invariant hands the body the id table, its
    scratch, its 128 cells at zero and the distance table — split into one read share per cell and the remainder — and
    takes them back as they were, the shares joined; the core's dues go in at whatever the points before recorded and
    come back with this point's waits. -/
theorem sound_body0 (a : (pcfg0 (F := F)).Adm) (hx : ∀ y : S1024.Idx, ((a.1 0 : S1024.Idx → Elt F .i32) y : BitVec 32).toNat < 8000)
    (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0]
  rw [show (dat0 V a c).Φ t.succ = (dat0 V a c).Φ t.castSucc from rfl, after0_0, after0_1]
  rw [show (dat0 V a c).Φ t.castSucc = Φ0 V a c from rfl]
  unfold Φ0
  rw [PhiD0_eq, prefHeld0_eq]
  unfold Dat.owesAt Pipeline.owesWithin
  rw [show (dat0 V a c).owed t.castSucc = 0 from rfl, show (dat0 V a c).owed t.succ = 0 from rfl]
  unfold outsAt0
  rw [dif_pos hx]
  unfold out0_1
  iintro ⟨⟨⟨⟨HS0, HR⟩, Hg, Hq, Hh0⟩, Htbl⟩, ⟨%W, -, HW⟩, ⟨%d0, H0⟩, ⟨%d1, H1⟩⟩
  iapply ((kernelRun0 c (grid0.coords t) _ _ _ _ (a.1 0) (iblk0 V a c (0 : Fin 2) t) (V c main_arg2) hx).2 W _)
  isplitl [Htbl]; · iexact Htbl
  isplitl [H0]; · iexact H0
  isplitl [H1]; · iexists _; iexact H1
  isplitl [HS0]; · iexact HS0
  iapply (sems0_intro c _)
  isplitl [Hq]; · iexact Hq
  iapply (toks0_intro c _ _)
  isplitl [Hh0]; · iexact Hh0
  isplitl [HW]; · iexact HW
  iintro ⟨Htbl, H0, ⟨%e1, H1⟩, HS0, Hrest⟩
  ihave Hrest1 := (sems0_elim c _) $$ Hrest
  icases Hrest1 with ⟨Hq, Hrest⟩
  ihave Hrest2 := (toks0_elim c _ _) $$ Hrest
  icases Hrest2 with ⟨Hh0, ⟨%W', HW'⟩⟩
  isplitl [HS0 HR Hg Hq Hh0 Htbl]
  · isplitl [HS0 HR Hg Hq Hh0]
    · isplitl [HS0 HR]
      · isplitl [HS0]; · iexact HS0
        iexact HR
      isplitl [Hg]; · iexact Hg
      isplitl [Hq]; · iexact Hq
      iexact Hh0
    iexact Htbl
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover0_1 c _ _ _ _ _ _ _ _ _)

set_option maxRecDepth 400000 in
/-- The library's body obligation, at every point. -/
theorem body_obligation0 (a : (pcfg0 (F := F)).Adm) (hx : ∀ y : S1024.Idx, ((a.1 0 : S1024.Idx → Elt F .i32) y : BitVec 32).toNat < 8000) (c : Dev nD) :
    BodyObligation (dat0 (F := F) V a c) (defs₀ (F := F)) Variants.none () Set.univ := fun t => by
  rw [bigSep_W0, bigSep_W0]
  rw [show defs₀ (F := F) .tc (cfg0 a).body ((cfg0 a).bodyArgs t ((cfg0 a).slots t)) = bodyAt0 a t from rfl]
  exact sound_body0 V a hx c t

/-- THE VALUE the output window holds after point `t`, every id naming a row of the distance table: the two products of
    the gathered rows' high and low parts with the selector, added. -/
theorem outsAt0_eq (a : (pcfg0 (F := F)).Adm) (hx : ∀ y : S1024.Idx, ((a.1 0 : S1024.Idx → Elt F .i32) y : BitVec 32).toNat < 8000) (c : Dev nD) (t : Fin (cfg0 a).N) :
    outsAt0 V a c t = Gen.k0_pay1 (Gen.k0_pay2 (gathered (grid0.coords t) (a.1 0) (hbM0_0.view.read (Elt F) (V c main_arg2)))) (Gen.k0_pay3 (gathered (grid0.coords t) (a.1 0) (hbM0_0.view.read (Elt F) (V c main_arg2)))) (iblk0 V a c (0 : Fin 2) t) := by
  unfold outsAt0
  rw [dif_pos hx]
  exact out0_1_eq c (grid0.coords t) (grid0.coords t 0).isLt (ms0_0 a t) (hs0_0 a t) (ms0_1 a t) (hs0_1 a t) (a.1 0) (iblk0 V a c (0 : Fin 2) t) (V c main_arg2) hx

end

end Cert.KernelIdeal.H

end
-- ==== Proof.KI.R1Runs.lean ====
/- REGION 1 (the second pallas_call, the combine kernel) of the idealized kernel program: what its two control
   cases' runs share. The region's half of the frame is stated at a parameter `V`, the TensorCore's buffer
   contents when the region is entered. Here: each window's block read off `V`; the four input windows' staging
   buffers hold their blocks at every point; the body's one branch condition (the reduction axis' coordinate is
   zero) in closed form over the grid; the staging memrefs as the pipeline passes them. -/
import proofs.«403333_j71021579206675_3_alg».proof.Proof.Gen.KernelIdeal.Launch
import proofs.«403333_j71021579206675_3_alg».proof.Proof.Gen.KernelIdeal.Skeleton
import proofs.«403333_j71021579206675_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch condition -/

/-- The condition of the body's one `scf.if` (the accumulators' reset), from the grid coordinates: the reduction
    axis' coordinate is zero (the skeleton's scalar chain substituted). -/
abbrev cond1_0 (i : grid1.Coords) : Prop := (Scalar.cmpi .ne (Scalar.extui (Scalar.cmpi .eq (BitVec.ofNat 32 (i 1).val) 0#32)) 0#32) = 1#1
/-- It holds at the first point of each row of the grid — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The staging memrefs -/

/-- One staging buffer of each output window, through which its contents are stated (the choice does not matter). -/
abbrev VO1_4 : View sig .tc .vmem S1x8x128 .f32 := (Memref.whole cc1_stg4_0 : Memref sig .tc .vmem S1x8x128 .f32).view
abbrev VO1_5 : View sig .tc .vmem S1x8x128 .f32 := (Memref.whole cc1_stg5_0 : Memref sig .tc .vmem S1x8x128 .f32).view
/-- Each window's current staging memref at point `t`, spelled as the pipeline passes it, and its wholeness. -/
abbrev ms1_0 (t : Fin cfg1.N) : Memref sig .tc .vmem S128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x8x128 .f32 := win1_5.stage (cfg1.slots t 5)
abbrev hs1_5 (t : Fin cfg1.N) : (ms1_5 t).IsWhole := hstage1_5 ((cfg1.slots t 5).cast nbuf1_5)

end Cert.KernelIdeal.H

end
-- ==== Proof.KI.R1RunA.lean ====
/- REGION 1 of the idealized kernel program, the combine kernel's whole-body run in the case where the accumulators
   are reset (the reduction coordinate is zero). -/
import proofs.«403333_j71021579206675_3_alg».proof.Proof.KI.R1Runs

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two accumulators' staging memrefs, as pieces (last first), AT A POINT WHERE
    THE REDUCTION COORDINATE IS ZERO (the reset is taken), with the proof that on whole staging memrefs — the four
    inputs' at their contents, the two accumulators' at anything — the body runs to the continuation holding the
    inputs' as they were and each accumulator's buffer with its pieces written: the zero fill, then the sum added to
    what was read back. The pieces are the witness the run finds. -/
noncomputable def kernelRun1_A (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) :
    Σ' (L4 : List (View.Piece (Elt F) S1x8x128 .f32)), { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc1__combine_kernel i arg2 harg2 arg3 harg3 arg4 harg4 arg5 harg5 arg6 harg6 arg7 harg7) K } := by
  refine ⟨?_, ?_, fun E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.KernelIdeal.H

end
-- ==== Proof.KI.R1RunB.lean ====
/- REGION 1 of the idealized kernel program, the combine kernel's whole-body run in the case where the accumulators
   carry on from the point before (the reduction coordinate is not zero). -/
import proofs.«403333_j71021579206675_3_alg».proof.Proof.KI.R1RunA

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two accumulators' staging memrefs, as pieces (last first), AT A POINT WHERE
    THE REDUCTION COORDINATE IS NOT ZERO (no reset), with the proof that on whole staging memrefs — the four inputs'
    at their contents, the two accumulators' at their running contents `xo4`, `xo5` — the body runs to the
    continuation holding the inputs' as they were and each accumulator's buffer with its piece written: the sum added
    to the running contents. The pieces are the witness the run finds. -/
noncomputable def kernelRun1_B (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) :
    Σ' (L4 : List (View.Piece (Elt F) S1x8x128 .f32)), { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc1__combine_kernel i arg2 harg2 arg3 harg3 arg4 harg4 arg5 harg5 arg6 harg6 arg7 harg7) K } := by
  refine ⟨?_, ?_, fun E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.KernelIdeal.H

end
-- ==== Proof.KI.R1.lean ====
/- REGION 1 (the second pallas_call, the combine kernel) of the idealized kernel program, its half of the frame and
   value run, stated at the TensorCore's buffer contents `V` when the region is entered: what each control case
   leaves in the two accumulators (the pieces the runs found, covering their blocks), what the accumulators hold
   point by point (by recursion on the point, with its two case equations), the pipeline's proof data, and the body
   obligation at every point. Then the accumulators' contents read as the body's arithmetic: the zero fill and one
   point's contribution added to the running contents. -/
import proofs.«403333_j71021579206675_3_alg».proof.Proof.KI.R1RunB
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## What each case leaves in the two accumulators -/

/-- The reset case's pieces for the first accumulator (the zero fill, then the sum's store) tile its block, so they cover it. -/
theorem cover1_A_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) (y : S1x8x128.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S1x8x128.size (by sl_kernel_rfl) y
/-- and likewise for the second accumulator. -/
theorem cover1_A_5 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) (y : S1x8x128.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S1x8x128.size (by sl_kernel_rfl) y

/-- What the reset case leaves in the first accumulator's staging buffer: its pieces read back over junk. -/
def out1_A_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) : Vec F S1x8x128 .f32 :=
  VO1_4.read (Elt F) (VO1_4.writes (Elt F) VO1_4.junk (kernelRun1_A c i arg2 harg2 arg3 harg3 arg4 harg4 arg5 harg5 arg6 harg6 arg7 harg7 hc0 x0 x1 x2 x3).1)
/-- What the reset case leaves in the second accumulator's staging buffer. -/
def out1_A_5 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) : Vec F S1x8x128 .f32 :=
  VO1_5.read (Elt F) (VO1_5.writes (Elt F) VO1_5.junk (kernelRun1_A c i arg2 harg2 arg3 harg3 arg4 harg4 arg5 harg5 arg6 harg6 arg7 harg7 hc0 x0 x1 x2 x3).2.1)

/-- The carrying case's piece for the first accumulator (the one store of the updated sum) covers its block. -/
theorem cover1_B_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) (y : S1x8x128.Idx) :
    ∃ pc ∈ (kernelRun1_B c i arg2 harg2 arg3 harg3 arg4 harg4 arg5 harg5 arg6 harg6 arg7 harg7 hc0 x0 x1 x2 x3 xo4 xo5).1, y ∈ pc.1.set :=
  View.cover_of_tiledL (kernelRun1_B c i arg2 harg2 arg3 harg3 arg4 harg4 arg5 harg5 arg6 harg6 arg7 harg7 hc0 x0 x1 x2 x3 xo4 xo5).1 S1x8x128.size (by sl_kernel_rfl) y
/-- and likewise for the second accumulator. -/
theorem cover1_B_5 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) (y : S1x8x128.Idx) :
    ∃ pc ∈ (kernelRun1_B c i arg2 harg2 arg3 harg3 arg4 harg4 arg5 harg5 arg6 harg6 arg7 harg7 hc0 x0 x1 x2 x3 xo4 xo5).2.1, y ∈ pc.1.set :=
  View.cover_of_tiledL (kernelRun1_B c i arg2 harg2 arg3 harg3 arg4 harg4 arg5 harg5 arg6 harg6 arg7 harg7 hc0 x0 x1 x2 x3 xo4 xo5).2.1 S1x8x128.size (by sl_kernel_rfl) y

/-- What the carrying case leaves in the first accumulator's staging buffer, over the running contents `xo4`, `xo5`. -/
def out1_B_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) : Vec F S1x8x128 .f32 :=
  VO1_4.read (Elt F) (VO1_4.writes (Elt F) VO1_4.junk (kernelRun1_B c i arg2 harg2 arg3 harg3 arg4 harg4 arg5 harg5 arg6 harg6 arg7 harg7 hc0 x0 x1 x2 x3 xo4 xo5).1)
/-- What the carrying case leaves in the second accumulator's staging buffer. -/
def out1_B_5 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) : Vec F S1x8x128 .f32 :=
  VO1_5.read (Elt F) (VO1_5.writes (Elt F) VO1_5.junk (kernelRun1_B c i arg2 harg2 arg3 harg3 arg4 harg4 arg5 harg5 arg6 harg6 arg7 harg7 hc0 x0 x1 x2 x3 xo4 xo5).2.1)

/-! ## What the accumulators hold after each point -/

/-- THE ACCUMULATION. What the two accumulators' staging buffers hold after the body at position `n`: at the first
    point of a row of the grid (the reduction coordinate zero) the reset case run at the point's memrefs and input
    blocks; elsewhere the carrying case, over what this leaves at `n - 1` (the buffers are not written back
    between). -/
def outsAt1 (c : Dev nD) : (n : ℕ) → n < cfg1.N → Vec F S1x8x128 .f32 × Vec F S1x8x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
      out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
        out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2,
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)

/-- `outsAt1` at a point of the reset case: that case's contents. -/
theorem outsAt1_A (c : Dev nD) (t : Fin cfg1.N) (h0 : t.val % 4 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t),
      out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of the carrying case: that case's contents, over what the point before left. -/
theorem outsAt1_B (c : Dev nD) (t : Fin cfg1.N) (h0 : ¬t.val % 4 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2,
      out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the two accumulators' at `outsAt1`; the invariant the scoped
    rest and the generator register; nothing owed; each input array at the full share, but the one array the third
    and fourth windows both read, held as its two halves. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q := fun
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point of the carrying case each accumulator's current staging buffer holds what the body left at the point
    before: the point is not the first, and the buffer was not written back between (the write-backs come after the
    last point of a row). -/
theorem before1_4_B (c : Dev nD) (t : Fin cfg1.N) (h0 : ¬t.val % 4 = 0) (d) :
    (dat1 V c).before 4 t d = (outsAt1 V c (t.val - 1) (Nat.lt_of_le_of_lt (Nat.sub_le _ _) t.isLt)).1 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]
theorem before1_5_B (c : Dev nD) (t : Fin cfg1.N) (h0 : ¬t.val % 4 = 0) (d) :
    (dat1 V c).before 5 t d = (outsAt1 V c (t.val - 1) (Nat.lt_of_le_of_lt (Nat.sub_le _ _) t.isLt)).2 := by
  have hN : t.val < 32 := lt_of_lt_of_eq t.isLt (show cfg1.N = 32 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' memrefs hold their blocks; the closed form says which case the point is in; in
    the carrying case the accumulators hold what the point before left; so that case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 32 := lt_of_lt_of_eq t.isLt (show cfg1.N = 32 from N_1)
  by_cases h0 : t.val % 4 = 0
  · rw [outsAt1_A V c t h0]
    (try dsimp only)
    unfold out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _ _)
  · rw [outsAt1_B V c t h0]
    simp only [before1_4_B V c t h0, before1_5_B V c t h0]
    (try dsimp only)
    unfold out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! ## The accumulators' contents as the body's arithmetic

The body's pure terms are the skeleton's payloads: `k1_pay6 e_i e_j` the four chunked lane sums of `|e_i - e_j|` added up,
`k1_pay2 s md mask xo` the running contents `xo` plus the broadcast total of `|s / 128 - md| * mask`, `k1_pay3 mask xo` the
running contents plus the broadcast total of `mask`, and `k1_pay4`, `k1_pay5` the zero blocks the reset stores. -/

theorem zeroOff1_2 : (![0, 0] : Fin 2 → Nat) = fun _ => 0 := funext fun a => by fin_cases a <;> rfl
theorem zeroOff1_3 : (![0, 0, 0] : Fin 3 → Nat) = fun _ => 0 := funext fun a => by fin_cases a <;> rfl

/-- THE CARRYING CASE's value, first accumulator: over running contents `xo4` the body leaves `xo4` plus the point's
    masked distance error total — its one covering store's payload, whose loads read the whole buffers. -/
theorem out1_B_4_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) :
    out1_B_4 c i arg2 harg2 arg3 harg3 arg4 harg4 arg5 harg5 arg6 harg6 arg7 harg7 hc0 x0 x1 x2 x3 xo4 xo5 = k1_pay2 (k1_pay6 x2 x3) x0 x1 xo4 := by
  unfold out1_B_4
  rw [View.read_writes_junk_eq_canon]
  unfold kernelRun1_B
  dsimp only
  sl_unfold_words
  rw [View.canon_unit_zero (S := S1x8x128) zeroOff1_3]
  simp only [View.readAt_eq_ld, harg2.read_unread, harg3.read_unread, harg4.read_unread, harg5.read_unread, harg6.read_unread, harg7.read_unread,
    View.ld_unit_zero (S := S128x256) zeroOff1_2, View.ld_unit_zero (S := S128x128) zeroOff1_2, View.ld_unit_zero (S := S256x128) zeroOff1_2, View.ld_unit_zero (S := S1x8x128) zeroOff1_3]

/-- The carrying case's value, second accumulator: `xo5` plus the point's mask total. -/
theorem out1_B_5_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S128x256 .f32) (x1 : Vec F S128x256 .f32) (x2 : Vec F S128x128 .f32) (x3 : Vec F S256x128 .f32) (xo4 : Vec F S1x8x128 .f32) (xo5 : Vec F S1x8x128 .f32) :
    out1_B_5 c i arg2 harg2 arg3 harg3 arg4 harg4 arg5 harg5 arg6 harg6 arg7 harg7 hc0 x0 x1 x2 x3 xo4 xo5 = k1_pay3 x1 xo5 := by
  unfold out1_B_5
  rw [View.read_writes_junk_eq_canon]
  unfold kernelRun1_B
  dsimp only
  sl_unfold_words
  rw [View.canon_unit_zero (S := S1x8x128) zeroOff1_3]
  simp only [View.readAt_eq_ld, harg2.read_unread, harg3.read_unread, harg4.read_unread, harg5.read_unread, harg6.read_unread, harg7.read_unread,
    View.ld_unit_zero (S := S128x256) zeroOff1_2, View.ld_unit_zero (S := S128x128) zeroOff1_2, View.ld_unit_zero (S := S256x128) zeroOff1_2, View.ld_unit_zero (S := S1x8x128) zeroOff1_3]

/-- THE RESET CASE's value, first accumulator: the body stores the zero block, reads it back and leaves zero plus the
    point's masked distance error total. -/
theorem out1_A_4_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) :
    out1_A_4 c i arg2 harg2 arg3 harg3 arg4 harg4 arg5 harg5 arg6 harg6 arg7 harg7 hc0 x0 x1 x2 x3 = k1_pay2 (k1_pay6 x2 x3) x0 x1 (k1_pay4 (F := F)) := by
  unfold out1_A_4
  rw [View.read_writes_junk_eq_canon]
  unfold kernelRun1_A
  dsimp only
  sl_unfold_words
  rw [View.canon_cons_unit_zero (S := S1x8x128) zeroOff1_3, View.readCov_unit_zero (S := S1x8x128) _ zeroOff1_3]
  simp only [View.readAt_eq_ld, harg2.read_unread, harg3.read_unread, harg4.read_unread, harg5.read_unread, harg6.read_unread, harg7.read_unread,
    View.ld_unit_zero (S := S128x256) zeroOff1_2, View.ld_unit_zero (S := S128x128) zeroOff1_2, View.ld_unit_zero (S := S256x128) zeroOff1_2, View.ld_unit_zero (S := S1x8x128) zeroOff1_3]

/-- The reset case's value, second accumulator: zero plus the point's mask total. -/
theorem out1_A_5_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S128x256 .f32) (x1 : Vec F S128x256 .f32) (x2 : Vec F S128x128 .f32) (x3 : Vec F S256x128 .f32) :
    out1_A_5 c i arg2 harg2 arg3 harg3 arg4 harg4 arg5 harg5 arg6 harg6 arg7 harg7 hc0 x0 x1 x2 x3 = k1_pay3 x1 (k1_pay5 (F := F)) := by
  unfold out1_A_5
  rw [View.read_writes_junk_eq_canon]
  unfold kernelRun1_A
  dsimp only
  sl_unfold_words
  rw [View.canon_cons_unit_zero (S := S1x8x128) zeroOff1_3, View.readCov_unit_zero (S := S1x8x128) _ zeroOff1_3]
  simp only [View.readAt_eq_ld, harg2.read_unread, harg3.read_unread, harg4.read_unread, harg5.read_unread, harg6.read_unread, harg7.read_unread,
    View.ld_unit_zero (S := S128x256) zeroOff1_2, View.ld_unit_zero (S := S128x128) zeroOff1_2, View.ld_unit_zero (S := S256x128) zeroOff1_2, View.ld_unit_zero (S := S1x8x128) zeroOff1_3]

section Regions
variable (V : (c : Dev nD) → (b : Ref sig .tc) → Buf (Elt F) ((c : Thread nD τ).loc b))

/-- After a point where the reduction coordinate is zero the first accumulator holds zero plus that point's term, a
    function of the point's four input blocks only; -/
theorem after1_4_A (c : Dev nD) (t : Fin cfg1.N) (h0 : t.val % 4 = 0) :
    (dat1 V c).after 4 t = k1_pay2 (k1_pay6 (iblk1 V c 2 t) (iblk1 V c 3 t)) (iblk1 V c 0 t) (iblk1 V c 1 t) (k1_pay4 (F := F)) := by
  rw [after1_4 V c t, outsAt1_A V c t h0]
  dsimp only
  exact out1_A_4_eq c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)
/-- the second accumulator zero plus that point's mask total. -/
theorem after1_5_A (c : Dev nD) (t : Fin cfg1.N) (h0 : t.val % 4 = 0) :
    (dat1 V c).after 5 t = k1_pay3 (iblk1 V c 1 t) (k1_pay5 (F := F)) := by
  rw [after1_5 V c t, outsAt1_A V c t h0]
  dsimp only
  exact out1_A_5_eq c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)
/-- After any other point the first accumulator holds what it held after the point before plus this point's term; -/
theorem after1_4_B (c : Dev nD) (t : Fin cfg1.N) (h0 : ¬t.val % 4 = 0) :
    (dat1 V c).after 4 t = k1_pay2 (k1_pay6 (iblk1 V c 2 t) (iblk1 V c 3 t)) (iblk1 V c 0 t) (iblk1 V c 1 t) ((dat1 V c).after 4 ⟨t.val - 1, (Nat.lt_of_le_of_lt (Nat.sub_le _ _) t.isLt)⟩) := by
  rw [after1_4 V c t, after1_4 V c ⟨t.val - 1, (Nat.lt_of_le_of_lt (Nat.sub_le _ _) t.isLt)⟩, outsAt1_B V c t h0]
  dsimp only
  exact out1_B_4_eq c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2
/-- the second accumulator what it held after the point before plus this point's mask total. -/
theorem after1_5_B (c : Dev nD) (t : Fin cfg1.N) (h0 : ¬t.val % 4 = 0) :
    (dat1 V c).after 5 t = k1_pay3 (iblk1 V c 1 t) ((dat1 V c).after 5 ⟨t.val - 1, (Nat.lt_of_le_of_lt (Nat.sub_le _ _) t.isLt)⟩) := by
  rw [after1_5 V c t, after1_5 V c ⟨t.val - 1, (Nat.lt_of_le_of_lt (Nat.sub_le _ _) t.isLt)⟩, outsAt1_B V c t h0]
  dsimp only
  exact out1_B_5_eq c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2

end Regions

end Cert.KernelIdeal.H

end
-- ==== Proof.KI.Run.lean ====
/-
  The launch of the printed program: @main as host stretches and kernel regions, from the launch memory to the
  return, and what every unscoped buffer of the core holds at the end (a fold through @main's items).
-/
import proofs.«403333_j71021579206675_3_alg».proof.Proof.KI.R0
import proofs.«403333_j71021579206675_3_alg».proof.Proof.KI.R1

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffer contents at each boundary between two items of @main -/

/-- The one core of the mesh. -/
abbrev c₀ : Dev nD := 0
theorem dev_eq (c : Dev nD) : c = c₀ := Subsingleton.elim _ _

/-- Core `c`'s buffers at launch. -/
abbrev W0 (m : (ℓ : Loc nD τ sig) → Buf (Elt F) ℓ) (ρ : Dev nD → PrngReg) : Dev nD → Valuation τ sig (Elt F) :=
  fun c b => m (c, b)
/-- After the first host stretch (the one-hot selector). -/
abbrev W1 (m : (ℓ : Loc nD τ sig) → Buf (Elt F) ℓ) (ρ : Dev nD → PrngReg) : Dev nD → Valuation τ sig (Elt F) :=
  fun c => StableHlo.after hostOps0 (W0 m ρ c)
/-- After the second host stretch (the selector transposed, the pair mask): region 0's entry. -/
abbrev W2 (m : (ℓ : Loc nD τ sig) → Buf (Elt F) ℓ) (ρ : Dev nD → PrngReg) : Dev nD → Valuation τ sig (Elt F) :=
  fun c => StableHlo.after hostOps0_1 (W1 m ρ c)
/-- The same read at the TensorCore's references (what region 0's proof data take). -/
abbrev U2 (m : (ℓ : Loc nD τ sig) → Buf (Elt F) ℓ) (ρ : Dev nD → PrngReg) :
    (c : Dev nD) → (b : Ref sig .tc) → Buf (Elt F) ((c : Thread nD τ).loc b) := fun c b => W2 m ρ c b

/-- The tables' contents: the id table as launched (the mesh has one core), and no table for the second call. -/
def adm (m : (ℓ : Loc nD τ sig) → Buf (Elt F) ℓ) : (p : Fin 2) → (pcfgs (F := F) p).Adm
  | ⟨0, _⟩ => ⟨fun | ⟨0, _⟩ => m ((c₀ : Thread nD τ).loc main_arg0), trivial⟩
  | ⟨1, _⟩ => cfg1.toPCfg_adm

theorem W1_of (m : (ℓ : Loc nD τ sig) → Buf (Elt F) ℓ) (ρ : Dev nD → PrngReg) (c : Dev nD) (r : Ref sig .tc)
    (h : r ∉ hostOps0_W) : W1 m ρ c r = W0 m ρ c r := Gen.V1_of m c r h
theorem W2_of (m : (ℓ : Loc nD τ sig) → Buf (Elt F) ℓ) (ρ : Dev nD → PrngReg) (c : Dev nD) (r : Ref sig .tc)
    (h : r ∉ hostOps0_1_W) : W2 m ρ c r = W1 m ρ c r := Gen.V2_of m c r h

/-- At region 0's exit: its arrays at what the pipeline leaves, every other buffer as entered. -/
def W3 (m : (ℓ : Loc nD τ sig) → Buf (Elt F) ℓ) (ρ : Dev nD → PrngReg) (c : Dev nD) : Valuation τ sig (Elt F) :=
  Pipeline.withArrays spec0 c (W2 m ρ c) fun w => (dat0 (U2 m ρ) (adm m 0) c).arrAt w (cfg0 (adm m 0)).N
theorem W3_arr (m : (ℓ : Loc nD τ sig) → Buf (Elt F) ℓ) (ρ : Dev nD → PrngReg) (c : Dev nD) (w : Fin (cfg0 (adm m 0)).W) :
    W3 m ρ c (Proc.devRef .tc (Pipeline.arrRef spec0 w)) = (dat0 (U2 m ρ) (adm m 0) c).arrAt w (cfg0 (adm m 0)).N := by
  unfold W3; exact Pipeline.withArrays_arr spec0 winFacts0.arr_inj c _ _ w
theorem W3_of_ne (m : (ℓ : Loc nD τ sig) → Buf (Elt F) ℓ) (ρ : Dev nD → PrngReg) (c : Dev nD) (b : Ref sig .tc)
    (hb : ∀ w, Pipeline.arrRef spec0 w ≠ b) : W3 m ρ c (Proc.devRef .tc b) = W2 m ρ c (Proc.devRef .tc b) := by
  unfold W3; exact Pipeline.withArrays_of_ne spec0 c _ _ b hb
/-- The same read at the TensorCore's references (region 0's exit contents, region 1's entry). -/
abbrev U3 (m : (ℓ : Loc nD τ sig) → Buf (Elt F) ℓ) (ρ : Dev nD → PrngReg) :
    (c : Dev nD) → (b : Ref sig .tc) → Buf (Elt F) ((c : Thread nD τ).loc b) := fun c b => W3 m ρ c b
theorem hF0 (m : (ℓ : Loc nD τ sig) → Buf (Elt F) ℓ) (ρ : Dev nD → PrngReg) (c : Dev nD) (w : Fin (cfg0 (adm m 0)).W) :
    (dat0 (U2 m ρ) (adm m 0) c).arrAt w (cfg0 (adm m 0)).N = U3 m ρ c (Pipeline.arrRef spec0 w) := (W3_arr m ρ c w).symm
theorem hrest0 (m : (ℓ : Loc nD τ sig) → Buf (Elt F) ℓ) (ρ : Dev nD → PrngReg) (c : Dev nD) :
    ∀ b, b ∉ Finset.univ.image (Pipeline.arrRef spec0) → U3 m ρ c b = U2 m ρ c b :=
  fun b hb => W3_of_ne m ρ c b fun w e => hb (Finset.mem_image.mpr ⟨w, Finset.mem_univ _, e⟩)

/-- At region 1's exit: the two accumulators at what the pipeline leaves, every other buffer as entered (the region's
    other four windows are inputs, two of them on one array). -/
def W4 (m : (ℓ : Loc nD τ sig) → Buf (Elt F) ℓ) (ρ : Dev nD → PrngReg) (c : Dev nD) : Valuation τ sig (Elt F) :=
  Function.update (Function.update (W3 m ρ c) (Proc.devRef .tc main_v9_0) ((dat1 (U3 m ρ) c).arrAt 4 cfg1.N))
    (Proc.devRef .tc main_v9_1) ((dat1 (U3 m ρ) c).arrAt 5 cfg1.N)
theorem W4_main_v9_0 (m : (ℓ : Loc nD τ sig) → Buf (Elt F) ℓ) (ρ : Dev nD → PrngReg) (c : Dev nD) :
    W4 m ρ c (Proc.devRef .tc main_v9_0) = (dat1 (U3 m ρ) c).arrAt 4 cfg1.N := by
  unfold W4
  rw [Function.update_of_ne (StableHlo.devRef_ne_of_ne (by decide) : (Proc.devRef .tc main_v9_0 : DevRef τ sig) ≠ Proc.devRef .tc main_v9_1),
    Function.update_self]
theorem W4_main_v9_1 (m : (ℓ : Loc nD τ sig) → Buf (Elt F) ℓ) (ρ : Dev nD → PrngReg) (c : Dev nD) :
    W4 m ρ c (Proc.devRef .tc main_v9_1) = (dat1 (U3 m ρ) c).arrAt 5 cfg1.N := by
  unfold W4; rw [Function.update_self]
theorem W4_of_ne (m : (ℓ : Loc nD τ sig) → Buf (Elt F) ℓ) (ρ : Dev nD → PrngReg) (c : Dev nD) (r : Ref sig .tc)
    (h : r ∉ ([main_v9_0, main_v9_1] : List (Ref sig .tc))) : W4 m ρ c (Proc.devRef .tc r) = W3 m ρ c (Proc.devRef .tc r) := by
  unfold W4
  rw [Function.update_of_ne (StableHlo.devRef_ne_of_ne (List.ne_of_not_mem_cons (List.not_mem_of_not_mem_cons h)) : (Proc.devRef .tc r : DevRef τ sig) ≠ Proc.devRef .tc main_v9_1),
    Function.update_of_ne (StableHlo.devRef_ne_of_ne (List.ne_of_not_mem_cons h) : (Proc.devRef .tc r : DevRef τ sig) ≠ Proc.devRef .tc main_v9_0)]
/-- The same read at the TensorCore's references (region 1's exit contents). -/
abbrev U4 (m : (ℓ : Loc nD τ sig) → Buf (Elt F) ℓ) (ρ : Dev nD → PrngReg) :
    (c : Dev nD) → (b : Ref sig .tc) → Buf (Elt F) ((c : Thread nD τ).loc b) := fun c b => W4 m ρ c b

/-- After the last host stretch (the two sums and their quotient): the return. -/
abbrev W5 (m : (ℓ : Loc nD τ sig) → Buf (Elt F) ℓ) (ρ : Dev nD → PrngReg) : Dev nD → Valuation τ sig (Elt F) :=
  fun c => StableHlo.after hostOps2 (W4 m ρ c)
theorem W5_of (m : (ℓ : Loc nD τ sig) → Buf (Elt F) ℓ) (ρ : Dev nD → PrngReg) (c : Dev nD) (r : Ref sig .tc)
    (h : r ∉ hostOps2_W) : W5 m ρ c r = W4 m ρ c r :=
  StableHlo.after_of_writes_sub hostOps2 _ hostOps2_writes h

/-! ### The arguments end as launched -/

theorem W2_main_arg0 (m : (ℓ : Loc nD τ sig) → Buf (Elt F) ℓ) (ρ : Dev nD → PrngReg) (c : Dev nD) :
    W2 m ρ c (Proc.devRef .tc main_arg0) = m ((c : Thread nD τ).loc main_arg0) :=
  (W2_of m ρ c main_arg0 (by decide)).trans <| (W1_of m ρ c main_arg0 (by decide)).trans rfl
theorem W5_main_arg0 (m : (ℓ : Loc nD τ sig) → Buf (Elt F) ℓ) (ρ : Dev nD → PrngReg) (c : Dev nD) :
    W5 m ρ c (Proc.devRef .tc main_arg0) = m ((c : Thread nD τ).loc main_arg0) :=
  (W5_of m ρ c main_arg0 (by decide)).trans <| (W4_of_ne m ρ c main_arg0 (by decide)).trans <|
    (W3_of_ne m ρ c main_arg0 (by decide)).trans <| W2_main_arg0 m ρ c
theorem W5_main_arg1 (m : (ℓ : Loc nD τ sig) → Buf (Elt F) ℓ) (ρ : Dev nD → PrngReg) (c : Dev nD) :
    W5 m ρ c (Proc.devRef .tc main_arg1) = m ((c : Thread nD τ).loc main_arg1) :=
  (W5_of m ρ c main_arg1 (by decide)).trans <| (W4_of_ne m ρ c main_arg1 (by decide)).trans <|
    (W3_of_ne m ρ c main_arg1 (by decide)).trans <| (W2_of m ρ c main_arg1 (by decide)).trans <|
    (W1_of m ρ c main_arg1 (by decide)).trans rfl
theorem W5_main_arg2 (m : (ℓ : Loc nD τ sig) → Buf (Elt F) ℓ) (ρ : Dev nD → PrngReg) (c : Dev nD) :
    W5 m ρ c (Proc.devRef .tc main_arg2) = m ((c : Thread nD τ).loc main_arg2) :=
  (W5_of m ρ c main_arg2 (by decide)).trans <| (W4_of_ne m ρ c main_arg2 (by decide)).trans <|
    (W3_of_ne m ρ c main_arg2 (by decide)).trans <| (W2_of m ρ c main_arg2 (by decide)).trans <|
    (W1_of m ρ c main_arg2 (by decide)).trans rfl

/-! ## The proof data family and the thread state -/

/-- Every pipeline's proof data, each at its region's entry contents. -/
def pdats (m : (ℓ : Loc nD τ sig) → Buf (Elt F) ℓ) (ρ : Dev nD → PrngReg) :
    (p : Fin 2) → (c : Dev nD) → Dat τ (Elt F) Unit ℕ (Pipeline.UD sig nD τ) ℕ (Pipeline.pin (pcfgs (F := F)) (adm m) p) c
  | ⟨0, _⟩ => fun c => dat0 (U2 m ρ) (adm m 0) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (m : (ℓ : Loc nD τ sig) → Buf (Elt F) ℓ) (ρ : Dev nD → PrngReg) (c : Dev nD) : sProp 𝕄 :=
  iprop(StableHlo.held (c : Thread nD τ) (Pipeline.ucRefs τ sig) (W5 m ρ c) ∗ ∃ r, prngReg c r)

/-- The id table's entry contents are the tables' admissible contents. -/
theorem pref_eq (m : (ℓ : Loc nD τ sig) → Buf (Elt F) ℓ) (ρ : Dev nD → PrngReg) (c : Dev nD) :
    (fun k => U2 m ρ c (pre0.ref k)) = (adm m 0).1 := by
  funext k
  match k with
  | ⟨0, _⟩ => obtain rfl := dev_eq c; exact W2_main_arg0 m ρ c₀

/-! ## The regions as segments -/

set_option backward.isDefEq.respectTransparency.types false in
/-- REGION 0 over the thread state: entered from every unscoped buffer at `W2`, left at `W3`. Its arrays split out of the
    unscoped buffers and put back at the exit contents; the id table held beside them, handed to the pipeline at entry and
    returned at exit; the generator register, the kernel's 128 cells at zero and the distance table into the invariant and
    out; nothing owed. -/
def reg0 (m : (ℓ : Loc nD τ sig) → Buf (Elt F) ℓ) (ρ : Dev nD → PrngReg)
    (hx : ∀ (c : Dev nD) (y : S1024.Idx), ((m ((c : Thread nD τ).loc main_arg0) : S1024.Idx → Elt F .i32) y : BitVec 32).toNat < 8000) :
    Pipeline.RegionSeg (pcfgs (F := F)) (adm m) (pdats m ρ) () defs₀ 𝒱₀ L lv 0 where
  win := winFacts0.to₀
  block_pos := block_pos0
  stage_whole := stage_whole0
  K := Fin 128
  osem := osem0
  ho := ownSemFacts0
  hbody c := (body_obligation0 (U2 m ρ) (adm m 0) (fun y => hx c₀ y) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} U2 m ρ c b))
  Y c := iprop((∃ r, prngReg c r) ∗ (bigSep H0 fun b => (((c : Thread nD τ)).loc b) ↦{fullShare} U2 m ρ c b) ∗ Pipeline.prefHeld pre0 c (fun _ => fullShare) (adm m 0).1)
  Z c := bigSep (Pipeline.restRefsP sig pre0 spec0 \ H0) fun b => (((c : Thread nD τ)).loc b) ↦{fullShare} U2 m ρ c b
  hentry c := by
    have hsplit := Pipeline.arrays_of_unscopedBufs (p := 0) (pcfgs (F := F)) (adm m) (pdats m ρ) winFacts0 arr_whole0 c
      ((pdats m ρ 0 c).share_full fun _ => rfl) (U2 m ρ c) fun _ => rfl
    rw [Pipeline.unscopedBufs_held] at hsplit
    have hP : (Pipeline.unscopedRest (Ix := Unit) (Name := ℕ) (U := Pipeline.UD sig nD τ) (Lvl := ℕ) spec0 c (U2 m ρ c) : sProp 𝕄)
        = iprop(Pipeline.prefHeld pre0 c (fun _ => fullShare) (adm m 0).1 ∗ Pipeline.unscopedRestP pre0 spec0 c (U2 m ρ c)) := by
      rw [Pipeline.unscopedRest_split preFacts0 c (U2 m ρ c), pref_eq m ρ c]
    have hH := Pipeline.unscopedRestP_sdiff (Val := Elt F) (nD := nD) (τ := τ) pre0 spec0 H0 H0_sub c (U2 m ρ c)
    iintro ⟨⟨Hub, Hp, HO⟩, Hos, -⟩
    ihave H := hsplit $$ Hub
    icases H with ⟨Ha, Hrest⟩
    ihave H' := (Entails.of_eq hP) $$ Hrest
    icases H' with ⟨Hpf, HrestP⟩
    ihave H'' := (Entails.of_eq hH) $$ HrestP
    icases H'' with ⟨HH, HR⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 0 c).Φ 0 = Φ0 (U2 m ρ) (adm m 0) c from rfl]; unfold Φ0; rw [Pipeline.ΦD_eq]
    iintro ⟨⟨Hp, Ho, HH⟩, Hpf, Hr⟩
    isplitr [Hpf]
    · isplitl [Hr]; · iexact Hr
      isplitl [Hp]; · iexact Hp
      isplitl [Ho]; · iexact Ho
      iexact HH
    iexact Hpf
  hout c := by
    rw [show (pdats m ρ 0 c).Φ (Fin.last _) = Φ0 (U2 m ρ) (adm m 0) c from rfl]; unfold Φ0; rw [Pipeline.ΦD_eq]
    iintro ⟨⟨Hr, Hp, Ho, HH⟩, Hpf⟩
    isplitl [Hp HH Hpf]
    · isplitl [Hp]; · iexact Hp
      isplitl [HH]; · iexact HH
      iexact Hpf
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m ρ) ((pdats m ρ 0 c).share_full fun _ => rfl)
      (U2 m ρ c) (U3 m ρ c) ((pdats m ρ 0 c).arrAt · (cfg0 (adm m 0)).N) (hF0 m ρ c) (hrest0 m ρ c)
    rw [Pipeline.unscopedBufs_held] at hjoin
    have hP : (Pipeline.unscopedRest (Ix := Unit) (Name := ℕ) (U := Pipeline.UD sig nD τ) (Lvl := ℕ) spec0 c (U2 m ρ c) : sProp 𝕄)
        = iprop(Pipeline.prefHeld pre0 c (fun _ => fullShare) (adm m 0).1 ∗ Pipeline.unscopedRestP pre0 spec0 c (U2 m ρ c)) := by
      rw [Pipeline.unscopedRest_split preFacts0 c (U2 m ρ c), pref_eq m ρ c]
    have hH := Pipeline.unscopedRestP_sdiff (Val := Elt F) (nD := nD) (τ := τ) pre0 spec0 H0 H0_sub c (U2 m ρ c)
    iintro ⟨Ha, HO, ⟨HY, HH, Hpf⟩, HR⟩
    ihave HrestP := (Entails.of_eq hH.symm) $$ [HH HR]
    · isplitl [HH]; · iexact HH
      iexact HR
    ihave Hrest := (Entails.of_eq hP.symm) $$ [Hpf HrestP]
    · isplitl [Hpf]; · iexact Hpf
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1's arrays: six windows on five buffers (two input windows read the embeddings' array) -/

/-- A window's array is a whole buffer: its points-to at the array's elements is the buffer's. -/
theorem arr1_pt (c : Dev nD) (w : Fin 6) (q : PosShare TreeShare) (f : Buf (Elt F) ((cfg1.win w).arr.view.loc (c : Thread nD τ))) :
    (((cfg1.win w).arr.view.loc (c : Thread nD τ)) ↦[(cfg1.win w).arr.view.set]{q} f : sProp 𝕄)
      = (((c : Thread nD τ).loc (Pipeline.arrRef spec1 w)) ↦{q} f) := by
  rw [show (cfg1.win w).arr.view.set = Finset.univ from (arr_whole1 w).set_eq_univ]

/-- The region's arrays window by window: the embeddings' array read by two windows, each at one half of it. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v8) ↦{fullShare} G 0) ∗ (((c : Thread nD τ).loc main_v7) ↦{fullShare} G 1)
          ∗ (((c : Thread nD τ).loc main_arg1) ↦{fullShare.left} G 2) ∗ (((c : Thread nD τ).loc main_arg1) ↦{fullShare.right} G 3)
          ∗ (((c : Thread nD τ).loc main_v9_0) ↦{fullShare} G 4) ∗ (((c : Thread nD τ).loc main_v9_1) ↦{fullShare} G 5)) := by
  unfold Pipeline.Dat.arrays
  rw [bigSep_W1, arr1_pt c 0, arr1_pt c 1, arr1_pt c 2, arr1_pt c 3, arr1_pt c 4, arr1_pt c 5]
  rfl

/-- The five buffers behind the region's arrays, one by one. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v8) ↦{fullShare} V main_v8) ∗ (((c : Thread nD τ).loc main_v7) ↦{fullShare} V main_v7)
          ∗ (((c : Thread nD τ).loc main_arg1) ↦{fullShare} V main_arg1)
          ∗ (((c : Thread nD τ).loc main_v9_0) ↦{fullShare} V main_v9_0) ∗ (((c : Thread nD τ).loc main_v9_1) ↦{fullShare} V main_v9_1)) := by
  unfold Pipeline.arrBufs
  exact bigSep_eq_bigSepL_of_eq [main_v8, main_v7, main_arg1, main_v9_0, main_v9_1] (by decide) (by decide) _

/-- ENTRY: the five buffers at the entry contents make the region's arrays, the embeddings' array split in two halves. -/
theorem hsplit1 (m : (ℓ : Loc nD τ sig) → Buf (Elt F) ℓ) (ρ : Dev nD → PrngReg) (c : Dev nD) :
    (Pipeline.arrBufs (Ix := Unit) (Name := ℕ) (U := Pipeline.UD sig nD τ) (Lvl := ℕ) spec1 c (U3 m ρ c) : sProp 𝕄)
      ⊢ (dat1 (U3 m ρ) c).arrays ((dat1 (U3 m ρ) c).arrAt · 0) := by
  rw [arrays1_eq, arrBufs1_eq]
  iintro ⟨H0, H1, H2, H4, H5⟩
  ihave H23 := (pointsTo_share (PosShare.mem_left_op_right fullShare)).1 $$ H2
  icases H23 with ⟨H2, H3⟩
  isplitl [H0]; · iexact H0
  isplitl [H1]; · iexact H1
  isplitl [H2]; · iexact H2
  isplitl [H3]; · iexact H3
  isplitl [H4]; · iexact H4
  iexact H5

/-- EXIT: the region's arrays at their final contents are the five buffers at the exit contents, the two halves of the
    embeddings' array (both as entered: neither window writes) rejoined. -/
theorem hjoin1 (m : (ℓ : Loc nD τ sig) → Buf (Elt F) ℓ) (ρ : Dev nD → PrngReg) (c : Dev nD) :
    ((dat1 (U3 m ρ) c).arrays ((dat1 (U3 m ρ) c).arrAt · cfg1.N) : sProp 𝕄)
      ⊢ Pipeline.arrBufs (Ix := Unit) (Name := ℕ) (U := Pipeline.UD sig nD τ) (Lvl := ℕ) spec1 c (U4 m ρ c) := by
  have e0 : (dat1 (U3 m ρ) c).arrAt 0 cfg1.N = U4 m ρ c main_v8 :=
    (((dat1 (U3 m ρ) c).arrAt_in 0 rfl _).trans (A_eq1 (U3 m ρ) c 0)).trans (W4_of_ne m ρ c main_v8 (by decide)).symm
  have e1 : (dat1 (U3 m ρ) c).arrAt 1 cfg1.N = U4 m ρ c main_v7 :=
    (((dat1 (U3 m ρ) c).arrAt_in 1 rfl _).trans (A_eq1 (U3 m ρ) c 1)).trans (W4_of_ne m ρ c main_v7 (by decide)).symm
  have e2 : (dat1 (U3 m ρ) c).arrAt 2 cfg1.N = U4 m ρ c main_arg1 :=
    (((dat1 (U3 m ρ) c).arrAt_in 2 rfl _).trans (A_eq1 (U3 m ρ) c 2)).trans (W4_of_ne m ρ c main_arg1 (by decide)).symm
  have e3 : (dat1 (U3 m ρ) c).arrAt 3 cfg1.N = U4 m ρ c main_arg1 :=
    (((dat1 (U3 m ρ) c).arrAt_in 3 rfl _).trans (A_eq1 (U3 m ρ) c 3)).trans (W4_of_ne m ρ c main_arg1 (by decide)).symm
  have e4 : (dat1 (U3 m ρ) c).arrAt 4 cfg1.N = U4 m ρ c main_v9_0 := (W4_main_v9_0 m ρ c).symm
  have e5 : (dat1 (U3 m ρ) c).arrAt 5 cfg1.N = U4 m ρ c main_v9_1 := (W4_main_v9_1 m ρ c).symm
  rw [arrays1_eq, arrBufs1_eq, e0, e1, e2, e3, e4, e5]
  iintro ⟨H0, H1, H2, H3, H4, H5⟩
  ihave H23 := (pointsTo_share (PosShare.mem_left_op_right fullShare)).2 $$ [H2 H3]
  · isplitl [H2] <;> iassumption
  isplitl [H0]; · iexact H0
  isplitl [H1]; · iexact H1
  isplitl [H23]; · iexact H23
  isplitl [H4]; · iexact H4
  iexact H5

/-- The buffers that bypass region 1 hold at its exit what they held at its entry. -/
theorem rest1_eq (m : (ℓ : Loc nD τ sig) → Buf (Elt F) ℓ) (ρ : Dev nD → PrngReg) (c : Dev nD) :
    (Pipeline.unscopedRest (Ix := Unit) (Name := ℕ) (U := Pipeline.UD sig nD τ) (Lvl := ℕ) spec1 c (U4 m ρ c) : sProp 𝕄)
      = Pipeline.unscopedRest spec1 c (U3 m ρ c) := by
  unfold Pipeline.unscopedRest
  refine bigSep_congr fun b hb => ?_
  have hb' := (Finset.mem_sdiff.mp hb).2
  have h4 : b ≠ main_v9_0 := fun e => hb' (e ▸ Finset.mem_image.mpr ⟨4, Finset.mem_univ _, rfl⟩)
  have h5 : b ≠ main_v9_1 := fun e => hb' (e ▸ Finset.mem_image.mpr ⟨5, Finset.mem_univ _, rfl⟩)
  rw [show U4 m ρ c b = U3 m ρ c b from W4_of_ne m ρ c b (by simp [h4, h5])]

set_option backward.isDefEq.respectTransparency.types false in
/-- REGION 1 over the thread state: entered from every unscoped buffer at `W3`, left at `W4`. The buffers behind its
    arrays split out of the unscoped buffers (the embeddings' array in two halves, one per window reading it) and put back
    at the exit contents; the generator register into the class invariant and out; nothing owed; no cell of its own. -/
def reg1 (m : (ℓ : Loc nD τ sig) → Buf (Elt F) ℓ) (ρ : Dev nD → PrngReg) :
    Pipeline.RegionSeg (pcfgs (F := F)) (adm m) (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (U3 m ρ c)
  hentry c := by
    rw [Pipeline.ownSems0_none]
    have hs : (StableHlo.held (c : Thread nD τ) (Pipeline.ucRefs τ sig) (W3 m ρ c) : sProp 𝕄)
        = iprop(Pipeline.arrBufs spec1 c (U3 m ρ c) ∗ Pipeline.unscopedRest spec1 c (U3 m ρ c)) := by
      rw [← Pipeline.unscopedBufs_held (Ix := Unit) (Name := ℕ) (U := Pipeline.UD sig nD τ) (Lvl := ℕ) c (W3 m ρ c)]
      exact Pipeline.unscopedBufs_split₀ (Pipeline.pin (pcfgs (F := F)) (adm m)) 1 winFacts₀1.arr_unscoped c (U3 m ρ c)
    have hsplit := hsplit1 m ρ c
    iintro ⟨⟨Hub, Hp, HO⟩, -, -⟩
    ihave H := (Entails.of_eq hs) $$ Hub
    icases H with ⟨Hb, Hrest⟩
    ihave Ha := hsplit $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hs : (StableHlo.held (c : Thread nD τ) (Pipeline.ucRefs τ sig) (W4 m ρ c) : sProp 𝕄)
        = iprop(Pipeline.arrBufs spec1 c (U4 m ρ c) ∗ Pipeline.unscopedRest spec1 c (U3 m ρ c)) := by
      rw [← Pipeline.unscopedBufs_held (Ix := Unit) (Name := ℕ) (U := Pipeline.UD sig nD τ) (Lvl := ℕ) c (W4 m ρ c), ← rest1_eq m ρ c]
      exact Pipeline.unscopedBufs_split₀ (Pipeline.pin (pcfgs (F := F)) (adm m)) 1 winFacts₀1.arr_unscoped c (U4 m ρ c)
    have hjoin : ((pdats m ρ 1 c).arrays ((pdats m ρ 1 c).arrAt · (Pipeline.pin (pcfgs (F := F)) (adm m) 1).N) : sProp 𝕄)
        ⊢ Pipeline.arrBufs (Ix := Unit) (Name := ℕ) (U := Pipeline.UD sig nD τ) (Lvl := ℕ) spec1 c (U4 m ρ c) := hjoin1 m ρ c
    iintro ⟨Ha, HO, HY, Hrest⟩
    ihave Hb := hjoin $$ Ha
    imodintro
    isplitl [Hb Hrest]
    · iapply (Entails.of_eq hs.symm); isplitl [Hb] <;> iassumption
    isplitl [HY]; · iexact HY
    unfold Pipeline.Dat.owesAt Pipeline.owesWithin
    icases HO with ⟨%W, -, HO⟩; iexists W; iexact HO

/-! ## @main as segments, and the launch -/

/-- @main's five items in order: a host segment per stretch from its boundary's contents, a region per kernel call. -/
abbrev segs (m : (ℓ : Loc nD τ sig) → Buf (Elt F) ℓ) (ρ : Dev nD → PrngReg)
    (hx : ∀ (c : Dev nD) (y : S1024.Idx), ((m ((c : Thread nD τ).loc main_arg0) : S1024.Idx → Elt F .i32) y : BitVec 32).toNat < 8000) :
    List (Pipeline.Seg (pcfgs (F := F)) (adm m) (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ hx),
    .region (reg1 m ρ),
    .host (hseg hostOps2 hostOps2_sub hostOps2_fresh (W4 m ρ)) ]

/-- @main is the run of the segments: the printed chain of items, item by item. -/
theorem main_run (m : (ℓ : Loc nD τ sig) → Buf (Elt F) ℓ) (ρ : Dev nD → PrngReg)
    (hx : ∀ (c : Dev nD) (y : S1024.Idx), ((m ((c : Thread nD τ).loc main_arg0) : S1024.Idx → Elt F .i32) y : BitVec 32).toNat < 8000)
    (c : Dev nD) : main (F := F) c = Pipeline.Seg.run (segs m ρ hx) := by
  rw [main_chain c, Pipeline.Seg.run_eq_chain]
  rfl

set_option backward.isDefEq.respectTransparency.types false in
/-- THE RUN: at the compiled mesh, from any memory with zero counters whose id table names rows of the distance table,
    every weakly fair execution of @main terminates, nothing faulting, and every final state holds every unscoped buffer
    at the fold's last contents. -/
theorem run_all (m : (ℓ : Loc nD τ sig) → Buf (Elt F) ℓ) (ρ : Dev nD → PrngReg)
    (hx : ∀ (c : Dev nD) (y : S1024.Idx), ((m ((c : Thread nD τ).loc main_arg0) : S1024.Idx → Elt F .i32) y : BitVec 32).toNat < 8000) :
    θ_run defs (onTc (τ := τ) (main (F := F))) ⟨m, fun _ => 0, ρ⟩ (fun r => ∀ c : Dev nD, ∀ b ∈ Pipeline.ucRefs τ sig,
      r.2.mem ((c : Thread nD τ).1, b) = W5 m ρ c b) :=
  Pipeline.θ_run_regions_kit (pcfgs (F := F)) (adm m) (pdats m ρ) () (cellOf_inj (adm m)) embL defs₀ 𝒱₀ L lv m ρ main (segs m ρ hx)
    (fun c Q => by rw [main_run m ρ hx c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.H

end
-- ==== Proof.Spec.lean ====
/-
  The quantity both programs compute, written once over the three argument arrays.

  For a batch of 1024 embeddings e_i in R^128 with language ids id_i in [0, 8000) and a table
  md of pairwise metric distances between languages, put

    dist i j = (sum_d |e_i d - e_j d|) / 128                 (mean L1 distance of two embeddings)
    msk  i j = 0 if id_i = id_j, else 1                      (pairs of one language are left out)
    term i j = |dist i j - md (id_i) (id_j)| * msk i j

  and  loss = (sum_{i,j} term i j) / (sum_{i,j} msk i j),  all in the extended reals.
-/
import Idealize.ShloMosaic.PureOps.Ideal
import Idealize.ShloMosaic.Lib.ValueIdx

noncomputable section

namespace Cert.Spec

open Idealize.ShloMosaic Idealize.ShloMosaic.ValueIdx

abbrev S1024 : Shape := ⟨1, ![1024]⟩
abbrev S1024x128 : Shape := ⟨2, ![1024, 128]⟩
abbrev S8000x8000 : Shape := ⟨2, ![8000, 8000]⟩
abbrev S_ : Shape := ⟨0, ![]⟩

/-- The absolute value of an extended real. -/
def eabs (x : EReal) : EReal := max x (-x)

/-- Row `i`'s language id, read as a natural number. -/
def idn (ids : IVec S1024 32) (i : Fin 1024) : ℕ := (ids (ix1 i)).toNat

/-- The table's entry at a pair of natural numbers (zero outside the table). -/
def mdAt (md : FVec Ideal S8000x8000 .f32) (a b : ℕ) : EReal :=
  if h : a < 8000 ∧ b < 8000 then md (ix2 ⟨a, h.1⟩ ⟨b, h.2⟩) else 0

/-- The mean L1 distance of embeddings `i` and `j`. -/
def dist (emb : FVec Ideal S1024x128 .f32) (i j : Fin 1024) : EReal :=
  Ideal.div (∑ d : Fin 128, eabs (emb (ix2 i d) - emb (ix2 j d))) ((128 : ℝ) : EReal)

/-- 0 for a pair of one language, 1 otherwise. -/
def msk (ids : IVec S1024 32) (i j : Fin 1024) : EReal :=
  if ids (ix1 i) = ids (ix1 j) then 0 else 1

/-- One pair's share of the numerator. -/
def term (ids : IVec S1024 32) (emb : FVec Ideal S1024x128 .f32) (md : FVec Ideal S8000x8000 .f32) (i j : Fin 1024) : EReal :=
  eabs (dist emb i j - mdAt md (idn ids i) (idn ids j)) * msk ids i j

/-- The loss: the masked mean of the pairs' deviations. -/
def loss (ids : IVec S1024 32) (emb : FVec Ideal S1024x128 .f32) (md : FVec Ideal S8000x8000 .f32) : EReal :=
  Ideal.div (∑ i : Fin 1024, ∑ j : Fin 1024, term ids emb md i j) (∑ i : Fin 1024, ∑ j : Fin 1024, msk ids i j)

/-- The input domain both frames and the value claim use: every id a row of the table, every float finite. -/
structure Dom (ids : IVec S1024 32) (emb : FVec Ideal S1024x128 .f32) (md : FVec Ideal S8000x8000 .f32) : Prop where
  range : ∀ y : S1024.Idx, (ids y).toNat < 8000
  embFin : ∀ y : S1024x128.Idx, ∃ r : ℝ, emb y = (r : EReal)
  mdFin : ∀ y : S8000x8000.Idx, ∃ r : ℝ, md y = (r : EReal)

end Cert.Spec

end
-- ==== Proof.KI.CombineMath.lean ====
/-
  The arithmetic of region 1's stored payloads, read at an index at the ideal values.

  One grid step holds a 128 × 128 block ei and a 256 × 128 block ej of embeddings and forms, for each pair (r, q), the
  L1 distance  Σ_d |ei(r, d) - ej(q, d)|  in four chunks of 32 lanes added onto zero. The two accumulators each add to
  every entry of an 8 × 128 tile ONE number: the sum over the 128 × 256 pairs of  |dist / 128 - md| · mask , and of the
  mask. At the first step the tiles are zeroed. Last, a double sum over 1024 × 1024 regroups into 8 × 4 tiles of 128 × 256.
-/
import proofs.«403333_j71021579206675_3_alg».proof.Proof.Gen.KernelIdeal.Skeleton
import proofs.«403333_j71021579206675_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.H

open Cert.KernelIdeal Cert.KernelIdeal.Gen Idealize.ShloMosaic Idealize.ShloMosaic.ValueIdx

/-! ## Sums along one axis, read at coordinates -/

/-- A 128 × 256 array summed along its columns, at row r. -/
theorem rowsum_apply (x : FVec Ideal S128x256 .f32) (hφ : FKind.Formats .f32) (hacc : (0x00000000#32 : BitVec 32) = 0x00000000#32)
    (r : Fin 128) :
    multiReduction (F := Ideal) .add [1] S128 x 0x00000000#32 reduces_S128x256_S128 hφ hacc (ix1 r) = ∑ q : Fin 256, x (ix2 r q) := by
  refine (Ideal.multiReduction_add_single x 0x00000000#32 reduces_S128x256_S128 hφ hacc (ix1 r)).trans ?_
  refine Finset.sum_congr rfl fun q _ => congrArg x ?_
  funext a; apply Fin.ext
  match a with
  | ⟨0, _⟩ => rfl
  | ⟨1, _⟩ => rfl

/-- A 128 × 1 column summed along its one axis of length 128, at its one entry. -/
theorem colsum_apply (x : FVec Ideal S128x1 .f32) (hφ : FKind.Formats .f32) (hacc : (0x00000000#32 : BitVec 32) = 0x00000000#32) :
    multiReduction (F := Ideal) .add [0] S1 x 0x00000000#32 reduces_S128x1_S1 hφ hacc (ix1 (0 : Fin 1)) = ∑ r : Fin 128, x (ix2 r (0 : Fin 1)) := by
  refine (Ideal.multiReduction_add_single x 0x00000000#32 reduces_S128x1_S1 hφ hacc (ix1 (0 : Fin 1))).trans ?_
  refine Finset.sum_congr rfl fun r _ => congrArg x ?_
  funext a; apply Fin.ext
  match a with
  | ⟨0, _⟩ => rfl
  | ⟨1, _⟩ => rfl

/-- A vector of 128 entries written as a 128 × 1 column, at (r, 0). -/
theorem col_apply {α : Type} (x : S128.Idx → α) (r : Fin 128) :
    shapeCast S128x1 x shapeCasts_S128_S128x1 (ix2 r (0 : Fin 1)) = x (ix1 r) :=
  shapeCast_apply x _ _ _ (by
    rw [Shape.rowMajor_val_two, Shape.rowMajor_val_one]
    show r.val = r.val * 1 + 0
    omega)

/-- The total of a 128 × 256 array, spread over an 8 × 128 tile: what the two accumulators add. -/
theorem total_apply (x : FVec Ideal S128x256 .f32) (hφ : FKind.Formats .f32) (hacc : (0x00000000#32 : BitVec 32) = 0x00000000#32)
    (a : Fin 8) (b : Fin 128) :
    broadcastTo S8x128 (shapeCast S1x1
      (multiReduction (F := Ideal) .add [0] S1
        (shapeCast S128x1 (multiReduction (F := Ideal) .add [1] S128 x 0x00000000#32 reduces_S128x256_S128 hφ hacc) shapeCasts_S128_S128x1)
        0x00000000#32 reduces_S128x1_S1 hφ hacc) shapeCasts_S1_S1x1) broadcasts_S1x1_S8x128 (ix2 a b)
      = ∑ r : Fin 128, ∑ q : Fin 256, x (ix2 r q) := by
  rw [broadcastTo_apply _ _ (ix2 a b) (ix2 (0 : Fin 1) (0 : Fin 1)) (fun c => match c with | ⟨0, _⟩ => rfl | ⟨1, _⟩ => rfl),
    shapeCast_a_1a_apply]
  refine (colsum_apply _ hφ hacc).trans ?_
  refine Finset.sum_congr rfl fun r _ => ?_
  rw [col_apply]
  exact rowsum_apply x hφ hacc r

/-! ## Regrouping sums -/

/-- A position inside block I of m consecutive blocks of n is a position below m · n. -/
theorem lt_block {m n : ℕ} (I : Fin m) (r : Fin n) : n * I.val + r.val < m * n := by
  have h1 : n * (I.val + 1) ≤ n * m := Nat.mul_le_mul_left n I.isLt
  have h2 := r.isLt
  rw [Nat.mul_add, Nat.mul_one] at h1
  rw [Nat.mul_comm m n]
  omega

/-- A sum over m · n positions is the sum over m consecutive blocks of the sums over each block's n positions. -/
theorem sum_blocks {M : Type} [AddCommMonoid M] (m n : ℕ) (f : Fin (m * n) → M) :
    ∑ i : Fin (m * n), f i = ∑ I : Fin m, ∑ r : Fin n, f ⟨n * I.val + r.val, lt_block I r⟩ := by
  rw [← Equiv.sum_comp finProdFinEquiv f, Fintype.sum_prod_type]
  refine Finset.sum_congr rfl fun I _ => Finset.sum_congr rfl fun r _ => congrArg f (Fin.ext ?_)
  show r.val + n * I.val = n * I.val + r.val
  omega

/-- A double sum over 1024 × 1024 pairs, regrouped into 8 × 4 tiles of 128 × 256 pairs. -/
theorem sum_tiles (g : Fin 1024 → Fin 1024 → EReal) :
    (∑ i : Fin 1024, ∑ j : Fin 1024, g i j)
      = ∑ I : Fin 8, ∑ J : Fin 4, ∑ r : Fin 128, ∑ q : Fin 256,
          g ⟨128 * I.val + r.val, by omega⟩ ⟨256 * J.val + q.val, by omega⟩ := by
  have e1 := sum_blocks 8 128 (fun i : Fin 1024 => ∑ j : Fin 1024, g i j)
  refine e1.trans ?_
  refine Finset.sum_congr rfl fun I _ => ?_
  have e2 : ∀ r : Fin 128, (∑ j : Fin 1024, g ⟨128 * I.val + r.val, lt_block I r⟩ j)
      = ∑ J : Fin 4, ∑ q : Fin 256, g ⟨128 * I.val + r.val, lt_block I r⟩ ⟨256 * J.val + q.val, lt_block J q⟩ :=
    fun r => sum_blocks 4 256 (fun j : Fin 1024 => g ⟨128 * I.val + r.val, lt_block I r⟩ j)
  rw [Finset.sum_congr rfl fun r _ => e2 r, Finset.sum_comm]

/-! ## The payloads -/

/-- The first step zeroes the numerator's tile. -/
theorem pay4_apply (a : Fin 8) (b : Fin 128) : Gen.k1_pay4 (F := Ideal) (ix3 (0 : Fin 1) a b) = 0 := by
  show Ideal.ofBits .f32 0x00000000#32 = 0
  exact Ideal.ofBits_zero_f32

/-- The first step zeroes the denominator's tile. -/
theorem pay5_apply (a : Fin 8) (b : Fin 128) : Gen.k1_pay5 (F := Ideal) (ix3 (0 : Fin 1) a b) = 0 := by
  show Ideal.ofBits .f32 0x00000000#32 = 0
  exact Ideal.ofBits_zero_f32

/-- The denominator's tile gains the total of the mask block. -/
theorem pay3_apply (mk : Vec Ideal S128x256 .f32) (prev : Vec Ideal S1x8x128 .f32) (a : Fin 8) (b : Fin 128) :
    Gen.k1_pay3 (F := Ideal) mk prev (ix3 (0 : Fin 1) a b) = prev (ix3 (0 : Fin 1) a b) + ∑ r : Fin 128, ∑ q : Fin 256, mk (ix2 r q) := by
  unfold Gen.k1_pay3 Gen.k1_pay1
  dsimp only
  rw [shapeCast_ab_1ab_apply, shapeCast_self, shapeCast_self]
  show shapeCast S8x128 prev shapeCasts_S1x8x128_S8x128 (ix2 a b) + broadcastTo S8x128 _ broadcasts_S1x1_S8x128 (ix2 a b) = _
  rw [shapeCast_1ab_ab_apply]
  exact congrArg (prev (ix3 (0 : Fin 1) a b) + ·) (total_apply mk _ _ a b)

/-- The pattern 0x43000000 denotes 128. -/
theorem bits_128 : Ideal.ofBits .f32 0x43000000#32 = ((128 : ℝ) : EReal) := by
  simp [Ideal.ofBits, Ideal.ieee]
  rw [← EReal.coe_mul]
  congr 1
  norm_num

/-- The numerator's tile gains the total, over the block's pairs, of |dist / 128 - md| · mask. -/
theorem pay2_apply (acc : FVec Ideal S128x256 .f32) (md mk : Vec Ideal S128x256 .f32) (prev : Vec Ideal S1x8x128 .f32)
    (a : Fin 8) (b : Fin 128) :
    Gen.k1_pay2 (F := Ideal) acc md mk prev (ix3 (0 : Fin 1) a b)
      = prev (ix3 (0 : Fin 1) a b)
        + ∑ r : Fin 128, ∑ q : Fin 256, Cert.Spec.eabs (Ideal.div (acc (ix2 r q)) ((128 : ℝ) : EReal) - md (ix2 r q)) * mk (ix2 r q) := by
  unfold Gen.k1_pay2 Gen.k1_pay1
  dsimp only
  rw [shapeCast_ab_1ab_apply]
  simp only [shapeCast_self]
  show shapeCast S8x128 prev shapeCasts_S1x8x128_S8x128 (ix2 a b) + broadcastTo S8x128 _ broadcasts_S1x1_S8x128 (ix2 a b) = _
  rw [shapeCast_1ab_ab_apply]
  refine (congrArg (prev (ix3 (0 : Fin 1) a b) + ·) (total_apply _ _ _ a b)).trans ?_
  refine congrArg (prev (ix3 (0 : Fin 1) a b) + ·) (Finset.sum_congr rfl fun r _ => Finset.sum_congr rfl fun q _ => ?_)
  show Cert.Spec.eabs (Ideal.div (acc (ix2 r q)) (Ideal.ofBits .f32 0x43000000#32) - md (ix2 r q)) * mk (ix2 r q) = _
  rw [bits_128]

/-! ## The distances -/

/-- One chunk of 32 lanes from lane o: at the pair (r, q), the sum over the chunk of |ei(r, o + l) - ej(q, o + l)|. -/
theorem chunk_apply (o : ℕ) (ho : o + 32 ≤ 128) (ei : Vec Ideal S128x128 .f32) (ej : Vec Ideal S256x128 .f32)
    (h1 : S128x128.Slices ![0, o] S128x32) (h2 : S256x128.Slices ![0, o] S256x32)
    (hφ : FKind.Formats .f32) (hacc : (0x00000000#32 : BitVec 32) = 0x00000000#32) (r : Fin 128) (q : Fin 256) :
    multiReduction (F := Ideal) .add [2] S128x256
      (absf (subf
        (broadcastTo S128x256x32 (shapeCast S128x1x32 (extractStridedSlice S128x32 ![0, o] ei h1) shapeCasts_S128x32_S128x1x32)
          broadcasts_S128x1x32_S128x256x32)
        (broadcastTo S128x256x32 (shapeCast S1x256x32 (extractStridedSlice S256x32 ![0, o] ej h2) shapeCasts_S256x32_S1x256x32)
          broadcasts_S1x256x32_S128x256x32)))
      0x00000000#32 reduces_S128x256x32_S128x256 hφ hacc (ix2 r q)
      = ∑ l : Fin 32, Cert.Spec.eabs (ei (ix2 r ⟨o + l.val, by omega⟩) - ej (ix2 q ⟨o + l.val, by omega⟩)) := by
  refine (Ideal.multiReduction_add_single _ 0x00000000#32 reduces_S128x256x32_S128x256 hφ hacc (ix2 r q)).trans ?_
  refine Finset.sum_congr rfl fun (l : Fin 32) _ => ?_
  have hl : reduces_S128x256x32_S128x256.lift (ix2 r q) l = ix3 r q l := by
    funext a; apply Fin.ext
    match a with
    | ⟨0, _⟩ => rfl
    | ⟨1, _⟩ => rfl
    | ⟨2, _⟩ => rfl
  rw [hl]
  show Cert.Spec.eabs (broadcastTo S128x256x32 _ broadcasts_S128x1x32_S128x256x32 (ix3 r q l)
    - broadcastTo S128x256x32 _ broadcasts_S1x256x32_S128x256x32 (ix3 r q l)) = _
  rw [broadcastTo_apply _ broadcasts_S128x1x32_S128x256x32 (ix3 r q l) (ix3 r (0 : Fin 1) l)
      (fun c => match c with | ⟨0, _⟩ => rfl | ⟨1, _⟩ => rfl | ⟨2, _⟩ => rfl),
    broadcastTo_apply _ broadcasts_S1x256x32_S128x256x32 (ix3 r q l) (ix3 (0 : Fin 1) q l)
      (fun c => match c with | ⟨0, _⟩ => rfl | ⟨1, _⟩ => rfl | ⟨2, _⟩ => rfl),
    shapeCast_ab_1ab_apply,
    shapeCast_apply _ shapeCasts_S128x32_S128x1x32 (ix3 r (0 : Fin 1) l) (ix2 r l) (by
      rw [Shape.rowMajor_val_three, Shape.rowMajor_val_two]
      show r.val * 32 + l.val = (r.val * 1 + 0) * 32 + l.val
      omega),
    slice2_axis1_eq, slice2_axis1_eq]

/-- A sum over 128 lanes is zero plus the sums over its four chunks of 32 lanes, added in order. -/
theorem sum_chunks (f : Fin 128 → EReal) :
    ∑ d : Fin 128, f d
      = (((0 + ∑ l : Fin 32, f ⟨0 + l.val, by omega⟩) + ∑ l : Fin 32, f ⟨32 + l.val, by omega⟩)
          + ∑ l : Fin 32, f ⟨64 + l.val, by omega⟩) + ∑ l : Fin 32, f ⟨96 + l.val, by omega⟩ := by
  rw [sum_blocks 4 32 f, Fin.sum_univ_four, zero_add]
  rfl

/-- Entry (r, q) of the block of distances: the L1 distance of row r of ei and row q of ej, not yet divided. -/
theorem pay6_apply (ei : Vec Ideal S128x128 .f32) (ej : Vec Ideal S256x128 .f32) (r : Fin 128) (q : Fin 256) :
    Gen.k1_pay6 (F := Ideal) ei ej (ix2 r q) = ∑ d : Fin 128, Cert.Spec.eabs (ei (ix2 r d) - ej (ix2 q d)) := by
  unfold Gen.k1_pay6
  dsimp only
  refine (congrArg₂ (· + ·) (congrArg₂ (· + ·) (congrArg₂ (· + ·) (congrArg₂ (· + ·) Ideal.ofBits_zero_f32
    (chunk_apply 0 (by norm_num) ei ej slices_S128x128_o0_0_S128x32 slices_S256x128_o0_0_S256x32 (.inl rfl) rfl r q))
    (chunk_apply 32 (by norm_num) ei ej slices_S128x128_o0_32_S128x32 slices_S256x128_o0_32_S256x32 (.inl rfl) rfl r q))
    (chunk_apply 64 (by norm_num) ei ej slices_S128x128_o0_64_S128x32 slices_S256x128_o0_64_S256x32 (.inl rfl) rfl r q))
    (chunk_apply 96 (by norm_num) ei ej slices_S128x128_o0_96_S128x32 slices_S256x128_o0_96_S256x32 (.inl rfl) rfl r q)).trans ?_
  exact (sum_chunks fun d => Cert.Spec.eabs (ei (ix2 r d) - ej (ix2 q d))).symm

end Cert.KernelIdeal.H

end
-- ==== Proof.KI.Val1.lean ====
/- REGION 1's two accumulators read as sums over the arrays the region finds: each window's block at a grid point is a
   rectangle of its array (block index × block size + the coordinate inside the block); along a row of the grid the
   accumulators add one tile's total per point, so after the row's last point they hold the row's four tile totals; and
   the final arrays hold, in block I, what the last point of row I wrote back. -/
import proofs.«403333_j71021579206675_3_alg».proof.Proof.KI.R1
import proofs.«403333_j71021579206675_3_alg».proof.Proof.KI.CombineMath
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Val1
variable (V : (c : Dev nD) → (b : Ref sig .tc) → Buf (Elt Ideal) ((c : Thread nD τ).loc b))

/-! ## The arrays and the blocks, at their literal types -/

/-- The gathered distances, the mask and the embeddings as the region finds them. -/
abbrev distArr (c : Dev nD) : S1024x1024.Idx → EReal := V c main_v8
abbrev maskArr (c : Dev nD) : S1024x1024.Idx → EReal := V c main_v7
abbrev embArr (c : Dev nD) : S1024x128.Idx → EReal := V c main_arg1

/-- The four input blocks at a point. -/
abbrev distBlk (c : Dev nD) (t : Fin cfg1.N) : Vec Ideal S128x256 .f32 := iblk1 V c 0 t
abbrev maskBlk (c : Dev nD) (t : Fin cfg1.N) : Vec Ideal S128x256 .f32 := iblk1 V c 1 t
abbrev embBlkI (c : Dev nD) (t : Fin cfg1.N) : Vec Ideal S128x128 .f32 := iblk1 V c 2 t
abbrev embBlkJ (c : Dev nD) (t : Fin cfg1.N) : Vec Ideal S256x128 .f32 := iblk1 V c 3 t

/-- The two accumulators' staging contents after a point. -/
abbrev numAcc (c : Dev nD) (t : Fin cfg1.N) : Vec Ideal S1x8x128 .f32 := (dat1 V c).after 4 t
abbrev cntAcc (c : Dev nD) (t : Fin cfg1.N) : Vec Ideal S1x8x128 .f32 := (dat1 V c).after 5 t

/-! ## The block indices over the grid

Point t = 4 I + J reads block (I, J) of the two square arrays, row block I and row block J of the embeddings, and
its accumulators' block is block I of their arrays. -/

theorem idx1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem idx1_1 : ∀ t : Fin cfg1.N, win1_1.index t 0 = t.val / 4 ∧ win1_1.index t 1 = t.val % 4 :=
  (by decide +kernel : ∀ t : Fin grid1.N, win1_1.index t 0 = t.val / 4 ∧ win1_1.index t 1 = t.val % 4)
theorem idx1_2 : ∀ t : Fin cfg1.N, win1_2.index t 0 = t.val / 4 ∧ win1_2.index t 1 = 0 :=
  (by decide +kernel : ∀ t : Fin grid1.N, win1_2.index t 0 = t.val / 4 ∧ win1_2.index t 1 = 0)
theorem idx1_3 : ∀ t : Fin cfg1.N, win1_3.index t 0 = t.val % 4 ∧ win1_3.index t 1 = 0 :=
  (by decide +kernel : ∀ t : Fin grid1.N, win1_3.index t 0 = t.val % 4 ∧ win1_3.index t 1 = 0)
theorem idx1_4 : ∀ t : Fin cfg1.N, win1_4.index t 0 = t.val / 4 ∧ win1_4.index t 1 = 0 ∧ win1_4.index t 2 = 0 :=
  (by decide +kernel : ∀ t : Fin grid1.N, win1_4.index t 0 = t.val / 4 ∧ win1_4.index t 1 = 0 ∧ win1_4.index t 2 = 0)
theorem idx1_5 : ∀ t : Fin cfg1.N, win1_5.index t 0 = t.val / 4 ∧ win1_5.index t 1 = 0 ∧ win1_5.index t 2 = 0 :=
  (by decide +kernel : ∀ t : Fin grid1.N, win1_5.index t 0 = t.val / 4 ∧ win1_5.index t 1 = 0 ∧ win1_5.index t 2 = 0)
/-- No accumulator block is cut short by its array's edge. -/
theorem xsize1_4 : ∀ t : Fin cfg1.N, win1_4.xsize (grid1.coords t) 0 = 1 ∧ win1_4.xsize (grid1.coords t) 1 = 8 ∧ win1_4.xsize (grid1.coords t) 2 = 128 :=
  (by decide +kernel : ∀ t : Fin grid1.N, win1_4.xsize (grid1.coords t) 0 = 1 ∧ win1_4.xsize (grid1.coords t) 1 = 8 ∧ win1_4.xsize (grid1.coords t) 2 = 128)
theorem xsize1_5 : ∀ t : Fin cfg1.N, win1_5.xsize (grid1.coords t) 0 = 1 ∧ win1_5.xsize (grid1.coords t) 1 = 8 ∧ win1_5.xsize (grid1.coords t) 2 = 128 :=
  (by decide +kernel : ∀ t : Fin grid1.N, win1_5.xsize (grid1.coords t) 0 = 1 ∧ win1_5.xsize (grid1.coords t) 1 = 8 ∧ win1_5.xsize (grid1.coords t) 2 = 128)

/-! ## The input blocks are rectangles of their arrays

A block's coordinate in its array is the block index times the block size plus the coordinate inside the block. -/

/-- Entry (r, q) of the distance block at point 4 I + J is entry (128 I + r, 256 J + q) of the distances. -/
theorem distBlk_apply (c : Dev nD) (t : Fin cfg1.N) (I : Fin 8) (J : Fin 4) (ht : t.val = 4 * I.val + J.val) (r : Fin 128) (q : Fin 256) :
    distBlk V c t (ix2 r q) = distArr V c (ix2 ⟨128 * I.val + r.val, by omega⟩ ⟨256 * J.val + q.val, by omega⟩) := by
  show ((cfg1.win 0).blk t).view.read (Elt Ideal) (V c (Pipeline.arrRef spec1 0)) (ix2 r q) = V c main_v8 _
  rw [View.read_apply]
  show V c main_v8 _ = V c main_v8 _
  congr 1
  funext a
  apply Fin.ext
  match a with
  | ⟨0, _⟩ => show win1_0.index t 0 * 128 + 1 * r.val = 128 * I.val + r.val; rw [(idx1_0 t).1]; omega
  | ⟨1, _⟩ => show win1_0.index t 1 * 256 + 1 * q.val = 256 * J.val + q.val; rw [(idx1_0 t).2]; omega

/-- Likewise the mask block. -/
theorem maskBlk_apply (c : Dev nD) (t : Fin cfg1.N) (I : Fin 8) (J : Fin 4) (ht : t.val = 4 * I.val + J.val) (r : Fin 128) (q : Fin 256) :
    maskBlk V c t (ix2 r q) = maskArr V c (ix2 ⟨128 * I.val + r.val, by omega⟩ ⟨256 * J.val + q.val, by omega⟩) := by
  show ((cfg1.win 1).blk t).view.read (Elt Ideal) (V c (Pipeline.arrRef spec1 1)) (ix2 r q) = V c main_v7 _
  rw [View.read_apply]
  show V c main_v7 _ = V c main_v7 _
  congr 1
  funext a
  apply Fin.ext
  match a with
  | ⟨0, _⟩ => show win1_1.index t 0 * 128 + 1 * r.val = 128 * I.val + r.val; rw [(idx1_1 t).1]; omega
  | ⟨1, _⟩ => show win1_1.index t 1 * 256 + 1 * q.val = 256 * J.val + q.val; rw [(idx1_1 t).2]; omega

/-- Row r of the first embedding block at point 4 I + J is row 128 I + r of the embeddings. -/
theorem embBlkI_apply (c : Dev nD) (t : Fin cfg1.N) (I : Fin 8) (J : Fin 4) (ht : t.val = 4 * I.val + J.val) (r : Fin 128) (d : Fin 128) :
    embBlkI V c t (ix2 r d) = embArr V c (ix2 ⟨128 * I.val + r.val, by omega⟩ d) := by
  show ((cfg1.win 2).blk t).view.read (Elt Ideal) (V c (Pipeline.arrRef spec1 2)) (ix2 r d) = V c main_arg1 _
  rw [View.read_apply]
  show V c main_arg1 _ = V c main_arg1 _
  congr 1
  funext a
  apply Fin.ext
  match a with
  | ⟨0, _⟩ => show win1_2.index t 0 * 128 + 1 * r.val = 128 * I.val + r.val; rw [(idx1_2 t).1]; omega
  | ⟨1, _⟩ => show win1_2.index t 1 * 128 + 1 * d.val = d.val; rw [(idx1_2 t).2]; omega

/-- Row q of the second embedding block at point 4 I + J is row 256 J + q of the embeddings. -/
theorem embBlkJ_apply (c : Dev nD) (t : Fin cfg1.N) (I : Fin 8) (J : Fin 4) (ht : t.val = 4 * I.val + J.val) (q : Fin 256) (d : Fin 128) :
    embBlkJ V c t (ix2 q d) = embArr V c (ix2 ⟨256 * J.val + q.val, by omega⟩ d) := by
  show ((cfg1.win 3).blk t).view.read (Elt Ideal) (V c (Pipeline.arrRef spec1 3)) (ix2 q d) = V c main_arg1 _
  rw [View.read_apply]
  show V c main_arg1 _ = V c main_arg1 _
  congr 1
  funext a
  apply Fin.ext
  match a with
  | ⟨0, _⟩ => show win1_3.index t 0 * 256 + 1 * q.val = 256 * J.val + q.val; rw [(idx1_3 t).1]; omega
  | ⟨1, _⟩ => show win1_3.index t 1 * 128 + 1 * d.val = d.val; rw [(idx1_3 t).2]; omega

/-! ## One tile's totals -/

/-- One pair's share of the numerator, over any distances D, mask Mk and embeddings E: the mean L1 distance of
    embeddings i and j, off the pair's distance, in absolute value, times the pair's mask. -/
def pairTerm (D Mk : S1024x1024.Idx → EReal) (E : S1024x128.Idx → EReal) (i j : Fin 1024) : EReal :=
  Cert.Spec.eabs (Ideal.div (∑ d : Fin 128, Cert.Spec.eabs (E (ix2 i d) - E (ix2 j d))) ((128 : ℝ) : EReal) - D (ix2 i j)) * Mk (ix2 i j)

/-- Tile (I, J)'s numerator total: the shares of its 128 × 256 pairs, over the arrays the region finds. -/
def tileSum (c : Dev nD) (I : Fin 8) (J : Fin 4) : EReal :=
  ∑ r : Fin 128, ∑ q : Fin 256,
    pairTerm (distArr V c) (maskArr V c) (embArr V c) ⟨128 * I.val + r.val, by omega⟩ ⟨256 * J.val + q.val, by omega⟩

/-- Tile (I, J)'s mask total. -/
def tileCnt (c : Dev nD) (I : Fin 8) (J : Fin 4) : EReal :=
  ∑ r : Fin 128, ∑ q : Fin 256, maskArr V c (ix2 ⟨128 * I.val + r.val, by omega⟩ ⟨256 * J.val + q.val, by omega⟩)

/-- What one point adds to the numerator's accumulator, computed from its four blocks, is its tile's total. -/
theorem tile_at (c : Dev nD) (t : Fin cfg1.N) (I : Fin 8) (J : Fin 4) (ht : t.val = 4 * I.val + J.val) :
    (∑ r : Fin 128, ∑ q : Fin 256,
      Cert.Spec.eabs (Ideal.div (k1_pay6 (F := Ideal) (embBlkI V c t) (embBlkJ V c t) (ix2 r q)) ((128 : ℝ) : EReal) - distBlk V c t (ix2 r q))
        * maskBlk V c t (ix2 r q)) = tileSum V c I J := by
  unfold tileSum pairTerm
  refine Finset.sum_congr rfl fun r _ => Finset.sum_congr rfl fun q _ => ?_
  rw [pay6_apply, distBlk_apply V c t I J ht r q, maskBlk_apply V c t I J ht r q]
  refine congrArg (fun s => Cert.Spec.eabs (Ideal.div s ((128 : ℝ) : EReal) - _) * _) (Finset.sum_congr rfl fun d _ => ?_)
  rw [embBlkI_apply V c t I J ht r d, embBlkJ_apply V c t I J ht q d]

/-- What one point adds to the mask's accumulator is its tile's mask total. -/
theorem cnt_at (c : Dev nD) (t : Fin cfg1.N) (I : Fin 8) (J : Fin 4) (ht : t.val = 4 * I.val + J.val) :
    (∑ r : Fin 128, ∑ q : Fin 256, maskBlk V c t (ix2 r q)) = tileCnt V c I J := by
  unfold tileCnt
  refine Finset.sum_congr rfl fun r _ => Finset.sum_congr rfl fun q _ => ?_
  rw [maskBlk_apply V c t I J ht r q]

/-! ## The accumulators along a row of the grid -/

/-- At the first point of a row the numerator's accumulator holds zero plus the point's tile total; -/
theorem numAcc_reset (c : Dev nD) (t : Fin cfg1.N) (h0 : t.val % 4 = 0) (I : Fin 8) (J : Fin 4) (ht : t.val = 4 * I.val + J.val)
    (a : Fin 8) (b : Fin 128) : numAcc V c t (ix3 (0 : Fin 1) a b) = 0 + tileSum V c I J := by
  refine (congrFun (after1_4_A V c t h0) (ix3 (0 : Fin 1) a b)).trans ?_
  refine (pay2_apply (k1_pay6 (F := Ideal) (embBlkI V c t) (embBlkJ V c t)) (distBlk V c t) (maskBlk V c t) (k1_pay4 (F := Ideal)) a b).trans ?_
  rw [pay4_apply, tile_at V c t I J ht]

/-- at any other point what it held after the point before plus the point's tile total. -/
theorem numAcc_carry (c : Dev nD) (t t' : Fin cfg1.N) (h0 : ¬t.val % 4 = 0) (ht' : t'.val = t.val - 1) (I : Fin 8) (J : Fin 4)
    (ht : t.val = 4 * I.val + J.val) (a : Fin 8) (b : Fin 128) :
    numAcc V c t (ix3 (0 : Fin 1) a b) = numAcc V c t' (ix3 (0 : Fin 1) a b) + tileSum V c I J := by
  obtain rfl : t' = ⟨t.val - 1, Nat.lt_of_le_of_lt (Nat.sub_le _ _) t.isLt⟩ := Fin.ext ht'
  refine (congrFun (after1_4_B V c t h0) (ix3 (0 : Fin 1) a b)).trans ?_
  refine (pay2_apply (k1_pay6 (F := Ideal) (embBlkI V c t) (embBlkJ V c t)) (distBlk V c t) (maskBlk V c t)
    (numAcc V c ⟨t.val - 1, Nat.lt_of_le_of_lt (Nat.sub_le _ _) t.isLt⟩) a b).trans ?_
  rw [tile_at V c t I J ht]

/-- Likewise the mask's accumulator. -/
theorem cntAcc_reset (c : Dev nD) (t : Fin cfg1.N) (h0 : t.val % 4 = 0) (I : Fin 8) (J : Fin 4) (ht : t.val = 4 * I.val + J.val)
    (a : Fin 8) (b : Fin 128) : cntAcc V c t (ix3 (0 : Fin 1) a b) = 0 + tileCnt V c I J := by
  refine (congrFun (after1_5_A V c t h0) (ix3 (0 : Fin 1) a b)).trans ?_
  refine (pay3_apply (maskBlk V c t) (k1_pay5 (F := Ideal)) a b).trans ?_
  rw [pay5_apply, cnt_at V c t I J ht]

theorem cntAcc_carry (c : Dev nD) (t t' : Fin cfg1.N) (h0 : ¬t.val % 4 = 0) (ht' : t'.val = t.val - 1) (I : Fin 8) (J : Fin 4)
    (ht : t.val = 4 * I.val + J.val) (a : Fin 8) (b : Fin 128) :
    cntAcc V c t (ix3 (0 : Fin 1) a b) = cntAcc V c t' (ix3 (0 : Fin 1) a b) + tileCnt V c I J := by
  obtain rfl : t' = ⟨t.val - 1, Nat.lt_of_le_of_lt (Nat.sub_le _ _) t.isLt⟩ := Fin.ext ht'
  refine (congrFun (after1_5_B V c t h0) (ix3 (0 : Fin 1) a b)).trans ?_
  refine (pay3_apply (maskBlk V c t) (cntAcc V c ⟨t.val - 1, Nat.lt_of_le_of_lt (Nat.sub_le _ _) t.isLt⟩) a b).trans ?_
  rw [cnt_at V c t I J ht]

/-- Point J of row I of the grid. -/
abbrev rowPt (I : Fin 8) (J : ℕ) (hJ : J < 4) : Fin cfg1.N := ⟨4 * I.val + J, lt_of_lt_of_eq (by omega) N_1.symm⟩

/-- THE RUNNING SUMS. After point J of row I every entry of the numerator's accumulator is the total of the row's
    tiles 0 … J — by induction along the row. -/
theorem numAcc_row (c : Dev nD) (I : Fin 8) : ∀ (J : ℕ) (hJ : J < 4) (a : Fin 8) (b : Fin 128),
    numAcc V c (rowPt I J hJ) (ix3 (0 : Fin 1) a b) = ∑ J' ∈ Finset.range (J + 1), if h : J' < 4 then tileSum V c I ⟨J', h⟩ else 0
  | 0, hJ, a, b => by
    rw [numAcc_reset V c (rowPt I 0 hJ) (by show (4 * I.val + 0) % 4 = 0; omega) I ⟨0, hJ⟩ rfl a b, Finset.sum_range_one, dif_pos hJ, zero_add]
  | J + 1, hJ, a, b => by
    rw [numAcc_carry V c (rowPt I (J + 1) hJ) (rowPt I J (by omega)) (by show ¬(4 * I.val + (J + 1)) % 4 = 0; omega)
      (by show 4 * I.val + J = 4 * I.val + (J + 1) - 1; omega) I ⟨J + 1, hJ⟩ rfl a b,
      numAcc_row c I J (by omega) a b, Finset.sum_range_succ _ (J + 1), dif_pos hJ]

/-- and every entry of the mask's accumulator the total of the row's tiles' mask totals 0 … J. -/
theorem cntAcc_row (c : Dev nD) (I : Fin 8) : ∀ (J : ℕ) (hJ : J < 4) (a : Fin 8) (b : Fin 128),
    cntAcc V c (rowPt I J hJ) (ix3 (0 : Fin 1) a b) = ∑ J' ∈ Finset.range (J + 1), if h : J' < 4 then tileCnt V c I ⟨J', h⟩ else 0
  | 0, hJ, a, b => by
    rw [cntAcc_reset V c (rowPt I 0 hJ) (by show (4 * I.val + 0) % 4 = 0; omega) I ⟨0, hJ⟩ rfl a b, Finset.sum_range_one, dif_pos hJ, zero_add]
  | J + 1, hJ, a, b => by
    rw [cntAcc_carry V c (rowPt I (J + 1) hJ) (rowPt I J (by omega)) (by show ¬(4 * I.val + (J + 1)) % 4 = 0; omega)
      (by show 4 * I.val + J = 4 * I.val + (J + 1) - 1; omega) I ⟨J + 1, hJ⟩ rfl a b,
      cntAcc_row c I J (by omega) a b, Finset.sum_range_succ _ (J + 1), dif_pos hJ]

/-- After a row's last point: the row's four tile totals. -/
theorem numAcc_last (c : Dev nD) (t : Fin cfg1.N) (I : Fin 8) (ht : t.val = 4 * I.val + 3) (a : Fin 8) (b : Fin 128) :
    numAcc V c t (ix3 (0 : Fin 1) a b) = ∑ J : Fin 4, tileSum V c I J := by
  obtain rfl : t = rowPt I 3 (by decide) := Fin.ext ht
  rw [numAcc_row V c I 3 (by decide) a b, Finset.sum_range]
  exact Finset.sum_congr rfl fun J _ => dif_pos J.isLt
theorem cntAcc_last (c : Dev nD) (t : Fin cfg1.N) (I : Fin 8) (ht : t.val = 4 * I.val + 3) (a : Fin 8) (b : Fin 128) :
    cntAcc V c t (ix3 (0 : Fin 1) a b) = ∑ J : Fin 4, tileCnt V c I J := by
  obtain rfl : t = rowPt I 3 (by decide) := Fin.ext ht
  rw [cntAcc_row V c I 3 (by decide) a b, Finset.sum_range]
  exact Finset.sum_congr rfl fun J _ => dif_pos J.isLt

/-! ## The final arrays -/

/-- The numerator array the region leaves: every entry of block I is row I's four tile totals; -/
abbrev numFinal (c : Dev nD) : S8x8x128.Idx → EReal := fun i => ∑ J : Fin 4, tileSum V c (i 0) J
/-- the mask array: every entry of block I is row I's four tile mask totals. -/
abbrev cntFinal (c : Dev nD) : S8x8x128.Idx → EReal := fun i => ∑ J : Fin 4, tileCnt V c (i 0) J

/-- A point that writes back is a row's last point, and its block of the array is block I, whose entries all sit at
    first coordinate I: what it writes is that block of the array of the rows' totals. -/
theorem flushed1_4_eq (c : Dev nD) (t : Fin cfg1.N) (hf : (cfg1.win 4).flush t = true) :
    (dat1 V c).flushed 4 t = ((cfg1.win 4).blk t).view.read (Elt Ideal) (numFinal V c) := by
  have h3 : t.val % 4 = 3 := (flush1_4 t).mp hf
  have hN : t.val < 32 := lt_of_lt_of_eq t.isLt (show cfg1.N = 32 from N_1)
  funext y
  obtain ⟨z, a, b, rfl⟩ : ∃ (z : Fin 1) (a : Fin 8) (b : Fin 128), y = ix3 z a b := ⟨y 0, y 1, y 2, eq_ix3 y⟩
  obtain rfl : z = 0 := Subsingleton.elim _ _
  show numAcc V c t (ix3 (0 : Fin 1) a b) = numFinal V c (((cfg1.win 4).blk t).view.emb (ix3 (0 : Fin 1) a b))
  have hI8 : t.val / 4 < 8 := by omega
  refine (numAcc_last V c t ⟨t.val / 4, hI8⟩ (by show t.val = 4 * (t.val / 4) + 3; omega) a b).trans ?_
  have hI : (⟨t.val / 4, hI8⟩ : Fin 8) = (((cfg1.win 4).blk t).view.emb (ix3 (0 : Fin 1) a b)) 0 :=
    Fin.ext (by show t.val / 4 = win1_4.index t 0 * 1 + 1 * 0; rw [(idx1_4 t).1]; omega)
  exact Finset.sum_congr rfl fun J _ => congrArg (fun K => tileSum V c K J) hI

/-- An entry of the array is in a point's block iff each coordinate is in the block's range on its axis. -/
theorem mem_blk1_4 (t : Fin cfg1.N) (i : S8x8x128.Idx) :
    i ∈ ((cfg1.win 4).blk t).view.set ↔ ∀ a : Fin 3, win1_4.index t a * S1x8x128.size a ≤ (i a).val ∧ (i a).val < win1_4.index t a * S1x8x128.size a + S1x8x128.size a := by
  show i ∈ ((View.whole main_v9_0).slice (win1_4.rect t)).set ↔ _
  rw [View.set_slice_whole, Rect.mem_set_unit]
  exact Iff.rfl

/-- The rows' last points' blocks cover the array (entry (I, a, b) is in block I), so it ends holding the rows' totals. -/
theorem arrAt1_4_eq (c : Dev nD) : (dat1 V c).arrAt 4 cfg1.N = numFinal V c :=
  (dat1 V c).arrAt_eq_of_cover 4 (numFinal V c) (flushed1_4_eq V c) fun i => by
    have h0 : (i 0 : Nat) < 8 := (i 0).isLt
    have h1 : (i 1 : Nat) < 8 := (i 1).isLt
    have h2 : (i 2 : Nat) < 128 := (i 2).isLt
    have hp : 4 * (i 0 : Nat) + 3 < cfg1.N := lt_of_lt_of_eq (by omega) N_1.symm
    refine ⟨⟨4 * (i 0 : Nat) + 3, hp⟩, (flush1_4 _).mpr (by show (4 * (i 0 : Nat) + 3) % 4 = 3; omega), ?_⟩
    obtain ⟨e0, e1, e2⟩ := idx1_4 ⟨4 * (i 0 : Nat) + 3, hp⟩
    have e0' : win1_4.index ⟨4 * (i 0 : Nat) + 3, hp⟩ 0 = (i 0 : Nat) := by rw [e0]; show (4 * (i 0 : Nat) + 3) / 4 = _; omega
    rw [mem_blk1_4]
    intro a
    match a with
    | ⟨0, _⟩ => show win1_4.index ⟨4 * (i 0 : Nat) + 3, hp⟩ 0 * 1 ≤ (i 0 : Nat) ∧ (i 0 : Nat) < win1_4.index ⟨4 * (i 0 : Nat) + 3, hp⟩ 0 * 1 + 1; omega
    | ⟨1, _⟩ => show win1_4.index ⟨4 * (i 0 : Nat) + 3, hp⟩ 1 * 8 ≤ (i 1 : Nat) ∧ (i 1 : Nat) < win1_4.index ⟨4 * (i 0 : Nat) + 3, hp⟩ 1 * 8 + 8; omega
    | ⟨2, _⟩ => show win1_4.index ⟨4 * (i 0 : Nat) + 3, hp⟩ 2 * 128 ≤ (i 2 : Nat) ∧ (i 2 : Nat) < win1_4.index ⟨4 * (i 0 : Nat) + 3, hp⟩ 2 * 128 + 128; omega

/-- A point that writes back is a row's last point, and its block of the array is block I, whose entries all sit at
    first coordinate I: what it writes is that block of the array of the rows' totals. -/
theorem flushed1_5_eq (c : Dev nD) (t : Fin cfg1.N) (hf : (cfg1.win 5).flush t = true) :
    (dat1 V c).flushed 5 t = ((cfg1.win 5).blk t).view.read (Elt Ideal) (cntFinal V c) := by
  have h3 : t.val % 4 = 3 := (flush1_5 t).mp hf
  have hN : t.val < 32 := lt_of_lt_of_eq t.isLt (show cfg1.N = 32 from N_1)
  funext y
  obtain ⟨z, a, b, rfl⟩ : ∃ (z : Fin 1) (a : Fin 8) (b : Fin 128), y = ix3 z a b := ⟨y 0, y 1, y 2, eq_ix3 y⟩
  obtain rfl : z = 0 := Subsingleton.elim _ _
  show cntAcc V c t (ix3 (0 : Fin 1) a b) = cntFinal V c (((cfg1.win 5).blk t).view.emb (ix3 (0 : Fin 1) a b))
  have hI8 : t.val / 4 < 8 := by omega
  refine (cntAcc_last V c t ⟨t.val / 4, hI8⟩ (by show t.val = 4 * (t.val / 4) + 3; omega) a b).trans ?_
  have hI : (⟨t.val / 4, hI8⟩ : Fin 8) = (((cfg1.win 5).blk t).view.emb (ix3 (0 : Fin 1) a b)) 0 :=
    Fin.ext (by show t.val / 4 = win1_5.index t 0 * 1 + 1 * 0; rw [(idx1_5 t).1]; omega)
  exact Finset.sum_congr rfl fun J _ => congrArg (fun K => tileCnt V c K J) hI

/-- An entry of the array is in a point's block iff each coordinate is in the block's range on its axis. -/
theorem mem_blk1_5 (t : Fin cfg1.N) (i : S8x8x128.Idx) :
    i ∈ ((cfg1.win 5).blk t).view.set ↔ ∀ a : Fin 3, win1_5.index t a * S1x8x128.size a ≤ (i a).val ∧ (i a).val < win1_5.index t a * S1x8x128.size a + S1x8x128.size a := by
  show i ∈ ((View.whole main_v9_1).slice (win1_5.rect t)).set ↔ _
  rw [View.set_slice_whole, Rect.mem_set_unit]
  exact Iff.rfl

/-- The rows' last points' blocks cover the array (entry (I, a, b) is in block I), so it ends holding the rows' totals. -/
theorem arrAt1_5_eq (c : Dev nD) : (dat1 V c).arrAt 5 cfg1.N = cntFinal V c :=
  (dat1 V c).arrAt_eq_of_cover 5 (cntFinal V c) (flushed1_5_eq V c) fun i => by
    have h0 : (i 0 : Nat) < 8 := (i 0).isLt
    have h1 : (i 1 : Nat) < 8 := (i 1).isLt
    have h2 : (i 2 : Nat) < 128 := (i 2).isLt
    have hp : 4 * (i 0 : Nat) + 3 < cfg1.N := lt_of_lt_of_eq (by omega) N_1.symm
    refine ⟨⟨4 * (i 0 : Nat) + 3, hp⟩, (flush1_5 _).mpr (by show (4 * (i 0 : Nat) + 3) % 4 = 3; omega), ?_⟩
    obtain ⟨e0, e1, e2⟩ := idx1_5 ⟨4 * (i 0 : Nat) + 3, hp⟩
    have e0' : win1_5.index ⟨4 * (i 0 : Nat) + 3, hp⟩ 0 = (i 0 : Nat) := by rw [e0]; show (4 * (i 0 : Nat) + 3) / 4 = _; omega
    rw [mem_blk1_5]
    intro a
    match a with
    | ⟨0, _⟩ => show win1_5.index ⟨4 * (i 0 : Nat) + 3, hp⟩ 0 * 1 ≤ (i 0 : Nat) ∧ (i 0 : Nat) < win1_5.index ⟨4 * (i 0 : Nat) + 3, hp⟩ 0 * 1 + 1; omega
    | ⟨1, _⟩ => show win1_5.index ⟨4 * (i 0 : Nat) + 3, hp⟩ 1 * 8 ≤ (i 1 : Nat) ∧ (i 1 : Nat) < win1_5.index ⟨4 * (i 0 : Nat) + 3, hp⟩ 1 * 8 + 8; omega
    | ⟨2, _⟩ => show win1_5.index ⟨4 * (i 0 : Nat) + 3, hp⟩ 2 * 128 ≤ (i 2 : Nat) ∧ (i 2 : Nat) < win1_5.index ⟨4 * (i 0 : Nat) + 3, hp⟩ 2 * 128 + 128; omega

/-- THE NUMERATOR ARRAY after the region: entry (I, a, b) is the total of row I's four tiles. -/
theorem arrAt1_4 (c : Dev nD) (I : Fin 8) (a : Fin 8) (b : Fin 128) :
    ((dat1 V c).arrAt 4 cfg1.N : S8x8x128.Idx → EReal) (ix3 I a b) = ∑ J : Fin 4, tileSum V c I J :=
  congrFun (arrAt1_4_eq V c) (ix3 I a b)

/-- THE MASK ARRAY after the region: entry (I, a, b) is the total of row I's four tiles' mask totals. -/
theorem arrAt1_5 (c : Dev nD) (I : Fin 8) (a : Fin 8) (b : Fin 128) :
    ((dat1 V c).arrAt 5 cfg1.N : S8x8x128.Idx → EReal) (ix3 I a b) = ∑ J : Fin 4, tileCnt V c I J :=
  congrFun (arrAt1_5_eq V c) (ix3 I a b)

/-- All the tiles' totals are the double sum over all the pairs. -/
theorem sum_tileSum (c : Dev nD) :
    ∑ I : Fin 8, ∑ J : Fin 4, tileSum V c I J
      = ∑ i : Fin 1024, ∑ j : Fin 1024, pairTerm (distArr V c) (maskArr V c) (embArr V c) i j :=
  (sum_tiles fun i j => pairTerm (distArr V c) (maskArr V c) (embArr V c) i j).symm
theorem sum_tileCnt (c : Dev nD) :
    ∑ I : Fin 8, ∑ J : Fin 4, tileCnt V c I J = ∑ i : Fin 1024, ∑ j : Fin 1024, maskArr V c (ix2 i j) :=
  (sum_tiles fun i j => maskArr V c (ix2 i j)).symm

end Val1

end Cert.KernelIdeal.H

end
-- ==== Proof.KI.HostPre.lean ====
/-
  What the host operations before region 0 leave in the buffers the region reads, at an index, at the ideal values.

  The selector is the transposed one-hot of the ids: entry (k, j) is 1 when row j's id is k and 0 otherwise (the id word
  compared for equality with the position along the 8000 axis, the one-bit result read as a number). The pair mask is 1
  where the two rows' id words differ and 0 where they agree. No host operation writes an argument.
-/
import proofs.«403333_j71021579206675_3_alg».proof.Proof.Gen.KernelIdeal.Regions
import proofs.«403333_j71021579206675_3_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.H

open Cert.KernelIdeal Cert.KernelIdeal.Gen Idealize.ShloMosaic Idealize.ShloMosaic.ValueIdx
open Idealize.ShloMosaic.TcCoe Idealize.SL.Sem

section Args

variable {F : FTy → Type} [FloatOps F]
variable (m : (ℓ : Loc nD τ sig) → Buf (Elt F) ℓ)

/-- The ids reach region 0 as launched. -/
theorem V2_main_arg0 (c : Dev nD) : Gen.V2 m c main_arg0 = m ((c : Thread nD τ).loc main_arg0) :=
  (V2_of m c main_arg0 (by decide)).trans <| (V1_of m c main_arg0 (by decide)).trans rfl
/-- The embeddings reach region 0 as launched. -/
theorem V2_main_arg1 (c : Dev nD) : Gen.V2 m c main_arg1 = m ((c : Thread nD τ).loc main_arg1) :=
  (V2_of m c main_arg1 (by decide)).trans <| (V1_of m c main_arg1 (by decide)).trans rfl
/-- The table reaches region 0 as launched. -/
theorem V2_main_arg2 (c : Dev nD) : Gen.V2 m c main_arg2 = m ((c : Thread nD τ).loc main_arg2) :=
  (V2_of m c main_arg2 (by decide)).trans <| (V1_of m c main_arg2 (by decide)).trans rfl

end Args

variable (m : (ℓ : Loc nD τ sig) → Buf (Elt Ideal) ℓ)

/-! ## The two host terms over a vector of ids, read at an index -/

/-- The selector the host builds: the one-hot of the ids against the positions 0 … 7999, read as numbers, transposed. -/
def onehotT (ids : IVec S1024 32) : FVec Ideal S8000x1024 .bf16 :=
  transpose S8000x1024 [1, 0]
    (uitofp (F := Ideal) .bf16 (cmpi .eq
      (broadcastInDim S1024x8000 ![0, 1] bcast_S1024x1_S1024x8000_0_1 (broadcastInDim S1024x1 ![0] bcast_S1024_S1024x1_0 ids))
      (broadcastInDim S1024x8000 ![0, 1] bcast_S1x8000_S1024x8000_0_1 (iotaInDim S1x8000 32 1))))
    transposes_S1024x8000_S8000x1024_1_0

/-- The pair mask the host builds: the ids along the rows compared for inequality with the ids along the columns, read
    as numbers. -/
def maskOf (ids : IVec S1024 32) : FVec Ideal S1024x1024 .f32 :=
  uitofp (F := Ideal) .f32 (cmpi .ne
    (broadcastInDim S1024x1024 ![0, 1] bcast_S1024x1_S1024x1024_0_1 (broadcastInDim S1024x1 ![0] bcast_S1024_S1024x1_0 ids))
    (broadcastInDim S1024x1024 ![0, 1] bcast_S1x1024_S1024x1024_0_1 (broadcastInDim S1x1024 ![1] bcast_S1024_S1x1024_1 ids)))

/-- The ids as a column, spread over n columns, read at (i, q): row i's id. -/
theorem rows_apply {n : Nat} (h : S1024x1.BroadcastsInDim ⟨2, ![1024, n]⟩ ![0, 1]) (ids : IVec S1024 32) (i : Fin 1024) (q : Fin n) :
    broadcastInDim ⟨2, ![1024, n]⟩ ![0, 1] h (broadcastInDim S1024x1 ![0] bcast_S1024_S1024x1_0 ids) (ix2 i q) = ids (ix1 i) := by
  rw [broadcastInDim_apply _ _ _ (ix2 i q) (ix2 i (0 : Fin 1)) (fun a => match a with | ⟨0, _⟩ => rfl | ⟨1, _⟩ => rfl),
    broadcastInDim_apply _ _ _ (ix2 i (0 : Fin 1)) (ix1 i) (fun a => match a with | ⟨0, _⟩ => rfl)]

/-- The ids as a row, spread over the 1024 rows, read at (i, j): row j's id. -/
theorem cols_apply (ids : IVec S1024 32) (i j : Fin 1024) :
    broadcastInDim S1024x1024 ![0, 1] bcast_S1x1024_S1024x1024_0_1 (broadcastInDim S1x1024 ![1] bcast_S1024_S1x1024_1 ids) (ix2 i j)
      = ids (ix1 j) := by
  rw [broadcastInDim_apply _ _ _ (ix2 i j) (ix2 (0 : Fin 1) j) (fun a => match a with | ⟨0, _⟩ => rfl | ⟨1, _⟩ => rfl),
    broadcastInDim_apply _ _ _ (ix2 (0 : Fin 1) j) (ix1 j) (fun a => match a with | ⟨0, _⟩ => rfl)]

/-- The positions along the 8000 axis, spread over the 1024 rows, read at (j, k): the word k. -/
theorem positions_apply (j : Fin 1024) (k : Fin 8000) :
    broadcastInDim S1024x8000 ![0, 1] bcast_S1x8000_S1024x8000_0_1 (iotaInDim S1x8000 32 1) (ix2 j k) = BitVec.ofNat 32 k.val := by
  rw [broadcastInDim_apply _ _ _ (ix2 j k) (ix2 (0 : Fin 1) k) (fun a => match a with | ⟨0, _⟩ => rfl | ⟨1, _⟩ => rfl)]
  rfl

/-- A one-bit word read as a number: 1 for the word 1, 0 for the word 0. -/
theorem bit_val (b : Bool) : (((BitVec.ofBool b).toNat : ℝ) : EReal) = if b = true then 1 else 0 := by
  cases b <;> simp

/-- Entry (k, j) of the selector: 1 when row j's id is k, else 0. -/
theorem onehotT_apply (ids : IVec S1024 32) (k : Fin 8000) (j : Fin 1024) :
    onehotT ids (ix2 k j) = if k.val = (ids (ix1 j)).toNat then 1 else 0 := by
  unfold onehotT
  rw [transpose_ix2_apply]
  show (((IntOp.cmpi .eq _ _ : BitVec 1).toNat : ℝ) : EReal) = _
  rw [rows_apply, positions_apply]
  unfold IntOp.cmpi
  rw [bit_val]
  have hk : k.val < 2 ^ 32 := lt_trans k.isLt (by norm_num)
  by_cases h : k.val = (ids (ix1 j)).toNat
  · rw [if_pos h, if_pos]
    rw [beq_iff_eq]
    apply BitVec.eq_of_toNat_eq
    rw [BitVec.toNat_ofNat, Nat.mod_eq_of_lt hk, h]
  · rw [if_neg h, if_neg]
    rw [beq_iff_eq]
    intro e
    apply h
    rw [e, BitVec.toNat_ofNat, Nat.mod_eq_of_lt hk]

/-- Entry (i, j) of the pair mask: 0 for a pair of one language, 1 otherwise. -/
theorem maskOf_apply (ids : IVec S1024 32) (i j : Fin 1024) : maskOf ids (ix2 i j) = Cert.Spec.msk ids i j := by
  unfold maskOf Cert.Spec.msk
  show (((IntOp.cmpi .ne _ _ : BitVec 1).toNat : ℝ) : EReal) = _
  rw [rows_apply, cols_apply]
  unfold IntOp.cmpi
  rw [bit_val]
  by_cases h : ids (ix1 i) = ids (ix1 j)
  · rw [if_pos h, if_neg]; simp [h]
  · rw [if_neg h, if_pos]; simpa using h

/-! ## The buffers when region 0 is entered -/

/-- The selector buffer holds the transposed one-hot of the launched ids. -/
theorem V2_main_v1_eq (c : Dev nD) :
    (Gen.V2 (F := Ideal) m c main_v1 : S8000x1024.Idx → EReal) = onehotT (m ((c : Thread nD τ).loc main_arg0)) := by
  dsimp only [Gen.V2, Gen.V1, Gen.V0, Gen.hostOps0, Gen.hostOps0_1]
  after_results
  rfl

/-- The mask buffer holds the pair mask of the launched ids. -/
theorem V2_main_v7_eq (c : Dev nD) :
    (Gen.V2 (F := Ideal) m c main_v7 : S1024x1024.Idx → EReal) = maskOf (m ((c : Thread nD τ).loc main_arg0)) := by
  dsimp only [Gen.V2, Gen.V1, Gen.V0, Gen.hostOps0, Gen.hostOps0_1]
  after_results
  rfl

/-- The selector at (k, j): 1 when row j's id is k, else 0. -/
theorem V2_main_v1_apply (c : Dev nD)
    (hr : ∀ y : S1024.Idx, ((m ((c : Thread nD τ).loc main_arg0)) y : BitVec 32).toNat < 8000) (k : Fin 8000) (j : Fin 1024) :
    (Gen.V2 (F := Ideal) m c main_v1 : S8000x1024.Idx → EReal) (ix2 k j)
      = (if k.val = ((m ((c : Thread nD τ).loc main_arg0)) (ix1 j) : BitVec 32).toNat then 1 else 0 : EReal) := by
  rw [V2_main_v1_eq]; exact onehotT_apply _ k j

/-- The mask at (i, j) is the specification's mask of the launched ids. -/
theorem V2_main_v7_apply (c : Dev nD) (i j : Fin 1024) :
    (Gen.V2 (F := Ideal) m c main_v7 : S1024x1024.Idx → EReal) (ix2 i j) = Cert.Spec.msk (m ((c : Thread nD τ).loc main_arg0)) i j := by
  rw [V2_main_v7_eq]; exact maskOf_apply _ i j

end Cert.KernelIdeal.H

end
-- ==== Proof.KI.TailMath.lean ====
/-
  The last host operations, and the tiles put back together.

  After the two regions the host takes entry (0, 0) of each of the eight 8 × 128 tiles of the numerator array and of the
  denominator array, adds each eight from zero, and divides the two totals. The specification's loss is the same
  quotient once its two double sums over 1024 × 1024 pairs are regrouped into 8 × 4 tiles of 128 × 256 pairs; and one
  pair's share of a tile, written with the distance as a sum over the 128 lanes, is the specification's term.
-/
import proofs.«403333_j71021579206675_3_alg».proof.Proof.Gen.KernelIdeal.Regions
import proofs.«403333_j71021579206675_3_alg».proof.Proof.KI.CombineMath
import proofs.«403333_j71021579206675_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.H

open Cert.KernelIdeal Cert.KernelIdeal.Gen Idealize.ShloMosaic Idealize.ShloMosaic.ValueIdx
open Idealize.ShloMosaic.TcCoe Idealize.SL.Sem

/-! ## The host's two totals and their quotient -/

/-- The indices of a vector of n entries are its n positions. -/
def idxEquiv1 {n : Nat} : (⟨1, ![n]⟩ : Shape).Idx ≃ Fin n where
  toFun i := i 0
  invFun a := ix1 a
  left_inv i := (eq_ix1 i).symm
  right_inv a := rfl

/-- A sum over a vector's indices is the sum over its positions. -/
theorem sum_idx1 {M : Type} [AddCommMonoid M] {n : Nat} (f : (⟨1, ![n]⟩ : Shape).Idx → M) :
    ∑ i, f i = ∑ a : Fin n, f (ix1 a) :=
  (Equiv.sum_comp (idxEquiv1 (n := n)).symm f).symm

/-- What the host makes of an array of eight tiles: entry (0, 0) of each tile, the eight added from zero. -/
def tileTot (X : FVec Ideal S8x8x128 .f32) : FVec Ideal S_ .f32 :=
  Host.reduceAdd (F := Ideal)
    (shapeCast S8 (extractStridedSlice S8x1x1 ![0, 0, 0] X slices_S8x8x128_S8x1x1_0_0_0) shapeCasts_S8x1x1_S8)
    (constant (F := Ideal) S_ .f32 0x00000000#32) reducesTo_S8_S_d0 h_S_

/-- It is the sum of the eight entries. -/
theorem tileTot_apply (X : FVec Ideal S8x8x128 .f32) (j : S_.Idx) :
    tileTot X j = ∑ I : Fin 8, X (ix3 I (0 : Fin 8) (0 : Fin 128)) := by
  unfold tileTot
  show Ideal.hostReduceAdd reducesTo_S8_S_d0 _ (Ideal.ofBits .f32 0x00000000#32) j = _
  rw [Ideal.hostReduceAdd_total reducesTo_S8_S_d0 (fun b => b.elim0), Ideal.ofBits_zero_f32, zero_add, sum_idx1]
  refine Finset.sum_congr rfl fun (I : Fin 8) _ => ?_
  rw [shapeCast_apply _ shapeCasts_S8x1x1_S8 (ix1 I) (ix3 I (0 : Fin 1) (0 : Fin 1)) (by
      rw [Shape.rowMajor_val_three, Shape.rowMajor_val_one]
      show (I.val * 1 + 0) * 1 + 0 = I.val
      omega)]
  exact extractStridedSlice_apply _ _ _ _ _ (fun ax => by
    match ax with
    | ⟨0, _⟩ => exact (Nat.zero_add _).symm
    | ⟨1, _⟩ => rfl
    | ⟨2, _⟩ => rfl)

variable (W : Valuation τ sig (Elt Ideal))

/-- The result buffer after the last host operations: the quotient of the two arrays' totals. -/
theorem hostOps2_main_v16 :
    (StableHlo.after (hostOps2 (F := Ideal)) W (Proc.devRef .tc main_v16) : S_.Idx → EReal)
      = fun _ => Ideal.div (∑ I : Fin 8, (W (Proc.devRef .tc main_v9_0) : S8x8x128.Idx → EReal) (ix3 I (0 : Fin 8) (0 : Fin 128)))
          (∑ I : Fin 8, (W (Proc.devRef .tc main_v9_1) : S8x8x128.Idx → EReal) (ix3 I (0 : Fin 8) (0 : Fin 128))) := by
  have e : (StableHlo.after (hostOps2 (F := Ideal)) W (Proc.devRef .tc main_v16) : S_.Idx → EReal)
      = Host.divf (F := Ideal) (tileTot (W (Proc.devRef .tc main_v9_0))) (tileTot (W (Proc.devRef .tc main_v9_1))) := by
    dsimp only [Gen.hostOps2]
    after_results
    rfl
  rw [e]
  funext j
  show Ideal.div (tileTot _ j) (tileTot _ j) = _
  rw [tileTot_apply, tileTot_apply]

/-- The last host operations write no reference outside their own results: in particular no argument. -/
theorem hostOps2_of (r : Ref sig .tc) (h : r ∉ hostOps2_W) :
    StableHlo.after (hostOps2 (F := Ideal)) W r = W r :=
  StableHlo.after_of_writes_sub hostOps2 _ hostOps2_writes h
theorem hostOps2_main_arg0 : StableHlo.after (hostOps2 (F := Ideal)) W main_arg0 = W main_arg0 := hostOps2_of W main_arg0 (by decide)
theorem hostOps2_main_arg1 : StableHlo.after (hostOps2 (F := Ideal)) W main_arg1 = W main_arg1 := hostOps2_of W main_arg1 (by decide)
theorem hostOps2_main_arg2 : StableHlo.after (hostOps2 (F := Ideal)) W main_arg2 = W main_arg2 := hostOps2_of W main_arg2 (by decide)

/-! ## The tiles put back together -/

/-- The quotient of the two sums over tiles is the specification's loss. -/
theorem loss_of_tiles (ids : IVec Cert.Spec.S1024 32) (emb : FVec Ideal Cert.Spec.S1024x128 .f32)
    (md : FVec Ideal Cert.Spec.S8000x8000 .f32) :
    Ideal.div
      (∑ I : Fin 8, ∑ J : Fin 4, ∑ r : Fin 128, ∑ q : Fin 256,
        Cert.Spec.term ids emb md ⟨128 * I.val + r.val, by omega⟩ ⟨256 * J.val + q.val, by omega⟩)
      (∑ I : Fin 8, ∑ J : Fin 4, ∑ r : Fin 128, ∑ q : Fin 256,
        Cert.Spec.msk ids ⟨128 * I.val + r.val, by omega⟩ ⟨256 * J.val + q.val, by omega⟩)
      = Cert.Spec.loss ids emb md :=
  congrArg₂ Ideal.div (sum_tiles fun i j => Cert.Spec.term ids emb md i j).symm (sum_tiles fun i j => Cert.Spec.msk ids i j).symm

/-- One pair's share, with the distance written as the sum over the 128 lanes, is the specification's term. -/
theorem tile_term (ids : IVec Cert.Spec.S1024 32) (emb : FVec Ideal Cert.Spec.S1024x128 .f32)
    (md : FVec Ideal Cert.Spec.S8000x8000 .f32) (i j : Fin 1024) :
    Cert.Spec.eabs (Ideal.div (∑ d : Fin 128, Cert.Spec.eabs (emb (ix2 i d) - emb (ix2 j d))) ((128 : ℝ) : EReal)
        - Cert.Spec.mdAt md (Cert.Spec.idn ids i) (Cert.Spec.idn ids j)) * Cert.Spec.msk ids i j
      = Cert.Spec.term ids emb md i j := rfl

end Cert.KernelIdeal.H

end
-- ==== Proof.KI.Val0.lean ====
/- REGION 0's result array read off what its body leaves point by point: each of the eight points writes back its block
   of 128 rows, the blocks tile the array, so the array ends holding any function of the row and column that the
   points' blocks are the restrictions of; and the selector window's block is the whole selector array at every point. -/
import proofs.«403333_j71021579206675_3_alg».proof.Proof.KI.R0
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Val0
variable (V : (c : Dev nD) → (b : Ref sig .tc) → Buf (Elt Ideal) ((c : Thread nD τ).loc b))

/-! ## The pipeline's shape, at any admissible table contents

The index maps do not read the id table: the result's block at point t is row block t, the selector's block is the
whole selector array. -/

theorem val0_N (a : (pcfg0 (F := Ideal)).Adm) : (cfg0 a).N = 8 := N_0
theorem val0_isOut (a : (pcfg0 (F := Ideal)).Adm) : ((cfg0 a).win 1).isOut = true := rfl
theorem val0_selIdx : ∀ t : Fin grid0.N, cc0_transform_1 (grid0.coords t) (0 : Fin 2) = 0 ∧ cc0_transform_1 (grid0.coords t) (1 : Fin 2) = 0 :=
  (by decide +kernel : ∀ t : Fin grid0.N, cc0_transform_1 (grid0.coords t) (0 : Fin 2) = 0 ∧ cc0_transform_1 (grid0.coords t) (1 : Fin 2) = 0)
theorem val0_outIdx : ∀ t : Fin grid0.N, cc0_transform_2 (grid0.coords t) (0 : Fin 2) = t.val ∧ cc0_transform_2 (grid0.coords t) (1 : Fin 2) = 0 :=
  (by decide +kernel : ∀ t : Fin grid0.N, cc0_transform_2 (grid0.coords t) (0 : Fin 2) = t.val ∧ cc0_transform_2 (grid0.coords t) (1 : Fin 2) = 0)
/-- The selector window's block index is (0, 0) at every point; -/
theorem val0_index0 (a : (pcfg0 (F := Ideal)).Adm) (t : Fin (cfg0 a).N) :
    ((cfg0 a).win 0).index t (0 : Fin 2) = 0 ∧ ((cfg0 a).win 0).index t (1 : Fin 2) = 0 := val0_selIdx t
/-- the result window's is (t, 0) at point t. -/
theorem val0_index1 (a : (pcfg0 (F := Ideal)).Adm) (t : Fin (cfg0 a).N) :
    ((cfg0 a).win 1).index t (0 : Fin 2) = t.val ∧ ((cfg0 a).win 1).index t (1 : Fin 2) = 0 := val0_outIdx t

/-- Row r of row block t is a row of the array. -/
theorem val0_row_lt (a : (pcfg0 (F := Ideal)).Adm) (t : Fin (cfg0 a).N) (r : Fin 128) : 128 * t.val + r.val < 1024 := by
  have h := lt_of_lt_of_eq t.isLt (val0_N a)
  omega

/-- Every point writes its block back: the block index moves at every step, and the last point always does. -/
theorem val0_flush (a : (pcfg0 (F := Ideal)).Adm) (t : Fin (cfg0 a).N) : ((cfg0 a).win 1).flush t = true := by
  rw [Window.flush_out _ (val0_isOut a)]
  by_cases h : t.val + 1 = (cfg0 a).grid.N
  · exact .inl h
  · have h' : t.val + 1 < (cfg0 a).grid.N := by have ht : t.val < (cfg0 a).grid.N := t.isLt; omega
    refine .inr ⟨h', fun e => ?_⟩
    have e0 := (val0_index1 a ⟨t.val + 1, h'⟩).1
    have e1 := (val0_index1 a t).1
    rw [e] at e0
    have e2 : t.val = t.val + 1 := e1.symm.trans e0
    omega

/-! ## The selector window -/

/-- The selector window's block is the whole selector array at every point. -/
theorem iblk0_0_apply (a : (pcfg0 (F := Ideal)).Adm) (c : Dev nD) (t : Fin (cfg0 a).N) (k : Fin 8000) (j : Fin 1024) :
    (iblk0 V a c 0 t : S8000x1024.Idx → EReal) (ix2 k j) = (V c main_v1 : S8000x1024.Idx → EReal) (ix2 k j) := by
  show (V c main_v1 : S8000x1024.Idx → EReal) ((((cfg0 a).win 0).blk t).view.emb (ix2 k j)) = V c main_v1 (ix2 k j)
  refine congrArg (V c main_v1 : S8000x1024.Idx → EReal) (Shape.idx_ext₂ ?_ ?_)
  · show ((cfg0 a).win 0).index t (0 : Fin 2) * 8000 + 1 * k.val = k.val
    rw [(val0_index0 a t).1]; omega
  · show ((cfg0 a).win 0).index t (1 : Fin 2) * 1024 + 1 * j.val = j.val
    rw [(val0_index0 a t).2]; omega

/-! ## The result array -/

/-- What point t writes back is row block t of the array of G, for any G of the row and column whose row blocks the
    points leave: row r of the block is row 128 t + r. -/
theorem val0_flushed_eq (a : (pcfg0 (F := Ideal)).Adm) (c : Dev nD) (G : Fin 1024 → Fin 1024 → EReal)
    (hblk : ∀ (t : Fin (cfg0 a).N) (r : Fin 128) (j : Fin 1024),
      (outsAt0 V a c t : S128x1024.Idx → EReal) (ix2 r j) = G ⟨128 * t.val + r.val, val0_row_lt a t r⟩ j)
    (t : Fin (cfg0 a).N) :
    (dat0 V a c).flushed 1 t = (((cfg0 a).win 1).blk t).view.read (Elt Ideal) (fun k : S1024x1024.Idx => G (k 0) (k 1)) := by
  funext y
  obtain ⟨r, j, rfl⟩ : ∃ (r : Fin 128) (j : Fin 1024), y = ix2 r j := ⟨y (0 : Fin 2), y (1 : Fin 2), eq_ix2 y⟩
  show (outsAt0 V a c t : S128x1024.Idx → EReal) (ix2 r j)
    = (fun k : S1024x1024.Idx => G (k 0) (k 1)) ((((cfg0 a).win 1).blk t).view.emb (ix2 r j))
  rw [hblk t r j]
  refine congrArg₂ G (Fin.ext ?_) (Fin.ext ?_)
  · show 128 * t.val + r.val = ((cfg0 a).win 1).index t (0 : Fin 2) * 128 + 1 * r.val
    rw [(val0_index1 a t).1]; omega
  · show j.val = ((cfg0 a).win 1).index t (1 : Fin 2) * 1024 + 1 * j.val
    rw [(val0_index1 a t).2]; omega

/-- Row i of the array is row i % 128 of row block i / 128: the eight blocks cover it. -/
theorem val0_cover (a : (pcfg0 (F := Ideal)).Adm) (i : S1024x1024.Idx) :
    ∃ t : Fin (cfg0 a).N, ((cfg0 a).win 1).flush t = true ∧ i ∈ (((cfg0 a).win 1).blk t).view.set := by
  have h0 : (i 0 : Nat) < 1024 := (i 0).isLt
  have h1 : (i 1 : Nat) < 1024 := (i 1).isLt
  have hp : (i 0 : Nat) / 128 < (cfg0 a).N := lt_of_lt_of_eq (by omega) (val0_N a).symm
  refine ⟨⟨(i 0 : Nat) / 128, hp⟩, val0_flush a _, ?_⟩
  have e : ((((cfg0 a).win 1).blk ⟨(i 0 : Nat) / 128, hp⟩).view.emb (ix2 (⟨(i 0 : Nat) % 128, by omega⟩ : Fin 128) (i 1)) : S1024x1024.Idx) = i := by
    refine Shape.idx_ext₂ ?_ ?_
    · show ((cfg0 a).win 1).index ⟨(i 0 : Nat) / 128, hp⟩ (0 : Fin 2) * 128 + 1 * ((i 0 : Nat) % 128) = (i 0 : Nat)
      rw [(val0_index1 a ⟨(i 0 : Nat) / 128, hp⟩).1]
      show (i 0 : Nat) / 128 * 128 + 1 * ((i 0 : Nat) % 128) = (i 0 : Nat)
      omega
    · show ((cfg0 a).win 1).index ⟨(i 0 : Nat) / 128, hp⟩ (1 : Fin 2) * 1024 + 1 * (i 1 : Nat) = (i 1 : Nat)
      rw [(val0_index1 a ⟨(i 0 : Nat) / 128, hp⟩).2]; omega
  have hm := View.emb_mem_set (((cfg0 a).win 1).blk ⟨(i 0 : Nat) / 128, hp⟩).view (ix2 (⟨(i 0 : Nat) % 128, by omega⟩ : Fin 128) (i 1))
  rw [e] at hm
  exact hm

/-- So the array ends holding G. -/
theorem val0_arrAt_eq (a : (pcfg0 (F := Ideal)).Adm) (c : Dev nD) (G : Fin 1024 → Fin 1024 → EReal)
    (hblk : ∀ (t : Fin (cfg0 a).N) (r : Fin 128) (j : Fin 1024),
      (outsAt0 V a c t : S128x1024.Idx → EReal) (ix2 r j) = G ⟨128 * t.val + r.val, val0_row_lt a t r⟩ j) :
    (dat0 V a c).arrAt 1 (cfg0 a).N = fun k : S1024x1024.Idx => G (k 0) (k 1) :=
  (dat0 V a c).arrAt_eq_of_cover 1 (fun k : S1024x1024.Idx => G (k 0) (k 1)) (fun t _ => val0_flushed_eq V a c G hblk t)
    (fun i => val0_cover a i)

/-- THE RESULT ARRAY after the region: entry (i, j) is G i j, for any G whose row blocks the points leave. -/
theorem arrAt0_1 (a : (pcfg0 (F := Ideal)).Adm) (c : Dev nD) (G : Fin 1024 → Fin 1024 → EReal)
    (hblk : ∀ (t : Fin (cfg0 a).N) (r : Fin 128) (j : Fin 1024),
      (outsAt0 V a c t : S128x1024.Idx → EReal) (ix2 r j) = G ⟨128 * t.val + r.val, val0_row_lt a t r⟩ j)
    (i j : Fin 1024) :
    ((dat0 (F := Ideal) V a c).arrAt 1 (cfg0 a).N : S1024x1024.Idx → EReal) (ix2 i j) = G i j :=
  congrFun (val0_arrAt_eq V a c G hblk) (ix2 i j)

end Val0

end Cert.KernelIdeal.H

end
-- ==== Proof.LibMatmul.lean ====
/-
  Two facts every tiled matrix product here rests on, for any sizes.

  A plain product of an M × K by a K × N matrix accumulated into zeros, read at entry (a, b) at the ideal values, is
  Σ_c A(a, c) · B(c, b): the contraction index of the dimension numbers has one coordinate, which runs over the K
  columns of A and rows of B. And the offsets (0, 0) of a whole-buffer access are the zero offsets.
-/
import Idealize.ShloMosaic.Lib.ValueIdx
import Idealize.ShloMosaic.PureOps.Ideal.Laws

noncomputable section

namespace Cert.KernelIdeal.RegVal.Matmul

open Idealize.ShloMosaic Idealize.ShloMosaic.ValueIdx

/-- The offsets of an access to a whole rank-2 buffer are zero on both axes. -/
theorem zero_offsets : (![0, 0] : Fin 2 → Nat) = fun _ => 0 := funext fun a => by fin_cases a <;> rfl

/-- A plain product into a zero accumulator, read at an entry: the sum over the contracted coordinate of the products
    of the two operands' entries. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.KernelIdeal.RegVal.Matmul

end
-- ==== Proof.KI.SelectMath.lean ====
/-
  The arithmetic of the one payload region 0 stores, at the ideal values.

  The payload is  hi · S + lo · S  for a 128 × 8000 block buf of table rows and an 8000 × 1024 selector S, where
  hi = buf and lo = buf - buf after the narrowing to bf16 is read as the identity. For a block of real numbers lo is
  the zero matrix, so the second product is a sum of zeros and the payload's entry (r, j) is  Σ_k buf(r, k) · S(k, j).
  When column j of S is the indicator of one row a, that sum is the single entry buf(r, a).
-/
import proofs.«403333_j71021579206675_3_alg».proof.Proof.Gen.KernelIdeal.Skeleton
import proofs.«403333_j71021579206675_3_alg».proof.Proof.LibMatmul
import proofs.«403333_j71021579206675_3_alg».proof.Proof.Spec
import Idealize.ShloMosaic.Lib.ValueIdx
import Idealize.ShloMosaic.Lib.Pipeline.Value
import Idealize.ShloMosaic.PureOps.Ideal.Laws

noncomputable section

namespace Cert.KernelIdeal.H

open Cert.KernelIdeal Cert.KernelIdeal.Gen Idealize.ShloMosaic Idealize.ShloMosaic.ValueIdx

/-- The product's dimension numbers are the plain ones: contract the left operand's columns with the right one's rows. -/
theorem dot_eq_plain : dot_S128x8000_S8000x1024_S128x1024_1_0_0_1_n_n = DotDims.plain 128 8000 1024 := rfl

/-- Entry (r, j) of the stored payload is the plain product of the block and the selector. -/
theorem pay1_apply (buf : Vec Ideal S128x8000 .f32) (st : Vec Ideal S8000x1024 .bf16)
    (hfin : ∀ y, ∃ x : ℝ, buf y = (x : EReal)) (r : Fin 128) (j : Fin 1024) :
    Gen.k0_pay1 (F := Ideal) (Gen.k0_pay2 buf) (Gen.k0_pay3 buf) st (ix2 r j)
      = ∑ k : Fin 8000, buf (ix2 r k) * st (ix2 k j) := by
  unfold Gen.k0_pay1 Gen.k0_pay2 Gen.k0_pay3
  dsimp only
  rw [shapeCast_self]
  -- the two products, each read at (r, j) as a sum over the contracted coordinate
  have e1 := RegVal.Matmul.matmul_plain_zero_apply (M := 128) (K := 8000) (N := 1024) (φ₁ := .bf16) (φ₂ := .bf16) none
    (truncf (F := Ideal) FTy.bf16 buf bitsLt_bf16_f32) st r j
  have e2 := RegVal.Matmul.matmul_plain_zero_apply (M := 128) (K := 8000) (N := 1024) (φ₁ := .bf16) (φ₂ := .bf16) none
    (truncf (F := Ideal) FTy.bf16 (subf buf buf) bitsLt_bf16_f32) st r j
  refine (congrArg₂ (· + ·) e1 e2).trans ?_
  -- the low part is the zero matrix, so the second sum vanishes
  have z : (∑ c : Fin 8000, truncf (F := Ideal) FTy.bf16 (subf buf buf) bitsLt_bf16_f32 (ix2 r c) * st (ix2 c j)) = 0 := by
    refine Finset.sum_eq_zero fun c _ => ?_
    obtain ⟨x, hx⟩ := hfin (ix2 r c)
    show (buf (ix2 r c) - buf (ix2 r c)) * st (ix2 c j) = 0
    rw [hx, ← EReal.coe_sub, sub_self, EReal.coe_zero, zero_mul]
  rw [z, add_zero]
  rfl

/-- A sum against an indicator column picks one entry. -/
theorem select_apply (buf : Vec Ideal S128x8000 .f32) (st : Vec Ideal S8000x1024 .bf16) (r : Fin 128) (j : Fin 1024)
    (a : Fin 8000) (hst : ∀ k : Fin 8000, st (ix2 k j) = if k = a then 1 else 0) :
    (∑ k : Fin 8000, buf (ix2 r k) * st (ix2 k j)) = buf (ix2 r a) := by
  rw [Finset.sum_eq_single a]
  · rw [hst a, if_pos rfl, mul_one]
  · intro k _ hk
    rw [hst k, if_neg hk, mul_zero]
  · intro h; exact absurd (Finset.mem_univ a) h

end Cert.KernelIdeal.H

end
-- ==== Proof.KI.Val0Core.lean ====
/-
  Region 0's result, block by block: row r of the block written at grid point t is row id(128 t + r) of the distance
  table read at the columns id(j) — the gathered rows times the one-hot selector.

  The block is the payload  hi · S + lo · S  of the 128 gathered rows; the rows are rows of the table, which holds real
  numbers on the domain, so the payload's entry (r, j) is  Σ_k rows(r, k) · S(k, j); column j of the selector is the
  indicator of id(j); and the sum picks the entry of row id(128 t + r) at column id(j).
-/
import proofs.«403333_j71021579206675_3_alg».proof.Proof.KI.Run
import proofs.«403333_j71021579206675_3_alg».proof.Proof.KI.Val0
import proofs.«403333_j71021579206675_3_alg».proof.Proof.KI.SelectMath
import proofs.«403333_j71021579206675_3_alg».proof.Proof.KI.HostPre
import proofs.«403333_j71021579206675_3_alg».proof.Proof.Spec
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.ValueIdx Idealize.SL.Sem

/-- The grid of region 0 is one axis of 8 points: a point's coordinate is its number. -/
theorem coord0 : ∀ t : Fin grid0.N, ((grid0.coords t) 0).val = t.val :=
  (by decide +kernel : ∀ t : Fin grid0.N, ((grid0.coords t) 0).val = t.val)

/-- The distance table reaches region 0 as launched, read whole. -/
theorem table0_eq (m : (ℓ : Loc nD τ sig) → Buf (Elt Ideal) ℓ) (ρ : Dev nD → PrngReg) (c : Dev nD) :
    (hbM0_0.view.read (Elt Ideal) (U2 m ρ c main_arg2) : S8000x8000.Idx → EReal) = m ((c : Thread nD τ).loc main_arg2) :=
  (W2_of m ρ c main_arg2 (by decide)).trans <| (W1_of m ρ c main_arg2 (by decide)).trans rfl

/-- The block's entry, from the body's value equation (heq). -/
theorem outsAt0_core_of (m : (ℓ : Loc nD τ sig) → Buf (Elt Ideal) ℓ) (ρ : Dev nD → PrngReg) (c : Dev nD)
    (hd : Cert.Spec.Dom (m ((c : Thread nD τ).loc main_arg0)) (m ((c : Thread nD τ).loc main_arg1)) (m ((c : Thread nD τ).loc main_arg2)))
    (t : Fin (cfg0 (adm (F := Ideal) m 0)).N)
    (heq : outsAt0 (U2 m ρ) (adm m 0) c t
      = Gen.k0_pay1 (F := Ideal)
          (Gen.k0_pay2 (gathered (grid0.coords t) ((adm m 0).1 0) (hbM0_0.view.read (Elt Ideal) (U2 m ρ c main_arg2))))
          (Gen.k0_pay3 (gathered (grid0.coords t) ((adm m 0).1 0) (hbM0_0.view.read (Elt Ideal) (U2 m ρ c main_arg2))))
          (iblk0 (U2 m ρ) (adm m 0) c (0 : Fin 2) t))
    (r : Fin 128) (j : Fin 1024) (hlt : 128 * t.val + r.val < 1024) :
    (outsAt0 (U2 m ρ) (adm m 0) c t : S128x1024.Idx → EReal) (ix2 r j)
      = Cert.Spec.mdAt (m ((c : Thread nD τ).loc main_arg2)) (Cert.Spec.idn (m ((c : Thread nD τ).loc main_arg0)) ⟨128 * t.val + r.val, hlt⟩)
          (Cert.Spec.idn (m ((c : Thread nD τ).loc main_arg0)) j) := by
  obtain rfl := dev_eq c
  -- the table's rows are real numbers, so the payload is the plain product of the gathered rows and the selector
  have hfin : ∀ y, ∃ x : ℝ, gathered (F := Ideal) (grid0.coords t) ((adm m 0).1 0)
      (hbM0_0.view.read (Elt Ideal) (U2 m ρ c₀ main_arg2)) y = (x : EReal) := fun y => by
    unfold gathered
    rw [table0_eq]
    exact hd.mdFin _
  refine (congrFun heq (ix2 r j)).trans ?_
  refine (pay1_apply _ _ hfin r j).trans ?_
  -- column j of the selector is the indicator of id(j)
  have hst : ∀ k : Fin 8000, (iblk0 (U2 m ρ) (adm m 0) c₀ (0 : Fin 2) t : S8000x1024.Idx → EReal) (ix2 k j)
      = (if k = (⟨((m ((c₀ : Thread nD τ).loc main_arg0)) (ix1 j) : BitVec 32).toNat, hd.range _⟩ : Fin 8000) then 1 else 0 : EReal) := fun k => by
    rw [iblk0_0_apply]
    refine (V2_main_v1_apply m c₀ hd.range k j).trans ?_
    by_cases h : k.val = ((m ((c₀ : Thread nD τ).loc main_arg0)) (ix1 j) : BitVec 32).toNat
    · rw [if_pos h, if_pos (Fin.ext h)]
    · rw [if_neg h, if_neg fun e => h (congrArg Fin.val e)]
  refine (select_apply _ _ r j _ hst).trans ?_
  -- the gathered row r is the table's row id(128 t + r)
  have hrow : (⟨(128 * ((grid0.coords t) 0).val + r.val) % 1024, Nat.mod_lt _ (by decide)⟩ : Fin 1024) = ⟨128 * t.val + r.val, hlt⟩ :=
    Fin.ext (by rw [coord0 t]; exact Nat.mod_eq_of_lt hlt)
  unfold gathered Cert.Spec.mdAt Cert.Spec.idn
  rw [dif_pos ⟨hd.range _, hd.range _⟩, table0_eq]
  refine congrArg (m ((c₀ : Thread nD τ).loc main_arg2) : S8000x8000.Idx → EReal) ?_
  refine congrArg₂ ix2 (Fin.ext ?_) (Fin.ext rfl)
  show ((m ((c₀ : Thread nD τ).loc main_arg0)) (ix1 _) : BitVec 32).toNat % 8000 = _
  rw [hrow]
  exact Nat.mod_eq_of_lt (hd.range _)

/-- Row r of the block written at point t, at column j: the table's entry at the ids of rows 128 t + r and j. -/
theorem outsAt0_core (m : (ℓ : Loc nD τ sig) → Buf (Elt Ideal) ℓ) (ρ : Dev nD → PrngReg) (c : Dev nD)
    (hd : Cert.Spec.Dom (m ((c : Thread nD τ).loc main_arg0)) (m ((c : Thread nD τ).loc main_arg1)) (m ((c : Thread nD τ).loc main_arg2)))
    (t : Fin (cfg0 (adm (F := Ideal) m 0)).N) (r : Fin 128) (j : Fin 1024) (hlt : 128 * t.val + r.val < 1024) :
    (outsAt0 (U2 m ρ) (adm m 0) c t : S128x1024.Idx → EReal) (ix2 r j)
      = Cert.Spec.mdAt (m ((c : Thread nD τ).loc main_arg2)) (Cert.Spec.idn (m ((c : Thread nD τ).loc main_arg0)) ⟨128 * t.val + r.val, hlt⟩)
          (Cert.Spec.idn (m ((c : Thread nD τ).loc main_arg0)) j) :=
  outsAt0_core_of m ρ c hd t (outsAt0_eq (U2 m ρ) (adm m 0) (by obtain rfl := dev_eq c; exact hd.range) c t) r j hlt

end Cert.KernelIdeal.H

end
-- ==== Proof.KI.Value.lean ====
/-
  The value the launch leaves in the result buffer: the loss.

  The last host operations divide the totals of the two accumulator arrays' first entries (one per row of tiles). After
  region 1 those are the rows' tile totals, so the two totals are the sums over all 1024 × 1024 pairs of the pair's share
  and of the pair's mask, over the three arrays region 1 finds: the gathered distances region 0 leaves (entry (i, j) the
  table's entry at the two rows' ids), the pair mask the host built from the ids, and the embeddings as launched. With
  those three read back, a pair's share is the specification's term and the quotient is the specification's loss.
-/
import proofs.«403333_j71021579206675_3_alg».proof.Proof.KI.Run
import proofs.«403333_j71021579206675_3_alg».proof.Proof.KI.Val1
import proofs.«403333_j71021579206675_3_alg».proof.Proof.KI.HostPre
import proofs.«403333_j71021579206675_3_alg».proof.Proof.KI.TailMath
import proofs.«403333_j71021579206675_3_alg».proof.Proof.KI.Val0Core
import proofs.«403333_j71021579206675_3_alg».proof.Proof.KI.Val0
import proofs.«403333_j71021579206675_3_alg».proof.Proof.Spec

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- A row of block t of region 0's eight row blocks is a row of the 1024. -/
theorem row_lt0 (a : (pcfg0 (F := Ideal)).Adm) (t : Fin (cfg0 a).N) (r : Fin 128) : 128 * t.val + r.val < 1024 := by
  have h : t.val < 8 := lt_of_lt_of_eq t.isLt N_0
  have := r.isLt
  omega

/-! ## The three arrays region 1 finds -/

/-- The embeddings reach region 1 as launched. -/
theorem embArr_eq (c : Dev nD) : embArr (U3 m ρ) c = m ((c : Thread nD τ).loc main_arg1) :=
  (W3_of_ne m ρ c main_arg1 (by decide)).trans <| (W2_of m ρ c main_arg1 (by decide)).trans <|
    (W1_of m ρ c main_arg1 (by decide)).trans rfl

/-- The pair mask reaches region 1 as the host built it: the specification's mask of the launched ids. -/
theorem maskArr_apply (c : Dev nD) (i j : Fin 1024) :
    maskArr (U3 m ρ) c (ix2 i j) = Cert.Spec.msk (m ((c : Thread nD τ).loc main_arg0)) i j := by
  have e : maskArr (U3 m ρ) c = (Gen.V2 (F := Ideal) m c main_v7 : S1024x1024.Idx → EReal) :=
    W3_of_ne m ρ c main_v7 (by decide)
  rw [e]
  exact V2_main_v7_apply m c i j

/-- The gathered distances: what region 0 leaves in its output array. -/
theorem distArr_eq (c : Dev nD) :
    distArr (U3 m ρ) c = ((dat0 (U2 m ρ) (adm m 0) c).arrAt 1 (cfg0 (adm m 0)).N : S1024x1024.Idx → EReal) :=
  W3_arr m ρ c 1

/-- The two accumulator arrays after region 1, at their literal type. -/
abbrev numOut (c : Dev nD) : S8x8x128.Idx → EReal := W4 m ρ c (Proc.devRef .tc main_v9_0)
abbrev cntOut (c : Dev nD) : S8x8x128.Idx → EReal := W4 m ρ c (Proc.devRef .tc main_v9_1)

/-! ## The result -/

/-- The result buffer holds the loss, given region 0's array read back from its blocks (harr) and the blocks'
    contents (hcore): the gathered distance of a pair is the table's entry at the two rows' ids. -/
theorem W5_main_v16_of (c : Dev nD)
    (harr : ∀ G : Fin 1024 → Fin 1024 → EReal,
      (∀ (t : Fin (cfg0 (adm m 0)).N) (r : Fin 128) (j : Fin 1024),
        (outsAt0 (U2 m ρ) (adm m 0) c t : S128x1024.Idx → EReal) (ix2 r j) = G ⟨128 * t.val + r.val, row_lt0 _ t r⟩ j) →
      ∀ i j : Fin 1024,
        ((dat0 (U2 m ρ) (adm m 0) c).arrAt 1 (cfg0 (adm m 0)).N : S1024x1024.Idx → EReal) (ix2 i j) = G i j)
    (hcore : ∀ (t : Fin (cfg0 (adm m 0)).N) (r : Fin 128) (j : Fin 1024),
      (outsAt0 (U2 m ρ) (adm m 0) c t : S128x1024.Idx → EReal) (ix2 r j)
        = Cert.Spec.mdAt (m ((c : Thread nD τ).loc main_arg2))
            (Cert.Spec.idn (m ((c : Thread nD τ).loc main_arg0)) ⟨128 * t.val + r.val, row_lt0 _ t r⟩)
            (Cert.Spec.idn (m ((c : Thread nD τ).loc main_arg0)) j)) :
    (W5 (F := Ideal) m ρ c (Proc.devRef .tc main_v16) : S_.Idx → EReal)
      = fun _ => Cert.Spec.loss (m ((c : Thread nD τ).loc main_arg0)) (m ((c : Thread nD τ).loc main_arg1))
          (m ((c : Thread nD τ).loc main_arg2)) := by
  -- the three arrays, read back
  have hD : ∀ i j : Fin 1024, distArr (U3 m ρ) c (ix2 i j)
      = Cert.Spec.mdAt (m ((c : Thread nD τ).loc main_arg2)) (Cert.Spec.idn (m ((c : Thread nD τ).loc main_arg0)) i)
          (Cert.Spec.idn (m ((c : Thread nD τ).loc main_arg0)) j) := fun i j =>
    (congrFun (distArr_eq m ρ c) (ix2 i j)).trans
      (harr (fun i j => Cert.Spec.mdAt (m ((c : Thread nD τ).loc main_arg2))
        (Cert.Spec.idn (m ((c : Thread nD τ).loc main_arg0)) i) (Cert.Spec.idn (m ((c : Thread nD τ).loc main_arg0)) j)) hcore i j)
  -- a pair's share is the specification's term
  have hT : ∀ i j : Fin 1024, pairTerm (distArr (U3 m ρ) c) (maskArr (U3 m ρ) c) (embArr (U3 m ρ) c) i j
      = Cert.Spec.term (m ((c : Thread nD τ).loc main_arg0)) (m ((c : Thread nD τ).loc main_arg1))
          (m ((c : Thread nD τ).loc main_arg2)) i j := fun i j => by
    unfold pairTerm
    rw [hD i j, maskArr_apply m ρ c i j, embArr_eq m ρ c]
    exact tile_term _ _ _ i j
  -- the two arrays' first entries, row by row
  have hn : ∀ I : Fin 8, numOut m ρ c (ix3 I (0 : Fin 8) (0 : Fin 128))
      = ∑ J : Fin 4, tileSum (U3 m ρ) c I J := fun I =>
    (congrFun (W4_main_v9_0 m ρ c) (ix3 I (0 : Fin 8) (0 : Fin 128))).trans (arrAt1_4 (U3 m ρ) c I 0 0)
  have hc : ∀ I : Fin 8, cntOut m ρ c (ix3 I (0 : Fin 8) (0 : Fin 128))
      = ∑ J : Fin 4, tileCnt (U3 m ρ) c I J := fun I =>
    (congrFun (W4_main_v9_1 m ρ c) (ix3 I (0 : Fin 8) (0 : Fin 128))).trans (arrAt1_5 (U3 m ρ) c I 0 0)
  -- the two totals are the specification's two double sums
  have hN : (∑ I : Fin 8, numOut m ρ c (ix3 I (0 : Fin 8) (0 : Fin 128)))
      = ∑ i : Fin 1024, ∑ j : Fin 1024, Cert.Spec.term (m ((c : Thread nD τ).loc main_arg0))
          (m ((c : Thread nD τ).loc main_arg1)) (m ((c : Thread nD τ).loc main_arg2)) i j :=
    (Finset.sum_congr rfl fun I _ => hn I).trans <| (sum_tileSum (U3 m ρ) c).trans <|
      Finset.sum_congr rfl fun i _ => Finset.sum_congr rfl fun j _ => hT i j
  have hC : (∑ I : Fin 8, cntOut m ρ c (ix3 I (0 : Fin 8) (0 : Fin 128)))
      = ∑ i : Fin 1024, ∑ j : Fin 1024, Cert.Spec.msk (m ((c : Thread nD τ).loc main_arg0)) i j :=
    (Finset.sum_congr rfl fun I _ => hc I).trans <| (sum_tileCnt (U3 m ρ) c).trans <|
      Finset.sum_congr rfl fun i _ => Finset.sum_congr rfl fun j _ => maskArr_apply m ρ c i j
  refine (hostOps2_main_v16 (W4 m ρ c)).trans ?_
  funext _
  exact congrArg₂ Ideal.div hN hC

/-- The same with the blocks' contents supplied by region 0's body. -/
theorem W5_main_v16_of_arr (c : Dev nD)
    (hd : Cert.Spec.Dom (m ((c : Thread nD τ).loc main_arg0)) (m ((c : Thread nD τ).loc main_arg1)) (m ((c : Thread nD τ).loc main_arg2)))
    (harr : ∀ G : Fin 1024 → Fin 1024 → EReal,
      (∀ (t : Fin (cfg0 (adm m 0)).N) (r : Fin 128) (j : Fin 1024),
        (outsAt0 (U2 m ρ) (adm m 0) c t : S128x1024.Idx → EReal) (ix2 r j) = G ⟨128 * t.val + r.val, row_lt0 _ t r⟩ j) →
      ∀ i j : Fin 1024,
        ((dat0 (U2 m ρ) (adm m 0) c).arrAt 1 (cfg0 (adm m 0)).N : S1024x1024.Idx → EReal) (ix2 i j) = G i j) :
    (W5 (F := Ideal) m ρ c (Proc.devRef .tc main_v16) : S_.Idx → EReal)
      = fun _ => Cert.Spec.loss (m ((c : Thread nD τ).loc main_arg0)) (m ((c : Thread nD τ).loc main_arg1))
          (m ((c : Thread nD τ).loc main_arg2)) :=
  W5_main_v16_of m ρ c harr fun t r j => outsAt0_core m ρ c hd t r j (row_lt0 _ t r)

/-- THE RESULT: on the specification's domain the launch leaves the loss in the result buffer. -/
theorem W5_main_v16 (c : Dev nD)
    (hd : Cert.Spec.Dom (m ((c : Thread nD τ).loc main_arg0)) (m ((c : Thread nD τ).loc main_arg1)) (m ((c : Thread nD τ).loc main_arg2))) :
    (W5 (F := Ideal) m ρ c (Proc.devRef .tc main_v16) : S_.Idx → EReal)
      = fun _ => Cert.Spec.loss (m ((c : Thread nD τ).loc main_arg0)) (m ((c : Thread nD τ).loc main_arg1))
          (m ((c : Thread nD τ).loc main_arg2)) :=
  W5_main_v16_of_arr m ρ c hd fun G h => arrAt0_1 (U2 m ρ) (adm m 0) c G h

end Cert.KernelIdeal.H

end
-- ==== Proof.RefValue.lean ====
/-
  The reference's run ends with the loss of the specification.
-/
import proofs.«403333_j71021579206675_3_alg».proof.Defs
import proofs.«403333_j71021579206675_3_alg».proof.Proof.Gen.ReferenceIdeal
import proofs.«403333_j71021579206675_3_alg».proof.Proof.Gen.ReferenceIdeal.Run
import proofs.«403333_j71021579206675_3_alg».proof.Proof.Gen.ReferenceIdeal.Read
import proofs.«403333_j71021579206675_3_alg».proof.Proof.Spec

noncomputable section

namespace Cert.RefValue

open Idealize.ShloMosaic Idealize.ShloMosaic.TcCoe Idealize.SL.Sem
open Idealize.ShloMosaic.ValueIdx
open Cert.ReferenceIdeal Cert.ReferenceIdeal.Gen Cert.ReferenceIdeal.Read

/-- The literal 0x43000000 is the real number 128. -/
theorem ofBits_128 : Ideal.ofBits .f32 0x43000000#32 = ((128 : ℝ) : EReal) := by
  simp [Ideal.ofBits, Ideal.ieee]
  rw [← EReal.coe_mul]
  norm_num

/-- The mean-L1-distance stage, read at a pair of rows. -/
theorem v8_eq (emb : FVec Ideal Cert.Spec.S1024x128 .f32) (i j : Fin 1024) :
    val_main_v8 (F := Ideal) emb (ix2 i j) = Cert.Spec.dist emb i j := by
  have h0 : ∀ k : Fin 128, idx_main_v0 (idx_main_v2 (idx_main_v6 (ix2 i j) k)) = ix2 i k := fun k =>
    funext fun a => Fin.ext (by match a with | ⟨0, _⟩ => rfl | ⟨1, _⟩ => rfl)
  have h1 : ∀ k : Fin 128, idx_main_v1 (idx_main_v3 (idx_main_v6 (ix2 i j) k)) = ix2 j k := fun k =>
    funext fun a => Fin.ext (by match a with | ⟨0, _⟩ => rfl | ⟨1, _⟩ => rfl)
  rw [val_main_v8_apply, val_main_v6_apply, val_main_v7_apply, val_main_cst_0_apply, val_main_cst_apply]
  simp only [val_main_v5_apply, val_main_v4_apply, val_main_v2_apply, val_main_v3_apply, val_main_v0_apply,
    val_main_v1_apply, h0, h1]
  simp only [Ideal.ofBits_def, Ideal.ofBits_zero_f32, ofBits_128, zero_add, Ideal.hostDivf_def, Ideal.subf_def]
  rfl

/-- The 2-D take read at a pair of rows: the table at the two start indices, each read signed and clamped into the table. -/
theorem gather_at (md : FVec Ideal S8000x8000 .f32) (idx : IVec S1024x1024x2 32) (i j : Fin 1024) :
    Host.gather gather_S8000x8000_S1024x1024x2_S1024x1024_n_01_n_n_01_2_11 md idx (ix2 i j)
      = md (ix2 ⟨min (idx (ix3 i j 0)).toInt.toNat 7999, by omega⟩ ⟨min (idx (ix3 i j 1)).toInt.toNat 7999, by omega⟩) := by
  have h0 : (gather_S8000x8000_S1024x1024x2_S1024x1024_n_01_n_n_01_2_11.operandIdx (ix2 i j) idx (0 : Fin 2)).val
      = min (idx (ix3 i j 0)).toInt.toNat 7999 := by
    show gather_S8000x8000_S1024x1024x2_S1024x1024_n_01_n_n_01_2_11.start (ix2 i j) idx (0 : Fin 2)
      + gather_S8000x8000_S1024x1024x2_S1024x1024_n_01_n_n_01_2_11.batchCoord (ix2 i j) (0 : Fin 2)
      + gather_S8000x8000_S1024x1024x2_S1024x1024_n_01_n_n_01_2_11.offCoord (ix2 i j) (0 : Fin 2) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8000x8000_S1024x1024x2_S1024x1024_n_01_n_n_01_2_11.startIndexMap by decide)]
    have hsi : gather_S8000x8000_S1024x1024x2_S1024x1024_n_01_n_n_01_2_11.siIdx (ix2 i j)
        ⟨List.idxOf (0 : Fin 2) gather_S8000x8000_S1024x1024x2_S1024x1024_n_01_n_n_01_2_11.startIndexMap,
          List.idxOf_lt_length_iff.2 (by decide)⟩ = ix3 i j 0 := by
      funext b; refine Fin.ext ?_
      match b with
      | ⟨0, _⟩ => rfl
      | ⟨1, _⟩ => rfl
      | ⟨2, _⟩ => rfl
    rw [hsi]
    rfl
  have h1 : (gather_S8000x8000_S1024x1024x2_S1024x1024_n_01_n_n_01_2_11.operandIdx (ix2 i j) idx (1 : Fin 2)).val
      = min (idx (ix3 i j 1)).toInt.toNat 7999 := by
    show gather_S8000x8000_S1024x1024x2_S1024x1024_n_01_n_n_01_2_11.start (ix2 i j) idx (1 : Fin 2)
      + gather_S8000x8000_S1024x1024x2_S1024x1024_n_01_n_n_01_2_11.batchCoord (ix2 i j) (1 : Fin 2)
      + gather_S8000x8000_S1024x1024x2_S1024x1024_n_01_n_n_01_2_11.offCoord (ix2 i j) (1 : Fin 2) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8000x8000_S1024x1024x2_S1024x1024_n_01_n_n_01_2_11.startIndexMap by decide)]
    have hsi : gather_S8000x8000_S1024x1024x2_S1024x1024_n_01_n_n_01_2_11.siIdx (ix2 i j)
        ⟨List.idxOf (1 : Fin 2) gather_S8000x8000_S1024x1024x2_S1024x1024_n_01_n_n_01_2_11.startIndexMap,
          List.idxOf_lt_length_iff.2 (by decide)⟩ = ix3 i j 1 := by
      funext b; refine Fin.ext ?_
      match b with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact h0
  | ⟨1, _⟩ => exact h1

/-- A word below 8000 is not negative when read signed. -/
theorem slt_zero_of_lt (x : BitVec 32) (h : x.toNat < 8000) : IntOp.cmpi .slt x 0#32 = 0#1 := by
  have hx : x.toInt = (x.toNat : Int) := by
    rw [BitVec.toInt_eq_toNat_cond]; split <;> omega
  simp only [IntOp.cmpi, BitVec.slt, hx, BitVec.toInt_zero]
  rw [decide_eq_false (by omega : ¬ ((x.toNat : Int) < 0))]; rfl

/-- A word below 8000, read signed and clamped into the table, is itself. -/
theorem clamp_of_lt (x : BitVec 32) (h : x.toNat < 8000) : min x.toInt.toNat 7999 = x.toNat := by
  have hx : x.toInt = (x.toNat : Int) := by
    rw [BitVec.toInt_eq_toNat_cond]; split <;> omega
  rw [hx, Int.toNat_natCast]; omega

/-- The unsigned conversion of the comparison "differs": 0 for equal words, 1 otherwise. -/
theorem uitofp_ne (x y : BitVec 32) :
    FloatOps.uitofp (F := Ideal) .f32 (IntOp.cmpi .ne x y) = if x = y then (0 : EReal) else 1 := by
  show (((IntOp.cmpi .ne x y).toNat : ℝ) : EReal) = _
  by_cases h : x = y
  · rw [if_pos h]; simp [IntOp.cmpi, h]
  · rw [if_neg h]; simp [IntOp.cmpi, h]

/-- The mask stage, read at a pair of rows. -/
theorem v32_eq (ids : IVec Cert.Spec.S1024 32) (i j : Fin 1024) :
    val_main_v32 (F := Ideal) ids (ix2 i j) = Cert.Spec.msk ids i j := by
  have h0 : idx_main_v27 (idx_main_v29 (ix2 i j)) = ix1 i :=
    funext fun a => Fin.ext (by match a with | ⟨0, _⟩ => rfl)
  have h1 : idx_main_v28 (idx_main_v30 (ix2 i j)) = ix1 j :=
    funext fun a => Fin.ext (by match a with | ⟨0, _⟩ => rfl)
  rw [val_main_v32_apply, val_main_v31_apply, val_main_v29_apply, val_main_v30_apply, val_main_v27_apply,
    val_main_v28_apply, h0, h1, uitofp_ne]
  rfl

/-- The normalised row index (column 0 of the index vector) is the row's id, for ids below 8000. -/
theorem v25_fst (ids : IVec Cert.Spec.S1024 32) (hr : ∀ y, (ids y).toNat < 8000) (i j : Fin 1024) :
    val_main_v25 (F := Ideal) ids (ix3 i j 0) = ids (ix1 i) := by
  have hI : idx_main_v9 (idx_main_v21 (idx_main_v23 (ix3 i j (0 : Fin 1)))) = ix1 i :=
    funext fun a => Fin.ext (by match a with | ⟨0, _⟩ => rfl)
  unfold val_main_v25
  rw [concatenate_pair_apply_left (t := S1024x1024x2) (s₁ := S1024x1024x1) (s₂ := S1024x1024x1) _ _ _ _ (ix3 i j (0 : Fin 2)) rfl (ix3 i j (0 : Fin 1))
    (fun b => by match b with | ⟨0, _⟩ => rfl | ⟨1, _⟩ => rfl | ⟨2, _⟩ => rfl)]
  rw [val_main_v23_apply, val_main_v21_apply, val_main_v15_apply, val_main_v12_apply, val_main_v11_apply,
    val_main_c_apply, val_main_v9_apply, hI, slt_zero_of_lt _ (hr _), select_zero]

/-- The normalised column index (column 1 of the index vector) is the column's id, for ids below 8000. -/
theorem v25_snd (ids : IVec Cert.Spec.S1024 32) (hr : ∀ y, (ids y).toNat < 8000) (i j : Fin 1024) :
    val_main_v25 (F := Ideal) ids (ix3 i j 1) = ids (ix1 j) := by
  have hI : idx_main_v10 (idx_main_v22 (idx_main_v24 (ix3 i j (0 : Fin 1)))) = ix1 j :=
    funext fun a => Fin.ext (by match a with | ⟨0, _⟩ => rfl)
  unfold val_main_v25
  rw [concatenate_pair_apply_right (t := S1024x1024x2) (s₁ := S1024x1024x1) (s₂ := S1024x1024x1) _ _ _ _ (ix3 i j (1 : Fin 2)) rfl rfl (ix3 i j (0 : Fin 1))
    (fun b hb => by
      match b with
      | ⟨0, _⟩ => rfl
      | ⟨1, _⟩ => rfl
      | ⟨2, _⟩ => exact absurd rfl hb)
    rfl]
  rw [val_main_v24_apply, val_main_v22_apply, val_main_v20_apply, val_main_v17_apply, val_main_v16_apply,
    val_main_c_2_apply, val_main_v10_apply, hI, slt_zero_of_lt _ (hr _), select_zero]

/-- The gathered table entry, read at a pair of rows: the table at the two rows' ids. -/
theorem v26_eq (ids : IVec Cert.Spec.S1024 32) (md : FVec Ideal Cert.Spec.S8000x8000 .f32)
    (hr : ∀ y, (ids y).toNat < 8000) (i j : Fin 1024) :
    val_main_v26 (F := Ideal) ids md (ix2 i j)
      = Cert.Spec.mdAt md (Cert.Spec.idn ids i) (Cert.Spec.idn ids j) := by
  have e0 : min (val_main_v25 (F := Ideal) ids (ix3 i j 0)).toInt.toNat 7999 = Cert.Spec.idn ids i := by
    rw [v25_fst ids hr, clamp_of_lt _ (hr _)]; rfl
  have e1 : min (val_main_v25 (F := Ideal) ids (ix3 i j 1)).toInt.toNat 7999 = Cert.Spec.idn ids j := by
    rw [v25_snd ids hr, clamp_of_lt _ (hr _)]; rfl
  unfold val_main_v26
  rw [gather_at, Cert.Spec.mdAt, dif_pos ⟨hr (ix1 i), hr (ix1 j)⟩]
  congr 1
  funext a
  refine Fin.ext ?_
  match a with
  | ⟨0, _⟩ => exact e0
  | ⟨1, _⟩ => exact e1

/-- One pair's share of the numerator, read at a pair of rows. -/
theorem v35_eq (ids : IVec Cert.Spec.S1024 32) (emb : FVec Ideal Cert.Spec.S1024x128 .f32)
    (md : FVec Ideal Cert.Spec.S8000x8000 .f32) (hr : ∀ y, (ids y).toNat < 8000) (i j : Fin 1024) :
    val_main_v35 (F := Ideal) ids emb md (ix2 i j) = Cert.Spec.term ids emb md i j := by
  rw [val_main_v35_apply, val_main_v34_apply, val_main_v33_apply, v8_eq, v26_eq ids md hr, v32_eq]
  rfl

/-- The numerator: the sum of every pair's share. -/
theorem v36_eq (ids : IVec Cert.Spec.S1024 32) (emb : FVec Ideal Cert.Spec.S1024x128 .f32)
    (md : FVec Ideal Cert.Spec.S8000x8000 .f32) (hr : ∀ y, (ids y).toNat < 8000) :
    val_main_v36 (F := Ideal) ids emb md ix0
      = ∑ i : Fin 1024, ∑ j : Fin 1024, Cert.Spec.term ids emb md i j := by
  rw [val_main_v36_apply, val_main_cst_4_apply, Ideal.ofBits_def, Ideal.ofBits_zero_f32, zero_add, sum_idx2]
  exact Finset.sum_congr rfl fun i _ => Finset.sum_congr rfl fun j _ => v35_eq ids emb md hr i j

/-- The denominator: the number of pairs of two languages. -/
theorem v37_eq (ids : IVec Cert.Spec.S1024 32) :
    val_main_v37 (F := Ideal) ids ix0 = ∑ i : Fin 1024, ∑ j : Fin 1024, Cert.Spec.msk ids i j := by
  rw [val_main_v37_apply, val_main_cst_5_apply, Ideal.ofBits_def, Ideal.ofBits_zero_f32, zero_add, sum_idx2]
  exact Finset.sum_congr rfl fun i _ => Finset.sum_congr rfl fun j _ => v32_eq ids i j

/-- The last stage is the loss. -/
theorem v38_eq (ids : IVec Cert.Spec.S1024 32) (emb : FVec Ideal Cert.Spec.S1024x128 .f32)
    (md : FVec Ideal Cert.Spec.S8000x8000 .f32) (hd : Cert.Spec.Dom ids emb md) :
    val_main_v38 (F := Ideal) ids emb md = fun _ => Cert.Spec.loss ids emb md := by
  funext y
  rw [eq_ix0 y, val_main_v38_apply, v36_eq ids emb md hd.range, v37_eq ids]
  rfl

/-- Every execution of the reference ends with the loss of its arguments in the result, the arguments unchanged. -/
theorem run_spec [Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg)
    (hd : ∀ c : Dev Cert.ReferenceIdeal.nD, Cert.Spec.Dom
      (m' ((c.tc : Thread _ Cert.ReferenceIdeal.τ).loc Cert.ReferenceIdeal.main_arg0))
      (m' ((c.tc : Thread _ Cert.ReferenceIdeal.τ).loc Cert.ReferenceIdeal.main_arg1))
      (m' ((c.tc : Thread _ Cert.ReferenceIdeal.τ).loc Cert.ReferenceIdeal.main_arg2))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread _ Cert.ReferenceIdeal.τ).loc Cert.ReferenceIdeal.main_v38)
          = (fun _ => Cert.Spec.loss
              (m' ((c.tc : Thread _ Cert.ReferenceIdeal.τ).loc Cert.ReferenceIdeal.main_arg0))
              (m' ((c.tc : Thread _ Cert.ReferenceIdeal.τ).loc Cert.ReferenceIdeal.main_arg1))
              (m' ((c.tc : Thread _ Cert.ReferenceIdeal.τ).loc Cert.ReferenceIdeal.main_arg2)))
        ∧ r.2.mem ((c.tc : Thread _ Cert.ReferenceIdeal.τ).loc Cert.ReferenceIdeal.main_arg0)
            = m' ((c.tc : Thread _ Cert.ReferenceIdeal.τ).loc Cert.ReferenceIdeal.main_arg0)
        ∧ r.2.mem ((c.tc : Thread _ Cert.ReferenceIdeal.τ).loc Cert.ReferenceIdeal.main_arg1)
            = m' ((c.tc : Thread _ Cert.ReferenceIdeal.τ).loc Cert.ReferenceIdeal.main_arg1)
        ∧ r.2.mem ((c.tc : Thread _ Cert.ReferenceIdeal.τ).loc Cert.ReferenceIdeal.main_arg2)
            = m' ((c.tc : Thread _ Cert.ReferenceIdeal.τ).loc Cert.ReferenceIdeal.main_arg2)) :=
  (θ_run _ _ _).mono
    (fun _ h c => ⟨(h c).1.trans ((val_main_v38_eq _ _ _).trans (v38_eq _ _ _ (hd c))), (h c).2⟩)
    (Cert.ReferenceIdeal.Value.run (F := Ideal) m' ρ')

end Cert.RefValue

end
-- ==== Proof.PreDecode.lean ====
/-
  The printed precondition, read back into the facts the value proof uses.

  The precondition is the conjunction  all |emb| < +inf  AND  all |md| < +inf  AND  all (0 <= id < 8000, signed),
  each "all" a reduction by "and" from the constant 1, and the claim is that the result is the word 1.  A conjunction of
  one-bit words that is 1 has both conjuncts 1; a reduction by "and" that is 1 met a 1 at every position; a 32-bit word
  that is at least 0 and below 8000 as a signed number is below 8000 as a natural number; and an extended real whose
  absolute value is strictly below +inf is a real number.
-/
import proofs.«403333_j71021579206675_3_alg».proof.Pre_finite_inputs
import proofs.«403333_j71021579206675_3_alg».proof.Proof.Spec
import Idealize.ShloMosaic.Lib.ReduceAll
import Idealize.ShloMosaic.Lib.StableHlo.Predicate
import Idealize.ShloMosaic.PureOps.Ideal
import Idealize.ShloMosaic.Lib.ValueIdx

noncomputable section

namespace Cert.PreDecode

open Idealize.ShloMosaic

variable [Cert.Pre_finite_inputs.Facts]

/-- The rank-0 shape has one index. -/
instance : Subsingleton Cert.Pre_finite_inputs.S_.Idx := ⟨fun a b => funext fun d => d.elim0⟩

/-- A 32-bit word in [0, 8000) as a signed number is below 8000 as a natural number. -/
theorem toNat_lt_of_signed (w : BitVec 32) (h0 : IntOp.cmpi .sge w 0#32 = 1#1) (h1 : IntOp.cmpi .slt w 8000#32 = 1#1) :
    w.toNat < 8000 := by
  unfold IntOp.cmpi at h0 h1
  rw [StableHlo.Predicate.ofBool_eq_one_iff] at h0 h1
  simp only [BitVec.slt, BitVec.sle, decide_eq_true_eq] at h0 h1
  have e0 : (0#32).toInt = 0 := by decide
  have e1 : (8000#32).toInt = 8000 := by decide
  rw [e0] at h0; rw [e1] at h1
  have h32 := w.isLt
  have hw := BitVec.toInt_eq_toNat_cond w
  split at hw <;> omega

/-- Every id is a row of the table: the last conjunct of the precondition, at any float model. -/
theorem range_of_pre {F : FTy → Type} [FloatOps F] (ids : IVec Cert.Pre_finite_inputs.S1024 32)
    (emb : FVec F Cert.Pre_finite_inputs.S1024x128 .f32) (md : FVec F Cert.Pre_finite_inputs.S8000x8000 .f32)
    (h : Cert.Pre_finite_inputs.fn (F := F) ids emb md = (fun _ => 1#1)) :
    ∀ y : Cert.Pre_finite_inputs.S1024.Idx, (ids y).toNat < 8000 := by
  intro y
  have h0 := congrFun h ValueIdx.ix0
  dsimp only [Cert.Pre_finite_inputs.fn] at h0
  obtain ⟨_, h14⟩ := IntOp.andi_eq_one.1 h0
  have hy := Host.reduce_andi_all _ _ _ _ _ h14 y
  obtain ⟨hge, hlt⟩ := IntOp.andi_eq_one.1 hy
  exact toNat_lt_of_signed (ids y) hge hlt

/-- The pattern 0x7F800000 denotes +inf. -/
theorem inf_bits : Ideal.ofBits .f32 0x7F800000#32 = (⊤ : EReal) := by
  simp [Ideal.ofBits, Ideal.ieee]

/-- An extended real whose absolute value is strictly below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element fact of the two float conjuncts: "|x| < the constant 0x7F800000" came out 1, so x is real. -/
theorem real_of_cmp (x : EReal)
    (h : Ideal.cmp .olt (max x (-x)) (Ideal.ofBits .f32 0x7F800000#32) = 1#1) : ∃ r : ℝ, x = (r : EReal) := by
  rw [inf_bits] at h
  simp only [Ideal.cmp, StableHlo.Predicate.ofBool_eq_one_iff, decide_eq_true_eq] at h
  exact real_of_abs_lt_top x h

/-- Every embedding entry and every table entry is a real number: the first two conjuncts, in the extended reals. -/
theorem fin_of_pre (ids : IVec Cert.Pre_finite_inputs.S1024 32)
    (emb : FVec Ideal Cert.Pre_finite_inputs.S1024x128 .f32) (md : FVec Ideal Cert.Pre_finite_inputs.S8000x8000 .f32)
    (h : Cert.Pre_finite_inputs.fn (F := Ideal) ids emb md = (fun _ => 1#1)) :
    (∀ y : Cert.Pre_finite_inputs.S1024x128.Idx, ∃ r : ℝ, emb y = (r : EReal)) ∧
    (∀ y : Cert.Pre_finite_inputs.S8000x8000.Idx, ∃ r : ℝ, md y = (r : EReal)) := by
  have h0 := congrFun h ValueIdx.ix0
  dsimp only [Cert.Pre_finite_inputs.fn] at h0
  obtain ⟨h8, _⟩ := IntOp.andi_eq_one.1 h0
  obtain ⟨h3, h7⟩ := IntOp.andi_eq_one.1 h8
  exact ⟨fun y => real_of_cmp (emb y) (Host.reduce_andi_all _ _ _ _ _ h3 y),
    fun y => real_of_cmp (md y) (Host.reduce_andi_all _ _ _ _ _ h7 y)⟩

/-- The precondition, decoded into the domain the value claim is stated over. -/
theorem dom_of_pre (ids : IVec Cert.Pre_finite_inputs.S1024 32)
    (emb : FVec Ideal Cert.Pre_finite_inputs.S1024x128 .f32) (md : FVec Ideal Cert.Pre_finite_inputs.S8000x8000 .f32)
    (h : Cert.Pre_finite_inputs.fn (F := Ideal) ids emb md = (fun _ => 1#1)) : Cert.Spec.Dom ids emb md :=
  ⟨range_of_pre (F := Ideal) ids emb md h, (fin_of_pre ids emb md h).1, (fin_of_pre ids emb md h).2⟩

end Cert.PreDecode

end
-- ==== Proof.Claims.lean ====
/-
  The certificate's five claims, each from the run and value theorems of the two programs.
-/
import proofs.«403333_j71021579206675_3_alg».proof.Defs
import proofs.«403333_j71021579206675_3_alg».proof.Proof.Gen.Kernel
import proofs.«403333_j71021579206675_3_alg».proof.Proof.Gen.KernelIdeal
import proofs.«403333_j71021579206675_3_alg».proof.Proof.Gen.ReferenceIdeal
import proofs.«403333_j71021579206675_3_alg».proof.Proof.Gen.Pre_finite_inputs
import proofs.«403333_j71021579206675_3_alg».proof.Proof.K.Run
import proofs.«403333_j71021579206675_3_alg».proof.Proof.KI.Run
import proofs.«403333_j71021579206675_3_alg».proof.Proof.KI.Value
import proofs.«403333_j71021579206675_3_alg».proof.Proof.RefValue
import proofs.«403333_j71021579206675_3_alg».proof.Proof.PreDecode

noncomputable section

namespace Cert.Proof.Claims

open Idealize.ShloMosaic Idealize.ShloMosaic.TcCoe Idealize.SL.Sem

/-- The word-level program runs and leaves its arguments as launched: each read off the run's last contents. -/
theorem frame_k : Cert.frame_Kernel := fun m ρ hpre =>
  (θ_run _ _ _).mono (fun r h c =>
    ⟨(h c _ (Cert.Kernel.H.mem_uc Cert.Kernel.main_arg0 (by decide))).trans (Cert.Kernel.H.W5_main_arg0 m ρ c),
     (h c _ (Cert.Kernel.H.mem_uc Cert.Kernel.main_arg1 (by decide))).trans (Cert.Kernel.H.W5_main_arg1 m ρ c),
     (h c _ (Cert.Kernel.H.mem_uc Cert.Kernel.main_arg2 (by decide))).trans (Cert.Kernel.H.W5_main_arg2 m ρ c)⟩)
    (Cert.Kernel.H.run_all (F := Bits) m ρ (fun c y => Cert.PreDecode.range_of_pre _ _ _ (hpre c) y))

/-- The same for the program over the extended reals. -/
theorem frame_ki : Cert.frame_KernelIdeal := fun m ρ hpre =>
  (θ_run _ _ _).mono (fun r h c =>
    ⟨(h c _ (Cert.KernelIdeal.H.mem_uc Cert.KernelIdeal.main_arg0 (by decide))).trans (Cert.KernelIdeal.H.W5_main_arg0 m ρ c),
     (h c _ (Cert.KernelIdeal.H.mem_uc Cert.KernelIdeal.main_arg1 (by decide))).trans (Cert.KernelIdeal.H.W5_main_arg1 m ρ c),
     (h c _ (Cert.KernelIdeal.H.mem_uc Cert.KernelIdeal.main_arg2 (by decide))).trans (Cert.KernelIdeal.H.W5_main_arg2 m ρ c)⟩)
    (Cert.KernelIdeal.H.run_all (F := Ideal) m ρ (fun c y => Cert.PreDecode.range_of_pre _ _ _ (hpre c) y))

/-- The reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- Widening a narrowed value back is the identity over the extended reals: the one rewrite of the idealization. -/
theorem preserves : Cert.preserves_Kernel_KernelIdeal :=
  IdealRules.truncf_extf.statement Cert.KernelIdeal.S128x8000 .f32 .bf16

/-- Both programs end with the loss of their (equal) arguments in the result, the arguments unchanged. -/
theorem algebraic : Cert.algebraic_KernelIdeal_ReferenceIdeal := by
  intro m ρ m' ρ' hpre hagree
  refine ⟨fun c _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run _ _ _).mono (fun r h c =>
      ⟨(h c _ (Cert.KernelIdeal.H.mem_uc Cert.KernelIdeal.main_v16 (by decide))).trans
          (Cert.KernelIdeal.H.W5_main_v16 m ρ c (Cert.PreDecode.dom_of_pre _ _ _ (hpre c))),
       (h c _ (Cert.KernelIdeal.H.mem_uc Cert.KernelIdeal.main_arg0 (by decide))).trans (Cert.KernelIdeal.H.W5_main_arg0 m ρ c),
       (h c _ (Cert.KernelIdeal.H.mem_uc Cert.KernelIdeal.main_arg1 (by decide))).trans (Cert.KernelIdeal.H.W5_main_arg1 m ρ c),
       (h c _ (Cert.KernelIdeal.H.mem_uc Cert.KernelIdeal.main_arg2 (by decide))).trans (Cert.KernelIdeal.H.W5_main_arg2 m ρ c)⟩)
      (Cert.KernelIdeal.H.run_all (F := Ideal) m ρ (fun c y => Cert.PreDecode.range_of_pre _ _ _ (hpre c) y))
  · have hd : ∀ c : Dev Cert.ReferenceIdeal.nD, Cert.Spec.Dom
        (m' ((c.tc : Thread _ Cert.ReferenceIdeal.τ).loc Cert.ReferenceIdeal.main_arg0))
        (m' ((c.tc : Thread _ Cert.ReferenceIdeal.τ).loc Cert.ReferenceIdeal.main_arg1))
        (m' ((c.tc : Thread _ Cert.ReferenceIdeal.τ).loc Cert.ReferenceIdeal.main_arg2)) := fun c => by
      rw [(hagree c).1, (hagree c).2.1, (hagree c).2.2]
      exact Cert.PreDecode.dom_of_pre _ _ _ (hpre c)
    exact (θ_run _ _ _).mono (fun r h c =>
      ⟨(h c).1.trans (by rw [(hagree c).1, (hagree c).2.1, (hagree c).2.2]; rfl), (h c).2⟩)
      (Cert.RefValue.run_spec m' ρ' hd)

end Cert.Proof.Claims

end
-- ==== Proof.lean ====
/-
  The certificate's claim, assembled.

  Both programs compute, at the ideal values, the masked mean of |dist i j - md (id i) (id j)| over the pairs of
  embeddings with different language ids (Proof/Spec.lean). The kernel gathers the 1024 rows md (id i) · by copies of
  its own, selects the columns id j by a product with a one-hot selector (the high/low split of the rows adds a
  zero product at the ideal values), and accumulates the masked deviations tile by tile; the reference gathers
  md (id i) (id j) directly and sums once. The frames and the value claim are stated under the precondition that every
  id names a row of the table and every float input is finite.
-/
import proofs.«403333_j71021579206675_3_alg».proof.Defs
import proofs.«403333_j71021579206675_3_alg».proof.Proof.Gen.Kernel
import proofs.«403333_j71021579206675_3_alg».proof.Proof.Gen.KernelIdeal
import proofs.«403333_j71021579206675_3_alg».proof.Proof.Gen.ReferenceIdeal
import proofs.«403333_j71021579206675_3_alg».proof.Proof.Gen.Pre_finite_inputs
import proofs.«403333_j71021579206675_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
